-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg9 : FVec F S3x64 .f32) (main_arg10 : FVec F S3x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg6 : FVec F S3x64 .f32) (main_arg7 : FVec F S3x64x64 .f32) (main_arg8 : FVec F S3x64 .f32) (main_arg9 : FVec F S3x64 .f32) (main_arg10 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) (main_arg9 : FVec F S3x64 .f32) (main_arg10 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S512x64 : Shape := ⟨2, ![512, 64]⟩
abbrev S2000x64 : Shape := ⟨2, ![2000, 64]⟩
abbrev S2000x1 : Shape := ⟨2, ![2000, 1]⟩
abbrev S2000x512 : Shape := ⟨2, ![2000, 512]⟩
abbrev S512x192 : Shape := ⟨2, ![512, 192]⟩

abbrev nBuf : Space → Nat
  | .hbm => 194
  | .vmem => 99
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S1x800000, .i32⟩
  | 12 => ⟨S800000, .i32⟩
  | 13 => ⟨S1x800000, .i32⟩
  | 14 => ⟨S800000, .i32⟩
  | 15 => ⟨S50000x1, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S1x64x64, .f32⟩
  | 30 => ⟨S64x64, .f32⟩
  | 31 => ⟨S1x64, .f32⟩
  | 32 => ⟨S64, .f32⟩
  | 33 => ⟨S1x64, .f32⟩
  | 34 => ⟨S50000x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S50000x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S64, .f32⟩
  | 69 => ⟨S1x64, .f32⟩
  | 70 => ⟨S1x64, .f32⟩
  | 71 => ⟨S64, .f32⟩
  | 72 => ⟨S1x64, .f32⟩
  | 73 => ⟨S50000x64, .f32⟩
  | 74 => ⟨S512x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S50000x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S64, .f32⟩
  | 106 => ⟨S1x64, .f32⟩
  | 107 => ⟨S1x64, .f32⟩
  | 108 => ⟨S64, .f32⟩
  | 109 => ⟨S1x64, .f32⟩
  | 110 => ⟨S1x64x64, .f32⟩
  | 111 => ⟨S64x64, .f32⟩
  | 112 => ⟨S1x64, .f32⟩
  | 113 => ⟨S64, .f32⟩
  | 114 => ⟨S1x64, .f32⟩
  | 115 => ⟨S50000x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S64, .f32⟩
  | _ => ⟨S50000x64, .f32⟩

abbrev hbmTy0_1 (i : Nat) : BufTy := match i % 128 with
  | 0 => ⟨S1x64, .f32⟩
  | 1 => ⟨S1x64, .f32⟩
  | 2 => ⟨S64, .f32⟩
  | 3 => ⟨S1x64, .f32⟩
  | 4 => ⟨S50000x64, .f32⟩
  | 5 => ⟨S512x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S1x64x64, .f32⟩
  | 20 => ⟨S64x64, .f32⟩
  | 21 => ⟨S1x64, .f32⟩
  | 22 => ⟨S64, .f32⟩
  | 23 => ⟨S1x64, .f32⟩
  | 24 => ⟨S50000x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S50000x64, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x64, .f32⟩
  | 56 => ⟨S1x64, .f32⟩
  | 57 => ⟨S1x64, .f32⟩
  | 58 => ⟨S64, .f32⟩
  | 59 => ⟨S1x64, .f32⟩
  | 60 => ⟨S1x64, .f32⟩
  | 61 => ⟨S64, .f32⟩
  | 62 => ⟨S1x64, .f32⟩
  | 63 => ⟨S50000x64, .f32⟩
  | 64 => ⟨S512x64, .f32⟩
  | 65 => ⟨S512x192, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S2000x1, .i32⟩
  | .local _ .vmem, ⟨29, _⟩ => ⟨S2000x1, .i32⟩
  | .local _ .vmem, ⟨30, _⟩ => ⟨S2000x64, .f32⟩
  | .local _ .vmem, ⟨31, _⟩ => ⟨S2000x64, .f32⟩
  | .local _ .vmem, ⟨32, _⟩ => ⟨S512x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64x64, .f32⟩
  | .local _ .vmem, ⟨38, _⟩ => ⟨S1x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S64x64, .f32⟩
  | .local _ .vmem, ⟨50, _⟩ => ⟨S1x64, .f32⟩
  | .local _ .vmem, ⟨51, _⟩ => ⟨S10000x64, .f32⟩
  | .local _ .vmem, ⟨52, _⟩ => ⟨S10000x64, .f32⟩
  | .local _ .vmem, ⟨53, _⟩ => ⟨S1x64, .f32⟩
  | .local _ .vmem, ⟨54, _⟩ => ⟨S1x64, .f32⟩
  | .local _ .vmem, ⟨55, _⟩ => ⟨S2000x64, .f32⟩
  | .local _ .vmem, ⟨56, _⟩ => ⟨S2000x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S2000x1, .i32⟩
  | .local _ .vmem, ⟨62, _⟩ => ⟨S2000x1, .i32⟩
  | .local _ .vmem, ⟨63, _⟩ => ⟨S2000x64, .f32⟩
  | .local _ .vmem, ⟨64, _⟩ => ⟨S2000x64, .f32⟩
  | .local _ .vmem, ⟨65, _⟩ => ⟨S512x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S1x64, .f32⟩
  | .local _ .vmem, ⟨72, _⟩ => ⟨S10000x64, .f32⟩
  | .local _ .vmem, ⟨73, _⟩ => ⟨S10000x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S64x64, .f32⟩
  | .local _ .vmem, ⟨83, _⟩ => ⟨S1x64, .f32⟩
  | .local _ .vmem, ⟨84, _⟩ => ⟨S10000x64, .f32⟩
  | .local _ .vmem, ⟨85, _⟩ => ⟨S10000x64, .f32⟩
  | .local _ .vmem, ⟨86, _⟩ => ⟨S1x64, .f32⟩
  | .local _ .vmem, ⟨87, _⟩ => ⟨S1x64, .f32⟩
  | .local _ .vmem, ⟨88, _⟩ => ⟨S2000x64, .f32⟩
  | .local _ .vmem, ⟨89, _⟩ => ⟨S2000x64, .f32⟩
  | .local _ .vmem, ⟨90, _⟩ => ⟨S1x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S2000x1, .i32⟩
  | .local _ .vmem, ⟨95, _⟩ => ⟨S2000x1, .i32⟩
  | .local _ .vmem, ⟨96, _⟩ => ⟨S2000x64, .f32⟩
  | .local _ .vmem, ⟨97, _⟩ => ⟨S2000x64, .f32⟩
  | .local _ .vmem, ⟨98, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v38_2 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51_0 : Ref sig .tc := ⟨.hbm, 73, rfl⟩
abbrev main_v51_1 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67_0 : Ref sig .tc := ⟨.hbm, 93, rfl⟩
abbrev main_v67_1 : Ref sig .tc := ⟨.hbm, 94, rfl⟩
abbrev main_v67_2 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85_0 : Ref sig .tc := ⟨.hbm, 115, rfl⟩
abbrev main_v85_1 : Ref sig .tc := ⟨.hbm, 116, rfl⟩
abbrev main_v85_2 : Ref sig .tc := ⟨.hbm, 117, rfl⟩
abbrev main_cst_10 : Ref sig .tc := ⟨.hbm, 118, rfl⟩
abbrev main_v86 : Ref sig .tc := ⟨.hbm, 119, rfl⟩
abbrev main_v87 : Ref sig .tc := ⟨.hbm, 120, rfl⟩
abbrev main_cst_11 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98_0 : Ref sig .tc := ⟨.hbm, 132, rfl⟩
abbrev main_v98_1 : Ref sig .tc := ⟨.hbm, 133, rfl⟩
abbrev main_c_12 : Ref sig .tc := ⟨.hbm, 134, rfl⟩
abbrev main_v99 : Ref sig .tc := ⟨.hbm, 135, rfl⟩
abbrev main_v100 : Ref sig .tc := ⟨.hbm, 136, rfl⟩
abbrev main_c_13 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_14 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114_0 : Ref sig .tc := ⟨.hbm, 152, rfl⟩
abbrev main_v114_1 : Ref sig .tc := ⟨.hbm, 153, rfl⟩
abbrev main_v114_2 : Ref sig .tc := ⟨.hbm, 154, rfl⟩
abbrev main_cst_15 : Ref sig .tc := ⟨.hbm, 155, rfl⟩
abbrev main_v115 : Ref sig .tc := ⟨.hbm, 156, rfl⟩
abbrev main_v116 : Ref sig .tc := ⟨.hbm, 157, rfl⟩
abbrev main_cst_16 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132_0 : Ref sig .tc := ⟨.hbm, 174, rfl⟩
abbrev main_v132_1 : Ref sig .tc := ⟨.hbm, 175, rfl⟩
abbrev main_v132_2 : Ref sig .tc := ⟨.hbm, 176, rfl⟩
abbrev main_cst_17 : Ref sig .tc := ⟨.hbm, 177, rfl⟩
abbrev main_v133 : Ref sig .tc := ⟨.hbm, 178, rfl⟩
abbrev main_v134 : Ref sig .tc := ⟨.hbm, 179, rfl⟩
abbrev main_cst_18 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145_0 : Ref sig .tc := ⟨.hbm, 191, rfl⟩
abbrev main_v145_1 : Ref sig .tc := ⟨.hbm, 192, rfl⟩
abbrev main_v146 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg6_0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc4_stg8_0 : Ref sig .tc := ⟨.vmem, 53, rfl⟩
abbrev cc4_stg9_0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc5_stg6_0 : Ref sig .tc := ⟨.vmem, 63, rfl⟩
abbrev cc5_stg6_1 : Ref sig .tc := ⟨.vmem, 64, rfl⟩
abbrev cc5_stg7_0 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg4_1 : Ref sig .tc := ⟨.vmem, 73, rfl⟩
abbrev cc6_stg5_0 : Ref sig .tc := ⟨.vmem, 74, rfl⟩
abbrev cc6_stg6_0 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc7_stg7_0 : Ref sig .tc := ⟨.vmem, 84, rfl⟩
abbrev cc7_stg7_1 : Ref sig .tc := ⟨.vmem, 85, rfl⟩
abbrev cc7_stg8_0 : Ref sig .tc := ⟨.vmem, 86, rfl⟩
abbrev cc7_stg9_0 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg2_0 : Ref sig .tc := ⟨.vmem, 91, rfl⟩
abbrev cc8_stg3_0 : Ref sig .tc := ⟨.vmem, 92, rfl⟩
abbrev cc8_stg4_0 : Ref sig .tc := ⟨.vmem, 93, rfl⟩
abbrev cc8_stg5_0 : Ref sig .tc := ⟨.vmem, 94, rfl⟩
abbrev cc8_stg5_1 : Ref sig .tc := ⟨.vmem, 95, rfl⟩
abbrev cc8_stg6_0 : Ref sig .tc := ⟨.vmem, 96, rfl⟩
abbrev cc8_stg6_1 : Ref sig .tc := ⟨.vmem, 97, rfl⟩
abbrev cc8_stg7_0 : Ref sig .tc := ⟨.vmem, 98, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem6_0 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc4_sem8_0 : DmaSem sig := 53
abbrev cc4_sem9_0 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc5_sem6_0 : DmaSem sig := 63
abbrev cc5_sem6_1 : DmaSem sig := 64
abbrev cc5_sem7_0 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem4_1 : DmaSem sig := 73
abbrev cc6_sem5_0 : DmaSem sig := 74
abbrev cc6_sem6_0 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem6_0 : DmaSem sig := 83
abbrev cc7_sem7_0 : DmaSem sig := 84
abbrev cc7_sem7_1 : DmaSem sig := 85
abbrev cc7_sem8_0 : DmaSem sig := 86
abbrev cc7_sem9_0 : DmaSem sig := 87
abbrev cc8_sem0_0 : DmaSem sig := 88
abbrev cc8_sem0_1 : DmaSem sig := 89
abbrev cc8_sem1_0 : DmaSem sig := 90
abbrev cc8_sem2_0 : DmaSem sig := 91
abbrev cc8_sem3_0 : DmaSem sig := 92
abbrev cc8_sem4_0 : DmaSem sig := 93
abbrev cc8_sem5_0 : DmaSem sig := 94
abbrev cc8_sem5_1 : DmaSem sig := 95
abbrev cc8_sem6_0 : DmaSem sig := 96
abbrev cc8_sem6_1 : DmaSem sig := 97
abbrev cc8_sem7_0 : DmaSem sig := 98

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S512x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S512x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x1 .i32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S2000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S512x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x64_S512x64 : S512x64.ShapeCasts S512x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S512x64_S512x64_S512x64_S512x192_d1 : Shape.Concatenates [S512x64, S512x64, S512x64] S512x192 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S2000x512_S2000x64_S512x64_0_0_1_1_n_n_wf : DotDims.WF S2000x512 S2000x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .i32 = 32 ∨ (Rect.block (s := S50000x1) S2000x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x64.size a ≤ S512x64.size a
  hwx2_7 : ∀ i : grid2.Coords, EltTy.bits .f32 = 32 ∨ (Rect.block (s := S512x64) S512x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S50000x64.size a
  hwx4_7 : ∀ i : grid4.Coords, EltTy.bits .f32 = 32 ∨ (Rect.block (s := S50000x64) S10000x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S50000x1.size a
  hwx5_5 : ∀ i : grid5.Coords, EltTy.bits .i32 = 32 ∨ (Rect.block (s := S50000x1) S2000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x64.size a ≤ S512x64.size a
  hwx5_7 : ∀ i : grid5.Coords, EltTy.bits .f32 = 32 ∨ (Rect.block (s := S512x64) S512x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S50000x64.size a
  hwx6_1 : ∀ i : grid6.Coords, EltTy.bits .f32 = 32 ∨ (Rect.block (s := S50000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S50000x64.size a
  hwx6_4 : ∀ i : grid6.Coords, EltTy.bits .f32 = 32 ∨ (Rect.block (s := S50000x64) S10000x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x64.size a ≤ S50000x64.size a
  hwx7_7 : ∀ i : grid7.Coords, EltTy.bits .f32 = 32 ∨ (Rect.block (s := S50000x64) S10000x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x64.size a ≤ S1x64.size a
  hwx7_9 : ∀ i : grid7.Coords, EltTy.bits .f32 = 32 ∨ (Rect.block (s := S1x64) S1x64.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x1.size a ≤ S50000x1.size a
  hwx8_5 : ∀ i : grid8.Coords, EltTy.bits .i32 = 32 ∨ (Rect.block (s := S50000x1) S2000x1.size (cc8_transform_5 i) (hinb8_5 i)).WholeWords (EltTy.packing .i32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x64.size a ≤ S50000x64.size a
  hwx8_6 : ∀ i : grid8.Coords, EltTy.bits .f32 = 32 ∨ (Rect.block (s := S50000x64) S2000x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S512x64.size a ≤ S512x64.size a
  hwx8_7 : ∀ i : grid8.Coords, EltTy.bits .f32 = 32 ∨ (Rect.block (s := S512x64) S512x64.size (cc8_transform_7 i) (hinb8_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v38_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v38_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_0) S2000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v51_1) S512x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v67_1) S1x64.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67_2) S1x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v85_0) S10000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v85_1) S1x64.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v85_2) S1x64.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v85_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v98_0) S2000x64.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v98_1) S512x64.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v98_0) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v110) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v114_0) S10000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v114_1) S1x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v114_2) S1x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v114_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v123) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v128) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v131) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v132_0) S10000x64.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v132_1) S1x64.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v132_2) S1x64.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v132_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v134) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v138) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v141) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v144) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v4) S2000x1.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v145_0) S2000x64.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v145_1) S512x64.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S50000x1 : Shape := ⟨2, ![50000, 1]⟩
abbrev S512x192 : Shape := ⟨2, ![512, 192]⟩

abbrev nBuf : Space → Nat
  | .hbm => 424
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x64, .f32⟩
  | 29 => ⟨S1x64x64, .f32⟩
  | 30 => ⟨S64x64, .f32⟩
  | 31 => ⟨S50000x64, .f32⟩
  | 32 => ⟨S1x64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S64, .f32⟩
  | 43 => ⟨S_, .f32⟩
  | 44 => ⟨S64, .f32⟩
  | 45 => ⟨S64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S50000x64, .f32⟩
  | 54 => ⟨S50000x64, .f32⟩
  | 55 => ⟨S50000x64, .f32⟩
  | 56 => ⟨S_, .f32⟩
  | 57 => ⟨S_, .f32⟩
  | 58 => ⟨S_, .f32⟩
  | 59 => ⟨S_, .f32⟩
  | 60 => ⟨S64, .f32⟩
  | 61 => ⟨S64, .f32⟩
  | 62 => ⟨S64, .f32⟩
  | 63 => ⟨S_, .f32⟩
  | 64 => ⟨S_, .i1⟩
  | 65 => ⟨S_, .f32⟩
  | 66 => ⟨S_, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S_, .f32⟩
  | 73 => ⟨S64, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S1x64x64, .f32⟩
  | 89 => ⟨S64x64, .f32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S1x64, .f32⟩
  | 97 => ⟨S64, .f32⟩
  | 98 => ⟨S1x64, .f32⟩
  | 99 => ⟨S64, .f32⟩
  | 100 => ⟨S_, .f32⟩
  | 101 => ⟨S64, .f32⟩
  | 102 => ⟨S_, .f32⟩
  | 103 => ⟨S64, .f32⟩
  | 104 => ⟨S64, .f32⟩
  | 105 => ⟨S_, .i32⟩
  | 106 => ⟨S_, .f32⟩
  | 107 => ⟨S64, .f32⟩
  | 108 => ⟨S1x64, .f32⟩
  | 109 => ⟨S_, .f32⟩
  | 110 => ⟨S1x64, .f32⟩
  | 111 => ⟨S1x64, .f32⟩
  | 112 => ⟨S50000x64, .f32⟩
  | 113 => ⟨S50000x64, .f32⟩
  | 114 => ⟨S50000x64, .f32⟩
  | 115 => ⟨S_, .f32⟩
  | 116 => ⟨S_, .f32⟩
  | 117 => ⟨S_, .f32⟩
  | 118 => ⟨S_, .f32⟩
  | 119 => ⟨S64, .f32⟩
  | 120 => ⟨S64, .f32⟩
  | 121 => ⟨S64, .f32⟩
  | 122 => ⟨S_, .f32⟩
  | 123 => ⟨S_, .i1⟩
  | 124 => ⟨S_, .f32⟩
  | 125 => ⟨S_, .f32⟩
  | 126 => ⟨S64, .f32⟩
  | 127 => ⟨S64, .f32⟩
  | _ => ⟨S50000x64, .f32⟩

abbrev hbmTy0_1 (i : Nat) : BufTy := match i % 128 with
  | 0 => ⟨S1x64, .f32⟩
  | 1 => ⟨S50000x64, .f32⟩
  | 2 => ⟨S50000x64, .f32⟩
  | 3 => ⟨S_, .f32⟩
  | 4 => ⟨S64, .f32⟩
  | 5 => ⟨S64, .f32⟩
  | 6 => ⟨S64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S_, .f32⟩
  | 20 => ⟨S512x64, .f32⟩
  | 21 => ⟨S50000x1, .i32⟩
  | 22 => ⟨S512x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S50000x64, .f32⟩
  | 37 => ⟨S1x64x64, .f32⟩
  | 38 => ⟨S64x64, .f32⟩
  | 39 => ⟨S50000x64, .f32⟩
  | 40 => ⟨S1x64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S64, .f32⟩
  | 47 => ⟨S1x64, .f32⟩
  | 48 => ⟨S64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S50000x64, .f32⟩
  | 62 => ⟨S50000x64, .f32⟩
  | 63 => ⟨S50000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S50000x64, .f32⟩
  | 79 => ⟨S50000x64, .f32⟩
  | 80 => ⟨S_, .f32⟩
  | 81 => ⟨S64, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S1x64x64, .f32⟩
  | 97 => ⟨S64x64, .f32⟩
  | 98 => ⟨S50000x64, .f32⟩
  | 99 => ⟨S1x64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S64, .f32⟩
  | 106 => ⟨S1x64, .f32⟩
  | 107 => ⟨S64, .f32⟩
  | 108 => ⟨S_, .f32⟩
  | 109 => ⟨S64, .f32⟩
  | 110 => ⟨S_, .f32⟩
  | 111 => ⟨S64, .f32⟩
  | 112 => ⟨S64, .f32⟩
  | 113 => ⟨S_, .i32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S50000x64, .f32⟩
  | 121 => ⟨S50000x64, .f32⟩
  | 122 => ⟨S50000x64, .f32⟩
  | 123 => ⟨S_, .f32⟩
  | 124 => ⟨S_, .f32⟩
  | 125 => ⟨S_, .f32⟩
  | 126 => ⟨S_, .f32⟩
  | 127 => ⟨S64, .f32⟩
  | _ => ⟨S50000x64, .f32⟩

abbrev hbmTy0_2 (i : Nat) : BufTy := match i % 128 with
  | 0 => ⟨S64, .f32⟩
  | 1 => ⟨S64, .f32⟩
  | 2 => ⟨S_, .f32⟩
  | 3 => ⟨S_, .i1⟩
  | 4 => ⟨S_, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .f32⟩
  | 28 => ⟨S512x64, .f32⟩
  | 29 => ⟨S50000x1, .i32⟩
  | 30 => ⟨S512x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S50000x64, .f32⟩
  | 45 => ⟨S1x64x64, .f32⟩
  | 46 => ⟨S64x64, .f32⟩
  | 47 => ⟨S50000x64, .f32⟩
  | 48 => ⟨S1x64, .f32⟩
  | 49 => ⟨S64, .f32⟩
  | 50 => ⟨S1x64, .f32⟩
  | 51 => ⟨S50000x64, .f32⟩
  | 52 => ⟨S50000x64, .f32⟩
  | 53 => ⟨S1x64, .f32⟩
  | 54 => ⟨S64, .f32⟩
  | 55 => ⟨S1x64, .f32⟩
  | 56 => ⟨S64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S50000x64, .f32⟩
  | 70 => ⟨S50000x64, .f32⟩
  | 71 => ⟨S50000x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S50000x64, .f32⟩
  | 87 => ⟨S50000x64, .f32⟩
  | 88 => ⟨S_, .f32⟩
  | 89 => ⟨S64, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S1x64x64, .f32⟩
  | 105 => ⟨S64x64, .f32⟩
  | 106 => ⟨S50000x64, .f32⟩
  | 107 => ⟨S1x64, .f32⟩
  | 108 => ⟨S64, .f32⟩
  | 109 => ⟨S1x64, .f32⟩
  | 110 => ⟨S50000x64, .f32⟩
  | 111 => ⟨S50000x64, .f32⟩
  | 112 => ⟨S1x64, .f32⟩
  | 113 => ⟨S64, .f32⟩
  | 114 => ⟨S1x64, .f32⟩
  | 115 => ⟨S64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S50000x64, .f32⟩

abbrev hbmTy0_3 (i : Nat) : BufTy := match i % 128 with
  | 0 => ⟨S50000x64, .f32⟩
  | 1 => ⟨S50000x64, .f32⟩
  | 2 => ⟨S50000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S_, .f32⟩
  | 36 => ⟨S512x64, .f32⟩
  | 37 => ⟨S50000x1, .i32⟩
  | 38 => ⟨S512x64, .f32⟩
  | 39 => ⟨S512x192, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call1_cst : Ref sig .tc := ⟨.hbm, 85, rfl⟩
abbrev main_call1_v0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_5 : Ref sig .tc := ⟨.hbm, 100, rfl⟩
abbrev main_v59 : Ref sig .tc := ⟨.hbm, 101, rfl⟩
abbrev main_cst_6 : Ref sig .tc := ⟨.hbm, 102, rfl⟩
abbrev main_v60 : Ref sig .tc := ⟨.hbm, 103, rfl⟩
abbrev main_v61 : Ref sig .tc := ⟨.hbm, 104, rfl⟩
abbrev main_c_7 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_cst_3 : Ref sig .tc := ⟨.hbm, 122, rfl⟩
abbrev main_call2_v12 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_8 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_call3_cst : Ref sig .tc := ⟨.hbm, 144, rfl⟩
abbrev main_call3_v0 : Ref sig .tc := ⟨.hbm, 145, rfl⟩
abbrev main_v78 : Ref sig .tc := ⟨.hbm, 146, rfl⟩
abbrev main_cst_9 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_10 : Ref sig .tc := ⟨.hbm, 151, rfl⟩
abbrev main_v82 : Ref sig .tc := ⟨.hbm, 152, rfl⟩
abbrev main_v83 : Ref sig .tc := ⟨.hbm, 153, rfl⟩
abbrev main_c_11 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_12 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_13 : Ref sig .tc := ⟨.hbm, 177, rfl⟩
abbrev main_v105 : Ref sig .tc := ⟨.hbm, 178, rfl⟩
abbrev main_cst_14 : Ref sig .tc := ⟨.hbm, 179, rfl⟩
abbrev main_v106 : Ref sig .tc := ⟨.hbm, 180, rfl⟩
abbrev main_v107 : Ref sig .tc := ⟨.hbm, 181, rfl⟩
abbrev main_c_15 : Ref sig .tc := ⟨.hbm, 182, rfl⟩
abbrev main_call4_cst : Ref sig .tc := ⟨.hbm, 183, rfl⟩
abbrev main_call4_v0 : Ref sig .tc := ⟨.hbm, 184, rfl⟩
abbrev main_call4_v1 : Ref sig .tc := ⟨.hbm, 185, rfl⟩
abbrev main_call4_cst_0 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_v6 : Ref sig .tc := ⟨.hbm, 191, rfl⟩
abbrev main_call4_v7 : Ref sig .tc := ⟨.hbm, 192, rfl⟩
abbrev main_call4_cst_1 : Ref sig .tc := ⟨.hbm, 193, rfl⟩
abbrev main_call4_v8 : Ref sig .tc := ⟨.hbm, 194, rfl⟩
abbrev main_call4_cst_2 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_cst_3 : Ref sig .tc := ⟨.hbm, 199, rfl⟩
abbrev main_call4_v12 : Ref sig .tc := ⟨.hbm, 200, rfl⟩
abbrev main_call4_cst_4 : Ref sig .tc := ⟨.hbm, 201, rfl⟩
abbrev main_call4_call0_v0 : Ref sig .tc := ⟨.hbm, 202, rfl⟩
abbrev main_call4_call0_v1 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_cst_16 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_call5_cst : Ref sig .tc := ⟨.hbm, 221, rfl⟩
abbrev main_call5_v0 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_cst_17 : Ref sig .tc := ⟨.hbm, 236, rfl⟩
abbrev main_v137 : Ref sig .tc := ⟨.hbm, 237, rfl⟩
abbrev main_cst_18 : Ref sig .tc := ⟨.hbm, 238, rfl⟩
abbrev main_v138 : Ref sig .tc := ⟨.hbm, 239, rfl⟩
abbrev main_v139 : Ref sig .tc := ⟨.hbm, 240, rfl⟩
abbrev main_c_19 : Ref sig .tc := ⟨.hbm, 241, rfl⟩
abbrev main_call6_cst : Ref sig .tc := ⟨.hbm, 242, rfl⟩
abbrev main_call6_v0 : Ref sig .tc := ⟨.hbm, 243, rfl⟩
abbrev main_call6_v1 : Ref sig .tc := ⟨.hbm, 244, rfl⟩
abbrev main_call6_cst_0 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_call6_v5 : Ref sig .tc := ⟨.hbm, 249, rfl⟩
abbrev main_call6_v6 : Ref sig .tc := ⟨.hbm, 250, rfl⟩
abbrev main_call6_v7 : Ref sig .tc := ⟨.hbm, 251, rfl⟩
abbrev main_call6_cst_1 : Ref sig .tc := ⟨.hbm, 252, rfl⟩
abbrev main_call6_v8 : Ref sig .tc := ⟨.hbm, 253, rfl⟩
abbrev main_call6_cst_2 : Ref sig .tc := ⟨.hbm, 254, rfl⟩
abbrev main_call6_v9 : Ref sig .tc := ⟨.hbm, 255, rfl⟩
abbrev main_call6_v10 : Ref sig .tc := ⟨.hbm, 256, rfl⟩
abbrev main_call6_v11 : Ref sig .tc := ⟨.hbm, 257, rfl⟩
abbrev main_call6_cst_3 : Ref sig .tc := ⟨.hbm, 258, rfl⟩
abbrev main_call6_v12 : Ref sig .tc := ⟨.hbm, 259, rfl⟩
abbrev main_call6_cst_4 : Ref sig .tc := ⟨.hbm, 260, rfl⟩
abbrev main_call6_call0_v0 : Ref sig .tc := ⟨.hbm, 261, rfl⟩
abbrev main_call6_call0_v1 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_cst_20 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_call7_cst : Ref sig .tc := ⟨.hbm, 280, rfl⟩
abbrev main_call7_v0 : Ref sig .tc := ⟨.hbm, 281, rfl⟩
abbrev main_v156 : Ref sig .tc := ⟨.hbm, 282, rfl⟩
abbrev main_cst_21 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_c_22 : Ref sig .tc := ⟨.hbm, 287, rfl⟩
abbrev main_v160 : Ref sig .tc := ⟨.hbm, 288, rfl⟩
abbrev main_v161 : Ref sig .tc := ⟨.hbm, 289, rfl⟩
abbrev main_c_23 : Ref sig .tc := ⟨.hbm, 290, rfl⟩
abbrev main_v162 : Ref sig .tc := ⟨.hbm, 291, rfl⟩
abbrev main_v163 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_cst_24 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_cst_25 : Ref sig .tc := ⟨.hbm, 313, rfl⟩
abbrev main_v183 : Ref sig .tc := ⟨.hbm, 314, rfl⟩
abbrev main_cst_26 : Ref sig .tc := ⟨.hbm, 315, rfl⟩
abbrev main_v184 : Ref sig .tc := ⟨.hbm, 316, rfl⟩
abbrev main_v185 : Ref sig .tc := ⟨.hbm, 317, rfl⟩
abbrev main_c_27 : Ref sig .tc := ⟨.hbm, 318, rfl⟩
abbrev main_call8_cst : Ref sig .tc := ⟨.hbm, 319, rfl⟩
abbrev main_call8_v0 : Ref sig .tc := ⟨.hbm, 320, rfl⟩
abbrev main_call8_v1 : Ref sig .tc := ⟨.hbm, 321, rfl⟩
abbrev main_call8_cst_0 : Ref sig .tc := ⟨.hbm, 322, rfl⟩
abbrev main_call8_v2 : Ref sig .tc := ⟨.hbm, 323, rfl⟩
abbrev main_call8_v3 : Ref sig .tc := ⟨.hbm, 324, rfl⟩
abbrev main_call8_v4 : Ref sig .tc := ⟨.hbm, 325, rfl⟩
abbrev main_call8_v5 : Ref sig .tc := ⟨.hbm, 326, rfl⟩
abbrev main_call8_v6 : Ref sig .tc := ⟨.hbm, 327, rfl⟩
abbrev main_call8_v7 : Ref sig .tc := ⟨.hbm, 328, rfl⟩
abbrev main_call8_cst_1 : Ref sig .tc := ⟨.hbm, 329, rfl⟩
abbrev main_call8_v8 : Ref sig .tc := ⟨.hbm, 330, rfl⟩
abbrev main_call8_cst_2 : Ref sig .tc := ⟨.hbm, 331, rfl⟩
abbrev main_call8_v9 : Ref sig .tc := ⟨.hbm, 332, rfl⟩
abbrev main_call8_v10 : Ref sig .tc := ⟨.hbm, 333, rfl⟩
abbrev main_call8_v11 : Ref sig .tc := ⟨.hbm, 334, rfl⟩
abbrev main_call8_cst_3 : Ref sig .tc := ⟨.hbm, 335, rfl⟩
abbrev main_call8_v12 : Ref sig .tc := ⟨.hbm, 336, rfl⟩
abbrev main_call8_cst_4 : Ref sig .tc := ⟨.hbm, 337, rfl⟩
abbrev main_call8_call0_v0 : Ref sig .tc := ⟨.hbm, 338, rfl⟩
abbrev main_call8_call0_v1 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_v189 : Ref sig .tc := ⟨.hbm, 343, rfl⟩
abbrev main_cst_28 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_v201 : Ref sig .tc := ⟨.hbm, 356, rfl⟩
abbrev main_call9_cst : Ref sig .tc := ⟨.hbm, 357, rfl⟩
abbrev main_call9_v0 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_v206 : Ref sig .tc := ⟨.hbm, 363, rfl⟩
abbrev main_v207 : Ref sig .tc := ⟨.hbm, 364, rfl⟩
abbrev main_v208 : Ref sig .tc := ⟨.hbm, 365, rfl⟩
abbrev main_v209 : Ref sig .tc := ⟨.hbm, 366, rfl⟩
abbrev main_v210 : Ref sig .tc := ⟨.hbm, 367, rfl⟩
abbrev main_v211 : Ref sig .tc := ⟨.hbm, 368, rfl⟩
abbrev main_v212 : Ref sig .tc := ⟨.hbm, 369, rfl⟩
abbrev main_v213 : Ref sig .tc := ⟨.hbm, 370, rfl⟩
abbrev main_v214 : Ref sig .tc := ⟨.hbm, 371, rfl⟩
abbrev main_cst_29 : Ref sig .tc := ⟨.hbm, 372, rfl⟩
abbrev main_v215 : Ref sig .tc := ⟨.hbm, 373, rfl⟩
abbrev main_cst_30 : Ref sig .tc := ⟨.hbm, 374, rfl⟩
abbrev main_v216 : Ref sig .tc := ⟨.hbm, 375, rfl⟩
abbrev main_v217 : Ref sig .tc := ⟨.hbm, 376, rfl⟩
abbrev main_c_31 : Ref sig .tc := ⟨.hbm, 377, rfl⟩
abbrev main_call10_cst : Ref sig .tc := ⟨.hbm, 378, rfl⟩
abbrev main_call10_v0 : Ref sig .tc := ⟨.hbm, 379, rfl⟩
abbrev main_call10_v1 : Ref sig .tc := ⟨.hbm, 380, rfl⟩
abbrev main_call10_cst_0 : Ref sig .tc := ⟨.hbm, 381, rfl⟩
abbrev main_call10_v2 : Ref sig .tc := ⟨.hbm, 382, rfl⟩
abbrev main_call10_v3 : Ref sig .tc := ⟨.hbm, 383, rfl⟩
abbrev main_call10_v4 : Ref sig .tc := ⟨.hbm, 384, rfl⟩
abbrev main_call10_v5 : Ref sig .tc := ⟨.hbm, 385, rfl⟩
abbrev main_call10_v6 : Ref sig .tc := ⟨.hbm, 386, rfl⟩
abbrev main_call10_v7 : Ref sig .tc := ⟨.hbm, 387, rfl⟩
abbrev main_call10_cst_1 : Ref sig .tc := ⟨.hbm, 388, rfl⟩
abbrev main_call10_v8 : Ref sig .tc := ⟨.hbm, 389, rfl⟩
abbrev main_call10_cst_2 : Ref sig .tc := ⟨.hbm, 390, rfl⟩
abbrev main_call10_v9 : Ref sig .tc := ⟨.hbm, 391, rfl⟩
abbrev main_call10_v10 : Ref sig .tc := ⟨.hbm, 392, rfl⟩
abbrev main_call10_v11 : Ref sig .tc := ⟨.hbm, 393, rfl⟩
abbrev main_call10_cst_3 : Ref sig .tc := ⟨.hbm, 394, rfl⟩
abbrev main_call10_v12 : Ref sig .tc := ⟨.hbm, 395, rfl⟩
abbrev main_call10_cst_4 : Ref sig .tc := ⟨.hbm, 396, rfl⟩
abbrev main_call10_call0_v0 : Ref sig .tc := ⟨.hbm, 397, rfl⟩
abbrev main_call10_call0_v1 : Ref sig .tc := ⟨.hbm, 398, rfl⟩
abbrev main_v218 : Ref sig .tc := ⟨.hbm, 399, rfl⟩
abbrev main_v219 : Ref sig .tc := ⟨.hbm, 400, rfl⟩
abbrev main_v220 : Ref sig .tc := ⟨.hbm, 401, rfl⟩
abbrev main_v221 : Ref sig .tc := ⟨.hbm, 402, rfl⟩
abbrev main_cst_32 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_v228 : Ref sig .tc := ⟨.hbm, 410, rfl⟩
abbrev main_v229 : Ref sig .tc := ⟨.hbm, 411, rfl⟩
abbrev main_v230 : Ref sig .tc := ⟨.hbm, 412, rfl⟩
abbrev main_v231 : Ref sig .tc := ⟨.hbm, 413, rfl⟩
abbrev main_v232 : Ref sig .tc := ⟨.hbm, 414, rfl⟩
abbrev main_v233 : Ref sig .tc := ⟨.hbm, 415, rfl⟩
abbrev main_call11_cst : Ref sig .tc := ⟨.hbm, 416, rfl⟩
abbrev main_call11_v0 : Ref sig .tc := ⟨.hbm, 417, rfl⟩
abbrev main_v234 : Ref sig .tc := ⟨.hbm, 418, rfl⟩
abbrev main_cst_33 : Ref sig .tc := ⟨.hbm, 419, rfl⟩
abbrev main_v235 : Ref sig .tc := ⟨.hbm, 420, rfl⟩
abbrev main_v236 : Ref sig .tc := ⟨.hbm, 421, rfl⟩
abbrev main_v237 : Ref sig .tc := ⟨.hbm, 422, rfl⟩
abbrev main_v238 : Ref sig .tc := ⟨.hbm, 423, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S50000_S50000x1_0 : S50000.BroadcastsInDim S50000x1 (![0] : Fin 1 → Fin S50000x1.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S512x64_S512x64_S512x64_S512x192_d1 : Shape.Concatenates [S512x64, S512x64, S512x64] S512x192 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf

class Facts : Prop extends Facts₀ where

variable [Facts]
-- ==== Proof.Kernel.Region0.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc0__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat0`), shows the body runs to them from what the pipeline hands it
(`body_obligation0`), for every float interpretation `F`. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column sums after point `n`: the zero row updated by the product tiles of points `0 … n` in turn. -/
def sums0 (c : Dev nD) : (n : ℕ) → n < cfg0.N → Vec F S1x64 .f32
  | 0, hn => k0_pay4 (iblk0 V c 0 ⟨0, hn⟩) (iblk0 V c 1 ⟨0, hn⟩) (iblk0 V c 2 ⟨0, hn⟩) (iblk0 V c 3 ⟨0, hn⟩) (k0_pay1 (F := F))
  | n + 1, hn => k0_pay4 (iblk0 V c 0 ⟨n + 1, hn⟩) (iblk0 V c 1 ⟨n + 1, hn⟩) (iblk0 V c 2 ⟨n + 1, hn⟩) (iblk0 V c 3 ⟨n + 1, hn⟩)
      (sums0 c n (Nat.lt_of_succ_lt hn))

/-- The running column sums of squares after point `n`, likewise. -/
def sqs0 (c : Dev nD) : (n : ℕ) → n < cfg0.N → Vec F S1x64 .f32
  | 0, hn => k0_pay5 (iblk0 V c 0 ⟨0, hn⟩) (iblk0 V c 1 ⟨0, hn⟩) (iblk0 V c 2 ⟨0, hn⟩) (iblk0 V c 3 ⟨0, hn⟩) (k0_pay2 (F := F))
  | n + 1, hn => k0_pay5 (iblk0 V c 0 ⟨n + 1, hn⟩) (iblk0 V c 1 ⟨n + 1, hn⟩) (iblk0 V c 2 ⟨n + 1, hn⟩) (iblk0 V c 3 ⟨n + 1, hn⟩)
      (sqs0 c n (Nat.lt_of_succ_lt hn))

/-! ## The pipeline's proof data -/

/-- On core `c`: the arrays as the region finds them; after the body at point `t` an input's buffer at its block,
    the product window's at the product tile of the four input blocks, the two running rows' at `sums0` and `sqs0`;
    the invariant is the rest of the core's state, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 1 t) (iblk0 V c 2 t) (iblk0 V c 3 t)
    | ⟨5, _⟩ => sums0 V c t.val t.isLt
    | ⟨6, _⟩ => sqs0 V c t.val t.isLt
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! ## What the body leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- The product window holds the product tile of the point's four input blocks. -/
theorem after0_4 (c : Dev nD) (t : Fin cfg0.N) :
    (dat0 V c).after 4 t = k0_pay3 (iblk0 V c 0 t) (iblk0 V c 1 t) (iblk0 V c 2 t) (iblk0 V c 3 t) := by dsimp only [dat0]

/-- The column sums at the first point: the zero row updated by the first product tile. -/
theorem after0_5_first (c : Dev nD) (t : Fin cfg0.N) (h : t.val = 0) :
    (dat0 V c).after 5 t = k0_pay4 (iblk0 V c 0 t) (iblk0 V c 1 t) (iblk0 V c 2 t) (iblk0 V c 3 t) (k0_pay1 (F := F)) := by
  dsimp only [dat0]
  obtain ⟨n, hn⟩ := t
  cases n with
  | zero => exact rfl
  | succ n => exact absurd h (Nat.succ_ne_zero n)

/-- The column sums at a later point: what the point before left, updated by this point's product tile. -/
theorem after0_5_later (c : Dev nD) (t : Fin cfg0.N) (h : t.val ≠ 0) :
    (dat0 V c).after 5 t = k0_pay4 (iblk0 V c 0 t) (iblk0 V c 1 t) (iblk0 V c 2 t) (iblk0 V c 3 t)
      ((dat0 V c).after 5 ⟨t.val - 1, Nat.lt_of_le_of_lt (Nat.sub_le _ _) t.isLt⟩) := by
  dsimp only [dat0]
  obtain ⟨n, hn⟩ := t
  cases n with
  | zero => exact absurd rfl h
  | succ n => exact rfl

/-- The column sums of squares at the first point. -/
theorem after0_6_first (c : Dev nD) (t : Fin cfg0.N) (h : t.val = 0) :
    (dat0 V c).after 6 t = k0_pay5 (iblk0 V c 0 t) (iblk0 V c 1 t) (iblk0 V c 2 t) (iblk0 V c 3 t) (k0_pay2 (F := F)) := by
  dsimp only [dat0]
  obtain ⟨n, hn⟩ := t
  cases n with
  | zero => exact rfl
  | succ n => exact absurd h (Nat.succ_ne_zero n)

/-- The column sums of squares at a later point. -/
theorem after0_6_later (c : Dev nD) (t : Fin cfg0.N) (h : t.val ≠ 0) :
    (dat0 V c).after 6 t = k0_pay5 (iblk0 V c 0 t) (iblk0 V c 1 t) (iblk0 V c 2 t) (iblk0 V c 3 t)
      ((dat0 V c).after 6 ⟨t.val - 1, Nat.lt_of_le_of_lt (Nat.sub_le _ _) t.isLt⟩) := by
  dsimp only [dat0]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- At a later point a running row's buffer holds what the body left at the point before: the row is written back
    at the last point only, its block never moves, and it is never idle or cut. -/
theorem before0_5_later (c : Dev nD) (t : Fin cfg0.N) (h : t.val ≠ 0) (d) :
    (dat0 V c).before 5 t d = (dat0 V c).after 5 ⟨t.val - 1, Nat.lt_of_le_of_lt (Nat.sub_le _ _) t.isLt⟩ := by
  have hN : t.val < 5 := lt_of_lt_of_eq t.isLt (show cfg0.N = 5 from N_0)
  exact Dat.before_out_kept _ 5 rfl t h
    (Bool.eq_false_iff.mpr fun hf => by have := (flush0_5 _).mp hf; dsimp only at this; omega)
    (fun _ => rfl) (fun _ _ => rfl) d
theorem before0_6_later (c : Dev nD) (t : Fin cfg0.N) (h : t.val ≠ 0) (d) :
    (dat0 V c).before 6 t d = (dat0 V c).after 6 ⟨t.val - 1, Nat.lt_of_le_of_lt (Nat.sub_le _ _) t.isLt⟩ := by
  have hN : t.val < 5 := lt_of_lt_of_eq t.isLt (show cfg0.N = 5 from N_0)
  exact Dat.before_out_kept _ 6 rfl t h
    (Bool.eq_false_iff.mpr fun hf => by have := (flush0_6 _).mp hf; dsimp only at this; omega)
    (fun _ => rfl) (fun _ _ => rfl) d

/-! ## The body's branch -/

/-- The condition of the body's one conditional, as the body computes it from the grid coordinate: "this is point 0". -/
abbrev cond0 (i : grid0.Coords) : Prop :=
  (Scalar.cmpi .ne (Scalar.extui (Scalar.cmpi .eq (BitVec.ofNat 32 (i 0).val) 0#32)) 0#32) = 1#1

/-- It holds at the first point and at no other (decided over the five points). -/
theorem hcond0 : ∀ t : Fin cfg0.N, cond0 (grid0.coords t) ↔ t.val = 0 :=
  (by decide +kernel : ∀ t : Fin grid0.N, cond0 (grid0.coords t) ↔ t.val = 0)

/-- The offsets of a whole-buffer access are all zero. -/
theorem offs0_zero : (![0, 0] : Fin 2 → Nat) = fun _ => 0 := funext fun a => by fin_cases a <;> rfl

/-- A buffer whose LAST store goes through the whole-buffer rectangle reads back that store's payload, whatever the
    earlier stores and the prior contents were. -/
theorem read_last0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel0_first (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond0 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k0_pay3 xh xg xw xb)
            ∗ owns (c : Thread nD τ) arg6 fullShare (k0_pay4 xh xg xw xb (k0_pay1 (F := F)))
            ∗ owns (c : Thread nD τ) arg7 fullShare (k0_pay5 xh xg xw xb (k0_pay2 (F := F)))) -∗ K ⟨⟩))
      ⊢ wp frame (wpE (defs₀ (F := F)) Variants.none c none) E (cc0__linear_stats_kernel i arg1 harg1 arg2 harg2 arg3 harg3 arg4 harg4 arg5 harg5 arg6 harg6 arg7 harg7) K := by
  simp only [cc0__linear_stats_kernel_eq_skeleton]; unfold cc0__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  isplitl [Hs]
  · iexists _; isplitr
    swap; · iexact Hs
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  · iexists _; isplitr
    swap; · iexact Hq
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]

set_option maxHeartbeats 2000000 in
/-- AT A LATER POINT. The same, the branch not taken, with the two running rows' buffers at given contents `ps pq`:
    each row ends at its update of what it held. -/
theorem sound_kernel0_later (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond0 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k0_pay3 xh xg xw xb)
            ∗ owns (c : Thread nD τ) arg6 fullShare (k0_pay4 xh xg xw xb ps)
            ∗ owns (c : Thread nD τ) arg7 fullShare (k0_pay5 xh xg xw xb pq)) -∗ K ⟨⟩))
      ⊢ wp frame (wpE (defs₀ (F := F)) Variants.none c none) E (cc0__linear_stats_kernel i arg1 harg1 arg2 harg2 arg3 harg3 arg4 harg4 arg5 harg5 arg6 harg6 arg7 harg7) K := by
  simp only [cc0__linear_stats_kernel_eq_skeleton]; unfold cc0__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  isplitl [Hs]
  · iexists _; isplitr
    swap; · iexact Hs
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  · iexists _; isplitr
    swap; · iexact Hq
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h : t.val = 0
  · rw [after0_5_first V c t h, after0_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel0_first c Set.univ (grid0.coords t) _ _ _ _ _ _ _ _ _ _ _ _ _ _ ((hcond0 t).mpr h)
      (iblk0 V c 0 t) (iblk0 V c 1 t) (iblk0 V c 2 t) (iblk0 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after0_5_later V c t h, after0_6_later V c t h]
    simp only [before0_5_later V c t h, before0_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel0_later c Set.univ (grid0.coords t) _ _ _ _ _ _ _ _ _ _ _ _ _ _ (fun hc => h ((hcond0 t).mp hc))
      (iblk0 V c 0 t) (iblk0 V c 1 t) (iblk0 V c 2 t) (iblk0 V c 3 t)
      ((dat0 V c).after 5 ⟨t.val - 1, Nat.lt_of_le_of_lt (Nat.sub_le _ _) t.isLt⟩)
      ((dat0 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.Kernel.Region1.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The seven input blocks at their literal vector types: the first linear map's tile, the mean, the variance, the
    scale, the shift, the second weight matrix, the second bias. -/
abbrev blk1_0 (c : Dev nD) (t : Fin cfg1.N) : Vec F S10000x64 .f32 := iblk1 V c 0 t
abbrev blk1_1 (c : Dev nD) (t : Fin cfg1.N) : Vec F S1x64 .f32 := iblk1 V c 1 t
abbrev blk1_2 (c : Dev nD) (t : Fin cfg1.N) : Vec F S1x64 .f32 := iblk1 V c 2 t
abbrev blk1_3 (c : Dev nD) (t : Fin cfg1.N) : Vec F S1x64 .f32 := iblk1 V c 3 t
abbrev blk1_4 (c : Dev nD) (t : Fin cfg1.N) : Vec F S1x64 .f32 := iblk1 V c 4 t
abbrev blk1_5 (c : Dev nD) (t : Fin cfg1.N) : Vec F S64x64 .f32 := iblk1 V c 5 t
abbrev blk1_6 (c : Dev nD) (t : Fin cfg1.N) : Vec F S1x64 .f32 := iblk1 V c 6 t

/-! ## The branch on the first tile -/

/-- The condition of the body's one conditional, from the grid coordinate: the tile number compared with zero,
    widened and compared again, as the body computes it. -/
abbrev cond1_0 (i : grid1.Coords) : Prop :=
  (Scalar.cmpi .ne (Scalar.extui (Scalar.cmpi .eq (BitVec.ofNat 32 (i 0).val) 0#32)) 0#32) = 1#1

/-- It holds at the first tile and at no other: decided over the five tiles. -/
theorem hcond1_0 : ∀ t : Fin cfg1.N, cond1_0 (grid1.coords t) ↔ t.val = 0 :=
  (by decide +kernel : ∀ t : Fin grid1.N, cond1_0 (grid1.coords t) ↔ t.val = 0)

/-! ## The staging memrefs the body is called with -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run1_A (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc1__bn_linear_stats_kernel i ma ha mb hb mc hc md hd me he mf hf mg hg mh hh mi hi mj hj) K } := by
  refine ⟨?_, ?_, ?_, fun E K => ?run⟩
  case run =>
    simp only [cc1__bn_linear_stats_kernel_eq_skeleton]; unfold cc1__bn_linear_stats_kernel_skel
    simp only [k1_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run1_B (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc1__bn_linear_stats_kernel i ma ha mb hb mc hc md hd me he mf hf mg hg mh hh mi hi mj hj) K } := by
  refine ⟨?_, ?_, ?_, fun E K => ?run⟩
  case run =>
    simp only [cc1__bn_linear_stats_kernel_eq_skeleton]; unfold cc1__bn_linear_stats_kernel_skel
    simp only [k1_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover1_A_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S10000x64.Idx) :
    ∃ pc ∈ (run1_A c i ma ha mb hb mc hc md hd me he mf hf mg hg mh hh mi hi mj hj hz xa xb xc xd xe xf xg).1, y ∈ pc.1.set :=
  View.cover_of_tiledL (run1_A c i ma ha mb hb mc hc md hd me he mf hf mg hg mh hh mi hi mj hj hz xa xb xc xd xe xf xg).1 S10000x64.size (by sl_kernel_rfl) y
theorem cover1_A_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S1x64.Idx) :
    ∃ pc ∈ (run1_A c i ma ha mb hb mc hc md hd me he mf hf mg hg mh hh mi hi mj hj hz xa xb xc xd xe xf xg).2.1, y ∈ pc.1.set :=
  View.cover_of_tiledL (run1_A c i ma ha mb hb mc hc md hd me he mf hf mg hg mh hh mi hi mj hj hz xa xb xc xd xe xf xg).2.1 S1x64.size (by sl_kernel_rfl) y
theorem cover1_A_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S1x64.Idx) :
    ∃ pc ∈ (run1_A c i ma ha mb hb mc hc md hd me he mf hf mg hg mh hh mi hi mj hj hz xa xb xc xd xe xf xg).2.2.1, y ∈ pc.1.set :=
  View.cover_of_tiledL (run1_A c i ma ha mb hb mc hc md hd me he mf hf mg hg mh hh mi hi mj hj hz xa xb xc xd xe xf xg).2.2.1 S1x64.size (by sl_kernel_rfl) y
theorem cover1_B_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run1_B c i ma ha mb hb mc hc md hd me he mf hf mg hg mh hh mi hi mj hj hz xa xb xc xd xe xf xg yi yj).1, y ∈ pc.1.set :=
  View.cover_of_tiledL (run1_B c i ma ha mb hb mc hc md hd me he mf hf mg hg mh hh mi hi mj hj hz xa xb xc xd xe xf xg yi yj).1 S10000x64.size (by sl_kernel_rfl) y
theorem cover1_B_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run1_B c i ma ha mb hb mc hc md hd me he mf hf mg hg mh hh mi hi mj hj hz xa xb xc xd xe xf xg yi yj).2.1, y ∈ pc.1.set :=
  View.cover_of_tiledL (run1_B c i ma ha mb hb mc hc md hd me he mf hf mg hg mh hh mi hi mj hj hz xa xb xc xd xe xf xg yi yj).2.1 S1x64.size (by sl_kernel_rfl) y
theorem cover1_B_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run1_B c i ma ha mb hb mc hc md hd me he mf hf mg hg mh hh mi hi mj hj hz xa xb xc xd xe xf xg yi yj).2.2.1, y ∈ pc.1.set :=
  View.cover_of_tiledL (run1_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out1_A (c : Dev nD) (t : Fin cfg1.N) (hz : cond1_0 (grid1.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).1,
   View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).2.1,
   View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).2.2.1)

/-- The same at a later tile, over the accumulators' running contents `yi`, `yj`. -/
def out1_B (c : Dev nD) (t : Fin cfg1.N) (hz : ¬cond1_0 (grid1.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).1,
   View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).2.1,
   View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt1 (c : Dev nD) : (n : ℕ) → n < cfg1.N → Vec F S10000x64 .f32 × Vec F S1x64 .f32 × Vec F S1x64 .f32
  | 0, hn => out1_A c ⟨0, hn⟩ ((hcond1_0 ⟨0, hn⟩).mpr rfl)
      (blk1_0 V c ⟨0, hn⟩) (blk1_1 V c ⟨0, hn⟩) (blk1_2 V c ⟨0, hn⟩) (blk1_3 V c ⟨0, hn⟩) (blk1_4 V c ⟨0, hn⟩) (blk1_5 V c ⟨0, hn⟩) (blk1_6 V c ⟨0, hn⟩)
  | n + 1, hn => out1_B c ⟨n + 1, hn⟩ (fun h => Nat.succ_ne_zero n ((hcond1_0 ⟨n + 1, hn⟩).mp h))
      (blk1_0 V c ⟨n + 1, hn⟩) (blk1_1 V c ⟨n + 1, hn⟩) (blk1_2 V c ⟨n + 1, hn⟩) (blk1_3 V c ⟨n + 1, hn⟩) (blk1_4 V c ⟨n + 1, hn⟩) (blk1_5 V c ⟨n + 1, hn⟩) (blk1_6 V c ⟨n + 1, hn⟩)
      (outsAt1 c n (Nat.lt_of_succ_lt hn)).2.1 (outsAt1 c n (Nat.lt_of_succ_lt hn)).2.2

/-- `outsAt1` at the first tile. -/
theorem outsAt1_first (c : Dev nD) (t : Fin cfg1.N) (h0 : t.val = 0) :
    outsAt1 V c t.val t.isLt = out1_A c t ((hcond1_0 t).mpr h0)
      (blk1_0 V c t) (blk1_1 V c t) (blk1_2 V c t) (blk1_3 V c t) (blk1_4 V c t) (blk1_5 V c t) (blk1_6 V c t) := by
  obtain ⟨n, hn⟩ := t
  cases n with
  | zero => exact rfl
  | succ n => exact absurd h0 (Nat.succ_ne_zero n)

/-- `outsAt1` at a later tile, over what the tile before left. -/
theorem outsAt1_later (c : Dev nD) (t : Fin cfg1.N) (h0 : ¬t.val = 0) :
    outsAt1 V c t.val t.isLt = out1_B c t (fun h => h0 ((hcond1_0 t).mp h))
      (blk1_0 V c t) (blk1_1 V c t) (blk1_2 V c t) (blk1_3 V c t) (blk1_4 V c t) (blk1_5 V c t) (blk1_6 V c t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data on core `c`: the arrays as the region finds them; after the body at tile `t` each input's buffer
    at its block and the three outputs' at `outsAt1`; the invariant holds the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := Pipeline.ΦA spec1 c
  q _ := fullShare
  owed _ := 0

/-- The proof data's arrays are the entry contents (the definition projected, never unfolded further). -/
theorem A_eq1 (c : Dev nD) (w : Fin cfg1.W) : (dat1 V c).A w = V c (Pipeline.arrRef spec1 w) := by
  dsimp only [dat1]

/-- What the body leaves, window by window: an input's block; an output's component of `outsAt1`. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem afterRaw1_7 (c : Dev nD) (t : Fin cfg1.N) : (dat1 V c).after 7 t = (outsAt1 V c t.val t.isLt).1 := by dsimp only [dat1]
theorem afterRaw1_8 (c : Dev nD) (t : Fin cfg1.N) : (dat1 V c).after 8 t = (outsAt1 V c t.val t.isLt).2.1 := by dsimp only [dat1]
theorem afterRaw1_9 (c : Dev nD) (t : Fin cfg1.N) : (dat1 V c).after 9 t = (outsAt1 V c t.val t.isLt).2.2 := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- At a later tile the column-sum accumulator's staging buffer holds what the body left at the tile before: the
    buffer is written back at the last tile only, and the window is neither idle nor cut. -/
theorem before1_8_later (c : Dev nD) (t : Fin cfg1.N) (h0 : ¬t.val = 0) (d) :
    (dat1 V c).before 8 t d = (outsAt1 V c (t.val - 1) (Nat.lt_of_le_of_lt (Nat.sub_le _ _) t.isLt)).2.1 := by
  have hN : t.val < 5 := lt_of_lt_of_eq t.isLt (show cfg1.N = 5 from N_1)
  rw [Dat.before_out_kept _ 8 rfl t h0 (Bool.eq_false_iff.mpr fun h => by have := (flush1_8 _).mp h; dsimp only at this; omega)
    (fun _ => rfl) (fun _ _ => rfl)]
  dsimp only [dat1]
/-- The same for the accumulator of squares. -/
theorem before1_9_later (c : Dev nD) (t : Fin cfg1.N) (h0 : ¬t.val = 0) (d) :
    (dat1 V c).before 9 t d = (outsAt1 V c (t.val - 1) (Nat.lt_of_le_of_lt (Nat.sub_le _ _) t.isLt)).2.2 := by
  have hN : t.val < 5 := lt_of_lt_of_eq t.isLt (show cfg1.N = 5 from N_1)
  rw [Dat.before_out_kept _ 9 rfl t h0 (Bool.eq_false_iff.mpr fun h => by have := (flush1_9 _).mp h; dsimp only at this; omega)
    (fun _ => rfl) (fun _ _ => rfl)]
  dsimp only [dat1]

/-! ## The body obligation at a tile -/

/-- What the body is called with at tile `t`: the invariant, the core's debt, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, afterRaw1_7, afterRaw1_8, afterRaw1_9]
  by_cases h0 : t.val = 0
  · rw [outsAt1_first V c t h0]
    unfold out1_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run1_A c (grid1.coords t) _ _ _ _ _ _ _ _ _ _ _ _ _ _ _ _ _ _ _ _ ((hcond1_0 t).mpr h0)
      (blk1_0 V c t) (blk1_1 V c t) (blk1_2 V c t) (blk1_3 V c t) (blk1_4 V c t) (blk1_5 V c t) (blk1_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover1_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover1_A_8 c _ _ _ _ _ _ _ _ _ _ _ _ _ _ _ _ _ _ _ _ _ _ _ _ _ _ _ _ _)
    unfold owns; iexists _; isplitr
    swap; · iexact Hj
    ipureintro; exact View.read_writes_eq_canon _ _ _ (cover1_A_9 c _ _ _ _ _ _ _ _ _ _ _ _ _ _ _ _ _ _ _ _ _ _ _ _ _ _ _ _ _)
  · rw [outsAt1_later V c t h0]
    simp only [before1_8_later V c t h0, before1_9_later V c t h0]
    unfold out1_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run1_B c (grid1.coords t) _ _ _ _ _ _ _ _ _ _ _ _ _ _ _ _ _ _ _ _ (fun h => h0 ((hcond1_0 t).mp h))
      (blk1_0 V c t) (blk1_1 V c t) (blk1_2 V c t) (blk1_3 V c t) (blk1_4 V c t) (blk1_5 V c t) (blk1_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover1_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover1_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover1_B_9 c _ _ _ _ _ _ _ _ _ _ _ _ _ _ _ _ _ _ _ _ _ _ _ _ _ _ _ _ _ _ _)

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero1 : (![0, 0] : Fin 2 → Nat) = fun _ => 0 := by
  funext a
  match a with
  | ⟨0, _⟩ => rfl
  | ⟨1, _⟩ => rfl

/-- First tile, tile output: the normalised, rectified tile through the second linear map. -/
theorem piece1_A_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).1 = k1_pay5 xa xc xb xd xe xf xg := by
  unfold run1_A
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- First tile, column sums: zero, read back, plus the tile output's column sums. -/
theorem piece1_A_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).2.1 = k1_pay1 (k1_pay5 xa xc xb xd xe xf xg) (k1_pay3 (F := F)) := by
  unfold run1_A
  dsimp only
  sl_unfold_words
  rw [View.canon_cons_unit_zero (S := S1x64) hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- First tile, column sums of squares. -/
theorem piece1_A_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).2.2.1 = k1_pay2 (k1_pay5 xa xc xb xd xe xf xg) (k1_pay4 (F := F)) := by
  unfold run1_A
  dsimp only
  sl_unfold_words
  rw [View.canon_cons_unit_zero (S := S1x64) hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, tile output. -/
theorem piece1_B_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).1 = k1_pay5 xa xc xb xd xe xf xg := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, column sums: the running sums plus the tile output's column sums. -/
theorem piece1_B_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).2.1 = k1_pay1 (k1_pay5 xa xc xb xd xe xf xg) yi := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, column sums of squares. -/
theorem piece1_B_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).2.2.1 = k1_pay2 (k1_pay5 xa xc xb xd xe xf xg) yj := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after1_7 (c : Dev nD) (t : Fin cfg1.N) :
    (dat1 V c).after 7 t = k1_pay5 (iblk1 V c 0 t) (iblk1 V c 2 t) (iblk1 V c 1 t) (iblk1 V c 3 t) (iblk1 V c 4 t) (iblk1 V c 5 t) (iblk1 V c 6 t) := by
  rw [afterRaw1_7]
  by_cases h0 : t.val = 0
  · rw [outsAt1_first V c t h0]
    unfold out1_A
    dsimp only
    exact piece1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (blk1_0 V c t) (blk1_1 V c t) (blk1_2 V c t) (blk1_3 V c t) (blk1_4 V c t) (blk1_5 V c t) (blk1_6 V c t)
  · rw [outsAt1_later V c t h0]
    unfold out1_B
    dsimp only
    exact piece1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (blk1_0 V c t) (blk1_1 V c t) (blk1_2 V c t) (blk1_3 V c t) (blk1_4 V c t) (blk1_5 V c t) (blk1_6 V c t)
      (outsAt1 V c (t.val - 1) (Nat.lt_of_le_of_lt (Nat.sub_le _ _) t.isLt)).2.1 (outsAt1 V c (t.val - 1) (Nat.lt_of_le_of_lt (Nat.sub_le _ _) t.isLt)).2.2

/-- The column sums after the first tile. -/
theorem after1_8_first (c : Dev nD) (t : Fin cfg1.N) (h : t.val = 0) :
    (dat1 V c).after 8 t = k1_pay1 (k1_pay5 (iblk1 V c 0 t) (iblk1 V c 2 t) (iblk1 V c 1 t) (iblk1 V c 3 t) (iblk1 V c 4 t) (iblk1 V c 5 t) (iblk1 V c 6 t)) (k1_pay3 (F := F)) := by
  rw [afterRaw1_8, outsAt1_first V c t h]
  unfold out1_A
  dsimp only
  exact piece1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (blk1_0 V c t) (blk1_1 V c t) (blk1_2 V c t) (blk1_3 V c t) (blk1_4 V c t) (blk1_5 V c t) (blk1_6 V c t)

/-- The column sums after a later tile, from those after the tile before. -/
theorem after1_8_later (c : Dev nD) (t : Fin cfg1.N) (h : t.val ≠ 0) :
    (dat1 V c).after 8 t = k1_pay1 (k1_pay5 (iblk1 V c 0 t) (iblk1 V c 2 t) (iblk1 V c 1 t) (iblk1 V c 3 t) (iblk1 V c 4 t) (iblk1 V c 5 t) (iblk1 V c 6 t)) ((dat1 V c).after 8 ⟨t.val - 1, Nat.lt_of_le_of_lt (Nat.sub_le _ _) t.isLt⟩) := by
  rw [afterRaw1_8, afterRaw1_8, outsAt1_later V c t h]
  unfold out1_B
  dsimp only
  exact piece1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h' => h ((hcond1_0 t).mp h')) (blk1_0 V c t) (blk1_1 V c t) (blk1_2 V c t) (blk1_3 V c t) (blk1_4 V c t) (blk1_5 V c t) (blk1_6 V c t)
    (outsAt1 V c (t.val - 1) (Nat.lt_of_le_of_lt (Nat.sub_le _ _) t.isLt)).2.1 (outsAt1 V c (t.val - 1) (Nat.lt_of_le_of_lt (Nat.sub_le _ _) t.isLt)).2.2

/-- The column sums of squares after the first tile. -/
theorem after1_9_first (c : Dev nD) (t : Fin cfg1.N) (h : t.val = 0) :
    (dat1 V c).after 9 t = k1_pay2 (k1_pay5 (iblk1 V c 0 t) (iblk1 V c 2 t) (iblk1 V c 1 t) (iblk1 V c 3 t) (iblk1 V c 4 t) (iblk1 V c 5 t) (iblk1 V c 6 t)) (k1_pay4 (F := F)) := by
  rw [afterRaw1_9, outsAt1_first V c t h]
  unfold out1_A
  dsimp only
  exact piece1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (blk1_0 V c t) (blk1_1 V c t) (blk1_2 V c t) (blk1_3 V c t) (blk1_4 V c t) (blk1_5 V c t) (blk1_6 V c t)

/-- The column sums of squares after a later tile, from those after the tile before. -/
theorem after1_9_later (c : Dev nD) (t : Fin cfg1.N) (h : t.val ≠ 0) :
    (dat1 V c).after 9 t = k1_pay2 (k1_pay5 (iblk1 V c 0 t) (iblk1 V c 2 t) (iblk1 V c 1 t) (iblk1 V c 3 t) (iblk1 V c 4 t) (iblk1 V c 5 t) (iblk1 V c 6 t)) ((dat1 V c).after 9 ⟨t.val - 1, Nat.lt_of_le_of_lt (Nat.sub_le _ _) t.isLt⟩) := by
  rw [afterRaw1_9, afterRaw1_9, outsAt1_later V c t h]
  unfold out1_B
  dsimp only
  exact piece1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h' => h ((hcond1_0 t).mp h')) (blk1_0 V c t) (blk1_1 V c t) (blk1_2 V c t) (blk1_3 V c t) (blk1_4 V c t) (blk1_5 V c t) (blk1_6 V c t)
    (outsAt1 V c (t.val - 1) (Nat.lt_of_le_of_lt (Nat.sub_le _ _) t.isLt)).2.1 (outsAt1 V c (t.val - 1) (Nat.lt_of_le_of_lt (Nat.sub_le _ _) t.isLt)).2.2

end Cert.Kernel.Gen

end
-- ==== Proof.Kernel.Region2.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the block was fetched there or
    kept from the point before (its index has not moved then), for any proof data whose array is the entry contents
    and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the coordinate is zero. -/
abbrev cond2_0 (i : grid2.Coords) : Prop := (Scalar.cmpi .ne (Scalar.extui (Scalar.cmpi .eq (BitVec.ofNat 32 (i 0).val) 0#32)) 0#32) = 1#1
/-- It holds at the first point only (decided over the grid). -/
theorem hcond2_0 : ∀ t : Fin cfg2.N, cond2_0 (grid2.coords t) ↔ t.val % 25 = 0 :=
  (by decide +kernel : ∀ t : Fin grid2.N, cond2_0 (grid2.coords t) ↔ t.val % 25 = 0)

/-! ## The staging memrefs -/

/-- One staging buffer of each output window, through which its contents are stated (the choice does not matter:
    a covering list of pieces reads back the same through any view). -/
abbrev VO2_6 : View sig .tc .vmem S2000x64 .f32 := (Memref.whole cc2_stg6_0 : Memref sig .tc .vmem S2000x64 .f32).view
abbrev VO2_7 : View sig .tc .vmem S512x64 .f32 := (Memref.whole cc2_stg7_0 : Memref sig .tc .vmem S512x64 .f32).view
/-- Each window's current staging memref at point `t`, spelled as the pipeline passes it to the body, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x64 .f32 := win2_7.stage (cfg2.slots t 7)
abbrev hs2_7 (t : Fin cfg2.N) : (ms2_7 t).IsWhole := hstage2_7 ((cfg2.slots t 7).cast nbuf2_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun2_A (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc2__bn_pool_kernel i mL hmL mM hmM mV hmV mG hmG mB hmB mI hmI mH hmH mP hmP) K } := by
  refine ⟨?_, ?_, fun E K => ?run⟩
  case run =>
    simp only [cc2__bn_pool_kernel_eq_skeleton]; unfold cc2__bn_pool_kernel_skel
    simp only [k2_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun2_B (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc2__bn_pool_kernel i mL hmL mM hmM mV hmV mG hmG mB hmB mI hmI mH hmH mP hmP) K } := by
  refine ⟨?_, ?_, fun E K => ?run⟩
  case run =>
    simp only [cc2__bn_pool_kernel_eq_skeleton]; unfold cc2__bn_pool_kernel_skel
    simp only [k2_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover2_A_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun2_A c i mL hmL mM hmM mV hmV mG hmG mB hmB mI hmI mH hmH mP hmP hc xL xM xV xG xB xI).1, y ∈ pc.1.set :=
  View.cover_of_tiledL (kernelRun2_A c i mL hmL mM hmM mV hmV mG hmG mB hmB mI hmI mH hmH mP hmP hc xL xM xV xG xB xI).1 S2000x64.size (by sl_kernel_rfl) y

/-- What case A leaves in output window 6's staging buffer: its pieces read back. -/
def out2_A_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO2_6.read (Elt F) (VO2_6.writes (Elt F) VO2_6.junk (kernelRun2_A c i mL hmL mM hmM mV hmV mG hmG mB hmB mI hmI mH hmH mP hmP hc xL xM xV xG xB xI).1)

/-- The pieces case A finds for output window 7 tile its block, so they cover it. -/
theorem cover2_A_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun2_A c i mL hmL mM hmM mV hmV mG hmG mB hmB mI hmI mH hmH mP hmP hc xL xM xV xG xB xI).2.1, y ∈ pc.1.set :=
  View.cover_of_tiledL (kernelRun2_A c i mL hmL mM hmM mV hmV mG hmG mB hmB mI hmI mH hmH mP hmP hc xL xM xV xG xB xI).2.1 S512x64.size (by sl_kernel_rfl) y

/-- What case A leaves in output window 7's staging buffer: its pieces read back. -/
def out2_A_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO2_7.read (Elt F) (VO2_7.writes (Elt F) VO2_7.junk (kernelRun2_A c i mL hmL mM hmM mV hmV mG hmG mB hmB mI hmI mH hmH mP hmP hc xL xM xV xG xB xI).2.1)

/-- The pieces case B finds for output window 6 tile its block, so they cover it. -/
theorem cover2_B_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun2_B c i mL hmL mM hmM mV hmV mG hmG mB hmB mI hmI mH hmH mP hmP hc xL xM xV xG xB xI xP).1, y ∈ pc.1.set :=
  View.cover_of_tiledL (kernelRun2_B c i mL hmL mM hmM mV hmV mG hmG mB hmB mI hmI mH hmH mP hmP hc xL xM xV xG xB xI xP).1 S2000x64.size (by sl_kernel_rfl) y

/-- What case B leaves in output window 6's staging buffer: its pieces read back. -/
def out2_B_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO2_6.read (Elt F) (VO2_6.writes (Elt F) VO2_6.junk (kernelRun2_B c i mL hmL mM hmM mV hmV mG hmG mB hmB mI hmI mH hmH mP hmP hc xL xM xV xG xB xI xP).1)

/-- The pieces case B finds for output window 7 tile its block, so they cover it. -/
theorem cover2_B_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun2_B c i mL hmL mM hmM mV hmV mG hmG mB hmB mI hmI mH hmH mP hmP hc xL xM xV xG xB xI xP).2.1, y ∈ pc.1.set :=
  View.cover_of_tiledL (kernelRun2_B c i mL hmL mM hmM mV hmV mG hmG mB hmB mI hmI mH hmH mP hmP hc xL xM xV xG xB xI xP).2.1 S512x64.size (by sl_kernel_rfl) y

/-- What case B leaves in output window 7's staging buffer: its pieces read back. -/
def out2_B_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO2_7.read (Elt F) (VO2_7.writes (Elt F) VO2_7.junk (kernelRun2_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt2 (c : Dev nD) : (n : ℕ) → n < cfg2.N → Vec F S2000x64 .f32 × Vec F S512x64 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at the point of case A: that case's contents. -/
theorem outsAt2_A (c : Dev nD) (t : Fin cfg2.N) (h0 : t.val % 25 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 25 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt2`; the invariant that of a body with no
    state of its own (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem afterAt2_6 (c : Dev nD) (t : Fin cfg2.N) : (dat2 V c).after 6 t = (outsAt2 V c t.val t.isLt).1 := by dsimp only [dat2]
theorem afterAt2_7 (c : Dev nD) (t : Fin cfg2.N) : (dat2 V c).after 7 t = (outsAt2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
/-- At a point of case B the pooled window's staging buffer holds what the body left at the point before: the point
    is not the first, the buffer was not written back between (only the last point writes it back), the window is
    live and uncut. -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, afterAt2_6, afterAt2_7]
  have hN : t.val < 25 := lt_of_lt_of_eq t.isLt (show cfg2.N = 25 from N_2)
  by_cases h0 : t.val % 25 = 0
  · rw [outsAt2_A V c t h0]
    (try dsimp only)
    unfold out2_A_6 out2_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover2_A_6 c _ _ _ _ _ _ _ _ _ _ _ _ _ _ _ _ _ _ _ _ _ _ _ _)
    unfold owns; iexists _; isplitr
    swap; · iexact HP
    ipureintro; exact View.read_writes_of_cover _ _ _ _ _ (cover2_A_7 c _ _ _ _ _ _ _ _ _ _ _ _ _ _ _ _ _ _ _ _ _ _ _ _)
  · rw [outsAt2_B V c t h0]
    simp only [before2_7_B V c t h0]
    (try dsimp only)
    unfold out2_B_6 out2_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover2_B_6 c _ _ _ _ _ _ _ _ _ _ _ _ _ _ _ _ _ _ _ _ _ _ _ _ _)
    unfold owns; iexists _; isplitr
    swap; · iexact HP
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs2 : (![0, 0] : Fin 2 → Nat) = fun _ => 0 := funext fun a => by fin_cases a <;> rfl

/-- Case A leaves the normalised, clamped tile in the tile output: its one covering store's payload, whose loads read
    the whole input buffers. -/
theorem out2_A_6_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    out2_A_6 c i mL hmL mM hmM mV hmV mG hmG mB hmB mI hmI mH hmH mP hmP hc xL xM xV xG xB xI = k2_pay3 xL xV xM xG xB := by
  unfold out2_A_6
  rw [View.read_writes_eq_canon _ _ _ (cover2_A_6 c i mL hmL mM hmM mV hmV mG hmG mB hmB mI hmI mH hmH mP hmP hc xL xM xV xG xB xI)]
  unfold kernelRun2_A
  dsimp only
  sl_unfold_words
  rw [View.canon_unit_zero zeroOffs2]
  simp only [View.readAt_eq_ld, hmL.read_unread, hmM.read_unread, hmV.read_unread, hmG.read_unread, hmB.read_unread, hmI.read_unread, View.ld_unit_zero (S := S2000x64) zeroOffs2, View.ld_unit_zero (S := S1x64) zeroOffs2, View.ld_unit_zero (S := S2000x1) zeroOffs2, View.ld_unit_zero (S := S512x64) zeroOffs2]

/-- Case A leaves in the pooled block the tile's contraction added to the zero block: the reset store is read back
    whole, and the last store covers the block. -/
theorem out2_A_7_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    out2_A_7 c i mL hmL mM hmM mV hmV mG hmG mB hmB mI hmI mH hmH mP hmP hc xL xM xV xG xB xI = k2_pay1 (k2_pay4 xL xV xM xG xB xI) (k2_pay2 (F := F)) := by
  unfold out2_A_7
  rw [View.read_writes_eq_canon _ _ _ (cover2_A_7 c i mL hmL mM hmM mV hmV mG hmG mB hmB mI hmI mH hmH mP hmP hc xL xM xV xG xB xI)]
  unfold kernelRun2_A
  dsimp only
  sl_unfold_words
  rw [View.canon_cons_unit_zero (S := S512x64) zeroOffs2, View.readCov_unit_zero (S := S512x64) _ zeroOffs2]
  simp only [View.readAt_eq_ld, hmL.read_unread, hmM.read_unread, hmV.read_unread, hmG.read_unread, hmB.read_unread, hmI.read_unread, View.ld_unit_zero (S := S2000x64) zeroOffs2, View.ld_unit_zero (S := S1x64) zeroOffs2, View.ld_unit_zero (S := S2000x1) zeroOffs2, View.ld_unit_zero (S := S512x64) zeroOffs2]

/-- Case B leaves the same tile payload in the tile output. -/
theorem out2_B_6_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out2_B_6 c i mL hmL mM hmM mV hmV mG hmG mB hmB mI hmI mH hmH mP hmP hc xL xM xV xG xB xI xP = k2_pay3 xL xV xM xG xB := by
  unfold out2_B_6
  rw [View.read_writes_eq_canon _ _ _ (cover2_B_6 c i mL hmL mM hmM mV hmV mG hmG mB hmB mI hmI mH hmH mP hmP hc xL xM xV xG xB xI xP)]
  unfold kernelRun2_B
  dsimp only
  sl_unfold_words
  rw [View.canon_unit_zero zeroOffs2]
  simp only [View.readAt_eq_ld, hmL.read_unread, hmM.read_unread, hmV.read_unread, hmG.read_unread, hmB.read_unread, hmI.read_unread, hmP.read_unread, View.ld_unit_zero (S := S2000x64) zeroOffs2, View.ld_unit_zero (S := S1x64) zeroOffs2, View.ld_unit_zero (S := S2000x1) zeroOffs2, View.ld_unit_zero (S := S512x64) zeroOffs2]

/-- Case B leaves in the pooled block the tile's contraction added to what the block held. -/
theorem out2_B_7_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out2_B_7 c i mL hmL mM hmM mV hmV mG hmG mB hmB mI hmI mH hmH mP hmP hc xL xM xV xG xB xI xP = k2_pay1 (k2_pay4 xL xV xM xG xB xI) xP := by
  unfold out2_B_7
  rw [View.read_writes_eq_canon _ _ _ (cover2_B_7 c i mL hmL mM hmM mV hmV mG hmG mB hmB mI hmI mH hmH mP hmP hc xL xM xV xG xB xI xP)]
  unfold kernelRun2_B
  dsimp only
  sl_unfold_words
  rw [View.canon_unit_zero zeroOffs2]
  simp only [View.readAt_eq_ld, hmL.read_unread, hmM.read_unread, hmV.read_unread, hmG.read_unread, hmB.read_unread, hmI.read_unread, hmP.read_unread, View.ld_unit_zero (S := S2000x64) zeroOffs2, View.ld_unit_zero (S := S1x64) zeroOffs2, View.ld_unit_zero (S := S2000x1) zeroOffs2, View.ld_unit_zero (S := S512x64) zeroOffs2]

/-! ## What the output windows hold after each point, in payloads -/

/-- After the body at any point the tile output holds the normalised, clamped tile of the point's input blocks. -/
theorem after2_6 (c : Dev nD) (t : Fin cfg2.N) :
    (dat2 V c).after 6 t = k2_pay3 (iblk2 V c 0 t) (iblk2 V c 2 t) (iblk2 V c 1 t) (iblk2 V c 3 t) (iblk2 V c 4 t) := by
  rw [afterAt2_6]
  by_cases h0 : t.val % 25 = 0
  · rw [outsAt2_A V c t h0]; (try dsimp only)
    exact out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)
  · rw [outsAt2_B V c t h0]; (try dsimp only)
    exact out2_B_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

/-- After the body at the first point the pooled block holds the first tile's contraction added to the zero block. -/
theorem after2_7_first (c : Dev nD) (t : Fin cfg2.N) (h : t.val = 0) :
    (dat2 V c).after 7 t = k2_pay1 (k2_pay4 (iblk2 V c 0 t) (iblk2 V c 2 t) (iblk2 V c 1 t) (iblk2 V c 3 t) (iblk2 V c 4 t) (iblk2 V c 5 t)) (k2_pay2 (F := F)) := by
  have h0 : t.val % 25 = 0 := by rw [h]
  rw [afterAt2_7, outsAt2_A V c t h0]; (try dsimp only)
  exact out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)

/-- After the body at a later point the pooled block holds the tile's contraction added to what the point before left. -/
theorem after2_7_later (c : Dev nD) (t : Fin cfg2.N) (h : t.val ≠ 0) :
    (dat2 V c).after 7 t = k2_pay1 (k2_pay4 (iblk2 V c 0 t) (iblk2 V c 2 t) (iblk2 V c 1 t) (iblk2 V c 3 t) (iblk2 V c 4 t) (iblk2 V c 5 t)) ((dat2 V c).after 7 ⟨t.val - 1, Nat.lt_of_le_of_lt (Nat.sub_le _ _) t.isLt⟩) := by
  have hN : t.val < 25 := lt_of_lt_of_eq t.isLt (show cfg2.N = 25 from N_2)
  have h0 : ¬t.val % 25 = 0 := by omega
  rw [afterAt2_7 V c t, outsAt2_B V c t h0, afterAt2_7 V c ⟨t.val - 1, Nat.lt_of_le_of_lt (Nat.sub_le _ _) t.isLt⟩]; (try dsimp only)
  exact out2_B_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

end Cert.Kernel.Gen

end
-- ==== Proof.Kernel.Region3.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc3__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat3`), shows the body runs to them from what the pipeline hands it
(`body_obligation3`), for every float interpretation `F`. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running column sums after point `n`: the zero row updated by the product tiles of points `0 … n` in turn. -/
def sums3 (c : Dev nD) : (n : ℕ) → n < cfg3.N → Vec F S1x64 .f32
  | 0, hn => k3_pay4 (iblk3 V c 0 ⟨0, hn⟩) (iblk3 V c 1 ⟨0, hn⟩) (iblk3 V c 2 ⟨0, hn⟩) (iblk3 V c 3 ⟨0, hn⟩) (k3_pay1 (F := F))
  | n + 1, hn => k3_pay4 (iblk3 V c 0 ⟨n + 1, hn⟩) (iblk3 V c 1 ⟨n + 1, hn⟩) (iblk3 V c 2 ⟨n + 1, hn⟩) (iblk3 V c 3 ⟨n + 1, hn⟩)
      (sums3 c n (Nat.lt_of_succ_lt hn))

/-- The running column sums of squares after point `n`, likewise. -/
def sqs3 (c : Dev nD) : (n : ℕ) → n < cfg3.N → Vec F S1x64 .f32
  | 0, hn => k3_pay5 (iblk3 V c 0 ⟨0, hn⟩) (iblk3 V c 1 ⟨0, hn⟩) (iblk3 V c 2 ⟨0, hn⟩) (iblk3 V c 3 ⟨0, hn⟩) (k3_pay2 (F := F))
  | n + 1, hn => k3_pay5 (iblk3 V c 0 ⟨n + 1, hn⟩) (iblk3 V c 1 ⟨n + 1, hn⟩) (iblk3 V c 2 ⟨n + 1, hn⟩) (iblk3 V c 3 ⟨n + 1, hn⟩)
      (sqs3 c n (Nat.lt_of_succ_lt hn))

/-! ## The pipeline's proof data -/

/-- On core `c`: the arrays as the region finds them; after the body at point `t` an input's buffer at its block,
    the product window's at the product tile of the four input blocks, the two running rows' at `sums3` and `sqs3`;
    the invariant is the rest of the core's state, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 0 t) (iblk3 V c 1 t) (iblk3 V c 2 t) (iblk3 V c 3 t)
    | ⟨5, _⟩ => sums3 V c t.val t.isLt
    | ⟨6, _⟩ => sqs3 V c t.val t.isLt
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-! ## What the body leaves, window by window -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]

/-- The product window holds the product tile of the point's four input blocks. -/
theorem after3_4 (c : Dev nD) (t : Fin cfg3.N) :
    (dat3 V c).after 4 t = k3_pay3 (iblk3 V c 0 t) (iblk3 V c 1 t) (iblk3 V c 2 t) (iblk3 V c 3 t) := by dsimp only [dat3]

/-- The column sums at the first point: the zero row updated by the first product tile. -/
theorem after3_5_first (c : Dev nD) (t : Fin cfg3.N) (h : t.val = 0) :
    (dat3 V c).after 5 t = k3_pay4 (iblk3 V c 0 t) (iblk3 V c 1 t) (iblk3 V c 2 t) (iblk3 V c 3 t) (k3_pay1 (F := F)) := by
  dsimp only [dat3]
  obtain ⟨n, hn⟩ := t
  cases n with
  | zero => exact rfl
  | succ n => exact absurd h (Nat.succ_ne_zero n)

/-- The column sums at a later point: what the point before left, updated by this point's product tile. -/
theorem after3_5_later (c : Dev nD) (t : Fin cfg3.N) (h : t.val ≠ 0) :
    (dat3 V c).after 5 t = k3_pay4 (iblk3 V c 0 t) (iblk3 V c 1 t) (iblk3 V c 2 t) (iblk3 V c 3 t)
      ((dat3 V c).after 5 ⟨t.val - 1, Nat.lt_of_le_of_lt (Nat.sub_le _ _) t.isLt⟩) := by
  dsimp only [dat3]
  obtain ⟨n, hn⟩ := t
  cases n with
  | zero => exact absurd rfl h
  | succ n => exact rfl

/-- The column sums of squares at the first point. -/
theorem after3_6_first (c : Dev nD) (t : Fin cfg3.N) (h : t.val = 0) :
    (dat3 V c).after 6 t = k3_pay5 (iblk3 V c 0 t) (iblk3 V c 1 t) (iblk3 V c 2 t) (iblk3 V c 3 t) (k3_pay2 (F := F)) := by
  dsimp only [dat3]
  obtain ⟨n, hn⟩ := t
  cases n with
  | zero => exact rfl
  | succ n => exact absurd h (Nat.succ_ne_zero n)

/-- The column sums of squares at a later point. -/
theorem after3_6_later (c : Dev nD) (t : Fin cfg3.N) (h : t.val ≠ 0) :
    (dat3 V c).after 6 t = k3_pay5 (iblk3 V c 0 t) (iblk3 V c 1 t) (iblk3 V c 2 t) (iblk3 V c 3 t)
      ((dat3 V c).after 6 ⟨t.val - 1, Nat.lt_of_le_of_lt (Nat.sub_le _ _) t.isLt⟩) := by
  dsimp only [dat3]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- At a later point a running row's buffer holds what the body left at the point before: the row is written back
    at the last point only, its block never moves, and it is never idle or cut. -/
theorem before3_5_later (c : Dev nD) (t : Fin cfg3.N) (h : t.val ≠ 0) (d) :
    (dat3 V c).before 5 t d = (dat3 V c).after 5 ⟨t.val - 1, Nat.lt_of_le_of_lt (Nat.sub_le _ _) t.isLt⟩ := by
  have hN : t.val < 5 := lt_of_lt_of_eq t.isLt (show cfg3.N = 5 from N_3)
  exact Dat.before_out_kept _ 5 rfl t h
    (Bool.eq_false_iff.mpr fun hf => by have := (flush3_5 _).mp hf; dsimp only at this; omega)
    (fun _ => rfl) (fun _ _ => rfl) d
theorem before3_6_later (c : Dev nD) (t : Fin cfg3.N) (h : t.val ≠ 0) (d) :
    (dat3 V c).before 6 t d = (dat3 V c).after 6 ⟨t.val - 1, Nat.lt_of_le_of_lt (Nat.sub_le _ _) t.isLt⟩ := by
  have hN : t.val < 5 := lt_of_lt_of_eq t.isLt (show cfg3.N = 5 from N_3)
  exact Dat.before_out_kept _ 6 rfl t h
    (Bool.eq_false_iff.mpr fun hf => by have := (flush3_6 _).mp hf; dsimp only at this; omega)
    (fun _ => rfl) (fun _ _ => rfl) d

/-! ## The body's branch -/

/-- The condition of the body's one conditional, as the body computes it from the grid coordinate: "this is point 0". -/
abbrev cond3 (i : grid3.Coords) : Prop :=
  (Scalar.cmpi .ne (Scalar.extui (Scalar.cmpi .eq (BitVec.ofNat 32 (i 0).val) 0#32)) 0#32) = 1#1

/-- It holds at the first point and at no other (decided over the five points). -/
theorem hcond3 : ∀ t : Fin cfg3.N, cond3 (grid3.coords t) ↔ t.val = 0 :=
  (by decide +kernel : ∀ t : Fin grid3.N, cond3 (grid3.coords t) ↔ t.val = 0)

/-- The offsets of a whole-buffer access are all zero. -/
theorem offs3_zero : (![0, 0] : Fin 2 → Nat) = fun _ => 0 := funext fun a => by fin_cases a <;> rfl

/-- A buffer whose LAST store goes through the whole-buffer rectangle reads back that store's payload, whatever the
    earlier stores and the prior contents were. -/
theorem read_last3 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel3_first (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond3 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k3_pay3 xh xg xw xb)
            ∗ owns (c : Thread nD τ) arg6 fullShare (k3_pay4 xh xg xw xb (k3_pay1 (F := F)))
            ∗ owns (c : Thread nD τ) arg7 fullShare (k3_pay5 xh xg xw xb (k3_pay2 (F := F)))) -∗ K ⟨⟩))
      ⊢ wp frame (wpE (defs₀ (F := F)) Variants.none c none) E (cc3__linear_stats_kernel i arg1 harg1 arg2 harg2 arg3 harg3 arg4 harg4 arg5 harg5 arg6 harg6 arg7 harg7) K := by
  simp only [cc3__linear_stats_kernel_eq_skeleton]; unfold cc3__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  isplitl [Hs]
  · iexists _; isplitr
    swap; · iexact Hs
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  · iexists _; isplitr
    swap; · iexact Hq
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]

set_option maxHeartbeats 2000000 in
/-- AT A LATER POINT. The same, the branch not taken, with the two running rows' buffers at given contents `ps pq`:
    each row ends at its update of what it held. -/
theorem sound_kernel3_later (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond3 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k3_pay3 xh xg xw xb)
            ∗ owns (c : Thread nD τ) arg6 fullShare (k3_pay4 xh xg xw xb ps)
            ∗ owns (c : Thread nD τ) arg7 fullShare (k3_pay5 xh xg xw xb pq)) -∗ K ⟨⟩))
      ⊢ wp frame (wpE (defs₀ (F := F)) Variants.none c none) E (cc3__linear_stats_kernel i arg1 harg1 arg2 harg2 arg3 harg3 arg4 harg4 arg5 harg5 arg6 harg6 arg7 harg7) K := by
  simp only [cc3__linear_stats_kernel_eq_skeleton]; unfold cc3__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  isplitl [Hs]
  · iexists _; isplitr
    swap; · iexact Hs
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  · iexists _; isplitr
    swap; · iexact Hq
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  by_cases h : t.val = 0
  · rw [after3_5_first V c t h, after3_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel3_first c Set.univ (grid3.coords t) _ _ _ _ _ _ _ _ _ _ _ _ _ _ ((hcond3 t).mpr h)
      (iblk3 V c 0 t) (iblk3 V c 1 t) (iblk3 V c 2 t) (iblk3 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after3_5_later V c t h, after3_6_later V c t h]
    simp only [before3_5_later V c t h, before3_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel3_later c Set.univ (grid3.coords t) _ _ _ _ _ _ _ _ _ _ _ _ _ _ (fun hc => h ((hcond3 t).mp hc))
      (iblk3 V c 0 t) (iblk3 V c 1 t) (iblk3 V c 2 t) (iblk3 V c 3 t)
      ((dat3 V c).after 5 ⟨t.val - 1, Nat.lt_of_le_of_lt (Nat.sub_le _ _) t.isLt⟩)
      ((dat3 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.Kernel.Region4.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The seven input blocks at their literal vector types: the first linear map's tile, the mean, the variance, the
    scale, the shift, the second weight matrix, the second bias. -/
abbrev blk4_0 (c : Dev nD) (t : Fin cfg4.N) : Vec F S10000x64 .f32 := iblk4 V c 0 t
abbrev blk4_1 (c : Dev nD) (t : Fin cfg4.N) : Vec F S1x64 .f32 := iblk4 V c 1 t
abbrev blk4_2 (c : Dev nD) (t : Fin cfg4.N) : Vec F S1x64 .f32 := iblk4 V c 2 t
abbrev blk4_3 (c : Dev nD) (t : Fin cfg4.N) : Vec F S1x64 .f32 := iblk4 V c 3 t
abbrev blk4_4 (c : Dev nD) (t : Fin cfg4.N) : Vec F S1x64 .f32 := iblk4 V c 4 t
abbrev blk4_5 (c : Dev nD) (t : Fin cfg4.N) : Vec F S64x64 .f32 := iblk4 V c 5 t
abbrev blk4_6 (c : Dev nD) (t : Fin cfg4.N) : Vec F S1x64 .f32 := iblk4 V c 6 t

/-! ## The branch on the first tile -/

/-- The condition of the body's one conditional, from the grid coordinate: the tile number compared with zero,
    widened and compared again, as the body computes it. -/
abbrev cond4_0 (i : grid4.Coords) : Prop :=
  (Scalar.cmpi .ne (Scalar.extui (Scalar.cmpi .eq (BitVec.ofNat 32 (i 0).val) 0#32)) 0#32) = 1#1

/-- It holds at the first tile and at no other: decided over the five tiles. -/
theorem hcond4_0 : ∀ t : Fin cfg4.N, cond4_0 (grid4.coords t) ↔ t.val = 0 :=
  (by decide +kernel : ∀ t : Fin grid4.N, cond4_0 (grid4.coords t) ↔ t.val = 0)

/-! ## The staging memrefs the body is called with -/

abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x64 .f32 := win4_9.stage (cfg4.slots t 9)
abbrev hs4_9 (t : Fin cfg4.N) : (ms4_9 t).IsWhole := hstage4_9 ((cfg4.slots t 9).cast nbuf4_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run4_A (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc4__bn_linear_stats_kernel i ma ha mb hb mc hc md hd me he mf hf mg hg mh hh mi hi mj hj) K } := by
  refine ⟨?_, ?_, ?_, fun E K => ?run⟩
  case run =>
    simp only [cc4__bn_linear_stats_kernel_eq_skeleton]; unfold cc4__bn_linear_stats_kernel_skel
    simp only [k4_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run4_B (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc4__bn_linear_stats_kernel i ma ha mb hb mc hc md hd me he mf hf mg hg mh hh mi hi mj hj) K } := by
  refine ⟨?_, ?_, ?_, fun E K => ?run⟩
  case run =>
    simp only [cc4__bn_linear_stats_kernel_eq_skeleton]; unfold cc4__bn_linear_stats_kernel_skel
    simp only [k4_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover4_A_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S10000x64.Idx) :
    ∃ pc ∈ (run4_A c i ma ha mb hb mc hc md hd me he mf hf mg hg mh hh mi hi mj hj hz xa xb xc xd xe xf xg).1, y ∈ pc.1.set :=
  View.cover_of_tiledL (run4_A c i ma ha mb hb mc hc md hd me he mf hf mg hg mh hh mi hi mj hj hz xa xb xc xd xe xf xg).1 S10000x64.size (by sl_kernel_rfl) y
theorem cover4_A_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S1x64.Idx) :
    ∃ pc ∈ (run4_A c i ma ha mb hb mc hc md hd me he mf hf mg hg mh hh mi hi mj hj hz xa xb xc xd xe xf xg).2.1, y ∈ pc.1.set :=
  View.cover_of_tiledL (run4_A c i ma ha mb hb mc hc md hd me he mf hf mg hg mh hh mi hi mj hj hz xa xb xc xd xe xf xg).2.1 S1x64.size (by sl_kernel_rfl) y
theorem cover4_A_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S1x64.Idx) :
    ∃ pc ∈ (run4_A c i ma ha mb hb mc hc md hd me he mf hf mg hg mh hh mi hi mj hj hz xa xb xc xd xe xf xg).2.2.1, y ∈ pc.1.set :=
  View.cover_of_tiledL (run4_A c i ma ha mb hb mc hc md hd me he mf hf mg hg mh hh mi hi mj hj hz xa xb xc xd xe xf xg).2.2.1 S1x64.size (by sl_kernel_rfl) y
theorem cover4_B_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run4_B c i ma ha mb hb mc hc md hd me he mf hf mg hg mh hh mi hi mj hj hz xa xb xc xd xe xf xg yi yj).1, y ∈ pc.1.set :=
  View.cover_of_tiledL (run4_B c i ma ha mb hb mc hc md hd me he mf hf mg hg mh hh mi hi mj hj hz xa xb xc xd xe xf xg yi yj).1 S10000x64.size (by sl_kernel_rfl) y
theorem cover4_B_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run4_B c i ma ha mb hb mc hc md hd me he mf hf mg hg mh hh mi hi mj hj hz xa xb xc xd xe xf xg yi yj).2.1, y ∈ pc.1.set :=
  View.cover_of_tiledL (run4_B c i ma ha mb hb mc hc md hd me he mf hf mg hg mh hh mi hi mj hj hz xa xb xc xd xe xf xg yi yj).2.1 S1x64.size (by sl_kernel_rfl) y
theorem cover4_B_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run4_B c i ma ha mb hb mc hc md hd me he mf hf mg hg mh hh mi hi mj hj hz xa xb xc xd xe xf xg yi yj).2.2.1, y ∈ pc.1.set :=
  View.cover_of_tiledL (run4_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out4_A (c : Dev nD) (t : Fin cfg4.N) (hz : cond4_0 (grid4.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).1,
   View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).2.1,
   View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).2.2.1)

/-- The same at a later tile, over the accumulators' running contents `yi`, `yj`. -/
def out4_B (c : Dev nD) (t : Fin cfg4.N) (hz : ¬cond4_0 (grid4.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).1,
   View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).2.1,
   View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt4 (c : Dev nD) : (n : ℕ) → n < cfg4.N → Vec F S10000x64 .f32 × Vec F S1x64 .f32 × Vec F S1x64 .f32
  | 0, hn => out4_A c ⟨0, hn⟩ ((hcond4_0 ⟨0, hn⟩).mpr rfl)
      (blk4_0 V c ⟨0, hn⟩) (blk4_1 V c ⟨0, hn⟩) (blk4_2 V c ⟨0, hn⟩) (blk4_3 V c ⟨0, hn⟩) (blk4_4 V c ⟨0, hn⟩) (blk4_5 V c ⟨0, hn⟩) (blk4_6 V c ⟨0, hn⟩)
  | n + 1, hn => out4_B c ⟨n + 1, hn⟩ (fun h => Nat.succ_ne_zero n ((hcond4_0 ⟨n + 1, hn⟩).mp h))
      (blk4_0 V c ⟨n + 1, hn⟩) (blk4_1 V c ⟨n + 1, hn⟩) (blk4_2 V c ⟨n + 1, hn⟩) (blk4_3 V c ⟨n + 1, hn⟩) (blk4_4 V c ⟨n + 1, hn⟩) (blk4_5 V c ⟨n + 1, hn⟩) (blk4_6 V c ⟨n + 1, hn⟩)
      (outsAt4 c n (Nat.lt_of_succ_lt hn)).2.1 (outsAt4 c n (Nat.lt_of_succ_lt hn)).2.2

/-- `outsAt4` at the first tile. -/
theorem outsAt4_first (c : Dev nD) (t : Fin cfg4.N) (h0 : t.val = 0) :
    outsAt4 V c t.val t.isLt = out4_A c t ((hcond4_0 t).mpr h0)
      (blk4_0 V c t) (blk4_1 V c t) (blk4_2 V c t) (blk4_3 V c t) (blk4_4 V c t) (blk4_5 V c t) (blk4_6 V c t) := by
  obtain ⟨n, hn⟩ := t
  cases n with
  | zero => exact rfl
  | succ n => exact absurd h0 (Nat.succ_ne_zero n)

/-- `outsAt4` at a later tile, over what the tile before left. -/
theorem outsAt4_later (c : Dev nD) (t : Fin cfg4.N) (h0 : ¬t.val = 0) :
    outsAt4 V c t.val t.isLt = out4_B c t (fun h => h0 ((hcond4_0 t).mp h))
      (blk4_0 V c t) (blk4_1 V c t) (blk4_2 V c t) (blk4_3 V c t) (blk4_4 V c t) (blk4_5 V c t) (blk4_6 V c t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The pipeline's proof data -/

/-- The proof data on core `c`: the arrays as the region finds them; after the body at tile `t` each input's buffer
    at its block and the three outputs' at `outsAt4`; the invariant holds the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
    | ⟨9, _⟩ => (outsAt4 V c t.val t.isLt).2.2
  Φ _ := Pipeline.ΦA spec4 c
  q _ := fullShare
  owed _ := 0

/-- The proof data's arrays are the entry contents (the definition projected, never unfolded further). -/
theorem A_eq4 (c : Dev nD) (w : Fin cfg4.W) : (dat4 V c).A w = V c (Pipeline.arrRef spec4 w) := by
  dsimp only [dat4]

/-- What the body leaves, window by window: an input's block; an output's component of `outsAt4`. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem afterRaw4_7 (c : Dev nD) (t : Fin cfg4.N) : (dat4 V c).after 7 t = (outsAt4 V c t.val t.isLt).1 := by dsimp only [dat4]
theorem afterRaw4_8 (c : Dev nD) (t : Fin cfg4.N) : (dat4 V c).after 8 t = (outsAt4 V c t.val t.isLt).2.1 := by dsimp only [dat4]
theorem afterRaw4_9 (c : Dev nD) (t : Fin cfg4.N) : (dat4 V c).after 9 t = (outsAt4 V c t.val t.isLt).2.2 := by dsimp only [dat4]

/-- Each input's current staging buffer holds its block at every tile. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- At a later tile the column-sum accumulator's staging buffer holds what the body left at the tile before: the
    buffer is written back at the last tile only, and the window is neither idle nor cut. -/
theorem before4_8_later (c : Dev nD) (t : Fin cfg4.N) (h0 : ¬t.val = 0) (d) :
    (dat4 V c).before 8 t d = (outsAt4 V c (t.val - 1) (Nat.lt_of_le_of_lt (Nat.sub_le _ _) t.isLt)).2.1 := by
  have hN : t.val < 5 := lt_of_lt_of_eq t.isLt (show cfg4.N = 5 from N_4)
  rw [Dat.before_out_kept _ 8 rfl t h0 (Bool.eq_false_iff.mpr fun h => by have := (flush4_8 _).mp h; dsimp only at this; omega)
    (fun _ => rfl) (fun _ _ => rfl)]
  dsimp only [dat4]
/-- The same for the accumulator of squares. -/
theorem before4_9_later (c : Dev nD) (t : Fin cfg4.N) (h0 : ¬t.val = 0) (d) :
    (dat4 V c).before 9 t d = (outsAt4 V c (t.val - 1) (Nat.lt_of_le_of_lt (Nat.sub_le _ _) t.isLt)).2.2 := by
  have hN : t.val < 5 := lt_of_lt_of_eq t.isLt (show cfg4.N = 5 from N_4)
  rw [Dat.before_out_kept _ 9 rfl t h0 (Bool.eq_false_iff.mpr fun h => by have := (flush4_9 _).mp h; dsimp only at this; omega)
    (fun _ => rfl) (fun _ _ => rfl)]
  dsimp only [dat4]

/-! ## The body obligation at a tile -/

/-- What the body is called with at tile `t`: the invariant, the core's debt, and each window's current staging
    buffer at what the pipeline left in it. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- What it returns: the same with each buffer at what the body leaves. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, afterRaw4_7, afterRaw4_8, afterRaw4_9]
  by_cases h0 : t.val = 0
  · rw [outsAt4_first V c t h0]
    unfold out4_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run4_A c (grid4.coords t) _ _ _ _ _ _ _ _ _ _ _ _ _ _ _ _ _ _ _ _ ((hcond4_0 t).mpr h0)
      (blk4_0 V c t) (blk4_1 V c t) (blk4_2 V c t) (blk4_3 V c t) (blk4_4 V c t) (blk4_5 V c t) (blk4_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover4_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover4_A_8 c _ _ _ _ _ _ _ _ _ _ _ _ _ _ _ _ _ _ _ _ _ _ _ _ _ _ _ _ _)
    unfold owns; iexists _; isplitr
    swap; · iexact Hj
    ipureintro; exact View.read_writes_eq_canon _ _ _ (cover4_A_9 c _ _ _ _ _ _ _ _ _ _ _ _ _ _ _ _ _ _ _ _ _ _ _ _ _ _ _ _ _)
  · rw [outsAt4_later V c t h0]
    simp only [before4_8_later V c t h0, before4_9_later V c t h0]
    unfold out4_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run4_B c (grid4.coords t) _ _ _ _ _ _ _ _ _ _ _ _ _ _ _ _ _ _ _ _ (fun h => h0 ((hcond4_0 t).mp h))
      (blk4_0 V c t) (blk4_1 V c t) (blk4_2 V c t) (blk4_3 V c t) (blk4_4 V c t) (blk4_5 V c t) (blk4_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover4_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover4_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover4_B_9 c _ _ _ _ _ _ _ _ _ _ _ _ _ _ _ _ _ _ _ _ _ _ _ _ _ _ _ _ _ _ _)

/-- The pipeline's body obligation, at every tile. -/
theorem body_obligation4 (c : Dev nD) : BodyObligation (dat4 (F := F) V c) (defs₀ (F := F)) Variants.none () Set.univ := fun t => by
  rw [bigSep_W4, bigSep_W4]
  exact sound_body4 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero4 : (![0, 0] : Fin 2 → Nat) = fun _ => 0 := by
  funext a
  match a with
  | ⟨0, _⟩ => rfl
  | ⟨1, _⟩ => rfl

/-- First tile, tile output: the normalised, rectified tile through the second linear map. -/
theorem piece4_A_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).1 = k4_pay5 xa xc xb xd xe xf xg := by
  unfold run4_A
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- First tile, column sums: zero, read back, plus the tile output's column sums. -/
theorem piece4_A_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).2.1 = k4_pay1 (k4_pay5 xa xc xb xd xe xf xg) (k4_pay3 (F := F)) := by
  unfold run4_A
  dsimp only
  sl_unfold_words
  rw [View.canon_cons_unit_zero (S := S1x64) hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- First tile, column sums of squares. -/
theorem piece4_A_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).2.2.1 = k4_pay2 (k4_pay5 xa xc xb xd xe xf xg) (k4_pay4 (F := F)) := by
  unfold run4_A
  dsimp only
  sl_unfold_words
  rw [View.canon_cons_unit_zero (S := S1x64) hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, tile output. -/
theorem piece4_B_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).1 = k4_pay5 xa xc xb xd xe xf xg := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, column sums: the running sums plus the tile output's column sums. -/
theorem piece4_B_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).2.1 = k4_pay1 (k4_pay5 xa xc xb xd xe xf xg) yi := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, column sums of squares. -/
theorem piece4_B_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).2.2.1 = k4_pay2 (k4_pay5 xa xc xb xd xe xf xg) yj := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after4_7 (c : Dev nD) (t : Fin cfg4.N) :
    (dat4 V c).after 7 t = k4_pay5 (iblk4 V c 0 t) (iblk4 V c 2 t) (iblk4 V c 1 t) (iblk4 V c 3 t) (iblk4 V c 4 t) (iblk4 V c 5 t) (iblk4 V c 6 t) := by
  rw [afterRaw4_7]
  by_cases h0 : t.val = 0
  · rw [outsAt4_first V c t h0]
    unfold out4_A
    dsimp only
    exact piece4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (blk4_0 V c t) (blk4_1 V c t) (blk4_2 V c t) (blk4_3 V c t) (blk4_4 V c t) (blk4_5 V c t) (blk4_6 V c t)
  · rw [outsAt4_later V c t h0]
    unfold out4_B
    dsimp only
    exact piece4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (blk4_0 V c t) (blk4_1 V c t) (blk4_2 V c t) (blk4_3 V c t) (blk4_4 V c t) (blk4_5 V c t) (blk4_6 V c t)
      (outsAt4 V c (t.val - 1) (Nat.lt_of_le_of_lt (Nat.sub_le _ _) t.isLt)).2.1 (outsAt4 V c (t.val - 1) (Nat.lt_of_le_of_lt (Nat.sub_le _ _) t.isLt)).2.2

/-- The column sums after the first tile. -/
theorem after4_8_first (c : Dev nD) (t : Fin cfg4.N) (h : t.val = 0) :
    (dat4 V c).after 8 t = k4_pay1 (k4_pay5 (iblk4 V c 0 t) (iblk4 V c 2 t) (iblk4 V c 1 t) (iblk4 V c 3 t) (iblk4 V c 4 t) (iblk4 V c 5 t) (iblk4 V c 6 t)) (k4_pay3 (F := F)) := by
  rw [afterRaw4_8, outsAt4_first V c t h]
  unfold out4_A
  dsimp only
  exact piece4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h) (blk4_0 V c t) (blk4_1 V c t) (blk4_2 V c t) (blk4_3 V c t) (blk4_4 V c t) (blk4_5 V c t) (blk4_6 V c t)

/-- The column sums after a later tile, from those after the tile before. -/
theorem after4_8_later (c : Dev nD) (t : Fin cfg4.N) (h : t.val ≠ 0) :
    (dat4 V c).after 8 t = k4_pay1 (k4_pay5 (iblk4 V c 0 t) (iblk4 V c 2 t) (iblk4 V c 1 t) (iblk4 V c 3 t) (iblk4 V c 4 t) (iblk4 V c 5 t) (iblk4 V c 6 t)) ((dat4 V c).after 8 ⟨t.val - 1, Nat.lt_of_le_of_lt (Nat.sub_le _ _) t.isLt⟩) := by
  rw [afterRaw4_8, afterRaw4_8, outsAt4_later V c t h]
  unfold out4_B
  dsimp only
  exact piece4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h' => h ((hcond4_0 t).mp h')) (blk4_0 V c t) (blk4_1 V c t) (blk4_2 V c t) (blk4_3 V c t) (blk4_4 V c t) (blk4_5 V c t) (blk4_6 V c t)
    (outsAt4 V c (t.val - 1) (Nat.lt_of_le_of_lt (Nat.sub_le _ _) t.isLt)).2.1 (outsAt4 V c (t.val - 1) (Nat.lt_of_le_of_lt (Nat.sub_le _ _) t.isLt)).2.2

/-- The column sums of squares after the first tile. -/
theorem after4_9_first (c : Dev nD) (t : Fin cfg4.N) (h : t.val = 0) :
    (dat4 V c).after 9 t = k4_pay2 (k4_pay5 (iblk4 V c 0 t) (iblk4 V c 2 t) (iblk4 V c 1 t) (iblk4 V c 3 t) (iblk4 V c 4 t) (iblk4 V c 5 t) (iblk4 V c 6 t)) (k4_pay4 (F := F)) := by
  rw [afterRaw4_9, outsAt4_first V c t h]
  unfold out4_A
  dsimp only
  exact piece4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h) (blk4_0 V c t) (blk4_1 V c t) (blk4_2 V c t) (blk4_3 V c t) (blk4_4 V c t) (blk4_5 V c t) (blk4_6 V c t)

/-- The column sums of squares after a later tile, from those after the tile before. -/
theorem after4_9_later (c : Dev nD) (t : Fin cfg4.N) (h : t.val ≠ 0) :
    (dat4 V c).after 9 t = k4_pay2 (k4_pay5 (iblk4 V c 0 t) (iblk4 V c 2 t) (iblk4 V c 1 t) (iblk4 V c 3 t) (iblk4 V c 4 t) (iblk4 V c 5 t) (iblk4 V c 6 t)) ((dat4 V c).after 9 ⟨t.val - 1, Nat.lt_of_le_of_lt (Nat.sub_le _ _) t.isLt⟩) := by
  rw [afterRaw4_9, afterRaw4_9, outsAt4_later V c t h]
  unfold out4_B
  dsimp only
  exact piece4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h' => h ((hcond4_0 t).mp h')) (blk4_0 V c t) (blk4_1 V c t) (blk4_2 V c t) (blk4_3 V c t) (blk4_4 V c t) (blk4_5 V c t) (blk4_6 V c t)
    (outsAt4 V c (t.val - 1) (Nat.lt_of_le_of_lt (Nat.sub_le _ _) t.isLt)).2.1 (outsAt4 V c (t.val - 1) (Nat.lt_of_le_of_lt (Nat.sub_le _ _) t.isLt)).2.2

end Cert.Kernel.Gen

end
-- ==== Proof.Kernel.Region5.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the block was fetched there or
    kept from the point before (its index has not moved then), for any proof data whose array is the entry contents
    and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, from the grid coordinates: the coordinate is zero. -/
abbrev cond5_0 (i : grid5.Coords) : Prop := (Scalar.cmpi .ne (Scalar.extui (Scalar.cmpi .eq (BitVec.ofNat 32 (i 0).val) 0#32)) 0#32) = 1#1
/-- It holds at the first point only (decided over the grid). -/
theorem hcond5_0 : ∀ t : Fin cfg5.N, cond5_0 (grid5.coords t) ↔ t.val % 25 = 0 :=
  (by decide +kernel : ∀ t : Fin grid5.N, cond5_0 (grid5.coords t) ↔ t.val % 25 = 0)

/-! ## The staging memrefs -/

/-- One staging buffer of each output window, through which its contents are stated (the choice does not matter:
    a covering list of pieces reads back the same through any view). -/
abbrev VO5_6 : View sig .tc .vmem S2000x64 .f32 := (Memref.whole cc5_stg6_0 : Memref sig .tc .vmem S2000x64 .f32).view
abbrev VO5_7 : View sig .tc .vmem S512x64 .f32 := (Memref.whole cc5_stg7_0 : Memref sig .tc .vmem S512x64 .f32).view
/-- Each window's current staging memref at point `t`, spelled as the pipeline passes it to the body, and its wholeness. -/
abbrev ms5_0 (t : Fin cfg5.N) : Memref sig .tc .vmem S2000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S512x64 .f32 := win5_7.stage (cfg5.slots t 7)
abbrev hs5_7 (t : Fin cfg5.N) : (ms5_7 t).IsWhole := hstage5_7 ((cfg5.slots t 7).cast nbuf5_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun5_A (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc5__bn_pool_kernel i mL hmL mM hmM mV hmV mG hmG mB hmB mI hmI mH hmH mP hmP) K } := by
  refine ⟨?_, ?_, fun E K => ?run⟩
  case run =>
    simp only [cc5__bn_pool_kernel_eq_skeleton]; unfold cc5__bn_pool_kernel_skel
    simp only [k5_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun5_B (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc5__bn_pool_kernel i mL hmL mM hmM mV hmV mG hmG mB hmB mI hmI mH hmH mP hmP) K } := by
  refine ⟨?_, ?_, fun E K => ?run⟩
  case run =>
    simp only [cc5__bn_pool_kernel_eq_skeleton]; unfold cc5__bn_pool_kernel_skel
    simp only [k5_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover5_A_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun5_A c i mL hmL mM hmM mV hmV mG hmG mB hmB mI hmI mH hmH mP hmP hc xL xM xV xG xB xI).1, y ∈ pc.1.set :=
  View.cover_of_tiledL (kernelRun5_A c i mL hmL mM hmM mV hmV mG hmG mB hmB mI hmI mH hmH mP hmP hc xL xM xV xG xB xI).1 S2000x64.size (by sl_kernel_rfl) y

/-- What case A leaves in output window 6's staging buffer: its pieces read back. -/
def out5_A_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO5_6.read (Elt F) (VO5_6.writes (Elt F) VO5_6.junk (kernelRun5_A c i mL hmL mM hmM mV hmV mG hmG mB hmB mI hmI mH hmH mP hmP hc xL xM xV xG xB xI).1)

/-- The pieces case A finds for output window 7 tile its block, so they cover it. -/
theorem cover5_A_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun5_A c i mL hmL mM hmM mV hmV mG hmG mB hmB mI hmI mH hmH mP hmP hc xL xM xV xG xB xI).2.1, y ∈ pc.1.set :=
  View.cover_of_tiledL (kernelRun5_A c i mL hmL mM hmM mV hmV mG hmG mB hmB mI hmI mH hmH mP hmP hc xL xM xV xG xB xI).2.1 S512x64.size (by sl_kernel_rfl) y

/-- What case A leaves in output window 7's staging buffer: its pieces read back. -/
def out5_A_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO5_7.read (Elt F) (VO5_7.writes (Elt F) VO5_7.junk (kernelRun5_A c i mL hmL mM hmM mV hmV mG hmG mB hmB mI hmI mH hmH mP hmP hc xL xM xV xG xB xI).2.1)

/-- The pieces case B finds for output window 6 tile its block, so they cover it. -/
theorem cover5_B_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun5_B c i mL hmL mM hmM mV hmV mG hmG mB hmB mI hmI mH hmH mP hmP hc xL xM xV xG xB xI xP).1, y ∈ pc.1.set :=
  View.cover_of_tiledL (kernelRun5_B c i mL hmL mM hmM mV hmV mG hmG mB hmB mI hmI mH hmH mP hmP hc xL xM xV xG xB xI xP).1 S2000x64.size (by sl_kernel_rfl) y

/-- What case B leaves in output window 6's staging buffer: its pieces read back. -/
def out5_B_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO5_6.read (Elt F) (VO5_6.writes (Elt F) VO5_6.junk (kernelRun5_B c i mL hmL mM hmM mV hmV mG hmG mB hmB mI hmI mH hmH mP hmP hc xL xM xV xG xB xI xP).1)

/-- The pieces case B finds for output window 7 tile its block, so they cover it. -/
theorem cover5_B_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun5_B c i mL hmL mM hmM mV hmV mG hmG mB hmB mI hmI mH hmH mP hmP hc xL xM xV xG xB xI xP).2.1, y ∈ pc.1.set :=
  View.cover_of_tiledL (kernelRun5_B c i mL hmL mM hmM mV hmV mG hmG mB hmB mI hmI mH hmH mP hmP hc xL xM xV xG xB xI xP).2.1 S512x64.size (by sl_kernel_rfl) y

/-- What case B leaves in output window 7's staging buffer: its pieces read back. -/
def out5_B_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO5_7.read (Elt F) (VO5_7.writes (Elt F) VO5_7.junk (kernelRun5_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt5 (c : Dev nD) : (n : ℕ) → n < cfg5.N → Vec F S2000x64 .f32 × Vec F S512x64 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩),
      out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 25 = 0 then
      (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩),
        out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2,
        out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)

/-- `outsAt5` at the point of case A: that case's contents. -/
theorem outsAt5_A (c : Dev nD) (t : Fin cfg5.N) (h0 : t.val % 25 = 0) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t),
      out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 25 = 0) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2,
      out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt5`; the invariant that of a body with no
    state of its own (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem afterAt5_6 (c : Dev nD) (t : Fin cfg5.N) : (dat5 V c).after 6 t = (outsAt5 V c t.val t.isLt).1 := by dsimp only [dat5]
theorem afterAt5_7 (c : Dev nD) (t : Fin cfg5.N) : (dat5 V c).after 7 t = (outsAt5 V c t.val t.isLt).2 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
/-- At a point of case B the pooled window's staging buffer holds what the body left at the point before: the point
    is not the first, the buffer was not written back between (only the last point writes it back), the window is
    live and uncut. -/
theorem before5_7_B (c : Dev nD) (t : Fin cfg5.N) (h0 : ¬t.val % 25 = 0) (d) :
    (dat5 V c).before 7 t d = (outsAt5 V c (t.val - 1) (Nat.lt_of_le_of_lt (Nat.sub_le _ _) t.isLt)).2 := by
  have hN : t.val < 25 := lt_of_lt_of_eq t.isLt (show cfg5.N = 25 from N_5)
  rw [Dat.before_out_kept _ 7 rfl t (by omega) (Bool.eq_false_iff.mpr fun h => by have := (flush5_7 _).mp h; dsimp only at this; omega)
    (fun _ => rfl) (fun _ _ => rfl)]
  dsimp only [dat5]

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, afterAt5_6, afterAt5_7]
  have hN : t.val < 25 := lt_of_lt_of_eq t.isLt (show cfg5.N = 25 from N_5)
  by_cases h0 : t.val % 25 = 0
  · rw [outsAt5_A V c t h0]
    (try dsimp only)
    unfold out5_A_6 out5_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun5_A c (grid5.coords t) _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover5_A_6 c _ _ _ _ _ _ _ _ _ _ _ _ _ _ _ _ _ _ _ _ _ _ _ _)
    unfold owns; iexists _; isplitr
    swap; · iexact HP
    ipureintro; exact View.read_writes_of_cover _ _ _ _ _ (cover5_A_7 c _ _ _ _ _ _ _ _ _ _ _ _ _ _ _ _ _ _ _ _ _ _ _ _)
  · rw [outsAt5_B V c t h0]
    simp only [before5_7_B V c t h0]
    (try dsimp only)
    unfold out5_B_6 out5_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun5_B c (grid5.coords t) _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover5_B_6 c _ _ _ _ _ _ _ _ _ _ _ _ _ _ _ _ _ _ _ _ _ _ _ _ _)
    unfold owns; iexists _; isplitr
    swap; · iexact HP
    ipureintro; exact View.read_writes_of_cover _ _ _ _ _ (cover5_B_7 c _ _ _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs5 : (![0, 0] : Fin 2 → Nat) = fun _ => 0 := funext fun a => by fin_cases a <;> rfl

/-- Case A leaves the normalised, clamped tile in the tile output: its one covering store's payload, whose loads read
    the whole input buffers. -/
theorem out5_A_6_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    out5_A_6 c i mL hmL mM hmM mV hmV mG hmG mB hmB mI hmI mH hmH mP hmP hc xL xM xV xG xB xI = k5_pay3 xL xV xM xG xB := by
  unfold out5_A_6
  rw [View.read_writes_eq_canon _ _ _ (cover5_A_6 c i mL hmL mM hmM mV hmV mG hmG mB hmB mI hmI mH hmH mP hmP hc xL xM xV xG xB xI)]
  unfold kernelRun5_A
  dsimp only
  sl_unfold_words
  rw [View.canon_unit_zero zeroOffs5]
  simp only [View.readAt_eq_ld, hmL.read_unread, hmM.read_unread, hmV.read_unread, hmG.read_unread, hmB.read_unread, hmI.read_unread, View.ld_unit_zero (S := S2000x64) zeroOffs5, View.ld_unit_zero (S := S1x64) zeroOffs5, View.ld_unit_zero (S := S2000x1) zeroOffs5, View.ld_unit_zero (S := S512x64) zeroOffs5]

/-- Case A leaves in the pooled block the tile's contraction added to the zero block: the reset store is read back
    whole, and the last store covers the block. -/
theorem out5_A_7_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    out5_A_7 c i mL hmL mM hmM mV hmV mG hmG mB hmB mI hmI mH hmH mP hmP hc xL xM xV xG xB xI = k5_pay1 (k5_pay4 xL xV xM xG xB xI) (k5_pay2 (F := F)) := by
  unfold out5_A_7
  rw [View.read_writes_eq_canon _ _ _ (cover5_A_7 c i mL hmL mM hmM mV hmV mG hmG mB hmB mI hmI mH hmH mP hmP hc xL xM xV xG xB xI)]
  unfold kernelRun5_A
  dsimp only
  sl_unfold_words
  rw [View.canon_cons_unit_zero (S := S512x64) zeroOffs5, View.readCov_unit_zero (S := S512x64) _ zeroOffs5]
  simp only [View.readAt_eq_ld, hmL.read_unread, hmM.read_unread, hmV.read_unread, hmG.read_unread, hmB.read_unread, hmI.read_unread, View.ld_unit_zero (S := S2000x64) zeroOffs5, View.ld_unit_zero (S := S1x64) zeroOffs5, View.ld_unit_zero (S := S2000x1) zeroOffs5, View.ld_unit_zero (S := S512x64) zeroOffs5]

/-- Case B leaves the same tile payload in the tile output. -/
theorem out5_B_6_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out5_B_6 c i mL hmL mM hmM mV hmV mG hmG mB hmB mI hmI mH hmH mP hmP hc xL xM xV xG xB xI xP = k5_pay3 xL xV xM xG xB := by
  unfold out5_B_6
  rw [View.read_writes_eq_canon _ _ _ (cover5_B_6 c i mL hmL mM hmM mV hmV mG hmG mB hmB mI hmI mH hmH mP hmP hc xL xM xV xG xB xI xP)]
  unfold kernelRun5_B
  dsimp only
  sl_unfold_words
  rw [View.canon_unit_zero zeroOffs5]
  simp only [View.readAt_eq_ld, hmL.read_unread, hmM.read_unread, hmV.read_unread, hmG.read_unread, hmB.read_unread, hmI.read_unread, hmP.read_unread, View.ld_unit_zero (S := S2000x64) zeroOffs5, View.ld_unit_zero (S := S1x64) zeroOffs5, View.ld_unit_zero (S := S2000x1) zeroOffs5, View.ld_unit_zero (S := S512x64) zeroOffs5]

/-- Case B leaves in the pooled block the tile's contraction added to what the block held. -/
theorem out5_B_7_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out5_B_7 c i mL hmL mM hmM mV hmV mG hmG mB hmB mI hmI mH hmH mP hmP hc xL xM xV xG xB xI xP = k5_pay1 (k5_pay4 xL xV xM xG xB xI) xP := by
  unfold out5_B_7
  rw [View.read_writes_eq_canon _ _ _ (cover5_B_7 c i mL hmL mM hmM mV hmV mG hmG mB hmB mI hmI mH hmH mP hmP hc xL xM xV xG xB xI xP)]
  unfold kernelRun5_B
  dsimp only
  sl_unfold_words
  rw [View.canon_unit_zero zeroOffs5]
  simp only [View.readAt_eq_ld, hmL.read_unread, hmM.read_unread, hmV.read_unread, hmG.read_unread, hmB.read_unread, hmI.read_unread, hmP.read_unread, View.ld_unit_zero (S := S2000x64) zeroOffs5, View.ld_unit_zero (S := S1x64) zeroOffs5, View.ld_unit_zero (S := S2000x1) zeroOffs5, View.ld_unit_zero (S := S512x64) zeroOffs5]

/-! ## What the output windows hold after each point, in payloads -/

/-- After the body at any point the tile output holds the normalised, clamped tile of the point's input blocks. -/
theorem after5_6 (c : Dev nD) (t : Fin cfg5.N) :
    (dat5 V c).after 6 t = k5_pay3 (iblk5 V c 0 t) (iblk5 V c 2 t) (iblk5 V c 1 t) (iblk5 V c 3 t) (iblk5 V c 4 t) := by
  rw [afterAt5_6]
  by_cases h0 : t.val % 25 = 0
  · rw [outsAt5_A V c t h0]; (try dsimp only)
    exact out5_A_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)
  · rw [outsAt5_B V c t h0]; (try dsimp only)
    exact out5_B_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2

/-- After the body at the first point the pooled block holds the first tile's contraction added to the zero block. -/
theorem after5_7_first (c : Dev nD) (t : Fin cfg5.N) (h : t.val = 0) :
    (dat5 V c).after 7 t = k5_pay1 (k5_pay4 (iblk5 V c 0 t) (iblk5 V c 2 t) (iblk5 V c 1 t) (iblk5 V c 3 t) (iblk5 V c 4 t) (iblk5 V c 5 t)) (k5_pay2 (F := F)) := by
  have h0 : t.val % 25 = 0 := by rw [h]
  rw [afterAt5_7, outsAt5_A V c t h0]; (try dsimp only)
  exact out5_A_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)

/-- After the body at a later point the pooled block holds the tile's contraction added to what the point before left. -/
theorem after5_7_later (c : Dev nD) (t : Fin cfg5.N) (h : t.val ≠ 0) :
    (dat5 V c).after 7 t = k5_pay1 (k5_pay4 (iblk5 V c 0 t) (iblk5 V c 2 t) (iblk5 V c 1 t) (iblk5 V c 3 t) (iblk5 V c 4 t) (iblk5 V c 5 t)) ((dat5 V c).after 7 ⟨t.val - 1, Nat.lt_of_le_of_lt (Nat.sub_le _ _) t.isLt⟩) := by
  have hN : t.val < 25 := lt_of_lt_of_eq t.isLt (show cfg5.N = 25 from N_5)
  have h0 : ¬t.val % 25 = 0 := by omega
  rw [afterAt5_7 V c t, outsAt5_B V c t h0, afterAt5_7 V c ⟨t.val - 1, Nat.lt_of_le_of_lt (Nat.sub_le _ _) t.isLt⟩]; (try dsimp only)
  exact out5_B_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2

end Cert.Kernel.Gen

end
-- ==== Proof.Kernel.Region6.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc6__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat6`), shows the body runs to them from what the pipeline hands it
(`body_obligation6`), for every float interpretation `F`. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running column sums after point `n`: the zero row updated by the product tiles of points `0 … n` in turn. -/
def sums6 (c : Dev nD) : (n : ℕ) → n < cfg6.N → Vec F S1x64 .f32
  | 0, hn => k6_pay4 (iblk6 V c 0 ⟨0, hn⟩) (iblk6 V c 1 ⟨0, hn⟩) (iblk6 V c 2 ⟨0, hn⟩) (iblk6 V c 3 ⟨0, hn⟩) (k6_pay1 (F := F))
  | n + 1, hn => k6_pay4 (iblk6 V c 0 ⟨n + 1, hn⟩) (iblk6 V c 1 ⟨n + 1, hn⟩) (iblk6 V c 2 ⟨n + 1, hn⟩) (iblk6 V c 3 ⟨n + 1, hn⟩)
      (sums6 c n (Nat.lt_of_succ_lt hn))

/-- The running column sums of squares after point `n`, likewise. -/
def sqs6 (c : Dev nD) : (n : ℕ) → n < cfg6.N → Vec F S1x64 .f32
  | 0, hn => k6_pay5 (iblk6 V c 0 ⟨0, hn⟩) (iblk6 V c 1 ⟨0, hn⟩) (iblk6 V c 2 ⟨0, hn⟩) (iblk6 V c 3 ⟨0, hn⟩) (k6_pay2 (F := F))
  | n + 1, hn => k6_pay5 (iblk6 V c 0 ⟨n + 1, hn⟩) (iblk6 V c 1 ⟨n + 1, hn⟩) (iblk6 V c 2 ⟨n + 1, hn⟩) (iblk6 V c 3 ⟨n + 1, hn⟩)
      (sqs6 c n (Nat.lt_of_succ_lt hn))

/-! ## The pipeline's proof data -/

/-- On core `c`: the arrays as the region finds them; after the body at point `t` an input's buffer at its block,
    the product window's at the product tile of the four input blocks, the two running rows' at `sums6` and `sqs6`;
    the invariant is the rest of the core's state, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay3 (iblk6 V c 0 t) (iblk6 V c 1 t) (iblk6 V c 2 t) (iblk6 V c 3 t)
    | ⟨5, _⟩ => sums6 V c t.val t.isLt
    | ⟨6, _⟩ => sqs6 V c t.val t.isLt
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-! ## What the body leaves, window by window -/

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]

/-- The product window holds the product tile of the point's four input blocks. -/
theorem after6_4 (c : Dev nD) (t : Fin cfg6.N) :
    (dat6 V c).after 4 t = k6_pay3 (iblk6 V c 0 t) (iblk6 V c 1 t) (iblk6 V c 2 t) (iblk6 V c 3 t) := by dsimp only [dat6]

/-- The column sums at the first point: the zero row updated by the first product tile. -/
theorem after6_5_first (c : Dev nD) (t : Fin cfg6.N) (h : t.val = 0) :
    (dat6 V c).after 5 t = k6_pay4 (iblk6 V c 0 t) (iblk6 V c 1 t) (iblk6 V c 2 t) (iblk6 V c 3 t) (k6_pay1 (F := F)) := by
  dsimp only [dat6]
  obtain ⟨n, hn⟩ := t
  cases n with
  | zero => exact rfl
  | succ n => exact absurd h (Nat.succ_ne_zero n)

/-- The column sums at a later point: what the point before left, updated by this point's product tile. -/
theorem after6_5_later (c : Dev nD) (t : Fin cfg6.N) (h : t.val ≠ 0) :
    (dat6 V c).after 5 t = k6_pay4 (iblk6 V c 0 t) (iblk6 V c 1 t) (iblk6 V c 2 t) (iblk6 V c 3 t)
      ((dat6 V c).after 5 ⟨t.val - 1, Nat.lt_of_le_of_lt (Nat.sub_le _ _) t.isLt⟩) := by
  dsimp only [dat6]
  obtain ⟨n, hn⟩ := t
  cases n with
  | zero => exact absurd rfl h
  | succ n => exact rfl

/-- The column sums of squares at the first point. -/
theorem after6_6_first (c : Dev nD) (t : Fin cfg6.N) (h : t.val = 0) :
    (dat6 V c).after 6 t = k6_pay5 (iblk6 V c 0 t) (iblk6 V c 1 t) (iblk6 V c 2 t) (iblk6 V c 3 t) (k6_pay2 (F := F)) := by
  dsimp only [dat6]
  obtain ⟨n, hn⟩ := t
  cases n with
  | zero => exact rfl
  | succ n => exact absurd h (Nat.succ_ne_zero n)

/-- The column sums of squares at a later point. -/
theorem after6_6_later (c : Dev nD) (t : Fin cfg6.N) (h : t.val ≠ 0) :
    (dat6 V c).after 6 t = k6_pay5 (iblk6 V c 0 t) (iblk6 V c 1 t) (iblk6 V c 2 t) (iblk6 V c 3 t)
      ((dat6 V c).after 6 ⟨t.val - 1, Nat.lt_of_le_of_lt (Nat.sub_le _ _) t.isLt⟩) := by
  dsimp only [dat6]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- At a later point a running row's buffer holds what the body left at the point before: the row is written back
    at the last point only, its block never moves, and it is never idle or cut. -/
theorem before6_5_later (c : Dev nD) (t : Fin cfg6.N) (h : t.val ≠ 0) (d) :
    (dat6 V c).before 5 t d = (dat6 V c).after 5 ⟨t.val - 1, Nat.lt_of_le_of_lt (Nat.sub_le _ _) t.isLt⟩ := by
  have hN : t.val < 5 := lt_of_lt_of_eq t.isLt (show cfg6.N = 5 from N_6)
  exact Dat.before_out_kept _ 5 rfl t h
    (Bool.eq_false_iff.mpr fun hf => by have := (flush6_5 _).mp hf; dsimp only at this; omega)
    (fun _ => rfl) (fun _ _ => rfl) d
theorem before6_6_later (c : Dev nD) (t : Fin cfg6.N) (h : t.val ≠ 0) (d) :
    (dat6 V c).before 6 t d = (dat6 V c).after 6 ⟨t.val - 1, Nat.lt_of_le_of_lt (Nat.sub_le _ _) t.isLt⟩ := by
  have hN : t.val < 5 := lt_of_lt_of_eq t.isLt (show cfg6.N = 5 from N_6)
  exact Dat.before_out_kept _ 6 rfl t h
    (Bool.eq_false_iff.mpr fun hf => by have := (flush6_6 _).mp hf; dsimp only at this; omega)
    (fun _ => rfl) (fun _ _ => rfl) d

/-! ## The body's branch -/

/-- The condition of the body's one conditional, as the body computes it from the grid coordinate: "this is point 0". -/
abbrev cond6 (i : grid6.Coords) : Prop :=
  (Scalar.cmpi .ne (Scalar.extui (Scalar.cmpi .eq (BitVec.ofNat 32 (i 0).val) 0#32)) 0#32) = 1#1

/-- It holds at the first point and at no other (decided over the five points). -/
theorem hcond6 : ∀ t : Fin cfg6.N, cond6 (grid6.coords t) ↔ t.val = 0 :=
  (by decide +kernel : ∀ t : Fin grid6.N, cond6 (grid6.coords t) ↔ t.val = 0)

/-- The offsets of a whole-buffer access are all zero. -/
theorem offs6_zero : (![0, 0] : Fin 2 → Nat) = fun _ => 0 := funext fun a => by fin_cases a <;> rfl

/-- A buffer whose LAST store goes through the whole-buffer rectangle reads back that store's payload, whatever the
    earlier stores and the prior contents were. -/
theorem read_last6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel6_first (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond6 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k6_pay3 xh xg xw xb)
            ∗ owns (c : Thread nD τ) arg6 fullShare (k6_pay4 xh xg xw xb (k6_pay1 (F := F)))
            ∗ owns (c : Thread nD τ) arg7 fullShare (k6_pay5 xh xg xw xb (k6_pay2 (F := F)))) -∗ K ⟨⟩))
      ⊢ wp frame (wpE (defs₀ (F := F)) Variants.none c none) E (cc6__linear_stats_kernel i arg1 harg1 arg2 harg2 arg3 harg3 arg4 harg4 arg5 harg5 arg6 harg6 arg7 harg7) K := by
  simp only [cc6__linear_stats_kernel_eq_skeleton]; unfold cc6__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  isplitl [Hs]
  · iexists _; isplitr
    swap; · iexact Hs
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  · iexists _; isplitr
    swap; · iexact Hq
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]

set_option maxHeartbeats 2000000 in
/-- AT A LATER POINT. The same, the branch not taken, with the two running rows' buffers at given contents `ps pq`:
    each row ends at its update of what it held. -/
theorem sound_kernel6_later (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond6 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k6_pay3 xh xg xw xb)
            ∗ owns (c : Thread nD τ) arg6 fullShare (k6_pay4 xh xg xw xb ps)
            ∗ owns (c : Thread nD τ) arg7 fullShare (k6_pay5 xh xg xw xb pq)) -∗ K ⟨⟩))
      ⊢ wp frame (wpE (defs₀ (F := F)) Variants.none c none) E (cc6__linear_stats_kernel i arg1 harg1 arg2 harg2 arg3 harg3 arg4 harg4 arg5 harg5 arg6 harg6 arg7 harg7) K := by
  simp only [cc6__linear_stats_kernel_eq_skeleton]; unfold cc6__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  isplitl [Hs]
  · iexists _; isplitr
    swap; · iexact Hs
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  · iexists _; isplitr
    swap; · iexact Hq
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  by_cases h : t.val = 0
  · rw [after6_5_first V c t h, after6_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel6_first c Set.univ (grid6.coords t) _ _ _ _ _ _ _ _ _ _ _ _ _ _ ((hcond6 t).mpr h)
      (iblk6 V c 0 t) (iblk6 V c 1 t) (iblk6 V c 2 t) (iblk6 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after6_5_later V c t h, after6_6_later V c t h]
    simp only [before6_5_later V c t h, before6_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel6_later c Set.univ (grid6.coords t) _ _ _ _ _ _ _ _ _ _ _ _ _ _ (fun hc => h ((hcond6 t).mp hc))
      (iblk6 V c 0 t) (iblk6 V c 1 t) (iblk6 V c 2 t) (iblk6 V c 3 t)
      ((dat6 V c).after 5 ⟨t.val - 1, Nat.lt_of_le_of_lt (Nat.sub_le _ _) t.isLt⟩)
      ((dat6 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.Kernel.Region7.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The seven input blocks at their literal vector types: the first linear map's tile, the mean, the variance, the
    scale, the shift, the second weight matrix, the second bias. -/
abbrev blk7_0 (c : Dev nD) (t : Fin cfg7.N) : Vec F S10000x64 .f32 := iblk7 V c 0 t
abbrev blk7_1 (c : Dev nD) (t : Fin cfg7.N) : Vec F S1x64 .f32 := iblk7 V c 1 t
abbrev blk7_2 (c : Dev nD) (t : Fin cfg7.N) : Vec F S1x64 .f32 := iblk7 V c 2 t
abbrev blk7_3 (c : Dev nD) (t : Fin cfg7.N) : Vec F S1x64 .f32 := iblk7 V c 3 t
abbrev blk7_4 (c : Dev nD) (t : Fin cfg7.N) : Vec F S1x64 .f32 := iblk7 V c 4 t
abbrev blk7_5 (c : Dev nD) (t : Fin cfg7.N) : Vec F S64x64 .f32 := iblk7 V c 5 t
abbrev blk7_6 (c : Dev nD) (t : Fin cfg7.N) : Vec F S1x64 .f32 := iblk7 V c 6 t

/-! ## The branch on the first tile -/

/-- The condition of the body's one conditional, from the grid coordinate: the tile number compared with zero,
    widened and compared again, as the body computes it. -/
abbrev cond7_0 (i : grid7.Coords) : Prop :=
  (Scalar.cmpi .ne (Scalar.extui (Scalar.cmpi .eq (BitVec.ofNat 32 (i 0).val) 0#32)) 0#32) = 1#1

/-- It holds at the first tile and at no other: decided over the five tiles. -/
theorem hcond7_0 : ∀ t : Fin cfg7.N, cond7_0 (grid7.coords t) ↔ t.val = 0 :=
  (by decide +kernel : ∀ t : Fin grid7.N, cond7_0 (grid7.coords t) ↔ t.val = 0)

/-! ## The staging memrefs the body is called with -/

abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S64x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S10000x64 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x64 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x64 .f32 := win7_9.stage (cfg7.slots t 9)
abbrev hs7_9 (t : Fin cfg7.N) : (ms7_9 t).IsWhole := hstage7_9 ((cfg7.slots t 9).cast nbuf7_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run7_A (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc7__bn_linear_stats_kernel i ma ha mb hb mc hc md hd me he mf hf mg hg mh hh mi hi mj hj) K } := by
  refine ⟨?_, ?_, ?_, fun E K => ?run⟩
  case run =>
    simp only [cc7__bn_linear_stats_kernel_eq_skeleton]; unfold cc7__bn_linear_stats_kernel_skel
    simp only [k7_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run7_B (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc7__bn_linear_stats_kernel i ma ha mb hb mc hc md hd me he mf hf mg hg mh hh mi hi mj hj) K } := by
  refine ⟨?_, ?_, ?_, fun E K => ?run⟩
  case run =>
    simp only [cc7__bn_linear_stats_kernel_eq_skeleton]; unfold cc7__bn_linear_stats_kernel_skel
    simp only [k7_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover7_A_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S10000x64.Idx) :
    ∃ pc ∈ (run7_A c i ma ha mb hb mc hc md hd me he mf hf mg hg mh hh mi hi mj hj hz xa xb xc xd xe xf xg).1, y ∈ pc.1.set :=
  View.cover_of_tiledL (run7_A c i ma ha mb hb mc hc md hd me he mf hf mg hg mh hh mi hi mj hj hz xa xb xc xd xe xf xg).1 S10000x64.size (by sl_kernel_rfl) y
theorem cover7_A_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S1x64.Idx) :
    ∃ pc ∈ (run7_A c i ma ha mb hb mc hc md hd me he mf hf mg hg mh hh mi hi mj hj hz xa xb xc xd xe xf xg).2.1, y ∈ pc.1.set :=
  View.cover_of_tiledL (run7_A c i ma ha mb hb mc hc md hd me he mf hf mg hg mh hh mi hi mj hj hz xa xb xc xd xe xf xg).2.1 S1x64.size (by sl_kernel_rfl) y
theorem cover7_A_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S1x64.Idx) :
    ∃ pc ∈ (run7_A c i ma ha mb hb mc hc md hd me he mf hf mg hg mh hh mi hi mj hj hz xa xb xc xd xe xf xg).2.2.1, y ∈ pc.1.set :=
  View.cover_of_tiledL (run7_A c i ma ha mb hb mc hc md hd me he mf hf mg hg mh hh mi hi mj hj hz xa xb xc xd xe xf xg).2.2.1 S1x64.size (by sl_kernel_rfl) y
theorem cover7_B_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run7_B c i ma ha mb hb mc hc md hd me he mf hf mg hg mh hh mi hi mj hj hz xa xb xc xd xe xf xg yi yj).1, y ∈ pc.1.set :=
  View.cover_of_tiledL (run7_B c i ma ha mb hb mc hc md hd me he mf hf mg hg mh hh mi hi mj hj hz xa xb xc xd xe xf xg yi yj).1 S10000x64.size (by sl_kernel_rfl) y
theorem cover7_B_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run7_B c i ma ha mb hb mc hc md hd me he mf hf mg hg mh hh mi hi mj hj hz xa xb xc xd xe xf xg yi yj).2.1, y ∈ pc.1.set :=
  View.cover_of_tiledL (run7_B c i ma ha mb hb mc hc md hd me he mf hf mg hg mh hh mi hi mj hj hz xa xb xc xd xe xf xg yi yj).2.1 S1x64.size (by sl_kernel_rfl) y
theorem cover7_B_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run7_B c i ma ha mb hb mc hc md hd me he mf hf mg hg mh hh mi hi mj hj hz xa xb xc xd xe xf xg yi yj).2.2.1, y ∈ pc.1.set :=
  View.cover_of_tiledL (run7_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out7_A (c : Dev nD) (t : Fin cfg7.N) (hz : cond7_0 (grid7.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).1,
   View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).2.1,
   View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).2.2.1)

/-- The same at a later tile, over the accumulators' running contents `yi`, `yj`. -/
def out7_B (c : Dev nD) (t : Fin cfg7.N) (hz : ¬cond7_0 (grid7.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).1,
   View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).2.1,
   View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt7 (c : Dev nD) : (n : ℕ) → n < cfg7.N → Vec F S10000x64 .f32 × Vec F S1x64 .f32 × Vec F S1x64 .f32
  | 0, hn => out7_A c ⟨0, hn⟩ ((hcond7_0 ⟨0, hn⟩).mpr rfl)
      (blk7_0 V c ⟨0, hn⟩) (blk7_1 V c ⟨0, hn⟩) (blk7_2 V c ⟨0, hn⟩) (blk7_3 V c ⟨0, hn⟩) (blk7_4 V c ⟨0, hn⟩) (blk7_5 V c ⟨0, hn⟩) (blk7_6 V c ⟨0, hn⟩)
  | n + 1, hn => out7_B c ⟨n + 1, hn⟩ (fun h => Nat.succ_ne_zero n ((hcond7_0 ⟨n + 1, hn⟩).mp h))
      (blk7_0 V c ⟨n + 1, hn⟩) (blk7_1 V c ⟨n + 1, hn⟩) (blk7_2 V c ⟨n + 1, hn⟩) (blk7_3 V c ⟨n + 1, hn⟩) (blk7_4 V c ⟨n + 1, hn⟩) (blk7_5 V c ⟨n + 1, hn⟩) (blk7_6 V c ⟨n + 1, hn⟩)
      (outsAt7 c n (Nat.lt_of_succ_lt hn)).2.1 (outsAt7 c n (Nat.lt_of_succ_lt hn)).2.2

/-- `outsAt7` at the first tile. -/
theorem outsAt7_first (c : Dev nD) (t : Fin cfg7.N) (h0 : t.val = 0) :
    outsAt7 V c t.val t.isLt = out7_A c t ((hcond7_0 t).mpr h0)
      (blk7_0 V c t) (blk7_1 V c t) (blk7_2 V c t) (blk7_3 V c t) (blk7_4 V c t) (blk7_5 V c t) (blk7_6 V c t) := by
  obtain ⟨n, hn⟩ := t
  cases n with
  | zero => exact rfl
  | succ n => exact absurd h0 (Nat.succ_ne_zero n)

/-- `outsAt7` at a later tile, over what the tile before left. -/
theorem outsAt7_later (c : Dev nD) (t : Fin cfg7.N) (h0 : ¬t.val = 0) :
    outsAt7 V c t.val t.isLt = out7_B c t (fun h => h0 ((hcond7_0 t).mp h))
      (blk7_0 V c t) (blk7_1 V c t) (blk7_2 V c t) (blk7_3 V c t) (blk7_4 V c t) (blk7_5 V c t) (blk7_6 V c t)
      (outsAt7 V c (t.val - 1) (Nat.lt_of_le_of_lt (Nat.sub_le _ _) t.isLt)).2.1
      (outsAt7 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data on core `c`: the arrays as the region finds them; after the body at tile `t` each input's buffer
    at its block and the three outputs' at `outsAt7`; the invariant holds the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
    | ⟨8, _⟩ => (outsAt7 V c t.val t.isLt).2.1
    | ⟨9, _⟩ => (outsAt7 V c t.val t.isLt).2.2
  Φ _ := Pipeline.ΦA spec7 c
  q _ := fullShare
  owed _ := 0

/-- The proof data's arrays are the entry contents (the definition projected, never unfolded further). -/
theorem A_eq7 (c : Dev nD) (w : Fin cfg7.W) : (dat7 V c).A w = V c (Pipeline.arrRef spec7 w) := by
  dsimp only [dat7]

/-- What the body leaves, window by window: an input's block; an output's component of `outsAt7`. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem afterRaw7_7 (c : Dev nD) (t : Fin cfg7.N) : (dat7 V c).after 7 t = (outsAt7 V c t.val t.isLt).1 := by dsimp only [dat7]
theorem afterRaw7_8 (c : Dev nD) (t : Fin cfg7.N) : (dat7 V c).after 8 t = (outsAt7 V c t.val t.isLt).2.1 := by dsimp only [dat7]
theorem afterRaw7_9 (c : Dev nD) (t : Fin cfg7.N) : (dat7 V c).after 9 t = (outsAt7 V c t.val t.isLt).2.2 := by dsimp only [dat7]

/-- Each input's current staging buffer holds its block at every tile. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- At a later tile the column-sum accumulator's staging buffer holds what the body left at the tile before: the
    buffer is written back at the last tile only, and the window is neither idle nor cut. -/
theorem before7_8_later (c : Dev nD) (t : Fin cfg7.N) (h0 : ¬t.val = 0) (d) :
    (dat7 V c).before 8 t d = (outsAt7 V c (t.val - 1) (Nat.lt_of_le_of_lt (Nat.sub_le _ _) t.isLt)).2.1 := by
  have hN : t.val < 5 := lt_of_lt_of_eq t.isLt (show cfg7.N = 5 from N_7)
  rw [Dat.before_out_kept _ 8 rfl t h0 (Bool.eq_false_iff.mpr fun h => by have := (flush7_8 _).mp h; dsimp only at this; omega)
    (fun _ => rfl) (fun _ _ => rfl)]
  dsimp only [dat7]
/-- The same for the accumulator of squares. -/
theorem before7_9_later (c : Dev nD) (t : Fin cfg7.N) (h0 : ¬t.val = 0) (d) :
    (dat7 V c).before 9 t d = (outsAt7 V c (t.val - 1) (Nat.lt_of_le_of_lt (Nat.sub_le _ _) t.isLt)).2.2 := by
  have hN : t.val < 5 := lt_of_lt_of_eq t.isLt (show cfg7.N = 5 from N_7)
  rw [Dat.before_out_kept _ 9 rfl t h0 (Bool.eq_false_iff.mpr fun h => by have := (flush7_9 _).mp h; dsimp only at this; omega)
    (fun _ => rfl) (fun _ _ => rfl)]
  dsimp only [dat7]

/-! ## The body obligation at a tile -/

/-- What the body is called with at tile `t`: the invariant, the core's debt, and each window's current staging
    buffer at what the pipeline left in it. -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

/-- What it returns: the same with each buffer at what the body leaves. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, afterRaw7_7, afterRaw7_8, afterRaw7_9]
  by_cases h0 : t.val = 0
  · rw [outsAt7_first V c t h0]
    unfold out7_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run7_A c (grid7.coords t) _ _ _ _ _ _ _ _ _ _ _ _ _ _ _ _ _ _ _ _ ((hcond7_0 t).mpr h0)
      (blk7_0 V c t) (blk7_1 V c t) (blk7_2 V c t) (blk7_3 V c t) (blk7_4 V c t) (blk7_5 V c t) (blk7_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover7_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover7_A_8 c _ _ _ _ _ _ _ _ _ _ _ _ _ _ _ _ _ _ _ _ _ _ _ _ _ _ _ _ _)
    unfold owns; iexists _; isplitr
    swap; · iexact Hj
    ipureintro; exact View.read_writes_eq_canon _ _ _ (cover7_A_9 c _ _ _ _ _ _ _ _ _ _ _ _ _ _ _ _ _ _ _ _ _ _ _ _ _ _ _ _ _)
  · rw [outsAt7_later V c t h0]
    simp only [before7_8_later V c t h0, before7_9_later V c t h0]
    unfold out7_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run7_B c (grid7.coords t) _ _ _ _ _ _ _ _ _ _ _ _ _ _ _ _ _ _ _ _ (fun h => h0 ((hcond7_0 t).mp h))
      (blk7_0 V c t) (blk7_1 V c t) (blk7_2 V c t) (blk7_3 V c t) (blk7_4 V c t) (blk7_5 V c t) (blk7_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover7_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover7_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover7_B_9 c _ _ _ _ _ _ _ _ _ _ _ _ _ _ _ _ _ _ _ _ _ _ _ _ _ _ _ _ _ _ _)

/-- The pipeline's body obligation, at every tile. -/
theorem body_obligation7 (c : Dev nD) : BodyObligation (dat7 (F := F) V c) (defs₀ (F := F)) Variants.none () Set.univ := fun t => by
  rw [bigSep_W7, bigSep_W7]
  exact sound_body7 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero7 : (![0, 0] : Fin 2 → Nat) = fun _ => 0 := by
  funext a
  match a with
  | ⟨0, _⟩ => rfl
  | ⟨1, _⟩ => rfl

/-- First tile, tile output: the normalised, rectified tile through the second linear map. -/
theorem piece7_A_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).1 = k7_pay5 xa xc xb xd xe xf xg := by
  unfold run7_A
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- First tile, column sums: zero, read back, plus the tile output's column sums. -/
theorem piece7_A_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).2.1 = k7_pay1 (k7_pay5 xa xc xb xd xe xf xg) (k7_pay3 (F := F)) := by
  unfold run7_A
  dsimp only
  sl_unfold_words
  rw [View.canon_cons_unit_zero (S := S1x64) hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- First tile, column sums of squares. -/
theorem piece7_A_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).2.2.1 = k7_pay2 (k7_pay5 xa xc xb xd xe xf xg) (k7_pay4 (F := F)) := by
  unfold run7_A
  dsimp only
  sl_unfold_words
  rw [View.canon_cons_unit_zero (S := S1x64) hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, tile output. -/
theorem piece7_B_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).1 = k7_pay5 xa xc xb xd xe xf xg := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, column sums: the running sums plus the tile output's column sums. -/
theorem piece7_B_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).2.1 = k7_pay1 (k7_pay5 xa xc xb xd xe xf xg) yi := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, column sums of squares. -/
theorem piece7_B_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).2.2.1 = k7_pay2 (k7_pay5 xa xc xb xd xe xf xg) yj := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after7_7 (c : Dev nD) (t : Fin cfg7.N) :
    (dat7 V c).after 7 t = k7_pay5 (iblk7 V c 0 t) (iblk7 V c 2 t) (iblk7 V c 1 t) (iblk7 V c 3 t) (iblk7 V c 4 t) (iblk7 V c 5 t) (iblk7 V c 6 t) := by
  rw [afterRaw7_7]
  by_cases h0 : t.val = 0
  · rw [outsAt7_first V c t h0]
    unfold out7_A
    dsimp only
    exact piece7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (blk7_0 V c t) (blk7_1 V c t) (blk7_2 V c t) (blk7_3 V c t) (blk7_4 V c t) (blk7_5 V c t) (blk7_6 V c t)
  · rw [outsAt7_later V c t h0]
    unfold out7_B
    dsimp only
    exact piece7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (blk7_0 V c t) (blk7_1 V c t) (blk7_2 V c t) (blk7_3 V c t) (blk7_4 V c t) (blk7_5 V c t) (blk7_6 V c t)
      (outsAt7 V c (t.val - 1) (Nat.lt_of_le_of_lt (Nat.sub_le _ _) t.isLt)).2.1 (outsAt7 V c (t.val - 1) (Nat.lt_of_le_of_lt (Nat.sub_le _ _) t.isLt)).2.2

/-- The column sums after the first tile. -/
theorem after7_8_first (c : Dev nD) (t : Fin cfg7.N) (h : t.val = 0) :
    (dat7 V c).after 8 t = k7_pay1 (k7_pay5 (iblk7 V c 0 t) (iblk7 V c 2 t) (iblk7 V c 1 t) (iblk7 V c 3 t) (iblk7 V c 4 t) (iblk7 V c 5 t) (iblk7 V c 6 t)) (k7_pay3 (F := F)) := by
  rw [afterRaw7_8, outsAt7_first V c t h]
  unfold out7_A
  dsimp only
  exact piece7_A_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h) (blk7_0 V c t) (blk7_1 V c t) (blk7_2 V c t) (blk7_3 V c t) (blk7_4 V c t) (blk7_5 V c t) (blk7_6 V c t)

/-- The column sums after a later tile, from those after the tile before. -/
theorem after7_8_later (c : Dev nD) (t : Fin cfg7.N) (h : t.val ≠ 0) :
    (dat7 V c).after 8 t = k7_pay1 (k7_pay5 (iblk7 V c 0 t) (iblk7 V c 2 t) (iblk7 V c 1 t) (iblk7 V c 3 t) (iblk7 V c 4 t) (iblk7 V c 5 t) (iblk7 V c 6 t)) ((dat7 V c).after 8 ⟨t.val - 1, Nat.lt_of_le_of_lt (Nat.sub_le _ _) t.isLt⟩) := by
  rw [afterRaw7_8, afterRaw7_8, outsAt7_later V c t h]
  unfold out7_B
  dsimp only
  exact piece7_B_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h' => h ((hcond7_0 t).mp h')) (blk7_0 V c t) (blk7_1 V c t) (blk7_2 V c t) (blk7_3 V c t) (blk7_4 V c t) (blk7_5 V c t) (blk7_6 V c t)
    (outsAt7 V c (t.val - 1) (Nat.lt_of_le_of_lt (Nat.sub_le _ _) t.isLt)).2.1 (outsAt7 V c (t.val - 1) (Nat.lt_of_le_of_lt (Nat.sub_le _ _) t.isLt)).2.2

/-- The column sums of squares after the first tile. -/
theorem after7_9_first (c : Dev nD) (t : Fin cfg7.N) (h : t.val = 0) :
    (dat7 V c).after 9 t = k7_pay2 (k7_pay5 (iblk7 V c 0 t) (iblk7 V c 2 t) (iblk7 V c 1 t) (iblk7 V c 3 t) (iblk7 V c 4 t) (iblk7 V c 5 t) (iblk7 V c 6 t)) (k7_pay4 (F := F)) := by
  rw [afterRaw7_9, outsAt7_first V c t h]
  unfold out7_A
  dsimp only
  exact piece7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h) (blk7_0 V c t) (blk7_1 V c t) (blk7_2 V c t) (blk7_3 V c t) (blk7_4 V c t) (blk7_5 V c t) (blk7_6 V c t)

/-- The column sums of squares after a later tile, from those after the tile before. -/
theorem after7_9_later (c : Dev nD) (t : Fin cfg7.N) (h : t.val ≠ 0) :
    (dat7 V c).after 9 t = k7_pay2 (k7_pay5 (iblk7 V c 0 t) (iblk7 V c 2 t) (iblk7 V c 1 t) (iblk7 V c 3 t) (iblk7 V c 4 t) (iblk7 V c 5 t) (iblk7 V c 6 t)) ((dat7 V c).after 9 ⟨t.val - 1, Nat.lt_of_le_of_lt (Nat.sub_le _ _) t.isLt⟩) := by
  rw [afterRaw7_9, afterRaw7_9, outsAt7_later V c t h]
  unfold out7_B
  dsimp only
  exact piece7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h' => h ((hcond7_0 t).mp h')) (blk7_0 V c t) (blk7_1 V c t) (blk7_2 V c t) (blk7_3 V c t) (blk7_4 V c t) (blk7_5 V c t) (blk7_6 V c t)
    (outsAt7 V c (t.val - 1) (Nat.lt_of_le_of_lt (Nat.sub_le _ _) t.isLt)).2.1 (outsAt7 V c (t.val - 1) (Nat.lt_of_le_of_lt (Nat.sub_le _ _) t.isLt)).2.2

end Cert.Kernel.Gen

end
-- ==== Proof.Kernel.Region8.lean ====
import proofs.«428437_j36421322670670_1_alg».proof.Proof.Gen.Kernel.Launch
import proofs.«428437_j36421322670670_1_alg».proof.Proof.Gen.Kernel.Skeleton
import proofs.«428437_j36421322670670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the block was fetched there or
    kept from the point before (its index has not moved then), for any proof data whose array is the entry contents
    and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch condition -/

/-- The condition of the body's one conditional, from the grid coordinates: the coordinate is zero. -/
abbrev cond8_0 (i : grid8.Coords) : Prop := (Scalar.cmpi .ne (Scalar.extui (Scalar.cmpi .eq (BitVec.ofNat 32 (i 0).val) 0#32)) 0#32) = 1#1
/-- It holds at the first point only (decided over the grid). -/
theorem hcond8_0 : ∀ t : Fin cfg8.N, cond8_0 (grid8.coords t) ↔ t.val % 25 = 0 :=
  (by decide +kernel : ∀ t : Fin grid8.N, cond8_0 (grid8.coords t) ↔ t.val % 25 = 0)

/-! ## The staging memrefs -/

/-- One staging buffer of each output window, through which its contents are stated (the choice does not matter:
    a covering list of pieces reads back the same through any view). -/
abbrev VO8_6 : View sig .tc .vmem S2000x64 .f32 := (Memref.whole cc8_stg6_0 : Memref sig .tc .vmem S2000x64 .f32).view
abbrev VO8_7 : View sig .tc .vmem S512x64 .f32 := (Memref.whole cc8_stg7_0 : Memref sig .tc .vmem S512x64 .f32).view
/-- Each window's current staging memref at point `t`, spelled as the pipeline passes it to the body, and its wholeness. -/
abbrev ms8_0 (t : Fin cfg8.N) : Memref sig .tc .vmem S2000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x64 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S2000x1 .i32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S2000x64 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S512x64 .f32 := win8_7.stage (cfg8.slots t 7)
abbrev hs8_7 (t : Fin cfg8.N) : (ms8_7 t).IsWhole := hstage8_7 ((cfg8.slots t 7).cast nbuf8_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun8_A (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc8__bn_pool_kernel i mL hmL mM hmM mV hmV mG hmG mB hmB mI hmI mH hmH mP hmP) K } := by
  refine ⟨?_, ?_, fun E K => ?run⟩
  case run =>
    simp only [cc8__bn_pool_kernel_eq_skeleton]; unfold cc8__bn_pool_kernel_skel
    simp only [k8_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun8_B (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc8__bn_pool_kernel i mL hmL mM hmM mV hmV mG hmG mB hmB mI hmI mH hmH mP hmP) K } := by
  refine ⟨?_, ?_, fun E K => ?run⟩
  case run =>
    simp only [cc8__bn_pool_kernel_eq_skeleton]; unfold cc8__bn_pool_kernel_skel
    simp only [k8_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover8_A_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun8_A c i mL hmL mM hmM mV hmV mG hmG mB hmB mI hmI mH hmH mP hmP hc xL xM xV xG xB xI).1, y ∈ pc.1.set :=
  View.cover_of_tiledL (kernelRun8_A c i mL hmL mM hmM mV hmV mG hmG mB hmB mI hmI mH hmH mP hmP hc xL xM xV xG xB xI).1 S2000x64.size (by sl_kernel_rfl) y

/-- What case A leaves in output window 6's staging buffer: its pieces read back. -/
def out8_A_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO8_6.read (Elt F) (VO8_6.writes (Elt F) VO8_6.junk (kernelRun8_A c i mL hmL mM hmM mV hmV mG hmG mB hmB mI hmI mH hmH mP hmP hc xL xM xV xG xB xI).1)

/-- The pieces case A finds for output window 7 tile its block, so they cover it. -/
theorem cover8_A_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun8_A c i mL hmL mM hmM mV hmV mG hmG mB hmB mI hmI mH hmH mP hmP hc xL xM xV xG xB xI).2.1, y ∈ pc.1.set :=
  View.cover_of_tiledL (kernelRun8_A c i mL hmL mM hmM mV hmV mG hmG mB hmB mI hmI mH hmH mP hmP hc xL xM xV xG xB xI).2.1 S512x64.size (by sl_kernel_rfl) y

/-- What case A leaves in output window 7's staging buffer: its pieces read back. -/
def out8_A_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO8_7.read (Elt F) (VO8_7.writes (Elt F) VO8_7.junk (kernelRun8_A c i mL hmL mM hmM mV hmV mG hmG mB hmB mI hmI mH hmH mP hmP hc xL xM xV xG xB xI).2.1)

/-- The pieces case B finds for output window 6 tile its block, so they cover it. -/
theorem cover8_B_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun8_B c i mL hmL mM hmM mV hmV mG hmG mB hmB mI hmI mH hmH mP hmP hc xL xM xV xG xB xI xP).1, y ∈ pc.1.set :=
  View.cover_of_tiledL (kernelRun8_B c i mL hmL mM hmM mV hmV mG hmG mB hmB mI hmI mH hmH mP hmP hc xL xM xV xG xB xI xP).1 S2000x64.size (by sl_kernel_rfl) y

/-- What case B leaves in output window 6's staging buffer: its pieces read back. -/
def out8_B_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO8_6.read (Elt F) (VO8_6.writes (Elt F) VO8_6.junk (kernelRun8_B c i mL hmL mM hmM mV hmV mG hmG mB hmB mI hmI mH hmH mP hmP hc xL xM xV xG xB xI xP).1)

/-- The pieces case B finds for output window 7 tile its block, so they cover it. -/
theorem cover8_B_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun8_B c i mL hmL mM hmM mV hmV mG hmG mB hmB mI hmI mH hmH mP hmP hc xL xM xV xG xB xI xP).2.1, y ∈ pc.1.set :=
  View.cover_of_tiledL (kernelRun8_B c i mL hmL mM hmM mV hmV mG hmG mB hmB mI hmI mH hmH mP hmP hc xL xM xV xG xB xI xP).2.1 S512x64.size (by sl_kernel_rfl) y

/-- What case B leaves in output window 7's staging buffer: its pieces read back. -/
def out8_B_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO8_7.read (Elt F) (VO8_7.writes (Elt F) VO8_7.junk (kernelRun8_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt8 (c : Dev nD) : (n : ℕ) → n < cfg8.N → Vec F S2000x64 .f32 × Vec F S512x64 .f32
  | 0, hn => (out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩))
  | n + 1, hn =>
    if h0 : (n + 1) % 25 = 0 then
      (out8_A_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩),
        out8_A_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩))
    else
      (out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2,
        out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2)

/-- `outsAt8` at the point of case A: that case's contents. -/
theorem outsAt8_A (c : Dev nD) (t : Fin cfg8.N) (h0 : t.val % 25 = 0) :
    outsAt8 V c t.val t.isLt = (out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t),
      out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)) := by
  obtain ⟨n, hn⟩ := t
  cases n with
  | zero => exact rfl
  | succ n => exact (dif_pos h0).trans rfl

/-- `outsAt8` at a point of case B: that case's contents, over what the point before left. -/
theorem outsAt8_B (c : Dev nD) (t : Fin cfg8.N) (h0 : ¬t.val % 25 = 0) :
    outsAt8 V c t.val t.isLt = (out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2,
      out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt8`; the invariant that of a body with no
    state of its own (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => (outsAt8 V c t.val t.isLt).1
    | ⟨7, _⟩ => (outsAt8 V c t.val t.isLt).2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem afterAt8_6 (c : Dev nD) (t : Fin cfg8.N) : (dat8 V c).after 6 t = (outsAt8 V c t.val t.isLt).1 := by dsimp only [dat8]
theorem afterAt8_7 (c : Dev nD) (t : Fin cfg8.N) : (dat8 V c).after 7 t = (outsAt8 V c t.val t.isLt).2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
/-- At a point of case B the pooled window's staging buffer holds what the body left at the point before: the point
    is not the first, the buffer was not written back between (only the last point writes it back), the window is
    live and uncut. -/
theorem before8_7_B (c : Dev nD) (t : Fin cfg8.N) (h0 : ¬t.val % 25 = 0) (d) :
    (dat8 V c).before 7 t d = (outsAt8 V c (t.val - 1) (Nat.lt_of_le_of_lt (Nat.sub_le _ _) t.isLt)).2 := by
  have hN : t.val < 25 := lt_of_lt_of_eq t.isLt (show cfg8.N = 25 from N_8)
  rw [Dat.before_out_kept _ 7 rfl t (by omega) (Bool.eq_false_iff.mpr fun h => by have := (flush8_7 _).mp h; dsimp only at this; omega)
    (fun _ => rfl) (fun _ _ => rfl)]
  dsimp only [dat8]

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, afterAt8_6, afterAt8_7]
  have hN : t.val < 25 := lt_of_lt_of_eq t.isLt (show cfg8.N = 25 from N_8)
  by_cases h0 : t.val % 25 = 0
  · rw [outsAt8_A V c t h0]
    (try dsimp only)
    unfold out8_A_6 out8_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun8_A c (grid8.coords t) _ _ _ _ _ _ _ _ _ _ _ _ _ _ _ _ ((hcond8_0 t).mpr h0) (iblk8 V c 0 t) (iblk8 V c 1 t) (iblk8 V c 2 t) (iblk8 V c 3 t) (iblk8 V c 4 t) (iblk8 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover8_A_6 c _ _ _ _ _ _ _ _ _ _ _ _ _ _ _ _ _ _ _ _ _ _ _ _)
    unfold owns; iexists _; isplitr
    swap; · iexact HP
    ipureintro; exact View.read_writes_of_cover _ _ _ _ _ (cover8_A_7 c _ _ _ _ _ _ _ _ _ _ _ _ _ _ _ _ _ _ _ _ _ _ _ _)
  · rw [outsAt8_B V c t h0]
    simp only [before8_7_B V c t h0]
    (try dsimp only)
    unfold out8_B_6 out8_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun8_B c (grid8.coords t) _ _ _ _ _ _ _ _ _ _ _ _ _ _ _ _ (fun h => h0 ((hcond8_0 t).mp h)) (iblk8 V c 0 t) (iblk8 V c 1 t) (iblk8 V c 2 t) (iblk8 V c 3 t) (iblk8 V c 4 t) (iblk8 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover8_B_6 c _ _ _ _ _ _ _ _ _ _ _ _ _ _ _ _ _ _ _ _ _ _ _ _ _)
    unfold owns; iexists _; isplitr
    swap; · iexact HP
    ipureintro; exact View.read_writes_of_cover _ _ _ _ _ (cover8_B_7 c _ _ _ _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs8 : (![0, 0] : Fin 2 → Nat) = fun _ => 0 := funext fun a => by fin_cases a <;> rfl

/-- Case A leaves the normalised, clamped tile in the tile output: its one covering store's payload, whose loads read
    the whole input buffers. -/
theorem out8_A_6_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    out8_A_6 c i mL hmL mM hmM mV hmV mG hmG mB hmB mI hmI mH hmH mP hmP hc xL xM xV xG xB xI = k8_pay3 xL xV xM xG xB := by
  unfold out8_A_6
  rw [View.read_writes_eq_canon _ _ _ (cover8_A_6 c i mL hmL mM hmM mV hmV mG hmG mB hmB mI hmI mH hmH mP hmP hc xL xM xV xG xB xI)]
  unfold kernelRun8_A
  dsimp only
  sl_unfold_words
  rw [View.canon_unit_zero zeroOffs8]
  simp only [View.readAt_eq_ld, hmL.read_unread, hmM.read_unread, hmV.read_unread, hmG.read_unread, hmB.read_unread, hmI.read_unread, View.ld_unit_zero (S := S2000x64) zeroOffs8, View.ld_unit_zero (S := S1x64) zeroOffs8, View.ld_unit_zero (S := S2000x1) zeroOffs8, View.ld_unit_zero (S := S512x64) zeroOffs8]

/-- Case A leaves in the pooled block the tile's contraction added to the zero block: the reset store is read back
    whole, and the last store covers the block. -/
theorem out8_A_7_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    out8_A_7 c i mL hmL mM hmM mV hmV mG hmG mB hmB mI hmI mH hmH mP hmP hc xL xM xV xG xB xI = k8_pay1 (k8_pay4 xL xV xM xG xB xI) (k8_pay2 (F := F)) := by
  unfold out8_A_7
  rw [View.read_writes_eq_canon _ _ _ (cover8_A_7 c i mL hmL mM hmM mV hmV mG hmG mB hmB mI hmI mH hmH mP hmP hc xL xM xV xG xB xI)]
  unfold kernelRun8_A
  dsimp only
  sl_unfold_words
  rw [View.canon_cons_unit_zero (S := S512x64) zeroOffs8, View.readCov_unit_zero (S := S512x64) _ zeroOffs8]
  simp only [View.readAt_eq_ld, hmL.read_unread, hmM.read_unread, hmV.read_unread, hmG.read_unread, hmB.read_unread, hmI.read_unread, View.ld_unit_zero (S := S2000x64) zeroOffs8, View.ld_unit_zero (S := S1x64) zeroOffs8, View.ld_unit_zero (S := S2000x1) zeroOffs8, View.ld_unit_zero (S := S512x64) zeroOffs8]

/-- Case B leaves the same tile payload in the tile output. -/
theorem out8_B_6_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out8_B_6 c i mL hmL mM hmM mV hmV mG hmG mB hmB mI hmI mH hmH mP hmP hc xL xM xV xG xB xI xP = k8_pay3 xL xV xM xG xB := by
  unfold out8_B_6
  rw [View.read_writes_eq_canon _ _ _ (cover8_B_6 c i mL hmL mM hmM mV hmV mG hmG mB hmB mI hmI mH hmH mP hmP hc xL xM xV xG xB xI xP)]
  unfold kernelRun8_B
  dsimp only
  sl_unfold_words
  rw [View.canon_unit_zero zeroOffs8]
  simp only [View.readAt_eq_ld, hmL.read_unread, hmM.read_unread, hmV.read_unread, hmG.read_unread, hmB.read_unread, hmI.read_unread, hmP.read_unread, View.ld_unit_zero (S := S2000x64) zeroOffs8, View.ld_unit_zero (S := S1x64) zeroOffs8, View.ld_unit_zero (S := S2000x1) zeroOffs8, View.ld_unit_zero (S := S512x64) zeroOffs8]

/-- Case B leaves in the pooled block the tile's contraction added to what the block held. -/
theorem out8_B_7_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out8_B_7 c i mL hmL mM hmM mV hmV mG hmG mB hmB mI hmI mH hmH mP hmP hc xL xM xV xG xB xI xP = k8_pay1 (k8_pay4 xL xV xM xG xB xI) xP := by
  unfold out8_B_7
  rw [View.read_writes_eq_canon _ _ _ (cover8_B_7 c i mL hmL mM hmM mV hmV mG hmG mB hmB mI hmI mH hmH mP hmP hc xL xM xV xG xB xI xP)]
  unfold kernelRun8_B
  dsimp only
  sl_unfold_words
  rw [View.canon_unit_zero zeroOffs8]
  simp only [View.readAt_eq_ld, hmL.read_unread, hmM.read_unread, hmV.read_unread, hmG.read_unread, hmB.read_unread, hmI.read_unread, hmP.read_unread, View.ld_unit_zero (S := S2000x64) zeroOffs8, View.ld_unit_zero (S := S1x64) zeroOffs8, View.ld_unit_zero (S := S2000x1) zeroOffs8, View.ld_unit_zero (S := S512x64) zeroOffs8]

/-! ## What the output windows hold after each point, in payloads -/

/-- After the body at any point the tile output holds the normalised, clamped tile of the point's input blocks. -/
theorem after8_6 (c : Dev nD) (t : Fin cfg8.N) :
    (dat8 V c).after 6 t = k8_pay3 (iblk8 V c 0 t) (iblk8 V c 2 t) (iblk8 V c 1 t) (iblk8 V c 3 t) (iblk8 V c 4 t) := by
  rw [afterAt8_6]
  by_cases h0 : t.val % 25 = 0
  · rw [outsAt8_A V c t h0]; (try dsimp only)
    exact out8_A_6_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)
  · rw [outsAt8_B V c t h0]; (try dsimp only)
    exact out8_B_6_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2

/-- After the body at the first point the pooled block holds the first tile's contraction added to the zero block. -/
theorem after8_7_first (c : Dev nD) (t : Fin cfg8.N) (h : t.val = 0) :
    (dat8 V c).after 7 t = k8_pay1 (k8_pay4 (iblk8 V c 0 t) (iblk8 V c 2 t) (iblk8 V c 1 t) (iblk8 V c 3 t) (iblk8 V c 4 t) (iblk8 V c 5 t)) (k8_pay2 (F := F)) := by
  have h0 : t.val % 25 = 0 := by rw [h]
  rw [afterAt8_7, outsAt8_A V c t h0]; (try dsimp only)
  exact out8_A_7_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)

/-- After the body at a later point the pooled block holds the tile's contraction added to what the point before left. -/
theorem after8_7_later (c : Dev nD) (t : Fin cfg8.N) (h : t.val ≠ 0) :
    (dat8 V c).after 7 t = k8_pay1 (k8_pay4 (iblk8 V c 0 t) (iblk8 V c 2 t) (iblk8 V c 1 t) (iblk8 V c 3 t) (iblk8 V c 4 t) (iblk8 V c 5 t)) ((dat8 V c).after 7 ⟨t.val - 1, Nat.lt_of_le_of_lt (Nat.sub_le _ _) t.isLt⟩) := by
  have hN : t.val < 25 := lt_of_lt_of_eq t.isLt (show cfg8.N = 25 from N_8)
  have h0 : ¬t.val % 25 = 0 := by omega
  rw [afterAt8_7 V c t, outsAt8_B V c t h0, afterAt8_7 V c ⟨t.val - 1, Nat.lt_of_le_of_lt (Nat.sub_le _ _) t.isLt⟩]; (try dsimp only)
  exact out8_B_7_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2

end Cert.Kernel.Gen

end
-- ==== Proof.Kernel.Fold.lean ====
import proofs.«428437_j36421322670670_1_alg».proof.Proof.Kernel.Region0
import proofs.«428437_j36421322670670_1_alg».proof.Proof.Kernel.Region1
import proofs.«428437_j36421322670670_1_alg».proof.Proof.Kernel.Region2
import proofs.«428437_j36421322670670_1_alg».proof.Proof.Kernel.Region3
import proofs.«428437_j36421322670670_1_alg».proof.Proof.Kernel.Region4
import proofs.«428437_j36421322670670_1_alg».proof.Proof.Kernel.Region5
import proofs.«428437_j36421322670670_1_alg».proof.Proof.Kernel.Region6
import proofs.«428437_j36421322670670_1_alg».proof.Proof.Kernel.Region7
import proofs.«428437_j36421322670670_1_alg».proof.Proof.Kernel.Region8
import proofs.«428437_j36421322670670_1_alg».proof.Proof.Gen.Kernel.Regions
import Idealize.ShloMosaic.Lib.Pipeline.FrameSuffix
import Idealize.ShloMosaic.Lib.Pipeline.Regions
import Idealize.ShloMosaic.Lib.StableHlo.Run

/-! # The contents of the unscoped buffers along @main, and the thread state the run is threaded through

@main is ten stretches of host operations with nine kernel regions between them. Core `c`'s unscoped buffers are
followed through all nineteen items from the launch memory: a stretch takes a valuation to `StableHlo.after` of its
operations; a region takes it to the same valuation with the pipeline's arrays replaced by the fold of the region's
write-backs. The twenty valuations are `W0 … W19`; a region's two are also named `WinK` and `WoutK`. Every argument of
@main is read back through the whole fold to its launch contents. The proof data of all nine pipelines are taken at
their regions' entry contents, and the thread state between two items is "every unscoped buffer at the boundary's
valuation, the generator register at some state, nothing owed". -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- What core `c` holds at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- `hostOps0` leaves alone every reference it does not write. -/
theorem W1_keeps (c : Dev nD) (r : Ref sig .tc) (h : r ∉ hostOps0_W) :
    W1 m ρ c (Proc.devRef .tc r) = W0 m ρ c (Proc.devRef .tc r) :=
  StableHlo.after_of_writes_sub hostOps0 _ hostOps0_writes h

/-! ### Region 0 and the stretch behind it -/

/-- The pipeline index of region 0. -/
abbrev pix0 : Fin 9 := 0
/-- What core `c` holds when region 0 is entered. -/
abbrev Win0 : Dev nD → Valuation τ sig (Elt F) := W1 m ρ
/-- The entry contents of region 0, read at the TensorCore's own references: the parameter its proof data are taken at. -/
abbrev Vin0 : (c : Dev nD) → (b : Ref sig .tc) → Buf (Elt F) ((c : Thread nD τ).loc b) := fun c b => Win0 m ρ c b
/-- What core `c` holds when region 0 is left: each array of the pipeline at the fold of its write-backs over all
    `cfg0.N` points (an input window's array is then as entered), every buffer that is no array of it as entered. -/
def Wout0 (c : Dev nD) : Valuation τ sig (Elt F) :=
  Pipeline.withArrays spec0 c (Win0 m ρ c) fun w => (dat0 (Vin0 m ρ) c).arrAt w cfg0.N
abbrev W2 : Dev nD → Valuation τ sig (Elt F) := Wout0 m ρ
/-- The exit contents of region 0 at the TensorCore's own references. -/
abbrev Vout0 : (c : Dev nD) → (b : Ref sig .tc) → Buf (Elt F) ((c : Thread nD τ).loc b) := fun c b => Wout0 m ρ c b
/-- At an array of the pipeline the exit contents are the folded write-backs. -/
theorem Wout0_arr (c : Dev nD) (w : Fin cfg0.W) :
    Wout0 m ρ c (Proc.devRef .tc (Pipeline.arrRef spec0 w)) = (dat0 (Vin0 m ρ) c).arrAt w cfg0.N := by
  unfold Wout0
  exact Pipeline.withArrays_arr spec0 launch0.win.arr_inj c _ _ w
/-- Away from the pipeline's arrays the exit contents are the entry contents. -/
theorem Wout0_of_ne (c : Dev nD) (b : Ref sig .tc) (hb : ∀ w, Pipeline.arrRef spec0 w ≠ b) :
    Wout0 m ρ c (Proc.devRef .tc b) = Win0 m ρ c (Proc.devRef .tc b) := by
  unfold Wout0
  exact Pipeline.withArrays_of_ne spec0 c _ _ b hb
/-- The two facts from which the unscoped buffers are put together again at region 0's exit: the arrays hold the
    folded write-backs, -/
theorem hF0 (c : Dev nD) (w : Fin cfg0.W) :
    (dat0 (Vin0 m ρ) c).arrAt w cfg0.N = Vout0 m ρ c (Pipeline.arrRef spec0 w) :=
  (Wout0_arr m ρ c w).symm
/-- and every other buffer is untouched. -/
theorem hrest0 (c : Dev nD) : ∀ b, b ∉ Finset.univ.image (Pipeline.arrRef spec0) → Vout0 m ρ c b = Vin0 m ρ c b :=
  fun b hb => Wout0_of_ne m ρ c b fun w hw => hb (Finset.mem_image.mpr ⟨w, Finset.mem_univ w, hw⟩)
/-- After the stretch `hostOps1`. -/
abbrev W3 : Dev nD → Valuation τ sig (Elt F) := fun c => StableHlo.after hostOps1 (W2 m ρ c)
/-- `hostOps1` leaves alone every reference it does not write. -/
theorem W3_keeps (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### Region 1 and the stretch behind it -/

/-- The pipeline index of region 1. -/
abbrev pix1 : Fin 9 := 1
/-- What core `c` holds when region 1 is entered. -/
abbrev Win1 : Dev nD → Valuation τ sig (Elt F) := W3 m ρ
/-- The entry contents of region 1, read at the TensorCore's own references: the parameter its proof data are taken at. -/
abbrev Vin1 : (c : Dev nD) → (b : Ref sig .tc) → Buf (Elt F) ((c : Thread nD τ).loc b) := fun c b => Win1 m ρ c b
/-- What core `c` holds when region 1 is left: each array of the pipeline at the fold of its write-backs over all
    `cfg1.N` points (an input window's array is then as entered), every buffer that is no array of it as entered. -/
def Wout1 (c : Dev nD) : Valuation τ sig (Elt F) :=
  Pipeline.withArrays spec1 c (Win1 m ρ c) fun w => (dat1 (Vin1 m ρ) c).arrAt w cfg1.N
abbrev W4 : Dev nD → Valuation τ sig (Elt F) := Wout1 m ρ
/-- The exit contents of region 1 at the TensorCore's own references. -/
abbrev Vout1 : (c : Dev nD) → (b : Ref sig .tc) → Buf (Elt F) ((c : Thread nD τ).loc b) := fun c b => Wout1 m ρ c b
/-- At an array of the pipeline the exit contents are the folded write-backs. -/
theorem Wout1_arr (c : Dev nD) (w : Fin cfg1.W) :
    Wout1 m ρ c (Proc.devRef .tc (Pipeline.arrRef spec1 w)) = (dat1 (Vin1 m ρ) c).arrAt w cfg1.N := by
  unfold Wout1
  exact Pipeline.withArrays_arr spec1 launch1.win.arr_inj c _ _ w
/-- Away from the pipeline's arrays the exit contents are the entry contents. -/
theorem Wout1_of_ne (c : Dev nD) (b : Ref sig .tc) (hb : ∀ w, Pipeline.arrRef spec1 w ≠ b) :
    Wout1 m ρ c (Proc.devRef .tc b) = Win1 m ρ c (Proc.devRef .tc b) := by
  unfold Wout1
  exact Pipeline.withArrays_of_ne spec1 c _ _ b hb
/-- The two facts from which the unscoped buffers are put together again at region 1's exit: the arrays hold the
    folded write-backs, -/
theorem hF1 (c : Dev nD) (w : Fin cfg1.W) :
    (dat1 (Vin1 m ρ) c).arrAt w cfg1.N = Vout1 m ρ c (Pipeline.arrRef spec1 w) :=
  (Wout1_arr m ρ c w).symm
/-- and every other buffer is untouched. -/
theorem hrest1 (c : Dev nD) : ∀ b, b ∉ Finset.univ.image (Pipeline.arrRef spec1) → Vout1 m ρ c b = Vin1 m ρ c b :=
  fun b hb => Wout1_of_ne m ρ c b fun w hw => hb (Finset.mem_image.mpr ⟨w, Finset.mem_univ w, hw⟩)
/-- After the stretch `hostOps2`. -/
abbrev W5 : Dev nD → Valuation τ sig (Elt F) := fun c => StableHlo.after hostOps2 (W4 m ρ c)
/-- `hostOps2` leaves alone every reference it does not write. -/
theorem W5_keeps (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### Region 2 and the stretch behind it -/

/-- The pipeline index of region 2. -/
abbrev pix2 : Fin 9 := 2
/-- What core `c` holds when region 2 is entered. -/
abbrev Win2 : Dev nD → Valuation τ sig (Elt F) := W5 m ρ
/-- The entry contents of region 2, read at the TensorCore's own references: the parameter its proof data are taken at. -/
abbrev Vin2 : (c : Dev nD) → (b : Ref sig .tc) → Buf (Elt F) ((c : Thread nD τ).loc b) := fun c b => Win2 m ρ c b
/-- What core `c` holds when region 2 is left: each array of the pipeline at the fold of its write-backs over all
    `cfg2.N` points (an input window's array is then as entered), every buffer that is no array of it as entered. -/
def Wout2 (c : Dev nD) : Valuation τ sig (Elt F) :=
  Pipeline.withArrays spec2 c (Win2 m ρ c) fun w => (dat2 (Vin2 m ρ) c).arrAt w cfg2.N
abbrev W6 : Dev nD → Valuation τ sig (Elt F) := Wout2 m ρ
/-- The exit contents of region 2 at the TensorCore's own references. -/
abbrev Vout2 : (c : Dev nD) → (b : Ref sig .tc) → Buf (Elt F) ((c : Thread nD τ).loc b) := fun c b => Wout2 m ρ c b
/-- At an array of the pipeline the exit contents are the folded write-backs. -/
theorem Wout2_arr (c : Dev nD) (w : Fin cfg2.W) :
    Wout2 m ρ c (Proc.devRef .tc (Pipeline.arrRef spec2 w)) = (dat2 (Vin2 m ρ) c).arrAt w cfg2.N := by
  unfold Wout2
  exact Pipeline.withArrays_arr spec2 launch2.win.arr_inj c _ _ w
/-- Away from the pipeline's arrays the exit contents are the entry contents. -/
theorem Wout2_of_ne (c : Dev nD) (b : Ref sig .tc) (hb : ∀ w, Pipeline.arrRef spec2 w ≠ b) :
    Wout2 m ρ c (Proc.devRef .tc b) = Win2 m ρ c (Proc.devRef .tc b) := by
  unfold Wout2
  exact Pipeline.withArrays_of_ne spec2 c _ _ b hb
/-- The two facts from which the unscoped buffers are put together again at region 2's exit: the arrays hold the
    folded write-backs, -/
theorem hF2 (c : Dev nD) (w : Fin cfg2.W) :
    (dat2 (Vin2 m ρ) c).arrAt w cfg2.N = Vout2 m ρ c (Pipeline.arrRef spec2 w) :=
  (Wout2_arr m ρ c w).symm
/-- and every other buffer is untouched. -/
theorem hrest2 (c : Dev nD) : ∀ b, b ∉ Finset.univ.image (Pipeline.arrRef spec2) → Vout2 m ρ c b = Vin2 m ρ c b :=
  fun b hb => Wout2_of_ne m ρ c b fun w hw => hb (Finset.mem_image.mpr ⟨w, Finset.mem_univ w, hw⟩)
/-- After the stretch `hostOps3`. -/
abbrev W7 : Dev nD → Valuation τ sig (Elt F) := fun c => StableHlo.after hostOps3 (W6 m ρ c)
/-- `hostOps3` leaves alone every reference it does not write. -/
theorem W7_keeps (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### Region 3 and the stretch behind it -/

/-- The pipeline index of region 3. -/
abbrev pix3 : Fin 9 := 3
/-- What core `c` holds when region 3 is entered. -/
abbrev Win3 : Dev nD → Valuation τ sig (Elt F) := W7 m ρ
/-- The entry contents of region 3, read at the TensorCore's own references: the parameter its proof data are taken at. -/
abbrev Vin3 : (c : Dev nD) → (b : Ref sig .tc) → Buf (Elt F) ((c : Thread nD τ).loc b) := fun c b => Win3 m ρ c b
/-- What core `c` holds when region 3 is left: each array of the pipeline at the fold of its write-backs over all
    `cfg3.N` points (an input window's array is then as entered), every buffer that is no array of it as entered. -/
def Wout3 (c : Dev nD) : Valuation τ sig (Elt F) :=
  Pipeline.withArrays spec3 c (Win3 m ρ c) fun w => (dat3 (Vin3 m ρ) c).arrAt w cfg3.N
abbrev W8 : Dev nD → Valuation τ sig (Elt F) := Wout3 m ρ
/-- The exit contents of region 3 at the TensorCore's own references. -/
abbrev Vout3 : (c : Dev nD) → (b : Ref sig .tc) → Buf (Elt F) ((c : Thread nD τ).loc b) := fun c b => Wout3 m ρ c b
/-- At an array of the pipeline the exit contents are the folded write-backs. -/
theorem Wout3_arr (c : Dev nD) (w : Fin cfg3.W) :
    Wout3 m ρ c (Proc.devRef .tc (Pipeline.arrRef spec3 w)) = (dat3 (Vin3 m ρ) c).arrAt w cfg3.N := by
  unfold Wout3
  exact Pipeline.withArrays_arr spec3 launch3.win.arr_inj c _ _ w
/-- Away from the pipeline's arrays the exit contents are the entry contents. -/
theorem Wout3_of_ne (c : Dev nD) (b : Ref sig .tc) (hb : ∀ w, Pipeline.arrRef spec3 w ≠ b) :
    Wout3 m ρ c (Proc.devRef .tc b) = Win3 m ρ c (Proc.devRef .tc b) := by
  unfold Wout3
  exact Pipeline.withArrays_of_ne spec3 c _ _ b hb
/-- The two facts from which the unscoped buffers are put together again at region 3's exit: the arrays hold the
    folded write-backs, -/
theorem hF3 (c : Dev nD) (w : Fin cfg3.W) :
    (dat3 (Vin3 m ρ) c).arrAt w cfg3.N = Vout3 m ρ c (Pipeline.arrRef spec3 w) :=
  (Wout3_arr m ρ c w).symm
/-- and every other buffer is untouched. -/
theorem hrest3 (c : Dev nD) : ∀ b, b ∉ Finset.univ.image (Pipeline.arrRef spec3) → Vout3 m ρ c b = Vin3 m ρ c b :=
  fun b hb => Wout3_of_ne m ρ c b fun w hw => hb (Finset.mem_image.mpr ⟨w, Finset.mem_univ w, hw⟩)
/-- After the stretch `hostOps4`. -/
abbrev W9 : Dev nD → Valuation τ sig (Elt F) := fun c => StableHlo.after hostOps4 (W8 m ρ c)
/-- `hostOps4` leaves alone every reference it does not write. -/
theorem W9_keeps (c : Dev nD) (r : Ref sig .tc) (h : r ∉ hostOps4_W) :
    W9 m ρ c (Proc.devRef .tc r) = W8 m ρ c (Proc.devRef .tc r) :=
  StableHlo.after_of_writes_sub hostOps4 _ hostOps4_writes h

/-! ### Region 4 and the stretch behind it -/

/-- The pipeline index of region 4. -/
abbrev pix4 : Fin 9 := 4
/-- What core `c` holds when region 4 is entered. -/
abbrev Win4 : Dev nD → Valuation τ sig (Elt F) := W9 m ρ
/-- The entry contents of region 4, read at the TensorCore's own references: the parameter its proof data are taken at. -/
abbrev Vin4 : (c : Dev nD) → (b : Ref sig .tc) → Buf (Elt F) ((c : Thread nD τ).loc b) := fun c b => Win4 m ρ c b
/-- What core `c` holds when region 4 is left: each array of the pipeline at the fold of its write-backs over all
    `cfg4.N` points (an input window's array is then as entered), every buffer that is no array of it as entered. -/
def Wout4 (c : Dev nD) : Valuation τ sig (Elt F) :=
  Pipeline.withArrays spec4 c (Win4 m ρ c) fun w => (dat4 (Vin4 m ρ) c).arrAt w cfg4.N
abbrev W10 : Dev nD → Valuation τ sig (Elt F) := Wout4 m ρ
/-- The exit contents of region 4 at the TensorCore's own references. -/
abbrev Vout4 : (c : Dev nD) → (b : Ref sig .tc) → Buf (Elt F) ((c : Thread nD τ).loc b) := fun c b => Wout4 m ρ c b
/-- At an array of the pipeline the exit contents are the folded write-backs. -/
theorem Wout4_arr (c : Dev nD) (w : Fin cfg4.W) :
    Wout4 m ρ c (Proc.devRef .tc (Pipeline.arrRef spec4 w)) = (dat4 (Vin4 m ρ) c).arrAt w cfg4.N := by
  unfold Wout4
  exact Pipeline.withArrays_arr spec4 launch4.win.arr_inj c _ _ w
/-- Away from the pipeline's arrays the exit contents are the entry contents. -/
theorem Wout4_of_ne (c : Dev nD) (b : Ref sig .tc) (hb : ∀ w, Pipeline.arrRef spec4 w ≠ b) :
    Wout4 m ρ c (Proc.devRef .tc b) = Win4 m ρ c (Proc.devRef .tc b) := by
  unfold Wout4
  exact Pipeline.withArrays_of_ne spec4 c _ _ b hb
/-- The two facts from which the unscoped buffers are put together again at region 4's exit: the arrays hold the
    folded write-backs, -/
theorem hF4 (c : Dev nD) (w : Fin cfg4.W) :
    (dat4 (Vin4 m ρ) c).arrAt w cfg4.N = Vout4 m ρ c (Pipeline.arrRef spec4 w) :=
  (Wout4_arr m ρ c w).symm
/-- and every other buffer is untouched. -/
theorem hrest4 (c : Dev nD) : ∀ b, b ∉ Finset.univ.image (Pipeline.arrRef spec4) → Vout4 m ρ c b = Vin4 m ρ c b :=
  fun b hb => Wout4_of_ne m ρ c b fun w hw => hb (Finset.mem_image.mpr ⟨w, Finset.mem_univ w, hw⟩)
/-- After the stretch `hostOps5`. -/
abbrev W11 : Dev nD → Valuation τ sig (Elt F) := fun c => StableHlo.after hostOps5 (W10 m ρ c)
/-- `hostOps5` leaves alone every reference it does not write. -/
theorem W11_keeps (c : Dev nD) (r : Ref sig .tc) (h : r ∉ hostOps5_W) :
    W11 m ρ c (Proc.devRef .tc r) = W10 m ρ c (Proc.devRef .tc r) :=
  StableHlo.after_of_writes_sub hostOps5 _ hostOps5_writes h

/-! ### Region 5 and the stretch behind it -/

/-- The pipeline index of region 5. -/
abbrev pix5 : Fin 9 := 5
/-- What core `c` holds when region 5 is entered. -/
abbrev Win5 : Dev nD → Valuation τ sig (Elt F) := W11 m ρ
/-- The entry contents of region 5, read at the TensorCore's own references: the parameter its proof data are taken at. -/
abbrev Vin5 : (c : Dev nD) → (b : Ref sig .tc) → Buf (Elt F) ((c : Thread nD τ).loc b) := fun c b => Win5 m ρ c b
/-- What core `c` holds when region 5 is left: each array of the pipeline at the fold of its write-backs over all
    `cfg5.N` points (an input window's array is then as entered), every buffer that is no array of it as entered. -/
def Wout5 (c : Dev nD) : Valuation τ sig (Elt F) :=
  Pipeline.withArrays spec5 c (Win5 m ρ c) fun w => (dat5 (Vin5 m ρ) c).arrAt w cfg5.N
abbrev W12 : Dev nD → Valuation τ sig (Elt F) := Wout5 m ρ
/-- The exit contents of region 5 at the TensorCore's own references. -/
abbrev Vout5 : (c : Dev nD) → (b : Ref sig .tc) → Buf (Elt F) ((c : Thread nD τ).loc b) := fun c b => Wout5 m ρ c b
/-- At an array of the pipeline the exit contents are the folded write-backs. -/
theorem Wout5_arr (c : Dev nD) (w : Fin cfg5.W) :
    Wout5 m ρ c (Proc.devRef .tc (Pipeline.arrRef spec5 w)) = (dat5 (Vin5 m ρ) c).arrAt w cfg5.N := by
  unfold Wout5
  exact Pipeline.withArrays_arr spec5 launch5.win.arr_inj c _ _ w
/-- Away from the pipeline's arrays the exit contents are the entry contents. -/
theorem Wout5_of_ne (c : Dev nD) (b : Ref sig .tc) (hb : ∀ w, Pipeline.arrRef spec5 w ≠ b) :
    Wout5 m ρ c (Proc.devRef .tc b) = Win5 m ρ c (Proc.devRef .tc b) := by
  unfold Wout5
  exact Pipeline.withArrays_of_ne spec5 c _ _ b hb
/-- The two facts from which the unscoped buffers are put together again at region 5's exit: the arrays hold the
    folded write-backs, -/
theorem hF5 (c : Dev nD) (w : Fin cfg5.W) :
    (dat5 (Vin5 m ρ) c).arrAt w cfg5.N = Vout5 m ρ c (Pipeline.arrRef spec5 w) :=
  (Wout5_arr m ρ c w).symm
/-- and every other buffer is untouched. -/
theorem hrest5 (c : Dev nD) : ∀ b, b ∉ Finset.univ.image (Pipeline.arrRef spec5) → Vout5 m ρ c b = Vin5 m ρ c b :=
  fun b hb => Wout5_of_ne m ρ c b fun w hw => hb (Finset.mem_image.mpr ⟨w, Finset.mem_univ w, hw⟩)
/-- After the stretch `hostOps6`. -/
abbrev W13 : Dev nD → Valuation τ sig (Elt F) := fun c => StableHlo.after hostOps6 (W12 m ρ c)
/-- `hostOps6` leaves alone every reference it does not write. -/
theorem W13_keeps (c : Dev nD) (r : Ref sig .tc) (h : r ∉ hostOps6_W) :
    W13 m ρ c (Proc.devRef .tc r) = W12 m ρ c (Proc.devRef .tc r) :=
  StableHlo.after_of_writes_sub hostOps6 _ hostOps6_writes h

/-! ### Region 6 and the stretch behind it -/

/-- The pipeline index of region 6. -/
abbrev pix6 : Fin 9 := 6
/-- What core `c` holds when region 6 is entered. -/
abbrev Win6 : Dev nD → Valuation τ sig (Elt F) := W13 m ρ
/-- The entry contents of region 6, read at the TensorCore's own references: the parameter its proof data are taken at. -/
abbrev Vin6 : (c : Dev nD) → (b : Ref sig .tc) → Buf (Elt F) ((c : Thread nD τ).loc b) := fun c b => Win6 m ρ c b
/-- What core `c` holds when region 6 is left: each array of the pipeline at the fold of its write-backs over all
    `cfg6.N` points (an input window's array is then as entered), every buffer that is no array of it as entered. -/
def Wout6 (c : Dev nD) : Valuation τ sig (Elt F) :=
  Pipeline.withArrays spec6 c (Win6 m ρ c) fun w => (dat6 (Vin6 m ρ) c).arrAt w cfg6.N
abbrev W14 : Dev nD → Valuation τ sig (Elt F) := Wout6 m ρ
/-- The exit contents of region 6 at the TensorCore's own references. -/
abbrev Vout6 : (c : Dev nD) → (b : Ref sig .tc) → Buf (Elt F) ((c : Thread nD τ).loc b) := fun c b => Wout6 m ρ c b
/-- At an array of the pipeline the exit contents are the folded write-backs. -/
theorem Wout6_arr (c : Dev nD) (w : Fin cfg6.W) :
    Wout6 m ρ c (Proc.devRef .tc (Pipeline.arrRef spec6 w)) = (dat6 (Vin6 m ρ) c).arrAt w cfg6.N := by
  unfold Wout6
  exact Pipeline.withArrays_arr spec6 launch6.win.arr_inj c _ _ w
/-- Away from the pipeline's arrays the exit contents are the entry contents. -/
theorem Wout6_of_ne (c : Dev nD) (b : Ref sig .tc) (hb : ∀ w, Pipeline.arrRef spec6 w ≠ b) :
    Wout6 m ρ c (Proc.devRef .tc b) = Win6 m ρ c (Proc.devRef .tc b) := by
  unfold Wout6
  exact Pipeline.withArrays_of_ne spec6 c _ _ b hb
/-- The two facts from which the unscoped buffers are put together again at region 6's exit: the arrays hold the
    folded write-backs, -/
theorem hF6 (c : Dev nD) (w : Fin cfg6.W) :
    (dat6 (Vin6 m ρ) c).arrAt w cfg6.N = Vout6 m ρ c (Pipeline.arrRef spec6 w) :=
  (Wout6_arr m ρ c w).symm
/-- and every other buffer is untouched. -/
theorem hrest6 (c : Dev nD) : ∀ b, b ∉ Finset.univ.image (Pipeline.arrRef spec6) → Vout6 m ρ c b = Vin6 m ρ c b :=
  fun b hb => Wout6_of_ne m ρ c b fun w hw => hb (Finset.mem_image.mpr ⟨w, Finset.mem_univ w, hw⟩)
/-- After the stretch `hostOps7`. -/
abbrev W15 : Dev nD → Valuation τ sig (Elt F) := fun c => StableHlo.after hostOps7 (W14 m ρ c)
/-- `hostOps7` leaves alone every reference it does not write. -/
theorem W15_keeps (c : Dev nD) (r : Ref sig .tc) (h : r ∉ hostOps7_W) :
    W15 m ρ c (Proc.devRef .tc r) = W14 m ρ c (Proc.devRef .tc r) :=
  StableHlo.after_of_writes_sub hostOps7 _ hostOps7_writes h

/-! ### Region 7 and the stretch behind it -/

/-- The pipeline index of region 7. -/
abbrev pix7 : Fin 9 := 7
/-- What core `c` holds when region 7 is entered. -/
abbrev Win7 : Dev nD → Valuation τ sig (Elt F) := W15 m ρ
/-- The entry contents of region 7, read at the TensorCore's own references: the parameter its proof data are taken at. -/
abbrev Vin7 : (c : Dev nD) → (b : Ref sig .tc) → Buf (Elt F) ((c : Thread nD τ).loc b) := fun c b => Win7 m ρ c b
/-- What core `c` holds when region 7 is left: each array of the pipeline at the fold of its write-backs over all
    `cfg7.N` points (an input window's array is then as entered), every buffer that is no array of it as entered. -/
def Wout7 (c : Dev nD) : Valuation τ sig (Elt F) :=
  Pipeline.withArrays spec7 c (Win7 m ρ c) fun w => (dat7 (Vin7 m ρ) c).arrAt w cfg7.N
abbrev W16 : Dev nD → Valuation τ sig (Elt F) := Wout7 m ρ
/-- The exit contents of region 7 at the TensorCore's own references. -/
abbrev Vout7 : (c : Dev nD) → (b : Ref sig .tc) → Buf (Elt F) ((c : Thread nD τ).loc b) := fun c b => Wout7 m ρ c b
/-- At an array of the pipeline the exit contents are the folded write-backs. -/
theorem Wout7_arr (c : Dev nD) (w : Fin cfg7.W) :
    Wout7 m ρ c (Proc.devRef .tc (Pipeline.arrRef spec7 w)) = (dat7 (Vin7 m ρ) c).arrAt w cfg7.N := by
  unfold Wout7
  exact Pipeline.withArrays_arr spec7 launch7.win.arr_inj c _ _ w
/-- Away from the pipeline's arrays the exit contents are the entry contents. -/
theorem Wout7_of_ne (c : Dev nD) (b : Ref sig .tc) (hb : ∀ w, Pipeline.arrRef spec7 w ≠ b) :
    Wout7 m ρ c (Proc.devRef .tc b) = Win7 m ρ c (Proc.devRef .tc b) := by
  unfold Wout7
  exact Pipeline.withArrays_of_ne spec7 c _ _ b hb
/-- The two facts from which the unscoped buffers are put together again at region 7's exit: the arrays hold the
    folded write-backs, -/
theorem hF7 (c : Dev nD) (w : Fin cfg7.W) :
    (dat7 (Vin7 m ρ) c).arrAt w cfg7.N = Vout7 m ρ c (Pipeline.arrRef spec7 w) :=
  (Wout7_arr m ρ c w).symm
/-- and every other buffer is untouched. -/
theorem hrest7 (c : Dev nD) : ∀ b, b ∉ Finset.univ.image (Pipeline.arrRef spec7) → Vout7 m ρ c b = Vin7 m ρ c b :=
  fun b hb => Wout7_of_ne m ρ c b fun w hw => hb (Finset.mem_image.mpr ⟨w, Finset.mem_univ w, hw⟩)
/-- After the stretch `hostOps8`. -/
abbrev W17 : Dev nD → Valuation τ sig (Elt F) := fun c => StableHlo.after hostOps8 (W16 m ρ c)
/-- `hostOps8` leaves alone every reference it does not write. -/
theorem W17_keeps (c : Dev nD) (r : Ref sig .tc) (h : r ∉ hostOps8_W) :
    W17 m ρ c (Proc.devRef .tc r) = W16 m ρ c (Proc.devRef .tc r) :=
  StableHlo.after_of_writes_sub hostOps8 _ hostOps8_writes h

/-! ### Region 8 and the stretch behind it -/

/-- The pipeline index of region 8. -/
abbrev pix8 : Fin 9 := 8
/-- What core `c` holds when region 8 is entered. -/
abbrev Win8 : Dev nD → Valuation τ sig (Elt F) := W17 m ρ
/-- The entry contents of region 8, read at the TensorCore's own references: the parameter its proof data are taken at. -/
abbrev Vin8 : (c : Dev nD) → (b : Ref sig .tc) → Buf (Elt F) ((c : Thread nD τ).loc b) := fun c b => Win8 m ρ c b
/-- What core `c` holds when region 8 is left: each array of the pipeline at the fold of its write-backs over all
    `cfg8.N` points (an input window's array is then as entered), every buffer that is no array of it as entered. -/
def Wout8 (c : Dev nD) : Valuation τ sig (Elt F) :=
  Pipeline.withArrays spec8 c (Win8 m ρ c) fun w => (dat8 (Vin8 m ρ) c).arrAt w cfg8.N
abbrev W18 : Dev nD → Valuation τ sig (Elt F) := Wout8 m ρ
/-- The exit contents of region 8 at the TensorCore's own references. -/
abbrev Vout8 : (c : Dev nD) → (b : Ref sig .tc) → Buf (Elt F) ((c : Thread nD τ).loc b) := fun c b => Wout8 m ρ c b
/-- At an array of the pipeline the exit contents are the folded write-backs. -/
theorem Wout8_arr (c : Dev nD) (w : Fin cfg8.W) :
    Wout8 m ρ c (Proc.devRef .tc (Pipeline.arrRef spec8 w)) = (dat8 (Vin8 m ρ) c).arrAt w cfg8.N := by
  unfold Wout8
  exact Pipeline.withArrays_arr spec8 launch8.win.arr_inj c _ _ w
/-- Away from the pipeline's arrays the exit contents are the entry contents. -/
theorem Wout8_of_ne (c : Dev nD) (b : Ref sig .tc) (hb : ∀ w, Pipeline.arrRef spec8 w ≠ b) :
    Wout8 m ρ c (Proc.devRef .tc b) = Win8 m ρ c (Proc.devRef .tc b) := by
  unfold Wout8
  exact Pipeline.withArrays_of_ne spec8 c _ _ b hb
/-- The two facts from which the unscoped buffers are put together again at region 8's exit: the arrays hold the
    folded write-backs, -/
theorem hF8 (c : Dev nD) (w : Fin cfg8.W) :
    (dat8 (Vin8 m ρ) c).arrAt w cfg8.N = Vout8 m ρ c (Pipeline.arrRef spec8 w) :=
  (Wout8_arr m ρ c w).symm
/-- and every other buffer is untouched. -/
theorem hrest8 (c : Dev nD) : ∀ b, b ∉ Finset.univ.image (Pipeline.arrRef spec8) → Vout8 m ρ c b = Vin8 m ρ c b :=
  fun b hb => Wout8_of_ne m ρ c b fun w hw => hb (Finset.mem_image.mpr ⟨w, Finset.mem_univ w, hw⟩)
/-- After the stretch `hostOps9`. -/
abbrev W19 : Dev nD → Valuation τ sig (Elt F) := fun c => StableHlo.after hostOps9 (W18 m ρ c)
/-- `hostOps9` leaves alone every reference it does not write. -/
theorem W19_keeps (c : Dev nD) (r : Ref sig .tc) (h : r ∉ hostOps9_W) :
    W19 m ρ c (Proc.devRef .tc r) = W18 m ρ c (Proc.devRef .tc r) :=
  StableHlo.after_of_writes_sub hostOps9 _ hostOps9_writes h

/-! ## A reference nothing touches is read back through the fold -/

/-- A reference that no stretch from `hostOps1` on writes and that is an array of none of the regions 1 … 8 holds at
    the end what it held when region 0 was left. -/
theorem W19_eq_W2 (c : Dev nD) (r : Ref sig .tc)
    (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) (h6 : r ∉ hostOps6_W) (a6 : ∀ w, Pipeline.arrRef spec6 w ≠ r) (h7 : r ∉ hostOps7_W) (a7 : ∀ w, Pipeline.arrRef spec7 w ≠ r) (h8 : r ∉ hostOps8_W) (a8 : ∀ w, Pipeline.arrRef spec8 w ≠ r) (h9 : r ∉ hostOps9_W) :
    W19 m ρ c (Proc.devRef .tc r) = W2 m ρ c (Proc.devRef .tc r) :=
  (W19_keeps m ρ c r h9).trans <|
    (Wout8_of_ne m ρ c r a8).trans <|
    (W17_keeps m ρ c r h8).trans <|
    (Wout7_of_ne m ρ c r a7).trans <|
    (W15_keeps m ρ c r h7).trans <|
    (Wout6_of_ne m ρ c r a6).trans <|
    (W13_keeps m ρ c r h6).trans <|
    (Wout5_of_ne m ρ c r a5).trans <|
    (W11_keeps m ρ c r h5).trans <|
    (Wout4_of_ne m ρ c r a4).trans <|
    (W9_keeps m ρ c r h4).trans <|
    (Wout3_of_ne m ρ c r a3).trans <|
    (W7_keeps m ρ c r h3).trans <|
    (Wout2_of_ne m ρ c r a2).trans <|
    (W5_keeps m ρ c r h2).trans <|
    (Wout1_of_ne m ρ c r a1).trans <|
    W3_keeps m ρ c r h1

/-- A reference `hostOps0` does not write and that is no array of region 0 holds at region 0's exit its launch contents. -/
theorem W2_eq_W0 (c : Dev nD) (r : Ref sig .tc) (h0 : r ∉ hostOps0_W) (a0 : ∀ w, Pipeline.arrRef spec0 w ≠ r) :
    W2 m ρ c (Proc.devRef .tc r) = W0 m ρ c (Proc.devRef .tc r) :=
  (Wout0_of_ne m ρ c r a0).trans (W1_keeps m ρ c r h0)

/-! ## The arguments end as launched

No stretch writes an argument and no region has one among its output arrays. `main_arg0` is the array of region 0's
first window, an input: the fold of that window's write-backs is the array as entered. The other arguments are arrays
of no pipeline at all. -/

theorem W19_main_arg0 (c : Dev nD) : W19 m ρ c (Proc.devRef .tc main_arg0) = m ((c : Thread nD τ).loc main_arg0) :=
  calc W19 m ρ c (Proc.devRef .tc main_arg0)
    _ = W2 m ρ c (Proc.devRef .tc main_arg0) := W19_eq_W2 m ρ c main_arg0 (by decide) (by decide) (by decide) (by decide) (by decide) (by decide) (by decide) (by decide) (by decide) (by decide) (by decide) (by decide) (by decide) (by decide) (by decide) (by decide) (by decide)
    _ = (dat0 (Vin0 m ρ) c).arrAt 0 cfg0.N := Wout0_arr m ρ c 0
    _ = (dat0 (Vin0 m ρ) c).A 0 := (dat0 (Vin0 m ρ) c).arrAt_in 0 rfl _
    _ = W1 m ρ c (Proc.devRef .tc main_arg0) := A_eq0 (Vin0 m ρ) c 0
    _ = W0 m ρ c (Proc.devRef .tc main_arg0) := W1_keeps m ρ c main_arg0 (by decide)
    _ = m ((c : Thread nD τ).loc main_arg0) := rfl

theorem W19_main_arg1 (c : Dev nD) : W19 m ρ c (Proc.devRef .tc main_arg1) = m ((c : Thread nD τ).loc main_arg1) :=
  (W19_eq_W2 m ρ c main_arg1 (by decide) (by decide) (by decide) (by decide) (by decide) (by decide) (by decide) (by decide) (by decide) (by decide) (by decide) (by decide) (by decide) (by decide) (by decide) (by decide) (by decide)).trans
    ((W2_eq_W0 m ρ c main_arg1 (by decide) (by decide)).trans rfl)

theorem W19_main_arg2 (c : Dev nD) : W19 m ρ c (Proc.devRef .tc main_arg2) = m ((c : Thread nD τ).loc main_arg2) :=
  (W19_eq_W2 m ρ c main_arg2 (by decide) (by decide) (by decide) (by decide) (by decide) (by decide) (by decide) (by decide) (by decide) (by decide) (by decide) (by decide) (by decide) (by decide) (by decide) (by decide) (by decide)).trans
    ((W2_eq_W0 m ρ c main_arg2 (by decide) (by decide)).trans rfl)

theorem W19_main_arg3 (c : Dev nD) : W19 m ρ c (Proc.devRef .tc main_arg3) = m ((c : Thread nD τ).loc main_arg3) :=
  (W19_eq_W2 m ρ c main_arg3 (by decide) (by decide) (by decide) (by decide) (by decide) (by decide) (by decide) (by decide) (by decide) (by decide) (by decide) (by decide) (by decide) (by decide) (by decide) (by decide) (by decide)).trans
    ((W2_eq_W0 m ρ c main_arg3 (by decide) (by decide)).trans rfl)

theorem W19_main_arg4 (c : Dev nD) : W19 m ρ c (Proc.devRef .tc main_arg4) = m ((c : Thread nD τ).loc main_arg4) :=
  (W19_eq_W2 m ρ c main_arg4 (by decide) (by decide) (by decide) (by decide) (by decide) (by decide) (by decide) (by decide) (by decide) (by decide) (by decide) (by decide) (by decide) (by decide) (by decide) (by decide) (by decide)).trans
    ((W2_eq_W0 m ρ c main_arg4 (by decide) (by decide)).trans rfl)

theorem W19_main_arg5 (c : Dev nD) : W19 m ρ c (Proc.devRef .tc main_arg5) = m ((c : Thread nD τ).loc main_arg5) :=
  (W19_eq_W2 m ρ c main_arg5 (by decide) (by decide) (by decide) (by decide) (by decide) (by decide) (by decide) (by decide) (by decide) (by decide) (by decide) (by decide) (by decide) (by decide) (by decide) (by decide) (by decide)).trans
    ((W2_eq_W0 m ρ c main_arg5 (by decide) (by decide)).trans rfl)

theorem W19_main_arg6 (c : Dev nD) : W19 m ρ c (Proc.devRef .tc main_arg6) = m ((c : Thread nD τ).loc main_arg6) :=
  (W19_eq_W2 m ρ c main_arg6 (by decide) (by decide) (by decide) (by decide) (by decide) (by decide) (by decide) (by decide) (by decide) (by decide) (by decide) (by decide) (by decide) (by decide) (by decide) (by decide) (by decide)).trans
    ((W2_eq_W0 m ρ c main_arg6 (by decide) (by decide)).trans rfl)

theorem W19_main_arg7 (c : Dev nD) : W19 m ρ c (Proc.devRef .tc main_arg7) = m ((c : Thread nD τ).loc main_arg7) :=
  (W19_eq_W2 m ρ c main_arg7 (by decide) (by decide) (by decide) (by decide) (by decide) (by decide) (by decide) (by decide) (by decide) (by decide) (by decide) (by decide) (by decide) (by decide) (by decide) (by decide) (by decide)).trans
    ((W2_eq_W0 m ρ c main_arg7 (by decide) (by decide)).trans rfl)

theorem W19_main_arg8 (c : Dev nD) : W19 m ρ c (Proc.devRef .tc main_arg8) = m ((c : Thread nD τ).loc main_arg8) :=
  (W19_eq_W2 m ρ c main_arg8 (by decide) (by decide) (by decide) (by decide) (by decide) (by decide) (by decide) (by decide) (by decide) (by decide) (by decide) (by decide) (by decide) (by decide) (by decide) (by decide) (by decide)).trans
    ((W2_eq_W0 m ρ c main_arg8 (by decide) (by decide)).trans rfl)

theorem W19_main_arg9 (c : Dev nD) : W19 m ρ c (Proc.devRef .tc main_arg9) = m ((c : Thread nD τ).loc main_arg9) :=
  (W19_eq_W2 m ρ c main_arg9 (by decide) (by decide) (by decide) (by decide) (by decide) (by decide) (by decide) (by decide) (by decide) (by decide) (by decide) (by decide) (by decide) (by decide) (by decide) (by decide) (by decide)).trans
    ((W2_eq_W0 m ρ c main_arg9 (by decide) (by decide)).trans rfl)

theorem W19_main_arg10 (c : Dev nD) : W19 m ρ c (Proc.devRef .tc main_arg10) = m ((c : Thread nD τ).loc main_arg10) :=
  (W19_eq_W2 m ρ c main_arg10 (by decide) (by decide) (by decide) (by decide) (by decide) (by decide) (by decide) (by decide) (by decide) (by decide) (by decide) (by decide) (by decide) (by decide) (by decide) (by decide) (by decide)).trans
    ((W2_eq_W0 m ρ c main_arg10 (by decide) (by decide)).trans rfl)

/-! ## The proof data of the nine pipelines and the thread state -/

/-- Every pipeline's proof data, each at its region's entry contents. Written as a match on the literal index, so that
    the data of pipeline `pixK` reduce to `datK` at `VinK`. -/
def pdats : (p : Fin 9) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c

/-- No variant is in play. -/
abbrev 𝒱₀ : Variants := Variants.none
/-- No core owes another anything, so no pair carries a level. -/
abbrev L : GSem nD τ sig → Finset Unit := fun _ => ∅
abbrev lv : GSem nD τ sig → Unit → ℕ := fun _ _ => 0
/-- What accompanies the buffers across every item: the core's generator register at some state and its dues, which
    are none. -/
abbrev R (c : Dev nD) : sProp 𝕄 :=
  iprop((∃ r, prngReg c r) ∗ ∃ W, owes (c : Thread nD τ) (0 : CellTallies nD τ sig Unit) W)

/-- A stretch of host operations as a segment over all unscoped buffers from the valuation `W`: it ends with those
    buffers at `StableHlo.after ops (W c)`, `R` unchanged beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W R

/-- A TensorCore reference that is not scoped is one of the buffers the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.Kernel.Gen

end
-- ==== Proof.Kernel.Seg0.lean ====
import proofs.«428437_j36421322670670_1_alg».proof.Proof.Kernel.Fold
import Idealize.ShloMosaic.Lib.Pipeline.Regions
import Idealize.ShloMosaic.Lib.Pipeline.RegionsLoop

/-! # Region 0 as a segment of the run

Kernel region 0 of @main (the regions are numbered from zero in program order), entered from the unscoped buffers at
`Win0` and left with them at `Wout0`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 0 between its two thread states. On entry the unscoped buffers, held at `Win0`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout0`. -/
def reg0 : Pipeline.RegionSeg (pcfgs (F := F)) adm (pdats m ρ) () defs₀ 𝒱₀ L lv pix0 where
  win := launch0.win.to₀
  block_pos := launch0.block_pos
  stage_whole := launch0.stage_whole
  K := PEmpty
  osem := fun k => k.elim
  ho := Pipeline.OwnSemFacts.none _
  hbody := fun c => (body_obligation0 (Vin0 m ρ) c).loose
  hwaits := Pipeline.hwaits_of_owed_zero _ _ _ _ L lv pix0 fun _ _ => rfl
  pre := fun c => iprop(StableHlo.held (c : Thread nD τ) (Pipeline.ucRefs τ sig) (Win0 m ρ c) ∗ R c)
  post := fun c => iprop(StableHlo.held (c : Thread nD τ) (Pipeline.ucRefs τ sig) (Wout0 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec0 c (Vin0 m ρ c)
  hentry := fun c => by
    have hparts := Pipeline.arrays_of_unscopedBufs (p := pix0) (pcfgs (F := F)) adm (pdats m ρ) launch0.win
      launch0.arr_whole c ((pdats m ρ pix0 c).share_full fun _ => rfl) (Vin0 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix0 c).Φ 0 = Pipeline.ΦA spec0 c from rfl]
    unfold Pipeline.ΦA
    iintro ⟨Hreg, -, Hscoped⟩
    isplitl [Hscoped]
    · iexact Hscoped
    iexact Hreg
  hout := fun c => by
    rw [Pipeline.ownSems0_none, show (pdats m ρ pix0 c).Φ (Fin.last _) = Pipeline.ΦA spec0 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix0) (pcfgs (F := F)) adm (Ix := Unit) (Name := ℕ)
      (U := UR sig nD τ) (Lvl := ℕ) launch0.win launch0.arr_whole c (pdats m ρ)
      ((pdats m ρ pix0 c).share_full fun _ => rfl) (Vin0 m ρ c) (Vout0 m ρ c)
      ((pdats m ρ pix0 c).arrAt · cfg0.N) (hF0 m ρ c) (hrest0 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg1.lean ====
import proofs.«428437_j36421322670670_1_alg».proof.Proof.Kernel.Fold
import Idealize.ShloMosaic.Lib.Pipeline.Regions
import Idealize.ShloMosaic.Lib.Pipeline.RegionsLoop

/-! # Region 1 as a segment of the run

Kernel region 1 of @main (the regions are numbered from zero in program order), entered from the unscoped buffers at
`Win1` and left with them at `Wout1`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 1 between its two thread states. On entry the unscoped buffers, held at `Win1`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout1`. -/
def reg1 : Pipeline.RegionSeg (pcfgs (F := F)) adm (pdats m ρ) () defs₀ 𝒱₀ L lv pix1 where
  win := launch1.win.to₀
  block_pos := launch1.block_pos
  stage_whole := launch1.stage_whole
  K := PEmpty
  osem := fun k => k.elim
  ho := Pipeline.OwnSemFacts.none _
  hbody := fun c => (body_obligation1 (Vin1 m ρ) c).loose
  hwaits := Pipeline.hwaits_of_owed_zero _ _ _ _ L lv pix1 fun _ _ => rfl
  pre := fun c => iprop(StableHlo.held (c : Thread nD τ) (Pipeline.ucRefs τ sig) (Win1 m ρ c) ∗ R c)
  post := fun c => iprop(StableHlo.held (c : Thread nD τ) (Pipeline.ucRefs τ sig) (Wout1 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec1 c (Vin1 m ρ c)
  hentry := fun c => by
    have hparts := Pipeline.arrays_of_unscopedBufs (p := pix1) (pcfgs (F := F)) adm (pdats m ρ) launch1.win
      launch1.arr_whole c ((pdats m ρ pix1 c).share_full fun _ => rfl) (Vin1 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix1 c).Φ 0 = Pipeline.ΦA spec1 c from rfl]
    unfold Pipeline.ΦA
    iintro ⟨Hreg, -, Hscoped⟩
    isplitl [Hscoped]
    · iexact Hscoped
    iexact Hreg
  hout := fun c => by
    rw [Pipeline.ownSems0_none, show (pdats m ρ pix1 c).Φ (Fin.last _) = Pipeline.ΦA spec1 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix1) (pcfgs (F := F)) adm (Ix := Unit) (Name := ℕ)
      (U := UR sig nD τ) (Lvl := ℕ) launch1.win launch1.arr_whole c (pdats m ρ)
      ((pdats m ρ pix1 c).share_full fun _ => rfl) (Vin1 m ρ c) (Vout1 m ρ c)
      ((pdats m ρ pix1 c).arrAt · cfg1.N) (hF1 m ρ c) (hrest1 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg2.lean ====
import proofs.«428437_j36421322670670_1_alg».proof.Proof.Kernel.Fold
import Idealize.ShloMosaic.Lib.Pipeline.Regions
import Idealize.ShloMosaic.Lib.Pipeline.RegionsLoop

/-! # Region 2 as a segment of the run

Kernel region 2 of @main (the regions are numbered from zero in program order), entered from the unscoped buffers at
`Win2` and left with them at `Wout2`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 2 between its two thread states. On entry the unscoped buffers, held at `Win2`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout2`. -/
def reg2 : Pipeline.RegionSeg (pcfgs (F := F)) adm (pdats m ρ) () defs₀ 𝒱₀ L lv pix2 where
  win := launch2.win.to₀
  block_pos := launch2.block_pos
  stage_whole := launch2.stage_whole
  K := PEmpty
  osem := fun k => k.elim
  ho := Pipeline.OwnSemFacts.none _
  hbody := fun c => (body_obligation2 (Vin2 m ρ) c).loose
  hwaits := Pipeline.hwaits_of_owed_zero _ _ _ _ L lv pix2 fun _ _ => rfl
  pre := fun c => iprop(StableHlo.held (c : Thread nD τ) (Pipeline.ucRefs τ sig) (Win2 m ρ c) ∗ R c)
  post := fun c => iprop(StableHlo.held (c : Thread nD τ) (Pipeline.ucRefs τ sig) (Wout2 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec2 c (Vin2 m ρ c)
  hentry := fun c => by
    have hparts := Pipeline.arrays_of_unscopedBufs (p := pix2) (pcfgs (F := F)) adm (pdats m ρ) launch2.win
      launch2.arr_whole c ((pdats m ρ pix2 c).share_full fun _ => rfl) (Vin2 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix2 c).Φ 0 = Pipeline.ΦA spec2 c from rfl]
    unfold Pipeline.ΦA
    iintro ⟨Hreg, -, Hscoped⟩
    isplitl [Hscoped]
    · iexact Hscoped
    iexact Hreg
  hout := fun c => by
    rw [Pipeline.ownSems0_none, show (pdats m ρ pix2 c).Φ (Fin.last _) = Pipeline.ΦA spec2 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix2) (pcfgs (F := F)) adm (Ix := Unit) (Name := ℕ)
      (U := UR sig nD τ) (Lvl := ℕ) launch2.win launch2.arr_whole c (pdats m ρ)
      ((pdats m ρ pix2 c).share_full fun _ => rfl) (Vin2 m ρ c) (Vout2 m ρ c)
      ((pdats m ρ pix2 c).arrAt · cfg2.N) (hF2 m ρ c) (hrest2 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg3.lean ====
import proofs.«428437_j36421322670670_1_alg».proof.Proof.Kernel.Fold
import Idealize.ShloMosaic.Lib.Pipeline.Regions
import Idealize.ShloMosaic.Lib.Pipeline.RegionsLoop

/-! # Region 3 as a segment of the run

Kernel region 3 of @main (the regions are numbered from zero in program order), entered from the unscoped buffers at
`Win3` and left with them at `Wout3`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 3 between its two thread states. On entry the unscoped buffers, held at `Win3`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout3`. -/
def reg3 : Pipeline.RegionSeg (pcfgs (F := F)) adm (pdats m ρ) () defs₀ 𝒱₀ L lv pix3 where
  win := launch3.win.to₀
  block_pos := launch3.block_pos
  stage_whole := launch3.stage_whole
  K := PEmpty
  osem := fun k => k.elim
  ho := Pipeline.OwnSemFacts.none _
  hbody := fun c => (body_obligation3 (Vin3 m ρ) c).loose
  hwaits := Pipeline.hwaits_of_owed_zero _ _ _ _ L lv pix3 fun _ _ => rfl
  pre := fun c => iprop(StableHlo.held (c : Thread nD τ) (Pipeline.ucRefs τ sig) (Win3 m ρ c) ∗ R c)
  post := fun c => iprop(StableHlo.held (c : Thread nD τ) (Pipeline.ucRefs τ sig) (Wout3 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec3 c (Vin3 m ρ c)
  hentry := fun c => by
    have hparts := Pipeline.arrays_of_unscopedBufs (p := pix3) (pcfgs (F := F)) adm (pdats m ρ) launch3.win
      launch3.arr_whole c ((pdats m ρ pix3 c).share_full fun _ => rfl) (Vin3 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix3 c).Φ 0 = Pipeline.ΦA spec3 c from rfl]
    unfold Pipeline.ΦA
    iintro ⟨Hreg, -, Hscoped⟩
    isplitl [Hscoped]
    · iexact Hscoped
    iexact Hreg
  hout := fun c => by
    rw [Pipeline.ownSems0_none, show (pdats m ρ pix3 c).Φ (Fin.last _) = Pipeline.ΦA spec3 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix3) (pcfgs (F := F)) adm (Ix := Unit) (Name := ℕ)
      (U := UR sig nD τ) (Lvl := ℕ) launch3.win launch3.arr_whole c (pdats m ρ)
      ((pdats m ρ pix3 c).share_full fun _ => rfl) (Vin3 m ρ c) (Vout3 m ρ c)
      ((pdats m ρ pix3 c).arrAt · cfg3.N) (hF3 m ρ c) (hrest3 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg4.lean ====
import proofs.«428437_j36421322670670_1_alg».proof.Proof.Kernel.Fold
import Idealize.ShloMosaic.Lib.Pipeline.Regions
import Idealize.ShloMosaic.Lib.Pipeline.RegionsLoop

/-! # Region 4 as a segment of the run

Kernel region 4 of @main (the regions are numbered from zero in program order), entered from the unscoped buffers at
`Win4` and left with them at `Wout4`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 4 between its two thread states. On entry the unscoped buffers, held at `Win4`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout4`. -/
def reg4 : Pipeline.RegionSeg (pcfgs (F := F)) adm (pdats m ρ) () defs₀ 𝒱₀ L lv pix4 where
  win := launch4.win.to₀
  block_pos := launch4.block_pos
  stage_whole := launch4.stage_whole
  K := PEmpty
  osem := fun k => k.elim
  ho := Pipeline.OwnSemFacts.none _
  hbody := fun c => (body_obligation4 (Vin4 m ρ) c).loose
  hwaits := Pipeline.hwaits_of_owed_zero _ _ _ _ L lv pix4 fun _ _ => rfl
  pre := fun c => iprop(StableHlo.held (c : Thread nD τ) (Pipeline.ucRefs τ sig) (Win4 m ρ c) ∗ R c)
  post := fun c => iprop(StableHlo.held (c : Thread nD τ) (Pipeline.ucRefs τ sig) (Wout4 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec4 c (Vin4 m ρ c)
  hentry := fun c => by
    have hparts := Pipeline.arrays_of_unscopedBufs (p := pix4) (pcfgs (F := F)) adm (pdats m ρ) launch4.win
      launch4.arr_whole c ((pdats m ρ pix4 c).share_full fun _ => rfl) (Vin4 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix4 c).Φ 0 = Pipeline.ΦA spec4 c from rfl]
    unfold Pipeline.ΦA
    iintro ⟨Hreg, -, Hscoped⟩
    isplitl [Hscoped]
    · iexact Hscoped
    iexact Hreg
  hout := fun c => by
    rw [Pipeline.ownSems0_none, show (pdats m ρ pix4 c).Φ (Fin.last _) = Pipeline.ΦA spec4 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix4) (pcfgs (F := F)) adm (Ix := Unit) (Name := ℕ)
      (U := UR sig nD τ) (Lvl := ℕ) launch4.win launch4.arr_whole c (pdats m ρ)
      ((pdats m ρ pix4 c).share_full fun _ => rfl) (Vin4 m ρ c) (Vout4 m ρ c)
      ((pdats m ρ pix4 c).arrAt · cfg4.N) (hF4 m ρ c) (hrest4 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg5.lean ====
import proofs.«428437_j36421322670670_1_alg».proof.Proof.Kernel.Fold
import Idealize.ShloMosaic.Lib.Pipeline.Regions
import Idealize.ShloMosaic.Lib.Pipeline.RegionsLoop

/-! # Region 5 as a segment of the run

Kernel region 5 of @main (the regions are numbered from zero in program order), entered from the unscoped buffers at
`Win5` and left with them at `Wout5`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 5 between its two thread states. On entry the unscoped buffers, held at `Win5`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout5`. -/
def reg5 : Pipeline.RegionSeg (pcfgs (F := F)) adm (pdats m ρ) () defs₀ 𝒱₀ L lv pix5 where
  win := launch5.win.to₀
  block_pos := launch5.block_pos
  stage_whole := launch5.stage_whole
  K := PEmpty
  osem := fun k => k.elim
  ho := Pipeline.OwnSemFacts.none _
  hbody := fun c => (body_obligation5 (Vin5 m ρ) c).loose
  hwaits := Pipeline.hwaits_of_owed_zero _ _ _ _ L lv pix5 fun _ _ => rfl
  pre := fun c => iprop(StableHlo.held (c : Thread nD τ) (Pipeline.ucRefs τ sig) (Win5 m ρ c) ∗ R c)
  post := fun c => iprop(StableHlo.held (c : Thread nD τ) (Pipeline.ucRefs τ sig) (Wout5 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec5 c (Vin5 m ρ c)
  hentry := fun c => by
    have hparts := Pipeline.arrays_of_unscopedBufs (p := pix5) (pcfgs (F := F)) adm (pdats m ρ) launch5.win
      launch5.arr_whole c ((pdats m ρ pix5 c).share_full fun _ => rfl) (Vin5 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix5 c).Φ 0 = Pipeline.ΦA spec5 c from rfl]
    unfold Pipeline.ΦA
    iintro ⟨Hreg, -, Hscoped⟩
    isplitl [Hscoped]
    · iexact Hscoped
    iexact Hreg
  hout := fun c => by
    rw [Pipeline.ownSems0_none, show (pdats m ρ pix5 c).Φ (Fin.last _) = Pipeline.ΦA spec5 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix5) (pcfgs (F := F)) adm (Ix := Unit) (Name := ℕ)
      (U := UR sig nD τ) (Lvl := ℕ) launch5.win launch5.arr_whole c (pdats m ρ)
      ((pdats m ρ pix5 c).share_full fun _ => rfl) (Vin5 m ρ c) (Vout5 m ρ c)
      ((pdats m ρ pix5 c).arrAt · cfg5.N) (hF5 m ρ c) (hrest5 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg6.lean ====
import proofs.«428437_j36421322670670_1_alg».proof.Proof.Kernel.Fold
import Idealize.ShloMosaic.Lib.Pipeline.Regions
import Idealize.ShloMosaic.Lib.Pipeline.RegionsLoop

/-! # Region 6 as a segment of the run

Kernel region 6 of @main (the regions are numbered from zero in program order), entered from the unscoped buffers at
`Win6` and left with them at `Wout6`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 6 between its two thread states. On entry the unscoped buffers, held at `Win6`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout6`. -/
def reg6 : Pipeline.RegionSeg (pcfgs (F := F)) adm (pdats m ρ) () defs₀ 𝒱₀ L lv pix6 where
  win := launch6.win.to₀
  block_pos := launch6.block_pos
  stage_whole := launch6.stage_whole
  K := PEmpty
  osem := fun k => k.elim
  ho := Pipeline.OwnSemFacts.none _
  hbody := fun c => (body_obligation6 (Vin6 m ρ) c).loose
  hwaits := Pipeline.hwaits_of_owed_zero _ _ _ _ L lv pix6 fun _ _ => rfl
  pre := fun c => iprop(StableHlo.held (c : Thread nD τ) (Pipeline.ucRefs τ sig) (Win6 m ρ c) ∗ R c)
  post := fun c => iprop(StableHlo.held (c : Thread nD τ) (Pipeline.ucRefs τ sig) (Wout6 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec6 c (Vin6 m ρ c)
  hentry := fun c => by
    have hparts := Pipeline.arrays_of_unscopedBufs (p := pix6) (pcfgs (F := F)) adm (pdats m ρ) launch6.win
      launch6.arr_whole c ((pdats m ρ pix6 c).share_full fun _ => rfl) (Vin6 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix6 c).Φ 0 = Pipeline.ΦA spec6 c from rfl]
    unfold Pipeline.ΦA
    iintro ⟨Hreg, -, Hscoped⟩
    isplitl [Hscoped]
    · iexact Hscoped
    iexact Hreg
  hout := fun c => by
    rw [Pipeline.ownSems0_none, show (pdats m ρ pix6 c).Φ (Fin.last _) = Pipeline.ΦA spec6 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix6) (pcfgs (F := F)) adm (Ix := Unit) (Name := ℕ)
      (U := UR sig nD τ) (Lvl := ℕ) launch6.win launch6.arr_whole c (pdats m ρ)
      ((pdats m ρ pix6 c).share_full fun _ => rfl) (Vin6 m ρ c) (Vout6 m ρ c)
      ((pdats m ρ pix6 c).arrAt · cfg6.N) (hF6 m ρ c) (hrest6 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg7.lean ====
import proofs.«428437_j36421322670670_1_alg».proof.Proof.Kernel.Fold
import Idealize.ShloMosaic.Lib.Pipeline.Regions
import Idealize.ShloMosaic.Lib.Pipeline.RegionsLoop

/-! # Region 7 as a segment of the run

Kernel region 7 of @main (the regions are numbered from zero in program order), entered from the unscoped buffers at
`Win7` and left with them at `Wout7`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 7 between its two thread states. On entry the unscoped buffers, held at `Win7`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout7`. -/
def reg7 : Pipeline.RegionSeg (pcfgs (F := F)) adm (pdats m ρ) () defs₀ 𝒱₀ L lv pix7 where
  win := launch7.win.to₀
  block_pos := launch7.block_pos
  stage_whole := launch7.stage_whole
  K := PEmpty
  osem := fun k => k.elim
  ho := Pipeline.OwnSemFacts.none _
  hbody := fun c => (body_obligation7 (Vin7 m ρ) c).loose
  hwaits := Pipeline.hwaits_of_owed_zero _ _ _ _ L lv pix7 fun _ _ => rfl
  pre := fun c => iprop(StableHlo.held (c : Thread nD τ) (Pipeline.ucRefs τ sig) (Win7 m ρ c) ∗ R c)
  post := fun c => iprop(StableHlo.held (c : Thread nD τ) (Pipeline.ucRefs τ sig) (Wout7 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec7 c (Vin7 m ρ c)
  hentry := fun c => by
    have hparts := Pipeline.arrays_of_unscopedBufs (p := pix7) (pcfgs (F := F)) adm (pdats m ρ) launch7.win
      launch7.arr_whole c ((pdats m ρ pix7 c).share_full fun _ => rfl) (Vin7 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix7 c).Φ 0 = Pipeline.ΦA spec7 c from rfl]
    unfold Pipeline.ΦA
    iintro ⟨Hreg, -, Hscoped⟩
    isplitl [Hscoped]
    · iexact Hscoped
    iexact Hreg
  hout := fun c => by
    rw [Pipeline.ownSems0_none, show (pdats m ρ pix7 c).Φ (Fin.last _) = Pipeline.ΦA spec7 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix7) (pcfgs (F := F)) adm (Ix := Unit) (Name := ℕ)
      (U := UR sig nD τ) (Lvl := ℕ) launch7.win launch7.arr_whole c (pdats m ρ)
      ((pdats m ρ pix7 c).share_full fun _ => rfl) (Vin7 m ρ c) (Vout7 m ρ c)
      ((pdats m ρ pix7 c).arrAt · cfg7.N) (hF7 m ρ c) (hrest7 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Seg8.lean ====
import proofs.«428437_j36421322670670_1_alg».proof.Proof.Kernel.Fold
import Idealize.ShloMosaic.Lib.Pipeline.Regions
import Idealize.ShloMosaic.Lib.Pipeline.RegionsLoop

/-! # Region 8 as a segment of the run

Kernel region 8 of @main (the regions are numbered from zero in program order), entered from the unscoped buffers at
`Win8` and left with them at `Wout8`. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 8 between its two thread states. On entry the unscoped buffers, held at `Win8`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout8`. -/
def reg8 : Pipeline.RegionSeg (pcfgs (F := F)) adm (pdats m ρ) () defs₀ 𝒱₀ L lv pix8 where
  win := launch8.win.to₀
  block_pos := launch8.block_pos
  stage_whole := launch8.stage_whole
  K := PEmpty
  osem := fun k => k.elim
  ho := Pipeline.OwnSemFacts.none _
  hbody := fun c => (body_obligation8 (Vin8 m ρ) c).loose
  hwaits := Pipeline.hwaits_of_owed_zero _ _ _ _ L lv pix8 fun _ _ => rfl
  pre := fun c => iprop(StableHlo.held (c : Thread nD τ) (Pipeline.ucRefs τ sig) (Win8 m ρ c) ∗ R c)
  post := fun c => iprop(StableHlo.held (c : Thread nD τ) (Pipeline.ucRefs τ sig) (Wout8 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec8 c (Vin8 m ρ c)
  hentry := fun c => by
    have hparts := Pipeline.arrays_of_unscopedBufs (p := pix8) (pcfgs (F := F)) adm (pdats m ρ) launch8.win
      launch8.arr_whole c ((pdats m ρ pix8 c).share_full fun _ => rfl) (Vin8 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix8 c).Φ 0 = Pipeline.ΦA spec8 c from rfl]
    unfold Pipeline.ΦA
    iintro ⟨Hreg, -, Hscoped⟩
    isplitl [Hscoped]
    · iexact Hscoped
    iexact Hreg
  hout := fun c => by
    rw [Pipeline.ownSems0_none, show (pdats m ρ pix8 c).Φ (Fin.last _) = Pipeline.ΦA spec8 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix8) (pcfgs (F := F)) adm (Ix := Unit) (Name := ℕ)
      (U := UR sig nD τ) (Lvl := ℕ) launch8.win launch8.arr_whole c (pdats m ρ)
      ((pdats m ρ pix8 c).share_full fun _ => rfl) (Vin8 m ρ c) (Vout8 m ρ c)
      ((pdats m ρ pix8 c).arrAt · cfg8.N) (hF8 m ρ c) (hrest8 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.Kernel.Gen

end
-- ==== Proof.Kernel.Run.lean ====
import proofs.«428437_j36421322670670_1_alg».proof.Proof.Kernel.Seg0
import proofs.«428437_j36421322670670_1_alg».proof.Proof.Kernel.Seg1
import proofs.«428437_j36421322670670_1_alg».proof.Proof.Kernel.Seg2
import proofs.«428437_j36421322670670_1_alg».proof.Proof.Kernel.Seg3
import proofs.«428437_j36421322670670_1_alg».proof.Proof.Kernel.Seg4
import proofs.«428437_j36421322670670_1_alg».proof.Proof.Kernel.Seg5
import proofs.«428437_j36421322670670_1_alg».proof.Proof.Kernel.Seg6
import proofs.«428437_j36421322670670_1_alg».proof.Proof.Kernel.Seg7
import proofs.«428437_j36421322670670_1_alg».proof.Proof.Kernel.Seg8
import Idealize.ShloMosaic.Lib.Pipeline.Regions
import Idealize.ShloMosaic.Lib.Pipeline.Launch

/-! # The run of @main and what it leaves

@main's nineteen items — ten stretches of host operations and the nine kernel regions between them — are run as
segments from the launch, each entered from the thread state the one before it left. Every weakly fair execution
terminates, and the final memory holds in each unscoped buffer what the fold of the valuations ends at, `W19`. The
frame claim and the contents of @main's result buffer are read off that. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as nineteen segments -/

/-- The items of @main in program order: the stretch `hostOpsJ` from the valuation before it, then region J, for
    J = 0 … 8, and the closing stretch `hostOps9`. -/
abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

/-- @main is the run of those segments: both sides are the same chain of items. -/
theorem main_run (c : Dev nD) : main (F := F) c = Pipeline.Seg.run (mainSegs m ρ) :=
  (main_chain c).trans (by chain_rfl)

/-- The thread state after the last item, without the dues: every unscoped buffer at `W19`, the generator register at
    some state. -/
abbrev Tₙ (c : Dev nD) : sProp 𝕄 :=
  iprop(StableHlo.held (c : Thread nD τ) (Pipeline.ucRefs τ sig) (W19 m ρ c) ∗ ∃ r, prngReg c r)

/-- After the closing stretch the thread state is the last one beside the core's dues, which are none: the register is
    grouped with the buffers, the dues stand alone. -/
theorem closing_state (c : Dev nD) :
    iprop(StableHlo.held (c : Thread nD τ) (Pipeline.ucRefs τ sig) (W19 m ρ c) ∗ R c)
      ⊢ iprop(Tₙ m ρ c ∗ ∃ W, owes (c : Thread nD τ) (0 : CellTallies nD τ sig Unit) W) := by
  iintro ⟨Hbufs, Hreg, Howes⟩
  isplitr [Howes]
  · isplitl [Hbufs]
    · iexact Hbufs
    iexact Hreg
  iexact Howes

/-! ## The run -/

-- the launch theorem's implicit arguments come from unifying its conclusion with the statement, which has to unfold
-- plain definitions inside the type of a metavariable
set_option backward.isDefEq.respectTransparency.types false in
/-- From any memory `m` with all counters at zero, every weakly fair execution of @main on the TensorCores terminates
    without fault, and in every final state each unscoped buffer of core `c` holds what the fold `W19` says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch element is the staging cells' own; no core gets a ghost resource beside it
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      rw [BI.bigSep_emp_const]
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => closing_state m ρ c⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      iexists ∅
      iexact Howes)
    (QY := fun c s => ∀ b ∈ Pipeline.ucRefs τ sig, s.mem (((c : Thread nD τ)).1, b) = W19 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W19 m ρ c) s')
      isplitl [Hbufs]
      · iexact Hbufs
      iexact Hstate)
    (hQ := fun s h => h)

/-! ## What the run gives -/

/-- The frame claim at any `F`: @main terminates from any memory with zero counters and every argument array ends
    holding what it held at launch. Each argument is an unscoped buffer, read off `W19` and then back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono
    (fun r h c => ⟨(h c _ (mem_uc main_arg0 (by decide))).trans (W19_main_arg0 m ρ c),
      (h c _ (mem_uc main_arg1 (by decide))).trans (W19_main_arg1 m ρ c),
      (h c _ (mem_uc main_arg2 (by decide))).trans (W19_main_arg2 m ρ c),
      (h c _ (mem_uc main_arg3 (by decide))).trans (W19_main_arg3 m ρ c),
      (h c _ (mem_uc main_arg4 (by decide))).trans (W19_main_arg4 m ρ c),
      (h c _ (mem_uc main_arg5 (by decide))).trans (W19_main_arg5 m ρ c),
      (h c _ (mem_uc main_arg6 (by decide))).trans (W19_main_arg6 m ρ c),
      (h c _ (mem_uc main_arg7 (by decide))).trans (W19_main_arg7 m ρ c),
      (h c _ (mem_uc main_arg8 (by decide))).trans (W19_main_arg8 m ρ c),
      (h c _ (mem_uc main_arg9 (by decide))).trans (W19_main_arg9 m ρ c),
      (h c _ (mem_uc main_arg10 (by decide))).trans (W19_main_arg10 m ρ c)⟩)
    (run_all m ρ)

/-- @main's result buffer `main_v146` holds at the end what the fold says. -/
theorem result_eq (r : PUnit × MemSt nD τ sig (Elt F))
    (h : ∀ c : Dev nD, ∀ b ∈ Pipeline.ucRefs τ sig, r.2.mem (((c : Thread nD τ)).1, b) = W19 m ρ c b) (c : Dev nD) :
    r.2.mem ((c.tc : Thread nD τ).loc main_v146) = W19 m ρ c (Proc.devRef .tc main_v146) :=
  h c _ (mem_uc main_v146 (by decide))

end Cert.Kernel.Gen

end
-- ==== Proof.KernelIdeal.Region0.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc0__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat0`), shows the body runs to them from what the pipeline hands it
(`body_obligation0`), for every float interpretation `F`. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column sums after point `n`: the zero row updated by the product tiles of points `0 … n` in turn. -/
def sums0 (c : Dev nD) : (n : ℕ) → n < cfg0.N → Vec F S1x64 .f32
  | 0, hn => k0_pay4 (iblk0 V c 0 ⟨0, hn⟩) (iblk0 V c 1 ⟨0, hn⟩) (iblk0 V c 2 ⟨0, hn⟩) (iblk0 V c 3 ⟨0, hn⟩) (k0_pay1 (F := F))
  | n + 1, hn => k0_pay4 (iblk0 V c 0 ⟨n + 1, hn⟩) (iblk0 V c 1 ⟨n + 1, hn⟩) (iblk0 V c 2 ⟨n + 1, hn⟩) (iblk0 V c 3 ⟨n + 1, hn⟩)
      (sums0 c n (Nat.lt_of_succ_lt hn))

/-- The running column sums of squares after point `n`, likewise. -/
def sqs0 (c : Dev nD) : (n : ℕ) → n < cfg0.N → Vec F S1x64 .f32
  | 0, hn => k0_pay5 (iblk0 V c 0 ⟨0, hn⟩) (iblk0 V c 1 ⟨0, hn⟩) (iblk0 V c 2 ⟨0, hn⟩) (iblk0 V c 3 ⟨0, hn⟩) (k0_pay2 (F := F))
  | n + 1, hn => k0_pay5 (iblk0 V c 0 ⟨n + 1, hn⟩) (iblk0 V c 1 ⟨n + 1, hn⟩) (iblk0 V c 2 ⟨n + 1, hn⟩) (iblk0 V c 3 ⟨n + 1, hn⟩)
      (sqs0 c n (Nat.lt_of_succ_lt hn))

/-! ## The pipeline's proof data -/

/-- On core `c`: the arrays as the region finds them; after the body at point `t` an input's buffer at its block,
    the product window's at the product tile of the four input blocks, the two running rows' at `sums0` and `sqs0`;
    the invariant is the rest of the core's state, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 1 t) (iblk0 V c 2 t) (iblk0 V c 3 t)
    | ⟨5, _⟩ => sums0 V c t.val t.isLt
    | ⟨6, _⟩ => sqs0 V c t.val t.isLt
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! ## What the body leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- The product window holds the product tile of the point's four input blocks. -/
theorem after0_4 (c : Dev nD) (t : Fin cfg0.N) :
    (dat0 V c).after 4 t = k0_pay3 (iblk0 V c 0 t) (iblk0 V c 1 t) (iblk0 V c 2 t) (iblk0 V c 3 t) := by dsimp only [dat0]

/-- The column sums at the first point: the zero row updated by the first product tile. -/
theorem after0_5_first (c : Dev nD) (t : Fin cfg0.N) (h : t.val = 0) :
    (dat0 V c).after 5 t = k0_pay4 (iblk0 V c 0 t) (iblk0 V c 1 t) (iblk0 V c 2 t) (iblk0 V c 3 t) (k0_pay1 (F := F)) := by
  dsimp only [dat0]
  obtain ⟨n, hn⟩ := t
  cases n with
  | zero => exact rfl
  | succ n => exact absurd h (Nat.succ_ne_zero n)

/-- The column sums at a later point: what the point before left, updated by this point's product tile. -/
theorem after0_5_later (c : Dev nD) (t : Fin cfg0.N) (h : t.val ≠ 0) :
    (dat0 V c).after 5 t = k0_pay4 (iblk0 V c 0 t) (iblk0 V c 1 t) (iblk0 V c 2 t) (iblk0 V c 3 t)
      ((dat0 V c).after 5 ⟨t.val - 1, Nat.lt_of_le_of_lt (Nat.sub_le _ _) t.isLt⟩) := by
  dsimp only [dat0]
  obtain ⟨n, hn⟩ := t
  cases n with
  | zero => exact absurd rfl h
  | succ n => exact rfl

/-- The column sums of squares at the first point. -/
theorem after0_6_first (c : Dev nD) (t : Fin cfg0.N) (h : t.val = 0) :
    (dat0 V c).after 6 t = k0_pay5 (iblk0 V c 0 t) (iblk0 V c 1 t) (iblk0 V c 2 t) (iblk0 V c 3 t) (k0_pay2 (F := F)) := by
  dsimp only [dat0]
  obtain ⟨n, hn⟩ := t
  cases n with
  | zero => exact rfl
  | succ n => exact absurd h (Nat.succ_ne_zero n)

/-- The column sums of squares at a later point. -/
theorem after0_6_later (c : Dev nD) (t : Fin cfg0.N) (h : t.val ≠ 0) :
    (dat0 V c).after 6 t = k0_pay5 (iblk0 V c 0 t) (iblk0 V c 1 t) (iblk0 V c 2 t) (iblk0 V c 3 t)
      ((dat0 V c).after 6 ⟨t.val - 1, Nat.lt_of_le_of_lt (Nat.sub_le _ _) t.isLt⟩) := by
  dsimp only [dat0]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- At a later point a running row's buffer holds what the body left at the point before: the row is written back
    at the last point only, its block never moves, and it is never idle or cut. -/
theorem before0_5_later (c : Dev nD) (t : Fin cfg0.N) (h : t.val ≠ 0) (d) :
    (dat0 V c).before 5 t d = (dat0 V c).after 5 ⟨t.val - 1, Nat.lt_of_le_of_lt (Nat.sub_le _ _) t.isLt⟩ := by
  have hN : t.val < 5 := lt_of_lt_of_eq t.isLt (show cfg0.N = 5 from N_0)
  exact Dat.before_out_kept _ 5 rfl t h
    (Bool.eq_false_iff.mpr fun hf => by have := (flush0_5 _).mp hf; dsimp only at this; omega)
    (fun _ => rfl) (fun _ _ => rfl) d
theorem before0_6_later (c : Dev nD) (t : Fin cfg0.N) (h : t.val ≠ 0) (d) :
    (dat0 V c).before 6 t d = (dat0 V c).after 6 ⟨t.val - 1, Nat.lt_of_le_of_lt (Nat.sub_le _ _) t.isLt⟩ := by
  have hN : t.val < 5 := lt_of_lt_of_eq t.isLt (show cfg0.N = 5 from N_0)
  exact Dat.before_out_kept _ 6 rfl t h
    (Bool.eq_false_iff.mpr fun hf => by have := (flush0_6 _).mp hf; dsimp only at this; omega)
    (fun _ => rfl) (fun _ _ => rfl) d

/-! ## The body's branch -/

/-- The condition of the body's one conditional, as the body computes it from the grid coordinate: "this is point 0". -/
abbrev cond0 (i : grid0.Coords) : Prop :=
  (Scalar.cmpi .ne (Scalar.extui (Scalar.cmpi .eq (BitVec.ofNat 32 (i 0).val) 0#32)) 0#32) = 1#1

/-- It holds at the first point and at no other (decided over the five points). -/
theorem hcond0 : ∀ t : Fin cfg0.N, cond0 (grid0.coords t) ↔ t.val = 0 :=
  (by decide +kernel : ∀ t : Fin grid0.N, cond0 (grid0.coords t) ↔ t.val = 0)

/-- The offsets of a whole-buffer access are all zero. -/
theorem offs0_zero : (![0, 0] : Fin 2 → Nat) = fun _ => 0 := funext fun a => by fin_cases a <;> rfl

/-- A buffer whose LAST store goes through the whole-buffer rectangle reads back that store's payload, whatever the
    earlier stores and the prior contents were. -/
theorem read_last0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel0_first (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond0 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k0_pay3 xh xg xw xb)
            ∗ owns (c : Thread nD τ) arg6 fullShare (k0_pay4 xh xg xw xb (k0_pay1 (F := F)))
            ∗ owns (c : Thread nD τ) arg7 fullShare (k0_pay5 xh xg xw xb (k0_pay2 (F := F)))) -∗ K ⟨⟩))
      ⊢ wp frame (wpE (defs₀ (F := F)) Variants.none c none) E (cc0__linear_stats_kernel i arg1 harg1 arg2 harg2 arg3 harg3 arg4 harg4 arg5 harg5 arg6 harg6 arg7 harg7) K := by
  simp only [cc0__linear_stats_kernel_eq_skeleton]; unfold cc0__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  isplitl [Hs]
  · iexists _; isplitr
    swap; · iexact Hs
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  · iexists _; isplitr
    swap; · iexact Hq
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]

set_option maxHeartbeats 2000000 in
/-- AT A LATER POINT. The same, the branch not taken, with the two running rows' buffers at given contents `ps pq`:
    each row ends at its update of what it held. -/
theorem sound_kernel0_later (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond0 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k0_pay3 xh xg xw xb)
            ∗ owns (c : Thread nD τ) arg6 fullShare (k0_pay4 xh xg xw xb ps)
            ∗ owns (c : Thread nD τ) arg7 fullShare (k0_pay5 xh xg xw xb pq)) -∗ K ⟨⟩))
      ⊢ wp frame (wpE (defs₀ (F := F)) Variants.none c none) E (cc0__linear_stats_kernel i arg1 harg1 arg2 harg2 arg3 harg3 arg4 harg4 arg5 harg5 arg6 harg6 arg7 harg7) K := by
  simp only [cc0__linear_stats_kernel_eq_skeleton]; unfold cc0__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  isplitl [Hs]
  · iexists _; isplitr
    swap; · iexact Hs
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]
  · iexists _; isplitr
    swap; · iexact Hq
    ipureintro
    try sl_unfold_words
    rw [read_last0 _ _ offs0_zero]
    simp only [View.readAt_eq_ld, View.ld_unit_zero (S := S10000x64) offs0_zero, View.ld_unit_zero (S := S64x64) offs0_zero,
      View.ld_unit_zero (S := S1x64) offs0_zero, View.readCov_unit_zero (S := S1x64) _ offs0_zero]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h : t.val = 0
  · rw [after0_5_first V c t h, after0_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel0_first c Set.univ (grid0.coords t) _ _ _ _ _ _ _ _ _ _ _ _ _ _ ((hcond0 t).mpr h)
      (iblk0 V c 0 t) (iblk0 V c 1 t) (iblk0 V c 2 t) (iblk0 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after0_5_later V c t h, after0_6_later V c t h]
    simp only [before0_5_later V c t h, before0_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel0_later c Set.univ (grid0.coords t) _ _ _ _ _ _ _ _ _ _ _ _ _ _ (fun hc => h ((hcond0 t).mp hc))
      (iblk0 V c 0 t) (iblk0 V c 1 t) (iblk0 V c 2 t) (iblk0 V c 3 t)
      ((dat0 V c).after 5 ⟨t.val - 1, Nat.lt_of_le_of_lt (Nat.sub_le _ _) t.isLt⟩)
      ((dat0 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KernelIdeal.Region1.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The seven input blocks at their literal vector types: the first linear map's tile, the mean, the variance, the
    scale, the shift, the second weight matrix, the second bias. -/
abbrev blk1_0 (c : Dev nD) (t : Fin cfg1.N) : Vec F S10000x64 .f32 := iblk1 V c 0 t
abbrev blk1_1 (c : Dev nD) (t : Fin cfg1.N) : Vec F S1x64 .f32 := iblk1 V c 1 t
abbrev blk1_2 (c : Dev nD) (t : Fin cfg1.N) : Vec F S1x64 .f32 := iblk1 V c 2 t
abbrev blk1_3 (c : Dev nD) (t : Fin cfg1.N) : Vec F S1x64 .f32 := iblk1 V c 3 t
abbrev blk1_4 (c : Dev nD) (t : Fin cfg1.N) : Vec F S1x64 .f32 := iblk1 V c 4 t
abbrev blk1_5 (c : Dev nD) (t : Fin cfg1.N) : Vec F S64x64 .f32 := iblk1 V c 5 t
abbrev blk1_6 (c : Dev nD) (t : Fin cfg1.N) : Vec F S1x64 .f32 := iblk1 V c 6 t

/-! ## The branch on the first tile -/

/-- The condition of the body's one conditional, from the grid coordinate: the tile number compared with zero,
    widened and compared again, as the body computes it. -/
abbrev cond1_0 (i : grid1.Coords) : Prop :=
  (Scalar.cmpi .ne (Scalar.extui (Scalar.cmpi .eq (BitVec.ofNat 32 (i 0).val) 0#32)) 0#32) = 1#1

/-- It holds at the first tile and at no other: decided over the five tiles. -/
theorem hcond1_0 : ∀ t : Fin cfg1.N, cond1_0 (grid1.coords t) ↔ t.val = 0 :=
  (by decide +kernel : ∀ t : Fin grid1.N, cond1_0 (grid1.coords t) ↔ t.val = 0)

/-! ## The staging memrefs the body is called with -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run1_A (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc1__bn_linear_stats_kernel i ma ha mb hb mc hc md hd me he mf hf mg hg mh hh mi hi mj hj) K } := by
  refine ⟨?_, ?_, ?_, fun E K => ?run⟩
  case run =>
    simp only [cc1__bn_linear_stats_kernel_eq_skeleton]; unfold cc1__bn_linear_stats_kernel_skel
    simp only [k1_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run1_B (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc1__bn_linear_stats_kernel i ma ha mb hb mc hc md hd me he mf hf mg hg mh hh mi hi mj hj) K } := by
  refine ⟨?_, ?_, ?_, fun E K => ?run⟩
  case run =>
    simp only [cc1__bn_linear_stats_kernel_eq_skeleton]; unfold cc1__bn_linear_stats_kernel_skel
    simp only [k1_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover1_A_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S10000x64.Idx) :
    ∃ pc ∈ (run1_A c i ma ha mb hb mc hc md hd me he mf hf mg hg mh hh mi hi mj hj hz xa xb xc xd xe xf xg).1, y ∈ pc.1.set :=
  View.cover_of_tiledL (run1_A c i ma ha mb hb mc hc md hd me he mf hf mg hg mh hh mi hi mj hj hz xa xb xc xd xe xf xg).1 S10000x64.size (by sl_kernel_rfl) y
theorem cover1_A_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S1x64.Idx) :
    ∃ pc ∈ (run1_A c i ma ha mb hb mc hc md hd me he mf hf mg hg mh hh mi hi mj hj hz xa xb xc xd xe xf xg).2.1, y ∈ pc.1.set :=
  View.cover_of_tiledL (run1_A c i ma ha mb hb mc hc md hd me he mf hf mg hg mh hh mi hi mj hj hz xa xb xc xd xe xf xg).2.1 S1x64.size (by sl_kernel_rfl) y
theorem cover1_A_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) (y : S1x64.Idx) :
    ∃ pc ∈ (run1_A c i ma ha mb hb mc hc md hd me he mf hf mg hg mh hh mi hi mj hj hz xa xb xc xd xe xf xg).2.2.1, y ∈ pc.1.set :=
  View.cover_of_tiledL (run1_A c i ma ha mb hb mc hc md hd me he mf hf mg hg mh hh mi hi mj hj hz xa xb xc xd xe xf xg).2.2.1 S1x64.size (by sl_kernel_rfl) y
theorem cover1_B_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run1_B c i ma ha mb hb mc hc md hd me he mf hf mg hg mh hh mi hi mj hj hz xa xb xc xd xe xf xg yi yj).1, y ∈ pc.1.set :=
  View.cover_of_tiledL (run1_B c i ma ha mb hb mc hc md hd me he mf hf mg hg mh hh mi hi mj hj hz xa xb xc xd xe xf xg yi yj).1 S10000x64.size (by sl_kernel_rfl) y
theorem cover1_B_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run1_B c i ma ha mb hb mc hc md hd me he mf hf mg hg mh hh mi hi mj hj hz xa xb xc xd xe xf xg yi yj).2.1, y ∈ pc.1.set :=
  View.cover_of_tiledL (run1_B c i ma ha mb hb mc hc md hd me he mf hf mg hg mh hh mi hi mj hj hz xa xb xc xd xe xf xg yi yj).2.1 S1x64.size (by sl_kernel_rfl) y
theorem cover1_B_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run1_B c i ma ha mb hb mc hc md hd me he mf hf mg hg mh hh mi hi mj hj hz xa xb xc xd xe xf xg yi yj).2.2.1, y ∈ pc.1.set :=
  View.cover_of_tiledL (run1_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out1_A (c : Dev nD) (t : Fin cfg1.N) (hz : cond1_0 (grid1.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).1,
   View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).2.1,
   View.canon (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg).2.2.1)

/-- The same at a later tile, over the accumulators' running contents `yi`, `yj`. -/
def out1_B (c : Dev nD) (t : Fin cfg1.N) (hz : ¬cond1_0 (grid1.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).1,
   View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).2.1,
   View.canon (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt1 (c : Dev nD) : (n : ℕ) → n < cfg1.N → Vec F S10000x64 .f32 × Vec F S1x64 .f32 × Vec F S1x64 .f32
  | 0, hn => out1_A c ⟨0, hn⟩ ((hcond1_0 ⟨0, hn⟩).mpr rfl)
      (blk1_0 V c ⟨0, hn⟩) (blk1_1 V c ⟨0, hn⟩) (blk1_2 V c ⟨0, hn⟩) (blk1_3 V c ⟨0, hn⟩) (blk1_4 V c ⟨0, hn⟩) (blk1_5 V c ⟨0, hn⟩) (blk1_6 V c ⟨0, hn⟩)
  | n + 1, hn => out1_B c ⟨n + 1, hn⟩ (fun h => Nat.succ_ne_zero n ((hcond1_0 ⟨n + 1, hn⟩).mp h))
      (blk1_0 V c ⟨n + 1, hn⟩) (blk1_1 V c ⟨n + 1, hn⟩) (blk1_2 V c ⟨n + 1, hn⟩) (blk1_3 V c ⟨n + 1, hn⟩) (blk1_4 V c ⟨n + 1, hn⟩) (blk1_5 V c ⟨n + 1, hn⟩) (blk1_6 V c ⟨n + 1, hn⟩)
      (outsAt1 c n (Nat.lt_of_succ_lt hn)).2.1 (outsAt1 c n (Nat.lt_of_succ_lt hn)).2.2

/-- `outsAt1` at the first tile. -/
theorem outsAt1_first (c : Dev nD) (t : Fin cfg1.N) (h0 : t.val = 0) :
    outsAt1 V c t.val t.isLt = out1_A c t ((hcond1_0 t).mpr h0)
      (blk1_0 V c t) (blk1_1 V c t) (blk1_2 V c t) (blk1_3 V c t) (blk1_4 V c t) (blk1_5 V c t) (blk1_6 V c t) := by
  obtain ⟨n, hn⟩ := t
  cases n with
  | zero => exact rfl
  | succ n => exact absurd h0 (Nat.succ_ne_zero n)

/-- `outsAt1` at a later tile, over what the tile before left. -/
theorem outsAt1_later (c : Dev nD) (t : Fin cfg1.N) (h0 : ¬t.val = 0) :
    outsAt1 V c t.val t.isLt = out1_B c t (fun h => h0 ((hcond1_0 t).mp h))
      (blk1_0 V c t) (blk1_1 V c t) (blk1_2 V c t) (blk1_3 V c t) (blk1_4 V c t) (blk1_5 V c t) (blk1_6 V c t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data on core `c`: the arrays as the region finds them; after the body at tile `t` each input's buffer
    at its block and the three outputs' at `outsAt1`; the invariant holds the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := Pipeline.ΦA spec1 c
  q _ := fullShare
  owed _ := 0

/-- The proof data's arrays are the entry contents (the definition projected, never unfolded further). -/
theorem A_eq1 (c : Dev nD) (w : Fin cfg1.W) : (dat1 V c).A w = V c (Pipeline.arrRef spec1 w) := by
  dsimp only [dat1]

/-- What the body leaves, window by window: an input's block; an output's component of `outsAt1`. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem afterRaw1_7 (c : Dev nD) (t : Fin cfg1.N) : (dat1 V c).after 7 t = (outsAt1 V c t.val t.isLt).1 := by dsimp only [dat1]
theorem afterRaw1_8 (c : Dev nD) (t : Fin cfg1.N) : (dat1 V c).after 8 t = (outsAt1 V c t.val t.isLt).2.1 := by dsimp only [dat1]
theorem afterRaw1_9 (c : Dev nD) (t : Fin cfg1.N) : (dat1 V c).after 9 t = (outsAt1 V c t.val t.isLt).2.2 := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- At a later tile the column-sum accumulator's staging buffer holds what the body left at the tile before: the
    buffer is written back at the last tile only, and the window is neither idle nor cut. -/
theorem before1_8_later (c : Dev nD) (t : Fin cfg1.N) (h0 : ¬t.val = 0) (d) :
    (dat1 V c).before 8 t d = (outsAt1 V c (t.val - 1) (Nat.lt_of_le_of_lt (Nat.sub_le _ _) t.isLt)).2.1 := by
  have hN : t.val < 5 := lt_of_lt_of_eq t.isLt (show cfg1.N = 5 from N_1)
  rw [Dat.before_out_kept _ 8 rfl t h0 (Bool.eq_false_iff.mpr fun h => by have := (flush1_8 _).mp h; dsimp only at this; omega)
    (fun _ => rfl) (fun _ _ => rfl)]
  dsimp only [dat1]
/-- The same for the accumulator of squares. -/
theorem before1_9_later (c : Dev nD) (t : Fin cfg1.N) (h0 : ¬t.val = 0) (d) :
    (dat1 V c).before 9 t d = (outsAt1 V c (t.val - 1) (Nat.lt_of_le_of_lt (Nat.sub_le _ _) t.isLt)).2.2 := by
  have hN : t.val < 5 := lt_of_lt_of_eq t.isLt (show cfg1.N = 5 from N_1)
  rw [Dat.before_out_kept _ 9 rfl t h0 (Bool.eq_false_iff.mpr fun h => by have := (flush1_9 _).mp h; dsimp only at this; omega)
    (fun _ => rfl) (fun _ _ => rfl)]
  dsimp only [dat1]

/-! ## The body obligation at a tile -/

/-- What the body is called with at tile `t`: the invariant, the core's debt, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, afterRaw1_7, afterRaw1_8, afterRaw1_9]
  by_cases h0 : t.val = 0
  · rw [outsAt1_first V c t h0]
    unfold out1_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run1_A c (grid1.coords t) _ _ _ _ _ _ _ _ _ _ _ _ _ _ _ _ _ _ _ _ ((hcond1_0 t).mpr h0)
      (blk1_0 V c t) (blk1_1 V c t) (blk1_2 V c t) (blk1_3 V c t) (blk1_4 V c t) (blk1_5 V c t) (blk1_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover1_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover1_A_8 c _ _ _ _ _ _ _ _ _ _ _ _ _ _ _ _ _ _ _ _ _ _ _ _ _ _ _ _ _)
    unfold owns; iexists _; isplitr
    swap; · iexact Hj
    ipureintro; exact View.read_writes_eq_canon _ _ _ (cover1_A_9 c _ _ _ _ _ _ _ _ _ _ _ _ _ _ _ _ _ _ _ _ _ _ _ _ _ _ _ _ _)
  · rw [outsAt1_later V c t h0]
    simp only [before1_8_later V c t h0, before1_9_later V c t h0]
    unfold out1_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run1_B c (grid1.coords t) _ _ _ _ _ _ _ _ _ _ _ _ _ _ _ _ _ _ _ _ (fun h => h0 ((hcond1_0 t).mp h))
      (blk1_0 V c t) (blk1_1 V c t) (blk1_2 V c t) (blk1_3 V c t) (blk1_4 V c t) (blk1_5 V c t) (blk1_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover1_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover1_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover1_B_9 c _ _ _ _ _ _ _ _ _ _ _ _ _ _ _ _ _ _ _ _ _ _ _ _ _ _ _ _ _ _ _)

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero1 : (![0, 0] : Fin 2 → Nat) = fun _ => 0 := by
  funext a
  match a with
  | ⟨0, _⟩ => rfl
  | ⟨1, _⟩ => rfl

/-- First tile, tile output: the normalised, rectified tile through the second linear map. -/
theorem piece1_A_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).1 = k1_pay5 xa xc xb xd xe xf xg := by
  unfold run1_A
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- First tile, column sums: zero, read back, plus the tile output's column sums. -/
theorem piece1_A_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).2.1 = k1_pay1 (k1_pay5 xa xc xb xd xe xf xg) (k1_pay3 (F := F)) := by
  unfold run1_A
  dsimp only
  sl_unfold_words
  rw [View.canon_cons_unit_zero (S := S1x64) hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- First tile, column sums of squares. -/
theorem piece1_A_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond1_0 i)
    (xa : Vec F S10000x64 .f32) (xb xc xd xe : Vec F S1x64 .f32) (xf : Vec F S64x64 .f32) (xg : Vec F S1x64 .f32) :
    View.canon (run1_A c i ma ha mb hb mc hc md hd me he mf hf mg hg mh hh mi hi mj hj hz xa xb xc xd xe xf xg).2.2.1 = k1_pay2 (k1_pay5 xa xc xb xd xe xf xg) (k1_pay4 (F := F)) := by
  unfold run1_A
  dsimp only
  sl_unfold_words
  rw [View.canon_cons_unit_zero (S := S1x64) hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, tile output. -/
theorem piece1_B_7 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).1 = k1_pay5 xa xc xb xd xe xf xg := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, column sums: the running sums plus the tile output's column sums. -/
theorem piece1_B_8 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).2.1 = k1_pay1 (k1_pay5 xa xc xb xd xe xf xg) yi := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-- Later tile, column sums of squares. -/
theorem piece1_B_9 (c : Dev nD) (i : grid1.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond1_0 i)
    (xa : Vec F S10000x64 .f32) (xb xc xd xe : Vec F S1x64 .f32) (xf : Vec F S64x64 .f32) (xg : Vec F S1x64 .f32) (yi yj : Vec F S1x64 .f32) :
    View.canon (run1_B c i ma ha mb hb mc hc md hd me he mf hf mg hg mh hh mi hi mj hj hz xa xb xc xd xe xf xg yi yj).2.2.1 = k1_pay2 (k1_pay5 xa xc xb xd xe xf xg) yj := by
  unfold run1_B
  dsimp only
  sl_unfold_words
  rw [View.canon_unit_zero hzero1]
  simp only [View.readAt_eq_ld, ha.read_unread, hb.read_unread, hc.read_unread, hd.read_unread, he.read_unread, hf.read_unread, hg.read_unread,
    hi.read_unread, hj.read_unread, View.ld_unit_zero (S := S10000x64) hzero1, View.ld_unit_zero (S := S1x64) hzero1, View.ld_unit_zero (S := S64x64) hzero1,
    View.readCov_unit_zero (S := S1x64) _ hzero1]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after1_7 (c : Dev nD) (t : Fin cfg1.N) :
    (dat1 V c).after 7 t = k1_pay5 (iblk1 V c 0 t) (iblk1 V c 2 t) (iblk1 V c 1 t) (iblk1 V c 3 t) (iblk1 V c 4 t) (iblk1 V c 5 t) (iblk1 V c 6 t) := by
  rw [afterRaw1_7]
  by_cases h0 : t.val = 0
  · rw [outsAt1_first V c t h0]
    unfold out1_A
    dsimp only
    exact piece1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (blk1_0 V c t) (blk1_1 V c t) (blk1_2 V c t) (blk1_3 V c t) (blk1_4 V c t) (blk1_5 V c t) (blk1_6 V c t)
  · rw [outsAt1_later V c t h0]
    unfold out1_B
    dsimp only
    exact piece1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (blk1_0 V c t) (blk1_1 V c t) (blk1_2 V c t) (blk1_3 V c t) (blk1_4 V c t) (blk1_5 V c t) (blk1_6 V c t)
      (outsAt1 V c (t.val - 1) (Nat.lt_of_le_of_lt (Nat.sub_le _ _) t.isLt)).2.1 (outsAt1 V c (t.val - 1) (Nat.lt_of_le_of_lt (Nat.sub_le _ _) t.isLt)).2.2

/-- The column sums after the first tile. -/
theorem after1_8_first (c : Dev nD) (t : Fin cfg1.N) (h : t.val = 0) :
    (dat1 V c).after 8 t = k1_pay1 (k1_pay5 (iblk1 V c 0 t) (iblk1 V c 2 t) (iblk1 V c 1 t) (iblk1 V c 3 t) (iblk1 V c 4 t) (iblk1 V c 5 t) (iblk1 V c 6 t)) (k1_pay3 (F := F)) := by
  rw [afterRaw1_8, outsAt1_first V c t h]
  unfold out1_A
  dsimp only
  exact piece1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (blk1_0 V c t) (blk1_1 V c t) (blk1_2 V c t) (blk1_3 V c t) (blk1_4 V c t) (blk1_5 V c t) (blk1_6 V c t)

/-- The column sums after a later tile, from those after the tile before. -/
theorem after1_8_later (c : Dev nD) (t : Fin cfg1.N) (h : t.val ≠ 0) :
    (dat1 V c).after 8 t = k1_pay1 (k1_pay5 (iblk1 V c 0 t) (iblk1 V c 2 t) (iblk1 V c 1 t) (iblk1 V c 3 t) (iblk1 V c 4 t) (iblk1 V c 5 t) (iblk1 V c 6 t)) ((dat1 V c).after 8 ⟨t.val - 1, Nat.lt_of_le_of_lt (Nat.sub_le _ _) t.isLt⟩) := by
  rw [afterRaw1_8, afterRaw1_8, outsAt1_later V c t h]
  unfold out1_B
  dsimp only
  exact piece1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h' => h ((hcond1_0 t).mp h')) (blk1_0 V c t) (blk1_1 V c t) (blk1_2 V c t) (blk1_3 V c t) (blk1_4 V c t) (blk1_5 V c t) (blk1_6 V c t)
    (outsAt1 V c (t.val - 1) (Nat.lt_of_le_of_lt (Nat.sub_le _ _) t.isLt)).2.1 (outsAt1 V c (t.val - 1) (Nat.lt_of_le_of_lt (Nat.sub_le _ _) t.isLt)).2.2

/-- The column sums of squares after the first tile. -/
theorem after1_9_first (c : Dev nD) (t : Fin cfg1.N) (h : t.val = 0) :
    (dat1 V c).after 9 t = k1_pay2 (k1_pay5 (iblk1 V c 0 t) (iblk1 V c 2 t) (iblk1 V c 1 t) (iblk1 V c 3 t) (iblk1 V c 4 t) (iblk1 V c 5 t) (iblk1 V c 6 t)) (k1_pay4 (F := F)) := by
  rw [afterRaw1_9, outsAt1_first V c t h]
  unfold out1_A
  dsimp only
  exact piece1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (blk1_0 V c t) (blk1_1 V c t) (blk1_2 V c t) (blk1_3 V c t) (blk1_4 V c t) (blk1_5 V c t) (blk1_6 V c t)

/-- The column sums of squares after a later tile, from those after the tile before. -/
theorem after1_9_later (c : Dev nD) (t : Fin cfg1.N) (h : t.val ≠ 0) :
    (dat1 V c).after 9 t = k1_pay2 (k1_pay5 (iblk1 V c 0 t) (iblk1 V c 2 t) (iblk1 V c 1 t) (iblk1 V c 3 t) (iblk1 V c 4 t) (iblk1 V c 5 t) (iblk1 V c 6 t)) ((dat1 V c).after 9 ⟨t.val - 1, Nat.lt_of_le_of_lt (Nat.sub_le _ _) t.isLt⟩) := by
  rw [afterRaw1_9, afterRaw1_9, outsAt1_later V c t h]
  unfold out1_B
  dsimp only
  exact piece1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h' => h ((hcond1_0 t).mp h')) (blk1_0 V c t) (blk1_1 V c t) (blk1_2 V c t) (blk1_3 V c t) (blk1_4 V c t) (blk1_5 V c t) (blk1_6 V c t)
    (outsAt1 V c (t.val - 1) (Nat.lt_of_le_of_lt (Nat.sub_le _ _) t.isLt)).2.1 (outsAt1 V c (t.val - 1) (Nat.lt_of_le_of_lt (Nat.sub_le _ _) t.isLt)).2.2

end Cert.KernelIdeal.Gen

end
-- ==== Proof.KernelIdeal.Region2.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the block was fetched there or
    kept from the point before (its index has not moved then), for any proof data whose array is the entry contents
    and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the coordinate is zero. -/
abbrev cond2_0 (i : grid2.Coords) : Prop := (Scalar.cmpi .ne (Scalar.extui (Scalar.cmpi .eq (BitVec.ofNat 32 (i 0).val) 0#32)) 0#32) = 1#1
/-- It holds at the first point only (decided over the grid). -/
theorem hcond2_0 : ∀ t : Fin cfg2.N, cond2_0 (grid2.coords t) ↔ t.val % 25 = 0 :=
  (by decide +kernel : ∀ t : Fin grid2.N, cond2_0 (grid2.coords t) ↔ t.val % 25 = 0)

/-! ## The staging memrefs -/

/-- One staging buffer of each output window, through which its contents are stated (the choice does not matter:
    a covering list of pieces reads back the same through any view). -/
abbrev VO2_6 : View sig .tc .vmem S2000x64 .f32 := (Memref.whole cc2_stg6_0 : Memref sig .tc .vmem S2000x64 .f32).view
abbrev VO2_7 : View sig .tc .vmem S512x64 .f32 := (Memref.whole cc2_stg7_0 : Memref sig .tc .vmem S512x64 .f32).view
/-- Each window's current staging memref at point `t`, spelled as the pipeline passes it to the body, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x64 .f32 := win2_7.stage (cfg2.slots t 7)
abbrev hs2_7 (t : Fin cfg2.N) : (ms2_7 t).IsWhole := hstage2_7 ((cfg2.slots t 7).cast nbuf2_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun2_A (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc2__bn_pool_kernel i mL hmL mM hmM mV hmV mG hmG mB hmB mI hmI mH hmH mP hmP) K } := by
  refine ⟨?_, ?_, fun E K => ?run⟩
  case run =>
    simp only [cc2__bn_pool_kernel_eq_skeleton]; unfold cc2__bn_pool_kernel_skel
    simp only [k2_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun2_B (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc2__bn_pool_kernel i mL hmL mM hmM mV hmV mG hmG mB hmB mI hmI mH hmH mP hmP) K } := by
  refine ⟨?_, ?_, fun E K => ?run⟩
  case run =>
    simp only [cc2__bn_pool_kernel_eq_skeleton]; unfold cc2__bn_pool_kernel_skel
    simp only [k2_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover2_A_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun2_A c i mL hmL mM hmM mV hmV mG hmG mB hmB mI hmI mH hmH mP hmP hc xL xM xV xG xB xI).1, y ∈ pc.1.set :=
  View.cover_of_tiledL (kernelRun2_A c i mL hmL mM hmM mV hmV mG hmG mB hmB mI hmI mH hmH mP hmP hc xL xM xV xG xB xI).1 S2000x64.size (by sl_kernel_rfl) y

/-- What case A leaves in output window 6's staging buffer: its pieces read back. -/
def out2_A_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO2_6.read (Elt F) (VO2_6.writes (Elt F) VO2_6.junk (kernelRun2_A c i mL hmL mM hmM mV hmV mG hmG mB hmB mI hmI mH hmH mP hmP hc xL xM xV xG xB xI).1)

/-- The pieces case A finds for output window 7 tile its block, so they cover it. -/
theorem cover2_A_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun2_A c i mL hmL mM hmM mV hmV mG hmG mB hmB mI hmI mH hmH mP hmP hc xL xM xV xG xB xI).2.1, y ∈ pc.1.set :=
  View.cover_of_tiledL (kernelRun2_A c i mL hmL mM hmM mV hmV mG hmG mB hmB mI hmI mH hmH mP hmP hc xL xM xV xG xB xI).2.1 S512x64.size (by sl_kernel_rfl) y

/-- What case A leaves in output window 7's staging buffer: its pieces read back. -/
def out2_A_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO2_7.read (Elt F) (VO2_7.writes (Elt F) VO2_7.junk (kernelRun2_A c i mL hmL mM hmM mV hmV mG hmG mB hmB mI hmI mH hmH mP hmP hc xL xM xV xG xB xI).2.1)

/-- The pieces case B finds for output window 6 tile its block, so they cover it. -/
theorem cover2_B_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun2_B c i mL hmL mM hmM mV hmV mG hmG mB hmB mI hmI mH hmH mP hmP hc xL xM xV xG xB xI xP).1, y ∈ pc.1.set :=
  View.cover_of_tiledL (kernelRun2_B c i mL hmL mM hmM mV hmV mG hmG mB hmB mI hmI mH hmH mP hmP hc xL xM xV xG xB xI xP).1 S2000x64.size (by sl_kernel_rfl) y

/-- What case B leaves in output window 6's staging buffer: its pieces read back. -/
def out2_B_6 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO2_6.read (Elt F) (VO2_6.writes (Elt F) VO2_6.junk (kernelRun2_B c i mL hmL mM hmM mV hmV mG hmG mB hmB mI hmI mH hmH mP hmP hc xL xM xV xG xB xI xP).1)

/-- The pieces case B finds for output window 7 tile its block, so they cover it. -/
theorem cover2_B_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun2_B c i mL hmL mM hmM mV hmV mG hmG mB hmB mI hmI mH hmH mP hmP hc xL xM xV xG xB xI xP).2.1, y ∈ pc.1.set :=
  View.cover_of_tiledL (kernelRun2_B c i mL hmL mM hmM mV hmV mG hmG mB hmB mI hmI mH hmH mP hmP hc xL xM xV xG xB xI xP).2.1 S512x64.size (by sl_kernel_rfl) y

/-- What case B leaves in output window 7's staging buffer: its pieces read back. -/
def out2_B_7 (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO2_7.read (Elt F) (VO2_7.writes (Elt F) VO2_7.junk (kernelRun2_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt2 (c : Dev nD) : (n : ℕ) → n < cfg2.N → Vec F S2000x64 .f32 × Vec F S512x64 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at the point of case A: that case's contents. -/
theorem outsAt2_A (c : Dev nD) (t : Fin cfg2.N) (h0 : t.val % 25 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 25 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt2`; the invariant that of a body with no
    state of its own (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem afterAt2_6 (c : Dev nD) (t : Fin cfg2.N) : (dat2 V c).after 6 t = (outsAt2 V c t.val t.isLt).1 := by dsimp only [dat2]
theorem afterAt2_7 (c : Dev nD) (t : Fin cfg2.N) : (dat2 V c).after 7 t = (outsAt2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
/-- At a point of case B the pooled window's staging buffer holds what the body left at the point before: the point
    is not the first, the buffer was not written back between (only the last point writes it back), the window is
    live and uncut. -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, afterAt2_6, afterAt2_7]
  have hN : t.val < 25 := lt_of_lt_of_eq t.isLt (show cfg2.N = 25 from N_2)
  by_cases h0 : t.val % 25 = 0
  · rw [outsAt2_A V c t h0]
    (try dsimp only)
    unfold out2_A_6 out2_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover2_A_6 c _ _ _ _ _ _ _ _ _ _ _ _ _ _ _ _ _ _ _ _ _ _ _ _)
    unfold owns; iexists _; isplitr
    swap; · iexact HP
    ipureintro; exact View.read_writes_of_cover _ _ _ _ _ (cover2_A_7 c _ _ _ _ _ _ _ _ _ _ _ _ _ _ _ _ _ _ _ _ _ _ _ _)
  · rw [outsAt2_B V c t h0]
    simp only [before2_7_B V c t h0]
    (try dsimp only)
    unfold out2_B_6 out2_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover2_B_6 c _ _ _ _ _ _ _ _ _ _ _ _ _ _ _ _ _ _ _ _ _ _ _ _ _)
    unfold owns; iexists _; isplitr
    swap; · iexact HP
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs2 : (![0, 0] : Fin 2 → Nat) = fun _ => 0 := funext fun a => by fin_cases a <;> rfl

/-- Case A leaves the normalised, clamped tile in the tile output: its one covering store's payload, whose loads read
    the whole input buffers. -/
theorem out2_A_6_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    out2_A_6 c i mL hmL mM hmM mV hmV mG hmG mB hmB mI hmI mH hmH mP hmP hc xL xM xV xG xB xI = k2_pay3 xL xV xM xG xB := by
  unfold out2_A_6
  rw [View.read_writes_eq_canon _ _ _ (cover2_A_6 c i mL hmL mM hmM mV hmV mG hmG mB hmB mI hmI mH hmH mP hmP hc xL xM xV xG xB xI)]
  unfold kernelRun2_A
  dsimp only
  sl_unfold_words
  rw [View.canon_unit_zero zeroOffs2]
  simp only [View.readAt_eq_ld, hmL.read_unread, hmM.read_unread, hmV.read_unread, hmG.read_unread, hmB.read_unread, hmI.read_unread, View.ld_unit_zero (S := S2000x64) zeroOffs2, View.ld_unit_zero (S := S1x64) zeroOffs2, View.ld_unit_zero (S := S2000x1) zeroOffs2, View.ld_unit_zero (S := S512x64) zeroOffs2]

/-- Case A leaves in the pooled block the tile's contraction added to the zero block: the reset store is read back
    whole, and the last store covers the block. -/
theorem out2_A_7_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond2_0 i)
    (xL : Vec F S2000x64 .f32) (xM : Vec F S1x64 .f32) (xV : Vec F S1x64 .f32) (xG : Vec F S1x64 .f32) (xB : Vec F S1x64 .f32) (xI : Vec F S2000x1 .i32) :
    out2_A_7 c i mL hmL mM hmM mV hmV mG hmG mB hmB mI hmI mH hmH mP hmP hc xL xM xV xG xB xI = k2_pay1 (k2_pay4 xL xV xM xG xB xI) (k2_pay2 (F := F)) := by
  unfold out2_A_7
  rw [View.read_writes_eq_canon _ _ _ (cover2_A_7 c i mL hmL mM hmM mV hmV mG hmG mB hmB mI hmI mH hmH mP hmP hc xL xM xV xG xB xI)]
  unfold kernelRun2_A
  dsimp only
  sl_unfold_words
  rw [View.canon_cons_unit_zero (S := S512x64) zeroOffs2, View.readCov_unit_zero (S := S512x64) _ zeroOffs2]
  simp only [View.readAt_eq_ld, hmL.read_unread, hmM.read_unread, hmV.read_unread, hmG.read_unread, hmB.read_unread, hmI.read_unread, View.ld_unit_zero (S := S2000x64) zeroOffs2, View.ld_unit_zero (S := S1x64) zeroOffs2, View.ld_unit_zero (S := S2000x1) zeroOffs2, View.ld_unit_zero (S := S512x64) zeroOffs2]

/-- Case B leaves the same tile payload in the tile output. -/
theorem out2_B_6_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out2_B_6 c i mL hmL mM hmM mV hmV mG hmG mB hmB mI hmI mH hmH mP hmP hc xL xM xV xG xB xI xP = k2_pay3 xL xV xM xG xB := by
  unfold out2_B_6
  rw [View.read_writes_eq_canon _ _ _ (cover2_B_6 c i mL hmL mM hmM mV hmV mG hmG mB hmB mI hmI mH hmH mP hmP hc xL xM xV xG xB xI xP)]
  unfold kernelRun2_B
  dsimp only
  sl_unfold_words
  rw [View.canon_unit_zero zeroOffs2]
  simp only [View.readAt_eq_ld, hmL.read_unread, hmM.read_unread, hmV.read_unread, hmG.read_unread, hmB.read_unread, hmI.read_unread, hmP.read_unread, View.ld_unit_zero (S := S2000x64) zeroOffs2, View.ld_unit_zero (S := S1x64) zeroOffs2, View.ld_unit_zero (S := S2000x1) zeroOffs2, View.ld_unit_zero (S := S512x64) zeroOffs2]

/-- Case B leaves in the pooled block the tile's contraction added to what the block held. -/
theorem out2_B_7_eq (c : Dev nD) (i : grid2.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond2_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out2_B_7 c i mL hmL mM hmM mV hmV mG hmG mB hmB mI hmI mH hmH mP hmP hc xL xM xV xG xB xI xP = k2_pay1 (k2_pay4 xL xV xM xG xB xI) xP := by
  unfold out2_B_7
  rw [View.read_writes_eq_canon _ _ _ (cover2_B_7 c i mL hmL mM hmM mV hmV mG hmG mB hmB mI hmI mH hmH mP hmP hc xL xM xV xG xB xI xP)]
  unfold kernelRun2_B
  dsimp only
  sl_unfold_words
  rw [View.canon_unit_zero zeroOffs2]
  simp only [View.readAt_eq_ld, hmL.read_unread, hmM.read_unread, hmV.read_unread, hmG.read_unread, hmB.read_unread, hmI.read_unread, hmP.read_unread, View.ld_unit_zero (S := S2000x64) zeroOffs2, View.ld_unit_zero (S := S1x64) zeroOffs2, View.ld_unit_zero (S := S2000x1) zeroOffs2, View.ld_unit_zero (S := S512x64) zeroOffs2]

/-! ## What the output windows hold after each point, in payloads -/

/-- After the body at any point the tile output holds the normalised, clamped tile of the point's input blocks. -/
theorem after2_6 (c : Dev nD) (t : Fin cfg2.N) :
    (dat2 V c).after 6 t = k2_pay3 (iblk2 V c 0 t) (iblk2 V c 2 t) (iblk2 V c 1 t) (iblk2 V c 3 t) (iblk2 V c 4 t) := by
  rw [afterAt2_6]
  by_cases h0 : t.val % 25 = 0
  · rw [outsAt2_A V c t h0]; (try dsimp only)
    exact out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)
  · rw [outsAt2_B V c t h0]; (try dsimp only)
    exact out2_B_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

/-- After the body at the first point the pooled block holds the first tile's contraction added to the zero block. -/
theorem after2_7_first (c : Dev nD) (t : Fin cfg2.N) (h : t.val = 0) :
    (dat2 V c).after 7 t = k2_pay1 (k2_pay4 (iblk2 V c 0 t) (iblk2 V c 2 t) (iblk2 V c 1 t) (iblk2 V c 3 t) (iblk2 V c 4 t) (iblk2 V c 5 t)) (k2_pay2 (F := F)) := by
  have h0 : t.val % 25 = 0 := by rw [h]
  rw [afterAt2_7, outsAt2_A V c t h0]; (try dsimp only)
  exact out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)

/-- After the body at a later point the pooled block holds the tile's contraction added to what the point before left. -/
theorem after2_7_later (c : Dev nD) (t : Fin cfg2.N) (h : t.val ≠ 0) :
    (dat2 V c).after 7 t = k2_pay1 (k2_pay4 (iblk2 V c 0 t) (iblk2 V c 2 t) (iblk2 V c 1 t) (iblk2 V c 3 t) (iblk2 V c 4 t) (iblk2 V c 5 t)) ((dat2 V c).after 7 ⟨t.val - 1, Nat.lt_of_le_of_lt (Nat.sub_le _ _) t.isLt⟩) := by
  have hN : t.val < 25 := lt_of_lt_of_eq t.isLt (show cfg2.N = 25 from N_2)
  have h0 : ¬t.val % 25 = 0 := by omega
  rw [afterAt2_7 V c t, outsAt2_B V c t h0, afterAt2_7 V c ⟨t.val - 1, Nat.lt_of_le_of_lt (Nat.sub_le _ _) t.isLt⟩]; (try dsimp only)
  exact out2_B_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

end Cert.KernelIdeal.Gen

end
-- ==== Proof.KernelIdeal.Region3.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc3__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat3`), shows the body runs to them from what the pipeline hands it
(`body_obligation3`), for every float interpretation `F`. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running column sums after point `n`: the zero row updated by the product tiles of points `0 … n` in turn. -/
def sums3 (c : Dev nD) : (n : ℕ) → n < cfg3.N → Vec F S1x64 .f32
  | 0, hn => k3_pay4 (iblk3 V c 0 ⟨0, hn⟩) (iblk3 V c 1 ⟨0, hn⟩) (iblk3 V c 2 ⟨0, hn⟩) (iblk3 V c 3 ⟨0, hn⟩) (k3_pay1 (F := F))
  | n + 1, hn => k3_pay4 (iblk3 V c 0 ⟨n + 1, hn⟩) (iblk3 V c 1 ⟨n + 1, hn⟩) (iblk3 V c 2 ⟨n + 1, hn⟩) (iblk3 V c 3 ⟨n + 1, hn⟩)
      (sums3 c n (Nat.lt_of_succ_lt hn))

/-- The running column sums of squares after point `n`, likewise. -/
def sqs3 (c : Dev nD) : (n : ℕ) → n < cfg3.N → Vec F S1x64 .f32
  | 0, hn => k3_pay5 (iblk3 V c 0 ⟨0, hn⟩) (iblk3 V c 1 ⟨0, hn⟩) (iblk3 V c 2 ⟨0, hn⟩) (iblk3 V c 3 ⟨0, hn⟩) (k3_pay2 (F := F))
  | n + 1, hn => k3_pay5 (iblk3 V c 0 ⟨n + 1, hn⟩) (iblk3 V c 1 ⟨n + 1, hn⟩) (iblk3 V c 2 ⟨n + 1, hn⟩) (iblk3 V c 3 ⟨n + 1, hn⟩)
      (sqs3 c n (Nat.lt_of_succ_lt hn))

/-! ## The pipeline's proof data -/

/-- On core `c`: the arrays as the region finds them; after the body at point `t` an input's buffer at its block,
    the product window's at the product tile of the four input blocks, the two running rows' at `sums3` and `sqs3`;
    the invariant is the rest of the core's state, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 0 t) (iblk3 V c 1 t) (iblk3 V c 2 t) (iblk3 V c 3 t)
    | ⟨5, _⟩ => sums3 V c t.val t.isLt
    | ⟨6, _⟩ => sqs3 V c t.val t.isLt
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-! ## What the body leaves, window by window -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]

/-- The product window holds the product tile of the point's four input blocks. -/
theorem after3_4 (c : Dev nD) (t : Fin cfg3.N) :
    (dat3 V c).after 4 t = k3_pay3 (iblk3 V c 0 t) (iblk3 V c 1 t) (iblk3 V c 2 t) (iblk3 V c 3 t) := by dsimp only [dat3]

/-- The column sums at the first point: the zero row updated by the first product tile. -/
theorem after3_5_first (c : Dev nD) (t : Fin cfg3.N) (h : t.val = 0) :
    (dat3 V c).after 5 t = k3_pay4 (iblk3 V c 0 t) (iblk3 V c 1 t) (iblk3 V c 2 t) (iblk3 V c 3 t) (k3_pay1 (F := F)) := by
  dsimp only [dat3]
  obtain ⟨n, hn⟩ := t
  cases n with
  | zero => exact rfl
  | succ n => exact absurd h (Nat.succ_ne_zero n)

/-- The column sums at a later point: what the point before left, updated by this point's product tile. -/
theorem after3_5_later (c : Dev nD) (t : Fin cfg3.N) (h : t.val ≠ 0) :
    (dat3 V c).after 5 t = k3_pay4 (iblk3 V c 0 t) (iblk3 V c 1 t) (iblk3 V c 2 t) (iblk3 V c 3 t)
      ((dat3 V c).after 5 ⟨t.val - 1, Nat.lt_of_le_of_lt (Nat.sub_le _ _) t.isLt⟩) := by
  dsimp only [dat3]
  obtain ⟨n, hn⟩ := t
  cases n with
  | zero => exact absurd rfl h
  | succ n => exact rfl

/-- The column sums of squares at the first point. -/
theorem after3_6_first (c : Dev nD) (t : Fin cfg3.N) (h : t.val = 0) :
    (dat3 V c).after 6 t = k3_pay5 (iblk3 V c 0 t) (iblk3 V c 1 t) (iblk3 V c 2 t) (iblk3 V c 3 t) (k3_pay2 (F := F)) := by
  dsimp only [dat3]
  obtain ⟨n, hn⟩ := t
  cases n with
  | zero => exact rfl
  | succ n => exact absurd h (Nat.succ_ne_zero n)

/-- The column sums of squares at a later point. -/
theorem after3_6_later (c : Dev nD) (t : Fin cfg3.N) (h : t.val ≠ 0) :
    (dat3 V c).after 6 t = k3_pay5 (iblk3 V c 0 t) (iblk3 V c 1 t) (iblk3 V c 2 t) (iblk3 V c 3 t)
      ((dat3 V c).after 6 ⟨t.val - 1, Nat.lt_of_le_of_lt (Nat.sub_le _ _) t.isLt⟩) := by
  dsimp only [dat3]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- At a later point a running row's buffer holds what the body left at the point before: the row is written back
    at the last point only, its block never moves, and it is never idle or cut. -/
theorem before3_5_later (c : Dev nD) (t : Fin cfg3.N) (h : t.val ≠ 0) (d) :
    (dat3 V c).before 5 t d = (dat3 V c).after 5 ⟨t.val - 1, Nat.lt_of_le_of_lt (Nat.sub_le _ _) t.isLt⟩ := by
  have hN : t.val < 5 := lt_of_lt_of_eq t.isLt (show cfg3.N = 5 from N_3)
  exact Dat.before_out_kept _ 5 rfl t h
    (Bool.eq_false_iff.mpr fun hf => by have := (flush3_5 _).mp hf; dsimp only at this; omega)
    (fun _ => rfl) (fun _ _ => rfl) d
theorem before3_6_later (c : Dev nD) (t : Fin cfg3.N) (h : t.val ≠ 0) (d) :
    (dat3 V c).before 6 t d = (dat3 V c).after 6 ⟨t.val - 1, Nat.lt_of_le_of_lt (Nat.sub_le _ _) t.isLt⟩ := by
  have hN : t.val < 5 := lt_of_lt_of_eq t.isLt (show cfg3.N = 5 from N_3)
  exact Dat.before_out_kept _ 6 rfl t h
    (Bool.eq_false_iff.mpr fun hf => by have := (flush3_6 _).mp hf; dsimp only at this; omega)
    (fun _ => rfl) (fun _ _ => rfl) d

/-! ## The body's branch -/

/-- The condition of the body's one conditional, as the body computes it from the grid coordinate: "this is point 0". -/
abbrev cond3 (i : grid3.Coords) : Prop :=
  (Scalar.cmpi .ne (Scalar.extui (Scalar.cmpi .eq (BitVec.ofNat 32 (i 0).val) 0#32)) 0#32) = 1#1

/-- It holds at the first point and at no other (decided over the five points). -/
theorem hcond3 : ∀ t : Fin cfg3.N, cond3 (grid3.coords t) ↔ t.val = 0 :=
  (by decide +kernel : ∀ t : Fin grid3.N, cond3 (grid3.coords t) ↔ t.val = 0)

/-- The offsets of a whole-buffer access are all zero. -/
theorem offs3_zero : (![0, 0] : Fin 2 → Nat) = fun _ => 0 := funext fun a => by fin_cases a <;> rfl

/-- A buffer whose LAST store goes through the whole-buffer rectangle reads back that store's payload, whatever the
    earlier stores and the prior contents were. -/
theorem read_last3 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel3_first (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond3 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k3_pay3 xh xg xw xb)
            ∗ owns (c : Thread nD τ) arg6 fullShare (k3_pay4 xh xg xw xb (k3_pay1 (F := F)))
            ∗ owns (c : Thread nD τ) arg7 fullShare (k3_pay5 xh xg xw xb (k3_pay2 (F := F)))) -∗ K ⟨⟩))
      ⊢ wp frame (wpE (defs₀ (F := F)) Variants.none c none) E (cc3__linear_stats_kernel i arg1 harg1 arg2 harg2 arg3 harg3 arg4 harg4 arg5 harg5 arg6 harg6 arg7 harg7) K := by
  simp only [cc3__linear_stats_kernel_eq_skeleton]; unfold cc3__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  isplitl [Hs]
  · iexists _; isplitr
    swap; · iexact Hs
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  · iexists _; isplitr
    swap; · iexact Hq
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]

set_option maxHeartbeats 2000000 in
/-- AT A LATER POINT. The same, the branch not taken, with the two running rows' buffers at given contents `ps pq`:
    each row ends at its update of what it held. -/
theorem sound_kernel3_later (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond3 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k3_pay3 xh xg xw xb)
            ∗ owns (c : Thread nD τ) arg6 fullShare (k3_pay4 xh xg xw xb ps)
            ∗ owns (c : Thread nD τ) arg7 fullShare (k3_pay5 xh xg xw xb pq)) -∗ K ⟨⟩))
      ⊢ wp frame (wpE (defs₀ (F := F)) Variants.none c none) E (cc3__linear_stats_kernel i arg1 harg1 arg2 harg2 arg3 harg3 arg4 harg4 arg5 harg5 arg6 harg6 arg7 harg7) K := by
  simp only [cc3__linear_stats_kernel_eq_skeleton]; unfold cc3__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  isplitl [Hs]
  · iexists _; isplitr
    swap; · iexact Hs
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]
  · iexists _; isplitr
    swap; · iexact Hq
    ipureintro
    try sl_unfold_words
    rw [read_last3 _ _ offs3_zero]
    simp only [View.readAt_eq_ld, View.ld_unit_zero (S := S10000x64) offs3_zero, View.ld_unit_zero (S := S64x64) offs3_zero,
      View.ld_unit_zero (S := S1x64) offs3_zero, View.readCov_unit_zero (S := S1x64) _ offs3_zero]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  by_cases h : t.val = 0
  · rw [after3_5_first V c t h, after3_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel3_first c Set.univ (grid3.coords t) _ _ _ _ _ _ _ _ _ _ _ _ _ _ ((hcond3 t).mpr h)
      (iblk3 V c 0 t) (iblk3 V c 1 t) (iblk3 V c 2 t) (iblk3 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after3_5_later V c t h, after3_6_later V c t h]
    simp only [before3_5_later V c t h, before3_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel3_later c Set.univ (grid3.coords t) _ _ _ _ _ _ _ _ _ _ _ _ _ _ (fun hc => h ((hcond3 t).mp hc))
      (iblk3 V c 0 t) (iblk3 V c 1 t) (iblk3 V c 2 t) (iblk3 V c 3 t)
      ((dat3 V c).after 5 ⟨t.val - 1, Nat.lt_of_le_of_lt (Nat.sub_le _ _) t.isLt⟩)
      ((dat3 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KernelIdeal.Region4.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The seven input blocks at their literal vector types: the first linear map's tile, the mean, the variance, the
    scale, the shift, the second weight matrix, the second bias. -/
abbrev blk4_0 (c : Dev nD) (t : Fin cfg4.N) : Vec F S10000x64 .f32 := iblk4 V c 0 t
abbrev blk4_1 (c : Dev nD) (t : Fin cfg4.N) : Vec F S1x64 .f32 := iblk4 V c 1 t
abbrev blk4_2 (c : Dev nD) (t : Fin cfg4.N) : Vec F S1x64 .f32 := iblk4 V c 2 t
abbrev blk4_3 (c : Dev nD) (t : Fin cfg4.N) : Vec F S1x64 .f32 := iblk4 V c 3 t
abbrev blk4_4 (c : Dev nD) (t : Fin cfg4.N) : Vec F S1x64 .f32 := iblk4 V c 4 t
abbrev blk4_5 (c : Dev nD) (t : Fin cfg4.N) : Vec F S64x64 .f32 := iblk4 V c 5 t
abbrev blk4_6 (c : Dev nD) (t : Fin cfg4.N) : Vec F S1x64 .f32 := iblk4 V c 6 t

/-! ## The branch on the first tile -/

/-- The condition of the body's one conditional, from the grid coordinate: the tile number compared with zero,
    widened and compared again, as the body computes it. -/
abbrev cond4_0 (i : grid4.Coords) : Prop :=
  (Scalar.cmpi .ne (Scalar.extui (Scalar.cmpi .eq (BitVec.ofNat 32 (i 0).val) 0#32)) 0#32) = 1#1

/-- It holds at the first tile and at no other: decided over the five tiles. -/
theorem hcond4_0 : ∀ t : Fin cfg4.N, cond4_0 (grid4.coords t) ↔ t.val = 0 :=
  (by decide +kernel : ∀ t : Fin grid4.N, cond4_0 (grid4.coords t) ↔ t.val = 0)

/-! ## The staging memrefs the body is called with -/

abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x64 .f32 := win4_9.stage (cfg4.slots t 9)
abbrev hs4_9 (t : Fin cfg4.N) : (ms4_9 t).IsWhole := hstage4_9 ((cfg4.slots t 9).cast nbuf4_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run4_A (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc4__bn_linear_stats_kernel i ma ha mb hb mc hc md hd me he mf hf mg hg mh hh mi hi mj hj) K } := by
  refine ⟨?_, ?_, ?_, fun E K => ?run⟩
  case run =>
    simp only [cc4__bn_linear_stats_kernel_eq_skeleton]; unfold cc4__bn_linear_stats_kernel_skel
    simp only [k4_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run4_B (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc4__bn_linear_stats_kernel i ma ha mb hb mc hc md hd me he mf hf mg hg mh hh mi hi mj hj) K } := by
  refine ⟨?_, ?_, ?_, fun E K => ?run⟩
  case run =>
    simp only [cc4__bn_linear_stats_kernel_eq_skeleton]; unfold cc4__bn_linear_stats_kernel_skel
    simp only [k4_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover4_A_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S10000x64.Idx) :
    ∃ pc ∈ (run4_A c i ma ha mb hb mc hc md hd me he mf hf mg hg mh hh mi hi mj hj hz xa xb xc xd xe xf xg).1, y ∈ pc.1.set :=
  View.cover_of_tiledL (run4_A c i ma ha mb hb mc hc md hd me he mf hf mg hg mh hh mi hi mj hj hz xa xb xc xd xe xf xg).1 S10000x64.size (by sl_kernel_rfl) y
theorem cover4_A_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S1x64.Idx) :
    ∃ pc ∈ (run4_A c i ma ha mb hb mc hc md hd me he mf hf mg hg mh hh mi hi mj hj hz xa xb xc xd xe xf xg).2.1, y ∈ pc.1.set :=
  View.cover_of_tiledL (run4_A c i ma ha mb hb mc hc md hd me he mf hf mg hg mh hh mi hi mj hj hz xa xb xc xd xe xf xg).2.1 S1x64.size (by sl_kernel_rfl) y
theorem cover4_A_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) (y : S1x64.Idx) :
    ∃ pc ∈ (run4_A c i ma ha mb hb mc hc md hd me he mf hf mg hg mh hh mi hi mj hj hz xa xb xc xd xe xf xg).2.2.1, y ∈ pc.1.set :=
  View.cover_of_tiledL (run4_A c i ma ha mb hb mc hc md hd me he mf hf mg hg mh hh mi hi mj hj hz xa xb xc xd xe xf xg).2.2.1 S1x64.size (by sl_kernel_rfl) y
theorem cover4_B_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run4_B c i ma ha mb hb mc hc md hd me he mf hf mg hg mh hh mi hi mj hj hz xa xb xc xd xe xf xg yi yj).1, y ∈ pc.1.set :=
  View.cover_of_tiledL (run4_B c i ma ha mb hb mc hc md hd me he mf hf mg hg mh hh mi hi mj hj hz xa xb xc xd xe xf xg yi yj).1 S10000x64.size (by sl_kernel_rfl) y
theorem cover4_B_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run4_B c i ma ha mb hb mc hc md hd me he mf hf mg hg mh hh mi hi mj hj hz xa xb xc xd xe xf xg yi yj).2.1, y ∈ pc.1.set :=
  View.cover_of_tiledL (run4_B c i ma ha mb hb mc hc md hd me he mf hf mg hg mh hh mi hi mj hj hz xa xb xc xd xe xf xg yi yj).2.1 S1x64.size (by sl_kernel_rfl) y
theorem cover4_B_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run4_B c i ma ha mb hb mc hc md hd me he mf hf mg hg mh hh mi hi mj hj hz xa xb xc xd xe xf xg yi yj).2.2.1, y ∈ pc.1.set :=
  View.cover_of_tiledL (run4_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out4_A (c : Dev nD) (t : Fin cfg4.N) (hz : cond4_0 (grid4.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).1,
   View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).2.1,
   View.canon (run4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg).2.2.1)

/-- The same at a later tile, over the accumulators' running contents `yi`, `yj`. -/
def out4_B (c : Dev nD) (t : Fin cfg4.N) (hz : ¬cond4_0 (grid4.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).1,
   View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).2.1,
   View.canon (run4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt4 (c : Dev nD) : (n : ℕ) → n < cfg4.N → Vec F S10000x64 .f32 × Vec F S1x64 .f32 × Vec F S1x64 .f32
  | 0, hn => out4_A c ⟨0, hn⟩ ((hcond4_0 ⟨0, hn⟩).mpr rfl)
      (blk4_0 V c ⟨0, hn⟩) (blk4_1 V c ⟨0, hn⟩) (blk4_2 V c ⟨0, hn⟩) (blk4_3 V c ⟨0, hn⟩) (blk4_4 V c ⟨0, hn⟩) (blk4_5 V c ⟨0, hn⟩) (blk4_6 V c ⟨0, hn⟩)
  | n + 1, hn => out4_B c ⟨n + 1, hn⟩ (fun h => Nat.succ_ne_zero n ((hcond4_0 ⟨n + 1, hn⟩).mp h))
      (blk4_0 V c ⟨n + 1, hn⟩) (blk4_1 V c ⟨n + 1, hn⟩) (blk4_2 V c ⟨n + 1, hn⟩) (blk4_3 V c ⟨n + 1, hn⟩) (blk4_4 V c ⟨n + 1, hn⟩) (blk4_5 V c ⟨n + 1, hn⟩) (blk4_6 V c ⟨n + 1, hn⟩)
      (outsAt4 c n (Nat.lt_of_succ_lt hn)).2.1 (outsAt4 c n (Nat.lt_of_succ_lt hn)).2.2

/-- `outsAt4` at the first tile. -/
theorem outsAt4_first (c : Dev nD) (t : Fin cfg4.N) (h0 : t.val = 0) :
    outsAt4 V c t.val t.isLt = out4_A c t ((hcond4_0 t).mpr h0)
      (blk4_0 V c t) (blk4_1 V c t) (blk4_2 V c t) (blk4_3 V c t) (blk4_4 V c t) (blk4_5 V c t) (blk4_6 V c t) := by
  obtain ⟨n, hn⟩ := t
  cases n with
  | zero => exact rfl
  | succ n => exact absurd h0 (Nat.succ_ne_zero n)

/-- `outsAt4` at a later tile, over what the tile before left. -/
theorem outsAt4_later (c : Dev nD) (t : Fin cfg4.N) (h0 : ¬t.val = 0) :
    outsAt4 V c t.val t.isLt = out4_B c t (fun h => h0 ((hcond4_0 t).mp h))
      (blk4_0 V c t) (blk4_1 V c t) (blk4_2 V c t) (blk4_3 V c t) (blk4_4 V c t) (blk4_5 V c t) (blk4_6 V c t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The pipeline's proof data -/

/-- The proof data on core `c`: the arrays as the region finds them; after the body at tile `t` each input's buffer
    at its block and the three outputs' at `outsAt4`; the invariant holds the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
    | ⟨9, _⟩ => (outsAt4 V c t.val t.isLt).2.2
  Φ _ := Pipeline.ΦA spec4 c
  q _ := fullShare
  owed _ := 0

/-- The proof data's arrays are the entry contents (the definition projected, never unfolded further). -/
theorem A_eq4 (c : Dev nD) (w : Fin cfg4.W) : (dat4 V c).A w = V c (Pipeline.arrRef spec4 w) := by
  dsimp only [dat4]

/-- What the body leaves, window by window: an input's block; an output's component of `outsAt4`. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem afterRaw4_7 (c : Dev nD) (t : Fin cfg4.N) : (dat4 V c).after 7 t = (outsAt4 V c t.val t.isLt).1 := by dsimp only [dat4]
theorem afterRaw4_8 (c : Dev nD) (t : Fin cfg4.N) : (dat4 V c).after 8 t = (outsAt4 V c t.val t.isLt).2.1 := by dsimp only [dat4]
theorem afterRaw4_9 (c : Dev nD) (t : Fin cfg4.N) : (dat4 V c).after 9 t = (outsAt4 V c t.val t.isLt).2.2 := by dsimp only [dat4]

/-- Each input's current staging buffer holds its block at every tile. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- At a later tile the column-sum accumulator's staging buffer holds what the body left at the tile before: the
    buffer is written back at the last tile only, and the window is neither idle nor cut. -/
theorem before4_8_later (c : Dev nD) (t : Fin cfg4.N) (h0 : ¬t.val = 0) (d) :
    (dat4 V c).before 8 t d = (outsAt4 V c (t.val - 1) (Nat.lt_of_le_of_lt (Nat.sub_le _ _) t.isLt)).2.1 := by
  have hN : t.val < 5 := lt_of_lt_of_eq t.isLt (show cfg4.N = 5 from N_4)
  rw [Dat.before_out_kept _ 8 rfl t h0 (Bool.eq_false_iff.mpr fun h => by have := (flush4_8 _).mp h; dsimp only at this; omega)
    (fun _ => rfl) (fun _ _ => rfl)]
  dsimp only [dat4]
/-- The same for the accumulator of squares. -/
theorem before4_9_later (c : Dev nD) (t : Fin cfg4.N) (h0 : ¬t.val = 0) (d) :
    (dat4 V c).before 9 t d = (outsAt4 V c (t.val - 1) (Nat.lt_of_le_of_lt (Nat.sub_le _ _) t.isLt)).2.2 := by
  have hN : t.val < 5 := lt_of_lt_of_eq t.isLt (show cfg4.N = 5 from N_4)
  rw [Dat.before_out_kept _ 9 rfl t h0 (Bool.eq_false_iff.mpr fun h => by have := (flush4_9 _).mp h; dsimp only at this; omega)
    (fun _ => rfl) (fun _ _ => rfl)]
  dsimp only [dat4]

/-! ## The body obligation at a tile -/

/-- What the body is called with at tile `t`: the invariant, the core's debt, and each window's current staging
    buffer at what the pipeline left in it. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- What it returns: the same with each buffer at what the body leaves. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, afterRaw4_7, afterRaw4_8, afterRaw4_9]
  by_cases h0 : t.val = 0
  · rw [outsAt4_first V c t h0]
    unfold out4_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run4_A c (grid4.coords t) _ _ _ _ _ _ _ _ _ _ _ _ _ _ _ _ _ _ _ _ ((hcond4_0 t).mpr h0)
      (blk4_0 V c t) (blk4_1 V c t) (blk4_2 V c t) (blk4_3 V c t) (blk4_4 V c t) (blk4_5 V c t) (blk4_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover4_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover4_A_8 c _ _ _ _ _ _ _ _ _ _ _ _ _ _ _ _ _ _ _ _ _ _ _ _ _ _ _ _ _)
    unfold owns; iexists _; isplitr
    swap; · iexact Hj
    ipureintro; exact View.read_writes_eq_canon _ _ _ (cover4_A_9 c _ _ _ _ _ _ _ _ _ _ _ _ _ _ _ _ _ _ _ _ _ _ _ _ _ _ _ _ _)
  · rw [outsAt4_later V c t h0]
    simp only [before4_8_later V c t h0, before4_9_later V c t h0]
    unfold out4_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run4_B c (grid4.coords t) _ _ _ _ _ _ _ _ _ _ _ _ _ _ _ _ _ _ _ _ (fun h => h0 ((hcond4_0 t).mp h))
      (blk4_0 V c t) (blk4_1 V c t) (blk4_2 V c t) (blk4_3 V c t) (blk4_4 V c t) (blk4_5 V c t) (blk4_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover4_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover4_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover4_B_9 c _ _ _ _ _ _ _ _ _ _ _ _ _ _ _ _ _ _ _ _ _ _ _ _ _ _ _ _ _ _ _)

/-- The pipeline's body obligation, at every tile. -/
theorem body_obligation4 (c : Dev nD) : BodyObligation (dat4 (F := F) V c) (defs₀ (F := F)) Variants.none () Set.univ := fun t => by
  rw [bigSep_W4, bigSep_W4]
  exact sound_body4 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero4 : (![0, 0] : Fin 2 → Nat) = fun _ => 0 := by
  funext a
  match a with
  | ⟨0, _⟩ => rfl
  | ⟨1, _⟩ => rfl

/-- First tile, tile output: the normalised, rectified tile through the second linear map. -/
theorem piece4_A_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).1 = k4_pay5 xa xc xb xd xe xf xg := by
  unfold run4_A
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- First tile, column sums: zero, read back, plus the tile output's column sums. -/
theorem piece4_A_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).2.1 = k4_pay1 (k4_pay5 xa xc xb xd xe xf xg) (k4_pay3 (F := F)) := by
  unfold run4_A
  dsimp only
  sl_unfold_words
  rw [View.canon_cons_unit_zero (S := S1x64) hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- First tile, column sums of squares. -/
theorem piece4_A_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond4_0 i)
    (xa : Vec F S10000x64 .f32) (xb xc xd xe : Vec F S1x64 .f32) (xf : Vec F S64x64 .f32) (xg : Vec F S1x64 .f32) :
    View.canon (run4_A c i ma ha mb hb mc hc md hd me he mf hf mg hg mh hh mi hi mj hj hz xa xb xc xd xe xf xg).2.2.1 = k4_pay2 (k4_pay5 xa xc xb xd xe xf xg) (k4_pay4 (F := F)) := by
  unfold run4_A
  dsimp only
  sl_unfold_words
  rw [View.canon_cons_unit_zero (S := S1x64) hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, tile output. -/
theorem piece4_B_7 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).1 = k4_pay5 xa xc xb xd xe xf xg := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, column sums: the running sums plus the tile output's column sums. -/
theorem piece4_B_8 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).2.1 = k4_pay1 (k4_pay5 xa xc xb xd xe xf xg) yi := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-- Later tile, column sums of squares. -/
theorem piece4_B_9 (c : Dev nD) (i : grid4.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond4_0 i)
    (xa : Vec F S10000x64 .f32) (xb xc xd xe : Vec F S1x64 .f32) (xf : Vec F S64x64 .f32) (xg : Vec F S1x64 .f32) (yi yj : Vec F S1x64 .f32) :
    View.canon (run4_B c i ma ha mb hb mc hc md hd me he mf hf mg hg mh hh mi hi mj hj hz xa xb xc xd xe xf xg yi yj).2.2.1 = k4_pay2 (k4_pay5 xa xc xb xd xe xf xg) yj := by
  unfold run4_B
  dsimp only
  sl_unfold_words
  rw [View.canon_unit_zero hzero4]
  simp only [View.readAt_eq_ld, ha.read_unread, hb.read_unread, hc.read_unread, hd.read_unread, he.read_unread, hf.read_unread, hg.read_unread,
    hi.read_unread, hj.read_unread, View.ld_unit_zero (S := S10000x64) hzero4, View.ld_unit_zero (S := S1x64) hzero4, View.ld_unit_zero (S := S64x64) hzero4,
    View.readCov_unit_zero (S := S1x64) _ hzero4]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after4_7 (c : Dev nD) (t : Fin cfg4.N) :
    (dat4 V c).after 7 t = k4_pay5 (iblk4 V c 0 t) (iblk4 V c 2 t) (iblk4 V c 1 t) (iblk4 V c 3 t) (iblk4 V c 4 t) (iblk4 V c 5 t) (iblk4 V c 6 t) := by
  rw [afterRaw4_7]
  by_cases h0 : t.val = 0
  · rw [outsAt4_first V c t h0]
    unfold out4_A
    dsimp only
    exact piece4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (blk4_0 V c t) (blk4_1 V c t) (blk4_2 V c t) (blk4_3 V c t) (blk4_4 V c t) (blk4_5 V c t) (blk4_6 V c t)
  · rw [outsAt4_later V c t h0]
    unfold out4_B
    dsimp only
    exact piece4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (blk4_0 V c t) (blk4_1 V c t) (blk4_2 V c t) (blk4_3 V c t) (blk4_4 V c t) (blk4_5 V c t) (blk4_6 V c t)
      (outsAt4 V c (t.val - 1) (Nat.lt_of_le_of_lt (Nat.sub_le _ _) t.isLt)).2.1 (outsAt4 V c (t.val - 1) (Nat.lt_of_le_of_lt (Nat.sub_le _ _) t.isLt)).2.2

/-- The column sums after the first tile. -/
theorem after4_8_first (c : Dev nD) (t : Fin cfg4.N) (h : t.val = 0) :
    (dat4 V c).after 8 t = k4_pay1 (k4_pay5 (iblk4 V c 0 t) (iblk4 V c 2 t) (iblk4 V c 1 t) (iblk4 V c 3 t) (iblk4 V c 4 t) (iblk4 V c 5 t) (iblk4 V c 6 t)) (k4_pay3 (F := F)) := by
  rw [afterRaw4_8, outsAt4_first V c t h]
  unfold out4_A
  dsimp only
  exact piece4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h) (blk4_0 V c t) (blk4_1 V c t) (blk4_2 V c t) (blk4_3 V c t) (blk4_4 V c t) (blk4_5 V c t) (blk4_6 V c t)

/-- The column sums after a later tile, from those after the tile before. -/
theorem after4_8_later (c : Dev nD) (t : Fin cfg4.N) (h : t.val ≠ 0) :
    (dat4 V c).after 8 t = k4_pay1 (k4_pay5 (iblk4 V c 0 t) (iblk4 V c 2 t) (iblk4 V c 1 t) (iblk4 V c 3 t) (iblk4 V c 4 t) (iblk4 V c 5 t) (iblk4 V c 6 t)) ((dat4 V c).after 8 ⟨t.val - 1, Nat.lt_of_le_of_lt (Nat.sub_le _ _) t.isLt⟩) := by
  rw [afterRaw4_8, afterRaw4_8, outsAt4_later V c t h]
  unfold out4_B
  dsimp only
  exact piece4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h' => h ((hcond4_0 t).mp h')) (blk4_0 V c t) (blk4_1 V c t) (blk4_2 V c t) (blk4_3 V c t) (blk4_4 V c t) (blk4_5 V c t) (blk4_6 V c t)
    (outsAt4 V c (t.val - 1) (Nat.lt_of_le_of_lt (Nat.sub_le _ _) t.isLt)).2.1 (outsAt4 V c (t.val - 1) (Nat.lt_of_le_of_lt (Nat.sub_le _ _) t.isLt)).2.2

/-- The column sums of squares after the first tile. -/
theorem after4_9_first (c : Dev nD) (t : Fin cfg4.N) (h : t.val = 0) :
    (dat4 V c).after 9 t = k4_pay2 (k4_pay5 (iblk4 V c 0 t) (iblk4 V c 2 t) (iblk4 V c 1 t) (iblk4 V c 3 t) (iblk4 V c 4 t) (iblk4 V c 5 t) (iblk4 V c 6 t)) (k4_pay4 (F := F)) := by
  rw [afterRaw4_9, outsAt4_first V c t h]
  unfold out4_A
  dsimp only
  exact piece4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h) (blk4_0 V c t) (blk4_1 V c t) (blk4_2 V c t) (blk4_3 V c t) (blk4_4 V c t) (blk4_5 V c t) (blk4_6 V c t)

/-- The column sums of squares after a later tile, from those after the tile before. -/
theorem after4_9_later (c : Dev nD) (t : Fin cfg4.N) (h : t.val ≠ 0) :
    (dat4 V c).after 9 t = k4_pay2 (k4_pay5 (iblk4 V c 0 t) (iblk4 V c 2 t) (iblk4 V c 1 t) (iblk4 V c 3 t) (iblk4 V c 4 t) (iblk4 V c 5 t) (iblk4 V c 6 t)) ((dat4 V c).after 9 ⟨t.val - 1, Nat.lt_of_le_of_lt (Nat.sub_le _ _) t.isLt⟩) := by
  rw [afterRaw4_9, afterRaw4_9, outsAt4_later V c t h]
  unfold out4_B
  dsimp only
  exact piece4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h' => h ((hcond4_0 t).mp h')) (blk4_0 V c t) (blk4_1 V c t) (blk4_2 V c t) (blk4_3 V c t) (blk4_4 V c t) (blk4_5 V c t) (blk4_6 V c t)
    (outsAt4 V c (t.val - 1) (Nat.lt_of_le_of_lt (Nat.sub_le _ _) t.isLt)).2.1 (outsAt4 V c (t.val - 1) (Nat.lt_of_le_of_lt (Nat.sub_le _ _) t.isLt)).2.2

end Cert.KernelIdeal.Gen

end
-- ==== Proof.KernelIdeal.Region5.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the block was fetched there or
    kept from the point before (its index has not moved then), for any proof data whose array is the entry contents
    and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, from the grid coordinates: the coordinate is zero. -/
abbrev cond5_0 (i : grid5.Coords) : Prop := (Scalar.cmpi .ne (Scalar.extui (Scalar.cmpi .eq (BitVec.ofNat 32 (i 0).val) 0#32)) 0#32) = 1#1
/-- It holds at the first point only (decided over the grid). -/
theorem hcond5_0 : ∀ t : Fin cfg5.N, cond5_0 (grid5.coords t) ↔ t.val % 25 = 0 :=
  (by decide +kernel : ∀ t : Fin grid5.N, cond5_0 (grid5.coords t) ↔ t.val % 25 = 0)

/-! ## The staging memrefs -/

/-- One staging buffer of each output window, through which its contents are stated (the choice does not matter:
    a covering list of pieces reads back the same through any view). -/
abbrev VO5_6 : View sig .tc .vmem S2000x64 .f32 := (Memref.whole cc5_stg6_0 : Memref sig .tc .vmem S2000x64 .f32).view
abbrev VO5_7 : View sig .tc .vmem S512x64 .f32 := (Memref.whole cc5_stg7_0 : Memref sig .tc .vmem S512x64 .f32).view
/-- Each window's current staging memref at point `t`, spelled as the pipeline passes it to the body, and its wholeness. -/
abbrev ms5_0 (t : Fin cfg5.N) : Memref sig .tc .vmem S2000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S512x64 .f32 := win5_7.stage (cfg5.slots t 7)
abbrev hs5_7 (t : Fin cfg5.N) : (ms5_7 t).IsWhole := hstage5_7 ((cfg5.slots t 7).cast nbuf5_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun5_A (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc5__bn_pool_kernel i mL hmL mM hmM mV hmV mG hmG mB hmB mI hmI mH hmH mP hmP) K } := by
  refine ⟨?_, ?_, fun E K => ?run⟩
  case run =>
    simp only [cc5__bn_pool_kernel_eq_skeleton]; unfold cc5__bn_pool_kernel_skel
    simp only [k5_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun5_B (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc5__bn_pool_kernel i mL hmL mM hmM mV hmV mG hmG mB hmB mI hmI mH hmH mP hmP) K } := by
  refine ⟨?_, ?_, fun E K => ?run⟩
  case run =>
    simp only [cc5__bn_pool_kernel_eq_skeleton]; unfold cc5__bn_pool_kernel_skel
    simp only [k5_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover5_A_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun5_A c i mL hmL mM hmM mV hmV mG hmG mB hmB mI hmI mH hmH mP hmP hc xL xM xV xG xB xI).1, y ∈ pc.1.set :=
  View.cover_of_tiledL (kernelRun5_A c i mL hmL mM hmM mV hmV mG hmG mB hmB mI hmI mH hmH mP hmP hc xL xM xV xG xB xI).1 S2000x64.size (by sl_kernel_rfl) y

/-- What case A leaves in output window 6's staging buffer: its pieces read back. -/
def out5_A_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO5_6.read (Elt F) (VO5_6.writes (Elt F) VO5_6.junk (kernelRun5_A c i mL hmL mM hmM mV hmV mG hmG mB hmB mI hmI mH hmH mP hmP hc xL xM xV xG xB xI).1)

/-- The pieces case A finds for output window 7 tile its block, so they cover it. -/
theorem cover5_A_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun5_A c i mL hmL mM hmM mV hmV mG hmG mB hmB mI hmI mH hmH mP hmP hc xL xM xV xG xB xI).2.1, y ∈ pc.1.set :=
  View.cover_of_tiledL (kernelRun5_A c i mL hmL mM hmM mV hmV mG hmG mB hmB mI hmI mH hmH mP hmP hc xL xM xV xG xB xI).2.1 S512x64.size (by sl_kernel_rfl) y

/-- What case A leaves in output window 7's staging buffer: its pieces read back. -/
def out5_A_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO5_7.read (Elt F) (VO5_7.writes (Elt F) VO5_7.junk (kernelRun5_A c i mL hmL mM hmM mV hmV mG hmG mB hmB mI hmI mH hmH mP hmP hc xL xM xV xG xB xI).2.1)

/-- The pieces case B finds for output window 6 tile its block, so they cover it. -/
theorem cover5_B_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun5_B c i mL hmL mM hmM mV hmV mG hmG mB hmB mI hmI mH hmH mP hmP hc xL xM xV xG xB xI xP).1, y ∈ pc.1.set :=
  View.cover_of_tiledL (kernelRun5_B c i mL hmL mM hmM mV hmV mG hmG mB hmB mI hmI mH hmH mP hmP hc xL xM xV xG xB xI xP).1 S2000x64.size (by sl_kernel_rfl) y

/-- What case B leaves in output window 6's staging buffer: its pieces read back. -/
def out5_B_6 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO5_6.read (Elt F) (VO5_6.writes (Elt F) VO5_6.junk (kernelRun5_B c i mL hmL mM hmM mV hmV mG hmG mB hmB mI hmI mH hmH mP hmP hc xL xM xV xG xB xI xP).1)

/-- The pieces case B finds for output window 7 tile its block, so they cover it. -/
theorem cover5_B_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun5_B c i mL hmL mM hmM mV hmV mG hmG mB hmB mI hmI mH hmH mP hmP hc xL xM xV xG xB xI xP).2.1, y ∈ pc.1.set :=
  View.cover_of_tiledL (kernelRun5_B c i mL hmL mM hmM mV hmV mG hmG mB hmB mI hmI mH hmH mP hmP hc xL xM xV xG xB xI xP).2.1 S512x64.size (by sl_kernel_rfl) y

/-- What case B leaves in output window 7's staging buffer: its pieces read back. -/
def out5_B_7 (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO5_7.read (Elt F) (VO5_7.writes (Elt F) VO5_7.junk (kernelRun5_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt5 (c : Dev nD) : (n : ℕ) → n < cfg5.N → Vec F S2000x64 .f32 × Vec F S512x64 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩),
      out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 25 = 0 then
      (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩),
        out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2,
        out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)

/-- `outsAt5` at the point of case A: that case's contents. -/
theorem outsAt5_A (c : Dev nD) (t : Fin cfg5.N) (h0 : t.val % 25 = 0) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t),
      out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 25 = 0) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2,
      out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt5`; the invariant that of a body with no
    state of its own (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem afterAt5_6 (c : Dev nD) (t : Fin cfg5.N) : (dat5 V c).after 6 t = (outsAt5 V c t.val t.isLt).1 := by dsimp only [dat5]
theorem afterAt5_7 (c : Dev nD) (t : Fin cfg5.N) : (dat5 V c).after 7 t = (outsAt5 V c t.val t.isLt).2 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
/-- At a point of case B the pooled window's staging buffer holds what the body left at the point before: the point
    is not the first, the buffer was not written back between (only the last point writes it back), the window is
    live and uncut. -/
theorem before5_7_B (c : Dev nD) (t : Fin cfg5.N) (h0 : ¬t.val % 25 = 0) (d) :
    (dat5 V c).before 7 t d = (outsAt5 V c (t.val - 1) (Nat.lt_of_le_of_lt (Nat.sub_le _ _) t.isLt)).2 := by
  have hN : t.val < 25 := lt_of_lt_of_eq t.isLt (show cfg5.N = 25 from N_5)
  rw [Dat.before_out_kept _ 7 rfl t (by omega) (Bool.eq_false_iff.mpr fun h => by have := (flush5_7 _).mp h; dsimp only at this; omega)
    (fun _ => rfl) (fun _ _ => rfl)]
  dsimp only [dat5]

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, afterAt5_6, afterAt5_7]
  have hN : t.val < 25 := lt_of_lt_of_eq t.isLt (show cfg5.N = 25 from N_5)
  by_cases h0 : t.val % 25 = 0
  · rw [outsAt5_A V c t h0]
    (try dsimp only)
    unfold out5_A_6 out5_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun5_A c (grid5.coords t) _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover5_A_6 c _ _ _ _ _ _ _ _ _ _ _ _ _ _ _ _ _ _ _ _ _ _ _ _)
    unfold owns; iexists _; isplitr
    swap; · iexact HP
    ipureintro; exact View.read_writes_of_cover _ _ _ _ _ (cover5_A_7 c _ _ _ _ _ _ _ _ _ _ _ _ _ _ _ _ _ _ _ _ _ _ _ _)
  · rw [outsAt5_B V c t h0]
    simp only [before5_7_B V c t h0]
    (try dsimp only)
    unfold out5_B_6 out5_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun5_B c (grid5.coords t) _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover5_B_6 c _ _ _ _ _ _ _ _ _ _ _ _ _ _ _ _ _ _ _ _ _ _ _ _ _)
    unfold owns; iexists _; isplitr
    swap; · iexact HP
    ipureintro; exact View.read_writes_of_cover _ _ _ _ _ (cover5_B_7 c _ _ _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs5 : (![0, 0] : Fin 2 → Nat) = fun _ => 0 := funext fun a => by fin_cases a <;> rfl

/-- Case A leaves the normalised, clamped tile in the tile output: its one covering store's payload, whose loads read
    the whole input buffers. -/
theorem out5_A_6_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    out5_A_6 c i mL hmL mM hmM mV hmV mG hmG mB hmB mI hmI mH hmH mP hmP hc xL xM xV xG xB xI = k5_pay3 xL xV xM xG xB := by
  unfold out5_A_6
  rw [View.read_writes_eq_canon _ _ _ (cover5_A_6 c i mL hmL mM hmM mV hmV mG hmG mB hmB mI hmI mH hmH mP hmP hc xL xM xV xG xB xI)]
  unfold kernelRun5_A
  dsimp only
  sl_unfold_words
  rw [View.canon_unit_zero zeroOffs5]
  simp only [View.readAt_eq_ld, hmL.read_unread, hmM.read_unread, hmV.read_unread, hmG.read_unread, hmB.read_unread, hmI.read_unread, View.ld_unit_zero (S := S2000x64) zeroOffs5, View.ld_unit_zero (S := S1x64) zeroOffs5, View.ld_unit_zero (S := S2000x1) zeroOffs5, View.ld_unit_zero (S := S512x64) zeroOffs5]

/-- Case A leaves in the pooled block the tile's contraction added to the zero block: the reset store is read back
    whole, and the last store covers the block. -/
theorem out5_A_7_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond5_0 i)
    (xL : Vec F S2000x64 .f32) (xM : Vec F S1x64 .f32) (xV : Vec F S1x64 .f32) (xG : Vec F S1x64 .f32) (xB : Vec F S1x64 .f32) (xI : Vec F S2000x1 .i32) :
    out5_A_7 c i mL hmL mM hmM mV hmV mG hmG mB hmB mI hmI mH hmH mP hmP hc xL xM xV xG xB xI = k5_pay1 (k5_pay4 xL xV xM xG xB xI) (k5_pay2 (F := F)) := by
  unfold out5_A_7
  rw [View.read_writes_eq_canon _ _ _ (cover5_A_7 c i mL hmL mM hmM mV hmV mG hmG mB hmB mI hmI mH hmH mP hmP hc xL xM xV xG xB xI)]
  unfold kernelRun5_A
  dsimp only
  sl_unfold_words
  rw [View.canon_cons_unit_zero (S := S512x64) zeroOffs5, View.readCov_unit_zero (S := S512x64) _ zeroOffs5]
  simp only [View.readAt_eq_ld, hmL.read_unread, hmM.read_unread, hmV.read_unread, hmG.read_unread, hmB.read_unread, hmI.read_unread, View.ld_unit_zero (S := S2000x64) zeroOffs5, View.ld_unit_zero (S := S1x64) zeroOffs5, View.ld_unit_zero (S := S2000x1) zeroOffs5, View.ld_unit_zero (S := S512x64) zeroOffs5]

/-- Case B leaves the same tile payload in the tile output. -/
theorem out5_B_6_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out5_B_6 c i mL hmL mM hmM mV hmV mG hmG mB hmB mI hmI mH hmH mP hmP hc xL xM xV xG xB xI xP = k5_pay3 xL xV xM xG xB := by
  unfold out5_B_6
  rw [View.read_writes_eq_canon _ _ _ (cover5_B_6 c i mL hmL mM hmM mV hmV mG hmG mB hmB mI hmI mH hmH mP hmP hc xL xM xV xG xB xI xP)]
  unfold kernelRun5_B
  dsimp only
  sl_unfold_words
  rw [View.canon_unit_zero zeroOffs5]
  simp only [View.readAt_eq_ld, hmL.read_unread, hmM.read_unread, hmV.read_unread, hmG.read_unread, hmB.read_unread, hmI.read_unread, hmP.read_unread, View.ld_unit_zero (S := S2000x64) zeroOffs5, View.ld_unit_zero (S := S1x64) zeroOffs5, View.ld_unit_zero (S := S2000x1) zeroOffs5, View.ld_unit_zero (S := S512x64) zeroOffs5]

/-- Case B leaves in the pooled block the tile's contraction added to what the block held. -/
theorem out5_B_7_eq (c : Dev nD) (i : grid5.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond5_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out5_B_7 c i mL hmL mM hmM mV hmV mG hmG mB hmB mI hmI mH hmH mP hmP hc xL xM xV xG xB xI xP = k5_pay1 (k5_pay4 xL xV xM xG xB xI) xP := by
  unfold out5_B_7
  rw [View.read_writes_eq_canon _ _ _ (cover5_B_7 c i mL hmL mM hmM mV hmV mG hmG mB hmB mI hmI mH hmH mP hmP hc xL xM xV xG xB xI xP)]
  unfold kernelRun5_B
  dsimp only
  sl_unfold_words
  rw [View.canon_unit_zero zeroOffs5]
  simp only [View.readAt_eq_ld, hmL.read_unread, hmM.read_unread, hmV.read_unread, hmG.read_unread, hmB.read_unread, hmI.read_unread, hmP.read_unread, View.ld_unit_zero (S := S2000x64) zeroOffs5, View.ld_unit_zero (S := S1x64) zeroOffs5, View.ld_unit_zero (S := S2000x1) zeroOffs5, View.ld_unit_zero (S := S512x64) zeroOffs5]

/-! ## What the output windows hold after each point, in payloads -/

/-- After the body at any point the tile output holds the normalised, clamped tile of the point's input blocks. -/
theorem after5_6 (c : Dev nD) (t : Fin cfg5.N) :
    (dat5 V c).after 6 t = k5_pay3 (iblk5 V c 0 t) (iblk5 V c 2 t) (iblk5 V c 1 t) (iblk5 V c 3 t) (iblk5 V c 4 t) := by
  rw [afterAt5_6]
  by_cases h0 : t.val % 25 = 0
  · rw [outsAt5_A V c t h0]; (try dsimp only)
    exact out5_A_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)
  · rw [outsAt5_B V c t h0]; (try dsimp only)
    exact out5_B_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2

/-- After the body at the first point the pooled block holds the first tile's contraction added to the zero block. -/
theorem after5_7_first (c : Dev nD) (t : Fin cfg5.N) (h : t.val = 0) :
    (dat5 V c).after 7 t = k5_pay1 (k5_pay4 (iblk5 V c 0 t) (iblk5 V c 2 t) (iblk5 V c 1 t) (iblk5 V c 3 t) (iblk5 V c 4 t) (iblk5 V c 5 t)) (k5_pay2 (F := F)) := by
  have h0 : t.val % 25 = 0 := by rw [h]
  rw [afterAt5_7, outsAt5_A V c t h0]; (try dsimp only)
  exact out5_A_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)

/-- After the body at a later point the pooled block holds the tile's contraction added to what the point before left. -/
theorem after5_7_later (c : Dev nD) (t : Fin cfg5.N) (h : t.val ≠ 0) :
    (dat5 V c).after 7 t = k5_pay1 (k5_pay4 (iblk5 V c 0 t) (iblk5 V c 2 t) (iblk5 V c 1 t) (iblk5 V c 3 t) (iblk5 V c 4 t) (iblk5 V c 5 t)) ((dat5 V c).after 7 ⟨t.val - 1, Nat.lt_of_le_of_lt (Nat.sub_le _ _) t.isLt⟩) := by
  have hN : t.val < 25 := lt_of_lt_of_eq t.isLt (show cfg5.N = 25 from N_5)
  have h0 : ¬t.val % 25 = 0 := by omega
  rw [afterAt5_7 V c t, outsAt5_B V c t h0, afterAt5_7 V c ⟨t.val - 1, Nat.lt_of_le_of_lt (Nat.sub_le _ _) t.isLt⟩]; (try dsimp only)
  exact out5_B_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2

end Cert.KernelIdeal.Gen

end
-- ==== Proof.KernelIdeal.Region6.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The pipeline of `cc6__linear_stats_kernel` as one region of the program, entered at contents `V`

The kernel adds the two node tiles, multiplies by the weight block (both rounded to bf16), adds the bias row, and
stores the product tile; it also keeps two rows that run over the grid: the column sums of the product tiles and
the column sums of their squares. Both rows are zeroed at the first grid point and their blocks never move, so at a
later point each row's buffer still holds what the point before left there.

What each window's buffer holds after the body at a point is therefore: an input's block; the product tile of the
four input blocks; and, for each running row, the row's update of what it held before, starting from the zero row.
This module states those contents (`dat6`), shows the body runs to them from what the pipeline hands it
(`body_obligation6`), for every float interpretation `F`. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and running rows -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running column sums after point `n`: the zero row updated by the product tiles of points `0 … n` in turn. -/
def sums6 (c : Dev nD) : (n : ℕ) → n < cfg6.N → Vec F S1x64 .f32
  | 0, hn => k6_pay4 (iblk6 V c 0 ⟨0, hn⟩) (iblk6 V c 1 ⟨0, hn⟩) (iblk6 V c 2 ⟨0, hn⟩) (iblk6 V c 3 ⟨0, hn⟩) (k6_pay1 (F := F))
  | n + 1, hn => k6_pay4 (iblk6 V c 0 ⟨n + 1, hn⟩) (iblk6 V c 1 ⟨n + 1, hn⟩) (iblk6 V c 2 ⟨n + 1, hn⟩) (iblk6 V c 3 ⟨n + 1, hn⟩)
      (sums6 c n (Nat.lt_of_succ_lt hn))

/-- The running column sums of squares after point `n`, likewise. -/
def sqs6 (c : Dev nD) : (n : ℕ) → n < cfg6.N → Vec F S1x64 .f32
  | 0, hn => k6_pay5 (iblk6 V c 0 ⟨0, hn⟩) (iblk6 V c 1 ⟨0, hn⟩) (iblk6 V c 2 ⟨0, hn⟩) (iblk6 V c 3 ⟨0, hn⟩) (k6_pay2 (F := F))
  | n + 1, hn => k6_pay5 (iblk6 V c 0 ⟨n + 1, hn⟩) (iblk6 V c 1 ⟨n + 1, hn⟩) (iblk6 V c 2 ⟨n + 1, hn⟩) (iblk6 V c 3 ⟨n + 1, hn⟩)
      (sqs6 c n (Nat.lt_of_succ_lt hn))

/-! ## The pipeline's proof data -/

/-- On core `c`: the arrays as the region finds them; after the body at point `t` an input's buffer at its block,
    the product window's at the product tile of the four input blocks, the two running rows' at `sums6` and `sqs6`;
    the invariant is the rest of the core's state, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay3 (iblk6 V c 0 t) (iblk6 V c 1 t) (iblk6 V c 2 t) (iblk6 V c 3 t)
    | ⟨5, _⟩ => sums6 V c t.val t.isLt
    | ⟨6, _⟩ => sqs6 V c t.val t.isLt
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-! ## What the body leaves, window by window -/

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]

/-- The product window holds the product tile of the point's four input blocks. -/
theorem after6_4 (c : Dev nD) (t : Fin cfg6.N) :
    (dat6 V c).after 4 t = k6_pay3 (iblk6 V c 0 t) (iblk6 V c 1 t) (iblk6 V c 2 t) (iblk6 V c 3 t) := by dsimp only [dat6]

/-- The column sums at the first point: the zero row updated by the first product tile. -/
theorem after6_5_first (c : Dev nD) (t : Fin cfg6.N) (h : t.val = 0) :
    (dat6 V c).after 5 t = k6_pay4 (iblk6 V c 0 t) (iblk6 V c 1 t) (iblk6 V c 2 t) (iblk6 V c 3 t) (k6_pay1 (F := F)) := by
  dsimp only [dat6]
  obtain ⟨n, hn⟩ := t
  cases n with
  | zero => exact rfl
  | succ n => exact absurd h (Nat.succ_ne_zero n)

/-- The column sums at a later point: what the point before left, updated by this point's product tile. -/
theorem after6_5_later (c : Dev nD) (t : Fin cfg6.N) (h : t.val ≠ 0) :
    (dat6 V c).after 5 t = k6_pay4 (iblk6 V c 0 t) (iblk6 V c 1 t) (iblk6 V c 2 t) (iblk6 V c 3 t)
      ((dat6 V c).after 5 ⟨t.val - 1, Nat.lt_of_le_of_lt (Nat.sub_le _ _) t.isLt⟩) := by
  dsimp only [dat6]
  obtain ⟨n, hn⟩ := t
  cases n with
  | zero => exact absurd rfl h
  | succ n => exact rfl

/-- The column sums of squares at the first point. -/
theorem after6_6_first (c : Dev nD) (t : Fin cfg6.N) (h : t.val = 0) :
    (dat6 V c).after 6 t = k6_pay5 (iblk6 V c 0 t) (iblk6 V c 1 t) (iblk6 V c 2 t) (iblk6 V c 3 t) (k6_pay2 (F := F)) := by
  dsimp only [dat6]
  obtain ⟨n, hn⟩ := t
  cases n with
  | zero => exact rfl
  | succ n => exact absurd h (Nat.succ_ne_zero n)

/-- The column sums of squares at a later point. -/
theorem after6_6_later (c : Dev nD) (t : Fin cfg6.N) (h : t.val ≠ 0) :
    (dat6 V c).after 6 t = k6_pay5 (iblk6 V c 0 t) (iblk6 V c 1 t) (iblk6 V c 2 t) (iblk6 V c 3 t)
      ((dat6 V c).after 6 ⟨t.val - 1, Nat.lt_of_le_of_lt (Nat.sub_le _ _) t.isLt⟩) := by
  dsimp only [dat6]
  obtain ⟨n, hn⟩ := t
  cases n with
  | zero => exact absurd rfl h
  | succ n => exact rfl

/-! ## What the body is handed -/

/-- An input's current buffer holds its block at every point, whether or not it was fetched there: where it was not,
    the block index has not moved since the point that fetched it. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- At a later point a running row's buffer holds what the body left at the point before: the row is written back
    at the last point only, its block never moves, and it is never idle or cut. -/
theorem before6_5_later (c : Dev nD) (t : Fin cfg6.N) (h : t.val ≠ 0) (d) :
    (dat6 V c).before 5 t d = (dat6 V c).after 5 ⟨t.val - 1, Nat.lt_of_le_of_lt (Nat.sub_le _ _) t.isLt⟩ := by
  have hN : t.val < 5 := lt_of_lt_of_eq t.isLt (show cfg6.N = 5 from N_6)
  exact Dat.before_out_kept _ 5 rfl t h
    (Bool.eq_false_iff.mpr fun hf => by have := (flush6_5 _).mp hf; dsimp only at this; omega)
    (fun _ => rfl) (fun _ _ => rfl) d
theorem before6_6_later (c : Dev nD) (t : Fin cfg6.N) (h : t.val ≠ 0) (d) :
    (dat6 V c).before 6 t d = (dat6 V c).after 6 ⟨t.val - 1, Nat.lt_of_le_of_lt (Nat.sub_le _ _) t.isLt⟩ := by
  have hN : t.val < 5 := lt_of_lt_of_eq t.isLt (show cfg6.N = 5 from N_6)
  exact Dat.before_out_kept _ 6 rfl t h
    (Bool.eq_false_iff.mpr fun hf => by have := (flush6_6 _).mp hf; dsimp only at this; omega)
    (fun _ => rfl) (fun _ _ => rfl) d

/-! ## The body's branch -/

/-- The condition of the body's one conditional, as the body computes it from the grid coordinate: "this is point 0". -/
abbrev cond6 (i : grid6.Coords) : Prop :=
  (Scalar.cmpi .ne (Scalar.extui (Scalar.cmpi .eq (BitVec.ofNat 32 (i 0).val) 0#32)) 0#32) = 1#1

/-- It holds at the first point and at no other (decided over the five points). -/
theorem hcond6 : ∀ t : Fin cfg6.N, cond6 (grid6.coords t) ↔ t.val = 0 :=
  (by decide +kernel : ∀ t : Fin grid6.N, cond6 (grid6.coords t) ↔ t.val = 0)

/-- The offsets of a whole-buffer access are all zero. -/
theorem offs6_zero : (![0, 0] : Fin 2 → Nat) = fun _ => 0 := funext fun a => by fin_cases a <;> rfl

/-- A buffer whose LAST store goes through the whole-buffer rectangle reads back that store's payload, whatever the
    earlier stores and the prior contents were. -/
theorem read_last6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body on whole buffers -/

set_option maxHeartbeats 2000000 in
/-- AT THE FIRST POINT. On whole staging buffers, the four inputs' at `xh xg xw xb` and the three outputs' at anything,
    the body runs to the continuation holding the inputs' as they were, the product buffer at the product tile, and each
    running row at its update of the zero row: the branch zeroes both rows, every later read of a row reads that zero
    row back, and each output's last store covers its buffer. -/
theorem sound_kernel6_first (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : cond6 i) (xh xg : Vec F S10000x64 .f32) (xw : Vec F S64x64 .f32) (xb : Vec F S1x64 .f32) (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k6_pay3 xh xg xw xb)
            ∗ owns (c : Thread nD τ) arg6 fullShare (k6_pay4 xh xg xw xb (k6_pay1 (F := F)))
            ∗ owns (c : Thread nD τ) arg7 fullShare (k6_pay5 xh xg xw xb (k6_pay2 (F := F)))) -∗ K ⟨⟩))
      ⊢ wp frame (wpE (defs₀ (F := F)) Variants.none c none) E (cc6__linear_stats_kernel i arg1 harg1 arg2 harg2 arg3 harg3 arg4 harg4 arg5 harg5 arg6 harg6 arg7 harg7) K := by
  simp only [cc6__linear_stats_kernel_eq_skeleton]; unfold cc6__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%ds, %fs, -, Hs⟩, ⟨%dq, %fq, -, Hq⟩, Hk⟩
  subst hfh; subst hfg; subst hfw; subst hfb
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  isplitl [Hs]
  · iexists _; isplitr
    swap; · iexact Hs
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  · iexists _; isplitr
    swap; · iexact Hq
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]

set_option maxHeartbeats 2000000 in
/-- AT A LATER POINT. The same, the branch not taken, with the two running rows' buffers at given contents `ps pq`:
    each row ends at its update of what it held. -/
theorem sound_kernel6_later (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole)
    (hc : ¬cond6 i) (xh xg : Vec F S10000x64 .f32) (xw : Vec F S64x64 .f32) (xb : Vec F S1x64 .f32) (ps pq : Vec F S1x64 .f32)
    (K : PUnit → sProp 𝕄) :
    iprop(owns (c : Thread nD τ) arg1 fullShare xh ∗ owns (c : Thread nD τ) arg2 fullShare xg ∗ owns (c : Thread nD τ) arg3 fullShare xw ∗ owns (c : Thread nD τ) arg4 fullShare xb
        ∗ (∃ d, owns (c : Thread nD τ) arg5 fullShare d) ∗ owns (c : Thread nD τ) arg6 fullShare ps ∗ owns (c : Thread nD τ) arg7 fullShare pq
        ∗ (iprop(owns (c : Thread nD τ) arg1 fullShare xh ∗ owns (c : Thread nD τ) arg2 fullShare xg ∗ owns (c : Thread nD τ) arg3 fullShare xw ∗ owns (c : Thread nD τ) arg4 fullShare xb
            ∗ owns (c : Thread nD τ) arg5 fullShare (k6_pay3 xh xg xw xb)
            ∗ owns (c : Thread nD τ) arg6 fullShare (k6_pay4 xh xg xw xb ps)
            ∗ owns (c : Thread nD τ) arg7 fullShare (k6_pay5 xh xg xw xb pq)) -∗ K ⟨⟩))
      ⊢ wp frame (wpE (defs₀ (F := F)) Variants.none c none) E (cc6__linear_stats_kernel i arg1 harg1 arg2 harg2 arg3 harg3 arg4 harg4 arg5 harg5 arg6 harg6 arg7 harg7) K := by
  simp only [cc6__linear_stats_kernel_eq_skeleton]; unfold cc6__linear_stats_kernel_skel
  unfold owns
  iintro ⟨⟨%fh, %hfh, Hh⟩, ⟨%fg, %hfg, Hg⟩, ⟨%fw, %hfw, Hw⟩, ⟨%fb, %hfb, Hb⟩, ⟨%dl, %fl, -, Hl⟩, ⟨%fs, %hfs, Hs⟩, ⟨%fq, %hfq, Hq⟩, Hk⟩
  subst hfh; subst hfg; subst hfw; subst hfb; subst hfs; subst hfq
  sl_exec (disch := first | exact hc)
  sl_step
  iapply Hk
  isplitl [Hh]
  · iexists fh; isplitr
    · ipureintro; rfl
    · iexact Hh
  isplitl [Hg]
  · iexists fg; isplitr
    · ipureintro; rfl
    · iexact Hg
  isplitl [Hw]
  · iexists fw; isplitr
    · ipureintro; rfl
    · iexact Hw
  isplitl [Hb]
  · iexists fb; isplitr
    · ipureintro; rfl
    · iexact Hb
  isplitl [Hl]
  · iexists _; isplitr
    swap; · iexact Hl
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  isplitl [Hs]
  · iexists _; isplitr
    swap; · iexact Hs
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]
  · iexists _; isplitr
    swap; · iexact Hq
    ipureintro
    try sl_unfold_words
    rw [read_last6 _ _ offs6_zero]
    simp only [View.readAt_eq_ld, View.ld_unit_zero (S := S10000x64) offs6_zero, View.ld_unit_zero (S := S64x64) offs6_zero,
      View.ld_unit_zero (S := S1x64) offs6_zero, View.readCov_unit_zero (S := S1x64) _ offs6_zero]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

set_option maxHeartbeats 1600000 in
/-- The body at any point. The inputs' buffers hold their blocks. At the first point the branch is taken and the rows
    start from zero; at a later point it is not, and each row's buffer holds what the point before left. Either way the
    body's triple applies; the invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  by_cases h : t.val = 0
  · rw [after6_5_first V c t h, after6_6_first V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel6_first c Set.univ (grid6.coords t) _ _ _ _ _ _ _ _ _ _ _ _ _ _ ((hcond6 t).mpr h)
      (iblk6 V c 0 t) (iblk6 V c 1 t) (iblk6 V c 2 t) (iblk6 V c 3 t) _)
    isplitl [Hh]; · iexact Hh
    isplitl [Hg]; · iexact Hg
    isplitl [Hw]; · iexact Hw
    isplitl [Hb]; · iexact Hb
    isplitl [Hl]; · iexists _; iexact Hl
    isplitl [Hs]; · iexists _; iexact Hs
    isplitl [Hq]; · iexists _; iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq
  · rw [after6_5_later V c t h, after6_6_later V c t h]
    simp only [before6_5_later V c t h, before6_6_later V c t h]
    iintro ⟨HΦ, Ho, ⟨%dh, Hh⟩, ⟨%dg, Hg⟩, ⟨%dw, Hw⟩, ⟨%db, Hb⟩, ⟨%dl, Hl⟩, ⟨%ds, Hs⟩, ⟨%dq, Hq⟩⟩
    iapply (sound_kernel6_later c Set.univ (grid6.coords t) _ _ _ _ _ _ _ _ _ _ _ _ _ _ (fun hc => h ((hcond6 t).mp hc))
      (iblk6 V c 0 t) (iblk6 V c 1 t) (iblk6 V c 2 t) (iblk6 V c 3 t)
      ((dat6 V c).after 5 ⟨t.val - 1, Nat.lt_of_le_of_lt (Nat.sub_le _ _) t.isLt⟩)
      ((dat6 V c).after 6 ⟨t.val - 1, Nat.lt_of_le_of_lt (Nat.sub_le _ _) t.isLt⟩) _)
    isplitl [Hh]; · iexact Hh
    isplitl [Hg]; · iexact Hg
    isplitl [Hw]; · iexact Hw
    isplitl [Hb]; · iexact Hb
    isplitl [Hl]; · iexists _; iexact Hl
    isplitl [Hs]; · iexact Hs
    isplitl [Hq]; · iexact Hq
    iintro ⟨Hh, Hg, Hw, Hb, Hl, Hs, Hq⟩
    isplitl [HΦ]; · iexact HΦ
    isplitl [Ho]; · iexact Ho
    isplitl [Hh]; · iexact Hh
    isplitl [Hg]; · iexact Hg
    isplitl [Hw]; · iexact Hw
    isplitl [Hb]; · iexact Hb
    isplitl [Hl]; · iexact Hl
    isplitl [Hs]; · iexact Hs
    iexact Hq

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KernelIdeal.Region7.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: batch normalisation, rectifier, second linear map, and its column statistics

The second kernel of a layer runs over five row tiles. At each tile it reads the first linear map's tile, the
batch mean and variance, the scale and shift, the second weight matrix and bias; it writes the tile
`relu((x - mean) * rsqrt(var + eps) * gamma + beta) @ W + b`, and adds the tile's column sums and column sums of
squares to two one-row accumulators, which it sets to zero at the first tile. The accumulators' blocks do not
move with the tile, so at a later tile their buffers still hold what the tile before left.

Everything here is stated at any float interpretation `F` and at any contents `V` the region is entered with:
the proof data of the pipeline, the body's triple in its two control cases (first tile, later tile), the
obligation at every tile, and the equations that read what the body leaves as the skeleton's payloads. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The seven input blocks at their literal vector types: the first linear map's tile, the mean, the variance, the
    scale, the shift, the second weight matrix, the second bias. -/
abbrev blk7_0 (c : Dev nD) (t : Fin cfg7.N) : Vec F S10000x64 .f32 := iblk7 V c 0 t
abbrev blk7_1 (c : Dev nD) (t : Fin cfg7.N) : Vec F S1x64 .f32 := iblk7 V c 1 t
abbrev blk7_2 (c : Dev nD) (t : Fin cfg7.N) : Vec F S1x64 .f32 := iblk7 V c 2 t
abbrev blk7_3 (c : Dev nD) (t : Fin cfg7.N) : Vec F S1x64 .f32 := iblk7 V c 3 t
abbrev blk7_4 (c : Dev nD) (t : Fin cfg7.N) : Vec F S1x64 .f32 := iblk7 V c 4 t
abbrev blk7_5 (c : Dev nD) (t : Fin cfg7.N) : Vec F S64x64 .f32 := iblk7 V c 5 t
abbrev blk7_6 (c : Dev nD) (t : Fin cfg7.N) : Vec F S1x64 .f32 := iblk7 V c 6 t

/-! ## The branch on the first tile -/

/-- The condition of the body's one conditional, from the grid coordinate: the tile number compared with zero,
    widened and compared again, as the body computes it. -/
abbrev cond7_0 (i : grid7.Coords) : Prop :=
  (Scalar.cmpi .ne (Scalar.extui (Scalar.cmpi .eq (BitVec.ofNat 32 (i 0).val) 0#32)) 0#32) = 1#1

/-- It holds at the first tile and at no other: decided over the five tiles. -/
theorem hcond7_0 : ∀ t : Fin cfg7.N, cond7_0 (grid7.coords t) ↔ t.val = 0 :=
  (by decide +kernel : ∀ t : Fin grid7.N, cond7_0 (grid7.coords t) ↔ t.val = 0)

/-! ## The staging memrefs the body is called with -/

abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S64x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S10000x64 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x64 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x64 .f32 := win7_9.stage (cfg7.slots t 9)
abbrev hs7_9 (t : Fin cfg7.N) : (ms7_9 t).IsWhole := hstage7_9 ((cfg7.slots t 9).cast nbuf7_9)

/-! ## The body's triple, case by case

On whole staging memrefs, the seven inputs' at given contents, the body runs to a continuation that holds the
inputs' as they were and each output's with a list of pieces written (last first). The lists are found by running
the skeleton; that they cover each buffer is checked afterwards. -/

set_option maxHeartbeats 1000000 in
/-- FIRST TILE (the conditional taken): the three outputs' buffers may hold anything when the body starts; the
    accumulators are zeroed, then read back and updated. -/
noncomputable def run7_A (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ (∃ d, owns (c : Thread nD τ) mi fullShare d) ∗ (∃ d, owns (c : Thread nD τ) mj fullShare d)
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc7__bn_linear_stats_kernel i ma ha mb hb mc hc md hd me he mf hf mg hg mh hh mi hi mj hj) K } := by
  refine ⟨?_, ?_, ?_, fun E K => ?run⟩
  case run =>
    simp only [cc7__bn_linear_stats_kernel_eq_skeleton]; unfold cc7__bn_linear_stats_kernel_skel
    simp only [k7_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%di, %fi, -, Hi⟩, ⟨%dj, %fj, -, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

set_option maxHeartbeats 1000000 in
/-- LATER TILE (the conditional not taken): the accumulators' buffers hold running contents `yi`, `yj`, which the
    body reads and updates; the tile output's buffer may hold anything. -/
noncomputable def run7_B (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    Σ' (Lh : List (View.Piece (Elt F) S10000x64 .f32)) (Li : List (View.Piece (Elt F) S1x64 .f32)), { Lj : List (View.Piece (Elt F) S1x64 .f32) //
      ∀ (E : Set ℕ) (K : PUnit → sProp 𝕄),
        iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg
            ∗ (∃ d, owns (c : Thread nD τ) mh fullShare d) ∗ owns (c : Thread nD τ) mi fullShare yi ∗ owns (c : Thread nD τ) mj fullShare yj
            ∗ (iprop(owns (c : Thread nD τ) ma fullShare xa ∗ owns (c : Thread nD τ) mb fullShare xb ∗ owns (c : Thread nD τ) mc fullShare xc
                ∗ owns (c : Thread nD τ) md fullShare xd ∗ owns (c : Thread nD τ) me fullShare xe ∗ owns (c : Thread nD τ) mf fullShare xf
                ∗ owns (c : Thread nD τ) mg fullShare xg
                ∗ (∃ f, mh.view.loc (c : Thread nD τ) ↦[mh.view.set]{fullShare} mh.view.writes (Elt F) f Lh)
                ∗ (∃ f, mi.view.loc (c : Thread nD τ) ↦[mi.view.set]{fullShare} mi.view.writes (Elt F) f Li)
                ∗ (∃ f, mj.view.loc (c : Thread nD τ) ↦[mj.view.set]{fullShare} mj.view.writes (Elt F) f Lj)) -∗ K ⟨⟩))
          ⊢ wp frame (wpE (defs₀ (F := F)) Variants.none c none) E
              (cc7__bn_linear_stats_kernel i ma ha mb hb mc hc md hd me he mf hf mg hg mh hh mi hi mj hj) K } := by
  refine ⟨?_, ?_, ?_, fun E K => ?run⟩
  case run =>
    simp only [cc7__bn_linear_stats_kernel_eq_skeleton]; unfold cc7__bn_linear_stats_kernel_skel
    simp only [k7_part1_eq_skeleton]
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
      ⟨%dh, %fh, -, Hh⟩, ⟨%fi, %hfi, Hi⟩, ⟨%fj, %hfj, Hj⟩, Hk⟩
    obtain rfl := ha.eq_unread hfa; obtain rfl := hb.eq_unread hfb; obtain rfl := hc.eq_unread hfc
    obtain rfl := hd.eq_unread hfd; obtain rfl := he.eq_unread hfe; obtain rfl := hf.eq_unread hff
    obtain rfl := hg.eq_unread hfg; obtain rfl := hi.eq_unread hfi; obtain rfl := hj.eq_unread hfj
    sl_exec (disch := first | exact hz)
    sl_step
    iapply Hk
    isplitl [Ha]
    · iexists _; isplitr; · ipureintro; exact ha.read_unread _
      iexact Ha
    isplitl [Hb]
    · iexists _; isplitr; · ipureintro; exact hb.read_unread _
      iexact Hb
    isplitl [Hc]
    · iexists _; isplitr; · ipureintro; exact hc.read_unread _
      iexact Hc
    isplitl [Hd]
    · iexists _; isplitr; · ipureintro; exact hd.read_unread _
      iexact Hd
    isplitl [He]
    · iexists _; isplitr; · ipureintro; exact he.read_unread _
      iexact He
    isplitl [Hf]
    · iexists _; isplitr; · ipureintro; exact hf.read_unread _
      iexact Hf
    isplitl [Hg]
    · iexists _; isplitr; · ipureintro; exact hg.read_unread _
      iexact Hg
    isplitl [Hh]; · iexists _; iexact Hh
    isplitl [Hi]; · iexists _; iexact Hi
    iexists _; iexact Hj

/-! ## The pieces cover

Each list the runs found tiles its buffer (checked by evaluating the tiling), so every index lies in a piece. -/

theorem cover7_A_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S10000x64.Idx) :
    ∃ pc ∈ (run7_A c i ma ha mb hb mc hc md hd me he mf hf mg hg mh hh mi hi mj hj hz xa xb xc xd xe xf xg).1, y ∈ pc.1.set :=
  View.cover_of_tiledL (run7_A c i ma ha mb hb mc hc md hd me he mf hf mg hg mh hh mi hi mj hj hz xa xb xc xd xe xf xg).1 S10000x64.size (by sl_kernel_rfl) y
theorem cover7_A_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S1x64.Idx) :
    ∃ pc ∈ (run7_A c i ma ha mb hb mc hc md hd me he mf hf mg hg mh hh mi hi mj hj hz xa xb xc xd xe xf xg).2.1, y ∈ pc.1.set :=
  View.cover_of_tiledL (run7_A c i ma ha mb hb mc hc md hd me he mf hf mg hg mh hh mi hi mj hj hz xa xb xc xd xe xf xg).2.1 S1x64.size (by sl_kernel_rfl) y
theorem cover7_A_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) (y : S1x64.Idx) :
    ∃ pc ∈ (run7_A c i ma ha mb hb mc hc md hd me he mf hf mg hg mh hh mi hi mj hj hz xa xb xc xd xe xf xg).2.2.1, y ∈ pc.1.set :=
  View.cover_of_tiledL (run7_A c i ma ha mb hb mc hc md hd me he mf hf mg hg mh hh mi hi mj hj hz xa xb xc xd xe xf xg).2.2.1 S1x64.size (by sl_kernel_rfl) y
theorem cover7_B_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S10000x64.Idx) :
    ∃ pc ∈ (run7_B c i ma ha mb hb mc hc md hd me he mf hf mg hg mh hh mi hi mj hj hz xa xb xc xd xe xf xg yi yj).1, y ∈ pc.1.set :=
  View.cover_of_tiledL (run7_B c i ma ha mb hb mc hc md hd me he mf hf mg hg mh hh mi hi mj hj hz xa xb xc xd xe xf xg yi yj).1 S10000x64.size (by sl_kernel_rfl) y
theorem cover7_B_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run7_B c i ma ha mb hb mc hc md hd me he mf hf mg hg mh hh mi hi mj hj hz xa xb xc xd xe xf xg yi yj).2.1, y ∈ pc.1.set :=
  View.cover_of_tiledL (run7_B c i ma ha mb hb mc hc md hd me he mf hf mg hg mh hh mi hi mj hj hz xa xb xc xd xe xf xg yi yj).2.1 S1x64.size (by sl_kernel_rfl) y
theorem cover7_B_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) (y : S1x64.Idx) :
    ∃ pc ∈ (run7_B c i ma ha mb hb mc hc md hd me he mf hf mg hg mh hh mi hi mj hj hz xa xb xc xd xe xf xg yi yj).2.2.1, y ∈ pc.1.set :=
  View.cover_of_tiledL (run7_B c i ma ha mb hb mc hc md hd me he mf hf mg hg mh hh mi hi mj hj hz xa xb xc xd xe xf xg yi yj).2.2.1 S1x64.size (by sl_kernel_rfl) y

/-! ## What the outputs hold after each tile -/

/-- The three outputs' buffers after the body at the first tile `t`, on the tile's own memrefs: the canonical
    contents of the pieces found (tile output, column sums, column sums of squares). -/
def out7_A (c : Dev nD) (t : Fin cfg7.N) (hz : cond7_0 (grid7.coords t))
    (xa : Vec F S10000x64 .f32) (xb xc xd xe : Vec F S1x64 .f32) (xf : Vec F S64x64 .f32) (xg : Vec F S1x64 .f32) :
    Vec F S10000x64 .f32 × Vec F S1x64 .f32 × Vec F S1x64 .f32 :=
  (View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).1,
   View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).2.1,
   View.canon (run7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg).2.2.1)

/-- The same at a later tile, over the accumulators' running contents `yi`, `yj`. -/
def out7_B (c : Dev nD) (t : Fin cfg7.N) (hz : ¬cond7_0 (grid7.coords t))
    (xa : Vec F S10000x64 .f32) (xb xc xd xe : Vec F S1x64 .f32) (xf : Vec F S64x64 .f32) (xg : Vec F S1x64 .f32) (yi yj : Vec F S1x64 .f32) :
    Vec F S10000x64 .f32 × Vec F S1x64 .f32 × Vec F S1x64 .f32 :=
  (View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).1,
   View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).2.1,
   View.canon (run7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) hz xa xb xc xd xe xf xg yi yj).2.2.1)

/-- THE ACCUMULATION. What the three outputs' buffers hold after the body at tile `n`: the first tile's case on the
    tile's input blocks; a later tile's case on its input blocks and on the accumulators as tile `n - 1` left them
    (their buffers are not written back between). -/
def outsAt7 (c : Dev nD) : (n : ℕ) → n < cfg7.N → Vec F S10000x64 .f32 × Vec F S1x64 .f32 × Vec F S1x64 .f32
  | 0, hn => out7_A c ⟨0, hn⟩ ((hcond7_0 ⟨0, hn⟩).mpr rfl)
      (blk7_0 V c ⟨0, hn⟩) (blk7_1 V c ⟨0, hn⟩) (blk7_2 V c ⟨0, hn⟩) (blk7_3 V c ⟨0, hn⟩) (blk7_4 V c ⟨0, hn⟩) (blk7_5 V c ⟨0, hn⟩) (blk7_6 V c ⟨0, hn⟩)
  | n + 1, hn => out7_B c ⟨n + 1, hn⟩ (fun h => Nat.succ_ne_zero n ((hcond7_0 ⟨n + 1, hn⟩).mp h))
      (blk7_0 V c ⟨n + 1, hn⟩) (blk7_1 V c ⟨n + 1, hn⟩) (blk7_2 V c ⟨n + 1, hn⟩) (blk7_3 V c ⟨n + 1, hn⟩) (blk7_4 V c ⟨n + 1, hn⟩) (blk7_5 V c ⟨n + 1, hn⟩) (blk7_6 V c ⟨n + 1, hn⟩)
      (outsAt7 c n (Nat.lt_of_succ_lt hn)).2.1 (outsAt7 c n (Nat.lt_of_succ_lt hn)).2.2

/-- `outsAt7` at the first tile. -/
theorem outsAt7_first (c : Dev nD) (t : Fin cfg7.N) (h0 : t.val = 0) :
    outsAt7 V c t.val t.isLt = out7_A c t ((hcond7_0 t).mpr h0)
      (blk7_0 V c t) (blk7_1 V c t) (blk7_2 V c t) (blk7_3 V c t) (blk7_4 V c t) (blk7_5 V c t) (blk7_6 V c t) := by
  obtain ⟨n, hn⟩ := t
  cases n with
  | zero => exact rfl
  | succ n => exact absurd h0 (Nat.succ_ne_zero n)

/-- `outsAt7` at a later tile, over what the tile before left. -/
theorem outsAt7_later (c : Dev nD) (t : Fin cfg7.N) (h0 : ¬t.val = 0) :
    outsAt7 V c t.val t.isLt = out7_B c t (fun h => h0 ((hcond7_0 t).mp h))
      (blk7_0 V c t) (blk7_1 V c t) (blk7_2 V c t) (blk7_3 V c t) (blk7_4 V c t) (blk7_5 V c t) (blk7_6 V c t)
      (outsAt7 V c (t.val - 1) (Nat.lt_of_le_of_lt (Nat.sub_le _ _) t.isLt)).2.1
      (outsAt7 V c (t.val - 1) (Nat.lt_of_le_of_lt (Nat.sub_le _ _) t.isLt)).2.2 := by
  obtain ⟨n, hn⟩ := t
  cases n with
  | zero => exact absurd rfl h0
  | succ n => exact rfl

/-! ## An input's buffer holds its block at every tile

For any proof data whose array is the entry contents and whose body leaves the block in place, an input window's
current staging buffer holds the window's block at every tile, fetched there or not: where it is not fetched the
block index has not moved. None of the windows is cut or idle. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data on core `c`: the arrays as the region finds them; after the body at tile `t` each input's buffer
    at its block and the three outputs' at `outsAt7`; the invariant holds the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
    | ⟨8, _⟩ => (outsAt7 V c t.val t.isLt).2.1
    | ⟨9, _⟩ => (outsAt7 V c t.val t.isLt).2.2
  Φ _ := Pipeline.ΦA spec7 c
  q _ := fullShare
  owed _ := 0

/-- The proof data's arrays are the entry contents (the definition projected, never unfolded further). -/
theorem A_eq7 (c : Dev nD) (w : Fin cfg7.W) : (dat7 V c).A w = V c (Pipeline.arrRef spec7 w) := by
  dsimp only [dat7]

/-- What the body leaves, window by window: an input's block; an output's component of `outsAt7`. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem afterRaw7_7 (c : Dev nD) (t : Fin cfg7.N) : (dat7 V c).after 7 t = (outsAt7 V c t.val t.isLt).1 := by dsimp only [dat7]
theorem afterRaw7_8 (c : Dev nD) (t : Fin cfg7.N) : (dat7 V c).after 8 t = (outsAt7 V c t.val t.isLt).2.1 := by dsimp only [dat7]
theorem afterRaw7_9 (c : Dev nD) (t : Fin cfg7.N) : (dat7 V c).after 9 t = (outsAt7 V c t.val t.isLt).2.2 := by dsimp only [dat7]

/-- Each input's current staging buffer holds its block at every tile. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- At a later tile the column-sum accumulator's staging buffer holds what the body left at the tile before: the
    buffer is written back at the last tile only, and the window is neither idle nor cut. -/
theorem before7_8_later (c : Dev nD) (t : Fin cfg7.N) (h0 : ¬t.val = 0) (d) :
    (dat7 V c).before 8 t d = (outsAt7 V c (t.val - 1) (Nat.lt_of_le_of_lt (Nat.sub_le _ _) t.isLt)).2.1 := by
  have hN : t.val < 5 := lt_of_lt_of_eq t.isLt (show cfg7.N = 5 from N_7)
  rw [Dat.before_out_kept _ 8 rfl t h0 (Bool.eq_false_iff.mpr fun h => by have := (flush7_8 _).mp h; dsimp only at this; omega)
    (fun _ => rfl) (fun _ _ => rfl)]
  dsimp only [dat7]
/-- The same for the accumulator of squares. -/
theorem before7_9_later (c : Dev nD) (t : Fin cfg7.N) (h0 : ¬t.val = 0) (d) :
    (dat7 V c).before 9 t d = (outsAt7 V c (t.val - 1) (Nat.lt_of_le_of_lt (Nat.sub_le _ _) t.isLt)).2.2 := by
  have hN : t.val < 5 := lt_of_lt_of_eq t.isLt (show cfg7.N = 5 from N_7)
  rw [Dat.before_out_kept _ 9 rfl t h0 (Bool.eq_false_iff.mpr fun h => by have := (flush7_9 _).mp h; dsimp only at this; omega)
    (fun _ => rfl) (fun _ _ => rfl)]
  dsimp only [dat7]

/-! ## The body obligation at a tile -/

/-- What the body is called with at tile `t`: the invariant, the core's debt, and each window's current staging
    buffer at what the pipeline left in it. -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

/-- What it returns: the same with each buffer at what the body leaves. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 1000000 in
/-- The body at any tile. The inputs' memrefs hold their blocks; whether the tile is the first decides the case; at
    a later tile the accumulators hold what the tile before left; so the case's triple applies, and what it leaves
    in each output reads as the canonical contents of its pieces because they cover. The invariant and the debt
    pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, afterRaw7_7, afterRaw7_8, afterRaw7_9]
  by_cases h0 : t.val = 0
  · rw [outsAt7_first V c t h0]
    unfold out7_A
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run7_A c (grid7.coords t) _ _ _ _ _ _ _ _ _ _ _ _ _ _ _ _ _ _ _ _ ((hcond7_0 t).mpr h0)
      (blk7_0 V c t) (blk7_1 V c t) (blk7_2 V c t) (blk7_3 V c t) (blk7_4 V c t) (blk7_5 V c t) (blk7_6 V c t)).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexists _; iexact Hi
    isplitl [Hj]; · iexists _; iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover7_A_7 c _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover7_A_8 c _ _ _ _ _ _ _ _ _ _ _ _ _ _ _ _ _ _ _ _ _ _ _ _ _ _ _ _ _)
    unfold owns; iexists _; isplitr
    swap; · iexact Hj
    ipureintro; exact View.read_writes_eq_canon _ _ _ (cover7_A_9 c _ _ _ _ _ _ _ _ _ _ _ _ _ _ _ _ _ _ _ _ _ _ _ _ _ _ _ _ _)
  · rw [outsAt7_later V c t h0]
    simp only [before7_8_later V c t h0, before7_9_later V c t h0]
    unfold out7_B
    dsimp only
    iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply ((run7_B c (grid7.coords t) _ _ _ _ _ _ _ _ _ _ _ _ _ _ _ _ _ _ _ _ (fun h => h0 ((hcond7_0 t).mp h))
      (blk7_0 V c t) (blk7_1 V c t) (blk7_2 V c t) (blk7_3 V c t) (blk7_4 V c t) (blk7_5 V c t) (blk7_6 V c t) _ _).2.2.2 Set.univ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexists _; iexact Hh
    isplitl [Hi]; · iexact Hi
    isplitl [Hj]; · iexact Hj
    iintro ⟨Ha, Hb, Hc, Hd, He, Hf, Hg, ⟨%eh, Hh⟩, ⟨%ei, Hi⟩, ⟨%ej, Hj⟩⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]
    · unfold owns; iexists _; isplitr
      swap; · iexact Hh
      ipureintro; exact View.read_writes_eq_canon _ _ _ (cover7_B_7 c _ _ _ _ _ _ _ _ _ _ _ _ _ _ _ _ _ _ _ _ _ _ _ _ _ _ _ _ _ _ _)
    isplitl [Hi]
    · unfold owns; iexists _; isplitr
      swap; · iexact Hi
      ipureintro; exact View.read_writes_eq_canon _ _ _ (cover7_B_8 c _ _ _ _ _ _ _ _ _ _ _ _ _ _ _ _ _ _ _ _ _ _ _ _ _ _ _ _ _ _ _)
    unfold owns; iexists _; isplitr
    swap; · iexact Hj
    ipureintro; exact View.read_writes_eq_canon _ _ _ (cover7_B_9 c _ _ _ _ _ _ _ _ _ _ _ _ _ _ _ _ _ _ _ _ _ _ _ _ _ _ _ _ _ _ _)

/-- The pipeline's body obligation, at every tile. -/
theorem body_obligation7 (c : Dev nD) : BodyObligation (dat7 (F := F) V c) (defs₀ (F := F)) Variants.none () Set.univ := fun t => by
  rw [bigSep_W7, bigSep_W7]
  exact sound_body7 V c t

/-! ## What the body leaves, as the skeleton's payloads

Every store of the body goes through the whole buffer at offset zero, so the canonical contents of a list of
pieces is its last store's payload; a load after a store reads that store's payload; a load of an input reads its
contents. -/

/-- The stores' offset: zero on both axes. -/
theorem hzero7 : (![0, 0] : Fin 2 → Nat) = fun _ => 0 := by
  funext a
  match a with
  | ⟨0, _⟩ => rfl
  | ⟨1, _⟩ => rfl

/-- First tile, tile output: the normalised, rectified tile through the second linear map. -/
theorem piece7_A_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).1 = k7_pay5 xa xc xb xd xe xf xg := by
  unfold run7_A
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- First tile, column sums: zero, read back, plus the tile output's column sums. -/
theorem piece7_A_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).2.1 = k7_pay1 (k7_pay5 xa xc xb xd xe xf xg) (k7_pay3 (F := F)) := by
  unfold run7_A
  dsimp only
  sl_unfold_words
  rw [View.canon_cons_unit_zero (S := S1x64) hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- First tile, column sums of squares. -/
theorem piece7_A_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : cond7_0 i)
    (xa : Vec F S10000x64 .f32) (xb xc xd xe : Vec F S1x64 .f32) (xf : Vec F S64x64 .f32) (xg : Vec F S1x64 .f32) :
    View.canon (run7_A c i ma ha mb hb mc hc md hd me he mf hf mg hg mh hh mi hi mj hj hz xa xb xc xd xe xf xg).2.2.1 = k7_pay2 (k7_pay5 xa xc xb xd xe xf xg) (k7_pay4 (F := F)) := by
  unfold run7_A
  dsimp only
  sl_unfold_words
  rw [View.canon_cons_unit_zero (S := S1x64) hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, tile output. -/
theorem piece7_B_7 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).1 = k7_pay5 xa xc xb xd xe xf xg := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, column sums: the running sums plus the tile output's column sums. -/
theorem piece7_B_8 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).2.1 = k7_pay1 (k7_pay5 xa xc xb xd xe xf xg) yi := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-- Later tile, column sums of squares. -/
theorem piece7_B_9 (c : Dev nD) (i : grid7.Coords)
    (ma : Memref sig .tc .vmem S10000x64 .f32) (ha : ma.IsWhole) (mb : Memref sig .tc .vmem S1x64 .f32) (hb : mb.IsWhole)
    (mc : Memref sig .tc .vmem S1x64 .f32) (hc : mc.IsWhole) (md : Memref sig .tc .vmem S1x64 .f32) (hd : md.IsWhole)
    (me : Memref sig .tc .vmem S1x64 .f32) (he : me.IsWhole) (mf : Memref sig .tc .vmem S64x64 .f32) (hf : mf.IsWhole)
    (mg : Memref sig .tc .vmem S1x64 .f32) (hg : mg.IsWhole) (mh : Memref sig .tc .vmem S10000x64 .f32) (hh : mh.IsWhole)
    (mi : Memref sig .tc .vmem S1x64 .f32) (hi : mi.IsWhole) (mj : Memref sig .tc .vmem S1x64 .f32) (hj : mj.IsWhole)
    (hz : ¬cond7_0 i)
    (xa : Vec F S10000x64 .f32) (xb xc xd xe : Vec F S1x64 .f32) (xf : Vec F S64x64 .f32) (xg : Vec F S1x64 .f32) (yi yj : Vec F S1x64 .f32) :
    View.canon (run7_B c i ma ha mb hb mc hc md hd me he mf hf mg hg mh hh mi hi mj hj hz xa xb xc xd xe xf xg yi yj).2.2.1 = k7_pay2 (k7_pay5 xa xc xb xd xe xf xg) yj := by
  unfold run7_B
  dsimp only
  sl_unfold_words
  rw [View.canon_unit_zero hzero7]
  simp only [View.readAt_eq_ld, ha.read_unread, hb.read_unread, hc.read_unread, hd.read_unread, he.read_unread, hf.read_unread, hg.read_unread,
    hi.read_unread, hj.read_unread, View.ld_unit_zero (S := S10000x64) hzero7, View.ld_unit_zero (S := S1x64) hzero7, View.ld_unit_zero (S := S64x64) hzero7,
    View.readCov_unit_zero (S := S1x64) _ hzero7]

/-! ## The value interface: what the body leaves at each tile, from the input blocks

The tile output is one function of the tile's seven input blocks, at every tile. Each accumulator is, at the first
tile, the zero row plus the tile output's column statistic, and at a later tile what the tile before left plus
that statistic. -/

/-- The tile output at every tile. -/
theorem after7_7 (c : Dev nD) (t : Fin cfg7.N) :
    (dat7 V c).after 7 t = k7_pay5 (iblk7 V c 0 t) (iblk7 V c 2 t) (iblk7 V c 1 t) (iblk7 V c 3 t) (iblk7 V c 4 t) (iblk7 V c 5 t) (iblk7 V c 6 t) := by
  rw [afterRaw7_7]
  by_cases h0 : t.val = 0
  · rw [outsAt7_first V c t h0]
    unfold out7_A
    dsimp only
    exact piece7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (blk7_0 V c t) (blk7_1 V c t) (blk7_2 V c t) (blk7_3 V c t) (blk7_4 V c t) (blk7_5 V c t) (blk7_6 V c t)
  · rw [outsAt7_later V c t h0]
    unfold out7_B
    dsimp only
    exact piece7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (blk7_0 V c t) (blk7_1 V c t) (blk7_2 V c t) (blk7_3 V c t) (blk7_4 V c t) (blk7_5 V c t) (blk7_6 V c t)
      (outsAt7 V c (t.val - 1) (Nat.lt_of_le_of_lt (Nat.sub_le _ _) t.isLt)).2.1 (outsAt7 V c (t.val - 1) (Nat.lt_of_le_of_lt (Nat.sub_le _ _) t.isLt)).2.2

/-- The column sums after the first tile. -/
theorem after7_8_first (c : Dev nD) (t : Fin cfg7.N) (h : t.val = 0) :
    (dat7 V c).after 8 t = k7_pay1 (k7_pay5 (iblk7 V c 0 t) (iblk7 V c 2 t) (iblk7 V c 1 t) (iblk7 V c 3 t) (iblk7 V c 4 t) (iblk7 V c 5 t) (iblk7 V c 6 t)) (k7_pay3 (F := F)) := by
  rw [afterRaw7_8, outsAt7_first V c t h]
  unfold out7_A
  dsimp only
  exact piece7_A_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h) (blk7_0 V c t) (blk7_1 V c t) (blk7_2 V c t) (blk7_3 V c t) (blk7_4 V c t) (blk7_5 V c t) (blk7_6 V c t)

/-- The column sums after a later tile, from those after the tile before. -/
theorem after7_8_later (c : Dev nD) (t : Fin cfg7.N) (h : t.val ≠ 0) :
    (dat7 V c).after 8 t = k7_pay1 (k7_pay5 (iblk7 V c 0 t) (iblk7 V c 2 t) (iblk7 V c 1 t) (iblk7 V c 3 t) (iblk7 V c 4 t) (iblk7 V c 5 t) (iblk7 V c 6 t)) ((dat7 V c).after 8 ⟨t.val - 1, Nat.lt_of_le_of_lt (Nat.sub_le _ _) t.isLt⟩) := by
  rw [afterRaw7_8, afterRaw7_8, outsAt7_later V c t h]
  unfold out7_B
  dsimp only
  exact piece7_B_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h' => h ((hcond7_0 t).mp h')) (blk7_0 V c t) (blk7_1 V c t) (blk7_2 V c t) (blk7_3 V c t) (blk7_4 V c t) (blk7_5 V c t) (blk7_6 V c t)
    (outsAt7 V c (t.val - 1) (Nat.lt_of_le_of_lt (Nat.sub_le _ _) t.isLt)).2.1 (outsAt7 V c (t.val - 1) (Nat.lt_of_le_of_lt (Nat.sub_le _ _) t.isLt)).2.2

/-- The column sums of squares after the first tile. -/
theorem after7_9_first (c : Dev nD) (t : Fin cfg7.N) (h : t.val = 0) :
    (dat7 V c).after 9 t = k7_pay2 (k7_pay5 (iblk7 V c 0 t) (iblk7 V c 2 t) (iblk7 V c 1 t) (iblk7 V c 3 t) (iblk7 V c 4 t) (iblk7 V c 5 t) (iblk7 V c 6 t)) (k7_pay4 (F := F)) := by
  rw [afterRaw7_9, outsAt7_first V c t h]
  unfold out7_A
  dsimp only
  exact piece7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h) (blk7_0 V c t) (blk7_1 V c t) (blk7_2 V c t) (blk7_3 V c t) (blk7_4 V c t) (blk7_5 V c t) (blk7_6 V c t)

/-- The column sums of squares after a later tile, from those after the tile before. -/
theorem after7_9_later (c : Dev nD) (t : Fin cfg7.N) (h : t.val ≠ 0) :
    (dat7 V c).after 9 t = k7_pay2 (k7_pay5 (iblk7 V c 0 t) (iblk7 V c 2 t) (iblk7 V c 1 t) (iblk7 V c 3 t) (iblk7 V c 4 t) (iblk7 V c 5 t) (iblk7 V c 6 t)) ((dat7 V c).after 9 ⟨t.val - 1, Nat.lt_of_le_of_lt (Nat.sub_le _ _) t.isLt⟩) := by
  rw [afterRaw7_9, afterRaw7_9, outsAt7_later V c t h]
  unfold out7_B
  dsimp only
  exact piece7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h' => h ((hcond7_0 t).mp h')) (blk7_0 V c t) (blk7_1 V c t) (blk7_2 V c t) (blk7_3 V c t) (blk7_4 V c t) (blk7_5 V c t) (blk7_6 V c t)
    (outsAt7 V c (t.val - 1) (Nat.lt_of_le_of_lt (Nat.sub_le _ _) t.isLt)).2.1 (outsAt7 V c (t.val - 1) (Nat.lt_of_le_of_lt (Nat.sub_le _ _) t.isLt)).2.2

end Cert.KernelIdeal.Gen

end
-- ==== Proof.KernelIdeal.Region8.lean ====
import proofs.«428437_j36421322670670_1_alg».proof.Proof.Gen.KernelIdeal.Launch
import proofs.«428437_j36421322670670_1_alg».proof.Proof.Gen.KernelIdeal.Skeleton
import proofs.«428437_j36421322670670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The normalise-and-pool kernel of one layer, as a region entered at contents `V`

The body normalises a tile of rows with the batch statistics, clamps it at zero, stores the tile, and adds the
tile's one-hot contraction over the graph ids to a pooled block that stays in place over the whole grid: the pooled
block is reset where the grid coordinate is zero and read back at its running contents everywhere else. This file
gives the proof data of the region at any entry contents, the body obligation, and what every window's staging
buffer holds after the body at every point, in terms of the payloads of the skeleton. -/
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the block was fetched there or
    kept from the point before (its index has not moved then), for any proof data whose array is the entry contents
    and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch condition -/

/-- The condition of the body's one conditional, from the grid coordinates: the coordinate is zero. -/
abbrev cond8_0 (i : grid8.Coords) : Prop := (Scalar.cmpi .ne (Scalar.extui (Scalar.cmpi .eq (BitVec.ofNat 32 (i 0).val) 0#32)) 0#32) = 1#1
/-- It holds at the first point only (decided over the grid). -/
theorem hcond8_0 : ∀ t : Fin cfg8.N, cond8_0 (grid8.coords t) ↔ t.val % 25 = 0 :=
  (by decide +kernel : ∀ t : Fin grid8.N, cond8_0 (grid8.coords t) ↔ t.val % 25 = 0)

/-! ## The staging memrefs -/

/-- One staging buffer of each output window, through which its contents are stated (the choice does not matter:
    a covering list of pieces reads back the same through any view). -/
abbrev VO8_6 : View sig .tc .vmem S2000x64 .f32 := (Memref.whole cc8_stg6_0 : Memref sig .tc .vmem S2000x64 .f32).view
abbrev VO8_7 : View sig .tc .vmem S512x64 .f32 := (Memref.whole cc8_stg7_0 : Memref sig .tc .vmem S512x64 .f32).view
/-- Each window's current staging memref at point `t`, spelled as the pipeline passes it to the body, and its wholeness. -/
abbrev ms8_0 (t : Fin cfg8.N) : Memref sig .tc .vmem S2000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x64 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S2000x1 .i32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S2000x64 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S512x64 .f32 := win8_7.stage (cfg8.slots t 7)
abbrev hs8_7 (t : Fin cfg8.N) : (ms8_7 t).IsWhole := hstage8_7 ((cfg8.slots t 7).cast nbuf8_7)

/-! ## The kernel body on any staging memrefs -/

set_option maxHeartbeats 1000000 in
/-- What the stores of the body leave in the staging memrefs of the two outputs, as pieces (last first), at the point whose grid coordinate is zero (the pooled block is reset first):
    on whole staging memrefs, every input buffer at its contents, both output buffers at anything, the body runs to a continuation that
    holds every input buffer as it was and each output buffer with its pieces written. -/
noncomputable def kernelRun8_A (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ (∃ d, owns (c : Thread nD τ) mP fullShare d)
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc8__bn_pool_kernel i mL hmL mM hmM mV hmV mG hmG mB hmB mI hmI mH hmH mP hmP) K } := by
  refine ⟨?_, ?_, fun E K => ?run⟩
  case run =>
    simp only [cc8__bn_pool_kernel_eq_skeleton]; unfold cc8__bn_pool_kernel_skel
    simp only [k8_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%dP, %fP, -, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

set_option maxHeartbeats 1000000 in
/-- What the stores of the body leave in the staging memrefs of the two outputs, as pieces (last first), at a point whose grid coordinate is not zero (the pooled block is read at its running contents `xP`):
    on whole staging memrefs, every input buffer at its contents, the tile output buffer at anything, the body runs to a continuation that
    holds every input buffer as it was and each output buffer with its pieces written. -/
noncomputable def kernelRun8_B (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    Σ' (LH : List (View.Piece (Elt F) S2000x64 .f32)), { LP : List (View.Piece (Elt F) S512x64 .f32) //
      ∀ (E : Set ℕ) (K : PUnit → sProp 𝕄),
        iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ d, owns (c : Thread nD τ) mH fullShare d) ∗ owns (c : Thread nD τ) mP fullShare xP
            ∗ (iprop(owns (c : Thread nD τ) mL fullShare xL ∗ owns (c : Thread nD τ) mM fullShare xM ∗ owns (c : Thread nD τ) mV fullShare xV ∗ owns (c : Thread nD τ) mG fullShare xG ∗ owns (c : Thread nD τ) mB fullShare xB ∗ owns (c : Thread nD τ) mI fullShare xI ∗ (∃ f, mH.view.loc (c : Thread nD τ) ↦[mH.view.set]{fullShare} mH.view.writes (Elt F) f LH) ∗ (∃ f, mP.view.loc (c : Thread nD τ) ↦[mP.view.set]{fullShare} mP.view.writes (Elt F) f LP)) -∗ K ⟨⟩))
          ⊢ wp frame (wpE (defs₀ (F := F)) Variants.none c none) E (cc8__bn_pool_kernel i mL hmL mM hmM mV hmV mG hmG mB hmB mI hmI mH hmH mP hmP) K } := by
  refine ⟨?_, ?_, fun E K => ?run⟩
  case run =>
    simp only [cc8__bn_pool_kernel_eq_skeleton]; unfold cc8__bn_pool_kernel_skel
    simp only [k8_part1_eq_skeleton]
    unfold owns
    iintro ⟨⟨%fL, %hfL, HL⟩, ⟨%fM, %hfM, HM⟩, ⟨%fV, %hfV, HV⟩, ⟨%fG, %hfG, HG⟩, ⟨%fB, %hfB, HB⟩, ⟨%fI, %hfI, HI⟩, ⟨%dH, %fH, -, HH⟩, ⟨%fP, %hfP, HP⟩, Hk⟩
    obtain rfl := hmL.eq_unread hfL; obtain rfl := hmM.eq_unread hfM; obtain rfl := hmV.eq_unread hfV; obtain rfl := hmG.eq_unread hfG; obtain rfl := hmB.eq_unread hfB; obtain rfl := hmI.eq_unread hfI; obtain rfl := hmP.eq_unread hfP
    sl_exec (disch := first | exact hc)
    sl_step
    iapply Hk
    isplitl [HL]
    · iexists _; isplitr; · ipureintro; exact hmL.read_unread _
      iexact HL
    isplitl [HM]
    · iexists _; isplitr; · ipureintro; exact hmM.read_unread _
      iexact HM
    isplitl [HV]
    · iexists _; isplitr; · ipureintro; exact hmV.read_unread _
      iexact HV
    isplitl [HG]
    · iexists _; isplitr; · ipureintro; exact hmG.read_unread _
      iexact HG
    isplitl [HB]
    · iexists _; isplitr; · ipureintro; exact hmB.read_unread _
      iexact HB
    isplitl [HI]
    · iexists _; isplitr; · ipureintro; exact hmI.read_unread _
      iexact HI
    isplitl [HH]; · iexists _; iexact HH
    iexists _; iexact HP

/-! ## What each case leaves in the two output buffers -/

/-- The pieces case A finds for output window 6 tile its block, so they cover it. -/
theorem cover8_A_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) (y : S2000x64.Idx) :
    ∃ pc ∈ (kernelRun8_A c i mL hmL mM hmM mV hmV mG hmG mB hmB mI hmI mH hmH mP hmP hc xL xM xV xG xB xI).1, y ∈ pc.1.set :=
  View.cover_of_tiledL (kernelRun8_A c i mL hmL mM hmM mV hmV mG hmG mB hmB mI hmI mH hmH mP hmP hc xL xM xV xG xB xI).1 S2000x64.size (by sl_kernel_rfl) y

/-- What case A leaves in output window 6's staging buffer: its pieces read back. -/
def out8_A_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) : Vec F S2000x64 .f32 :=
  VO8_6.read (Elt F) (VO8_6.writes (Elt F) VO8_6.junk (kernelRun8_A c i mL hmL mM hmM mV hmV mG hmG mB hmB mI hmI mH hmH mP hmP hc xL xM xV xG xB xI).1)

/-- The pieces case A finds for output window 7 tile its block, so they cover it. -/
theorem cover8_A_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) (y : S512x64.Idx) :
    ∃ pc ∈ (kernelRun8_A c i mL hmL mM hmM mV hmV mG hmG mB hmB mI hmI mH hmH mP hmP hc xL xM xV xG xB xI).2.1, y ∈ pc.1.set :=
  View.cover_of_tiledL (kernelRun8_A c i mL hmL mM hmM mV hmV mG hmG mB hmB mI hmI mH hmH mP hmP hc xL xM xV xG xB xI).2.1 S512x64.size (by sl_kernel_rfl) y

/-- What case A leaves in output window 7's staging buffer: its pieces read back. -/
def out8_A_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) : Vec F S512x64 .f32 :=
  VO8_7.read (Elt F) (VO8_7.writes (Elt F) VO8_7.junk (kernelRun8_A c i mL hmL mM hmM mV hmV mG hmG mB hmB mI hmI mH hmH mP hmP hc xL xM xV xG xB xI).2.1)

/-- The pieces case B finds for output window 6 tile its block, so they cover it. -/
theorem cover8_B_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S2000x64.Idx) :
    ∃ pc ∈ (kernelRun8_B c i mL hmL mM hmM mV hmV mG hmG mB hmB mI hmI mH hmH mP hmP hc xL xM xV xG xB xI xP).1, y ∈ pc.1.set :=
  View.cover_of_tiledL (kernelRun8_B c i mL hmL mM hmM mV hmV mG hmG mB hmB mI hmI mH hmH mP hmP hc xL xM xV xG xB xI xP).1 S2000x64.size (by sl_kernel_rfl) y

/-- What case B leaves in output window 6's staging buffer: its pieces read back. -/
def out8_B_6 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S2000x64 .f32 :=
  VO8_6.read (Elt F) (VO8_6.writes (Elt F) VO8_6.junk (kernelRun8_B c i mL hmL mM hmM mV hmV mG hmG mB hmB mI hmI mH hmH mP hmP hc xL xM xV xG xB xI xP).1)

/-- The pieces case B finds for output window 7 tile its block, so they cover it. -/
theorem cover8_B_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) (y : S512x64.Idx) :
    ∃ pc ∈ (kernelRun8_B c i mL hmL mM hmM mV hmV mG hmG mB hmB mI hmI mH hmH mP hmP hc xL xM xV xG xB xI xP).2.1, y ∈ pc.1.set :=
  View.cover_of_tiledL (kernelRun8_B c i mL hmL mM hmM mV hmV mG hmG mB hmB mI hmI mH hmH mP hmP hc xL xM xV xG xB xI xP).2.1 S512x64.size (by sl_kernel_rfl) y

/-- What case B leaves in output window 7's staging buffer: its pieces read back. -/
def out8_B_7 (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) : Vec F S512x64 .f32 :=
  VO8_7.read (Elt F) (VO8_7.writes (Elt F) VO8_7.junk (kernelRun8_B c i mL hmL mM hmM mV hmV mG hmG mB hmB mI hmI mH hmH mP hmP hc xL xM xV xG xB xI xP).2.1)

/-! ## What the outputs hold after each point -/

/-- The accumulation. What the two outputs' staging buffers hold after the body at position `n` (the tile output,
    then the pooled block): the case the closed form selects at `n`, run at the point's memrefs and input blocks,
    the pooled block read at what this leaves at `n - 1` (its buffer is not written back between). -/
def outsAt8 (c : Dev nD) : (n : ℕ) → n < cfg8.N → Vec F S2000x64 .f32 × Vec F S512x64 .f32
  | 0, hn => (out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩))
  | n + 1, hn =>
    if h0 : (n + 1) % 25 = 0 then
      (out8_A_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩),
        out8_A_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩))
    else
      (out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2,
        out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2)

/-- `outsAt8` at the point of case A: that case's contents. -/
theorem outsAt8_A (c : Dev nD) (t : Fin cfg8.N) (h0 : t.val % 25 = 0) :
    outsAt8 V c t.val t.isLt = (out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t),
      out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)) := by
  obtain ⟨n, hn⟩ := t
  cases n with
  | zero => exact rfl
  | succ n => exact (dif_pos h0).trans rfl

/-- `outsAt8` at a point of case B: that case's contents, over what the point before left. -/
theorem outsAt8_B (c : Dev nD) (t : Fin cfg8.N) (h0 : ¬t.val % 25 = 0) :
    outsAt8 V c t.val t.isLt = (out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2,
      out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt8`; the invariant that of a body with no
    state of its own (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => (outsAt8 V c t.val t.isLt).1
    | ⟨7, _⟩ => (outsAt8 V c t.val t.isLt).2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem afterAt8_6 (c : Dev nD) (t : Fin cfg8.N) : (dat8 V c).after 6 t = (outsAt8 V c t.val t.isLt).1 := by dsimp only [dat8]
theorem afterAt8_7 (c : Dev nD) (t : Fin cfg8.N) : (dat8 V c).after 7 t = (outsAt8 V c t.val t.isLt).2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
/-- At a point of case B the pooled window's staging buffer holds what the body left at the point before: the point
    is not the first, the buffer was not written back between (only the last point writes it back), the window is
    live and uncut. -/
theorem before8_7_B (c : Dev nD) (t : Fin cfg8.N) (h0 : ¬t.val % 25 = 0) (d) :
    (dat8 V c).before 7 t d = (outsAt8 V c (t.val - 1) (Nat.lt_of_le_of_lt (Nat.sub_le _ _) t.isLt)).2 := by
  have hN : t.val < 25 := lt_of_lt_of_eq t.isLt (show cfg8.N = 25 from N_8)
  rw [Dat.before_out_kept _ 7 rfl t (by omega) (Bool.eq_false_iff.mpr fun h => by have := (flush8_7 _).mp h; dsimp only at this; omega)
    (fun _ => rfl) (fun _ _ => rfl)]
  dsimp only [dat8]

/-! ## The body obligation, at a generic point -/

/-- What the body is called with at point `t` (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t))

set_option maxHeartbeats 1600000 in
/-- The body at any point: the inputs' memrefs hold their blocks; the closed form says which case the point is in;
    in case B the pooled block's buffer holds what the point before left; so the case's run applies; the invariant
    and the core's tallies pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, afterAt8_6, afterAt8_7]
  have hN : t.val < 25 := lt_of_lt_of_eq t.isLt (show cfg8.N = 25 from N_8)
  by_cases h0 : t.val % 25 = 0
  · rw [outsAt8_A V c t h0]
    (try dsimp only)
    unfold out8_A_6 out8_A_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun8_A c (grid8.coords t) _ _ _ _ _ _ _ _ _ _ _ _ _ _ _ _ ((hcond8_0 t).mpr h0) (iblk8 V c 0 t) (iblk8 V c 1 t) (iblk8 V c 2 t) (iblk8 V c 3 t) (iblk8 V c 4 t) (iblk8 V c 5 t)).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexists _; iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover8_A_6 c _ _ _ _ _ _ _ _ _ _ _ _ _ _ _ _ _ _ _ _ _ _ _ _)
    unfold owns; iexists _; isplitr
    swap; · iexact HP
    ipureintro; exact View.read_writes_of_cover _ _ _ _ _ (cover8_A_7 c _ _ _ _ _ _ _ _ _ _ _ _ _ _ _ _ _ _ _ _ _ _ _ _)
  · rw [outsAt8_B V c t h0]
    simp only [before8_7_B V c t h0]
    (try dsimp only)
    unfold out8_B_6 out8_B_7
    iintro ⟨HΦ, Ho, ⟨%dHL, HL⟩, ⟨%dHM, HM⟩, ⟨%dHV, HV⟩, ⟨%dHG, HG⟩, ⟨%dHB, HB⟩, ⟨%dHI, HI⟩, ⟨%dHH, HH⟩, ⟨%dHP, HP⟩⟩
    iapply ((kernelRun8_B c (grid8.coords t) _ _ _ _ _ _ _ _ _ _ _ _ _ _ _ _ (fun h => h0 ((hcond8_0 t).mp h)) (iblk8 V c 0 t) (iblk8 V c 1 t) (iblk8 V c 2 t) (iblk8 V c 3 t) (iblk8 V c 4 t) (iblk8 V c 5 t) _).2.2 Set.univ _)
    isplitl [HL]; · iexact HL
    isplitl [HM]; · iexact HM
    isplitl [HV]; · iexact HV
    isplitl [HG]; · iexact HG
    isplitl [HB]; · iexact HB
    isplitl [HI]; · iexact HI
    isplitl [HH]; · iexists _; iexact HH
    isplitl [HP]; · iexact HP
    iintro ⟨HL, HM, HV, HG, HB, HI, ⟨%eH, HH⟩, ⟨%eP, HP⟩⟩
    isplitl [HΦ]; · iexact HΦ
    isplitl [Ho]; · iexact Ho
    isplitl [HL]; · iexact HL
    isplitl [HM]; · iexact HM
    isplitl [HV]; · iexact HV
    isplitl [HG]; · iexact HG
    isplitl [HB]; · iexact HB
    isplitl [HI]; · iexact HI
    isplitl [HH]
    · unfold owns; iexists _; isplitr
      swap; · iexact HH
      ipureintro; exact View.read_writes_of_cover _ _ _ _ _ (cover8_B_6 c _ _ _ _ _ _ _ _ _ _ _ _ _ _ _ _ _ _ _ _ _ _ _ _ _)
    unfold owns; iexists _; isplitr
    swap; · iexact HP
    ipureintro; exact View.read_writes_of_cover _ _ _ _ _ (cover8_B_7 c _ _ _ _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The found pieces, read back as payloads

Every store of the body is through the whole-block rectangle at zero offsets, and every load of an input reads the
whole buffer: so the tile output is left at the tile payload of the input blocks, and the pooled block at the sum
payload of the tile's contraction and what the pooled block held — the zero block where it was just reset. -/

/-- The offsets of a whole rank-two block are zero, however the zeros are spelt. -/
theorem zeroOffs8 : (![0, 0] : Fin 2 → Nat) = fun _ => 0 := funext fun a => by fin_cases a <;> rfl

/-- Case A leaves the normalised, clamped tile in the tile output: its one covering store's payload, whose loads read
    the whole input buffers. -/
theorem out8_A_6_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    out8_A_6 c i mL hmL mM hmM mV hmV mG hmG mB hmB mI hmI mH hmH mP hmP hc xL xM xV xG xB xI = k8_pay3 xL xV xM xG xB := by
  unfold out8_A_6
  rw [View.read_writes_eq_canon _ _ _ (cover8_A_6 c i mL hmL mM hmM mV hmV mG hmG mB hmB mI hmI mH hmH mP hmP hc xL xM xV xG xB xI)]
  unfold kernelRun8_A
  dsimp only
  sl_unfold_words
  rw [View.canon_unit_zero zeroOffs8]
  simp only [View.readAt_eq_ld, hmL.read_unread, hmM.read_unread, hmV.read_unread, hmG.read_unread, hmB.read_unread, hmI.read_unread, View.ld_unit_zero (S := S2000x64) zeroOffs8, View.ld_unit_zero (S := S1x64) zeroOffs8, View.ld_unit_zero (S := S2000x1) zeroOffs8, View.ld_unit_zero (S := S512x64) zeroOffs8]

/-- Case A leaves in the pooled block the tile's contraction added to the zero block: the reset store is read back
    whole, and the last store covers the block. -/
theorem out8_A_7_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : cond8_0 i)
    (xL : Vec F S2000x64 .f32) (xM : Vec F S1x64 .f32) (xV : Vec F S1x64 .f32) (xG : Vec F S1x64 .f32) (xB : Vec F S1x64 .f32) (xI : Vec F S2000x1 .i32) :
    out8_A_7 c i mL hmL mM hmM mV hmV mG hmG mB hmB mI hmI mH hmH mP hmP hc xL xM xV xG xB xI = k8_pay1 (k8_pay4 xL xV xM xG xB xI) (k8_pay2 (F := F)) := by
  unfold out8_A_7
  rw [View.read_writes_eq_canon _ _ _ (cover8_A_7 c i mL hmL mM hmM mV hmV mG hmG mB hmB mI hmI mH hmH mP hmP hc xL xM xV xG xB xI)]
  unfold kernelRun8_A
  dsimp only
  sl_unfold_words
  rw [View.canon_cons_unit_zero (S := S512x64) zeroOffs8, View.readCov_unit_zero (S := S512x64) _ zeroOffs8]
  simp only [View.readAt_eq_ld, hmL.read_unread, hmM.read_unread, hmV.read_unread, hmG.read_unread, hmB.read_unread, hmI.read_unread, View.ld_unit_zero (S := S2000x64) zeroOffs8, View.ld_unit_zero (S := S1x64) zeroOffs8, View.ld_unit_zero (S := S2000x1) zeroOffs8, View.ld_unit_zero (S := S512x64) zeroOffs8]

/-- Case B leaves the same tile payload in the tile output. -/
theorem out8_B_6_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out8_B_6 c i mL hmL mM hmM mV hmV mG hmG mB hmB mI hmI mH hmH mP hmP hc xL xM xV xG xB xI xP = k8_pay3 xL xV xM xG xB := by
  unfold out8_B_6
  rw [View.read_writes_eq_canon _ _ _ (cover8_B_6 c i mL hmL mM hmM mV hmV mG hmG mB hmB mI hmI mH hmH mP hmP hc xL xM xV xG xB xI xP)]
  unfold kernelRun8_B
  dsimp only
  sl_unfold_words
  rw [View.canon_unit_zero zeroOffs8]
  simp only [View.readAt_eq_ld, hmL.read_unread, hmM.read_unread, hmV.read_unread, hmG.read_unread, hmB.read_unread, hmI.read_unread, hmP.read_unread, View.ld_unit_zero (S := S2000x64) zeroOffs8, View.ld_unit_zero (S := S1x64) zeroOffs8, View.ld_unit_zero (S := S2000x1) zeroOffs8, View.ld_unit_zero (S := S512x64) zeroOffs8]

/-- Case B leaves in the pooled block the tile's contraction added to what the block held. -/
theorem out8_B_7_eq (c : Dev nD) (i : grid8.Coords) (mL : Memref sig .tc .vmem S2000x64 .f32) (hmL : mL.IsWhole) (mM : Memref sig .tc .vmem S1x64 .f32) (hmM : mM.IsWhole) (mV : Memref sig .tc .vmem S1x64 .f32) (hmV : mV.IsWhole) (mG : Memref sig .tc .vmem S1x64 .f32) (hmG : mG.IsWhole) (mB : Memref sig .tc .vmem S1x64 .f32) (hmB : mB.IsWhole) (mI : Memref sig .tc .vmem S2000x1 .i32) (hmI : mI.IsWhole) (mH : Memref sig .tc .vmem S2000x64 .f32) (hmH : mH.IsWhole) (mP : Memref sig .tc .vmem S512x64 .f32) (hmP : mP.IsWhole) (hc : ¬cond8_0 i)
    (xL : Vec F S2000x64 .f32) (xM : Vec F S1x64 .f32) (xV : Vec F S1x64 .f32) (xG : Vec F S1x64 .f32) (xB : Vec F S1x64 .f32) (xI : Vec F S2000x1 .i32) (xP : Vec F S512x64 .f32) :
    out8_B_7 c i mL hmL mM hmM mV hmV mG hmG mB hmB mI hmI mH hmH mP hmP hc xL xM xV xG xB xI xP = k8_pay1 (k8_pay4 xL xV xM xG xB xI) xP := by
  unfold out8_B_7
  rw [View.read_writes_eq_canon _ _ _ (cover8_B_7 c i mL hmL mM hmM mV hmV mG hmG mB hmB mI hmI mH hmH mP hmP hc xL xM xV xG xB xI xP)]
  unfold kernelRun8_B
  dsimp only
  sl_unfold_words
  rw [View.canon_unit_zero zeroOffs8]
  simp only [View.readAt_eq_ld, hmL.read_unread, hmM.read_unread, hmV.read_unread, hmG.read_unread, hmB.read_unread, hmI.read_unread, hmP.read_unread, View.ld_unit_zero (S := S2000x64) zeroOffs8, View.ld_unit_zero (S := S1x64) zeroOffs8, View.ld_unit_zero (S := S2000x1) zeroOffs8, View.ld_unit_zero (S := S512x64) zeroOffs8]

/-! ## What the output windows hold after each point, in payloads -/

/-- After the body at any point the tile output holds the normalised, clamped tile of the point's input blocks. -/
theorem after8_6 (c : Dev nD) (t : Fin cfg8.N) :
    (dat8 V c).after 6 t = k8_pay3 (iblk8 V c 0 t) (iblk8 V c 2 t) (iblk8 V c 1 t) (iblk8 V c 3 t) (iblk8 V c 4 t) := by
  rw [afterAt8_6]
  by_cases h0 : t.val % 25 = 0
  · rw [outsAt8_A V c t h0]; (try dsimp only)
    exact out8_A_6_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)
  · rw [outsAt8_B V c t h0]; (try dsimp only)
    exact out8_B_6_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2

/-- After the body at the first point the pooled block holds the first tile's contraction added to the zero block. -/
theorem after8_7_first (c : Dev nD) (t : Fin cfg8.N) (h : t.val = 0) :
    (dat8 V c).after 7 t = k8_pay1 (k8_pay4 (iblk8 V c 0 t) (iblk8 V c 2 t) (iblk8 V c 1 t) (iblk8 V c 3 t) (iblk8 V c 4 t) (iblk8 V c 5 t)) (k8_pay2 (F := F)) := by
  have h0 : t.val % 25 = 0 := by rw [h]
  rw [afterAt8_7, outsAt8_A V c t h0]; (try dsimp only)
  exact out8_A_7_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t) (iblk8 V c 5 t)

/-- After the body at a later point the pooled block holds the tile's contraction added to what the point before left. -/
theorem after8_7_later (c : Dev nD) (t : Fin cfg8.N) (h : t.val ≠ 0) :
    (dat8 V c).after 7 t = k8_pay1 (k8_pay4 (iblk8 V c 0 t) (iblk8 V c 2 t) (iblk8 V c 1 t) (iblk8 V c 3 t) (iblk8 V c 4 t) (iblk8 V c 5 t)) ((dat8 V c).after 7 ⟨t.val - 1, Nat.lt_of_le_of_lt (Nat.sub_le _ _) t.isLt⟩) := by
  have hN : t.val < 25 := lt_of_lt_of_eq t.isLt (show cfg8.N = 25 from N_8)
  have h0 : ¬t.val % 25 = 0 := by omega
  rw [afterAt8_7 V c t, outsAt8_B V c t h0, afterAt8_7 V c ⟨t.val - 1, Nat.lt_of_le_of_lt (Nat.sub_le _ _) t.isLt⟩]; (try dsimp only)
  exact out8_B_7_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2

end Cert.KernelIdeal.Gen

end
-- ==== Proof.KernelIdeal.Fold.lean ====
import proofs.«428437_j36421322670670_1_alg».proof.Proof.KernelIdeal.Region0
import proofs.«428437_j36421322670670_1_alg».proof.Proof.KernelIdeal.Region1
import proofs.«428437_j36421322670670_1_alg».proof.Proof.KernelIdeal.Region2
import proofs.«428437_j36421322670670_1_alg».proof.Proof.KernelIdeal.Region3
import proofs.«428437_j36421322670670_1_alg».proof.Proof.KernelIdeal.Region4
import proofs.«428437_j36421322670670_1_alg».proof.Proof.KernelIdeal.Region5
import proofs.«428437_j36421322670670_1_alg».proof.Proof.KernelIdeal.Region6
import proofs.«428437_j36421322670670_1_alg».proof.Proof.KernelIdeal.Region7
import proofs.«428437_j36421322670670_1_alg».proof.Proof.KernelIdeal.Region8
import proofs.«428437_j36421322670670_1_alg».proof.Proof.Gen.KernelIdeal.Regions
import Idealize.ShloMosaic.Lib.Pipeline.FrameSuffix
import Idealize.ShloMosaic.Lib.Pipeline.Regions
import Idealize.ShloMosaic.Lib.StableHlo.Run

/-! # The contents of the unscoped buffers along @main, and the thread state the run is threaded through

@main is ten stretches of host operations with nine kernel regions between them. Core `c`'s unscoped buffers are
followed through all nineteen items from the launch memory: a stretch takes a valuation to `StableHlo.after` of its
operations; a region takes it to the same valuation with the pipeline's arrays replaced by the fold of the region's
write-backs. The twenty valuations are `W0 … W19`; a region's two are also named `WinK` and `WoutK`. Every argument of
@main is read back through the whole fold to its launch contents. The proof data of all nine pipelines are taken at
their regions' entry contents, and the thread state between two items is "every unscoped buffer at the boundary's
valuation, the generator register at some state, nothing owed". -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- What core `c` holds at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- `hostOps0` leaves alone every reference it does not write. -/
theorem W1_keeps (c : Dev nD) (r : Ref sig .tc) (h : r ∉ hostOps0_W) :
    W1 m ρ c (Proc.devRef .tc r) = W0 m ρ c (Proc.devRef .tc r) :=
  StableHlo.after_of_writes_sub hostOps0 _ hostOps0_writes h

/-! ### Region 0 and the stretch behind it -/

/-- The pipeline index of region 0. -/
abbrev pix0 : Fin 9 := 0
/-- What core `c` holds when region 0 is entered. -/
abbrev Win0 : Dev nD → Valuation τ sig (Elt F) := W1 m ρ
/-- The entry contents of region 0, read at the TensorCore's own references: the parameter its proof data are taken at. -/
abbrev Vin0 : (c : Dev nD) → (b : Ref sig .tc) → Buf (Elt F) ((c : Thread nD τ).loc b) := fun c b => Win0 m ρ c b
/-- What core `c` holds when region 0 is left: each array of the pipeline at the fold of its write-backs over all
    `cfg0.N` points (an input window's array is then as entered), every buffer that is no array of it as entered. -/
def Wout0 (c : Dev nD) : Valuation τ sig (Elt F) :=
  Pipeline.withArrays spec0 c (Win0 m ρ c) fun w => (dat0 (Vin0 m ρ) c).arrAt w cfg0.N
abbrev W2 : Dev nD → Valuation τ sig (Elt F) := Wout0 m ρ
/-- The exit contents of region 0 at the TensorCore's own references. -/
abbrev Vout0 : (c : Dev nD) → (b : Ref sig .tc) → Buf (Elt F) ((c : Thread nD τ).loc b) := fun c b => Wout0 m ρ c b
/-- At an array of the pipeline the exit contents are the folded write-backs. -/
theorem Wout0_arr (c : Dev nD) (w : Fin cfg0.W) :
    Wout0 m ρ c (Proc.devRef .tc (Pipeline.arrRef spec0 w)) = (dat0 (Vin0 m ρ) c).arrAt w cfg0.N := by
  unfold Wout0
  exact Pipeline.withArrays_arr spec0 launch0.win.arr_inj c _ _ w
/-- Away from the pipeline's arrays the exit contents are the entry contents. -/
theorem Wout0_of_ne (c : Dev nD) (b : Ref sig .tc) (hb : ∀ w, Pipeline.arrRef spec0 w ≠ b) :
    Wout0 m ρ c (Proc.devRef .tc b) = Win0 m ρ c (Proc.devRef .tc b) := by
  unfold Wout0
  exact Pipeline.withArrays_of_ne spec0 c _ _ b hb
/-- The two facts from which the unscoped buffers are put together again at region 0's exit: the arrays hold the
    folded write-backs, -/
theorem hF0 (c : Dev nD) (w : Fin cfg0.W) :
    (dat0 (Vin0 m ρ) c).arrAt w cfg0.N = Vout0 m ρ c (Pipeline.arrRef spec0 w) :=
  (Wout0_arr m ρ c w).symm
/-- and every other buffer is untouched. -/
theorem hrest0 (c : Dev nD) : ∀ b, b ∉ Finset.univ.image (Pipeline.arrRef spec0) → Vout0 m ρ c b = Vin0 m ρ c b :=
  fun b hb => Wout0_of_ne m ρ c b fun w hw => hb (Finset.mem_image.mpr ⟨w, Finset.mem_univ w, hw⟩)
/-- After the stretch `hostOps1`. -/
abbrev W3 : Dev nD → Valuation τ sig (Elt F) := fun c => StableHlo.after hostOps1 (W2 m ρ c)
/-- `hostOps1` leaves alone every reference it does not write. -/
theorem W3_keeps (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### Region 1 and the stretch behind it -/

/-- The pipeline index of region 1. -/
abbrev pix1 : Fin 9 := 1
/-- What core `c` holds when region 1 is entered. -/
abbrev Win1 : Dev nD → Valuation τ sig (Elt F) := W3 m ρ
/-- The entry contents of region 1, read at the TensorCore's own references: the parameter its proof data are taken at. -/
abbrev Vin1 : (c : Dev nD) → (b : Ref sig .tc) → Buf (Elt F) ((c : Thread nD τ).loc b) := fun c b => Win1 m ρ c b
/-- What core `c` holds when region 1 is left: each array of the pipeline at the fold of its write-backs over all
    `cfg1.N` points (an input window's array is then as entered), every buffer that is no array of it as entered. -/
def Wout1 (c : Dev nD) : Valuation τ sig (Elt F) :=
  Pipeline.withArrays spec1 c (Win1 m ρ c) fun w => (dat1 (Vin1 m ρ) c).arrAt w cfg1.N
abbrev W4 : Dev nD → Valuation τ sig (Elt F) := Wout1 m ρ
/-- The exit contents of region 1 at the TensorCore's own references. -/
abbrev Vout1 : (c : Dev nD) → (b : Ref sig .tc) → Buf (Elt F) ((c : Thread nD τ).loc b) := fun c b => Wout1 m ρ c b
/-- At an array of the pipeline the exit contents are the folded write-backs. -/
theorem Wout1_arr (c : Dev nD) (w : Fin cfg1.W) :
    Wout1 m ρ c (Proc.devRef .tc (Pipeline.arrRef spec1 w)) = (dat1 (Vin1 m ρ) c).arrAt w cfg1.N := by
  unfold Wout1
  exact Pipeline.withArrays_arr spec1 launch1.win.arr_inj c _ _ w
/-- Away from the pipeline's arrays the exit contents are the entry contents. -/
theorem Wout1_of_ne (c : Dev nD) (b : Ref sig .tc) (hb : ∀ w, Pipeline.arrRef spec1 w ≠ b) :
    Wout1 m ρ c (Proc.devRef .tc b) = Win1 m ρ c (Proc.devRef .tc b) := by
  unfold Wout1
  exact Pipeline.withArrays_of_ne spec1 c _ _ b hb
/-- The two facts from which the unscoped buffers are put together again at region 1's exit: the arrays hold the
    folded write-backs, -/
theorem hF1 (c : Dev nD) (w : Fin cfg1.W) :
    (dat1 (Vin1 m ρ) c).arrAt w cfg1.N = Vout1 m ρ c (Pipeline.arrRef spec1 w) :=
  (Wout1_arr m ρ c w).symm
/-- and every other buffer is untouched. -/
theorem hrest1 (c : Dev nD) : ∀ b, b ∉ Finset.univ.image (Pipeline.arrRef spec1) → Vout1 m ρ c b = Vin1 m ρ c b :=
  fun b hb => Wout1_of_ne m ρ c b fun w hw => hb (Finset.mem_image.mpr ⟨w, Finset.mem_univ w, hw⟩)
/-- After the stretch `hostOps2`. -/
abbrev W5 : Dev nD → Valuation τ sig (Elt F) := fun c => StableHlo.after hostOps2 (W4 m ρ c)
/-- `hostOps2` leaves alone every reference it does not write. -/
theorem W5_keeps (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### Region 2 and the stretch behind it -/

/-- The pipeline index of region 2. -/
abbrev pix2 : Fin 9 := 2
/-- What core `c` holds when region 2 is entered. -/
abbrev Win2 : Dev nD → Valuation τ sig (Elt F) := W5 m ρ
/-- The entry contents of region 2, read at the TensorCore's own references: the parameter its proof data are taken at. -/
abbrev Vin2 : (c : Dev nD) → (b : Ref sig .tc) → Buf (Elt F) ((c : Thread nD τ).loc b) := fun c b => Win2 m ρ c b
/-- What core `c` holds when region 2 is left: each array of the pipeline at the fold of its write-backs over all
    `cfg2.N` points (an input window's array is then as entered), every buffer that is no array of it as entered. -/
def Wout2 (c : Dev nD) : Valuation τ sig (Elt F) :=
  Pipeline.withArrays spec2 c (Win2 m ρ c) fun w => (dat2 (Vin2 m ρ) c).arrAt w cfg2.N
abbrev W6 : Dev nD → Valuation τ sig (Elt F) := Wout2 m ρ
/-- The exit contents of region 2 at the TensorCore's own references. -/
abbrev Vout2 : (c : Dev nD) → (b : Ref sig .tc) → Buf (Elt F) ((c : Thread nD τ).loc b) := fun c b => Wout2 m ρ c b
/-- At an array of the pipeline the exit contents are the folded write-backs. -/
theorem Wout2_arr (c : Dev nD) (w : Fin cfg2.W) :
    Wout2 m ρ c (Proc.devRef .tc (Pipeline.arrRef spec2 w)) = (dat2 (Vin2 m ρ) c).arrAt w cfg2.N := by
  unfold Wout2
  exact Pipeline.withArrays_arr spec2 launch2.win.arr_inj c _ _ w
/-- Away from the pipeline's arrays the exit contents are the entry contents. -/
theorem Wout2_of_ne (c : Dev nD) (b : Ref sig .tc) (hb : ∀ w, Pipeline.arrRef spec2 w ≠ b) :
    Wout2 m ρ c (Proc.devRef .tc b) = Win2 m ρ c (Proc.devRef .tc b) := by
  unfold Wout2
  exact Pipeline.withArrays_of_ne spec2 c _ _ b hb
/-- The two facts from which the unscoped buffers are put together again at region 2's exit: the arrays hold the
    folded write-backs, -/
theorem hF2 (c : Dev nD) (w : Fin cfg2.W) :
    (dat2 (Vin2 m ρ) c).arrAt w cfg2.N = Vout2 m ρ c (Pipeline.arrRef spec2 w) :=
  (Wout2_arr m ρ c w).symm
/-- and every other buffer is untouched. -/
theorem hrest2 (c : Dev nD) : ∀ b, b ∉ Finset.univ.image (Pipeline.arrRef spec2) → Vout2 m ρ c b = Vin2 m ρ c b :=
  fun b hb => Wout2_of_ne m ρ c b fun w hw => hb (Finset.mem_image.mpr ⟨w, Finset.mem_univ w, hw⟩)
/-- After the stretch `hostOps3`. -/
abbrev W7 : Dev nD → Valuation τ sig (Elt F) := fun c => StableHlo.after hostOps3 (W6 m ρ c)
/-- `hostOps3` leaves alone every reference it does not write. -/
theorem W7_keeps (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### Region 3 and the stretch behind it -/

/-- The pipeline index of region 3. -/
abbrev pix3 : Fin 9 := 3
/-- What core `c` holds when region 3 is entered. -/
abbrev Win3 : Dev nD → Valuation τ sig (Elt F) := W7 m ρ
/-- The entry contents of region 3, read at the TensorCore's own references: the parameter its proof data are taken at. -/
abbrev Vin3 : (c : Dev nD) → (b : Ref sig .tc) → Buf (Elt F) ((c : Thread nD τ).loc b) := fun c b => Win3 m ρ c b
/-- What core `c` holds when region 3 is left: each array of the pipeline at the fold of its write-backs over all
    `cfg3.N` points (an input window's array is then as entered), every buffer that is no array of it as entered. -/
def Wout3 (c : Dev nD) : Valuation τ sig (Elt F) :=
  Pipeline.withArrays spec3 c (Win3 m ρ c) fun w => (dat3 (Vin3 m ρ) c).arrAt w cfg3.N
abbrev W8 : Dev nD → Valuation τ sig (Elt F) := Wout3 m ρ
/-- The exit contents of region 3 at the TensorCore's own references. -/
abbrev Vout3 : (c : Dev nD) → (b : Ref sig .tc) → Buf (Elt F) ((c : Thread nD τ).loc b) := fun c b => Wout3 m ρ c b
/-- At an array of the pipeline the exit contents are the folded write-backs. -/
theorem Wout3_arr (c : Dev nD) (w : Fin cfg3.W) :
    Wout3 m ρ c (Proc.devRef .tc (Pipeline.arrRef spec3 w)) = (dat3 (Vin3 m ρ) c).arrAt w cfg3.N := by
  unfold Wout3
  exact Pipeline.withArrays_arr spec3 launch3.win.arr_inj c _ _ w
/-- Away from the pipeline's arrays the exit contents are the entry contents. -/
theorem Wout3_of_ne (c : Dev nD) (b : Ref sig .tc) (hb : ∀ w, Pipeline.arrRef spec3 w ≠ b) :
    Wout3 m ρ c (Proc.devRef .tc b) = Win3 m ρ c (Proc.devRef .tc b) := by
  unfold Wout3
  exact Pipeline.withArrays_of_ne spec3 c _ _ b hb
/-- The two facts from which the unscoped buffers are put together again at region 3's exit: the arrays hold the
    folded write-backs, -/
theorem hF3 (c : Dev nD) (w : Fin cfg3.W) :
    (dat3 (Vin3 m ρ) c).arrAt w cfg3.N = Vout3 m ρ c (Pipeline.arrRef spec3 w) :=
  (Wout3_arr m ρ c w).symm
/-- and every other buffer is untouched. -/
theorem hrest3 (c : Dev nD) : ∀ b, b ∉ Finset.univ.image (Pipeline.arrRef spec3) → Vout3 m ρ c b = Vin3 m ρ c b :=
  fun b hb => Wout3_of_ne m ρ c b fun w hw => hb (Finset.mem_image.mpr ⟨w, Finset.mem_univ w, hw⟩)
/-- After the stretch `hostOps4`. -/
abbrev W9 : Dev nD → Valuation τ sig (Elt F) := fun c => StableHlo.after hostOps4 (W8 m ρ c)
/-- `hostOps4` leaves alone every reference it does not write. -/
theorem W9_keeps (c : Dev nD) (r : Ref sig .tc) (h : r ∉ hostOps4_W) :
    W9 m ρ c (Proc.devRef .tc r) = W8 m ρ c (Proc.devRef .tc r) :=
  StableHlo.after_of_writes_sub hostOps4 _ hostOps4_writes h

/-! ### Region 4 and the stretch behind it -/

/-- The pipeline index of region 4. -/
abbrev pix4 : Fin 9 := 4
/-- What core `c` holds when region 4 is entered. -/
abbrev Win4 : Dev nD → Valuation τ sig (Elt F) := W9 m ρ
/-- The entry contents of region 4, read at the TensorCore's own references: the parameter its proof data are taken at. -/
abbrev Vin4 : (c : Dev nD) → (b : Ref sig .tc) → Buf (Elt F) ((c : Thread nD τ).loc b) := fun c b => Win4 m ρ c b
/-- What core `c` holds when region 4 is left: each array of the pipeline at the fold of its write-backs over all
    `cfg4.N` points (an input window's array is then as entered), every buffer that is no array of it as entered. -/
def Wout4 (c : Dev nD) : Valuation τ sig (Elt F) :=
  Pipeline.withArrays spec4 c (Win4 m ρ c) fun w => (dat4 (Vin4 m ρ) c).arrAt w cfg4.N
abbrev W10 : Dev nD → Valuation τ sig (Elt F) := Wout4 m ρ
/-- The exit contents of region 4 at the TensorCore's own references. -/
abbrev Vout4 : (c : Dev nD) → (b : Ref sig .tc) → Buf (Elt F) ((c : Thread nD τ).loc b) := fun c b => Wout4 m ρ c b
/-- At an array of the pipeline the exit contents are the folded write-backs. -/
theorem Wout4_arr (c : Dev nD) (w : Fin cfg4.W) :
    Wout4 m ρ c (Proc.devRef .tc (Pipeline.arrRef spec4 w)) = (dat4 (Vin4 m ρ) c).arrAt w cfg4.N := by
  unfold Wout4
  exact Pipeline.withArrays_arr spec4 launch4.win.arr_inj c _ _ w
/-- Away from the pipeline's arrays the exit contents are the entry contents. -/
theorem Wout4_of_ne (c : Dev nD) (b : Ref sig .tc) (hb : ∀ w, Pipeline.arrRef spec4 w ≠ b) :
    Wout4 m ρ c (Proc.devRef .tc b) = Win4 m ρ c (Proc.devRef .tc b) := by
  unfold Wout4
  exact Pipeline.withArrays_of_ne spec4 c _ _ b hb
/-- The two facts from which the unscoped buffers are put together again at region 4's exit: the arrays hold the
    folded write-backs, -/
theorem hF4 (c : Dev nD) (w : Fin cfg4.W) :
    (dat4 (Vin4 m ρ) c).arrAt w cfg4.N = Vout4 m ρ c (Pipeline.arrRef spec4 w) :=
  (Wout4_arr m ρ c w).symm
/-- and every other buffer is untouched. -/
theorem hrest4 (c : Dev nD) : ∀ b, b ∉ Finset.univ.image (Pipeline.arrRef spec4) → Vout4 m ρ c b = Vin4 m ρ c b :=
  fun b hb => Wout4_of_ne m ρ c b fun w hw => hb (Finset.mem_image.mpr ⟨w, Finset.mem_univ w, hw⟩)
/-- After the stretch `hostOps5`. -/
abbrev W11 : Dev nD → Valuation τ sig (Elt F) := fun c => StableHlo.after hostOps5 (W10 m ρ c)
/-- `hostOps5` leaves alone every reference it does not write. -/
theorem W11_keeps (c : Dev nD) (r : Ref sig .tc) (h : r ∉ hostOps5_W) :
    W11 m ρ c (Proc.devRef .tc r) = W10 m ρ c (Proc.devRef .tc r) :=
  StableHlo.after_of_writes_sub hostOps5 _ hostOps5_writes h

/-! ### Region 5 and the stretch behind it -/

/-- The pipeline index of region 5. -/
abbrev pix5 : Fin 9 := 5
/-- What core `c` holds when region 5 is entered. -/
abbrev Win5 : Dev nD → Valuation τ sig (Elt F) := W11 m ρ
/-- The entry contents of region 5, read at the TensorCore's own references: the parameter its proof data are taken at. -/
abbrev Vin5 : (c : Dev nD) → (b : Ref sig .tc) → Buf (Elt F) ((c : Thread nD τ).loc b) := fun c b => Win5 m ρ c b
/-- What core `c` holds when region 5 is left: each array of the pipeline at the fold of its write-backs over all
    `cfg5.N` points (an input window's array is then as entered), every buffer that is no array of it as entered. -/
def Wout5 (c : Dev nD) : Valuation τ sig (Elt F) :=
  Pipeline.withArrays spec5 c (Win5 m ρ c) fun w => (dat5 (Vin5 m ρ) c).arrAt w cfg5.N
abbrev W12 : Dev nD → Valuation τ sig (Elt F) := Wout5 m ρ
/-- The exit contents of region 5 at the TensorCore's own references. -/
abbrev Vout5 : (c : Dev nD) → (b : Ref sig .tc) → Buf (Elt F) ((c : Thread nD τ).loc b) := fun c b => Wout5 m ρ c b
/-- At an array of the pipeline the exit contents are the folded write-backs. -/
theorem Wout5_arr (c : Dev nD) (w : Fin cfg5.W) :
    Wout5 m ρ c (Proc.devRef .tc (Pipeline.arrRef spec5 w)) = (dat5 (Vin5 m ρ) c).arrAt w cfg5.N := by
  unfold Wout5
  exact Pipeline.withArrays_arr spec5 launch5.win.arr_inj c _ _ w
/-- Away from the pipeline's arrays the exit contents are the entry contents. -/
theorem Wout5_of_ne (c : Dev nD) (b : Ref sig .tc) (hb : ∀ w, Pipeline.arrRef spec5 w ≠ b) :
    Wout5 m ρ c (Proc.devRef .tc b) = Win5 m ρ c (Proc.devRef .tc b) := by
  unfold Wout5
  exact Pipeline.withArrays_of_ne spec5 c _ _ b hb
/-- The two facts from which the unscoped buffers are put together again at region 5's exit: the arrays hold the
    folded write-backs, -/
theorem hF5 (c : Dev nD) (w : Fin cfg5.W) :
    (dat5 (Vin5 m ρ) c).arrAt w cfg5.N = Vout5 m ρ c (Pipeline.arrRef spec5 w) :=
  (Wout5_arr m ρ c w).symm
/-- and every other buffer is untouched. -/
theorem hrest5 (c : Dev nD) : ∀ b, b ∉ Finset.univ.image (Pipeline.arrRef spec5) → Vout5 m ρ c b = Vin5 m ρ c b :=
  fun b hb => Wout5_of_ne m ρ c b fun w hw => hb (Finset.mem_image.mpr ⟨w, Finset.mem_univ w, hw⟩)
/-- After the stretch `hostOps6`. -/
abbrev W13 : Dev nD → Valuation τ sig (Elt F) := fun c => StableHlo.after hostOps6 (W12 m ρ c)
/-- `hostOps6` leaves alone every reference it does not write. -/
theorem W13_keeps (c : Dev nD) (r : Ref sig .tc) (h : r ∉ hostOps6_W) :
    W13 m ρ c (Proc.devRef .tc r) = W12 m ρ c (Proc.devRef .tc r) :=
  StableHlo.after_of_writes_sub hostOps6 _ hostOps6_writes h

/-! ### Region 6 and the stretch behind it -/

/-- The pipeline index of region 6. -/
abbrev pix6 : Fin 9 := 6
/-- What core `c` holds when region 6 is entered. -/
abbrev Win6 : Dev nD → Valuation τ sig (Elt F) := W13 m ρ
/-- The entry contents of region 6, read at the TensorCore's own references: the parameter its proof data are taken at. -/
abbrev Vin6 : (c : Dev nD) → (b : Ref sig .tc) → Buf (Elt F) ((c : Thread nD τ).loc b) := fun c b => Win6 m ρ c b
/-- What core `c` holds when region 6 is left: each array of the pipeline at the fold of its write-backs over all
    `cfg6.N` points (an input window's array is then as entered), every buffer that is no array of it as entered. -/
def Wout6 (c : Dev nD) : Valuation τ sig (Elt F) :=
  Pipeline.withArrays spec6 c (Win6 m ρ c) fun w => (dat6 (Vin6 m ρ) c).arrAt w cfg6.N
abbrev W14 : Dev nD → Valuation τ sig (Elt F) := Wout6 m ρ
/-- The exit contents of region 6 at the TensorCore's own references. -/
abbrev Vout6 : (c : Dev nD) → (b : Ref sig .tc) → Buf (Elt F) ((c : Thread nD τ).loc b) := fun c b => Wout6 m ρ c b
/-- At an array of the pipeline the exit contents are the folded write-backs. -/
theorem Wout6_arr (c : Dev nD) (w : Fin cfg6.W) :
    Wout6 m ρ c (Proc.devRef .tc (Pipeline.arrRef spec6 w)) = (dat6 (Vin6 m ρ) c).arrAt w cfg6.N := by
  unfold Wout6
  exact Pipeline.withArrays_arr spec6 launch6.win.arr_inj c _ _ w
/-- Away from the pipeline's arrays the exit contents are the entry contents. -/
theorem Wout6_of_ne (c : Dev nD) (b : Ref sig .tc) (hb : ∀ w, Pipeline.arrRef spec6 w ≠ b) :
    Wout6 m ρ c (Proc.devRef .tc b) = Win6 m ρ c (Proc.devRef .tc b) := by
  unfold Wout6
  exact Pipeline.withArrays_of_ne spec6 c _ _ b hb
/-- The two facts from which the unscoped buffers are put together again at region 6's exit: the arrays hold the
    folded write-backs, -/
theorem hF6 (c : Dev nD) (w : Fin cfg6.W) :
    (dat6 (Vin6 m ρ) c).arrAt w cfg6.N = Vout6 m ρ c (Pipeline.arrRef spec6 w) :=
  (Wout6_arr m ρ c w).symm
/-- and every other buffer is untouched. -/
theorem hrest6 (c : Dev nD) : ∀ b, b ∉ Finset.univ.image (Pipeline.arrRef spec6) → Vout6 m ρ c b = Vin6 m ρ c b :=
  fun b hb => Wout6_of_ne m ρ c b fun w hw => hb (Finset.mem_image.mpr ⟨w, Finset.mem_univ w, hw⟩)
/-- After the stretch `hostOps7`. -/
abbrev W15 : Dev nD → Valuation τ sig (Elt F) := fun c => StableHlo.after hostOps7 (W14 m ρ c)
/-- `hostOps7` leaves alone every reference it does not write. -/
theorem W15_keeps (c : Dev nD) (r : Ref sig .tc) (h : r ∉ hostOps7_W) :
    W15 m ρ c (Proc.devRef .tc r) = W14 m ρ c (Proc.devRef .tc r) :=
  StableHlo.after_of_writes_sub hostOps7 _ hostOps7_writes h

/-! ### Region 7 and the stretch behind it -/

/-- The pipeline index of region 7. -/
abbrev pix7 : Fin 9 := 7
/-- What core `c` holds when region 7 is entered. -/
abbrev Win7 : Dev nD → Valuation τ sig (Elt F) := W15 m ρ
/-- The entry contents of region 7, read at the TensorCore's own references: the parameter its proof data are taken at. -/
abbrev Vin7 : (c : Dev nD) → (b : Ref sig .tc) → Buf (Elt F) ((c : Thread nD τ).loc b) := fun c b => Win7 m ρ c b
/-- What core `c` holds when region 7 is left: each array of the pipeline at the fold of its write-backs over all
    `cfg7.N` points (an input window's array is then as entered), every buffer that is no array of it as entered. -/
def Wout7 (c : Dev nD) : Valuation τ sig (Elt F) :=
  Pipeline.withArrays spec7 c (Win7 m ρ c) fun w => (dat7 (Vin7 m ρ) c).arrAt w cfg7.N
abbrev W16 : Dev nD → Valuation τ sig (Elt F) := Wout7 m ρ
/-- The exit contents of region 7 at the TensorCore's own references. -/
abbrev Vout7 : (c : Dev nD) → (b : Ref sig .tc) → Buf (Elt F) ((c : Thread nD τ).loc b) := fun c b => Wout7 m ρ c b
/-- At an array of the pipeline the exit contents are the folded write-backs. -/
theorem Wout7_arr (c : Dev nD) (w : Fin cfg7.W) :
    Wout7 m ρ c (Proc.devRef .tc (Pipeline.arrRef spec7 w)) = (dat7 (Vin7 m ρ) c).arrAt w cfg7.N := by
  unfold Wout7
  exact Pipeline.withArrays_arr spec7 launch7.win.arr_inj c _ _ w
/-- Away from the pipeline's arrays the exit contents are the entry contents. -/
theorem Wout7_of_ne (c : Dev nD) (b : Ref sig .tc) (hb : ∀ w, Pipeline.arrRef spec7 w ≠ b) :
    Wout7 m ρ c (Proc.devRef .tc b) = Win7 m ρ c (Proc.devRef .tc b) := by
  unfold Wout7
  exact Pipeline.withArrays_of_ne spec7 c _ _ b hb
/-- The two facts from which the unscoped buffers are put together again at region 7's exit: the arrays hold the
    folded write-backs, -/
theorem hF7 (c : Dev nD) (w : Fin cfg7.W) :
    (dat7 (Vin7 m ρ) c).arrAt w cfg7.N = Vout7 m ρ c (Pipeline.arrRef spec7 w) :=
  (Wout7_arr m ρ c w).symm
/-- and every other buffer is untouched. -/
theorem hrest7 (c : Dev nD) : ∀ b, b ∉ Finset.univ.image (Pipeline.arrRef spec7) → Vout7 m ρ c b = Vin7 m ρ c b :=
  fun b hb => Wout7_of_ne m ρ c b fun w hw => hb (Finset.mem_image.mpr ⟨w, Finset.mem_univ w, hw⟩)
/-- After the stretch `hostOps8`. -/
abbrev W17 : Dev nD → Valuation τ sig (Elt F) := fun c => StableHlo.after hostOps8 (W16 m ρ c)
/-- `hostOps8` leaves alone every reference it does not write. -/
theorem W17_keeps (c : Dev nD) (r : Ref sig .tc) (h : r ∉ hostOps8_W) :
    W17 m ρ c (Proc.devRef .tc r) = W16 m ρ c (Proc.devRef .tc r) :=
  StableHlo.after_of_writes_sub hostOps8 _ hostOps8_writes h

/-! ### Region 8 and the stretch behind it -/

/-- The pipeline index of region 8. -/
abbrev pix8 : Fin 9 := 8
/-- What core `c` holds when region 8 is entered. -/
abbrev Win8 : Dev nD → Valuation τ sig (Elt F) := W17 m ρ
/-- The entry contents of region 8, read at the TensorCore's own references: the parameter its proof data are taken at. -/
abbrev Vin8 : (c : Dev nD) → (b : Ref sig .tc) → Buf (Elt F) ((c : Thread nD τ).loc b) := fun c b => Win8 m ρ c b
/-- What core `c` holds when region 8 is left: each array of the pipeline at the fold of its write-backs over all
    `cfg8.N` points (an input window's array is then as entered), every buffer that is no array of it as entered. -/
def Wout8 (c : Dev nD) : Valuation τ sig (Elt F) :=
  Pipeline.withArrays spec8 c (Win8 m ρ c) fun w => (dat8 (Vin8 m ρ) c).arrAt w cfg8.N
abbrev W18 : Dev nD → Valuation τ sig (Elt F) := Wout8 m ρ
/-- The exit contents of region 8 at the TensorCore's own references. -/
abbrev Vout8 : (c : Dev nD) → (b : Ref sig .tc) → Buf (Elt F) ((c : Thread nD τ).loc b) := fun c b => Wout8 m ρ c b
/-- At an array of the pipeline the exit contents are the folded write-backs. -/
theorem Wout8_arr (c : Dev nD) (w : Fin cfg8.W) :
    Wout8 m ρ c (Proc.devRef .tc (Pipeline.arrRef spec8 w)) = (dat8 (Vin8 m ρ) c).arrAt w cfg8.N := by
  unfold Wout8
  exact Pipeline.withArrays_arr spec8 launch8.win.arr_inj c _ _ w
/-- Away from the pipeline's arrays the exit contents are the entry contents. -/
theorem Wout8_of_ne (c : Dev nD) (b : Ref sig .tc) (hb : ∀ w, Pipeline.arrRef spec8 w ≠ b) :
    Wout8 m ρ c (Proc.devRef .tc b) = Win8 m ρ c (Proc.devRef .tc b) := by
  unfold Wout8
  exact Pipeline.withArrays_of_ne spec8 c _ _ b hb
/-- The two facts from which the unscoped buffers are put together again at region 8's exit: the arrays hold the
    folded write-backs, -/
theorem hF8 (c : Dev nD) (w : Fin cfg8.W) :
    (dat8 (Vin8 m ρ) c).arrAt w cfg8.N = Vout8 m ρ c (Pipeline.arrRef spec8 w) :=
  (Wout8_arr m ρ c w).symm
/-- and every other buffer is untouched. -/
theorem hrest8 (c : Dev nD) : ∀ b, b ∉ Finset.univ.image (Pipeline.arrRef spec8) → Vout8 m ρ c b = Vin8 m ρ c b :=
  fun b hb => Wout8_of_ne m ρ c b fun w hw => hb (Finset.mem_image.mpr ⟨w, Finset.mem_univ w, hw⟩)
/-- After the stretch `hostOps9`. -/
abbrev W19 : Dev nD → Valuation τ sig (Elt F) := fun c => StableHlo.after hostOps9 (W18 m ρ c)
/-- `hostOps9` leaves alone every reference it does not write. -/
theorem W19_keeps (c : Dev nD) (r : Ref sig .tc) (h : r ∉ hostOps9_W) :
    W19 m ρ c (Proc.devRef .tc r) = W18 m ρ c (Proc.devRef .tc r) :=
  StableHlo.after_of_writes_sub hostOps9 _ hostOps9_writes h

/-! ## A reference nothing touches is read back through the fold -/

/-- A reference that no stretch from `hostOps1` on writes and that is an array of none of the regions 1 … 8 holds at
    the end what it held when region 0 was left. -/
theorem W19_eq_W2 (c : Dev nD) (r : Ref sig .tc)
    (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) (h6 : r ∉ hostOps6_W) (a6 : ∀ w, Pipeline.arrRef spec6 w ≠ r) (h7 : r ∉ hostOps7_W) (a7 : ∀ w, Pipeline.arrRef spec7 w ≠ r) (h8 : r ∉ hostOps8_W) (a8 : ∀ w, Pipeline.arrRef spec8 w ≠ r) (h9 : r ∉ hostOps9_W) :
    W19 m ρ c (Proc.devRef .tc r) = W2 m ρ c (Proc.devRef .tc r) :=
  (W19_keeps m ρ c r h9).trans <|
    (Wout8_of_ne m ρ c r a8).trans <|
    (W17_keeps m ρ c r h8).trans <|
    (Wout7_of_ne m ρ c r a7).trans <|
    (W15_keeps m ρ c r h7).trans <|
    (Wout6_of_ne m ρ c r a6).trans <|
    (W13_keeps m ρ c r h6).trans <|
    (Wout5_of_ne m ρ c r a5).trans <|
    (W11_keeps m ρ c r h5).trans <|
    (Wout4_of_ne m ρ c r a4).trans <|
    (W9_keeps m ρ c r h4).trans <|
    (Wout3_of_ne m ρ c r a3).trans <|
    (W7_keeps m ρ c r h3).trans <|
    (Wout2_of_ne m ρ c r a2).trans <|
    (W5_keeps m ρ c r h2).trans <|
    (Wout1_of_ne m ρ c r a1).trans <|
    W3_keeps m ρ c r h1

/-- A reference `hostOps0` does not write and that is no array of region 0 holds at region 0's exit its launch contents. -/
theorem W2_eq_W0 (c : Dev nD) (r : Ref sig .tc) (h0 : r ∉ hostOps0_W) (a0 : ∀ w, Pipeline.arrRef spec0 w ≠ r) :
    W2 m ρ c (Proc.devRef .tc r) = W0 m ρ c (Proc.devRef .tc r) :=
  (Wout0_of_ne m ρ c r a0).trans (W1_keeps m ρ c r h0)

/-! ## The arguments end as launched

No stretch writes an argument and no region has one among its output arrays. `main_arg0` is the array of region 0's
first window, an input: the fold of that window's write-backs is the array as entered. The other arguments are arrays
of no pipeline at all. -/

theorem W19_main_arg0 (c : Dev nD) : W19 m ρ c (Proc.devRef .tc main_arg0) = m ((c : Thread nD τ).loc main_arg0) :=
  calc W19 m ρ c (Proc.devRef .tc main_arg0)
    _ = W2 m ρ c (Proc.devRef .tc main_arg0) := W19_eq_W2 m ρ c main_arg0 (by decide) (by decide) (by decide) (by decide) (by decide) (by decide) (by decide) (by decide) (by decide) (by decide) (by decide) (by decide) (by decide) (by decide) (by decide) (by decide) (by decide)
    _ = (dat0 (Vin0 m ρ) c).arrAt 0 cfg0.N := Wout0_arr m ρ c 0
    _ = (dat0 (Vin0 m ρ) c).A 0 := (dat0 (Vin0 m ρ) c).arrAt_in 0 rfl _
    _ = W1 m ρ c (Proc.devRef .tc main_arg0) := A_eq0 (Vin0 m ρ) c 0
    _ = W0 m ρ c (Proc.devRef .tc main_arg0) := W1_keeps m ρ c main_arg0 (by decide)
    _ = m ((c : Thread nD τ).loc main_arg0) := rfl

theorem W19_main_arg1 (c : Dev nD) : W19 m ρ c (Proc.devRef .tc main_arg1) = m ((c : Thread nD τ).loc main_arg1) :=
  (W19_eq_W2 m ρ c main_arg1 (by decide) (by decide) (by decide) (by decide) (by decide) (by decide) (by decide) (by decide) (by decide) (by decide) (by decide) (by decide) (by decide) (by decide) (by decide) (by decide) (by decide)).trans
    ((W2_eq_W0 m ρ c main_arg1 (by decide) (by decide)).trans rfl)

theorem W19_main_arg2 (c : Dev nD) : W19 m ρ c (Proc.devRef .tc main_arg2) = m ((c : Thread nD τ).loc main_arg2) :=
  (W19_eq_W2 m ρ c main_arg2 (by decide) (by decide) (by decide) (by decide) (by decide) (by decide) (by decide) (by decide) (by decide) (by decide) (by decide) (by decide) (by decide) (by decide) (by decide) (by decide) (by decide)).trans
    ((W2_eq_W0 m ρ c main_arg2 (by decide) (by decide)).trans rfl)

theorem W19_main_arg3 (c : Dev nD) : W19 m ρ c (Proc.devRef .tc main_arg3) = m ((c : Thread nD τ).loc main_arg3) :=
  (W19_eq_W2 m ρ c main_arg3 (by decide) (by decide) (by decide) (by decide) (by decide) (by decide) (by decide) (by decide) (by decide) (by decide) (by decide) (by decide) (by decide) (by decide) (by decide) (by decide) (by decide)).trans
    ((W2_eq_W0 m ρ c main_arg3 (by decide) (by decide)).trans rfl)

theorem W19_main_arg4 (c : Dev nD) : W19 m ρ c (Proc.devRef .tc main_arg4) = m ((c : Thread nD τ).loc main_arg4) :=
  (W19_eq_W2 m ρ c main_arg4 (by decide) (by decide) (by decide) (by decide) (by decide) (by decide) (by decide) (by decide) (by decide) (by decide) (by decide) (by decide) (by decide) (by decide) (by decide) (by decide) (by decide)).trans
    ((W2_eq_W0 m ρ c main_arg4 (by decide) (by decide)).trans rfl)

theorem W19_main_arg5 (c : Dev nD) : W19 m ρ c (Proc.devRef .tc main_arg5) = m ((c : Thread nD τ).loc main_arg5) :=
  (W19_eq_W2 m ρ c main_arg5 (by decide) (by decide) (by decide) (by decide) (by decide) (by decide) (by decide) (by decide) (by decide) (by decide) (by decide) (by decide) (by decide) (by decide) (by decide) (by decide) (by decide)).trans
    ((W2_eq_W0 m ρ c main_arg5 (by decide) (by decide)).trans rfl)

theorem W19_main_arg6 (c : Dev nD) : W19 m ρ c (Proc.devRef .tc main_arg6) = m ((c : Thread nD τ).loc main_arg6) :=
  (W19_eq_W2 m ρ c main_arg6 (by decide) (by decide) (by decide) (by decide) (by decide) (by decide) (by decide) (by decide) (by decide) (by decide) (by decide) (by decide) (by decide) (by decide) (by decide) (by decide) (by decide)).trans
    ((W2_eq_W0 m ρ c main_arg6 (by decide) (by decide)).trans rfl)

theorem W19_main_arg7 (c : Dev nD) : W19 m ρ c (Proc.devRef .tc main_arg7) = m ((c : Thread nD τ).loc main_arg7) :=
  (W19_eq_W2 m ρ c main_arg7 (by decide) (by decide) (by decide) (by decide) (by decide) (by decide) (by decide) (by decide) (by decide) (by decide) (by decide) (by decide) (by decide) (by decide) (by decide) (by decide) (by decide)).trans
    ((W2_eq_W0 m ρ c main_arg7 (by decide) (by decide)).trans rfl)

theorem W19_main_arg8 (c : Dev nD) : W19 m ρ c (Proc.devRef .tc main_arg8) = m ((c : Thread nD τ).loc main_arg8) :=
  (W19_eq_W2 m ρ c main_arg8 (by decide) (by decide) (by decide) (by decide) (by decide) (by decide) (by decide) (by decide) (by decide) (by decide) (by decide) (by decide) (by decide) (by decide) (by decide) (by decide) (by decide)).trans
    ((W2_eq_W0 m ρ c main_arg8 (by decide) (by decide)).trans rfl)

theorem W19_main_arg9 (c : Dev nD) : W19 m ρ c (Proc.devRef .tc main_arg9) = m ((c : Thread nD τ).loc main_arg9) :=
  (W19_eq_W2 m ρ c main_arg9 (by decide) (by decide) (by decide) (by decide) (by decide) (by decide) (by decide) (by decide) (by decide) (by decide) (by decide) (by decide) (by decide) (by decide) (by decide) (by decide) (by decide)).trans
    ((W2_eq_W0 m ρ c main_arg9 (by decide) (by decide)).trans rfl)

theorem W19_main_arg10 (c : Dev nD) : W19 m ρ c (Proc.devRef .tc main_arg10) = m ((c : Thread nD τ).loc main_arg10) :=
  (W19_eq_W2 m ρ c main_arg10 (by decide) (by decide) (by decide) (by decide) (by decide) (by decide) (by decide) (by decide) (by decide) (by decide) (by decide) (by decide) (by decide) (by decide) (by decide) (by decide) (by decide)).trans
    ((W2_eq_W0 m ρ c main_arg10 (by decide) (by decide)).trans rfl)

/-! ## The proof data of the nine pipelines and the thread state -/

/-- Every pipeline's proof data, each at its region's entry contents. Written as a match on the literal index, so that
    the data of pipeline `pixK` reduce to `datK` at `VinK`. -/
def pdats : (p : Fin 9) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c

/-- No variant is in play. -/
abbrev 𝒱₀ : Variants := Variants.none
/-- No core owes another anything, so no pair carries a level. -/
abbrev L : GSem nD τ sig → Finset Unit := fun _ => ∅
abbrev lv : GSem nD τ sig → Unit → ℕ := fun _ _ => 0
/-- What accompanies the buffers across every item: the core's generator register at some state and its dues, which
    are none. -/
abbrev R (c : Dev nD) : sProp 𝕄 :=
  iprop((∃ r, prngReg c r) ∗ ∃ W, owes (c : Thread nD τ) (0 : CellTallies nD τ sig Unit) W)

/-- A stretch of host operations as a segment over all unscoped buffers from the valuation `W`: it ends with those
    buffers at `StableHlo.after ops (W c)`, `R` unchanged beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W R

/-- A TensorCore reference that is not scoped is one of the buffers the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.KernelIdeal.Gen

end
-- ==== Proof.KernelIdeal.Seg0.lean ====
import proofs.«428437_j36421322670670_1_alg».proof.Proof.KernelIdeal.Fold
import Idealize.ShloMosaic.Lib.Pipeline.Regions
import Idealize.ShloMosaic.Lib.Pipeline.RegionsLoop

/-! # Region 0 as a segment of the run

Kernel region 0 of @main (the regions are numbered from zero in program order), entered from the unscoped buffers at
`Win0` and left with them at `Wout0`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 0 between its two thread states. On entry the unscoped buffers, held at `Win0`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout0`. -/
def reg0 : Pipeline.RegionSeg (pcfgs (F := F)) adm (pdats m ρ) () defs₀ 𝒱₀ L lv pix0 where
  win := launch0.win.to₀
  block_pos := launch0.block_pos
  stage_whole := launch0.stage_whole
  K := PEmpty
  osem := fun k => k.elim
  ho := Pipeline.OwnSemFacts.none _
  hbody := fun c => (body_obligation0 (Vin0 m ρ) c).loose
  hwaits := Pipeline.hwaits_of_owed_zero _ _ _ _ L lv pix0 fun _ _ => rfl
  pre := fun c => iprop(StableHlo.held (c : Thread nD τ) (Pipeline.ucRefs τ sig) (Win0 m ρ c) ∗ R c)
  post := fun c => iprop(StableHlo.held (c : Thread nD τ) (Pipeline.ucRefs τ sig) (Wout0 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec0 c (Vin0 m ρ c)
  hentry := fun c => by
    have hparts := Pipeline.arrays_of_unscopedBufs (p := pix0) (pcfgs (F := F)) adm (pdats m ρ) launch0.win
      launch0.arr_whole c ((pdats m ρ pix0 c).share_full fun _ => rfl) (Vin0 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix0 c).Φ 0 = Pipeline.ΦA spec0 c from rfl]
    unfold Pipeline.ΦA
    iintro ⟨Hreg, -, Hscoped⟩
    isplitl [Hscoped]
    · iexact Hscoped
    iexact Hreg
  hout := fun c => by
    rw [Pipeline.ownSems0_none, show (pdats m ρ pix0 c).Φ (Fin.last _) = Pipeline.ΦA spec0 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix0) (pcfgs (F := F)) adm (Ix := Unit) (Name := ℕ)
      (U := UR sig nD τ) (Lvl := ℕ) launch0.win launch0.arr_whole c (pdats m ρ)
      ((pdats m ρ pix0 c).share_full fun _ => rfl) (Vin0 m ρ c) (Vout0 m ρ c)
      ((pdats m ρ pix0 c).arrAt · cfg0.N) (hF0 m ρ c) (hrest0 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg1.lean ====
import proofs.«428437_j36421322670670_1_alg».proof.Proof.KernelIdeal.Fold
import Idealize.ShloMosaic.Lib.Pipeline.Regions
import Idealize.ShloMosaic.Lib.Pipeline.RegionsLoop

/-! # Region 1 as a segment of the run

Kernel region 1 of @main (the regions are numbered from zero in program order), entered from the unscoped buffers at
`Win1` and left with them at `Wout1`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 1 between its two thread states. On entry the unscoped buffers, held at `Win1`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout1`. -/
def reg1 : Pipeline.RegionSeg (pcfgs (F := F)) adm (pdats m ρ) () defs₀ 𝒱₀ L lv pix1 where
  win := launch1.win.to₀
  block_pos := launch1.block_pos
  stage_whole := launch1.stage_whole
  K := PEmpty
  osem := fun k => k.elim
  ho := Pipeline.OwnSemFacts.none _
  hbody := fun c => (body_obligation1 (Vin1 m ρ) c).loose
  hwaits := Pipeline.hwaits_of_owed_zero _ _ _ _ L lv pix1 fun _ _ => rfl
  pre := fun c => iprop(StableHlo.held (c : Thread nD τ) (Pipeline.ucRefs τ sig) (Win1 m ρ c) ∗ R c)
  post := fun c => iprop(StableHlo.held (c : Thread nD τ) (Pipeline.ucRefs τ sig) (Wout1 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec1 c (Vin1 m ρ c)
  hentry := fun c => by
    have hparts := Pipeline.arrays_of_unscopedBufs (p := pix1) (pcfgs (F := F)) adm (pdats m ρ) launch1.win
      launch1.arr_whole c ((pdats m ρ pix1 c).share_full fun _ => rfl) (Vin1 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix1 c).Φ 0 = Pipeline.ΦA spec1 c from rfl]
    unfold Pipeline.ΦA
    iintro ⟨Hreg, -, Hscoped⟩
    isplitl [Hscoped]
    · iexact Hscoped
    iexact Hreg
  hout := fun c => by
    rw [Pipeline.ownSems0_none, show (pdats m ρ pix1 c).Φ (Fin.last _) = Pipeline.ΦA spec1 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix1) (pcfgs (F := F)) adm (Ix := Unit) (Name := ℕ)
      (U := UR sig nD τ) (Lvl := ℕ) launch1.win launch1.arr_whole c (pdats m ρ)
      ((pdats m ρ pix1 c).share_full fun _ => rfl) (Vin1 m ρ c) (Vout1 m ρ c)
      ((pdats m ρ pix1 c).arrAt · cfg1.N) (hF1 m ρ c) (hrest1 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg2.lean ====
import proofs.«428437_j36421322670670_1_alg».proof.Proof.KernelIdeal.Fold
import Idealize.ShloMosaic.Lib.Pipeline.Regions
import Idealize.ShloMosaic.Lib.Pipeline.RegionsLoop

/-! # Region 2 as a segment of the run

Kernel region 2 of @main (the regions are numbered from zero in program order), entered from the unscoped buffers at
`Win2` and left with them at `Wout2`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 2 between its two thread states. On entry the unscoped buffers, held at `Win2`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout2`. -/
def reg2 : Pipeline.RegionSeg (pcfgs (F := F)) adm (pdats m ρ) () defs₀ 𝒱₀ L lv pix2 where
  win := launch2.win.to₀
  block_pos := launch2.block_pos
  stage_whole := launch2.stage_whole
  K := PEmpty
  osem := fun k => k.elim
  ho := Pipeline.OwnSemFacts.none _
  hbody := fun c => (body_obligation2 (Vin2 m ρ) c).loose
  hwaits := Pipeline.hwaits_of_owed_zero _ _ _ _ L lv pix2 fun _ _ => rfl
  pre := fun c => iprop(StableHlo.held (c : Thread nD τ) (Pipeline.ucRefs τ sig) (Win2 m ρ c) ∗ R c)
  post := fun c => iprop(StableHlo.held (c : Thread nD τ) (Pipeline.ucRefs τ sig) (Wout2 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec2 c (Vin2 m ρ c)
  hentry := fun c => by
    have hparts := Pipeline.arrays_of_unscopedBufs (p := pix2) (pcfgs (F := F)) adm (pdats m ρ) launch2.win
      launch2.arr_whole c ((pdats m ρ pix2 c).share_full fun _ => rfl) (Vin2 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix2 c).Φ 0 = Pipeline.ΦA spec2 c from rfl]
    unfold Pipeline.ΦA
    iintro ⟨Hreg, -, Hscoped⟩
    isplitl [Hscoped]
    · iexact Hscoped
    iexact Hreg
  hout := fun c => by
    rw [Pipeline.ownSems0_none, show (pdats m ρ pix2 c).Φ (Fin.last _) = Pipeline.ΦA spec2 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix2) (pcfgs (F := F)) adm (Ix := Unit) (Name := ℕ)
      (U := UR sig nD τ) (Lvl := ℕ) launch2.win launch2.arr_whole c (pdats m ρ)
      ((pdats m ρ pix2 c).share_full fun _ => rfl) (Vin2 m ρ c) (Vout2 m ρ c)
      ((pdats m ρ pix2 c).arrAt · cfg2.N) (hF2 m ρ c) (hrest2 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg3.lean ====
import proofs.«428437_j36421322670670_1_alg».proof.Proof.KernelIdeal.Fold
import Idealize.ShloMosaic.Lib.Pipeline.Regions
import Idealize.ShloMosaic.Lib.Pipeline.RegionsLoop

/-! # Region 3 as a segment of the run

Kernel region 3 of @main (the regions are numbered from zero in program order), entered from the unscoped buffers at
`Win3` and left with them at `Wout3`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 3 between its two thread states. On entry the unscoped buffers, held at `Win3`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout3`. -/
def reg3 : Pipeline.RegionSeg (pcfgs (F := F)) adm (pdats m ρ) () defs₀ 𝒱₀ L lv pix3 where
  win := launch3.win.to₀
  block_pos := launch3.block_pos
  stage_whole := launch3.stage_whole
  K := PEmpty
  osem := fun k => k.elim
  ho := Pipeline.OwnSemFacts.none _
  hbody := fun c => (body_obligation3 (Vin3 m ρ) c).loose
  hwaits := Pipeline.hwaits_of_owed_zero _ _ _ _ L lv pix3 fun _ _ => rfl
  pre := fun c => iprop(StableHlo.held (c : Thread nD τ) (Pipeline.ucRefs τ sig) (Win3 m ρ c) ∗ R c)
  post := fun c => iprop(StableHlo.held (c : Thread nD τ) (Pipeline.ucRefs τ sig) (Wout3 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec3 c (Vin3 m ρ c)
  hentry := fun c => by
    have hparts := Pipeline.arrays_of_unscopedBufs (p := pix3) (pcfgs (F := F)) adm (pdats m ρ) launch3.win
      launch3.arr_whole c ((pdats m ρ pix3 c).share_full fun _ => rfl) (Vin3 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix3 c).Φ 0 = Pipeline.ΦA spec3 c from rfl]
    unfold Pipeline.ΦA
    iintro ⟨Hreg, -, Hscoped⟩
    isplitl [Hscoped]
    · iexact Hscoped
    iexact Hreg
  hout := fun c => by
    rw [Pipeline.ownSems0_none, show (pdats m ρ pix3 c).Φ (Fin.last _) = Pipeline.ΦA spec3 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix3) (pcfgs (F := F)) adm (Ix := Unit) (Name := ℕ)
      (U := UR sig nD τ) (Lvl := ℕ) launch3.win launch3.arr_whole c (pdats m ρ)
      ((pdats m ρ pix3 c).share_full fun _ => rfl) (Vin3 m ρ c) (Vout3 m ρ c)
      ((pdats m ρ pix3 c).arrAt · cfg3.N) (hF3 m ρ c) (hrest3 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg4.lean ====
import proofs.«428437_j36421322670670_1_alg».proof.Proof.KernelIdeal.Fold
import Idealize.ShloMosaic.Lib.Pipeline.Regions
import Idealize.ShloMosaic.Lib.Pipeline.RegionsLoop

/-! # Region 4 as a segment of the run

Kernel region 4 of @main (the regions are numbered from zero in program order), entered from the unscoped buffers at
`Win4` and left with them at `Wout4`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 4 between its two thread states. On entry the unscoped buffers, held at `Win4`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout4`. -/
def reg4 : Pipeline.RegionSeg (pcfgs (F := F)) adm (pdats m ρ) () defs₀ 𝒱₀ L lv pix4 where
  win := launch4.win.to₀
  block_pos := launch4.block_pos
  stage_whole := launch4.stage_whole
  K := PEmpty
  osem := fun k => k.elim
  ho := Pipeline.OwnSemFacts.none _
  hbody := fun c => (body_obligation4 (Vin4 m ρ) c).loose
  hwaits := Pipeline.hwaits_of_owed_zero _ _ _ _ L lv pix4 fun _ _ => rfl
  pre := fun c => iprop(StableHlo.held (c : Thread nD τ) (Pipeline.ucRefs τ sig) (Win4 m ρ c) ∗ R c)
  post := fun c => iprop(StableHlo.held (c : Thread nD τ) (Pipeline.ucRefs τ sig) (Wout4 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec4 c (Vin4 m ρ c)
  hentry := fun c => by
    have hparts := Pipeline.arrays_of_unscopedBufs (p := pix4) (pcfgs (F := F)) adm (pdats m ρ) launch4.win
      launch4.arr_whole c ((pdats m ρ pix4 c).share_full fun _ => rfl) (Vin4 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix4 c).Φ 0 = Pipeline.ΦA spec4 c from rfl]
    unfold Pipeline.ΦA
    iintro ⟨Hreg, -, Hscoped⟩
    isplitl [Hscoped]
    · iexact Hscoped
    iexact Hreg
  hout := fun c => by
    rw [Pipeline.ownSems0_none, show (pdats m ρ pix4 c).Φ (Fin.last _) = Pipeline.ΦA spec4 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix4) (pcfgs (F := F)) adm (Ix := Unit) (Name := ℕ)
      (U := UR sig nD τ) (Lvl := ℕ) launch4.win launch4.arr_whole c (pdats m ρ)
      ((pdats m ρ pix4 c).share_full fun _ => rfl) (Vin4 m ρ c) (Vout4 m ρ c)
      ((pdats m ρ pix4 c).arrAt · cfg4.N) (hF4 m ρ c) (hrest4 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg5.lean ====
import proofs.«428437_j36421322670670_1_alg».proof.Proof.KernelIdeal.Fold
import Idealize.ShloMosaic.Lib.Pipeline.Regions
import Idealize.ShloMosaic.Lib.Pipeline.RegionsLoop

/-! # Region 5 as a segment of the run

Kernel region 5 of @main (the regions are numbered from zero in program order), entered from the unscoped buffers at
`Win5` and left with them at `Wout5`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 5 between its two thread states. On entry the unscoped buffers, held at `Win5`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout5`. -/
def reg5 : Pipeline.RegionSeg (pcfgs (F := F)) adm (pdats m ρ) () defs₀ 𝒱₀ L lv pix5 where
  win := launch5.win.to₀
  block_pos := launch5.block_pos
  stage_whole := launch5.stage_whole
  K := PEmpty
  osem := fun k => k.elim
  ho := Pipeline.OwnSemFacts.none _
  hbody := fun c => (body_obligation5 (Vin5 m ρ) c).loose
  hwaits := Pipeline.hwaits_of_owed_zero _ _ _ _ L lv pix5 fun _ _ => rfl
  pre := fun c => iprop(StableHlo.held (c : Thread nD τ) (Pipeline.ucRefs τ sig) (Win5 m ρ c) ∗ R c)
  post := fun c => iprop(StableHlo.held (c : Thread nD τ) (Pipeline.ucRefs τ sig) (Wout5 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec5 c (Vin5 m ρ c)
  hentry := fun c => by
    have hparts := Pipeline.arrays_of_unscopedBufs (p := pix5) (pcfgs (F := F)) adm (pdats m ρ) launch5.win
      launch5.arr_whole c ((pdats m ρ pix5 c).share_full fun _ => rfl) (Vin5 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix5 c).Φ 0 = Pipeline.ΦA spec5 c from rfl]
    unfold Pipeline.ΦA
    iintro ⟨Hreg, -, Hscoped⟩
    isplitl [Hscoped]
    · iexact Hscoped
    iexact Hreg
  hout := fun c => by
    rw [Pipeline.ownSems0_none, show (pdats m ρ pix5 c).Φ (Fin.last _) = Pipeline.ΦA spec5 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix5) (pcfgs (F := F)) adm (Ix := Unit) (Name := ℕ)
      (U := UR sig nD τ) (Lvl := ℕ) launch5.win launch5.arr_whole c (pdats m ρ)
      ((pdats m ρ pix5 c).share_full fun _ => rfl) (Vin5 m ρ c) (Vout5 m ρ c)
      ((pdats m ρ pix5 c).arrAt · cfg5.N) (hF5 m ρ c) (hrest5 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg6.lean ====
import proofs.«428437_j36421322670670_1_alg».proof.Proof.KernelIdeal.Fold
import Idealize.ShloMosaic.Lib.Pipeline.Regions
import Idealize.ShloMosaic.Lib.Pipeline.RegionsLoop

/-! # Region 6 as a segment of the run

Kernel region 6 of @main (the regions are numbered from zero in program order), entered from the unscoped buffers at
`Win6` and left with them at `Wout6`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 6 between its two thread states. On entry the unscoped buffers, held at `Win6`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout6`. -/
def reg6 : Pipeline.RegionSeg (pcfgs (F := F)) adm (pdats m ρ) () defs₀ 𝒱₀ L lv pix6 where
  win := launch6.win.to₀
  block_pos := launch6.block_pos
  stage_whole := launch6.stage_whole
  K := PEmpty
  osem := fun k => k.elim
  ho := Pipeline.OwnSemFacts.none _
  hbody := fun c => (body_obligation6 (Vin6 m ρ) c).loose
  hwaits := Pipeline.hwaits_of_owed_zero _ _ _ _ L lv pix6 fun _ _ => rfl
  pre := fun c => iprop(StableHlo.held (c : Thread nD τ) (Pipeline.ucRefs τ sig) (Win6 m ρ c) ∗ R c)
  post := fun c => iprop(StableHlo.held (c : Thread nD τ) (Pipeline.ucRefs τ sig) (Wout6 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec6 c (Vin6 m ρ c)
  hentry := fun c => by
    have hparts := Pipeline.arrays_of_unscopedBufs (p := pix6) (pcfgs (F := F)) adm (pdats m ρ) launch6.win
      launch6.arr_whole c ((pdats m ρ pix6 c).share_full fun _ => rfl) (Vin6 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix6 c).Φ 0 = Pipeline.ΦA spec6 c from rfl]
    unfold Pipeline.ΦA
    iintro ⟨Hreg, -, Hscoped⟩
    isplitl [Hscoped]
    · iexact Hscoped
    iexact Hreg
  hout := fun c => by
    rw [Pipeline.ownSems0_none, show (pdats m ρ pix6 c).Φ (Fin.last _) = Pipeline.ΦA spec6 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix6) (pcfgs (F := F)) adm (Ix := Unit) (Name := ℕ)
      (U := UR sig nD τ) (Lvl := ℕ) launch6.win launch6.arr_whole c (pdats m ρ)
      ((pdats m ρ pix6 c).share_full fun _ => rfl) (Vin6 m ρ c) (Vout6 m ρ c)
      ((pdats m ρ pix6 c).arrAt · cfg6.N) (hF6 m ρ c) (hrest6 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg7.lean ====
import proofs.«428437_j36421322670670_1_alg».proof.Proof.KernelIdeal.Fold
import Idealize.ShloMosaic.Lib.Pipeline.Regions
import Idealize.ShloMosaic.Lib.Pipeline.RegionsLoop

/-! # Region 7 as a segment of the run

Kernel region 7 of @main (the regions are numbered from zero in program order), entered from the unscoped buffers at
`Win7` and left with them at `Wout7`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 7 between its two thread states. On entry the unscoped buffers, held at `Win7`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout7`. -/
def reg7 : Pipeline.RegionSeg (pcfgs (F := F)) adm (pdats m ρ) () defs₀ 𝒱₀ L lv pix7 where
  win := launch7.win.to₀
  block_pos := launch7.block_pos
  stage_whole := launch7.stage_whole
  K := PEmpty
  osem := fun k => k.elim
  ho := Pipeline.OwnSemFacts.none _
  hbody := fun c => (body_obligation7 (Vin7 m ρ) c).loose
  hwaits := Pipeline.hwaits_of_owed_zero _ _ _ _ L lv pix7 fun _ _ => rfl
  pre := fun c => iprop(StableHlo.held (c : Thread nD τ) (Pipeline.ucRefs τ sig) (Win7 m ρ c) ∗ R c)
  post := fun c => iprop(StableHlo.held (c : Thread nD τ) (Pipeline.ucRefs τ sig) (Wout7 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec7 c (Vin7 m ρ c)
  hentry := fun c => by
    have hparts := Pipeline.arrays_of_unscopedBufs (p := pix7) (pcfgs (F := F)) adm (pdats m ρ) launch7.win
      launch7.arr_whole c ((pdats m ρ pix7 c).share_full fun _ => rfl) (Vin7 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix7 c).Φ 0 = Pipeline.ΦA spec7 c from rfl]
    unfold Pipeline.ΦA
    iintro ⟨Hreg, -, Hscoped⟩
    isplitl [Hscoped]
    · iexact Hscoped
    iexact Hreg
  hout := fun c => by
    rw [Pipeline.ownSems0_none, show (pdats m ρ pix7 c).Φ (Fin.last _) = Pipeline.ΦA spec7 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix7) (pcfgs (F := F)) adm (Ix := Unit) (Name := ℕ)
      (U := UR sig nD τ) (Lvl := ℕ) launch7.win launch7.arr_whole c (pdats m ρ)
      ((pdats m ρ pix7 c).share_full fun _ => rfl) (Vin7 m ρ c) (Vout7 m ρ c)
      ((pdats m ρ pix7 c).arrAt · cfg7.N) (hF7 m ρ c) (hrest7 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Seg8.lean ====
import proofs.«428437_j36421322670670_1_alg».proof.Proof.KernelIdeal.Fold
import Idealize.ShloMosaic.Lib.Pipeline.Regions
import Idealize.ShloMosaic.Lib.Pipeline.RegionsLoop

/-! # Region 8 as a segment of the run

Kernel region 8 of @main (the regions are numbered from zero in program order), entered from the unscoped buffers at
`Win8` and left with them at `Wout8`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the record's fields are stated over the configuration of the pinned pipeline; the library's lemmas meet them only if
-- unification may unfold plain definitions inside the type of a metavariable
set_option backward.isDefEq.respectTransparency.types false in
/-- Region 8 between its two thread states. On entry the unscoped buffers, held at `Win8`, are sorted into the
    pipeline's arrays at the proof data's entry contents and the buffers that are no array of it, which go round the
    region untouched; the generator register goes into the pipeline's invariant and comes back out of it; the core owes
    nothing before and nothing after; the kernel has no semaphore of its own and no prefetched table. On exit the
    arrays, now at the fold of the write-backs, and the untouched buffers are the unscoped buffers at `Wout8`. -/
def reg8 : Pipeline.RegionSeg (pcfgs (F := F)) adm (pdats m ρ) () defs₀ 𝒱₀ L lv pix8 where
  win := launch8.win.to₀
  block_pos := launch8.block_pos
  stage_whole := launch8.stage_whole
  K := PEmpty
  osem := fun k => k.elim
  ho := Pipeline.OwnSemFacts.none _
  hbody := fun c => (body_obligation8 (Vin8 m ρ) c).loose
  hwaits := Pipeline.hwaits_of_owed_zero _ _ _ _ L lv pix8 fun _ _ => rfl
  pre := fun c => iprop(StableHlo.held (c : Thread nD τ) (Pipeline.ucRefs τ sig) (Win8 m ρ c) ∗ R c)
  post := fun c => iprop(StableHlo.held (c : Thread nD τ) (Pipeline.ucRefs τ sig) (Wout8 m ρ c) ∗ R c)
  X := fun c => iprop(∃ r, prngReg c r)
  Y := fun c => iprop(∃ r, prngReg c r)
  Z := fun c => Pipeline.unscopedRest (Ix := Unit) (Name := ℕ) (U := UR sig nD τ) (Lvl := ℕ) spec8 c (Vin8 m ρ c)
  hentry := fun c => by
    have hparts := Pipeline.arrays_of_unscopedBufs (p := pix8) (pcfgs (F := F)) adm (pdats m ρ) launch8.win
      launch8.arr_whole c ((pdats m ρ pix8 c).share_full fun _ => rfl) (Vin8 m ρ c) (fun _ => rfl)
    rw [Pipeline.unscopedBufs_held] at hparts
    rw [Pipeline.ownSems0_none]
    iintro ⟨⟨Hbufs, Hreg, Howes⟩, -, -⟩
    icases Howes with ⟨%T, Howes⟩
    ihave Hparts := hparts $$ Hbufs
    icases Hparts with ⟨Harrs, Hbypass⟩
    imodintro
    isplitl [Harrs]
    · iexact Harrs
    isplitr
    · unfold Pipeline.prefHeld
      rw [show (Finset.univ : Finset (Fin 0)) = ∅ from rfl, BI.bigSep_empty]
      iempintro
    isplitl [Howes]
    · unfold Pipeline.Dat.owesAt Pipeline.owesWithin
      iexists T
      isplitr
      · ipureintro
        exact fun _ _ => Or.inl trivial
      iexact Howes
    isplitl [Hreg]
    · iexact Hreg
    iexact Hbypass
  hin := fun c => by
    rw [show (pdats m ρ pix8 c).Φ 0 = Pipeline.ΦA spec8 c from rfl]
    unfold Pipeline.ΦA
    iintro ⟨Hreg, -, Hscoped⟩
    isplitl [Hscoped]
    · iexact Hscoped
    iexact Hreg
  hout := fun c => by
    rw [Pipeline.ownSems0_none, show (pdats m ρ pix8 c).Φ (Fin.last _) = Pipeline.ΦA spec8 c from rfl]
    unfold Pipeline.ΦA
    iintro ⟨Hscoped, Hreg⟩
    isplitl [Hreg]
    · iexact Hreg
    isplitr
    · iempintro
    iexact Hscoped
  hexit := fun c => by
    have hwhole := Pipeline.unscopedBufs_of_arrays (p := pix8) (pcfgs (F := F)) adm (Ix := Unit) (Name := ℕ)
      (U := UR sig nD τ) (Lvl := ℕ) launch8.win launch8.arr_whole c (pdats m ρ)
      ((pdats m ρ pix8 c).share_full fun _ => rfl) (Vin8 m ρ c) (Vout8 m ρ c)
      ((pdats m ρ pix8 c).arrAt · cfg8.N) (hF8 m ρ c) (hrest8 m ρ c)
    rw [Pipeline.unscopedBufs_held] at hwhole
    iintro ⟨Harrs, Howes, Hreg, Hbypass⟩
    unfold Pipeline.Dat.owesAt Pipeline.owesWithin
    icases Howes with ⟨%T, -, Howes⟩
    imodintro
    isplitl [Harrs Hbypass]
    · iapply hwhole
      isplitl [Harrs]
      · iexact Harrs
      iexact Hbypass
    isplitl [Hreg]
    · iexact Hreg
    iexists T
    iexact Howes

end Cert.KernelIdeal.Gen

end
-- ==== Proof.KernelIdeal.Run.lean ====
import proofs.«428437_j36421322670670_1_alg».proof.Proof.KernelIdeal.Seg0
import proofs.«428437_j36421322670670_1_alg».proof.Proof.KernelIdeal.Seg1
import proofs.«428437_j36421322670670_1_alg».proof.Proof.KernelIdeal.Seg2
import proofs.«428437_j36421322670670_1_alg».proof.Proof.KernelIdeal.Seg3
import proofs.«428437_j36421322670670_1_alg».proof.Proof.KernelIdeal.Seg4
import proofs.«428437_j36421322670670_1_alg».proof.Proof.KernelIdeal.Seg5
import proofs.«428437_j36421322670670_1_alg».proof.Proof.KernelIdeal.Seg6
import proofs.«428437_j36421322670670_1_alg».proof.Proof.KernelIdeal.Seg7
import proofs.«428437_j36421322670670_1_alg».proof.Proof.KernelIdeal.Seg8
import Idealize.ShloMosaic.Lib.Pipeline.Regions
import Idealize.ShloMosaic.Lib.Pipeline.Launch

/-! # The run of @main and what it leaves

@main's nineteen items — ten stretches of host operations and the nine kernel regions between them — are run as
segments from the launch, each entered from the thread state the one before it left. Every weakly fair execution
terminates, and the final memory holds in each unscoped buffer what the fold of the valuations ends at, `W19`. The
frame claim and the contents of @main's result buffer are read off that. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as nineteen segments -/

/-- The items of @main in program order: the stretch `hostOpsJ` from the valuation before it, then region J, for
    J = 0 … 8, and the closing stretch `hostOps9`. -/
abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

/-- @main is the run of those segments: both sides are the same chain of items. -/
theorem main_run (c : Dev nD) : main (F := F) c = Pipeline.Seg.run (mainSegs m ρ) :=
  (main_chain c).trans (by chain_rfl)

/-- The thread state after the last item, without the dues: every unscoped buffer at `W19`, the generator register at
    some state. -/
abbrev Tₙ (c : Dev nD) : sProp 𝕄 :=
  iprop(StableHlo.held (c : Thread nD τ) (Pipeline.ucRefs τ sig) (W19 m ρ c) ∗ ∃ r, prngReg c r)

/-- After the closing stretch the thread state is the last one beside the core's dues, which are none: the register is
    grouped with the buffers, the dues stand alone. -/
theorem closing_state (c : Dev nD) :
    iprop(StableHlo.held (c : Thread nD τ) (Pipeline.ucRefs τ sig) (W19 m ρ c) ∗ R c)
      ⊢ iprop(Tₙ m ρ c ∗ ∃ W, owes (c : Thread nD τ) (0 : CellTallies nD τ sig Unit) W) := by
  iintro ⟨Hbufs, Hreg, Howes⟩
  isplitr [Howes]
  · isplitl [Hbufs]
    · iexact Hbufs
    iexact Hreg
  iexact Howes

/-! ## The run -/

-- the launch theorem's implicit arguments come from unifying its conclusion with the statement, which has to unfold
-- plain definitions inside the type of a metavariable
set_option backward.isDefEq.respectTransparency.types false in
/-- From any memory `m` with all counters at zero, every weakly fair execution of @main on the TensorCores terminates
    without fault, and in every final state each unscoped buffer of core `c` holds what the fold `W19` says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch element is the staging cells' own; no core gets a ghost resource beside it
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      rw [BI.bigSep_emp_const]
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => closing_state m ρ c⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      iexists ∅
      iexact Howes)
    (QY := fun c s => ∀ b ∈ Pipeline.ucRefs τ sig, s.mem (((c : Thread nD τ)).1, b) = W19 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W19 m ρ c) s')
      isplitl [Hbufs]
      · iexact Hbufs
      iexact Hstate)
    (hQ := fun s h => h)

/-! ## What the run gives -/

/-- The frame claim at any `F`: @main terminates from any memory with zero counters and every argument array ends
    holding what it held at launch. Each argument is an unscoped buffer, read off `W19` and then back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono
    (fun r h c => ⟨(h c _ (mem_uc main_arg0 (by decide))).trans (W19_main_arg0 m ρ c),
      (h c _ (mem_uc main_arg1 (by decide))).trans (W19_main_arg1 m ρ c),
      (h c _ (mem_uc main_arg2 (by decide))).trans (W19_main_arg2 m ρ c),
      (h c _ (mem_uc main_arg3 (by decide))).trans (W19_main_arg3 m ρ c),
      (h c _ (mem_uc main_arg4 (by decide))).trans (W19_main_arg4 m ρ c),
      (h c _ (mem_uc main_arg5 (by decide))).trans (W19_main_arg5 m ρ c),
      (h c _ (mem_uc main_arg6 (by decide))).trans (W19_main_arg6 m ρ c),
      (h c _ (mem_uc main_arg7 (by decide))).trans (W19_main_arg7 m ρ c),
      (h c _ (mem_uc main_arg8 (by decide))).trans (W19_main_arg8 m ρ c),
      (h c _ (mem_uc main_arg9 (by decide))).trans (W19_main_arg9 m ρ c),
      (h c _ (mem_uc main_arg10 (by decide))).trans (W19_main_arg10 m ρ c)⟩)
    (run_all m ρ)

/-- @main's result buffer `main_v146` holds at the end what the fold says. -/
theorem result_eq (r : PUnit × MemSt nD τ sig (Elt F))
    (h : ∀ c : Dev nD, ∀ b ∈ Pipeline.ucRefs τ sig, r.2.mem (((c : Thread nD τ)).1, b) = W19 m ρ c b) (c : Dev nD) :
    r.2.mem ((c.tc : Thread nD τ).loc main_v146) = W19 m ρ c (Proc.devRef .tc main_v146) :=
  h c _ (mem_uc main_v146 (by decide))

end Cert.KernelIdeal.Gen

end
-- ==== Proof.Reference.Ops.lean ====
import proofs.«428437_j36421322670670_1_alg».proof.Proof.Gen.ReferenceIdeal
import Idealize.ShloMosaic.Lib.StableHlo.Run

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 83: the statements of main_part0, each call replaced by the callee's operations. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v11 (broadcastInDim S50000x64 ![] bcast_S_S50000x64 : (⟨S_, .f32⟩ : BufTy).Contents (Elt F) → (⟨S50000x64, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v13 main_v14 (addf : (⟨S50000x64, .f32⟩ : BufTy).Contents (Elt F) → (⟨S50000x64, .f32⟩ : BufTy).Contents (Elt F) → (⟨S50000x64, .f32⟩ : BufTy).Contents (Elt F)),
    StableHlo.unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v15 main_v16 rfl shapeCasts_S1x64x64_S64x64,
    StableHlo.binary main_v14 main_v16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v21 main_v22 (addf : (⟨S50000x64, .f32⟩ : BufTy).Contents (Elt F) → (⟨S50000x64, .f32⟩ : BufTy).Contents (Elt F) → (⟨S50000x64, .f32⟩ : BufTy).Contents (Elt F)),
    StableHlo.unary main_arg5 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_arg6 main_v25 ((extractStridedSlice S1x64 ![0, 0] · slices_S3x64_S1x64_0_0) : (⟨S3x64, .f32⟩ : BufTy).Contents (Elt F) → (⟨S1x64, .f32⟩ : BufTy).Contents (Elt F)),
    StableHlo.reshape main_v25 main_v26 rfl shapeCasts_S1x64_S64,
    StableHlo.nullary main_cst_1 (constant S_ .f32 0x00000000#32),
    StableHlo.binary main_v22 main_cst_1 main_v27 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v22) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v22) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v22 main_v32 main_v33 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v34 (broadcastInDim S64 ![] bcast_S_S64 : (⟨S_, .f32⟩ : BufTy).Contents (Elt F) → (⟨S64, .f32⟩ : BufTy).Contents (Elt F)),
    StableHlo.binary main_v30 main_v34 main_v35 (addf : (⟨S64, .f32⟩ : BufTy).Contents (Elt F) → (⟨S64, .f32⟩ : BufTy).Contents (Elt F) → (⟨S64, .f32⟩ : BufTy).Contents (Elt F)),
    StableHlo.unary main_v35 main_v36 (Host.rsqrt : (⟨S64, .f32⟩ : BufTy).Contents (Elt F) → (⟨S64, .f32⟩ : BufTy).Contents (Elt F)),
    StableHlo.unary main_v36 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S50000x64 ![0, 1] bcast_S1x64_S50000x64_0_1 : (⟨S1x64, .f32⟩ : BufTy).Contents (Elt F) → (⟨S50000x64, .f32⟩ : BufTy).Contents (Elt F)),
    StableHlo.binary main_v33 main_v38 main_v39 (mulf : (⟨S50000x64, .f32⟩ : BufTy).Contents (Elt F) → (⟨S50000x64, .f32⟩ : BufTy).Contents (Elt F) → (⟨S50000x64, .f32⟩ : BufTy).Contents (Elt F)),
    StableHlo.unary main_v24 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v41 main_v42 (mulf : (⟨S50000x64, .f32⟩ : BufTy).Contents (Elt F) → (⟨S50000x64, .f32⟩ : BufTy).Contents (Elt F) → (⟨S50000x64, .f32⟩ : BufTy).Contents (Elt F)),
    StableHlo.unary main_v26 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v42 main_v44 main_v45 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v45) main_call1.v0 main_call1.v1 maximumf,
    StableHlo.unary main_arg7 main_v47 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v47 main_v48 rfl shapeCasts_S1x64x64_S64x64,
    StableHlo.binary main_v46 main_v48 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v50 ((extractStridedSlice S1x64 ![0, 0] · slices_S3x64_S1x64_0_0) : (⟨S3x64, .f32⟩ : BufTy).Contents (Elt F) → (⟨S1x64, .f32⟩ : BufTy).Contents (Elt F)),
    StableHlo.reshape main_v50 main_v51 rfl shapeCasts_S1x64_S64,
    StableHlo.unary main_v51 main_v52 (broadcastInDim S1x64 ![1] bcast_S64_S1x64_1 : (⟨S64, .f32⟩ : BufTy).Contents (Elt F) → (⟨S1x64, .f32⟩ : BufTy).Contents (Elt F)) ]

/-- The buffers that ops0 writes, in order. -/
abbrev ops0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_cst_4, main_v34, main_v35, main_v36, main_v37, main_v38, main_v39, main_v40, main_v41, main_v42, main_v43, main_v44, main_v45, main_call1_cst, main_call1_v0, main_v46, main_v47, main_v48, main_v49, main_v50, main_v51, main_v52]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The reference's operations 84 … 166: the statements of main_part1, each call replaced by the callee's operations. -/
abbrev ops1 : List (HloOp τ sig (Elt F)) :=
  [ StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v49 main_v53 main_v54 (addf : (⟨S50000x64, .f32⟩ : BufTy).Contents (Elt F) → (⟨S50000x64, .f32⟩ : BufTy).Contents (Elt F) → (⟨S50000x64, .f32⟩ : BufTy).Contents (Elt F)),
    StableHlo.unary main_arg9 main_v55 ((extractStridedSlice S1x64 ![0, 0] · slices_S3x64_S1x64_0_0) : (⟨S3x64, .f32⟩ : BufTy).Contents (Elt F) → (⟨S1x64, .f32⟩ : BufTy).Contents (Elt F)),
    StableHlo.reshape main_v55 main_v56 rfl shapeCasts_S1x64_S64,
    StableHlo.unary main_arg10 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.nullary main_cst_5 (constant S_ .f32 0x00000000#32),
    StableHlo.binary main_v54 main_cst_5 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_6 (constant S_ .f32 0x47435000#32),
    StableHlo.unary main_cst_6 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call2.cst (constant S_ .f32 0x00000000#32),
    StableHlo.TRef.binary (.of main_v54) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v54) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v64 main_v65 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v66 (broadcastInDim S64 ![] bcast_S_S64 : (⟨S_, .f32⟩ : BufTy).Contents (Elt F) → (⟨S64, .f32⟩ : BufTy).Contents (Elt F)),
    StableHlo.binary main_v62 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v70 main_v71 (mulf : (⟨S50000x64, .f32⟩ : BufTy).Contents (Elt F) → (⟨S50000x64, .f32⟩ : BufTy).Contents (Elt F) → (⟨S50000x64, .f32⟩ : BufTy).Contents (Elt F)),
    StableHlo.unary main_v56 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v73 main_v74 (mulf : (⟨S50000x64, .f32⟩ : BufTy).Contents (Elt F) → (⟨S50000x64, .f32⟩ : BufTy).Contents (Elt F) → (⟨S50000x64, .f32⟩ : BufTy).Contents (Elt F)),
    StableHlo.unary main_v58 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v76 main_v77 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v77) main_call3.v0 main_call3.v1 maximumf,
    StableHlo.nullary main_cst_9 (constant S_ .f32 0x00000000#32),
    StableHlo.unary main_cst_9 main_v79 (broadcastInDim S512x64 ![] bcast_S_S512x64 : (⟨S_, .f32⟩ : BufTy).Contents (Elt F) → (⟨S512x64, .f32⟩ : BufTy).Contents (Elt F)),
    StableHlo.unary main_arg2 main_v80 (broadcastInDim S50000x1 ![0] bcast_S50000_S50000x1_0 : (⟨S50000, .i32⟩ : BufTy).Contents (Elt F) → (⟨S50000x1, .i32⟩ : BufTy).Contents (Elt F)),
    StableHlo.ternary main_v79 main_v80 main_v78 main_v81 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_c_10 (constantI S_ 32 0#32),
    StableHlo.unary main_c_10 main_v82 (broadcastInDim S800000 ![] bcast_S_S800000 : (⟨S_, .i32⟩ : BufTy).Contents (Elt F) → (⟨S800000, .i32⟩ : BufTy).Contents (Elt F)),
    StableHlo.binary main_v1 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v84 (broadcastInDim S800000 ![] bcast_S_S800000 : (⟨S_, .i32⟩ : BufTy).Contents (Elt F) → (⟨S800000, .i32⟩ : BufTy).Contents (Elt F)),
    StableHlo.binary main_v1 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v78 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_12 (constant S_ .f32 0x00000000#32),
    StableHlo.unary main_cst_12 main_v89 (broadcastInDim S50000x64 ![] bcast_S_S50000x64 : (⟨S_, .f32⟩ : BufTy).Contents (Elt F) → (⟨S50000x64, .f32⟩ : BufTy).Contents (Elt F)),
    StableHlo.unary main_v3 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v78 main_v91 main_v92 (addf : (⟨S50000x64, .f32⟩ : BufTy).Contents (Elt F) → (⟨S50000x64, .f32⟩ : BufTy).Contents (Elt F) → (⟨S50000x64, .f32⟩ : BufTy).Contents (Elt F)),
    StableHlo.unary main_arg3 main_v93 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v93 main_v94 rfl shapeCasts_S1x64x64_S64x64,
    StableHlo.binary main_v92 main_v94 main_v95 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v96 ((extractStridedSlice S1x64 ![1, 0] · slices_S3x64_S1x64_1_0) : (⟨S3x64, .f32⟩ : BufTy).Contents (Elt F) → (⟨S1x64, .f32⟩ : BufTy).Contents (Elt F)),
    StableHlo.reshape main_v96 main_v97 rfl shapeCasts_S1x64_S64,
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v95 main_v99 main_v100 (addf : (⟨S50000x64, .f32⟩ : BufTy).Contents (Elt F) → (⟨S50000x64, .f32⟩ : BufTy).Contents (Elt F) → (⟨S50000x64, .f32⟩ : BufTy).Contents (Elt F)),
    StableHlo.unary main_arg5 main_v101 ((extractStridedSlice S1x64 ![1, 0] · slices_S3x64_S1x64_1_0) : (⟨S3x64, .f32⟩ : BufTy).Contents (Elt F) → (⟨S1x64, .f32⟩ : BufTy).Contents (Elt F)),
    StableHlo.reshape main_v101 main_v102 rfl shapeCasts_S1x64_S64,
    StableHlo.unary main_arg6 main_v103 ((extractStridedSlice S1x64 ![1, 0] · slices_S3x64_S1x64_1_0) : (⟨S3x64, .f32⟩ : BufTy).Contents (Elt F) → (⟨S1x64, .f32⟩ : BufTy).Contents (Elt F)),
    StableHlo.reshape main_v103 main_v104 rfl shapeCasts_S1x64_S64 ]

/-- The buffers that ops1 writes, in order. -/
abbrev ops1_W : List (Ref sig .tc) :=
  [main_v53, main_v54, main_v55, main_v56, main_v57, main_v58, main_cst_5, main_v59, main_cst_6, main_v60, main_v61, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v62, main_v63, main_v64, main_v65, main_cst_8, main_v66, main_v67, main_v68, main_v69, main_v70, main_v71, main_v72, main_v73, main_v74, main_v75, main_v76, main_v77, main_call3_cst, main_call3_v0, main_v78, main_cst_9, main_v79, main_v80, main_v81, main_c_10, main_v82, main_v83, main_c_11, main_v84, main_v85, main_v86, main_v87, main_v88, main_cst_12, main_v89, main_v90, main_v91, main_v92, main_v93, main_v94, main_v95, main_v96, main_v97, main_v98, main_v99, main_v100, main_v101, main_v102, main_v103, main_v104]

set_option maxRecDepth 8192 in
theorem ops1_sub : (ops1 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The reference's operations 167 … 272: the statements of main_part2, each call replaced by the callee's operations. -/
abbrev ops2 : List (HloOp τ sig (Elt F)) :=
  [ StableHlo.nullary main_cst_13 (constant S_ .f32 0x00000000#32),
    StableHlo.binary main_v100 main_cst_13 main_v105 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_14 (constant S_ .f32 0x47435000#32),
    StableHlo.unary main_cst_14 main_v106 (broadcastInDim S64 ![] bcast_S_S64 : (⟨S_, .f32⟩ : BufTy).Contents (Elt F) → (⟨S64, .f32⟩ : BufTy).Contents (Elt F)),
    StableHlo.binary main_v105 main_v106 main_v107 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call4.cst (constant S_ .f32 0x00000000#32),
    StableHlo.TRef.binary (.of main_v100) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v100) main_call4.v4 main_call4.v5 subf,
    StableHlo.TRef.binary main_call4.v5 main_call4.v5 main_call4.v6 mulf,
    StableHlo.TRef.unary (.of main_c_15) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v107 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v110 main_v111 (subf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x3727C5AC#32),
    StableHlo.unary main_cst_16 main_v112 (broadcastInDim S64 ![] bcast_S_S64 : (⟨S_, .f32⟩ : BufTy).Contents (Elt F) → (⟨S64, .f32⟩ : BufTy).Contents (Elt F)),
    StableHlo.binary main_v108 main_v112 main_v113 (addf : (⟨S64, .f32⟩ : BufTy).Contents (Elt F) → (⟨S64, .f32⟩ : BufTy).Contents (Elt F) → (⟨S64, .f32⟩ : BufTy).Contents (Elt F)),
    StableHlo.unary main_v113 main_v114 (Host.rsqrt : (⟨S64, .f32⟩ : BufTy).Contents (Elt F) → (⟨S64, .f32⟩ : BufTy).Contents (Elt F)),
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v116 main_v117 (mulf : (⟨S50000x64, .f32⟩ : BufTy).Contents (Elt F) → (⟨S50000x64, .f32⟩ : BufTy).Contents (Elt F) → (⟨S50000x64, .f32⟩ : BufTy).Contents (Elt F)),
    StableHlo.unary main_v102 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v119 main_v120 (mulf : (⟨S50000x64, .f32⟩ : BufTy).Contents (Elt F) → (⟨S50000x64, .f32⟩ : BufTy).Contents (Elt F) → (⟨S50000x64, .f32⟩ : BufTy).Contents (Elt F)),
    StableHlo.unary main_v104 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v122 main_v123 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v123) main_call5.v0 main_call5.v1 maximumf,
    StableHlo.unary main_arg7 main_v125 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v125 main_v126 rfl shapeCasts_S1x64x64_S64x64,
    StableHlo.binary main_v124 main_v126 main_v127 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v128 ((extractStridedSlice S1x64 ![1, 0] · slices_S3x64_S1x64_1_0) : (⟨S3x64, .f32⟩ : BufTy).Contents (Elt F) → (⟨S1x64, .f32⟩ : BufTy).Contents (Elt F)),
    StableHlo.reshape main_v128 main_v129 rfl shapeCasts_S1x64_S64,
    StableHlo.unary main_v129 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v127 main_v131 main_v132 (addf : (⟨S50000x64, .f32⟩ : BufTy).Contents (Elt F) → (⟨S50000x64, .f32⟩ : BufTy).Contents (Elt F) → (⟨S50000x64, .f32⟩ : BufTy).Contents (Elt F)),
    StableHlo.unary main_arg9 main_v133 ((extractStridedSlice S1x64 ![1, 0] · slices_S3x64_S1x64_1_0) : (⟨S3x64, .f32⟩ : BufTy).Contents (Elt F) → (⟨S1x64, .f32⟩ : BufTy).Contents (Elt F)),
    StableHlo.reshape main_v133 main_v134 rfl shapeCasts_S1x64_S64,
    StableHlo.unary main_arg10 main_v135 ((extractStridedSlice S1x64 ![1, 0] · slices_S3x64_S1x64_1_0) : (⟨S3x64, .f32⟩ : BufTy).Contents (Elt F) → (⟨S1x64, .f32⟩ : BufTy).Contents (Elt F)),
    StableHlo.reshape main_v135 main_v136 rfl shapeCasts_S1x64_S64,
    StableHlo.nullary main_cst_17 (constant S_ .f32 0x00000000#32),
    StableHlo.binary main_v132 main_cst_17 main_v137 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_18 (constant S_ .f32 0x47435000#32),
    StableHlo.unary main_cst_18 main_v138 (broadcastInDim S64 ![] bcast_S_S64 : (⟨S_, .f32⟩ : BufTy).Contents (Elt F) → (⟨S64, .f32⟩ : BufTy).Contents (Elt F)),
    StableHlo.binary main_v137 main_v138 main_v139 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call6.cst (constant S_ .f32 0x00000000#32),
    StableHlo.TRef.binary (.of main_v132) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v132) main_call6.v4 main_call6.v5 subf,
    StableHlo.TRef.binary main_call6.v5 main_call6.v5 main_call6.v6 mulf,
    StableHlo.TRef.unary (.of main_c_19) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v139 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S50000x64 ![0, 1] bcast_S1x64_S50000x64_0_1 : (⟨S1x64, .f32⟩ : BufTy).Contents (Elt F) → (⟨S50000x64, .f32⟩ : BufTy).Contents (Elt F)),
    StableHlo.binary main_v132 main_v142 main_v143 (subf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3727C5AC#32),
    StableHlo.unary main_cst_20 main_v144 (broadcastInDim S64 ![] bcast_S_S64 : (⟨S_, .f32⟩ : BufTy).Contents (Elt F) → (⟨S64, .f32⟩ : BufTy).Contents (Elt F)),
    StableHlo.binary main_v140 main_v144 main_v145 (addf : (⟨S64, .f32⟩ : BufTy).Contents (Elt F) → (⟨S64, .f32⟩ : BufTy).Contents (Elt F) → (⟨S64, .f32⟩ : BufTy).Contents (Elt F)),
    StableHlo.unary main_v145 main_v146 (Host.rsqrt : (⟨S64, .f32⟩ : BufTy).Contents (Elt F) → (⟨S64, .f32⟩ : BufTy).Contents (Elt F)),
    StableHlo.unary main_v146 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S50000x64 ![0, 1] bcast_S1x64_S50000x64_0_1 : (⟨S1x64, .f32⟩ : BufTy).Contents (Elt F) → (⟨S50000x64, .f32⟩ : BufTy).Contents (Elt F)),
    StableHlo.binary main_v143 main_v148 main_v149 (mulf : (⟨S50000x64, .f32⟩ : BufTy).Contents (Elt F) → (⟨S50000x64, .f32⟩ : BufTy).Contents (Elt F) → (⟨S50000x64, .f32⟩ : BufTy).Contents (Elt F)),
    StableHlo.unary main_v134 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S50000x64 ![0, 1] bcast_S1x64_S50000x64_0_1 : (⟨S1x64, .f32⟩ : BufTy).Contents (Elt F) → (⟨S50000x64, .f32⟩ : BufTy).Contents (Elt F)),
    StableHlo.binary main_v149 main_v151 main_v152 (mulf : (⟨S50000x64, .f32⟩ : BufTy).Contents (Elt F) → (⟨S50000x64, .f32⟩ : BufTy).Contents (Elt F) → (⟨S50000x64, .f32⟩ : BufTy).Contents (Elt F)),
    StableHlo.unary main_v136 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S50000x64 ![0, 1] bcast_S1x64_S50000x64_0_1 : (⟨S1x64, .f32⟩ : BufTy).Contents (Elt F) → (⟨S50000x64, .f32⟩ : BufTy).Contents (Elt F)),
    StableHlo.binary main_v152 main_v154 main_v155 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v155) main_call7.v0 main_call7.v1 maximumf ]

/-- The buffers that ops2 writes, in order. -/
abbrev ops2_W : List (Ref sig .tc) :=
  [main_cst_13, main_v105, main_cst_14, main_v106, main_v107, main_c_15, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v108, main_v109, main_v110, main_v111, main_cst_16, main_v112, main_v113, main_v114, main_v115, main_v116, main_v117, main_v118, main_v119, main_v120, main_v121, main_v122, main_v123, main_call5_cst, main_call5_v0, main_v124, main_v125, main_v126, main_v127, main_v128, main_v129, main_v130, main_v131, main_v132, main_v133, main_v134, main_v135, main_v136, main_cst_17, main_v137, main_cst_18, main_v138, main_v139, main_c_19, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v140, main_v141, main_v142, main_v143, main_cst_20, main_v144, main_v145, main_v146, main_v147, main_v148, main_v149, main_v150, main_v151, main_v152, main_v153, main_v154, main_v155, main_call7_cst, main_call7_v0, main_v156]

set_option maxRecDepth 8192 in
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The reference's operations 273 … 355: the statements of main_part3, each call replaced by the callee's operations. -/
abbrev ops3 : List (HloOp τ sig (Elt F)) :=
  [ StableHlo.nullary main_cst_21 (constant S_ .f32 0x00000000#32),
    StableHlo.unary main_cst_21 main_v157 (broadcastInDim S512x64 ![] bcast_S_S512x64 : (⟨S_, .f32⟩ : BufTy).Contents (Elt F) → (⟨S512x64, .f32⟩ : BufTy).Contents (Elt F)),
    StableHlo.unary main_arg2 main_v158 (broadcastInDim S50000x1 ![0] bcast_S50000_S50000x1_0 : (⟨S50000, .i32⟩ : BufTy).Contents (Elt F) → (⟨S50000x1, .i32⟩ : BufTy).Contents (Elt F)),
    StableHlo.ternary main_v157 main_v158 main_v156 main_v159 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_c_22 (constantI S_ 32 0#32),
    StableHlo.unary main_c_22 main_v160 (broadcastInDim S800000 ![] bcast_S_S800000 : (⟨S_, .i32⟩ : BufTy).Contents (Elt F) → (⟨S800000, .i32⟩ : BufTy).Contents (Elt F)),
    StableHlo.binary main_v1 main_v160 main_v161 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v162 (broadcastInDim S800000 ![] bcast_S_S800000 : (⟨S_, .i32⟩ : BufTy).Contents (Elt F) → (⟨S800000, .i32⟩ : BufTy).Contents (Elt F)),
    StableHlo.binary main_v1 main_v162 main_v163 (addi : (⟨S800000, .i32⟩ : BufTy).Contents (Elt F) → (⟨S800000, .i32⟩ : BufTy).Contents (Elt F) → (⟨S800000, .i32⟩ : BufTy).Contents (Elt F)),
    StableHlo.ternary main_v161 main_v163 main_v1 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v164 main_v165 (broadcastInDim S800000x1 ![0] bcast_S800000_S800000x1_0 : (⟨S800000, .i32⟩ : BufTy).Contents (Elt F) → (⟨S800000x1, .i32⟩ : BufTy).Contents (Elt F)),
    StableHlo.binary main_v156 main_v165 main_v166 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_24 (constant S_ .f32 0x00000000#32),
    StableHlo.unary main_cst_24 main_v167 (broadcastInDim S50000x64 ![] bcast_S_S50000x64 : (⟨S_, .f32⟩ : BufTy).Contents (Elt F) → (⟨S50000x64, .f32⟩ : BufTy).Contents (Elt F)),
    StableHlo.unary main_v3 main_v168 (broadcastInDim S800000x1 ![0] bcast_S800000_S800000x1_0 : (⟨S800000, .i32⟩ : BufTy).Contents (Elt F) → (⟨S800000x1, .i32⟩ : BufTy).Contents (Elt F)),
    StableHlo.ternary main_v167 main_v168 main_v166 main_v169 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v156 main_v169 main_v170 (addf : (⟨S50000x64, .f32⟩ : BufTy).Contents (Elt F) → (⟨S50000x64, .f32⟩ : BufTy).Contents (Elt F) → (⟨S50000x64, .f32⟩ : BufTy).Contents (Elt F)),
    StableHlo.unary main_arg3 main_v171 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v171 main_v172 rfl shapeCasts_S1x64x64_S64x64,
    StableHlo.binary main_v170 main_v172 main_v173 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v174 ((extractStridedSlice S1x64 ![2, 0] · slices_S3x64_S1x64_2_0) : (⟨S3x64, .f32⟩ : BufTy).Contents (Elt F) → (⟨S1x64, .f32⟩ : BufTy).Contents (Elt F)),
    StableHlo.reshape main_v174 main_v175 rfl shapeCasts_S1x64_S64,
    StableHlo.unary main_v175 main_v176 (broadcastInDim S1x64 ![1] bcast_S64_S1x64_1 : (⟨S64, .f32⟩ : BufTy).Contents (Elt F) → (⟨S1x64, .f32⟩ : BufTy).Contents (Elt F)),
    StableHlo.unary main_v176 main_v177 (broadcastInDim S50000x64 ![0, 1] bcast_S1x64_S50000x64_0_1 : (⟨S1x64, .f32⟩ : BufTy).Contents (Elt F) → (⟨S50000x64, .f32⟩ : BufTy).Contents (Elt F)),
    StableHlo.binary main_v173 main_v177 main_v178 (addf : (⟨S50000x64, .f32⟩ : BufTy).Contents (Elt F) → (⟨S50000x64, .f32⟩ : BufTy).Contents (Elt F) → (⟨S50000x64, .f32⟩ : BufTy).Contents (Elt F)),
    StableHlo.unary main_arg5 main_v179 ((extractStridedSlice S1x64 ![2, 0] · slices_S3x64_S1x64_2_0) : (⟨S3x64, .f32⟩ : BufTy).Contents (Elt F) → (⟨S1x64, .f32⟩ : BufTy).Contents (Elt F)),
    StableHlo.reshape main_v179 main_v180 rfl shapeCasts_S1x64_S64,
    StableHlo.unary main_arg6 main_v181 ((extractStridedSlice S1x64 ![2, 0] · slices_S3x64_S1x64_2_0) : (⟨S3x64, .f32⟩ : BufTy).Contents (Elt F) → (⟨S1x64, .f32⟩ : BufTy).Contents (Elt F)),
    StableHlo.reshape main_v181 main_v182 rfl shapeCasts_S1x64_S64,
    StableHlo.nullary main_cst_25 (constant S_ .f32 0x00000000#32),
    StableHlo.binary main_v178 main_cst_25 main_v183 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_26 (constant S_ .f32 0x47435000#32),
    StableHlo.unary main_cst_26 main_v184 (broadcastInDim S64 ![] bcast_S_S64 : (⟨S_, .f32⟩ : BufTy).Contents (Elt F) → (⟨S64, .f32⟩ : BufTy).Contents (Elt F)),
    StableHlo.binary main_v183 main_v184 main_v185 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary main_call8.cst (constant S_ .f32 0x00000000#32),
    StableHlo.TRef.binary (.of main_v178) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v178) main_call8.v4 main_call8.v5 subf,
    StableHlo.TRef.binary main_call8.v5 main_call8.v5 main_call8.v6 mulf,
    StableHlo.TRef.unary (.of main_c_27) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v185 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S50000x64 ![0, 1] bcast_S1x64_S50000x64_0_1 : (⟨S1x64, .f32⟩ : BufTy).Contents (Elt F) → (⟨S50000x64, .f32⟩ : BufTy).Contents (Elt F)),
    StableHlo.binary main_v178 main_v188 main_v189 (subf : (⟨S50000x64, .f32⟩ : BufTy).Contents (Elt F) → (⟨S50000x64, .f32⟩ : BufTy).Contents (Elt F) → (⟨S50000x64, .f32⟩ : BufTy).Contents (Elt F)),
    StableHlo.nullary main_cst_28 (constant S_ .f32 0x3727C5AC#32),
    StableHlo.unary main_cst_28 main_v190 (broadcastInDim S64 ![] bcast_S_S64 : (⟨S_, .f32⟩ : BufTy).Contents (Elt F) → (⟨S64, .f32⟩ : BufTy).Contents (Elt F)),
    StableHlo.binary main_v186 main_v190 main_v191 (addf : (⟨S64, .f32⟩ : BufTy).Contents (Elt F) → (⟨S64, .f32⟩ : BufTy).Contents (Elt F) → (⟨S64, .f32⟩ : BufTy).Contents (Elt F)),
    StableHlo.unary main_v191 main_v192 (Host.rsqrt : (⟨S64, .f32⟩ : BufTy).Contents (Elt F) → (⟨S64, .f32⟩ : BufTy).Contents (Elt F)),
    StableHlo.unary main_v192 main_v193 (broadcastInDim S1x64 ![1] bcast_S64_S1x64_1 : (⟨S64, .f32⟩ : BufTy).Contents (Elt F) → (⟨S1x64, .f32⟩ : BufTy).Contents (Elt F)),
    StableHlo.unary main_v193 main_v194 (broadcastInDim S50000x64 ![0, 1] bcast_S1x64_S50000x64_0_1 : (⟨S1x64, .f32⟩ : BufTy).Contents (Elt F) → (⟨S50000x64, .f32⟩ : BufTy).Contents (Elt F)),
    StableHlo.binary main_v189 main_v194 main_v195 (mulf : (⟨S50000x64, .f32⟩ : BufTy).Contents (Elt F) → (⟨S50000x64, .f32⟩ : BufTy).Contents (Elt F) → (⟨S50000x64, .f32⟩ : BufTy).Contents (Elt F)),
    StableHlo.unary main_v180 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S50000x64 ![0, 1] bcast_S1x64_S50000x64_0_1 : (⟨S1x64, .f32⟩ : BufTy).Contents (Elt F) → (⟨S50000x64, .f32⟩ : BufTy).Contents (Elt F)),
    StableHlo.binary main_v195 main_v197 main_v198 (mulf : (⟨S50000x64, .f32⟩ : BufTy).Contents (Elt F) → (⟨S50000x64, .f32⟩ : BufTy).Contents (Elt F) → (⟨S50000x64, .f32⟩ : BufTy).Contents (Elt F)),
    StableHlo.unary main_v182 main_v199 (broadcastInDim S1x64 ![1] bcast_S64_S1x64_1 : (⟨S64, .f32⟩ : BufTy).Contents (Elt F) → (⟨S1x64, .f32⟩ : BufTy).Contents (Elt F)),
    StableHlo.unary main_v199 main_v200 (broadcastInDim S50000x64 ![0, 1] bcast_S1x64_S50000x64_0_1 : (⟨S1x64, .f32⟩ : BufTy).Contents (Elt F) → (⟨S50000x64, .f32⟩ : BufTy).Contents (Elt F)),
    StableHlo.binary main_v198 main_v200 main_v201 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v201) main_call9.v0 main_call9.v1 maximumf,
    StableHlo.unary main_arg7 main_v203 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v203 main_v204 rfl shapeCasts_S1x64x64_S64x64,
    StableHlo.binary main_v202 main_v204 main_v205 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v206 ((extractStridedSlice S1x64 ![2, 0] · slices_S3x64_S1x64_2_0) : (⟨S3x64, .f32⟩ : BufTy).Contents (Elt F) → (⟨S1x64, .f32⟩ : BufTy).Contents (Elt F)),
    StableHlo.reshape main_v206 main_v207 rfl shapeCasts_S1x64_S64,
    StableHlo.unary main_v207 main_v208 (broadcastInDim S1x64 ![1] bcast_S64_S1x64_1 : (⟨S64, .f32⟩ : BufTy).Contents (Elt F) → (⟨S1x64, .f32⟩ : BufTy).Contents (Elt F)) ]

/-- The buffers that ops3 writes, in order. -/
abbrev ops3_W : List (Ref sig .tc) :=
  [main_cst_21, main_v157, main_v158, main_v159, main_c_22, main_v160, main_v161, main_c_23, main_v162, main_v163, main_v164, main_v165, main_v166, main_cst_24, main_v167, main_v168, main_v169, main_v170, main_v171, main_v172, main_v173, main_v174, main_v175, main_v176, main_v177, main_v178, main_v179, main_v180, main_v181, main_v182, main_cst_25, main_v183, main_cst_26, main_v184, main_v185, main_c_27, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v186, main_v187, main_v188, main_v189, main_cst_28, main_v190, main_v191, main_v192, main_v193, main_v194, main_v195, main_v196, main_v197, main_v198, main_v199, main_v200, main_v201, main_call9_cst, main_call9_v0, main_v202, main_v203, main_v204, main_v205, main_v206, main_v207, main_v208]

set_option maxRecDepth 8192 in
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The reference's operations 356 … 413: the statements of main_part4, each call replaced by the callee's operations. -/
abbrev ops4 : List (HloOp τ sig (Elt F)) :=
  [ StableHlo.unary main_v208 main_v209 (broadcastInDim S50000x64 ![0, 1] bcast_S1x64_S50000x64_0_1 : (⟨S1x64, .f32⟩ : BufTy).Contents (Elt F) → (⟨S50000x64, .f32⟩ : BufTy).Contents (Elt F)),
    StableHlo.binary main_v205 main_v209 main_v210 (addf : (⟨S50000x64, .f32⟩ : BufTy).Contents (Elt F) → (⟨S50000x64, .f32⟩ : BufTy).Contents (Elt F) → (⟨S50000x64, .f32⟩ : BufTy).Contents (Elt F)),
    StableHlo.unary main_arg9 main_v211 ((extractStridedSlice S1x64 ![2, 0] · slices_S3x64_S1x64_2_0) : (⟨S3x64, .f32⟩ : BufTy).Contents (Elt F) → (⟨S1x64, .f32⟩ : BufTy).Contents (Elt F)),
    StableHlo.reshape main_v211 main_v212 rfl shapeCasts_S1x64_S64,
    StableHlo.unary main_arg10 main_v213 ((extractStridedSlice S1x64 ![2, 0] · slices_S3x64_S1x64_2_0) : (⟨S3x64, .f32⟩ : BufTy).Contents (Elt F) → (⟨S1x64, .f32⟩ : BufTy).Contents (Elt F)),
    StableHlo.reshape main_v213 main_v214 rfl shapeCasts_S1x64_S64,
    StableHlo.nullary main_cst_29 (constant S_ .f32 0x00000000#32),
    StableHlo.binary main_v210 main_cst_29 main_v215 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_30 (constant S_ .f32 0x47435000#32),
    StableHlo.unary main_cst_30 main_v216 (broadcastInDim S64 ![] bcast_S_S64 : (⟨S_, .f32⟩ : BufTy).Contents (Elt F) → (⟨S64, .f32⟩ : BufTy).Contents (Elt F)),
    StableHlo.binary main_v215 main_v216 main_v217 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.TRef.nullary main_call10.cst (constant S_ .f32 0x00000000#32),
    StableHlo.TRef.binary (.of main_v210) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v210) main_call10.v4 main_call10.v5 subf,
    StableHlo.TRef.binary main_call10.v5 main_call10.v5 main_call10.v6 mulf,
    StableHlo.TRef.unary (.of main_c_31) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v217 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S50000x64 ![0, 1] bcast_S1x64_S50000x64_0_1 : (⟨S1x64, .f32⟩ : BufTy).Contents (Elt F) → (⟨S50000x64, .f32⟩ : BufTy).Contents (Elt F)),
    StableHlo.binary main_v210 main_v220 main_v221 (subf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3727C5AC#32),
    StableHlo.unary main_cst_32 main_v222 (broadcastInDim S64 ![] bcast_S_S64 : (⟨S_, .f32⟩ : BufTy).Contents (Elt F) → (⟨S64, .f32⟩ : BufTy).Contents (Elt F)),
    StableHlo.binary main_v218 main_v222 main_v223 (addf : (⟨S64, .f32⟩ : BufTy).Contents (Elt F) → (⟨S64, .f32⟩ : BufTy).Contents (Elt F) → (⟨S64, .f32⟩ : BufTy).Contents (Elt F)),
    StableHlo.unary main_v223 main_v224 (Host.rsqrt : (⟨S64, .f32⟩ : BufTy).Contents (Elt F) → (⟨S64, .f32⟩ : BufTy).Contents (Elt F)),
    StableHlo.unary main_v224 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S50000x64 ![0, 1] bcast_S1x64_S50000x64_0_1 : (⟨S1x64, .f32⟩ : BufTy).Contents (Elt F) → (⟨S50000x64, .f32⟩ : BufTy).Contents (Elt F)),
    StableHlo.binary main_v221 main_v226 main_v227 (mulf : (⟨S50000x64, .f32⟩ : BufTy).Contents (Elt F) → (⟨S50000x64, .f32⟩ : BufTy).Contents (Elt F) → (⟨S50000x64, .f32⟩ : BufTy).Contents (Elt F)),
    StableHlo.unary main_v212 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S50000x64 ![0, 1] bcast_S1x64_S50000x64_0_1 : (⟨S1x64, .f32⟩ : BufTy).Contents (Elt F) → (⟨S50000x64, .f32⟩ : BufTy).Contents (Elt F)),
    StableHlo.binary main_v227 main_v229 main_v230 (mulf : (⟨S50000x64, .f32⟩ : BufTy).Contents (Elt F) → (⟨S50000x64, .f32⟩ : BufTy).Contents (Elt F) → (⟨S50000x64, .f32⟩ : BufTy).Contents (Elt F)),
    StableHlo.unary main_v214 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S50000x64 ![0, 1] bcast_S1x64_S50000x64_0_1 : (⟨S1x64, .f32⟩ : BufTy).Contents (Elt F) → (⟨S50000x64, .f32⟩ : BufTy).Contents (Elt F)),
    StableHlo.binary main_v230 main_v232 main_v233 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v233) main_call11.v0 main_call11.v1 maximumf,
    StableHlo.nullary main_cst_33 (constant S_ .f32 0x00000000#32),
    StableHlo.unary main_cst_33 main_v235 (broadcastInDim S512x64 ![] bcast_S_S512x64 : (⟨S_, .f32⟩ : BufTy).Contents (Elt F) → (⟨S512x64, .f32⟩ : BufTy).Contents (Elt F)),
    StableHlo.unary main_arg2 main_v236 (broadcastInDim S50000x1 ![0] bcast_S50000_S50000x1_0 : (⟨S50000, .i32⟩ : BufTy).Contents (Elt F) → (⟨S50000x1, .i32⟩ : BufTy).Contents (Elt F)),
    StableHlo.ternary main_v235 main_v236 main_v234 main_v237 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nary ![main_v81, main_v159, main_v237] main_v238 (fun u => concatenate S512x192 1 [⟨S512x64, u 0⟩, ⟨S512x64, u 1⟩, ⟨S512x64, u 2⟩] concatenates_S512x64_S512x64_S512x64_S512x192_d1) ]

/-- The buffers that ops4 writes, in order. -/
abbrev ops4_W : List (Ref sig .tc) :=
  [main_v209, main_v210, main_v211, main_v212, main_v213, main_v214, main_cst_29, main_v215, main_cst_30, main_v216, main_v217, main_c_31, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v218, main_v219, main_v220, main_v221, main_cst_32, main_v222, main_v223, main_v224, main_v225, main_v226, main_v227, main_v228, main_v229, main_v230, main_v231, main_v232, main_v233, main_call11_cst, main_call11_v0, main_v234, main_cst_33, main_v235, main_v236, main_v237, main_v238]

set_option maxRecDepth 8192 in
theorem ops4_sub : (ops4 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.Value

end
-- ==== Proof.Reference.Run.lean ====
import proofs.«428437_j36421322670670_1_alg».proof.Proof.Reference.Ops
import Idealize.ShloMosaic.Lib.Pipeline.Frame
import Mathlib.Data.List.Basic

/-! # The reference's run

The reference program is host-only: @main is a straight line of 413 StableHLO operations once each call of a
module-local function (the variance `_var`, which itself calls `_where`, and `relu`) is replaced by the callee's own
operations over the buffers of that call. A straight line terminates from any memory, and leaves every
TensorCore buffer at the fold of the operations' results over the launch contents; the eleven argument
buffers are written by no operation, so they end as launched. -/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 413 operations, in order: the five windows' lists one after the other. -/
abbrev ops : List (HloOp τ sig (Elt F)) := ops0 ++ (ops1 ++ (ops2 ++ (ops3 ++ ops4)))

/-! ## @main is that straight line

Each window of @main is the straight line of its own list: unfolding a callee at its call and a buffer record at
its fields leaves one chain of operation steps on both sides, and sequencing re-associates by computation. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl

/-- @main runs its windows in order, and a line of two lists is the first list's line and then the second's. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore references only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

/-- No operation allocates: each determines its result. -/
theorem ops_fresh : (ops : List (HloOp τ sig (Elt F))).Forall fun op => op.fresh = ∅ :=
  List.forall_append.mpr ⟨ops0_fresh, List.forall_append.mpr ⟨ops1_fresh, List.forall_append.mpr ⟨ops2_fresh,
    List.forall_append.mpr ⟨ops3_fresh, ops4_fresh⟩⟩⟩⟩

/-! ## What no operation writes

A buffer outside every window's list of written buffers goes through all five windows unchanged. -/

/-- The fold over the whole line is the fold over the windows in turn. -/
theorem after_ops (V : Valuation τ sig (Elt F)) :
    after ops V = after ops4 (after ops3 (after ops2 (after ops1 (after ops0 V)))) := by
  simp only [ops, StableHlo.after_append]

theorem after_ops_keep (V : Valuation τ sig (Elt F)) (r : Ref sig .tc)
    (h0 : r ∉ ops0_W) (h1 : r ∉ ops1_W) (h2 : r ∉ ops2_W) (h3 : r ∉ ops3_W) (h4 : r ∉ ops4_W) :
    after ops V (Proc.devRef .tc r) = V (Proc.devRef .tc r) := by
  rw [after_ops, after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-! ## The run -/

/-- The device's buffer contents at launch. -/
abbrev V0 (m : (ℓ : Loc nD τ sig) → Buf (Elt F) ℓ) (c : Dev nD) : Valuation τ sig (Elt F) := fun b => m (c, b)

/-- @main's result buffer after the run: the fold of the operations over the launch contents, read at it. -/
abbrev res (m : (ℓ : Loc nD τ sig) → Buf (Elt F) ℓ) (c : Dev nD) : (main_v238 : Ref sig .tc).ty.Contents (Elt F) :=
  after ops (V0 m c) (Proc.devRef .tc main_v238)

/-- On every device, for any float values, from any memory with zero counters: every weakly fair execution of
    @main terminates with the result buffer at the operations' fold over the launch contents and the eleven
    argument buffers as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v238) = after ops (fun b => m ((c : Dev nD), b)) (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h c main_v238,
      (h c main_arg0).trans (after_ops_keep _ main_arg0 (by decide) (by decide) (by decide) (by decide) (by decide)),
      (h c main_arg1).trans (after_ops_keep _ main_arg1 (by decide) (by decide) (by decide) (by decide) (by decide)),
      (h c main_arg2).trans (after_ops_keep _ main_arg2 (by decide) (by decide) (by decide) (by decide) (by decide)),
      (h c main_arg3).trans (after_ops_keep _ main_arg3 (by decide) (by decide) (by decide) (by decide) (by decide)),
      (h c main_arg4).trans (after_ops_keep _ main_arg4 (by decide) (by decide) (by decide) (by decide) (by decide)),
      (h c main_arg5).trans (after_ops_keep _ main_arg5 (by decide) (by decide) (by decide) (by decide) (by decide)),
      (h c main_arg6).trans (after_ops_keep _ main_arg6 (by decide) (by decide) (by decide) (by decide) (by decide)),
      (h c main_arg7).trans (after_ops_keep _ main_arg7 (by decide) (by decide) (by decide) (by decide) (by decide)),
      (h c main_arg8).trans (after_ops_keep _ main_arg8 (by decide) (by decide) (by decide) (by decide) (by decide)),
      (h c main_arg9).trans (after_ops_keep _ main_arg9 (by decide) (by decide) (by decide) (by decide) (by decide)),
      (h c main_arg10).trans (after_ops_keep _ main_arg10 (by decide) (by decide) (by decide) (by decide) (by decide))⟩)
    (run_seq scopedRefs_eq scopedSems_eq defs main (fun _ => ops) main_eq (fun _ => ops_sub) m ρ
      (fun _ => List.forall_iff_forall_mem.mp ops_fresh))

/-- The reference's frame: every weakly fair execution of @main terminates with the argument buffers as launched. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun _ h c => (h c).2) (run m ρ)

end Cert.ReferenceIdeal.Value

end
-- ==== Proof.Spec.lean ====
import Idealize.ShloMosaic.PureOps.Ideal

/-! The mathematics both programs compute, over the extended reals, on plain index types.

A graph of 50000 nodes carries a 64-wide feature row per node. One layer adds to every node the sum of
its in-neighbours' rows (`agg`, a function of the feature table that the two programs share), applies a
linear map with bias, normalises every column by its mean and variance over the nodes, clips below at
zero, applies a second linear map with bias, normalises and clips again. After each of the three layers
the rows of the nodes of one segment are summed into that segment's row (512 segments); the three pooled
tables are laid side by side. The two programs differ in how they obtain a column's variance: from the
moments, as the mean of the squares less the square of the mean, or centred, as the mean of the squared
deviations. -/

noncomputable section

namespace Cert.Spec

open Idealize.ShloMosaic

/-- A feature table: one row of 64 per node. -/
abbrev Act : Type := Fin 50000 → Fin 64 → EReal
/-- A 64 × 64 weight matrix, row index the input feature. -/
abbrev Mat : Type := Fin 64 → Fin 64 → EReal
/-- A row of 64. -/
abbrev Row : Type := Fin 64 → EReal
/-- A pooled table: one row of 64 per segment. -/
abbrev Pooled : Type := Fin 512 → Fin 64 → EReal

/-- The number of nodes, 50000, as both programs write it: a float literal. -/
def nodes : EReal := Ideal.ofBits .f32 0x47435000#32
/-- The variance offset, the float nearest 1e-5, as both programs write it. -/
def eps : EReal := Ideal.ofBits .f32 0x3727C5AC#32

/-- A linear map with bias, row by row: `(z W)[n, d] + b[d]`. -/
def lin (z : Act) (W : Mat) (b : Row) : Act := fun n d => (∑ k : Fin 64, z n k * W k d) + b d
/-- Column sums over the nodes. -/
def colSum (y : Act) : Row := fun d => ∑ n : Fin 50000, y n d
/-- Column sums of squares over the nodes. -/
def colSumSq (y : Act) : Row := fun d => ∑ n : Fin 50000, y n d * y n d
/-- Column means. -/
def mean (y : Act) : Row := fun d => Ideal.div (colSum y d) nodes
/-- Column variances from the moments: the mean of the squares less the square of the mean. -/
def varMoments (y : Act) : Row := fun d => Ideal.div (colSumSq y d) nodes - mean y d * mean y d
/-- Column variances, centred: the mean of the squared deviations from the mean. -/
def varCentred (y : Act) : Row :=
  fun d => Ideal.div (∑ n : Fin 50000, (y n d - mean y d) * (y n d - mean y d)) nodes
/-- Normalise each column by `mu` and `var`, scale by `g`, shift by `b`, clip below at zero. -/
def normRelu (y : Act) (mu var g b : Row) : Act :=
  fun n d => max ((y n d - mu d) * Ideal.rsqrt (var d + eps) * g d + b d) 0
/-- Sum the rows of the nodes whose segment word is `g`. -/
def pool (h : Act) (seg : Fin 50000 → BitVec 32) : Pooled :=
  fun g d => ∑ n : Fin 50000, if seg n = BitVec.ofNat 32 g.val then h n d else 0

/-- One layer, the variance obtained by `var`. -/
def layerWith (var : Act → Row) (agg : Act → Act) (h : Act) (W1 : Mat) (b1 g1 bt1 : Row) (W2 : Mat) (b2 go bo : Row) : Act :=
  let y1 := lin (fun n k => h n k + agg h n k) W1 b1
  let r1 := normRelu y1 (mean y1) (var y1) g1 bt1
  let y2 := lin r1 W2 b2
  normRelu y2 (mean y2) (var y2) go bo

/-- The per-layer parameters, layer by layer. -/
structure Params where
  W1 : Fin 3 → Mat
  b1 : Fin 3 → Row
  g1 : Fin 3 → Row
  bt1 : Fin 3 → Row
  W2 : Fin 3 → Mat
  b2 : Fin 3 → Row
  go : Fin 3 → Row
  bo : Fin 3 → Row

/-- The feature table after each layer: `feats … 0` the input, `feats … (l + 1)` after layer `l`. -/
def feats (var : Act → Row) (agg : Act → Act) (x : Act) (P : Params) : Fin 4 → Act
  | ⟨0, _⟩ => x
  | ⟨1, _⟩ => layerWith var agg x (P.W1 0) (P.b1 0) (P.g1 0) (P.bt1 0) (P.W2 0) (P.b2 0) (P.go 0) (P.bo 0)
  | ⟨2, _⟩ => layerWith var agg (layerWith var agg x (P.W1 0) (P.b1 0) (P.g1 0) (P.bt1 0) (P.W2 0) (P.b2 0) (P.go 0) (P.bo 0))
      (P.W1 1) (P.b1 1) (P.g1 1) (P.bt1 1) (P.W2 1) (P.b2 1) (P.go 1) (P.bo 1)
  | ⟨3, _⟩ => layerWith var agg (layerWith var agg (layerWith var agg x (P.W1 0) (P.b1 0) (P.g1 0) (P.bt1 0) (P.W2 0) (P.b2 0) (P.go 0) (P.bo 0))
      (P.W1 1) (P.b1 1) (P.g1 1) (P.bt1 1) (P.W2 1) (P.b2 1) (P.go 1) (P.bo 1))
      (P.W1 2) (P.b1 2) (P.g1 2) (P.bt1 2) (P.W2 2) (P.b2 2) (P.go 2) (P.bo 2)

/-- The result: the three layers' pooled tables side by side, 192 columns. -/
def result (var : Act → Row) (agg : Act → Act) (x : Act) (P : Params) (seg : Fin 50000 → BitVec 32) :
    Fin 512 → Fin 192 → EReal :=
  fun g j =>
    if h0 : j.val < 64 then pool (feats var agg x P 1) seg g ⟨j.val, h0⟩
    else if h1 : j.val < 128 then pool (feats var agg x P 2) seg g ⟨j.val - 64, by omega⟩
    else pool (feats var agg x P 3) seg g ⟨j.val - 128, by omega⟩

/-- An extended real that is a real number. -/
def IsReal (x : EReal) : Prop := ∃ r : ℝ, x = (r : EReal)
/-- A feature table all of whose entries are real numbers. -/
def RealAct (y : Act) : Prop := ∀ n d, IsReal (y n d)
/-- A matrix all of whose entries are real numbers. -/
def RealMat (W : Mat) : Prop := ∀ k d, IsReal (W k d)
/-- A row all of whose entries are real numbers. -/
def RealRow (b : Row) : Prop := ∀ d, IsReal (b d)
/-- Parameters all of whose entries are real numbers. -/
structure Params.IsReal (P : Params) : Prop where
  W1 : ∀ l, RealMat (P.W1 l)
  b1 : ∀ l, RealRow (P.b1 l)
  g1 : ∀ l, RealRow (P.g1 l)
  bt1 : ∀ l, RealRow (P.bt1 l)
  W2 : ∀ l, RealMat (P.W2 l)
  b2 : ∀ l, RealRow (P.b2 l)
  go : ∀ l, RealRow (P.go l)
  bo : ∀ l, RealRow (P.bo l)

end Cert.Spec

end
-- ==== Proof.SpecLaws.lean ====
import Idealize.ShloMosaic.PureOps.Ideal
import Mathlib.Algebra.BigOperators.Fin
import Mathlib.Algebra.Order.BigOperators.Group.Finset
import Mathlib.Data.EReal.Operations
import Mathlib.Tactic.Ring
import Mathlib.Tactic.Linarith
import Mathlib.Tactic.NormNum
import Mathlib.Tactic.Positivity
import proofs.«428437_j36421322670670_1_alg».proof.Proof.Spec

/-! The law that joins the two ways of obtaining a variance, and the closure of the real numbers under a layer.

On a column of real numbers the mean of the squares less the square of the mean is the mean of the squared
deviations from the mean. A layer keeps real tables real: sums and products of reals are real, the centred
variance of reals is a real that is not negative, the offset is positive, so the reciprocal square root is
taken at a positive real. Hence on real inputs and real parameters the two networks agree layer by layer. -/

noncomputable section

namespace Cert.Spec

open Idealize.ShloMosaic

/-! ### Real numbers among the extended reals -/

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type} (s : Finset ι) (f : ι → EReal) (h : ∀ i ∈ s, IsReal (f i)) :
    IsReal (∑ i ∈ s, f i) :=
  Finset.sum_induction f IsReal (fun _ _ => IsReal.add) IsReal.zero h

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]

/-! ### The two literals -/

/-- The node count's float pattern is the real 50000. -/
theorem nodes_eq : nodes = ((50000 : ℝ) : EReal) := by
  simp [nodes, Ideal.ofBits, Ideal.ieee, -EReal.coe_mul]
  norm_num

/-- The variance offset's float pattern is a positive real, 10995116 · 2⁻⁴⁰. -/
theorem eps_pos : ∃ e : ℝ, 0 < e ∧ eps = (e : EReal) :=
  ⟨10995116 * (2 : ℝ) ^ (-40 : ℤ), by positivity,
    by simp [eps, Ideal.ofBits, Ideal.ieee, -EReal.coe_mul]⟩

/-! ### A real table and its column statistics -/

/-- A table of real numbers, read as a feature table. -/
def ofReal (y : Fin 50000 → Fin 64 → ℝ) : Act := fun n d => (y n d : EReal)

/-- The column mean of a table of reals. -/
def meanR (y : Fin 50000 → Fin 64 → ℝ) (d : Fin 64) : ℝ := (∑ n, y n d) * (1 / 50000)

/-- The centred column variance of a table of reals. -/
def varR (y : Fin 50000 → Fin 64 → ℝ) (d : Fin 64) : ℝ :=
  (∑ n, (y n d - meanR y d) * (y n d - meanR y d)) * (1 / 50000)

theorem RealAct.exists_ofReal {y : Act} (hy : RealAct y) : ∃ y', y = ofReal y' := by
  have hy' : ∀ n d, ∃ r : ℝ, y n d = (r : EReal) := hy
  choose y' h using hy'
  exact ⟨y', funext fun n => funext fun d => h n d⟩

theorem ofReal_real (y : Fin 50000 → Fin 64 → ℝ) : RealAct (ofReal y) := fun n d => IsReal.coe (y n d)

theorem mean_ofReal (y : Fin 50000 → Fin 64 → ℝ) (d : Fin 64) :
    mean (ofReal y) d = ((meanR y d : ℝ) : EReal) := by
  show Ideal.div (∑ n, ((y n d : ℝ) : EReal)) nodes = (((∑ n, y n d) * (1 / 50000) : ℝ) : EReal)
  rw [nodes_eq, Ideal.div_coe (by norm_num : (50000 : ℝ) ≠ 0), ← coe_sum, ← EReal.coe_mul]

theorem colSumSq_ofReal (y : Fin 50000 → Fin 64 → ℝ) (d : Fin 64) :
    colSumSq (ofReal y) d = ((∑ n, y n d * y n d : ℝ) : EReal) := by
  show (∑ n, ((y n d : ℝ) : EReal) * ((y n d : ℝ) : EReal)) = _
  rw [coe_sum]
  exact Finset.sum_congr rfl fun n _ => (EReal.coe_mul _ _).symm

theorem varMoments_ofReal (y : Fin 50000 → Fin 64 → ℝ) (d : Fin 64) :
    varMoments (ofReal y) d
      = (((∑ n, y n d * y n d) * (1 / 50000) - meanR y d * meanR y d : ℝ) : EReal) := by
  show Ideal.div (colSumSq (ofReal y) d) nodes - mean (ofReal y) d * mean (ofReal y) d = _
  rw [colSumSq_ofReal, mean_ofReal, nodes_eq, Ideal.div_coe (by norm_num : (50000 : ℝ) ≠ 0),
    ← EReal.coe_mul, ← EReal.coe_mul, ← EReal.coe_sub]

theorem varCentred_ofReal (y : Fin 50000 → Fin 64 → ℝ) (d : Fin 64) :
    varCentred (ofReal y) d = ((varR y d : ℝ) : EReal) := by
  have h : (∑ n, (((y n d : ℝ) : EReal) - mean (ofReal y) d) * (((y n d : ℝ) : EReal) - mean (ofReal y) d))
      = ((∑ n, (y n d - meanR y d) * (y n d - meanR y d) : ℝ) : EReal) := by
    rw [coe_sum, mean_ofReal]
    exact Finset.sum_congr rfl fun n _ => by rw [← EReal.coe_sub, ← EReal.coe_mul]
  show Ideal.div (∑ n, (((y n d : ℝ) : EReal) - mean (ofReal y) d) * (((y n d : ℝ) : EReal) - mean (ofReal y) d)) nodes
      = (((∑ n, (y n d - meanR y d) * (y n d - meanR y d)) * (1 / 50000) : ℝ) : EReal)
  rw [h, nodes_eq, Ideal.div_coe (by norm_num : (50000 : ℝ) ≠ 0), ← EReal.coe_mul]

theorem varR_nonneg (y : Fin 50000 → Fin 64 → ℝ) (d : Fin 64) : 0 ≤ varR y d :=
  mul_nonneg (Finset.sum_nonneg fun _ _ => mul_self_nonneg _) (by norm_num)

/-! ### The law -/

/-- Over 50000 reals: the mean of the squares less the square of the mean is the mean of the squared deviations. -/
theorem real_var_identity (f : Fin 50000 → ℝ) :
    (∑ n, f n * f n) * (1 / 50000) - ((∑ n, f n) * (1 / 50000)) * ((∑ n, f n) * (1 / 50000))
      = (∑ n, (f n - (∑ j, f j) * (1 / 50000)) * (f n - (∑ j, f j) * (1 / 50000))) * (1 / 50000) := by
  generalize hm : (∑ j, f j) * (1 / 50000) = m
  have hS : (∑ n, f n) = 50000 * m := by rw [← hm]; ring
  have h : (∑ n, (f n - m) * (f n - m)) = (∑ n, f n * f n) - 2 * m * (∑ n, f n) + 50000 * (m * m) := by
    have e : ∀ n, (f n - m) * (f n - m) = f n * f n - 2 * m * f n + m * m := fun n => by ring
    simp only [e]
    rw [Finset.sum_add_distrib, Finset.sum_sub_distrib, Finset.sum_const, Finset.card_univ,
      Fintype.card_fin, nsmul_eq_mul, ← Finset.mul_sum]
    norm_num
  rw [h, hS]; ring

/-- On a table of reals the variance from the moments is the centred variance. -/
theorem varMoments_eq_varCentred {y : Act} (hy : RealAct y) : varMoments y = varCentred y := by
  obtain ⟨y', rfl⟩ := hy.exists_ofReal
  funext d
  rw [varMoments_ofReal, varCentred_ofReal]
  exact congrArg Real.toEReal (real_var_identity fun n => y' n d)

/-! ### Real tables stay real -/

theorem lin_real {z : Act} {W : Mat} {b : Row} (hz : RealAct z) (hW : RealMat W) (hb : RealRow b) :
    RealAct (lin z W b) := by
  intro n d
  show IsReal ((∑ k : Fin 64, z n k * W k d) + b d)
  exact (IsReal.sum _ _ fun k _ => (hz n k).mul (hW k d)).add (hb d)

theorem normRelu_centred_real {y : Act} {g b : Row} (hy : RealAct y) (hg : RealRow g) (hb : RealRow b) :
    RealAct (normRelu y (mean y) (varCentred y) g b) := by
  obtain ⟨y', rfl⟩ := hy.exists_ofReal
  obtain ⟨e, he0, he⟩ := eps_pos
  intro n d
  show IsReal (max ((ofReal y' n d - mean (ofReal y') d) * Ideal.rsqrt (varCentred (ofReal y') d + eps) * g d + b d) 0)
  have hpos : 0 < varR y' d + e := by have := varR_nonneg y' d; linarith
  have hr : IsReal (Ideal.rsqrt (varCentred (ofReal y') d + eps)) := by
    rw [varCentred_ofReal, he, ← EReal.coe_add, Ideal.rsqrt_coe, if_neg (not_lt.mpr hpos.le), if_neg hpos.ne']
    exact IsReal.coe _
  have hm : IsReal (mean (ofReal y') d) := by rw [mean_ofReal]; exact IsReal.coe _
  exact (((((ofReal_real y' n d).sub hm).mul hr).mul (hg d)).add (hb d)).max IsReal.zero

/-- On real inputs and parameters one layer is the same whichever way its variances are obtained, and is real. -/
theorem layer_moments_eq_centred {agg : Act → Act} (hagg : ∀ h, RealAct h → RealAct (agg h))
    {h : Act} {W1 : Mat} {b1 g1 bt1 : Row} {W2 : Mat} {b2 go bo : Row}
    (hh : RealAct h) (hW1 : RealMat W1) (hb1 : RealRow b1) (hg1 : RealRow g1) (hbt1 : RealRow bt1)
    (hW2 : RealMat W2) (hb2 : RealRow b2) (hgo : RealRow go) (hbo : RealRow bo) :
    layerWith varMoments agg h W1 b1 g1 bt1 W2 b2 go bo = layerWith varCentred agg h W1 b1 g1 bt1 W2 b2 go bo
      ∧ RealAct (layerWith varCentred agg h W1 b1 g1 bt1 W2 b2 go bo) := by
  have hz : RealAct (fun n k => h n k + agg h n k) := fun n k => (hh n k).add (hagg h hh n k)
  have hy1 : RealAct (lin (fun n k => h n k + agg h n k) W1 b1) := lin_real hz hW1 hb1
  have hr1 : RealAct (normRelu (lin (fun n k => h n k + agg h n k) W1 b1) (mean (lin (fun n k => h n k + agg h n k) W1 b1))
      (varCentred (lin (fun n k => h n k + agg h n k) W1 b1)) g1 bt1) := normRelu_centred_real hy1 hg1 hbt1
  have hy2 := lin_real hr1 hW2 hb2
  have hout := normRelu_centred_real hy2 hgo hbo
  have e1 := varMoments_eq_varCentred hy1
  have e2 := varMoments_eq_varCentred hy2
  refine ⟨?_, hout⟩
  unfold layerWith
  dsimp only
  rw [e1, e2]

/-! ### The whole network -/

theorem feats_one (var : Act → Row) (agg : Act → Act) (x : Act) (P : Params) :
    feats var agg x P 1
      = layerWith var agg x (P.W1 0) (P.b1 0) (P.g1 0) (P.bt1 0) (P.W2 0) (P.b2 0) (P.go 0) (P.bo 0) := rfl

theorem feats_two (var : Act → Row) (agg : Act → Act) (x : Act) (P : Params) :
    feats var agg x P 2
      = layerWith var agg (feats var agg x P 1)
          (P.W1 1) (P.b1 1) (P.g1 1) (P.bt1 1) (P.W2 1) (P.b2 1) (P.go 1) (P.bo 1) := rfl

theorem feats_three (var : Act → Row) (agg : Act → Act) (x : Act) (P : Params) :
    feats var agg x P 3
      = layerWith var agg (feats var agg x P 2)
          (P.W1 2) (P.b1 2) (P.g1 2) (P.bt1 2) (P.W2 2) (P.b2 2) (P.go 2) (P.bo 2) := rfl

/-- On real inputs and parameters every layer's table is the same for the two variances, and is real. -/
theorem feats_moments_eq_centred {agg : Act → Act} (hagg : ∀ h, RealAct h → RealAct (agg h)) {x : Act} (hx : RealAct x)
    {P : Params} (hP : P.IsReal) :
    (feats varMoments agg x P 1 = feats varCentred agg x P 1 ∧ RealAct (feats varCentred agg x P 1))
      ∧ (feats varMoments agg x P 2 = feats varCentred agg x P 2 ∧ RealAct (feats varCentred agg x P 2))
      ∧ (feats varMoments agg x P 3 = feats varCentred agg x P 3 ∧ RealAct (feats varCentred agg x P 3)) := by
  have L0 : feats varMoments agg x P 1 = feats varCentred agg x P 1 ∧ RealAct (feats varCentred agg x P 1) :=
    layer_moments_eq_centred hagg hx (hP.W1 0) (hP.b1 0) (hP.g1 0) (hP.bt1 0) (hP.W2 0) (hP.b2 0) (hP.go 0) (hP.bo 0)
  have L1 : feats varMoments agg x P 2 = feats varCentred agg x P 2 ∧ RealAct (feats varCentred agg x P 2) := by
    rw [feats_two, feats_two, L0.1]
    exact layer_moments_eq_centred hagg L0.2 (hP.W1 1) (hP.b1 1) (hP.g1 1) (hP.bt1 1) (hP.W2 1) (hP.b2 1) (hP.go 1) (hP.bo 1)
  have L2 : feats varMoments agg x P 3 = feats varCentred agg x P 3 ∧ RealAct (feats varCentred agg x P 3) := by
    rw [feats_three, feats_three, L1.1]
    exact layer_moments_eq_centred hagg L1.2 (hP.W1 2) (hP.b1 2) (hP.g1 2) (hP.bt1 2) (hP.W2 2) (hP.b2 2) (hP.go 2) (hP.bo 2)
  exact ⟨L0, L1, L2⟩

/-- On real inputs and parameters the two networks have the same result. -/
theorem result_moments_eq_centred {agg : Act → Act} (hagg : ∀ h, RealAct h → RealAct (agg h)) {x : Act} (hx : RealAct x)
    {P : Params} (hP : P.IsReal) (seg : Fin 50000 → BitVec 32) :
    result varMoments agg x P seg = result varCentred agg x P seg := by
  obtain ⟨⟨f1, _⟩, ⟨f2, _⟩, ⟨f3, _⟩⟩ := feats_moments_eq_centred hagg hx hP
  unfold result
  rw [f1, f2, f3]

end Cert.Spec

end
-- ==== Proof.KernelIdeal.Inputs.lean ====
import proofs.«428437_j36421322670670_1_alg».proof.Proof.Gen.KernelIdeal.Launch
import proofs.«428437_j36421322670670_1_alg».proof.Proof.Spec
import proofs.«428437_j36421322670670_1_alg».proof.Proof.SpecLaws
import Idealize.ShloMosaic.Lib.ValueIdx
import Idealize.ShloMosaic.Lib.IdealHost
import Idealize.ShloMosaic.PureOps.Ideal.Laws

/-! # The inputs of the kernel program as the specification's objects

The launch memory of core `c` holds the node features, the edge list, the segment words and the eight stacked
parameter arrays. They are read here at coordinates as the specification's feature table, segment function and
parameter record. The neighbour aggregation is the function of the feature table that the program's host operations
compute from the edge list: the source indices (row 0 of the edge list), a negative index wrapped by adding the
number of nodes, select the rows of the table that are gathered, one per edge; the gathered rows are added into an
all-zero table at the rows the target indices (row 1 of the edge list) name. On a table of real numbers it answers a
table of real numbers: every entry is zero plus a finite sum of entries of the table. -/

noncomputable section

namespace Cert.KernelIdeal.Value

open Idealize.ShloMosaic Idealize.ShloMosaic.TcCoe Idealize.ShloMosaic.ValueIdx
open Cert.KernelIdeal.Gen
open Cert.Spec (Act Mat Row Params IsReal RealAct)

/-- A launch memory of the program, at the ideal instance. -/
abbrev Mem : Type := (ℓ : Loc nD τ sig) → Buf (Elt Ideal) ℓ

/-- The node features: `main_arg0` at `(n, k)`. -/
def xK (m : Mem) (c : Dev nD) : Act :=
  fun n k => (m ((c : Dev nD), Proc.devRef .tc main_arg0) : S50000x64.Idx → EReal) (ix2 n k)

/-- The segment words: `main_arg2` at `n`. -/
def segK (m : Mem) (c : Dev nD) : Fin 50000 → BitVec 32 :=
  fun n => (m ((c : Dev nD), Proc.devRef .tc main_arg2) : S50000.Idx → BitVec 32) (ix1 n)

/-- The parameters, layer by layer: the stacked arrays `main_arg3 … main_arg10` at `(l, k, d)` or `(l, d)`. -/
def paramsK (m : Mem) (c : Dev nD) : Params where
  W1 := fun l k d => (m ((c : Dev nD), Proc.devRef .tc main_arg3) : S3x64x64.Idx → EReal) (ix3 l k d)
  b1 := fun l d => (m ((c : Dev nD), Proc.devRef .tc main_arg4) : S3x64.Idx → EReal) (ix2 l d)
  g1 := fun l d => (m ((c : Dev nD), Proc.devRef .tc main_arg5) : S3x64.Idx → EReal) (ix2 l d)
  bt1 := fun l d => (m ((c : Dev nD), Proc.devRef .tc main_arg6) : S3x64.Idx → EReal) (ix2 l d)
  W2 := fun l k d => (m ((c : Dev nD), Proc.devRef .tc main_arg7) : S3x64x64.Idx → EReal) (ix3 l k d)
  b2 := fun l d => (m ((c : Dev nD), Proc.devRef .tc main_arg8) : S3x64.Idx → EReal) (ix2 l d)
  go := fun l d => (m ((c : Dev nD), Proc.devRef .tc main_arg9) : S3x64.Idx → EReal) (ix2 l d)
  bo := fun l d => (m ((c : Dev nD), Proc.devRef .tc main_arg10) : S3x64.Idx → EReal) (ix2 l d)

/-! ## The neighbour aggregation -/

/-- Row 0 of the edge list, the source indices, as a flat vector of 800000 words. -/
def edgeSrc (E : IVec S2x800000 32) : IVec S800000 32 :=
  shapeCast S800000 (extractStridedSlice S1x800000 ![0, 0] E slices_S2x800000_S1x800000_0_0) shapeCasts_S1x800000_S800000

/-- Row 1 of the edge list, the target indices, as a flat vector of 800000 words. -/
def edgeDst (E : IVec S2x800000 32) : IVec S800000 32 :=
  shapeCast S800000 (extractStridedSlice S1x800000 ![1, 0] E slices_S2x800000_S1x800000_1_0) shapeCasts_S1x800000_S800000

/-- A negative index wrapped: where the word is below zero, the word plus 50000. -/
def wrapNeg (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The rows of the table `T` that the source indices name, one per edge. -/
def gathered (E : IVec S2x800000 32) (T : FVec Ideal S50000x64 .f32) : FVec Ideal S800000x64 .f32 :=
  Host.gather gather_S50000x64_S800000x1_S800000x64_1_0_n_n_0_1_164 T
    (broadcastInDim S800000x1 ![0] bcast_S800000_S800000x1_0 (wrapNeg (edgeSrc E)))

/-- The aggregation of the table `T` along the edge list `E`: the gathered rows added into an all-zero table at the
    rows the target indices name. -/
def aggOf (E : IVec S2x800000 32) (T : FVec Ideal S50000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (edgeDst E))
    (gathered E T)

/-- A feature table as an array of the program's shape. -/
def tableOf (h : Act) : FVec Ideal S50000x64 .f32 := fun i => h (i 0) (i 1)

/-- A feature table read back from its array at coordinates is the table. -/
theorem tableOf_ix2 (h : Act) (n : Fin 50000) (k : Fin 64) : tableOf h (ix2 n k) = h n k := rfl

/-- The neighbour aggregation as the program computes it from the edge list `main_arg1`. -/
def aggK (m : Mem) (c : Dev nD) : Act → Act :=
  fun h n k => aggOf (m ((c : Dev nD), Proc.devRef .tc main_arg1) : S2x800000.Idx → BitVec 32) (tableOf h) (ix2 n k)

/-! ## Real tables aggregate to real tables -/

/-- At the extended reals the aggregation is the exact accumulating scatter: the all-zero table plus, at every entry,
    the sum of the gathered entries that land on it. -/
theorem aggOf_eq (E : IVec S2x800000 32) (T : FVec Ideal S50000x64 .f32) :
    aggOf E T = Ideal.hostScatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (edgeDst E)) (gathered E T) := by
  rw [aggOf, Host.scatterAdd, Ideal.hostScatterAdd_def]

/-- An accumulating scatter of real updates into a real operand is real at every index: an entry is the operand's
    entry plus a finite sum of updates. -/
theorem hostScatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ fun j _ => hu j)

/-- The all-zero table is real. -/
theorem zeros_real (i : S50000x64.Idx) :
    IsReal (broadcastInDim S50000x64 ![] bcast_S_S50000x64 (constant (F := Ideal) S_ .f32 0x00000000#32) i) := by
  rw [broadcastInDim_scalar_apply, constant_apply, Ideal.ofBits_zero_f32]
  exact IsReal.zero

/-- A gathered entry is an entry of the table. -/
theorem gathered_real (E : IVec S2x800000 32) (T : FVec Ideal S50000x64 .f32) (hT : ∀ i, IsReal (T i))
    (j : S800000x64.Idx) : IsReal (gathered E T j) := by
  unfold gathered Host.gather
  exact hT _

/-- Along any edge list, the aggregation of an array of real numbers is an array of real numbers. -/
theorem aggOf_real (E : IVec S2x800000 32) (T : FVec Ideal S50000x64 .f32) (hT : ∀ i, IsReal (T i))
    (i : S50000x64.Idx) : IsReal (aggOf E T i) := by
  rw [aggOf_eq]
  exact hostScatterAdd_real _ _ _ _ zeros_real (gathered_real E T hT) i

/-- On a table of real numbers the aggregation answers a table of real numbers. -/
theorem aggK_real (m : Mem) (c : Dev nD) (h : Act) (hh : RealAct h) : RealAct (aggK m c h) :=
  fun n k => aggOf_real _ (tableOf h) (fun i => hh (i 0) (i 1)) (ix2 n k)

end Cert.KernelIdeal.Value

end
-- ==== Proof.SpecTiles.lean ====
import Idealize.ShloMosaic.PureOps.Ideal
import Mathlib.Algebra.BigOperators.Fin
import Mathlib.Algebra.BigOperators.Group.Finset.Sigma
import Mathlib.Logic.Equiv.Fin.Basic
import proofs.«428437_j36421322670670_1_alg».proof.Proof.Spec

/-! Sums over the nodes cut into tiles, and running sums.

A sum over 50000 nodes is the sum, over the tiles, of the sums over each tile's rows; a sequence that
starts at its first term and adds one term per step ends at the sum of all terms. Addition on the
extended reals is a commutative monoid, so none of this needs the terms to be finite. -/

noncomputable section

namespace Cert.Spec

open Idealize.ShloMosaic

/-- Row `r` of tile `t`, tiles of `R` rows, is a row of the whole. -/
theorem tile_lt {T R N : ℕ} (hN : N = T * R) (t : Fin T) (r : Fin R) : R * t.val + r.val < N := by
  subst hN
  calc R * t.val + r.val < R * t.val + R := by have := r.isLt; omega
    _ = R * (t.val + 1) := by ring
    _ ≤ R * T := Nat.mul_le_mul_left _ t.isLt
    _ = T * R := Nat.mul_comm _ _

/-- A sum over `T * R` rows is the sum over `T` tiles of the sums over each tile's `R` rows. -/
theorem sum_tiles {M : Type} [AddCommMonoid M] (T R N : ℕ) (hN : N = T * R) (f : Fin N → M) :
    (∑ t : Fin T, ∑ r : Fin R, f ⟨R * t.val + r.val, tile_lt hN t r⟩) = ∑ n : Fin N, f n := by
  subst hN
  rw [← Equiv.sum_comp finProdFinEquiv f, Fintype.sum_prod_type]
  refine Finset.sum_congr rfl fun t _ => Finset.sum_congr rfl fun r _ => ?_
  refine congrArg f (Fin.ext ?_)
  simp [finProdFinEquiv, Nat.add_comm]

/-- A sequence that starts at its first term and adds one term per step ends at the sum of all terms. -/
theorem accum_fin {N : ℕ} (a s : Fin (N + 1) → EReal) (h0 : a 0 = 0 + s 0)
    (hs : ∀ t : Fin (N + 1), t.val ≠ 0 → a t = a ⟨t.val - 1, by omega⟩ + s t) :
    a (Fin.last N) = ∑ t, s t := by
  have key : ∀ (k : ℕ) (hk : k < N + 1),
      a ⟨k, hk⟩ = ∑ i : Fin (k + 1), s ⟨i.val, by have := i.isLt; omega⟩ := by
    intro k
    induction k with
    | zero =>
      intro hk
      rw [Fin.sum_univ_one]
      exact h0.trans (zero_add _)
    | succ k ih =>
      intro hk
      rw [hs ⟨k + 1, hk⟩ (by simp), Fin.sum_univ_castSucc]
      exact congrArg (· + s ⟨k + 1, hk⟩) (ih (by omega))
  exact key N (Nat.lt_succ_self N)

/-- The sum over the nodes, cut into 5 tiles of 10000 rows. -/
theorem sum_tiles5 (f : Fin 50000 → EReal) :
    (∑ t : Fin 5, ∑ r : Fin 10000, f ⟨10000 * t.val + r.val, by omega⟩) = ∑ n : Fin 50000, f n :=
  sum_tiles 5 10000 50000 (by norm_num) f

/-- The sum over the nodes, cut into 25 tiles of 2000 rows. -/
theorem sum_tiles25 (f : Fin 50000 → EReal) :
    (∑ t : Fin 25, ∑ r : Fin 2000, f ⟨2000 * t.val + r.val, by omega⟩) = ∑ n : Fin 50000, f n :=
  sum_tiles 25 2000 50000 (by norm_num) f

/-- The all-zero float pattern is the extended real zero. -/
theorem ofBits_zero : Ideal.ofBits .f32 0x00000000#32 = (0 : EReal) := by
  simp [Ideal.ofBits, Ideal.ieee]

/-- A product with an indicator keeps the other factor where the indicator is one and is zero elsewhere. -/
theorem onehot_mul (p : Prop) [Decidable p] (x : EReal) :
    (if p then (1 : EReal) else 0) * x = if p then x else 0 := by
  split_ifs
  · exact one_mul x
  · exact zero_mul x

end Cert.Spec

end
-- ==== Proof.KernelIdeal.Region0Value.lean ====
import proofs.«428437_j36421322670670_1_alg».proof.Proof.KernelIdeal.Region0
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.PureOps.Ideal.Laws
import Idealize.ShloMosaic.Lib.ValueLayout

/-! # What the first call of a layer leaves in its three outputs, over the extended reals

The call walks the 50000 nodes in five tiles of 10000 rows. At each tile it adds the tile of node features to the tile
of aggregated features, multiplies by the 64 × 64 weights, adds the bias row, and stores the resulting tile; it also adds
the tile's column sums, and the column sums of its squares, to two rows that are zeroed at the first tile and written
back after the last.

Over the extended reals every operation is exact: the roundings to bf16 are the identity, the block product into a
zero block is the contraction over the 64 shared coordinates, and a reduction along the rows is a finite sum. So row
`p` of tile `t` of the stored tile is row `10000 t + p` of the linear map `(H + A) W + B` of the whole arrays; the
five tiles cover the table; and each running row, a sequence that starts at the first tile's sums and adds one
tile's sums per step, ends at the sum over all the tiles, which is the sum over all the nodes. Addition on the
extended reals is a commutative monoid, so nothing here needs the entries to be finite. -/

noncomputable section

namespace Cert.KernelIdeal.Gen

open Idealize.ShloMosaic Idealize.ShloMosaic.TcCoe Idealize.ShloMosaic.ValueIdx
open Idealize.ShloMosaic.Pipeline (Dat)
/-! ## The block product's operand indices, axis by axis -/

theorem dotA0_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dotA0_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem dotA0_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem dotA0_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into the zero block, at row `p` and column `d`: the contraction over the 64 shared coordinates. -/
theorem matmulA0_apply (l : FVec Ideal S10000x64 .bf16) (r : FVec Ideal S64x64 .bf16) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p d) ((contrEquiv1 dot_S10000x64_S64x64_S10000x64_1_0_0_1_n_n 64 rfl rfl).symm k) = ix2 p k :=
    funext fun a => Fin.ext (by
      match a with
      | ⟨0, _⟩ => exact dotA0_lhs_row _ _
      | ⟨1, _⟩ => exact (dotA0_lhs_col _ _).trans hk)
  have er : dot_S10000x64_S64x64_S10000x64_1_0_0_1_n_n.rhsIdx (ix2 p d) ((contrEquiv1 dot_S10000x64_S64x64_S10000x64_1_0_0_1_n_n 64 rfl rfl).symm k) = ix2 k d :=
    funext fun a => Fin.ext (by
      match a with
      | ⟨0, _⟩ => exact (dotA0_rhs_row _ _).trans hk
      | ⟨1, _⟩ => exact dotA0_rhs_col _ _)
  rw [el, er]

/-- The linear payload at row `p`, column `d` of the tile: the row of the summed inputs against column `d` of the
    weights, plus the bias. -/
theorem pay0_lin_apply (v3 v4 : Vec Ideal S10000x64 .f32) (v8 : Vec Ideal S64x64 .f32) (v12 : Vec Ideal S1x64 .f32)
    (p : Fin 10000) (d : Fin 64) :
    k0_pay3 v3 v4 v8 v12 (ix2 p d)
      = (∑ k : Fin 64, (v3 (ix2 p k) + v4 (ix2 p k)) * v8 (ix2 k d)) + v12 (ix2 (0 : Fin 1) d) := by
  unfold k0_pay3
  simp only [shapeCast_self]
  rw [addf_apply]
  refine congrArg₂ (· + ·) ?_ ?_
  · exact matmulA0_apply _ _ p d
  · exact broadcastTo_1b_ab_apply v12 broadcasts_S1x64_S10000x64 p d

/-- A column sum over the tile's rows, at column `d`. -/
theorem colsumA0_apply (x : FVec Ideal S10000x64 .f32) (hacc : (0x00000000#32 : BitVec 32) = 0x00000000#32) (d : Fin 64) :
    shapeCast S1x64 (multiReduction (F := Ideal) .add [0] S64 x 0x00000000#32 reduces_S10000x64_S64 (.inl rfl) hacc) shapeCasts_S64_S1x64 (ix2 (0 : Fin 1) d)
      = ∑ p : Fin 10000, x (ix2 p d) := by
  refine (shapeCast_a_1a_apply _ shapeCasts_S64_S1x64 (0 : Fin 1) d).trans ?_
  refine (Ideal.multiReduction_add_single x 0x00000000#32 reduces_S10000x64_S64 (.inl rfl) hacc (ix1 d)).trans ?_
  refine Finset.sum_congr rfl fun p _ => congrArg x ?_
  funext a
  match a with
  | ⟨0, _⟩ => rfl
  | ⟨1, _⟩ => rfl

/-- The running column sums after a tile: what was there plus the tile's column sums of the linear payload. -/
theorem pay0_sum_apply (v3 v4 : Vec Ideal S10000x64 .f32) (v8 : Vec Ideal S64x64 .f32) (v12 : Vec Ideal S1x64 .f32)
    (v17 : Vec Ideal S1x64 .f32) (d : Fin 64) :
    k0_pay4 v3 v4 v8 v12 v17 (ix2 (0 : Fin 1) d)
      = v17 (ix2 (0 : Fin 1) d) + ∑ p : Fin 10000, k0_pay3 v3 v4 v8 v12 (ix2 p d) := by
  unfold k0_pay4
  simp only [shapeCast_self]
  rw [addf_apply]
  exact congrArg (v17 (ix2 (0 : Fin 1) d) + ·) (colsumA0_apply (k0_pay3 v3 v4 v8 v12) rfl d)

/-- The running column sums of squares after a tile. -/
theorem pay0_sumsq_apply (v3 v4 : Vec Ideal S10000x64 .f32) (v8 : Vec Ideal S64x64 .f32) (v12 : Vec Ideal S1x64 .f32)
    (v23 : Vec Ideal S1x64 .f32) (d : Fin 64) :
    k0_pay5 v3 v4 v8 v12 v23 (ix2 (0 : Fin 1) d)
      = v23 (ix2 (0 : Fin 1) d) + ∑ p : Fin 10000, k0_pay3 v3 v4 v8 v12 (ix2 p d) * k0_pay3 v3 v4 v8 v12 (ix2 p d) := by
  unfold k0_pay5
  simp only [shapeCast_self]
  rw [addf_apply]
  exact congrArg (v23 (ix2 (0 : Fin 1) d) + ·) (colsumA0_apply (mulf (k0_pay3 v3 v4 v8 v12) (k0_pay3 v3 v4 v8 v12)) rfl d)

/-- The reset payloads: the zero row. -/
theorem pay0_zero_sum_apply (d : Fin 64) : (k0_pay1 (F := Ideal)) (ix2 (0 : Fin 1) d) = Ideal.ofBits .f32 0x00000000#32 := rfl
theorem pay0_zero_sumsq_apply (d : Fin 64) : (k0_pay2 (F := Ideal)) (ix2 (0 : Fin 1) d) = Ideal.ofBits .f32 0x00000000#32 := rfl

/-! ## The statement's vocabulary -/

/-- The linear map of the summed inputs: `(H + A) W + B`, row by row. -/
abbrev lin0 (H A : S50000x64.Idx → EReal) (W : S64x64.Idx → EReal) (B : S1x64.Idx → EReal) : Cert.Spec.Act :=
  Cert.Spec.lin (fun n k => H (ix2 n k) + A (ix2 n k)) (fun k d => W (ix2 k d)) (fun d => B (ix2 (0 : Fin 1) d))

variable (V : (c : Dev nD) → (b : Ref sig .tc) → Buf (Elt Ideal) ((c : Thread nD τ).loc b))

/-- The four input arrays as the region finds them: node features, aggregated features, weights, bias. -/
abbrev arr0_h (c : Dev nD) : S50000x64.Idx → EReal := V c (Pipeline.arrRef spec0 0)
abbrev arr0_a (c : Dev nD) : S50000x64.Idx → EReal := V c (Pipeline.arrRef spec0 1)
abbrev arr0_w (c : Dev nD) : S64x64.Idx → EReal := V c (Pipeline.arrRef spec0 2)
abbrev arr0_b (c : Dev nD) : S1x64.Idx → EReal := V c (Pipeline.arrRef spec0 3)

/-- The linear map of those arrays. -/
abbrev y0 (c : Dev nD) : Cert.Spec.Act := lin0 (arr0_h V c) (arr0_a V c) (arr0_w V c) (arr0_b V c)

/-! ## The index maps over the grid, and a tile's rows in the table -/

/-- The windows over the node axis sit at block `t` at point `t`; the weights, the bias and the two rows of sums do not move. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem pt0_lt (t : Fin cfg0.N) : t.val < 5 := by
  have hN : cfg0.N = 5 := N_0
  have := t.isLt
  omega

/-- Row `p` of tile `t`, as a row of the whole table. -/
abbrev row0 (t : Fin cfg0.N) (p : Fin 10000) : Fin 50000 :=
  ⟨10000 * t.val + p.val, by have := pt0_lt t; have := p.isLt; omega⟩

/-! ## The input blocks at a point, read in the whole arrays -/

theorem iblk0_h_apply (c : Dev nD) (t : Fin cfg0.N) (p : Fin 10000) (k : Fin 64) :
    (iblk0 V c 0 t : Vec Ideal S10000x64 .f32) (ix2 p k) = arr0_h V c (ix2 (row0 t p) k) := by
  obtain ⟨erow, ecol, -⟩ := idx_facts0 t
  show arr0_h V c (((cfg0.win 0).blk t).view.emb (ix2 p k)) = _
  refine congrArg (arr0_h V c) (funext fun a => Fin.ext ?_)
  match a with
  | ⟨0, _⟩ => show win0_0.index t (0 : Fin 2) * 10000 + 1 * p.val = 10000 * t.val + p.val; rw [erow]; omega
  | ⟨1, _⟩ => show win0_0.index t (1 : Fin 2) * 64 + 1 * k.val = k.val; rw [ecol]; omega

theorem iblk0_a_apply (c : Dev nD) (t : Fin cfg0.N) (p : Fin 10000) (k : Fin 64) :
    (iblk0 V c 1 t : Vec Ideal S10000x64 .f32) (ix2 p k) = arr0_a V c (ix2 (row0 t p) k) := by
  obtain ⟨-, -, erow, ecol, -⟩ := idx_facts0 t
  show arr0_a V c (((cfg0.win 1).blk t).view.emb (ix2 p k)) = _
  refine congrArg (arr0_a V c) (funext fun a => Fin.ext ?_)
  match a with
  | ⟨0, _⟩ => show win0_1.index t (0 : Fin 2) * 10000 + 1 * p.val = 10000 * t.val + p.val; rw [erow]; omega
  | ⟨1, _⟩ => show win0_1.index t (1 : Fin 2) * 64 + 1 * k.val = k.val; rw [ecol]; omega

theorem iblk0_w_apply (c : Dev nD) (t : Fin cfg0.N) (k d : Fin 64) :
    (iblk0 V c 2 t : Vec Ideal S64x64 .f32) (ix2 k d) = arr0_w V c (ix2 k d) := by
  obtain ⟨-, -, -, -, erow, ecol, -⟩ := idx_facts0 t
  show arr0_w V c (((cfg0.win 2).blk t).view.emb (ix2 k d)) = _
  refine congrArg (arr0_w V c) (funext fun a => Fin.ext ?_)
  match a with
  | ⟨0, _⟩ => show win0_2.index t (0 : Fin 2) * 64 + 1 * k.val = k.val; rw [erow]; omega
  | ⟨1, _⟩ => show win0_2.index t (1 : Fin 2) * 64 + 1 * d.val = d.val; rw [ecol]; omega

theorem iblk0_b_apply (c : Dev nD) (t : Fin cfg0.N) (d : Fin 64) :
    (iblk0 V c 3 t : Vec Ideal S1x64 .f32) (ix2 (0 : Fin 1) d) = arr0_b V c (ix2 (0 : Fin 1) d) := by
  obtain ⟨-, -, -, -, -, -, erow, ecol, -⟩ := idx_facts0 t
  show arr0_b V c (((cfg0.win 3).blk t).view.emb (ix2 (0 : Fin 1) d)) = _
  refine congrArg (arr0_b V c) (funext fun a => Fin.ext ?_)
  match a with
  | ⟨0, _⟩ => show win0_3.index t (0 : Fin 2) * 1 + 1 * 0 = 0; rw [erow]
  | ⟨1, _⟩ => show win0_3.index t (1 : Fin 2) * 64 + 1 * d.val = d.val; rw [ecol]; omega

/-- THE TILE'S LINEAR PAYLOAD AT A POINT: row `p`, column `d` of what point `t` computes is the linear map at the tile's
    row in the table. -/
theorem lin0_at_point (c : Dev nD) (t : Fin cfg0.N) (p : Fin 10000) (d : Fin 64) :
    k0_pay3 (iblk0 V c 0 t) (iblk0 V c 1 t) (iblk0 V c 2 t) (iblk0 V c 3 t) (ix2 p d) = y0 V c (row0 t p) d := by
  refine (pay0_lin_apply (iblk0 V c 0 t) (iblk0 V c 1 t) (iblk0 V c 2 t) (iblk0 V c 3 t) p d).trans ?_
  show _ = (∑ k : Fin 64, (arr0_h V c (ix2 (row0 t p) k) + arr0_a V c (ix2 (row0 t p) k)) * arr0_w V c (ix2 k d)) + arr0_b V c (ix2 (0 : Fin 1) d)
  refine congrArg₂ (· + ·) (Finset.sum_congr rfl fun k _ => ?_) (iblk0_b_apply V c t d)
  exact congrArg₂ (· * ·) (congrArg₂ (· + ·) (iblk0_h_apply V c t p k) (iblk0_a_apply V c t p k)) (iblk0_w_apply V c t k d)

/-! ## The tile of the linear map: written back at every point, the tiles cover the table -/

/-- The table the first output ends holding, as contents of its array. -/
abbrev tab0_lin (c : Dev nD) : S50000x64.Idx → EReal :=
  fun i => y0 V c ⟨(i 0).val, (i 0).isLt⟩ ⟨(i 1).val, (i 1).isLt⟩

/-- What point `t` writes back is tile `t` of that table. -/
theorem flushed0_lin_eq (c : Dev nD) (t : Fin cfg0.N) :
    (dat0 V c).flushed 4 t = ((cfg0.win 4).blk t).view.read (Elt Ideal) (tab0_lin V c) := by
  show (cfg0.win 4).cut (grid0.coords t) ((dat0 V c).after 4 t) = _
  rw [after0_4 V c t]
  obtain ⟨-, -, -, -, -, -, -, -, erow, ecol, -⟩ := idx_facts0 t
  funext j
  obtain ⟨p, d, rfl⟩ : ∃ (p : Fin 10000) (d : Fin 64), j = ix2 p d := ⟨j 0, j 1, eq_ix2 j⟩
  show k0_pay3 (iblk0 V c 0 t) (iblk0 V c 1 t) (iblk0 V c 2 t) (iblk0 V c 3 t) (ix2 p d)
    = tab0_lin V c (((cfg0.win 4).blk t).view.emb (ix2 p d))
  refine (lin0_at_point V c t p d).trans ?_
  show y0 V c (row0 t p) d = y0 V c ⟨(((cfg0.win 4).blk t).view.emb (ix2 p d) 0).val, _⟩ ⟨(((cfg0.win 4).blk t).view.emb (ix2 p d) 1).val, _⟩
  have hrow : (((cfg0.win 4).blk t).view.emb (ix2 p d) 0).val = 10000 * t.val + p.val := by
    show win0_4.index t (0 : Fin 2) * 10000 + 1 * p.val = _
    rw [erow]; omega
  have hcol : (((cfg0.win 4).blk t).view.emb (ix2 p d) 1).val = d.val := by
    show win0_4.index t (1 : Fin 2) * 64 + 1 * d.val = _
    rw [ecol]; omega
  exact congrArg₂ (y0 V c) (Fin.ext hrow.symm) (Fin.ext hcol.symm)

/-- An index of the table is in point `t`'s tile iff each coordinate is in the tile's range on its axis. -/
theorem mem_blk0_lin (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole (Pipeline.arrRef spec0 4)).slice (win0_4.rect t)).set ↔ _
  rw [View.set_slice_whole, Rect.mem_set_unit]
  exact Iff.rfl

/-- THE FIRST OUTPUT after the region: the linear map, row by row. -/
theorem final0_lin (c : Dev nD) : (dat0 V c).arrAt 4 cfg0.N = tab0_lin V c :=
  (dat0 V c).arrAt_eq_of_cover 4 (tab0_lin V c) (fun t _ => flushed0_lin_eq V c t) fun i => by
    have hi : (i 0).val < 50000 := (i 0).isLt
    have hd : (i 1).val < 64 := (i 1).isLt
    have hN : cfg0.N = 5 := N_0
    refine ⟨⟨(i 0).val / 10000, by rw [hN]; omega⟩, flush0_4 _, ?_⟩
    obtain ⟨-, -, -, -, -, -, -, -, erow, ecol, -⟩ := idx_facts0 ⟨(i 0).val / 10000, by rw [hN]; omega⟩
    rw [mem_blk0_lin]
    intro a
    match a with
    | ⟨0, _⟩ =>
      show win0_4.index _ (0 : Fin 2) * 10000 ≤ (i 0).val ∧ (i 0).val < win0_4.index _ (0 : Fin 2) * 10000 + 10000
      rw [erow]; dsimp only; omega
    | ⟨1, _⟩ =>
      show win0_4.index _ (1 : Fin 2) * 64 ≤ (i 1).val ∧ (i 1).val < win0_4.index _ (1 : Fin 2) * 64 + 64
      rw [ecol]; omega

/-! ## The two rows of sums: reset at the first point, added to at every point, written back after the last -/

/-- The grid's five points, counted from the first. -/
def pt0 (i : Fin (4 + 1)) : Fin cfg0.N := ⟨i.val, by have hN : cfg0.N = 5 := N_0; rw [hN]; exact i.isLt⟩

/-- What the row of column sums holds after point `t`. -/
abbrev acc0_sum (c : Dev nD) (t : Fin cfg0.N) : Vec Ideal S1x64 .f32 := (dat0 V c).after 5 t
/-- What the row of column sums of squares holds after point `t`. -/
abbrev acc0_sumsq (c : Dev nD) (t : Fin cfg0.N) : Vec Ideal S1x64 .f32 := (dat0 V c).after 6 t

theorem acc0_sum_first (c : Dev nD) (t : Fin cfg0.N) (h : t.val = 0) (d : Fin 64) :
    acc0_sum V c t (ix2 (0 : Fin 1) d) = 0 + ∑ p : Fin 10000, y0 V c (row0 t p) d := by
  show ((dat0 V c).after 5 t : Vec Ideal S1x64 .f32) (ix2 (0 : Fin 1) d) = _
  rw [after0_5_first V c t h]
  refine (pay0_sum_apply (iblk0 V c 0 t) (iblk0 V c 1 t) (iblk0 V c 2 t) (iblk0 V c 3 t) (k0_pay1 (F := Ideal)) d).trans ?_
  exact congrArg₂ (· + ·) ((pay0_zero_sum_apply d).trans Cert.Spec.ofBits_zero)
    (Finset.sum_congr rfl fun p _ => lin0_at_point V c t p d)

theorem acc0_sum_later (c : Dev nD) (t : Fin cfg0.N) (h : t.val ≠ 0) (d : Fin 64) :
    acc0_sum V c t (ix2 (0 : Fin 1) d)
      = acc0_sum V c ⟨t.val - 1, by omega⟩ (ix2 (0 : Fin 1) d) + ∑ p : Fin 10000, y0 V c (row0 t p) d := by
  show ((dat0 V c).after 5 t : Vec Ideal S1x64 .f32) (ix2 (0 : Fin 1) d) = _
  rw [after0_5_later V c t h]
  refine (pay0_sum_apply (iblk0 V c 0 t) (iblk0 V c 1 t) (iblk0 V c 2 t) (iblk0 V c 3 t) ((dat0 V c).after 5 ⟨t.val - 1, by omega⟩) d).trans ?_
  exact congrArg₂ (· + ·) rfl (Finset.sum_congr rfl fun p _ => lin0_at_point V c t p d)

theorem acc0_sumsq_first (c : Dev nD) (t : Fin cfg0.N) (h : t.val = 0) (d : Fin 64) :
    acc0_sumsq V c t (ix2 (0 : Fin 1) d) = 0 + ∑ p : Fin 10000, y0 V c (row0 t p) d * y0 V c (row0 t p) d := by
  show ((dat0 V c).after 6 t : Vec Ideal S1x64 .f32) (ix2 (0 : Fin 1) d) = _
  rw [after0_6_first V c t h]
  refine (pay0_sumsq_apply (iblk0 V c 0 t) (iblk0 V c 1 t) (iblk0 V c 2 t) (iblk0 V c 3 t) (k0_pay2 (F := Ideal)) d).trans ?_
  exact congrArg₂ (· + ·) ((pay0_zero_sumsq_apply d).trans Cert.Spec.ofBits_zero)
    (Finset.sum_congr rfl fun p _ => congrArg₂ (· * ·) (lin0_at_point V c t p d) (lin0_at_point V c t p d))

theorem acc0_sumsq_later (c : Dev nD) (t : Fin cfg0.N) (h : t.val ≠ 0) (d : Fin 64) :
    acc0_sumsq V c t (ix2 (0 : Fin 1) d)
      = acc0_sumsq V c ⟨t.val - 1, by omega⟩ (ix2 (0 : Fin 1) d) + ∑ p : Fin 10000, y0 V c (row0 t p) d * y0 V c (row0 t p) d := by
  show ((dat0 V c).after 6 t : Vec Ideal S1x64 .f32) (ix2 (0 : Fin 1) d) = _
  rw [after0_6_later V c t h]
  refine (pay0_sumsq_apply (iblk0 V c 0 t) (iblk0 V c 1 t) (iblk0 V c 2 t) (iblk0 V c 3 t) ((dat0 V c).after 6 ⟨t.val - 1, by omega⟩) d).trans ?_
  exact congrArg₂ (· + ·) rfl
    (Finset.sum_congr rfl fun p _ => congrArg₂ (· * ·) (lin0_at_point V c t p d) (lin0_at_point V c t p d))

/-- After the last point the row of sums holds the column sums over all the nodes: the tiles' sums, joined. -/
theorem acc0_sum_last (c : Dev nD) (d : Fin 64) :
    acc0_sum V c (pt0 (Fin.last 4)) (ix2 (0 : Fin 1) d) = Cert.Spec.colSum (y0 V c) d :=
  (Cert.Spec.accum_fin (fun i => acc0_sum V c (pt0 i) (ix2 (0 : Fin 1) d))
      (fun i => ∑ p : Fin 10000, y0 V c (row0 (pt0 i) p) d)
      (acc0_sum_first V c (pt0 0) rfl d)
      (fun i hi => acc0_sum_later V c (pt0 i) hi d)).trans
    (Cert.Spec.sum_tiles5 fun n => y0 V c n d)

theorem acc0_sumsq_last (c : Dev nD) (d : Fin 64) :
    acc0_sumsq V c (pt0 (Fin.last 4)) (ix2 (0 : Fin 1) d) = Cert.Spec.colSumSq (y0 V c) d :=
  (Cert.Spec.accum_fin (fun i => acc0_sumsq V c (pt0 i) (ix2 (0 : Fin 1) d))
      (fun i => ∑ p : Fin 10000, y0 V c (row0 (pt0 i) p) d * y0 V c (row0 (pt0 i) p) d)
      (acc0_sumsq_first V c (pt0 0) rfl d)
      (fun i hi => acc0_sumsq_later V c (pt0 i) hi d)).trans
    (Cert.Spec.sum_tiles5 fun n => y0 V c n d * y0 V c n d)

/-- A point that writes a row of sums back is the last one. -/
theorem eq_last0 (t : Fin cfg0.N) (h : t.val % 5 = 4) : t = pt0 (Fin.last 4) := by
  have := pt0_lt t
  exact Fin.ext (by show t.val = 4; omega)

/-- The one write-back of the row of sums writes the whole row: its block is the array. -/
theorem flushed0_sum_eq (c : Dev nD) (t : Fin cfg0.N) (hf : (cfg0.win 5).flush t = true) :
    (dat0 V c).flushed 5 t = ((cfg0.win 5).blk t).view.read (Elt Ideal) (acc0_sum V c (pt0 (Fin.last 4))) := by
  obtain rfl : t = pt0 (Fin.last 4) := eq_last0 t ((flush0_5 t).mp hf)
  obtain ⟨-, -, -, -, -, -, -, -, -, -, erow, ecol, -⟩ := idx_facts0 (pt0 (Fin.last 4))
  funext j
  show acc0_sum V c (pt0 (Fin.last 4)) j = acc0_sum V c (pt0 (Fin.last 4)) (((cfg0.win 5).blk (pt0 (Fin.last 4))).view.emb j)
  refine congrArg (acc0_sum V c (pt0 (Fin.last 4))) (funext fun a => Fin.ext ?_)
  match a with
  | ⟨0, _⟩ => show (j 0).val = win0_5.index _ (0 : Fin 2) * 1 + 1 * (j 0).val; rw [erow]; omega
  | ⟨1, _⟩ => show (j 1).val = win0_5.index _ (1 : Fin 2) * 64 + 1 * (j 1).val; rw [ecol]; omega

theorem flushed0_sumsq_eq (c : Dev nD) (t : Fin cfg0.N) (hf : (cfg0.win 6).flush t = true) :
    (dat0 V c).flushed 6 t = ((cfg0.win 6).blk t).view.read (Elt Ideal) (acc0_sumsq V c (pt0 (Fin.last 4))) := by
  obtain rfl : t = pt0 (Fin.last 4) := eq_last0 t ((flush0_6 t).mp hf)
  obtain ⟨-, -, -, -, -, -, -, -, -, -, -, -, erow, ecol⟩ := idx_facts0 (pt0 (Fin.last 4))
  funext j
  show acc0_sumsq V c (pt0 (Fin.last 4)) j = acc0_sumsq V c (pt0 (Fin.last 4)) (((cfg0.win 6).blk (pt0 (Fin.last 4))).view.emb j)
  refine congrArg (acc0_sumsq V c (pt0 (Fin.last 4))) (funext fun a => Fin.ext ?_)
  match a with
  | ⟨0, _⟩ => show (j 0).val = win0_6.index _ (0 : Fin 2) * 1 + 1 * (j 0).val; rw [erow]; omega
  | ⟨1, _⟩ => show (j 1).val = win0_6.index _ (1 : Fin 2) * 64 + 1 * (j 1).val; rw [ecol]; omega

theorem mem_blk0_sum (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole (Pipeline.arrRef spec0 5)).slice (win0_5.rect t)).set ↔ _
  rw [View.set_slice_whole, Rect.mem_set_unit]
  exact Iff.rfl

theorem mem_blk0_sumsq (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole (Pipeline.arrRef spec0 6)).slice (win0_6.rect t)).set ↔ _
  rw [View.set_slice_whole, Rect.mem_set_unit]
  exact Iff.rfl

/-- THE SECOND OUTPUT after the region: what the row of sums held after the last point. -/
theorem final0_sum (c : Dev nD) : (dat0 V c).arrAt 5 cfg0.N = acc0_sum V c (pt0 (Fin.last 4)) :=
  (dat0 V c).arrAt_eq_of_cover 5 (acc0_sum V c (pt0 (Fin.last 4))) (flushed0_sum_eq V c) fun i => by
    have hu : (i 0).val < 1 := (i 0).isLt
    have hd : (i 1).val < 64 := (i 1).isLt
    refine ⟨pt0 (Fin.last 4), (flush0_5 _).mpr rfl, ?_⟩
    obtain ⟨-, -, -, -, -, -, -, -, -, -, erow, ecol, -⟩ := idx_facts0 (pt0 (Fin.last 4))
    rw [mem_blk0_sum]
    intro a
    match a with
    | ⟨0, _⟩ =>
      show win0_5.index _ (0 : Fin 2) * 1 ≤ (i 0).val ∧ (i 0).val < win0_5.index _ (0 : Fin 2) * 1 + 1
      rw [erow]; omega
    | ⟨1, _⟩ =>
      show win0_5.index _ (1 : Fin 2) * 64 ≤ (i 1).val ∧ (i 1).val < win0_5.index _ (1 : Fin 2) * 64 + 64
      rw [ecol]; omega

/-- THE THIRD OUTPUT after the region: what the row of sums of squares held after the last point. -/
theorem final0_sumsq (c : Dev nD) : (dat0 V c).arrAt 6 cfg0.N = acc0_sumsq V c (pt0 (Fin.last 4)) :=
  (dat0 V c).arrAt_eq_of_cover 6 (acc0_sumsq V c (pt0 (Fin.last 4))) (flushed0_sumsq_eq V c) fun i => by
    have hu : (i 0).val < 1 := (i 0).isLt
    have hd : (i 1).val < 64 := (i 1).isLt
    refine ⟨pt0 (Fin.last 4), (flush0_6 _).mpr rfl, ?_⟩
    obtain ⟨-, -, -, -, -, -, -, -, -, -, -, -, erow, ecol⟩ := idx_facts0 (pt0 (Fin.last 4))
    rw [mem_blk0_sumsq]
    intro a
    match a with
    | ⟨0, _⟩ =>
      show win0_6.index _ (0 : Fin 2) * 1 ≤ (i 0).val ∧ (i 0).val < win0_6.index _ (0 : Fin 2) * 1 + 1
      rw [erow]; omega
    | ⟨1, _⟩ =>
      show win0_6.index _ (1 : Fin 2) * 64 ≤ (i 1).val ∧ (i 1).val < win0_6.index _ (1 : Fin 2) * 64 + 64
      rw [ecol]; omega

/-! ## The region's value -/

/-- After the region: the first output holds the linear map of the summed inputs, the second its column sums over the
    nodes, the third its column sums of squares. -/
theorem region0_value (c : Dev nD)
    (H A : S50000x64.Idx → EReal) (W : S64x64.Idx → EReal) (B : S1x64.Idx → EReal)
    (hH : (V c (Pipeline.arrRef spec0 0) : S50000x64.Idx → EReal) = H)
    (hA : (V c (Pipeline.arrRef spec0 1) : S50000x64.Idx → EReal) = A)
    (hW : (V c (Pipeline.arrRef spec0 2) : S64x64.Idx → EReal) = W)
    (hB : (V c (Pipeline.arrRef spec0 3) : S1x64.Idx → EReal) = B) :
    (∀ (n : Fin 50000) (d : Fin 64), ((dat0 V c).arrAt 4 cfg0.N : S50000x64.Idx → EReal) (ix2 n d) = lin0 H A W B n d)
    ∧ (∀ d : Fin 64, ((dat0 V c).arrAt 5 cfg0.N : S1x64.Idx → EReal) (ix2 (0 : Fin 1) d) = Cert.Spec.colSum (lin0 H A W B) d)
    ∧ (∀ d : Fin 64, ((dat0 V c).arrAt 6 cfg0.N : S1x64.Idx → EReal) (ix2 (0 : Fin 1) d) = Cert.Spec.colSumSq (lin0 H A W B) d) := by
  subst hH hA hW hB
  refine ⟨fun n d => ?_, fun d => ?_, fun d => ?_⟩
  · exact congrFun (final0_lin V c) (ix2 n d)
  · exact (congrFun (final0_sum V c) (ix2 (0 : Fin 1) d)).trans (acc0_sum_last V c d)
  · exact (congrFun (final0_sumsq V c) (ix2 (0 : Fin 1) d)).trans (acc0_sumsq_last V c d)

end Cert.KernelIdeal.Gen

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelIdeal.Region1Value.Payloads.lean ====
/-
  The arithmetic of one grid point of the kernel that normalises, clips, applies the second linear map and
  keeps column statistics, read at one entry over the extended reals.

  At a point the kernel holds a tile of 10000 rows of the first linear map's result, the rows of column means,
  variances, gamma and beta, the 64 × 64 weights and the bias row. It stores the tile of the second linear
  map: at row `r`, column `d`, the sum over the 64 features `k` of
  `max ((z r k - mean k) * rsqrt (var k + eps) * gamma k + beta k) 0 * W k d`, plus `bias d`; a change of float
  format is the identity here and the matrix unit's product into a zero accumulator is the plain contraction. It
  also stores two rows of running totals: what the row held before plus the column sums of the tile it just
  computed, and the same with the squares of the tile's entries. At the first point the two rows are first set
  to zero.
-/
import proofs.«428437_j36421322670670_1_alg».proof.Proof.Gen.KernelIdeal.Skeleton
import proofs.«428437_j36421322670670_1_alg».proof.Proof.Spec
import proofs.«428437_j36421322670670_1_alg».proof.Proof.SpecTiles
import proofs.«428437_j36421322670670_1_alg».proof.Proof.LibPlainDot
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Gen

open Idealize.ShloMosaic Idealize.ShloMosaic.ValueIdx

/-- The reset of the running column sums stores zeros. -/
theorem pval1_3 (d : Fin 64) : (k1_pay3 (F := Ideal)) (ix2 (0 : Fin 1) d) = 0 := by
  unfold k1_pay3
  exact Cert.Spec.ofBits_zero

/-- The reset of the running column sums of squares stores zeros. -/
theorem pval1_4 (d : Fin 64) : (k1_pay4 (F := Ideal)) (ix2 (0 : Fin 1) d) = 0 := by
  unfold k1_pay4
  exact Cert.Spec.ofBits_zero

/-- Summing a tile over its rows: the row inserted into a column index is the entry (row, column). -/
theorem lift1_row (j : S64.Idx) (r : Fin 10000) : reduces_S10000x64_S64.lift j r = ix2 r (j 0) :=
  funext fun a => Fin.ext (match a with | ⟨0, _⟩ => rfl | ⟨1, _⟩ => rfl)

/-- The running column sums after a tile: what they held plus the tile's column sums. -/
theorem pval1_1 (v34 : FVec Ideal S10000x64 .f32) (v36 : Vec Ideal S1x64 .f32) (d : Fin 64) :
    k1_pay1 v34 v36 (ix2 (0 : Fin 1) d) = v36 (ix2 (0 : Fin 1) d) + ∑ r : Fin 10000, v34 (ix2 r d) := by
  unfold k1_pay1
  refine (addf_apply _ _ _).trans ?_
  refine congrArg₂ (· + ·) (congrFun (shapeCast_self v36 _) _) ?_
  refine (shapeCast_a_1a_apply _ shapeCasts_S64_S1x64 0 d).trans ?_
  refine (Ideal.multiReduction_add_single v34 0x00000000#32 reduces_S10000x64_S64 _ _ _).trans ?_
  exact Finset.sum_congr rfl fun r _ => congrArg v34 (lift1_row _ r)

/-- The running column sums of squares after a tile: what they held plus the tile's column sums of squares. -/
theorem pval1_2 (v34 : FVec Ideal S10000x64 .f32) (v42 : Vec Ideal S1x64 .f32) (d : Fin 64) :
    k1_pay2 v34 v42 (ix2 (0 : Fin 1) d)
      = v42 (ix2 (0 : Fin 1) d) + ∑ r : Fin 10000, v34 (ix2 r d) * v34 (ix2 r d) := by
  unfold k1_pay2
  refine (addf_apply _ _ _).trans ?_
  refine congrArg₂ (· + ·) (congrFun (shapeCast_self v42 _) _) ?_
  refine (shapeCast_a_1a_apply _ shapeCasts_S64_S1x64 0 d).trans ?_
  refine (Ideal.multiReduction_add_single (mulf v34 v34) 0x00000000#32 reduces_S10000x64_S64 _ _ _).trans ?_
  exact Finset.sum_congr rfl fun r _ => congrArg (fun i => v34 i * v34 i) (lift1_row _ r)

/-- The tile of the second linear map at row `r`, column `d`: the row is normalised by the mean and the
    variance rows (subtract the mean, scale by the reciprocal root of the variance plus the offset, scale by
    gamma, shift by beta), clipped below at zero, contracted with the weight column, and the bias is added. -/
theorem pval1_5 (v3 : Vec Ideal S10000x64 .f32) (v5 v10 v16 v20 : Vec Ideal S1x64 .f32) (v27 : Vec Ideal S64x64 .f32)
    (v31 : Vec Ideal S1x64 .f32) (r : Fin 10000) (d : Fin 64) :
    k1_pay5 v3 v5 v10 v16 v20 v27 v31 (ix2 r d)
      = (∑ k : Fin 64,
          max ((v3 (ix2 r k) - v10 (ix2 (0 : Fin 1) k)) * Ideal.rsqrt (v5 (ix2 (0 : Fin 1) k) + Cert.Spec.eps)
                * v16 (ix2 (0 : Fin 1) k) + v20 (ix2 (0 : Fin 1) k)) 0 * v27 (ix2 k d))
        + v31 (ix2 (0 : Fin 1) d) := by
  unfold k1_pay5
  refine (addf_apply _ _ _).trans ?_
  refine congrArg₂ (· + ·) ?_ ?_
  · refine (Cert.LibPlainDot.matmul_plain_zero (M := 10000) (K := 64) (N := 64) none _ _ (ix2 r d)).trans ?_
    refine Finset.sum_congr rfl fun k _ => congrArg₂ (· * ·) ?_ ?_
    · refine (truncf_apply (φ := .f32) (ψ := .bf16) _ bitsLt_bf16_f32 _).trans ((maximumf_apply (φ := .f32) _ _ _).trans ?_)
      refine congrArg₂ max ?_ Cert.Spec.ofBits_zero
      refine (addf_apply _ _ _).trans (congrArg₂ (· + ·) ?_ ?_)
      · refine (mulf_apply _ _ _).trans (congrArg₂ (· * ·) ?_ ?_)
        · refine (mulf_apply _ _ _).trans (congrArg₂ (· * ·) ?_ ?_)
          · refine (subf_apply _ _ _).trans (congrArg₂ (· - ·) ?_ ?_)
            · exact congrFun (shapeCast_self v3 _) _
            · exact (broadcastTo_1b_ab_apply _ _ r k).trans (congrFun (shapeCast_self v10 _) _)
          · refine (broadcastTo_1b_ab_apply _ _ r k).trans ?_
            exact congrArg Ideal.rsqrt (congrArg₂ (· + ·) (congrFun (shapeCast_self v5 _) _) rfl)
        · exact (broadcastTo_1b_ab_apply _ _ r k).trans (congrFun (shapeCast_self v16 _) _)
      · exact (broadcastTo_1b_ab_apply _ _ r k).trans (congrFun (shapeCast_self v20 _) _)
    · exact (truncf_apply (φ := .f32) (ψ := .bf16) _ bitsLt_bf16_f32 _).trans (congrFun (shapeCast_self v27 _) _)
  · exact (broadcastTo_1b_ab_apply _ _ r d).trans (congrFun (shapeCast_self v31 _) _)

end Cert.KernelIdeal.Gen

end
-- ==== Proof.KernelIdeal.Region1Value.lean ====
/-
  What the kernel that normalises, clips, applies the second linear map and keeps column statistics leaves in
  its three output arrays, over the extended reals.

  The 50000 nodes are walked in five tiles of 10000 rows. At a tile the rows of the first linear map's result
  are normalised by the column means and variances (subtract the mean, scale by the reciprocal root of the
  variance plus a small offset, scale by gamma, shift by beta), clipped below at zero, and sent through the
  second linear map with its bias; the tile of results is written to the output rows. Two one-row arrays keep
  running totals over the tiles: the column sums of the results and the column sums of their squares; they are
  set to zero at the first tile, each tile adds its own column sums to what the tile before left, and the rows
  are written out once, after the last tile.

  Every operation is exact over the extended reals, so: the output rows hold `lin (normRelu y mu var g bt) W b`
  entry by entry (row `n` is written by tile `n / 10000`, and the five tiles cover the array); and a total that
  starts at the first tile's sum and grows by one tile's sum per tile ends at the sum over all the nodes, a sum
  over 50000 rows being the sum over the five tiles of the sums over each tile's 10000 rows.
-/
import proofs.«428437_j36421322670670_1_alg».proof.Proof.KernelIdeal.Region1
import proofs.«428437_j36421322670670_1_alg».proof.Proof.KernelIdeal.Region1Value.Payloads
import proofs.«428437_j36421322670670_1_alg».proof.Proof.Spec
import proofs.«428437_j36421322670670_1_alg».proof.Proof.SpecTiles
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays the region finds, by coordinates -/

/-- The first linear map's result, one row of 64 per node. -/
abbrev in1_0 (c : Dev nD) : Cert.Spec.Act :=
  fun n k => (V c (Pipeline.arrRef spec1 0) : S50000x64.Idx → EReal) (ix2 n k)
/-- The column means. -/
abbrev in1_1 (c : Dev nD) : Cert.Spec.Row := fun d => (V c (Pipeline.arrRef spec1 1) : S1x64.Idx → EReal) (ix2 (0 : Fin 1) d)
/-- The column variances. -/
abbrev in1_2 (c : Dev nD) : Cert.Spec.Row := fun d => (V c (Pipeline.arrRef spec1 2) : S1x64.Idx → EReal) (ix2 (0 : Fin 1) d)
/-- The scale, gamma. -/
abbrev in1_3 (c : Dev nD) : Cert.Spec.Row := fun d => (V c (Pipeline.arrRef spec1 3) : S1x64.Idx → EReal) (ix2 (0 : Fin 1) d)
/-- The shift, beta. -/
abbrev in1_4 (c : Dev nD) : Cert.Spec.Row := fun d => (V c (Pipeline.arrRef spec1 4) : S1x64.Idx → EReal) (ix2 (0 : Fin 1) d)
/-- The second linear map's weights, row index the input feature. -/
abbrev in1_5 (c : Dev nD) : Cert.Spec.Mat := fun k d => (V c (Pipeline.arrRef spec1 5) : S64x64.Idx → EReal) (ix2 k d)
/-- The second linear map's bias. -/
abbrev in1_6 (c : Dev nD) : Cert.Spec.Row := fun d => (V c (Pipeline.arrRef spec1 6) : S1x64.Idx → EReal) (ix2 (0 : Fin 1) d)

/-- What the region computes: normalise and clip the first map's result, then apply the second linear map. -/
abbrev out1_y (c : Dev nD) : Cert.Spec.Act :=
  Cert.Spec.lin (Cert.Spec.normRelu (in1_0 V c) (in1_1 V c) (in1_2 V c) (in1_3 V c) (in1_4 V c)) (in1_5 V c) (in1_6 V c)

/-! ## Which block each point reads and writes

The grid has five points. The node-indexed arrays (the input rows and the output rows) move one tile of
10000 rows per point; every other array is one block, the same at every point. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-- Row `r` of tile `t` is a node. -/
theorem row1_lt (t : Fin cfg1.N) (r : Fin 10000) : 10000 * t.val + r.val < 50000 := by
  have := t.isLt
  have hN : cfg1.N = 5 := N_1
  omega

/-- An entry of the input tile at point `t` is the array's entry at row `10000 t + r`. -/
theorem rd1_0 (c : Dev nD) (t : Fin cfg1.N) (r : Fin 10000) (k : Fin 64) :
    (iblk1 V c 0 t : Vec Ideal S10000x64 .f32) (ix2 r k) = in1_0 V c ⟨10000 * t.val + r.val, row1_lt t r⟩ k := by
  show (V c (Pipeline.arrRef spec1 0) : S50000x64.Idx → EReal) (((cfg1.win 0).blk t).view.emb (ix2 r k))
    = (V c (Pipeline.arrRef spec1 0) : S50000x64.Idx → EReal) (ix2 ⟨10000 * t.val + r.val, row1_lt t r⟩ k)
  refine congrArg _ (funext fun a => Fin.ext ?_)
  match a with
  | ⟨0, _⟩ => show win1_0.index t (0 : Fin 2) * 10000 + 1 * r.val = 10000 * t.val + r.val; rw [(idx1_0 t).1]; omega
  | ⟨1, _⟩ => show win1_0.index t (1 : Fin 2) * 64 + 1 * k.val = k.val; rw [(idx1_0 t).2]; omega

/-- The mean row as every point reads it: the whole one-row array. -/
theorem rd1_1 (c : Dev nD) (t : Fin cfg1.N) (k : Fin 64) :
    (iblk1 V c 1 t : Vec Ideal S1x64 .f32) (ix2 (0 : Fin 1) k) = in1_1 V c k := by
  show (V c (Pipeline.arrRef spec1 1) : S1x64.Idx → EReal) (((cfg1.win 1).blk t).view.emb (ix2 (0 : Fin 1) k))
    = (V c (Pipeline.arrRef spec1 1) : S1x64.Idx → EReal) (ix2 (0 : Fin 1) k)
  refine congrArg _ (funext fun a => Fin.ext ?_)
  match a with
  | ⟨0, _⟩ => show win1_1.index t (0 : Fin 2) * 1 + 1 * 0 = 0; rw [(idx1_1 t).1]
  | ⟨1, _⟩ => show win1_1.index t (1 : Fin 2) * 64 + 1 * k.val = k.val; rw [(idx1_1 t).2]; omega

/-- The variance row as every point reads it: the whole one-row array. -/
theorem rd1_2 (c : Dev nD) (t : Fin cfg1.N) (k : Fin 64) :
    (iblk1 V c 2 t : Vec Ideal S1x64 .f32) (ix2 (0 : Fin 1) k) = in1_2 V c k := by
  show (V c (Pipeline.arrRef spec1 2) : S1x64.Idx → EReal) (((cfg1.win 2).blk t).view.emb (ix2 (0 : Fin 1) k))
    = (V c (Pipeline.arrRef spec1 2) : S1x64.Idx → EReal) (ix2 (0 : Fin 1) k)
  refine congrArg _ (funext fun a => Fin.ext ?_)
  match a with
  | ⟨0, _⟩ => show win1_2.index t (0 : Fin 2) * 1 + 1 * 0 = 0; rw [(idx1_2 t).1]
  | ⟨1, _⟩ => show win1_2.index t (1 : Fin 2) * 64 + 1 * k.val = k.val; rw [(idx1_2 t).2]; omega

/-- The gamma row as every point reads it: the whole one-row array. -/
theorem rd1_3 (c : Dev nD) (t : Fin cfg1.N) (k : Fin 64) :
    (iblk1 V c 3 t : Vec Ideal S1x64 .f32) (ix2 (0 : Fin 1) k) = in1_3 V c k := by
  show (V c (Pipeline.arrRef spec1 3) : S1x64.Idx → EReal) (((cfg1.win 3).blk t).view.emb (ix2 (0 : Fin 1) k))
    = (V c (Pipeline.arrRef spec1 3) : S1x64.Idx → EReal) (ix2 (0 : Fin 1) k)
  refine congrArg _ (funext fun a => Fin.ext ?_)
  match a with
  | ⟨0, _⟩ => show win1_3.index t (0 : Fin 2) * 1 + 1 * 0 = 0; rw [(idx1_3 t).1]
  | ⟨1, _⟩ => show win1_3.index t (1 : Fin 2) * 64 + 1 * k.val = k.val; rw [(idx1_3 t).2]; omega

/-- The beta row as every point reads it: the whole one-row array. -/
theorem rd1_4 (c : Dev nD) (t : Fin cfg1.N) (k : Fin 64) :
    (iblk1 V c 4 t : Vec Ideal S1x64 .f32) (ix2 (0 : Fin 1) k) = in1_4 V c k := by
  show (V c (Pipeline.arrRef spec1 4) : S1x64.Idx → EReal) (((cfg1.win 4).blk t).view.emb (ix2 (0 : Fin 1) k))
    = (V c (Pipeline.arrRef spec1 4) : S1x64.Idx → EReal) (ix2 (0 : Fin 1) k)
  refine congrArg _ (funext fun a => Fin.ext ?_)
  match a with
  | ⟨0, _⟩ => show win1_4.index t (0 : Fin 2) * 1 + 1 * 0 = 0; rw [(idx1_4 t).1]
  | ⟨1, _⟩ => show win1_4.index t (1 : Fin 2) * 64 + 1 * k.val = k.val; rw [(idx1_4 t).2]; omega

/-- The weights as every point reads them: the whole matrix. -/
theorem rd1_5 (c : Dev nD) (t : Fin cfg1.N) (k d : Fin 64) :
    (iblk1 V c 5 t : Vec Ideal S64x64 .f32) (ix2 k d) = in1_5 V c k d := by
  show (V c (Pipeline.arrRef spec1 5) : S64x64.Idx → EReal) (((cfg1.win 5).blk t).view.emb (ix2 k d))
    = (V c (Pipeline.arrRef spec1 5) : S64x64.Idx → EReal) (ix2 k d)
  refine congrArg _ (funext fun a => Fin.ext ?_)
  match a with
  | ⟨0, _⟩ => show win1_5.index t (0 : Fin 2) * 64 + 1 * k.val = k.val; rw [(idx1_5 t).1]; omega
  | ⟨1, _⟩ => show win1_5.index t (1 : Fin 2) * 64 + 1 * d.val = d.val; rw [(idx1_5 t).2]; omega

/-- The bias row as every point reads it: the whole one-row array. -/
theorem rd1_6 (c : Dev nD) (t : Fin cfg1.N) (k : Fin 64) :
    (iblk1 V c 6 t : Vec Ideal S1x64 .f32) (ix2 (0 : Fin 1) k) = in1_6 V c k := by
  show (V c (Pipeline.arrRef spec1 6) : S1x64.Idx → EReal) (((cfg1.win 6).blk t).view.emb (ix2 (0 : Fin 1) k))
    = (V c (Pipeline.arrRef spec1 6) : S1x64.Idx → EReal) (ix2 (0 : Fin 1) k)
  refine congrArg _ (funext fun a => Fin.ext ?_)
  match a with
  | ⟨0, _⟩ => show win1_6.index t (0 : Fin 2) * 1 + 1 * 0 = 0; rw [(idx1_6 t).1]
  | ⟨1, _⟩ => show win1_6.index t (1 : Fin 2) * 64 + 1 * k.val = k.val; rw [(idx1_6 t).2]; omega

/-! ## What a point computes -/

/-- The tile a point stores: rows `10000 t + r` of the region's result. -/
theorem tile1_val (c : Dev nD) (t : Fin cfg1.N) (r : Fin 10000) (d : Fin 64) :
    k1_pay5 (iblk1 V c 0 t) (iblk1 V c 2 t) (iblk1 V c 1 t) (iblk1 V c 3 t) (iblk1 V c 4 t) (iblk1 V c 5 t) (iblk1 V c 6 t) (ix2 r d)
      = out1_y V c ⟨10000 * t.val + r.val, row1_lt t r⟩ d := by
  refine (pval1_5 (iblk1 V c 0 t) (iblk1 V c 2 t) (iblk1 V c 1 t) (iblk1 V c 3 t) (iblk1 V c 4 t) (iblk1 V c 5 t) (iblk1 V c 6 t) r d).trans ?_
  refine congrArg₂ (· + ·) (Finset.sum_congr rfl fun k _ => ?_) (rd1_6 V c t d)
  exact congrArg₂ (· * ·)
    (congrArg₂ max
      (congrArg₂ (· + ·)
        (congrArg₂ (· * ·)
          (congrArg₂ (· * ·) (congrArg₂ (· - ·) (rd1_0 V c t r k) (rd1_1 V c t k))
            (congrArg (fun x => Ideal.rsqrt (x + Cert.Spec.eps)) (rd1_2 V c t k)))
          (rd1_3 V c t k))
        (rd1_4 V c t k))
      rfl)
    (rd1_5 V c t k d)

/-! ## The output rows: every point writes its tile back -/

/-- The region's result laid out as the output array. -/
abbrev gout1_7 (c : Dev nD) : S50000x64.Idx → EReal := fun i => out1_y V c (i 0) (i 1)

/-- What point `t` writes back is tile `t` of the region's result. -/
theorem flushed1_7 (c : Dev nD) (t : Fin cfg1.N) :
    (dat1 V c).flushed 7 t = ((cfg1.win 7).blk t).view.read (Elt Ideal) (gout1_7 V c) := by
  show (cfg1.win 7).cut (grid1.coords t) ((dat1 V c).after 7 t) = _
  rw [after1_7 V c t]
  funext j
  obtain ⟨r, d, rfl⟩ : ∃ (r : Fin 10000) (d : Fin 64), j = ix2 r d := ⟨j 0, j 1, eq_ix2 j⟩
  refine (tile1_val V c t r d).trans ?_
  show _ = out1_y V c ((((cfg1.win 7).blk t).view.emb (ix2 r d)) 0) ((((cfg1.win 7).blk t).view.emb (ix2 r d)) 1)
  refine congrArg₂ (out1_y V c) (Fin.ext ?_) (Fin.ext ?_)
  · show 10000 * t.val + r.val = win1_7.index t (0 : Fin 2) * 10000 + 1 * r.val
    rw [(idx1_7 t).1]; omega
  · show d.val = win1_7.index t (1 : Fin 2) * 64 + 1 * d.val
    rw [(idx1_7 t).2]; omega

/-- An entry lies in the tile of point `t` when each of its coordinates lies in the tile's range. -/
theorem mem1_7 (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole (Pipeline.arrRef spec1 7)).slice (win1_7.rect t)).set ↔ _
  rw [View.set_slice_whole, Rect.mem_set_unit]
  exact Iff.rfl

/-- Row `n` lies in the tile of point `n / 10000`: the five tiles cover the array. -/
theorem cover1_7 (i : S50000x64.Idx) :
    ∃ t : Fin cfg1.N, (cfg1.win 7).flush t = true ∧ i ∈ ((cfg1.win 7).blk t).view.set := by
  have hN : cfg1.N = 5 := N_1
  have hn : (i 0).val < 50000 := (i 0).isLt
  have hd : (i 1).val < 64 := (i 1).isLt
  have ht : (i 0).val / 10000 < cfg1.N := by omega
  refine ⟨⟨(i 0).val / 10000, ht⟩, flush1_7 _, ?_⟩
  rw [mem1_7]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [(idx1_7 _).1]
    show (i 0).val / 10000 * 10000 ≤ (i 0).val ∧ (i 0).val < (i 0).val / 10000 * 10000 + 10000
    omega
  | ⟨1, _⟩ =>
    show win1_7.index ⟨(i 0).val / 10000, ht⟩ (1 : Fin 2) * 64 ≤ (i 1).val
      ∧ (i 1).val < win1_7.index ⟨(i 0).val / 10000, ht⟩ (1 : Fin 2) * 64 + 64
    rw [(idx1_7 _).2]; omega

/-- So the output rows end holding the region's result. -/
theorem final1_7 (c : Dev nD) : (dat1 V c).arrAt 7 cfg1.N = gout1_7 V c :=
  (dat1 V c).arrAt_eq_of_cover 7 (gout1_7 V c) (fun t _ => flushed1_7 V c t) fun i => cover1_7 i

/-! ## The column totals: one block, carried from point to point, written back at the end

The first point resets the totals to zero and adds its tile's column sums; every later point adds its
own to what the point before left. After the fifth point the totals are the sums over all the nodes. -/

/-- A total that starts at the first tile's sum and grows by one tile's sum per point is, after the
    fifth point, the sum over all 50000 nodes. -/
theorem run1_total (a : Fin cfg1.N → EReal) (f : Fin 50000 → EReal)
    (hfirst : ∀ t : Fin cfg1.N, t.val = 0 → a t = 0 + ∑ r : Fin 10000, f ⟨10000 * t.val + r.val, row1_lt t r⟩)
    (hlater : ∀ (t : Fin cfg1.N) (h : t.val ≠ 0),
      a t = a ⟨t.val - 1, by omega⟩ + ∑ r : Fin 10000, f ⟨10000 * t.val + r.val, row1_lt t r⟩)
    (t : Fin cfg1.N) (ht : t.val = 4) : a t = ∑ n : Fin 50000, f n := by
  have hN : cfg1.N = 5 := N_1
  have key := Cert.Spec.accum_fin (N := 4) (fun s => a ⟨s.val, by omega⟩)
    (fun s => ∑ r : Fin 10000, f ⟨10000 * s.val + r.val, by omega⟩)
    (hfirst ⟨0, by omega⟩ rfl) (fun s hs => hlater ⟨s.val, by omega⟩ hs)
  rw [show t = ⟨(Fin.last 4).val, by omega⟩ from Fin.ext ht]
  exact key.trans (Cert.Spec.sum_tiles5 f)

/-- The running column sums after the last point: the column sums of the region's result. -/
theorem acc1_8 (c : Dev nD) (d : Fin 64) (t : Fin cfg1.N) (ht : t.val = 4) :
    ((dat1 V c).after 8 t : Vec Ideal S1x64 .f32) (ix2 (0 : Fin 1) d) = Cert.Spec.colSum (out1_y V c) d := by
  refine run1_total (fun s => ((dat1 V c).after 8 s : Vec Ideal S1x64 .f32) (ix2 (0 : Fin 1) d))
    (fun n => out1_y V c n d) ?_ ?_ t ht
  · intro s hs
    show ((dat1 V c).after 8 s : Vec Ideal S1x64 .f32) (ix2 (0 : Fin 1) d) = _
    rw [after1_8_first V c s hs]
    refine (pval1_1 (k1_pay5 (iblk1 V c 0 s) (iblk1 V c 2 s) (iblk1 V c 1 s) (iblk1 V c 3 s) (iblk1 V c 4 s) (iblk1 V c 5 s) (iblk1 V c 6 s)) (k1_pay3 (F := Ideal)) d).trans ?_
    exact congrArg₂ (· + ·) (pval1_3 d) (Finset.sum_congr rfl fun r _ => tile1_val V c s r d)
  · intro s hs
    show ((dat1 V c).after 8 s : Vec Ideal S1x64 .f32) (ix2 (0 : Fin 1) d) = _
    rw [after1_8_later V c s hs]
    refine (pval1_1 (k1_pay5 (iblk1 V c 0 s) (iblk1 V c 2 s) (iblk1 V c 1 s) (iblk1 V c 3 s) (iblk1 V c 4 s) (iblk1 V c 5 s) (iblk1 V c 6 s)) ((dat1 V c).after 8 ⟨s.val - 1, by omega⟩) d).trans ?_
    exact congrArg₂ (· + ·) rfl (Finset.sum_congr rfl fun r _ => tile1_val V c s r d)

/-- The running column sums of squares after the last point: those of the region's result. -/
theorem acc1_9 (c : Dev nD) (d : Fin 64) (t : Fin cfg1.N) (ht : t.val = 4) :
    ((dat1 V c).after 9 t : Vec Ideal S1x64 .f32) (ix2 (0 : Fin 1) d) = Cert.Spec.colSumSq (out1_y V c) d := by
  refine run1_total (fun s => ((dat1 V c).after 9 s : Vec Ideal S1x64 .f32) (ix2 (0 : Fin 1) d))
    (fun n => out1_y V c n d * out1_y V c n d) ?_ ?_ t ht
  · intro s hs
    show ((dat1 V c).after 9 s : Vec Ideal S1x64 .f32) (ix2 (0 : Fin 1) d) = _
    rw [after1_9_first V c s hs]
    refine (pval1_2 (k1_pay5 (iblk1 V c 0 s) (iblk1 V c 2 s) (iblk1 V c 1 s) (iblk1 V c 3 s) (iblk1 V c 4 s) (iblk1 V c 5 s) (iblk1 V c 6 s)) (k1_pay4 (F := Ideal)) d).trans ?_
    exact congrArg₂ (· + ·) (pval1_4 d) (Finset.sum_congr rfl fun r _ => congrArg₂ (· * ·) (tile1_val V c s r d) (tile1_val V c s r d))
  · intro s hs
    show ((dat1 V c).after 9 s : Vec Ideal S1x64 .f32) (ix2 (0 : Fin 1) d) = _
    rw [after1_9_later V c s hs]
    refine (pval1_2 (k1_pay5 (iblk1 V c 0 s) (iblk1 V c 2 s) (iblk1 V c 1 s) (iblk1 V c 3 s) (iblk1 V c 4 s) (iblk1 V c 5 s) (iblk1 V c 6 s)) ((dat1 V c).after 9 ⟨s.val - 1, by omega⟩) d).trans ?_
    exact congrArg₂ (· + ·) rfl (Finset.sum_congr rfl fun r _ => congrArg₂ (· * ·) (tile1_val V c s r d) (tile1_val V c s r d))

/-- The column sums laid out as the one-row output array. -/
abbrev gout1_8 (c : Dev nD) : S1x64.Idx → EReal := fun i => Cert.Spec.colSum (out1_y V c) (i 1)

/-- A one-row array given by its columns, read through the window's one block: the row itself. -/
theorem read1_8 (R : Cert.Spec.Row) (t : Fin cfg1.N) (d : Fin 64) :
    ((cfg1.win 8).blk t).view.read (Elt Ideal) (fun i : S1x64.Idx => R (i 1)) (ix2 (0 : Fin 1) d) = R d := by
  show R ((((cfg1.win 8).blk t).view.emb (ix2 (0 : Fin 1) d)) 1) = _
  refine congrArg R (Fin.ext ?_)
  show win1_8.index t (1 : Fin 2) * 64 + 1 * d.val = d.val
  rw [(idx1_8 t).2]; omega

/-- The last point writes the finished totals back. -/
theorem flushed1_8 (c : Dev nD) (t : Fin cfg1.N) (hf : (cfg1.win 8).flush t = true) :
    (dat1 V c).flushed 8 t = ((cfg1.win 8).blk t).view.read (Elt Ideal) (gout1_8 V c) := by
  have hN : cfg1.N = 5 := N_1
  have ht : t.val = 4 := by have := (flush1_8 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc1_8 V c d t ht).trans (read1_8 (Cert.Spec.colSum (out1_y V c)) t d).symm

/-- An entry lies in the block of point `t` when each of its coordinates lies in the block's range. -/
theorem mem1_8 (t : Fin cfg1.N) (i : S1x64.Idx) :
    i ∈ ((cfg1.win 8).blk t).view.set ↔ ∀ a : Fin 2, win1_8.index t a * S1x64.size a ≤ (i a).val
      ∧ (i a).val < win1_8.index t a * S1x64.size a + S1x64.size a := by
  show i ∈ ((View.whole (Pipeline.arrRef spec1 8)).slice (win1_8.rect t)).set ↔ _
  rw [View.set_slice_whole, Rect.mem_set_unit]
  exact Iff.rfl

/-- The one block of the one-row array is all of it, and the last point writes it. -/
theorem cover1_8 (i : S1x64.Idx) :
    ∃ t : Fin cfg1.N, (cfg1.win 8).flush t = true ∧ i ∈ ((cfg1.win 8).blk t).view.set := by
  have hN : cfg1.N = 5 := N_1
  have hu : (i 0).val < 1 := (i 0).isLt
  have hd : (i 1).val < 64 := (i 1).isLt
  have ht : 4 < cfg1.N := by omega
  refine ⟨⟨4, ht⟩, (flush1_8 _).mpr rfl, ?_⟩
  rw [mem1_8]
  intro a
  match a with
  | ⟨0, _⟩ =>
    show win1_8.index ⟨4, ht⟩ (0 : Fin 2) * 1 ≤ (i 0).val ∧ (i 0).val < win1_8.index ⟨4, ht⟩ (0 : Fin 2) * 1 + 1
    rw [(idx1_8 _).1]; omega
  | ⟨1, _⟩ =>
    show win1_8.index ⟨4, ht⟩ (1 : Fin 2) * 64 ≤ (i 1).val ∧ (i 1).val < win1_8.index ⟨4, ht⟩ (1 : Fin 2) * 64 + 64
    rw [(idx1_8 _).2]; omega

/-- So the array ends holding the column sums. -/
theorem final1_8 (c : Dev nD) : (dat1 V c).arrAt 8 cfg1.N = gout1_8 V c :=
  (dat1 V c).arrAt_eq_of_cover 8 (gout1_8 V c) (flushed1_8 V c) fun i => cover1_8 i

/-- The column sums of squares laid out as the one-row output array. -/
abbrev gout1_9 (c : Dev nD) : S1x64.Idx → EReal := fun i => Cert.Spec.colSumSq (out1_y V c) (i 1)

/-- A one-row array given by its columns, read through the window's one block: the row itself. -/
theorem read1_9 (R : Cert.Spec.Row) (t : Fin cfg1.N) (d : Fin 64) :
    ((cfg1.win 9).blk t).view.read (Elt Ideal) (fun i : S1x64.Idx => R (i 1)) (ix2 (0 : Fin 1) d) = R d := by
  show R ((((cfg1.win 9).blk t).view.emb (ix2 (0 : Fin 1) d)) 1) = _
  refine congrArg R (Fin.ext ?_)
  show win1_9.index t (1 : Fin 2) * 64 + 1 * d.val = d.val
  rw [(idx1_9 t).2]; omega

/-- The last point writes the finished totals back. -/
theorem flushed1_9 (c : Dev nD) (t : Fin cfg1.N) (hf : (cfg1.win 9).flush t = true) :
    (dat1 V c).flushed 9 t = ((cfg1.win 9).blk t).view.read (Elt Ideal) (gout1_9 V c) := by
  have hN : cfg1.N = 5 := N_1
  have ht : t.val = 4 := by have := (flush1_9 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc1_9 V c d t ht).trans (read1_9 (Cert.Spec.colSumSq (out1_y V c)) t d).symm

/-- An entry lies in the block of point `t` when each of its coordinates lies in the block's range. -/
theorem mem1_9 (t : Fin cfg1.N) (i : S1x64.Idx) :
    i ∈ ((cfg1.win 9).blk t).view.set ↔ ∀ a : Fin 2, win1_9.index t a * S1x64.size a ≤ (i a).val
      ∧ (i a).val < win1_9.index t a * S1x64.size a + S1x64.size a := by
  show i ∈ ((View.whole (Pipeline.arrRef spec1 9)).slice (win1_9.rect t)).set ↔ _
  rw [View.set_slice_whole, Rect.mem_set_unit]
  exact Iff.rfl

/-- The one block of the one-row array is all of it, and the last point writes it. -/
theorem cover1_9 (i : S1x64.Idx) :
    ∃ t : Fin cfg1.N, (cfg1.win 9).flush t = true ∧ i ∈ ((cfg1.win 9).blk t).view.set := by
  have hN : cfg1.N = 5 := N_1
  have hu : (i 0).val < 1 := (i 0).isLt
  have hd : (i 1).val < 64 := (i 1).isLt
  have ht : 4 < cfg1.N := by omega
  refine ⟨⟨4, ht⟩, (flush1_9 _).mpr rfl, ?_⟩
  rw [mem1_9]
  intro a
  match a with
  | ⟨0, _⟩ =>
    show win1_9.index ⟨4, ht⟩ (0 : Fin 2) * 1 ≤ (i 0).val ∧ (i 0).val < win1_9.index ⟨4, ht⟩ (0 : Fin 2) * 1 + 1
    rw [(idx1_9 _).1]; omega
  | ⟨1, _⟩ =>
    show win1_9.index ⟨4, ht⟩ (1 : Fin 2) * 64 ≤ (i 1).val ∧ (i 1).val < win1_9.index ⟨4, ht⟩ (1 : Fin 2) * 64 + 64
    rw [(idx1_9 _).2]; omega

/-- So the array ends holding the column sums of squares. -/
theorem final1_9 (c : Dev nD) : (dat1 V c).arrAt 9 cfg1.N = gout1_9 V c :=
  (dat1 V c).arrAt_eq_of_cover 9 (gout1_9 V c) (flushed1_9 V c) fun i => cover1_9 i

/-! ## The region's value -/

set_option maxHeartbeats 1000000 in
/-- The three output arrays after the region, over the arrays it found. -/
theorem region1_value_at (c : Dev nD) :
    (∀ (n : Fin 50000) (d : Fin 64), ((dat1 V c).arrAt 7 cfg1.N : S50000x64.Idx → EReal) (ix2 n d) = out1_y V c n d)
    ∧ (∀ d : Fin 64, ((dat1 V c).arrAt 8 cfg1.N : S1x64.Idx → EReal) (ix2 (0 : Fin 1) d) = Cert.Spec.colSum (out1_y V c) d)
    ∧ (∀ d : Fin 64, ((dat1 V c).arrAt 9 cfg1.N : S1x64.Idx → EReal) (ix2 (0 : Fin 1) d) = Cert.Spec.colSumSq (out1_y V c) d) :=
  ⟨fun n d => congrFun (final1_7 V c) (ix2 n d), fun d => congrFun (final1_8 V c) (ix2 (0 : Fin 1) d),
    fun d => congrFun (final1_9 V c) (ix2 (0 : Fin 1) d)⟩

set_option maxHeartbeats 1000000 in
/-- The same over inputs given entry by entry: whatever functions of coordinates the seven arrays the region
    finds are known to be, the outputs are the second linear map of the normalised, clipped input and its
    column sums and column sums of squares. -/
theorem region1_value (c : Dev nD) (yin : Cert.Spec.Act) (mu var g bt : Cert.Spec.Row) (W : Cert.Spec.Mat) (b : Cert.Spec.Row)
    (hY : ∀ (n : Fin 50000) (k : Fin 64), (V c (Pipeline.arrRef spec1 0) : S50000x64.Idx → EReal) (ix2 n k) = yin n k)
    (hMu : ∀ d : Fin 64, (V c (Pipeline.arrRef spec1 1) : S1x64.Idx → EReal) (ix2 (0 : Fin 1) d) = mu d)
    (hVar : ∀ d : Fin 64, (V c (Pipeline.arrRef spec1 2) : S1x64.Idx → EReal) (ix2 (0 : Fin 1) d) = var d)
    (hG : ∀ d : Fin 64, (V c (Pipeline.arrRef spec1 3) : S1x64.Idx → EReal) (ix2 (0 : Fin 1) d) = g d)
    (hBt : ∀ d : Fin 64, (V c (Pipeline.arrRef spec1 4) : S1x64.Idx → EReal) (ix2 (0 : Fin 1) d) = bt d)
    (hW : ∀ k d : Fin 64, (V c (Pipeline.arrRef spec1 5) : S64x64.Idx → EReal) (ix2 k d) = W k d)
    (hB : ∀ d : Fin 64, (V c (Pipeline.arrRef spec1 6) : S1x64.Idx → EReal) (ix2 (0 : Fin 1) d) = b d) :
    (∀ (n : Fin 50000) (d : Fin 64), ((dat1 V c).arrAt 7 cfg1.N : S50000x64.Idx → EReal) (ix2 n d)
        = Cert.Spec.lin (Cert.Spec.normRelu yin mu var g bt) W b n d)
    ∧ (∀ d : Fin 64, ((dat1 V c).arrAt 8 cfg1.N : S1x64.Idx → EReal) (ix2 (0 : Fin 1) d)
        = Cert.Spec.colSum (Cert.Spec.lin (Cert.Spec.normRelu yin mu var g bt) W b) d)
    ∧ (∀ d : Fin 64, ((dat1 V c).arrAt 9 cfg1.N : S1x64.Idx → EReal) (ix2 (0 : Fin 1) d)
        = Cert.Spec.colSumSq (Cert.Spec.lin (Cert.Spec.normRelu yin mu var g bt) W b) d) := by
  have ey : out1_y V c = Cert.Spec.lin (Cert.Spec.normRelu yin mu var g bt) W b := by
    rw [← (funext fun n => funext fun k => hY n k : in1_0 V c = yin), ← (funext hMu : in1_1 V c = mu),
      ← (funext hVar : in1_2 V c = var), ← (funext hG : in1_3 V c = g), ← (funext hBt : in1_4 V c = bt),
      ← (funext fun k => funext fun d => hW k d : in1_5 V c = W), ← (funext hB : in1_6 V c = b)]
  have key := region1_value_at V c
  rw [ey] at key
  exact key

end Cert.KernelIdeal.Gen

end
-- ==== Proof.KernelIdeal.Region2Value.lean ====
import proofs.«428437_j36421322670670_1_alg».proof.Proof.KernelIdeal.Region2
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.Lib.ValueLayout
import Idealize.ShloMosaic.PureOps.Ideal.Laws

/-! The value of the layer's third region — normalise, clip, pool — over the extended reals.

The region reads a table of 50000 rows of 64 entries, a row of column means, a row of column variances, a scale row, a
shift row, and one segment word per table row. It runs at 25 points, each on a tile of 2000 rows. At every point it
normalises the tile's entries by the mean and variance of their columns, scales, shifts and clips them below at zero,
and writes the tile back to its place in the first output; it also adds, into a block of 512 rows of 64 that starts
at zero, every row of the normalised tile to the block row numbered by that row's segment word — a product of the tile
with the indicator matrix of "row r belongs to segment g" — and writes the block back once, after the last point. So
the first output ends holding the normalised, clipped table, and the second, entry by entry, the sum of that table's
column over the rows of one segment: a sum over 25 tiles of sums over 2000 rows is the sum over all 50000 rows. Every
operation is exact over the extended reals, and a change of float format is the identity there. -/

set_option maxRecDepth 16384

noncomputable section

namespace Cert.KernelIdeal.Gen

open Idealize.ShloMosaic Idealize.ShloMosaic.TcCoe Idealize.ShloMosaic.ValueIdx
open Idealize.ShloMosaic.Pipeline (Dat)

/-! ## The body's arithmetic at an index -/

/-- A column broadcast along the rows: a `[a, 1]` array broadcast to `[a, b]` reads, at `(p, q)`, the operand's row `p`. -/
theorem colBroadcast2_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The normalised, clipped tile at a row and a column. -/
theorem k2_pay3_apply (v3 : Vec Ideal S2000x64 .f32) (v5 v10 v16 v20 : Vec Ideal S1x64 .f32) (r : Fin 2000) (d : Fin 64) :
    k2_pay3 (F := Ideal) v3 v5 v10 v16 v20 (ix2 r d)
      = max ((v3 (ix2 r d) - v10 (ix2 (0 : Fin 1) d)) * Ideal.rsqrt (v5 (ix2 (0 : Fin 1) d) + Cert.Spec.eps) * v16 (ix2 (0 : Fin 1) d)
          + v20 (ix2 (0 : Fin 1) d)) 0 := by
  unfold k2_pay3
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  have hz : (FloatOps.ofBits (F := Ideal) FTy.f32 0x00000000#32) = (0 : EReal) := Cert.Spec.ofBits_zero
  rw [hz]
  rfl

/-- The word a one-hot entry is made of: the comparison's bit widened and read as a signed integer is one where the two
    words agree and zero elsewhere. -/
theorem onehot_word2 (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · subst h
    simp
  · have hb : (x == y) = false := by simpa using h
    rw [hb, if_neg h]
    simp

/-- The contraction's left operand is read at (contracted row, output row) … -/
theorem lhs_k2_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhs_k2_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl
/-- … and the right at (contracted row, output column). -/
theorem rhs_k2_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhs_k2_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

/-- One tile's contribution to a pooled entry: the sum, over the tile's rows whose segment word is the output row's
    number, of the normalised, clipped tile's entries in the output column. -/
theorem k2_pay4_apply (v3 : Vec Ideal S2000x64 .f32) (v5 v10 v16 v20 : Vec Ideal S1x64 .f32) (v27 : Vec Ideal S2000x1 .i32)
    (g : Fin 512) (d : Fin 64) :
    k2_pay4 (F := Ideal) v3 v5 v10 v16 v20 v27 (ix2 g d)
      = ∑ r : Fin 2000, if v27 (ix2 r (0 : Fin 1)) = BitVec.ofNat 32 g.val
          then k2_pay3 (F := Ideal) v3 v5 v10 v16 v20 (ix2 r d) else 0 := by
  unfold k2_pay4
  simp only [shapeCast_self, matmul]
  refine (Ideal.matmul_constant_zero_apply dot_S2000x512_S2000x64_S512x64_0_0_1_1_n_n none _ _ (ix2 g d)).trans ?_
  rw [← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g d)
      ((contrEquiv1 dot_S2000x512_S2000x64_S512x64_0_0_1_1_n_n 2000 rfl rfl).symm k) = ix2 k g :=
    funext fun a => Fin.ext (by
      match a with
      | ⟨0, _⟩ => exact (lhs_k2_0 _ _).trans hk
      | ⟨1, _⟩ => exact lhs_k2_1 _ _)
  have er : dot_S2000x512_S2000x64_S512x64_0_0_1_1_n_n.rhsIdx (ix2 g d)
      ((contrEquiv1 dot_S2000x512_S2000x64_S512x64_0_0_1_1_n_n 2000 rfl rfl).symm k) = ix2 k d :=
    funext fun a => Fin.ext (by
      match a with
      | ⟨0, _⟩ => exact (rhs_k2_0 _ _).trans hk
      | ⟨1, _⟩ => exact rhs_k2_1 _ _)
  rw [el, er, truncf_apply, truncf_apply, sitofp_apply, extui_apply]
  have hc : cmpi CmpIPredicate.eq (broadcastTo S2000x512 v27 broadcasts_S2000x1_S2000x512)
      (iota Kind.tc S2000x512 32 [1] iota_S2000x512_d1_w32) (ix2 k g)
      = IntOp.cmpi .eq (v27 (ix2 k (0 : Fin 1))) (BitVec.ofNat 32 g.val) := by
    show IntOp.cmpi .eq (broadcastTo S2000x512 v27 broadcasts_S2000x1_S2000x512 (ix2 k g))
      (iota Kind.tc S2000x512 32 [1] iota_S2000x512_d1_w32 (ix2 k g)) = _
    rw [colBroadcast2_apply, iota_single_apply]
  rw [hc]
  show ((((IntOp.cmpi .eq (v27 (ix2 k (0 : Fin 1))) (BitVec.ofNat 32 g.val)).setWidth 32).toInt : ℝ) : EReal) * _ = _
  rw [onehot_word2, Cert.Spec.onehot_mul]

/-- The running pooled block: what was there plus the tile's contribution. -/
theorem k2_pay1_apply (v36 : FVec Ideal S512x64 .f32) (v37 : Vec Ideal S512x64 .f32) (g : Fin 512) (d : Fin 64) :
    k2_pay1 (F := Ideal) v36 v37 (ix2 g d) = v37 (ix2 g d) + v36 (ix2 g d) := by
  unfold k2_pay1
  simp only [shapeCast_self]
  rfl

/-- The pooled block is reset to zero. -/
theorem k2_pay2_apply (g : Fin 512) (d : Fin 64) : (k2_pay2 (F := Ideal)) (ix2 g d) = 0 := by
  unfold k2_pay2
  exact Cert.Spec.ofBits_zero

/-! ## The arrays the region reads, and what it computes from them -/

variable (V : (c : Dev nD) → (b : Ref sig .tc) → Buf (Elt Ideal) ((c : Thread nD τ).loc b))

/-- The table to normalise, one row of 64 per node. -/
abbrev arr2_0 (c : Dev nD) : Vec Ideal S50000x64 .f32 := V c (Pipeline.arrRef spec2 0)
/-- The column means. -/
abbrev arr2_1 (c : Dev nD) : Vec Ideal S1x64 .f32 := V c (Pipeline.arrRef spec2 1)
/-- The column variances. -/
abbrev arr2_2 (c : Dev nD) : Vec Ideal S1x64 .f32 := V c (Pipeline.arrRef spec2 2)
/-- The scale row. -/
abbrev arr2_3 (c : Dev nD) : Vec Ideal S1x64 .f32 := V c (Pipeline.arrRef spec2 3)
/-- The shift row. -/
abbrev arr2_4 (c : Dev nD) : Vec Ideal S1x64 .f32 := V c (Pipeline.arrRef spec2 4)
/-- The segment word of every node. -/
abbrev arr2_5 (c : Dev nD) : Vec Ideal S50000x1 .i32 := V c (Pipeline.arrRef spec2 5)

/-- The normalised, clipped table: what the region leaves in its first output. -/
def h2 (c : Dev nD) : Cert.Spec.Act :=
  Cert.Spec.normRelu (fun n k => arr2_0 V c (ix2 n k)) (fun d => arr2_1 V c (ix2 (0 : Fin 1) d))
    (fun d => arr2_2 V c (ix2 (0 : Fin 1) d)) (fun d => arr2_3 V c (ix2 (0 : Fin 1) d)) (fun d => arr2_4 V c (ix2 (0 : Fin 1) d))

/-- The segment words as a function of the node. -/
def segw2 (c : Dev nD) : Fin 50000 → BitVec 32 := fun n => arr2_5 V c (ix2 n (0 : Fin 1))

/-- The first output as one function of the index. -/
def G2_6 (c : Dev nD) : S50000x64.Idx → EReal := fun i => h2 V c (i 0) (i 1)
/-- The second output as one function of the index. -/
def G2_7 (c : Dev nD) : S512x64.Idx → EReal := fun i => Cert.Spec.pool (h2 V c) (segw2 V c) (i 0) (i 1)

/-- The first output's function at a row and a column. -/
theorem G2_6_apply (c : Dev nD) (n : Fin 50000) (d : Fin 64) : G2_6 V c (ix2 n d) = h2 V c n d := rfl
/-- The second output's function at a row and a column. -/
theorem G2_7_apply (c : Dev nD) (g : Fin 512) (d : Fin 64) :
    G2_7 V c (ix2 g d) = Cert.Spec.pool (h2 V c) (segw2 V c) g d := rfl

/-! ## Blocks read where the tile sits -/

/-- A grid point is one of 25. -/
theorem lt2 (t : Fin cfg2.N) : t.val < 25 := lt_of_lt_of_eq t.isLt N_2

/-- Row `r` of tile `t` is a node. -/
theorem row2_lt (t : Fin cfg2.N) (r : Fin 2000) : 2000 * t.val + r.val < 50000 := by
  have := lt2 t; have := r.isLt; omega

/-- The index maps over the grid: the tiled windows move with the point along the rows, the others stay. -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0) :=
  (by decide +kernel : ∀ t : Fin grid2.N, _)

/-- The table's tile at a point, at a row and a column. -/
theorem iblk2_0_apply (c : Dev nD) (t : Fin cfg2.N) (r : Fin 2000) (d : Fin 64) :
    (iblk2 V c 0 t : Vec Ideal S2000x64 .f32) (ix2 r d) = arr2_0 V c (ix2 ⟨2000 * t.val + r.val, row2_lt t r⟩ d) := by
  obtain ⟨⟨e0, e1⟩, -⟩ := idx_facts2 t
  unfold iblk2
  rw [View.read_apply]
  show V c (Pipeline.arrRef spec2 0) (((cfg2.win 0).blk t).view.emb (ix2 r d)) = V c (Pipeline.arrRef spec2 0) _
  refine congrArg _ (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * d.val = d.val; omega

/-- The segment words' tile at a point, at a row. -/
theorem iblk2_5_apply (c : Dev nD) (t : Fin cfg2.N) (r : Fin 2000) :
    (iblk2 V c 5 t : Vec Ideal S2000x1 .i32) (ix2 r (0 : Fin 1)) = arr2_5 V c (ix2 ⟨2000 * t.val + r.val, row2_lt t r⟩ (0 : Fin 1)) := by
  obtain ⟨-, -, -, -, -, ⟨e0, e1⟩, -⟩ := idx_facts2 t
  unfold iblk2
  rw [View.read_apply]
  show V c (Pipeline.arrRef spec2 5) (((cfg2.win 5).blk t).view.emb (ix2 r (0 : Fin 1))) = V c (Pipeline.arrRef spec2 5) _
  refine congrArg _ (funext fun a => Fin.ext ?_)
  match a with
  | ⟨0, _⟩ => show win2_5.index t (0 : Fin 2) * 2000 + 1 * r.val = 2000 * t.val + r.val; omega
  | ⟨1, _⟩ => show win2_5.index t (1 : Fin 2) * 1 + 1 * 0 = 0; omega

/-- The mean row at a point is the mean row. -/
theorem iblk2_1_apply (c : Dev nD) (t : Fin cfg2.N) (d : Fin 64) :
    (iblk2 V c 1 t : Vec Ideal S1x64 .f32) (ix2 (0 : Fin 1) d) = arr2_1 V c (ix2 (0 : Fin 1) d) := by
  obtain ⟨-, ⟨e0, e1⟩, -⟩ := idx_facts2 t
  unfold iblk2
  rw [View.read_apply]
  show V c (Pipeline.arrRef spec2 1) (((cfg2.win 1).blk t).view.emb (ix2 (0 : Fin 1) d)) = V c (Pipeline.arrRef spec2 1) _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * d.val = d.val; omega

/-- The variance row at a point is the variance row. -/
theorem iblk2_2_apply (c : Dev nD) (t : Fin cfg2.N) (d : Fin 64) :
    (iblk2 V c 2 t : Vec Ideal S1x64 .f32) (ix2 (0 : Fin 1) d) = arr2_2 V c (ix2 (0 : Fin 1) d) := by
  obtain ⟨-, -, ⟨e0, e1⟩, -⟩ := idx_facts2 t
  unfold iblk2
  rw [View.read_apply]
  show V c (Pipeline.arrRef spec2 2) (((cfg2.win 2).blk t).view.emb (ix2 (0 : Fin 1) d)) = V c (Pipeline.arrRef spec2 2) _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * d.val = d.val; omega

/-- The scale row at a point is the scale row. -/
theorem iblk2_3_apply (c : Dev nD) (t : Fin cfg2.N) (d : Fin 64) :
    (iblk2 V c 3 t : Vec Ideal S1x64 .f32) (ix2 (0 : Fin 1) d) = arr2_3 V c (ix2 (0 : Fin 1) d) := by
  obtain ⟨-, -, -, ⟨e0, e1⟩, -⟩ := idx_facts2 t
  unfold iblk2
  rw [View.read_apply]
  show V c (Pipeline.arrRef spec2 3) (((cfg2.win 3).blk t).view.emb (ix2 (0 : Fin 1) d)) = V c (Pipeline.arrRef spec2 3) _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * d.val = d.val; omega

/-- The shift row at a point is the shift row. -/
theorem iblk2_4_apply (c : Dev nD) (t : Fin cfg2.N) (d : Fin 64) :
    (iblk2 V c 4 t : Vec Ideal S1x64 .f32) (ix2 (0 : Fin 1) d) = arr2_4 V c (ix2 (0 : Fin 1) d) := by
  obtain ⟨-, -, -, -, ⟨e0, e1⟩, -⟩ := idx_facts2 t
  unfold iblk2
  rw [View.read_apply]
  show V c (Pipeline.arrRef spec2 4) (((cfg2.win 4).blk t).view.emb (ix2 (0 : Fin 1) d)) = V c (Pipeline.arrRef spec2 4) _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * d.val = d.val; omega

/-- The tile a point computes, at a row and a column, is the normalised, clipped table at the tile's row. -/
theorem tile2_apply (c : Dev nD) (t : Fin cfg2.N) (r : Fin 2000) (d : Fin 64) :
    k2_pay3 (F := Ideal) (iblk2 V c 0 t) (iblk2 V c 2 t) (iblk2 V c 1 t) (iblk2 V c 3 t) (iblk2 V c 4 t) (ix2 r d)
      = h2 V c ⟨2000 * t.val + r.val, row2_lt t r⟩ d := by
  refine (k2_pay3_apply (iblk2 V c 0 t) (iblk2 V c 2 t) (iblk2 V c 1 t) (iblk2 V c 3 t) (iblk2 V c 4 t) r d).trans ?_
  rw [iblk2_0_apply V c t r d, iblk2_1_apply V c t d, iblk2_2_apply V c t d, iblk2_3_apply V c t d, iblk2_4_apply V c t d]
  rfl

/-! ## The first output: every point writes its tile back -/

/-- Where a tile's entry sits in the table. -/
theorem emb2_6 (t : Fin cfg2.N) (r : Fin 2000) (d : Fin 64) :
    ((cfg2.win 6).blk t).view.emb (ix2 r d) = (ix2 ⟨2000 * t.val + r.val, row2_lt t r⟩ d : S50000x64.Idx) := by
  obtain ⟨-, -, -, -, -, -, ⟨e0, e1⟩, -⟩ := idx_facts2 t
  refine funext fun a => Fin.ext ?_
  match a with
  | ⟨0, _⟩ => show win2_6.index t (0 : Fin 2) * 2000 + 1 * r.val = 2000 * t.val + r.val; omega
  | ⟨1, _⟩ => show win2_6.index t (1 : Fin 2) * 64 + 1 * d.val = d.val; omega

/-- What a point writes back is its tile of the normalised, clipped table. -/
theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  funext y
  obtain ⟨r, d, rfl⟩ : ∃ (r : Fin 2000) (d : Fin 64), y = ix2 r d := ⟨y 0, y 1, eq_ix2 y⟩
  rw [View.read_apply]
  show k2_pay3 (F := Ideal) (iblk2 V c 0 t) (iblk2 V c 2 t) (iblk2 V c 1 t) (iblk2 V c 3 t) (iblk2 V c 4 t) (ix2 r d)
    = G2_6 V c (((cfg2.win 6).blk t).view.emb (ix2 r d))
  rw [emb2_6 t r d]
  exact tile2_apply V c t r d

/-- An index of the table is in a point's tile iff each coordinate is in the tile's range. -/
theorem mem_blk2_6 (t : Fin cfg2.N) (i : S50000x64.Idx) :
    i ∈ ((cfg2.win 6).blk t).view.set ↔ ∀ a : Fin 2, win2_6.index t a * S2000x64.size a ≤ (i a).val
      ∧ (i a).val < win2_6.index t a * S2000x64.size a + S2000x64.size a := by
  show i ∈ ((View.whole (Pipeline.arrRef spec2 6)).slice (win2_6.rect t)).set ↔ _
  rw [View.set_slice_whole, Rect.mem_set_unit]
  exact Iff.rfl

/-- The first output ends holding the normalised, clipped table: row `n` is written by point `n / 2000`. -/
theorem final2_6 (c : Dev nD) : (dat2 V c).arrAt 6 cfg2.N = G2_6 V c :=
  (dat2 V c).arrAt_eq_of_cover 6 (G2_6 V c) (fun t _ => flushed2_6_eq V c t) fun i => by
    have hi0 : (i 0).val < 50000 := (i 0).isLt
    have hi1 : (i 1).val < 64 := (i 1).isLt
    have ht : (i 0).val / 2000 < cfg2.N := lt_of_lt_of_eq (by omega : (i 0).val / 2000 < 25) N_2.symm
    refine ⟨⟨(i 0).val / 2000, ht⟩, flush2_6 _, ?_⟩
    rw [mem_blk2_6]
    obtain ⟨-, -, -, -, -, -, ⟨e0, e1⟩, -⟩ := idx_facts2 ⟨(i 0).val / 2000, ht⟩
    intro a
    match a with
    | ⟨0, _⟩ =>
      show win2_6.index ⟨(i 0).val / 2000, ht⟩ (0 : Fin 2) * 2000 ≤ (i 0).val
        ∧ (i 0).val < win2_6.index ⟨(i 0).val / 2000, ht⟩ (0 : Fin 2) * 2000 + 2000
      rw [e0]; dsimp only; omega
    | ⟨1, _⟩ =>
      show win2_6.index ⟨(i 0).val / 2000, ht⟩ (1 : Fin 2) * 64 ≤ (i 1).val
        ∧ (i 1).val < win2_6.index ⟨(i 0).val / 2000, ht⟩ (1 : Fin 2) * 64 + 64
      rw [e1]; omega

/-! ## The second output: a running sum over the points, written back once -/

/-- One tile's contribution to a pooled entry: the rows of the tile whose segment word is the entry's row number. -/
theorem contrib2_apply (c : Dev nD) (t : Fin cfg2.N) (g : Fin 512) (d : Fin 64) :
    k2_pay4 (F := Ideal) (iblk2 V c 0 t) (iblk2 V c 2 t) (iblk2 V c 1 t) (iblk2 V c 3 t) (iblk2 V c 4 t) (iblk2 V c 5 t) (ix2 g d)
      = ∑ r : Fin 2000, if segw2 V c ⟨2000 * t.val + r.val, row2_lt t r⟩ = BitVec.ofNat 32 g.val
          then h2 V c ⟨2000 * t.val + r.val, row2_lt t r⟩ d else 0 := by
  refine (k2_pay4_apply (iblk2 V c 0 t) (iblk2 V c 2 t) (iblk2 V c 1 t) (iblk2 V c 3 t) (iblk2 V c 4 t) (iblk2 V c 5 t) g d).trans ?_
  refine Finset.sum_congr rfl fun r _ => ?_
  rw [iblk2_5_apply V c t r, tile2_apply V c t r d]
  rfl

/-- The pooled block a point leaves, by its literal type. -/
abbrev acc2 (c : Dev nD) (t : Fin cfg2.N) : Vec Ideal S512x64 .f32 := (dat2 V c).after 7 t

/-- After the first point the pooled block is zero plus the first tile's contribution. -/
theorem acc2_first (c : Dev nD) (t : Fin cfg2.N) (h : t.val = 0) (g : Fin 512) (d : Fin 64) :
    acc2 V c t (ix2 g d) = 0 + k2_pay4 (F := Ideal) (iblk2 V c 0 t) (iblk2 V c 2 t) (iblk2 V c 1 t) (iblk2 V c 3 t)
      (iblk2 V c 4 t) (iblk2 V c 5 t) (ix2 g d) := by
  show ((dat2 V c).after 7 t : Vec Ideal S512x64 .f32) (ix2 g d) = _
  rw [after2_7_first V c t h, k2_pay1_apply, k2_pay2_apply]

/-- After a later point it is what the point before left plus the tile's contribution. -/
theorem acc2_later (c : Dev nD) (t : Fin cfg2.N) (h : t.val ≠ 0) (g : Fin 512) (d : Fin 64) :
    acc2 V c t (ix2 g d) = acc2 V c ⟨t.val - 1, Nat.lt_of_le_of_lt (Nat.sub_le _ _) t.isLt⟩ (ix2 g d)
      + k2_pay4 (F := Ideal) (iblk2 V c 0 t) (iblk2 V c 2 t) (iblk2 V c 1 t) (iblk2 V c 3 t)
          (iblk2 V c 4 t) (iblk2 V c 5 t) (ix2 g d) := by
  show ((dat2 V c).after 7 t : Vec Ideal S512x64 .f32) (ix2 g d) = _
  rw [after2_7_later V c t h, k2_pay1_apply]

/-- The pooled block after the last of the 25 points, at an entry: the tiles' contributions summed, which is the sum over
    all nodes. -/
theorem pooled2_last (c : Dev nD) (t : Fin cfg2.N) (ht : t.val = 24) (g : Fin 512) (d : Fin 64) :
    acc2 V c t (ix2 g d) = Cert.Spec.pool (h2 V c) (segw2 V c) g d := by
  obtain rfl : t = Fin.cast N_2.symm (Fin.last 24) := Fin.ext ht
  have key := Cert.Spec.accum_fin (N := 24)
    (fun t => acc2 V c (Fin.cast N_2.symm t) (ix2 g d))
    (fun t => k2_pay4 (F := Ideal) (iblk2 V c 0 (Fin.cast N_2.symm t)) (iblk2 V c 2 (Fin.cast N_2.symm t))
      (iblk2 V c 1 (Fin.cast N_2.symm t)) (iblk2 V c 3 (Fin.cast N_2.symm t)) (iblk2 V c 4 (Fin.cast N_2.symm t))
      (iblk2 V c 5 (Fin.cast N_2.symm t)) (ix2 g d))
    (acc2_first V c (Fin.cast N_2.symm 0) rfl g d)
    (fun t ht => acc2_later V c (Fin.cast N_2.symm t) ht g d)
  refine key.trans ?_
  show _ = ∑ n : Fin 50000, if segw2 V c n = BitVec.ofNat 32 g.val then h2 V c n d else 0
  rw [← Cert.Spec.sum_tiles25 (fun n => if segw2 V c n = BitVec.ofNat 32 g.val then h2 V c n d else 0)]
  refine Finset.sum_congr rfl fun t _ => ?_
  exact contrib2_apply V c (Fin.cast N_2.symm t) g d

/-- The pooled block is the whole of the second output. -/
theorem emb2_7 (t : Fin cfg2.N) (g : Fin 512) (d : Fin 64) :
    ((cfg2.win 7).blk t).view.emb (ix2 g d) = (ix2 g d : S512x64.Idx) := by
  obtain ⟨-, -, -, -, -, -, -, ⟨e0, e1⟩⟩ := idx_facts2 t
  refine funext fun a => Fin.ext ?_
  match a with
  | ⟨0, _⟩ => show win2_7.index t (0 : Fin 2) * 512 + 1 * g.val = g.val; omega
  | ⟨1, _⟩ => show win2_7.index t (1 : Fin 2) * 64 + 1 * d.val = d.val; omega

/-- A point's block of the second output, read back, is the output itself. -/
theorem read2_7 (t : Fin cfg2.N) (X : S512x64.Idx → EReal) (g : Fin 512) (d : Fin 64) :
    ((cfg2.win 7).blk t).view.read (Elt Ideal) X (ix2 g d) = X (ix2 g d) := by
  rw [View.read_apply]
  show X (((cfg2.win 7).blk t).view.emb (ix2 g d)) = _
  rw [emb2_7 t g d]

/-- The write-back moves the whole pooled block. -/
theorem cut2_7 (t : Fin cfg2.N) (X : Vec Ideal S512x64 .f32) (g : Fin 512) (d : Fin 64) :
    (cfg2.win 7).cut (grid2.coords t) X (ix2 g d) = X (ix2 g d) := rfl

/-- The one write-back, after the last point, writes the pooled table. -/
theorem flushed2_7_eq (c : Dev nD) (t : Fin cfg2.N) (hf : (cfg2.win 7).flush t = true) :
    (dat2 V c).flushed 7 t = ((cfg2.win 7).blk t).view.read (Elt Ideal) (G2_7 V c) := by
  have h24 : t.val = 24 := by have := (flush2_7 t).mp hf; have := lt2 t; omega
  show (cfg2.win 7).cut (grid2.coords t) ((dat2 V c).after 7 t) = _
  funext y
  obtain ⟨g, d, rfl⟩ : ∃ (g : Fin 512) (d : Fin 64), y = ix2 g d := ⟨y 0, y 1, eq_ix2 y⟩
  refine Eq.trans ?_ ((read2_7 t (G2_7 V c) g d).trans (G2_7_apply V c g d)).symm
  exact (cut2_7 t (acc2 V c t) g d).trans (pooled2_last V c t h24 g d)

/-- An index of the pooled table is in a point's block iff each coordinate is in the block's range. -/
theorem mem_blk2_7 (t : Fin cfg2.N) (i : S512x64.Idx) :
    i ∈ ((cfg2.win 7).blk t).view.set ↔ ∀ a : Fin 2, win2_7.index t a * S512x64.size a ≤ (i a).val
      ∧ (i a).val < win2_7.index t a * S512x64.size a + S512x64.size a := by
  show i ∈ ((View.whole (Pipeline.arrRef spec2 7)).slice (win2_7.rect t)).set ↔ _
  rw [View.set_slice_whole, Rect.mem_set_unit]
  exact Iff.rfl

/-- Every point's block of the pooled table is all of it. -/
theorem cover2_7 (t : Fin cfg2.N) (i : S512x64.Idx) : i ∈ ((cfg2.win 7).blk t).view.set := by
  have hi0 : (i 0).val < 512 := (i 0).isLt
  have hi1 : (i 1).val < 64 := (i 1).isLt
  rw [mem_blk2_7]
  obtain ⟨-, -, -, -, -, -, -, ⟨e0, e1⟩⟩ := idx_facts2 t
  intro a
  match a with
  | ⟨0, _⟩ =>
    show win2_7.index t (0 : Fin 2) * 512 ≤ (i 0).val ∧ (i 0).val < win2_7.index t (0 : Fin 2) * 512 + 512
    rw [e0]; omega
  | ⟨1, _⟩ =>
    show win2_7.index t (1 : Fin 2) * 64 ≤ (i 1).val ∧ (i 1).val < win2_7.index t (1 : Fin 2) * 64 + 64
    rw [e1]; omega

/-- The second output ends holding the pooled table: the last point's block is all of it. -/
theorem final2_7 (c : Dev nD) : (dat2 V c).arrAt 7 cfg2.N = G2_7 V c :=
  (dat2 V c).arrAt_eq_of_cover 7 (G2_7 V c) (flushed2_7_eq V c) fun i =>
    ⟨Fin.cast N_2.symm (Fin.last 24), (flush2_7 _).mpr rfl, cover2_7 _ i⟩

/-! ## The region's value -/

/-- When the region ends, its first output holds the table normalised by the mean and variance rows, scaled, shifted and
    clipped below at zero, and its second the rows of that table summed segment by segment. -/
theorem region2_value (c : Dev nD) :
    (∀ (n : Fin 50000) (d : Fin 64), ((dat2 V c).arrAt 6 cfg2.N : S50000x64.Idx → EReal) (ix2 n d) = h2 V c n d)
    ∧ (∀ (g : Fin 512) (d : Fin 64), ((dat2 V c).arrAt 7 cfg2.N : S512x64.Idx → EReal) (ix2 g d)
        = Cert.Spec.pool (h2 V c) (segw2 V c) g d) :=
  ⟨fun n d => (congrFun (final2_6 V c) (ix2 n d)).trans (G2_6_apply V c n d),
    fun g d => (congrFun (final2_7 V c) (ix2 g d)).trans (G2_7_apply V c g d)⟩

/-- The same with the arrays the region reads named by equations. -/
theorem region2_value_of (c : Dev nD) (Y : S50000x64.Idx → EReal) (MU VAR G B : S1x64.Idx → EReal)
    (SEG : S50000x1.Idx → BitVec 32) (hY : arr2_0 V c = Y) (hMU : arr2_1 V c = MU) (hVAR : arr2_2 V c = VAR)
    (hG : arr2_3 V c = G) (hB : arr2_4 V c = B) (hSEG : arr2_5 V c = SEG) :
    (∀ (n : Fin 50000) (d : Fin 64), ((dat2 V c).arrAt 6 cfg2.N : S50000x64.Idx → EReal) (ix2 n d)
        = Cert.Spec.normRelu (fun n k => Y (ix2 n k)) (fun d => MU (ix2 (0 : Fin 1) d)) (fun d => VAR (ix2 (0 : Fin 1) d))
            (fun d => G (ix2 (0 : Fin 1) d)) (fun d => B (ix2 (0 : Fin 1) d)) n d)
    ∧ (∀ (g : Fin 512) (d : Fin 64), ((dat2 V c).arrAt 7 cfg2.N : S512x64.Idx → EReal) (ix2 g d)
        = Cert.Spec.pool (Cert.Spec.normRelu (fun n k => Y (ix2 n k)) (fun d => MU (ix2 (0 : Fin 1) d))
            (fun d => VAR (ix2 (0 : Fin 1) d)) (fun d => G (ix2 (0 : Fin 1) d)) (fun d => B (ix2 (0 : Fin 1) d)))
            (fun n => SEG (ix2 n (0 : Fin 1))) g d) := by
  subst hY hMU hVAR hG hB hSEG
  exact region2_value V c

end Cert.KernelIdeal.Gen

end
-- ==== Proof.KernelIdeal.Layer0.lean ====
import proofs.«428437_j36421322670670_1_alg».proof.Proof.KernelIdeal.Inputs
import proofs.«428437_j36421322670670_1_alg».proof.Proof.KernelIdeal.Fold
import proofs.«428437_j36421322670670_1_alg».proof.Proof.KernelIdeal.Region0Value
import proofs.«428437_j36421322670670_1_alg».proof.Proof.KernelIdeal.Region1Value
import proofs.«428437_j36421322670670_1_alg».proof.Proof.KernelIdeal.Region2Value
import proofs.«428437_j36421322670670_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

/-! # The value of the first layer of the kernel program

The first six items of @main are one layer: a stretch of host operations that aggregates the neighbours' rows and
cuts the layer's first weight matrix and bias out of the stacked parameters; the kernel region that applies the
linear map and accumulates the column sums and sums of squares; a stretch that turns the sums into the column means
and variances and cuts out the scale, the shift and the second linear map; the region that normalises, clips, applies
the second linear map and accumulates its moments; a stretch that turns those into means and variances and cuts out
the last scale and shift; and the region that normalises, clips and pools by segment. The contents of the buffers are
followed through the six items, each stage as an equation about an array read at coordinates, and come out as the
specification's layer applied to the input features, with the variance obtained from the moments. -/

set_option maxRecDepth 16384

noncomputable section

namespace Cert.KernelIdeal.Value

open Idealize.ShloMosaic Idealize.ShloMosaic.TcCoe Idealize.ShloMosaic.ValueIdx
open Cert.KernelIdeal.Gen

/-! ## Layout chains read at coordinates -/

/-- Layer 0's matrix out of a stack of three: the leading slab, its unit axis dropped. -/
theorem mat0_chain (T : S3x64x64.Idx → EReal) (k d : Fin 64) :
    shapeCast S64x64 (extractStridedSlice S1x64x64 ![0, 0, 0] T slices_S3x64x64_S1x64x64_0_0_0) shapeCasts_S1x64x64_S64x64 (ix2 k d)
      = T (ix3 (0 : Fin 3) k d) := by
  rw [shapeCast_1ab_ab_apply]
  refine extractStridedSlice_apply _ T _ _ _ fun a => ?_
  match a with
  | ⟨0, _⟩ => rfl
  | ⟨1, _⟩ => show k.val = 0 + k.val; omega
  | ⟨2, _⟩ => show d.val = 0 + d.val; omega

/-- Layer 0's row out of a stack of three: the leading row, flattened and given its unit axis back. -/
theorem row0_chain (T : S3x64.Idx → EReal) (u : Fin 1) (d : Fin 64) :
    shapeCast S1x64 (shapeCast S64 (extractStridedSlice S1x64 ![0, 0] T slices_S3x64_S1x64_0_0) shapeCasts_S1x64_S64) shapeCasts_S64_S1x64 (ix2 u d)
      = T (ix2 (0 : Fin 3) d) := by
  rw [shapeCast_a_1a_apply, shapeCast_1a_a_apply]
  refine extractStridedSlice_apply _ T _ _ _ fun a => ?_
  match a with
  | ⟨0, _⟩ => rfl
  | ⟨1, _⟩ => show d.val = 0 + d.val; omega

/-- A vector of 50000 words given a trailing unit axis reads the word. -/
theorem col_chain (T : S50000.Idx → BitVec 32) (n : Fin 50000) (u : Fin 1) :
    shapeCast S50000x1 T shapeCasts_S50000_S50000x1 (ix2 n u) = T (ix1 n) := by
  refine shapeCast_apply _ _ _ _ ?_
  have hu : u.val = 0 := by omega
  rw [Shape.rowMajor_val_two, Shape.rowMajor_val_one]
  show n.val = n.val * 1 + u.val
  omega

/-- A row divided by the broadcast number of nodes. -/
theorem divNodes_apply (a : FVec Ideal S1x64 .f32) (j : S1x64.Idx) :
    Host.divf a (broadcastInDim S1x64 ![] bcast_S_S1x64 (constant (F := Ideal) S_ .f32 0x47435000#32)) j
      = Ideal.div (a j) Cert.Spec.nodes := by
  show Ideal.div (a j) (broadcastInDim S1x64 ![] bcast_S_S1x64 (constant (F := Ideal) S_ .f32 0x47435000#32) j) = _
  rw [broadcastInDim_scalar_apply, constant_apply]
  rfl

/-! ## The first stretch -/

set_option maxHeartbeats 1000000 in
theorem host0_v16 (X : Valuation τ sig (Elt Ideal)) (k d : Fin 64) :
    (StableHlo.after (hostOps0 (F := Ideal)) X (Proc.devRef .tc main_v16) : S64x64.Idx → EReal) (ix2 k d)
      = (X (Proc.devRef .tc main_arg3) : S3x64x64.Idx → EReal) (ix3 (0 : Fin 3) k d) := by
  have e : (StableHlo.after (hostOps0 (F := Ideal)) X (Proc.devRef .tc main_v16) : S64x64.Idx → EReal)
      = shapeCast S64x64 (extractStridedSlice S1x64x64 ![0, 0, 0] (X (Proc.devRef .tc main_arg3) : S3x64x64.Idx → EReal) slices_S3x64x64_S1x64x64_0_0_0) shapeCasts_S1x64x64_S64x64 := by
    after_results_simp <;> rfl
  rw [e, mat0_chain]

set_option maxHeartbeats 1000000 in
theorem host0_v19 (X : Valuation τ sig (Elt Ideal)) (u : Fin 1) (d : Fin 64) :
    (StableHlo.after (hostOps0 (F := Ideal)) X (Proc.devRef .tc main_v19) : S1x64.Idx → EReal) (ix2 u d)
      = (X (Proc.devRef .tc main_arg4) : S3x64.Idx → EReal) (ix2 (0 : Fin 3) d) := by
  have e : (StableHlo.after (hostOps0 (F := Ideal)) X (Proc.devRef .tc main_v19) : S1x64.Idx → EReal)
      = shapeCast S1x64 (shapeCast S64 (extractStridedSlice S1x64 ![0, 0] (X (Proc.devRef .tc main_arg4) : S3x64.Idx → EReal) slices_S3x64_S1x64_0_0) shapeCasts_S1x64_S64) shapeCasts_S64_S1x64 := by
    after_results_simp <;> rfl
  rw [e, row0_chain]

set_option maxHeartbeats 1000000 in
theorem host0_v4 (X : Valuation τ sig (Elt Ideal)) (n : Fin 50000) (u : Fin 1) :
    (StableHlo.after (hostOps0 (F := Ideal)) X (Proc.devRef .tc main_v4) : S50000x1.Idx → BitVec 32) (ix2 n u)
      = (X (Proc.devRef .tc main_arg2) : S50000.Idx → BitVec 32) (ix1 n) := by
  have e : (StableHlo.after (hostOps0 (F := Ideal)) X (Proc.devRef .tc main_v4) : S50000x1.Idx → BitVec 32)
      = shapeCast S50000x1 (X (Proc.devRef .tc main_arg2) : S50000.Idx → BitVec 32) shapeCasts_S50000_S50000x1 := by
    after_results_simp <;> rfl
  rw [e, col_chain]

/-! ## The second stretch -/

set_option maxHeartbeats 1000000 in
theorem host1_v22 (X : Valuation τ sig (Elt Ideal)) (j : S1x64.Idx) :
    (StableHlo.after (hostOps1 (F := Ideal)) X (Proc.devRef .tc main_v22) : S1x64.Idx → EReal) j
      = Ideal.div ((X (Proc.devRef .tc main_v20_1) : S1x64.Idx → EReal) j) Cert.Spec.nodes := by
  have e : (StableHlo.after (hostOps1 (F := Ideal)) X (Proc.devRef .tc main_v22) : S1x64.Idx → EReal)
      = Host.divf (X (Proc.devRef .tc main_v20_1) : FVec Ideal S1x64 .f32)
          (broadcastInDim S1x64 ![] bcast_S_S1x64 (constant (F := Ideal) S_ .f32 0x47435000#32)) := by
    after_results_simp <;> rfl
  rw [e, divNodes_apply]

set_option maxHeartbeats 1000000 in
theorem host1_v26 (X : Valuation τ sig (Elt Ideal)) (j : S1x64.Idx) :
    (StableHlo.after (hostOps1 (F := Ideal)) X (Proc.devRef .tc main_v26) : S1x64.Idx → EReal) j
      = Ideal.div ((X (Proc.devRef .tc main_v20_2) : S1x64.Idx → EReal) j) Cert.Spec.nodes
        - Ideal.div ((X (Proc.devRef .tc main_v20_1) : S1x64.Idx → EReal) j) Cert.Spec.nodes
          * Ideal.div ((X (Proc.devRef .tc main_v20_1) : S1x64.Idx → EReal) j) Cert.Spec.nodes := by
  have e : (StableHlo.after (hostOps1 (F := Ideal)) X (Proc.devRef .tc main_v26) : S1x64.Idx → EReal)
      = subf (Host.divf (X (Proc.devRef .tc main_v20_2) : FVec Ideal S1x64 .f32)
            (broadcastInDim S1x64 ![] bcast_S_S1x64 (constant (F := Ideal) S_ .f32 0x47435000#32)))
          (mulf (Host.divf (X (Proc.devRef .tc main_v20_1) : FVec Ideal S1x64 .f32)
              (broadcastInDim S1x64 ![] bcast_S_S1x64 (constant (F := Ideal) S_ .f32 0x47435000#32)))
            (Host.divf (X (Proc.devRef .tc main_v20_1) : FVec Ideal S1x64 .f32)
              (broadcastInDim S1x64 ![] bcast_S_S1x64 (constant (F := Ideal) S_ .f32 0x47435000#32)))) := by
    after_results_simp <;> rfl
  rw [e, subf_apply, mulf_apply, divNodes_apply, divNodes_apply]

set_option maxHeartbeats 1000000 in
theorem host1_v29 (X : Valuation τ sig (Elt Ideal)) (u : Fin 1) (d : Fin 64) :
    (StableHlo.after (hostOps1 (F := Ideal)) X (Proc.devRef .tc main_v29) : S1x64.Idx → EReal) (ix2 u d)
      = (X (Proc.devRef .tc main_arg5) : S3x64.Idx → EReal) (ix2 (0 : Fin 3) d) := by
  have e : (StableHlo.after (hostOps1 (F := Ideal)) X (Proc.devRef .tc main_v29) : S1x64.Idx → EReal)
      = shapeCast S1x64 (shapeCast S64 (extractStridedSlice S1x64 ![0, 0] (X (Proc.devRef .tc main_arg5) : S3x64.Idx → EReal) slices_S3x64_S1x64_0_0) shapeCasts_S1x64_S64) shapeCasts_S64_S1x64 := by
    after_results_simp <;> rfl
  rw [e, row0_chain]

set_option maxHeartbeats 1000000 in
theorem host1_v32 (X : Valuation τ sig (Elt Ideal)) (u : Fin 1) (d : Fin 64) :
    (StableHlo.after (hostOps1 (F := Ideal)) X (Proc.devRef .tc main_v32) : S1x64.Idx → EReal) (ix2 u d)
      = (X (Proc.devRef .tc main_arg6) : S3x64.Idx → EReal) (ix2 (0 : Fin 3) d) := by
  have e : (StableHlo.after (hostOps1 (F := Ideal)) X (Proc.devRef .tc main_v32) : S1x64.Idx → EReal)
      = shapeCast S1x64 (shapeCast S64 (extractStridedSlice S1x64 ![0, 0] (X (Proc.devRef .tc main_arg6) : S3x64.Idx → EReal) slices_S3x64_S1x64_0_0) shapeCasts_S1x64_S64) shapeCasts_S64_S1x64 := by
    after_results_simp <;> rfl
  rw [e, row0_chain]

set_option maxHeartbeats 1000000 in
theorem host1_v34 (X : Valuation τ sig (Elt Ideal)) (k d : Fin 64) :
    (StableHlo.after (hostOps1 (F := Ideal)) X (Proc.devRef .tc main_v34) : S64x64.Idx → EReal) (ix2 k d)
      = (X (Proc.devRef .tc main_arg7) : S3x64x64.Idx → EReal) (ix3 (0 : Fin 3) k d) := by
  have e : (StableHlo.after (hostOps1 (F := Ideal)) X (Proc.devRef .tc main_v34) : S64x64.Idx → EReal)
      = shapeCast S64x64 (extractStridedSlice S1x64x64 ![0, 0, 0] (X (Proc.devRef .tc main_arg7) : S3x64x64.Idx → EReal) slices_S3x64x64_S1x64x64_0_0_0) shapeCasts_S1x64x64_S64x64 := by
    after_results_simp <;> rfl
  rw [e, mat0_chain]

set_option maxHeartbeats 1000000 in
theorem host1_v37 (X : Valuation τ sig (Elt Ideal)) (u : Fin 1) (d : Fin 64) :
    (StableHlo.after (hostOps1 (F := Ideal)) X (Proc.devRef .tc main_v37) : S1x64.Idx → EReal) (ix2 u d)
      = (X (Proc.devRef .tc main_arg8) : S3x64.Idx → EReal) (ix2 (0 : Fin 3) d) := by
  have e : (StableHlo.after (hostOps1 (F := Ideal)) X (Proc.devRef .tc main_v37) : S1x64.Idx → EReal)
      = shapeCast S1x64 (shapeCast S64 (extractStridedSlice S1x64 ![0, 0] (X (Proc.devRef .tc main_arg8) : S3x64.Idx → EReal) slices_S3x64_S1x64_0_0) shapeCasts_S1x64_S64) shapeCasts_S64_S1x64 := by
    after_results_simp <;> rfl
  rw [e, row0_chain]

/-! ## The third stretch -/

set_option maxHeartbeats 1000000 in
theorem host2_v40 (X : Valuation τ sig (Elt Ideal)) (j : S1x64.Idx) :
    (StableHlo.after (hostOps2 (F := Ideal)) X (Proc.devRef .tc main_v40) : S1x64.Idx → EReal) j
      = Ideal.div ((X (Proc.devRef .tc main_v38_1) : S1x64.Idx → EReal) j) Cert.Spec.nodes := by
  have e : (StableHlo.after (hostOps2 (F := Ideal)) X (Proc.devRef .tc main_v40) : S1x64.Idx → EReal)
      = Host.divf (X (Proc.devRef .tc main_v38_1) : FVec Ideal S1x64 .f32)
          (broadcastInDim S1x64 ![] bcast_S_S1x64 (constant (F := Ideal) S_ .f32 0x47435000#32)) := by
    after_results_simp <;> rfl
  rw [e, divNodes_apply]

set_option maxHeartbeats 1000000 in
theorem host2_v44 (X : Valuation τ sig (Elt Ideal)) (j : S1x64.Idx) :
    (StableHlo.after (hostOps2 (F := Ideal)) X (Proc.devRef .tc main_v44) : S1x64.Idx → EReal) j
      = Ideal.div ((X (Proc.devRef .tc main_v38_2) : S1x64.Idx → EReal) j) Cert.Spec.nodes
        - Ideal.div ((X (Proc.devRef .tc main_v38_1) : S1x64.Idx → EReal) j) Cert.Spec.nodes
          * Ideal.div ((X (Proc.devRef .tc main_v38_1) : S1x64.Idx → EReal) j) Cert.Spec.nodes := by
  have e : (StableHlo.after (hostOps2 (F := Ideal)) X (Proc.devRef .tc main_v44) : S1x64.Idx → EReal)
      = subf (Host.divf (X (Proc.devRef .tc main_v38_2) : FVec Ideal S1x64 .f32)
            (broadcastInDim S1x64 ![] bcast_S_S1x64 (constant (F := Ideal) S_ .f32 0x47435000#32)))
          (mulf (Host.divf (X (Proc.devRef .tc main_v38_1) : FVec Ideal S1x64 .f32)
              (broadcastInDim S1x64 ![] bcast_S_S1x64 (constant (F := Ideal) S_ .f32 0x47435000#32)))
            (Host.divf (X (Proc.devRef .tc main_v38_1) : FVec Ideal S1x64 .f32)
              (broadcastInDim S1x64 ![] bcast_S_S1x64 (constant (F := Ideal) S_ .f32 0x47435000#32)))) := by
    after_results_simp <;> rfl
  rw [e, subf_apply, mulf_apply, divNodes_apply, divNodes_apply]

set_option maxHeartbeats 1000000 in
theorem host2_v47 (X : Valuation τ sig (Elt Ideal)) (u : Fin 1) (d : Fin 64) :
    (StableHlo.after (hostOps2 (F := Ideal)) X (Proc.devRef .tc main_v47) : S1x64.Idx → EReal) (ix2 u d)
      = (X (Proc.devRef .tc main_arg9) : S3x64.Idx → EReal) (ix2 (0 : Fin 3) d) := by
  have e : (StableHlo.after (hostOps2 (F := Ideal)) X (Proc.devRef .tc main_v47) : S1x64.Idx → EReal)
      = shapeCast S1x64 (shapeCast S64 (extractStridedSlice S1x64 ![0, 0] (X (Proc.devRef .tc main_arg9) : S3x64.Idx → EReal) slices_S3x64_S1x64_0_0) shapeCasts_S1x64_S64) shapeCasts_S64_S1x64 := by
    after_results_simp <;> rfl
  rw [e, row0_chain]

set_option maxHeartbeats 1000000 in
theorem host2_v50 (X : Valuation τ sig (Elt Ideal)) (u : Fin 1) (d : Fin 64) :
    (StableHlo.after (hostOps2 (F := Ideal)) X (Proc.devRef .tc main_v50) : S1x64.Idx → EReal) (ix2 u d)
      = (X (Proc.devRef .tc main_arg10) : S3x64.Idx → EReal) (ix2 (0 : Fin 3) d) := by
  have e : (StableHlo.after (hostOps2 (F := Ideal)) X (Proc.devRef .tc main_v50) : S1x64.Idx → EReal)
      = shapeCast S1x64 (shapeCast S64 (extractStridedSlice S1x64 ![0, 0] (X (Proc.devRef .tc main_arg10) : S3x64.Idx → EReal) slices_S3x64_S1x64_0_0) shapeCasts_S1x64_S64) shapeCasts_S64_S1x64 := by
    after_results_simp <;> rfl
  rw [e, row0_chain]

/-! ## The aggregation out of the first stretch -/

set_option maxHeartbeats 4000000 in
/-- The first stretch leaves in `main_v14` the aggregation of the feature table along the edge list. -/
theorem host0_v14 (X : Valuation τ sig (Elt Ideal)) :
    (StableHlo.after (hostOps0 (F := Ideal)) X (Proc.devRef .tc main_v14) : S50000x64.Idx → EReal)
      = aggOf (X (Proc.devRef .tc main_arg1) : S2x800000.Idx → BitVec 32)
          (X (Proc.devRef .tc main_arg0) : S50000x64.Idx → EReal) := by
  after_results_simp <;> rfl

/-! ## Functions of tables that agree entry by entry -/

theorem lin_congr {z z' : Cert.Spec.Act} {W W' : Cert.Spec.Mat} {b b' : Cert.Spec.Row}
    (hz : ∀ n k, z n k = z' n k) (hW : ∀ k d, W k d = W' k d) (hb : ∀ d, b d = b' d) :
    Cert.Spec.lin z W b = Cert.Spec.lin z' W' b' := by
  have e1 : z = z' := funext fun n => funext fun k => hz n k
  have e2 : W = W' := funext fun k => funext fun d => hW k d
  have e3 : b = b' := funext hb
  rw [e1, e2, e3]

theorem normRelu_congr {y y' : Cert.Spec.Act} {mu mu' var var' g g' b b' : Cert.Spec.Row}
    (hy : ∀ n k, y n k = y' n k) (hmu : ∀ d, mu d = mu' d) (hvar : ∀ d, var d = var' d)
    (hg : ∀ d, g d = g' d) (hb : ∀ d, b d = b' d) :
    Cert.Spec.normRelu y mu var g b = Cert.Spec.normRelu y' mu' var' g' b' := by
  have e1 : y = y' := funext fun n => funext fun k => hy n k
  have e2 : mu = mu' := funext hmu
  have e3 : var = var' := funext hvar
  have e4 : g = g' := funext hg
  have e5 : b = b' := funext hb
  rw [e1, e2, e3, e4, e5]

theorem pool_congr {h h' : Cert.Spec.Act} {s s' : Fin 50000 → BitVec 32}
    (hh : h = h') (hs : ∀ n, s n = s' n) : Cert.Spec.pool h s = Cert.Spec.pool h' s' := by
  have e : s = s' := funext hs
  rw [hh, e]

/-! ## The stages of the layer -/

section Stages

variable (m : Mem) (c : Dev nD)

/-- The first linear map of the layer: of the features plus their aggregation. -/
def lin1L0 : Cert.Spec.Act :=
  Cert.Spec.lin (fun n k => xK m c n k + aggK m c (xK m c) n k) ((paramsK m c).W1 0) ((paramsK m c).b1 0)

/-- Normalised by its own moments, scaled, shifted and clipped. -/
def act1L0 : Cert.Spec.Act :=
  Cert.Spec.normRelu (lin1L0 m c) (Cert.Spec.mean (lin1L0 m c)) (Cert.Spec.varMoments (lin1L0 m c))
    ((paramsK m c).g1 0) ((paramsK m c).bt1 0)

/-- The second linear map. -/
def lin2L0 : Cert.Spec.Act := Cert.Spec.lin (act1L0 m c) ((paramsK m c).W2 0) ((paramsK m c).b2 0)

/-- The layer's features: normalised by their own moments, scaled, shifted and clipped. -/
def featL0 : Cert.Spec.Act :=
  Cert.Spec.normRelu (lin2L0 m c) (Cert.Spec.mean (lin2L0 m c)) (Cert.Spec.varMoments (lin2L0 m c))
    ((paramsK m c).go 0) ((paramsK m c).bo 0)

/-- The four stages are the specification's layer, the variance obtained from the moments. -/
theorem featL0_eq : featL0 m c
    = Cert.Spec.layerWith Cert.Spec.varMoments (aggK m c) (xK m c) ((paramsK m c).W1 0) ((paramsK m c).b1 0)
        ((paramsK m c).g1 0) ((paramsK m c).bt1 0) ((paramsK m c).W2 0) ((paramsK m c).b2 0)
        ((paramsK m c).go 0) ((paramsK m c).bo 0) := rfl

/-- The feature table, laid out as the program's array, is the launch contents of `main_arg0`. -/
theorem tableOf_xK : tableOf (xK m c) = (m ((c : Dev nD), Proc.devRef .tc main_arg0) : S50000x64.Idx → EReal) :=
  funext fun i => congrArg (m ((c : Dev nD), Proc.devRef .tc main_arg0) : S50000x64.Idx → EReal) (eq_ix2 i).symm

variable (ρ : Dev nD → PrngReg)

/-! ### After the first stretch -/

theorem W1_arg0 (n : Fin 50000) (k : Fin 64) :
    (W1 m ρ c (Proc.devRef .tc main_arg0) : S50000x64.Idx → EReal) (ix2 n k) = xK m c n k :=
  congrFun (W1_keeps m ρ c main_arg0 (by decide)) (ix2 n k)

theorem W1_v14 (n : Fin 50000) (k : Fin 64) :
    (W1 m ρ c (Proc.devRef .tc main_v14) : S50000x64.Idx → EReal) (ix2 n k) = aggK m c (xK m c) n k := by
  have h := congrFun (host0_v14 (W0 m ρ c)) (ix2 n k)
  unfold aggK
  rw [tableOf_xK]
  exact h

theorem W1_v16 (k d : Fin 64) :
    (W1 m ρ c (Proc.devRef .tc main_v16) : S64x64.Idx → EReal) (ix2 k d) = (paramsK m c).W1 0 k d :=
  host0_v16 (W0 m ρ c) k d

theorem W1_v19 (d : Fin 64) :
    (W1 m ρ c (Proc.devRef .tc main_v19) : S1x64.Idx → EReal) (ix2 (0 : Fin 1) d) = (paramsK m c).b1 0 d :=
  host0_v19 (W0 m ρ c) 0 d

theorem W1_v4 (n : Fin 50000) :
    (W1 m ρ c (Proc.devRef .tc main_v4) : S50000x1.Idx → BitVec 32) (ix2 n (0 : Fin 1)) = segK m c n :=
  host0_v4 (W0 m ρ c) n 0

/-! ### After the first region -/

/-- The linear map the first region computes from the arrays it finds is the layer's first. -/
theorem lin0_entry :
    lin0 (Vin0 m ρ c (Pipeline.arrRef spec0 0)) (Vin0 m ρ c (Pipeline.arrRef spec0 1))
      (Vin0 m ρ c (Pipeline.arrRef spec0 2)) (Vin0 m ρ c (Pipeline.arrRef spec0 3)) = lin1L0 m c :=
  lin_congr (fun n k => congrArg₂ (· + ·) (W1_arg0 m c ρ n k) (W1_v14 m c ρ n k))
    (fun k d => W1_v16 m c ρ k d) (fun d => W1_v19 m c ρ d)

theorem W2_v20 :
    (∀ (n : Fin 50000) (d : Fin 64),
        (W2 m ρ c (Proc.devRef .tc main_v20_0) : S50000x64.Idx → EReal) (ix2 n d) = lin1L0 m c n d)
    ∧ (∀ d : Fin 64, (W2 m ρ c (Proc.devRef .tc main_v20_1) : S1x64.Idx → EReal) (ix2 (0 : Fin 1) d)
        = Cert.Spec.colSum (lin1L0 m c) d)
    ∧ (∀ d : Fin 64, (W2 m ρ c (Proc.devRef .tc main_v20_2) : S1x64.Idx → EReal) (ix2 (0 : Fin 1) d)
        = Cert.Spec.colSumSq (lin1L0 m c) d) := by
  obtain ⟨h4, h5, h6⟩ := region0_value (Vin0 m ρ) c _ _ _ _ rfl rfl rfl rfl
  have e := lin0_entry m c ρ
  refine ⟨fun n d => ?_, fun d => ?_, fun d => ?_⟩
  · exact (congrFun (Wout0_arr m ρ c 4) (ix2 n d)).trans ((h4 n d).trans (congrFun (congrFun e n) d))
  · exact (congrFun (Wout0_arr m ρ c 5) (ix2 (0 : Fin 1) d)).trans
      ((h5 d).trans (congrFun (congrArg Cert.Spec.colSum e) d))
  · exact (congrFun (Wout0_arr m ρ c 6) (ix2 (0 : Fin 1) d)).trans
      ((h6 d).trans (congrFun (congrArg Cert.Spec.colSumSq e) d))

/-! ### After the second stretch -/

theorem W3_v20_0 (n : Fin 50000) (k : Fin 64) :
    (W3 m ρ c (Proc.devRef .tc main_v20_0) : S50000x64.Idx → EReal) (ix2 n k) = lin1L0 m c n k :=
  (congrFun (W3_keeps m ρ c main_v20_0 (by decide)) (ix2 n k)).trans ((W2_v20 m c ρ).1 n k)

theorem W3_v22 (d : Fin 64) :
    (W3 m ρ c (Proc.devRef .tc main_v22) : S1x64.Idx → EReal) (ix2 (0 : Fin 1) d) = Cert.Spec.mean (lin1L0 m c) d := by
  have h := host1_v22 (W2 m ρ c) (ix2 (0 : Fin 1) d)
  rw [(W2_v20 m c ρ).2.1 d] at h
  rw [Cert.Spec.mean]
  exact h

theorem W3_v26 (d : Fin 64) :
    (W3 m ρ c (Proc.devRef .tc main_v26) : S1x64.Idx → EReal) (ix2 (0 : Fin 1) d)
      = Cert.Spec.varMoments (lin1L0 m c) d := by
  have h := host1_v26 (W2 m ρ c) (ix2 (0 : Fin 1) d)
  rw [(W2_v20 m c ρ).2.1 d, (W2_v20 m c ρ).2.2 d] at h
  rw [Cert.Spec.varMoments, Cert.Spec.mean]
  exact h

theorem W3_v29 (d : Fin 64) :
    (W3 m ρ c (Proc.devRef .tc main_v29) : S1x64.Idx → EReal) (ix2 (0 : Fin 1) d) = (paramsK m c).g1 0 d :=
  (host1_v29 (W2 m ρ c) 0 d).trans
    (congrFun (W2_eq_W0 m ρ c main_arg5 (by decide) (by decide)) (ix2 (0 : Fin 3) d))

theorem W3_v32 (d : Fin 64) :
    (W3 m ρ c (Proc.devRef .tc main_v32) : S1x64.Idx → EReal) (ix2 (0 : Fin 1) d) = (paramsK m c).bt1 0 d :=
  (host1_v32 (W2 m ρ c) 0 d).trans
    (congrFun (W2_eq_W0 m ρ c main_arg6 (by decide) (by decide)) (ix2 (0 : Fin 3) d))

theorem W3_v34 (k d : Fin 64) :
    (W3 m ρ c (Proc.devRef .tc main_v34) : S64x64.Idx → EReal) (ix2 k d) = (paramsK m c).W2 0 k d :=
  (host1_v34 (W2 m ρ c) k d).trans
    (congrFun (W2_eq_W0 m ρ c main_arg7 (by decide) (by decide)) (ix3 (0 : Fin 3) k d))

theorem W3_v37 (d : Fin 64) :
    (W3 m ρ c (Proc.devRef .tc main_v37) : S1x64.Idx → EReal) (ix2 (0 : Fin 1) d) = (paramsK m c).b2 0 d :=
  (host1_v37 (W2 m ρ c) 0 d).trans
    (congrFun (W2_eq_W0 m ρ c main_arg8 (by decide) (by decide)) (ix2 (0 : Fin 3) d))

/-! ### After the second region -/

theorem W4_v38 :
    (∀ (n : Fin 50000) (d : Fin 64),
        (W4 m ρ c (Proc.devRef .tc main_v38_0) : S50000x64.Idx → EReal) (ix2 n d) = lin2L0 m c n d)
    ∧ (∀ d : Fin 64, (W4 m ρ c (Proc.devRef .tc main_v38_1) : S1x64.Idx → EReal) (ix2 (0 : Fin 1) d)
        = Cert.Spec.colSum (lin2L0 m c) d)
    ∧ (∀ d : Fin 64, (W4 m ρ c (Proc.devRef .tc main_v38_2) : S1x64.Idx → EReal) (ix2 (0 : Fin 1) d)
        = Cert.Spec.colSumSq (lin2L0 m c) d) := by
  obtain ⟨h7, h8, h9⟩ := region1_value (Vin1 m ρ) c (lin1L0 m c) (Cert.Spec.mean (lin1L0 m c))
    (Cert.Spec.varMoments (lin1L0 m c)) ((paramsK m c).g1 0) ((paramsK m c).bt1 0) ((paramsK m c).W2 0)
    ((paramsK m c).b2 0) (W3_v20_0 m c ρ) (W3_v22 m c ρ) (W3_v26 m c ρ) (W3_v29 m c ρ) (W3_v32 m c ρ)
    (W3_v34 m c ρ) (W3_v37 m c ρ)
  refine ⟨fun n d => ?_, fun d => ?_, fun d => ?_⟩
  · exact (congrFun (Wout1_arr m ρ c 7) (ix2 n d)).trans (h7 n d)
  · exact (congrFun (Wout1_arr m ρ c 8) (ix2 (0 : Fin 1) d)).trans (h8 d)
  · exact (congrFun (Wout1_arr m ρ c 9) (ix2 (0 : Fin 1) d)).trans (h9 d)

/-- An argument of @main that no item before the third region writes is as launched. -/
theorem W4_arg (r : Ref sig .tc) (h0 : r ∉ hostOps0_W) (a0 : ∀ w, Pipeline.arrRef spec0 w ≠ r)
    (h1 : r ∉ hostOps1_W) (a1 : ∀ w, Pipeline.arrRef spec1 w ≠ r) :
    W4 m ρ c (Proc.devRef .tc r) = W0 m ρ c (Proc.devRef .tc r) :=
  (Wout1_of_ne m ρ c r a1).trans ((W3_keeps m ρ c r h1).trans (W2_eq_W0 m ρ c r h0 a0))

/-! ### After the third stretch -/

theorem W5_v38_0 (n : Fin 50000) (k : Fin 64) :
    (W5 m ρ c (Proc.devRef .tc main_v38_0) : S50000x64.Idx → EReal) (ix2 n k) = lin2L0 m c n k :=
  (congrFun (W5_keeps m ρ c main_v38_0 (by decide)) (ix2 n k)).trans ((W4_v38 m c ρ).1 n k)

theorem W5_v40 (d : Fin 64) :
    (W5 m ρ c (Proc.devRef .tc main_v40) : S1x64.Idx → EReal) (ix2 (0 : Fin 1) d) = Cert.Spec.mean (lin2L0 m c) d := by
  have h := host2_v40 (W4 m ρ c) (ix2 (0 : Fin 1) d)
  rw [(W4_v38 m c ρ).2.1 d] at h
  rw [Cert.Spec.mean]
  exact h

theorem W5_v44 (d : Fin 64) :
    (W5 m ρ c (Proc.devRef .tc main_v44) : S1x64.Idx → EReal) (ix2 (0 : Fin 1) d)
      = Cert.Spec.varMoments (lin2L0 m c) d := by
  have h := host2_v44 (W4 m ρ c) (ix2 (0 : Fin 1) d)
  rw [(W4_v38 m c ρ).2.1 d, (W4_v38 m c ρ).2.2 d] at h
  rw [Cert.Spec.varMoments, Cert.Spec.mean]
  exact h

theorem W5_v47 (d : Fin 64) :
    (W5 m ρ c (Proc.devRef .tc main_v47) : S1x64.Idx → EReal) (ix2 (0 : Fin 1) d) = (paramsK m c).go 0 d :=
  (host2_v47 (W4 m ρ c) 0 d).trans
    (congrFun (W4_arg m c ρ main_arg9 (by decide) (by decide) (by decide) (by decide)) (ix2 (0 : Fin 3) d))

theorem W5_v50 (d : Fin 64) :
    (W5 m ρ c (Proc.devRef .tc main_v50) : S1x64.Idx → EReal) (ix2 (0 : Fin 1) d) = (paramsK m c).bo 0 d :=
  (host2_v50 (W4 m ρ c) 0 d).trans
    (congrFun (W4_arg m c ρ main_arg10 (by decide) (by decide) (by decide) (by decide)) (ix2 (0 : Fin 3) d))

/-- The segment words, reshaped by the first stretch, are still there when the third region is entered. -/
theorem W5_v4 (n : Fin 50000) :
    (W5 m ρ c (Proc.devRef .tc main_v4) : S50000x1.Idx → BitVec 32) (ix2 n (0 : Fin 1)) = segK m c n :=
  (congrFun ((W5_keeps m ρ c main_v4 (by decide)).trans
      ((Wout1_of_ne m ρ c main_v4 (by decide)).trans
        ((W3_keeps m ρ c main_v4 (by decide)).trans (Wout0_of_ne m ρ c main_v4 (by decide)))))
    (ix2 n (0 : Fin 1))).trans (W1_v4 m c ρ n)

end Stages

/-! ## The layer -/

/-- After the first six items of @main, `main_v51_0` holds the specification's first layer of the input features
    and `main_v51_1` its rows pooled by segment. -/
theorem layer0_value (m : Mem) (ρ : Dev nD → PrngReg) (c : Dev nD) :
    let P := paramsK m c
    let F1 := Cert.Spec.layerWith Cert.Spec.varMoments (aggK m c) (xK m c) (P.W1 0) (P.b1 0) (P.g1 0) (P.bt1 0)
      (P.W2 0) (P.b2 0) (P.go 0) (P.bo 0)
    (∀ (n : Fin 50000) (d : Fin 64),
        (W6 m ρ c (Proc.devRef .tc main_v51_0) : S50000x64.Idx → EReal) (ix2 n d) = F1 n d)
    ∧ (∀ (g : Fin 512) (d : Fin 64),
        (W6 m ρ c (Proc.devRef .tc main_v51_1) : S512x64.Idx → EReal) (ix2 g d)
          = Cert.Spec.pool F1 (segK m c) g d) := by
  intro P F1
  have hF : featL0 m c = F1 := featL0_eq m c
  have hv := region2_value_of (Vin2 m ρ) c _ _ _ _ _ _ rfl rfl rfl rfl rfl rfl
  have eh : Cert.Spec.normRelu
        (fun n k => (arr2_0 (Vin2 m ρ) c : S50000x64.Idx → EReal) (ix2 n k))
        (fun d => (arr2_1 (Vin2 m ρ) c : S1x64.Idx → EReal) (ix2 (0 : Fin 1) d))
        (fun d => (arr2_2 (Vin2 m ρ) c : S1x64.Idx → EReal) (ix2 (0 : Fin 1) d))
        (fun d => (arr2_3 (Vin2 m ρ) c : S1x64.Idx → EReal) (ix2 (0 : Fin 1) d))
        (fun d => (arr2_4 (Vin2 m ρ) c : S1x64.Idx → EReal) (ix2 (0 : Fin 1) d)) = featL0 m c :=
    normRelu_congr (W5_v38_0 m c ρ) (W5_v40 m c ρ) (W5_v44 m c ρ) (W5_v47 m c ρ) (W5_v50 m c ρ)
  refine ⟨fun n d => ?_, fun g d => ?_⟩
  · exact (congrFun (Wout2_arr m ρ c 6) (ix2 n d)).trans
      ((hv.1 n d).trans (congrFun (congrFun (eh.trans hF) n) d))
  · exact (congrFun (Wout2_arr m ρ c 7) (ix2 g d)).trans
      ((hv.2 g d).trans (congrFun (congrFun (pool_congr (eh.trans hF) (W5_v4 m c ρ)) g) d))

end Cert.KernelIdeal.Value

end
-- ==== Proof.KernelIdeal.Region3Value.lean ====
import proofs.«428437_j36421322670670_1_alg».proof.Proof.KernelIdeal.Region3
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.PureOps.Ideal.Laws
import Idealize.ShloMosaic.Lib.ValueLayout

/-! # What the first call of a layer leaves in its three outputs, over the extended reals

The call walks the 50000 nodes in five tiles of 10000 rows. At each tile it adds the tile of node features to the tile
of aggregated features, multiplies by the 64 × 64 weights, adds the bias row, and stores the resulting tile; it also adds
the tile's column sums, and the column sums of its squares, to two rows that are zeroed at the first tile and written
back after the last.

Over the extended reals every operation is exact: the roundings to bf16 are the identity, the block product into a
zero block is the contraction over the 64 shared coordinates, and a reduction along the rows is a finite sum. So row
`p` of tile `t` of the stored tile is row `10000 t + p` of the linear map `(H + A) W + B` of the whole arrays; the
five tiles cover the table; and each running row, a sequence that starts at the first tile's sums and adds one
tile's sums per step, ends at the sum over all the tiles, which is the sum over all the nodes. Addition on the
extended reals is a commutative monoid, so nothing here needs the entries to be finite. -/

noncomputable section

namespace Cert.KernelIdeal.Gen

open Idealize.ShloMosaic Idealize.ShloMosaic.TcCoe Idealize.ShloMosaic.ValueIdx
open Idealize.ShloMosaic.Pipeline (Dat)
/-! ## The block product's operand indices, axis by axis -/

theorem dotA3_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dotA3_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem dotA3_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem dotA3_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into the zero block, at row `p` and column `d`: the contraction over the 64 shared coordinates. -/
theorem matmulA3_apply (l : FVec Ideal S10000x64 .bf16) (r : FVec Ideal S64x64 .bf16) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p d) ((contrEquiv1 dot_S10000x64_S64x64_S10000x64_1_0_0_1_n_n 64 rfl rfl).symm k) = ix2 p k :=
    funext fun a => Fin.ext (by
      match a with
      | ⟨0, _⟩ => exact dotA3_lhs_row _ _
      | ⟨1, _⟩ => exact (dotA3_lhs_col _ _).trans hk)
  have er : dot_S10000x64_S64x64_S10000x64_1_0_0_1_n_n.rhsIdx (ix2 p d) ((contrEquiv1 dot_S10000x64_S64x64_S10000x64_1_0_0_1_n_n 64 rfl rfl).symm k) = ix2 k d :=
    funext fun a => Fin.ext (by
      match a with
      | ⟨0, _⟩ => exact (dotA3_rhs_row _ _).trans hk
      | ⟨1, _⟩ => exact dotA3_rhs_col _ _)
  rw [el, er]

/-- The linear payload at row `p`, column `d` of the tile: the row of the summed inputs against column `d` of the
    weights, plus the bias. -/
theorem pay3_lin_apply (v3 v4 : Vec Ideal S10000x64 .f32) (v8 : Vec Ideal S64x64 .f32) (v12 : Vec Ideal S1x64 .f32)
    (p : Fin 10000) (d : Fin 64) :
    k3_pay3 v3 v4 v8 v12 (ix2 p d)
      = (∑ k : Fin 64, (v3 (ix2 p k) + v4 (ix2 p k)) * v8 (ix2 k d)) + v12 (ix2 (0 : Fin 1) d) := by
  unfold k3_pay3
  simp only [shapeCast_self]
  rw [addf_apply]
  refine congrArg₂ (· + ·) ?_ ?_
  · exact matmulA3_apply _ _ p d
  · exact broadcastTo_1b_ab_apply v12 broadcasts_S1x64_S10000x64 p d

/-- A column sum over the tile's rows, at column `d`. -/
theorem colsumA3_apply (x : FVec Ideal S10000x64 .f32) (hacc : (0x00000000#32 : BitVec 32) = 0x00000000#32) (d : Fin 64) :
    shapeCast S1x64 (multiReduction (F := Ideal) .add [0] S64 x 0x00000000#32 reduces_S10000x64_S64 (.inl rfl) hacc) shapeCasts_S64_S1x64 (ix2 (0 : Fin 1) d)
      = ∑ p : Fin 10000, x (ix2 p d) := by
  refine (shapeCast_a_1a_apply _ shapeCasts_S64_S1x64 (0 : Fin 1) d).trans ?_
  refine (Ideal.multiReduction_add_single x 0x00000000#32 reduces_S10000x64_S64 (.inl rfl) hacc (ix1 d)).trans ?_
  refine Finset.sum_congr rfl fun p _ => congrArg x ?_
  funext a
  match a with
  | ⟨0, _⟩ => rfl
  | ⟨1, _⟩ => rfl

/-- The running column sums after a tile: what was there plus the tile's column sums of the linear payload. -/
theorem pay3_sum_apply (v3 v4 : Vec Ideal S10000x64 .f32) (v8 : Vec Ideal S64x64 .f32) (v12 : Vec Ideal S1x64 .f32)
    (v17 : Vec Ideal S1x64 .f32) (d : Fin 64) :
    k3_pay4 v3 v4 v8 v12 v17 (ix2 (0 : Fin 1) d)
      = v17 (ix2 (0 : Fin 1) d) + ∑ p : Fin 10000, k3_pay3 v3 v4 v8 v12 (ix2 p d) := by
  unfold k3_pay4
  simp only [shapeCast_self]
  rw [addf_apply]
  exact congrArg (v17 (ix2 (0 : Fin 1) d) + ·) (colsumA3_apply (k3_pay3 v3 v4 v8 v12) rfl d)

/-- The running column sums of squares after a tile. -/
theorem pay3_sumsq_apply (v3 v4 : Vec Ideal S10000x64 .f32) (v8 : Vec Ideal S64x64 .f32) (v12 : Vec Ideal S1x64 .f32)
    (v23 : Vec Ideal S1x64 .f32) (d : Fin 64) :
    k3_pay5 v3 v4 v8 v12 v23 (ix2 (0 : Fin 1) d)
      = v23 (ix2 (0 : Fin 1) d) + ∑ p : Fin 10000, k3_pay3 v3 v4 v8 v12 (ix2 p d) * k3_pay3 v3 v4 v8 v12 (ix2 p d) := by
  unfold k3_pay5
  simp only [shapeCast_self]
  rw [addf_apply]
  exact congrArg (v23 (ix2 (0 : Fin 1) d) + ·) (colsumA3_apply (mulf (k3_pay3 v3 v4 v8 v12) (k3_pay3 v3 v4 v8 v12)) rfl d)

/-- The reset payloads: the zero row. -/
theorem pay3_zero_sum_apply (d : Fin 64) : (k3_pay1 (F := Ideal)) (ix2 (0 : Fin 1) d) = Ideal.ofBits .f32 0x00000000#32 := rfl
theorem pay3_zero_sumsq_apply (d : Fin 64) : (k3_pay2 (F := Ideal)) (ix2 (0 : Fin 1) d) = Ideal.ofBits .f32 0x00000000#32 := rfl

/-! ## The statement's vocabulary -/

/-- The linear map of the summed inputs: `(H + A) W + B`, row by row. -/
abbrev lin3 (H A : S50000x64.Idx → EReal) (W : S64x64.Idx → EReal) (B : S1x64.Idx → EReal) : Cert.Spec.Act :=
  Cert.Spec.lin (fun n k => H (ix2 n k) + A (ix2 n k)) (fun k d => W (ix2 k d)) (fun d => B (ix2 (0 : Fin 1) d))

variable (V : (c : Dev nD) → (b : Ref sig .tc) → Buf (Elt Ideal) ((c : Thread nD τ).loc b))

/-- The four input arrays as the region finds them: node features, aggregated features, weights, bias. -/
abbrev arr3_h (c : Dev nD) : S50000x64.Idx → EReal := V c (Pipeline.arrRef spec3 0)
abbrev arr3_a (c : Dev nD) : S50000x64.Idx → EReal := V c (Pipeline.arrRef spec3 1)
abbrev arr3_w (c : Dev nD) : S64x64.Idx → EReal := V c (Pipeline.arrRef spec3 2)
abbrev arr3_b (c : Dev nD) : S1x64.Idx → EReal := V c (Pipeline.arrRef spec3 3)

/-- The linear map of those arrays. -/
abbrev y3 (c : Dev nD) : Cert.Spec.Act := lin3 (arr3_h V c) (arr3_a V c) (arr3_w V c) (arr3_b V c)

/-! ## The index maps over the grid, and a tile's rows in the table -/

/-- The windows over the node axis sit at block `t` at point `t`; the weights, the bias and the two rows of sums do not move. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem pt3_lt (t : Fin cfg3.N) : t.val < 5 := by
  have hN : cfg3.N = 5 := N_3
  have := t.isLt
  omega

/-- Row `p` of tile `t`, as a row of the whole table. -/
abbrev row3 (t : Fin cfg3.N) (p : Fin 10000) : Fin 50000 :=
  ⟨10000 * t.val + p.val, by have := pt3_lt t; have := p.isLt; omega⟩

/-! ## The input blocks at a point, read in the whole arrays -/

theorem iblk3_h_apply (c : Dev nD) (t : Fin cfg3.N) (p : Fin 10000) (k : Fin 64) :
    (iblk3 V c 0 t : Vec Ideal S10000x64 .f32) (ix2 p k) = arr3_h V c (ix2 (row3 t p) k) := by
  obtain ⟨erow, ecol, -⟩ := idx_facts3 t
  show arr3_h V c (((cfg3.win 0).blk t).view.emb (ix2 p k)) = _
  refine congrArg (arr3_h V c) (funext fun a => Fin.ext ?_)
  match a with
  | ⟨0, _⟩ => show win3_0.index t (0 : Fin 2) * 10000 + 1 * p.val = 10000 * t.val + p.val; rw [erow]; omega
  | ⟨1, _⟩ => show win3_0.index t (1 : Fin 2) * 64 + 1 * k.val = k.val; rw [ecol]; omega

theorem iblk3_a_apply (c : Dev nD) (t : Fin cfg3.N) (p : Fin 10000) (k : Fin 64) :
    (iblk3 V c 1 t : Vec Ideal S10000x64 .f32) (ix2 p k) = arr3_a V c (ix2 (row3 t p) k) := by
  obtain ⟨-, -, erow, ecol, -⟩ := idx_facts3 t
  show arr3_a V c (((cfg3.win 1).blk t).view.emb (ix2 p k)) = _
  refine congrArg (arr3_a V c) (funext fun a => Fin.ext ?_)
  match a with
  | ⟨0, _⟩ => show win3_1.index t (0 : Fin 2) * 10000 + 1 * p.val = 10000 * t.val + p.val; rw [erow]; omega
  | ⟨1, _⟩ => show win3_1.index t (1 : Fin 2) * 64 + 1 * k.val = k.val; rw [ecol]; omega

theorem iblk3_w_apply (c : Dev nD) (t : Fin cfg3.N) (k d : Fin 64) :
    (iblk3 V c 2 t : Vec Ideal S64x64 .f32) (ix2 k d) = arr3_w V c (ix2 k d) := by
  obtain ⟨-, -, -, -, erow, ecol, -⟩ := idx_facts3 t
  show arr3_w V c (((cfg3.win 2).blk t).view.emb (ix2 k d)) = _
  refine congrArg (arr3_w V c) (funext fun a => Fin.ext ?_)
  match a with
  | ⟨0, _⟩ => show win3_2.index t (0 : Fin 2) * 64 + 1 * k.val = k.val; rw [erow]; omega
  | ⟨1, _⟩ => show win3_2.index t (1 : Fin 2) * 64 + 1 * d.val = d.val; rw [ecol]; omega

theorem iblk3_b_apply (c : Dev nD) (t : Fin cfg3.N) (d : Fin 64) :
    (iblk3 V c 3 t : Vec Ideal S1x64 .f32) (ix2 (0 : Fin 1) d) = arr3_b V c (ix2 (0 : Fin 1) d) := by
  obtain ⟨-, -, -, -, -, -, erow, ecol, -⟩ := idx_facts3 t
  show arr3_b V c (((cfg3.win 3).blk t).view.emb (ix2 (0 : Fin 1) d)) = _
  refine congrArg (arr3_b V c) (funext fun a => Fin.ext ?_)
  match a with
  | ⟨0, _⟩ => show win3_3.index t (0 : Fin 2) * 1 + 1 * 0 = 0; rw [erow]
  | ⟨1, _⟩ => show win3_3.index t (1 : Fin 2) * 64 + 1 * d.val = d.val; rw [ecol]; omega

/-- THE TILE'S LINEAR PAYLOAD AT A POINT: row `p`, column `d` of what point `t` computes is the linear map at the tile's
    row in the table. -/
theorem lin3_at_point (c : Dev nD) (t : Fin cfg3.N) (p : Fin 10000) (d : Fin 64) :
    k3_pay3 (iblk3 V c 0 t) (iblk3 V c 1 t) (iblk3 V c 2 t) (iblk3 V c 3 t) (ix2 p d) = y3 V c (row3 t p) d := by
  refine (pay3_lin_apply (iblk3 V c 0 t) (iblk3 V c 1 t) (iblk3 V c 2 t) (iblk3 V c 3 t) p d).trans ?_
  show _ = (∑ k : Fin 64, (arr3_h V c (ix2 (row3 t p) k) + arr3_a V c (ix2 (row3 t p) k)) * arr3_w V c (ix2 k d)) + arr3_b V c (ix2 (0 : Fin 1) d)
  refine congrArg₂ (· + ·) (Finset.sum_congr rfl fun k _ => ?_) (iblk3_b_apply V c t d)
  exact congrArg₂ (· * ·) (congrArg₂ (· + ·) (iblk3_h_apply V c t p k) (iblk3_a_apply V c t p k)) (iblk3_w_apply V c t k d)

/-! ## The tile of the linear map: written back at every point, the tiles cover the table -/

/-- The table the first output ends holding, as contents of its array. -/
abbrev tab3_lin (c : Dev nD) : S50000x64.Idx → EReal :=
  fun i => y3 V c ⟨(i 0).val, (i 0).isLt⟩ ⟨(i 1).val, (i 1).isLt⟩

/-- What point `t` writes back is tile `t` of that table. -/
theorem flushed3_lin_eq (c : Dev nD) (t : Fin cfg3.N) :
    (dat3 V c).flushed 4 t = ((cfg3.win 4).blk t).view.read (Elt Ideal) (tab3_lin V c) := by
  show (cfg3.win 4).cut (grid3.coords t) ((dat3 V c).after 4 t) = _
  rw [after3_4 V c t]
  obtain ⟨-, -, -, -, -, -, -, -, erow, ecol, -⟩ := idx_facts3 t
  funext j
  obtain ⟨p, d, rfl⟩ : ∃ (p : Fin 10000) (d : Fin 64), j = ix2 p d := ⟨j 0, j 1, eq_ix2 j⟩
  show k3_pay3 (iblk3 V c 0 t) (iblk3 V c 1 t) (iblk3 V c 2 t) (iblk3 V c 3 t) (ix2 p d)
    = tab3_lin V c (((cfg3.win 4).blk t).view.emb (ix2 p d))
  refine (lin3_at_point V c t p d).trans ?_
  show y3 V c (row3 t p) d = y3 V c ⟨(((cfg3.win 4).blk t).view.emb (ix2 p d) 0).val, _⟩ ⟨(((cfg3.win 4).blk t).view.emb (ix2 p d) 1).val, _⟩
  have hrow : (((cfg3.win 4).blk t).view.emb (ix2 p d) 0).val = 10000 * t.val + p.val := by
    show win3_4.index t (0 : Fin 2) * 10000 + 1 * p.val = _
    rw [erow]; omega
  have hcol : (((cfg3.win 4).blk t).view.emb (ix2 p d) 1).val = d.val := by
    show win3_4.index t (1 : Fin 2) * 64 + 1 * d.val = _
    rw [ecol]; omega
  exact congrArg₂ (y3 V c) (Fin.ext hrow.symm) (Fin.ext hcol.symm)

/-- An index of the table is in point `t`'s tile iff each coordinate is in the tile's range on its axis. -/
theorem mem_blk3_lin (t : Fin cfg3.N) (i : S50000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole (Pipeline.arrRef spec3 4)).slice (win3_4.rect t)).set ↔ _
  rw [View.set_slice_whole, Rect.mem_set_unit]
  exact Iff.rfl

/-- THE FIRST OUTPUT after the region: the linear map, row by row. -/
theorem final3_lin (c : Dev nD) : (dat3 V c).arrAt 4 cfg3.N = tab3_lin V c :=
  (dat3 V c).arrAt_eq_of_cover 4 (tab3_lin V c) (fun t _ => flushed3_lin_eq V c t) fun i => by
    have hi : (i 0).val < 50000 := (i 0).isLt
    have hd : (i 1).val < 64 := (i 1).isLt
    have hN : cfg3.N = 5 := N_3
    refine ⟨⟨(i 0).val / 10000, by rw [hN]; omega⟩, flush3_4 _, ?_⟩
    obtain ⟨-, -, -, -, -, -, -, -, erow, ecol, -⟩ := idx_facts3 ⟨(i 0).val / 10000, by rw [hN]; omega⟩
    rw [mem_blk3_lin]
    intro a
    match a with
    | ⟨0, _⟩ =>
      show win3_4.index _ (0 : Fin 2) * 10000 ≤ (i 0).val ∧ (i 0).val < win3_4.index _ (0 : Fin 2) * 10000 + 10000
      rw [erow]; dsimp only; omega
    | ⟨1, _⟩ =>
      show win3_4.index _ (1 : Fin 2) * 64 ≤ (i 1).val ∧ (i 1).val < win3_4.index _ (1 : Fin 2) * 64 + 64
      rw [ecol]; omega

/-! ## The two rows of sums: reset at the first point, added to at every point, written back after the last -/

/-- The grid's five points, counted from the first. -/
def pt3 (i : Fin (4 + 1)) : Fin cfg3.N := ⟨i.val, by have hN : cfg3.N = 5 := N_3; rw [hN]; exact i.isLt⟩

/-- What the row of column sums holds after point `t`. -/
abbrev acc3_sum (c : Dev nD) (t : Fin cfg3.N) : Vec Ideal S1x64 .f32 := (dat3 V c).after 5 t
/-- What the row of column sums of squares holds after point `t`. -/
abbrev acc3_sumsq (c : Dev nD) (t : Fin cfg3.N) : Vec Ideal S1x64 .f32 := (dat3 V c).after 6 t

theorem acc3_sum_first (c : Dev nD) (t : Fin cfg3.N) (h : t.val = 0) (d : Fin 64) :
    acc3_sum V c t (ix2 (0 : Fin 1) d) = 0 + ∑ p : Fin 10000, y3 V c (row3 t p) d := by
  show ((dat3 V c).after 5 t : Vec Ideal S1x64 .f32) (ix2 (0 : Fin 1) d) = _
  rw [after3_5_first V c t h]
  refine (pay3_sum_apply (iblk3 V c 0 t) (iblk3 V c 1 t) (iblk3 V c 2 t) (iblk3 V c 3 t) (k3_pay1 (F := Ideal)) d).trans ?_
  exact congrArg₂ (· + ·) ((pay3_zero_sum_apply d).trans Cert.Spec.ofBits_zero)
    (Finset.sum_congr rfl fun p _ => lin3_at_point V c t p d)

theorem acc3_sum_later (c : Dev nD) (t : Fin cfg3.N) (h : t.val ≠ 0) (d : Fin 64) :
    acc3_sum V c t (ix2 (0 : Fin 1) d)
      = acc3_sum V c ⟨t.val - 1, by omega⟩ (ix2 (0 : Fin 1) d) + ∑ p : Fin 10000, y3 V c (row3 t p) d := by
  show ((dat3 V c).after 5 t : Vec Ideal S1x64 .f32) (ix2 (0 : Fin 1) d) = _
  rw [after3_5_later V c t h]
  refine (pay3_sum_apply (iblk3 V c 0 t) (iblk3 V c 1 t) (iblk3 V c 2 t) (iblk3 V c 3 t) ((dat3 V c).after 5 ⟨t.val - 1, by omega⟩) d).trans ?_
  exact congrArg₂ (· + ·) rfl (Finset.sum_congr rfl fun p _ => lin3_at_point V c t p d)

theorem acc3_sumsq_first (c : Dev nD) (t : Fin cfg3.N) (h : t.val = 0) (d : Fin 64) :
    acc3_sumsq V c t (ix2 (0 : Fin 1) d) = 0 + ∑ p : Fin 10000, y3 V c (row3 t p) d * y3 V c (row3 t p) d := by
  show ((dat3 V c).after 6 t : Vec Ideal S1x64 .f32) (ix2 (0 : Fin 1) d) = _
  rw [after3_6_first V c t h]
  refine (pay3_sumsq_apply (iblk3 V c 0 t) (iblk3 V c 1 t) (iblk3 V c 2 t) (iblk3 V c 3 t) (k3_pay2 (F := Ideal)) d).trans ?_
  exact congrArg₂ (· + ·) ((pay3_zero_sumsq_apply d).trans Cert.Spec.ofBits_zero)
    (Finset.sum_congr rfl fun p _ => congrArg₂ (· * ·) (lin3_at_point V c t p d) (lin3_at_point V c t p d))

theorem acc3_sumsq_later (c : Dev nD) (t : Fin cfg3.N) (h : t.val ≠ 0) (d : Fin 64) :
    acc3_sumsq V c t (ix2 (0 : Fin 1) d)
      = acc3_sumsq V c ⟨t.val - 1, by omega⟩ (ix2 (0 : Fin 1) d) + ∑ p : Fin 10000, y3 V c (row3 t p) d * y3 V c (row3 t p) d := by
  show ((dat3 V c).after 6 t : Vec Ideal S1x64 .f32) (ix2 (0 : Fin 1) d) = _
  rw [after3_6_later V c t h]
  refine (pay3_sumsq_apply (iblk3 V c 0 t) (iblk3 V c 1 t) (iblk3 V c 2 t) (iblk3 V c 3 t) ((dat3 V c).after 6 ⟨t.val - 1, by omega⟩) d).trans ?_
  exact congrArg₂ (· + ·) rfl
    (Finset.sum_congr rfl fun p _ => congrArg₂ (· * ·) (lin3_at_point V c t p d) (lin3_at_point V c t p d))

/-- After the last point the row of sums holds the column sums over all the nodes: the tiles' sums, joined. -/
theorem acc3_sum_last (c : Dev nD) (d : Fin 64) :
    acc3_sum V c (pt3 (Fin.last 4)) (ix2 (0 : Fin 1) d) = Cert.Spec.colSum (y3 V c) d :=
  (Cert.Spec.accum_fin (fun i => acc3_sum V c (pt3 i) (ix2 (0 : Fin 1) d))
      (fun i => ∑ p : Fin 10000, y3 V c (row3 (pt3 i) p) d)
      (acc3_sum_first V c (pt3 0) rfl d)
      (fun i hi => acc3_sum_later V c (pt3 i) hi d)).trans
    (Cert.Spec.sum_tiles5 fun n => y3 V c n d)

theorem acc3_sumsq_last (c : Dev nD) (d : Fin 64) :
    acc3_sumsq V c (pt3 (Fin.last 4)) (ix2 (0 : Fin 1) d) = Cert.Spec.colSumSq (y3 V c) d :=
  (Cert.Spec.accum_fin (fun i => acc3_sumsq V c (pt3 i) (ix2 (0 : Fin 1) d))
      (fun i => ∑ p : Fin 10000, y3 V c (row3 (pt3 i) p) d * y3 V c (row3 (pt3 i) p) d)
      (acc3_sumsq_first V c (pt3 0) rfl d)
      (fun i hi => acc3_sumsq_later V c (pt3 i) hi d)).trans
    (Cert.Spec.sum_tiles5 fun n => y3 V c n d * y3 V c n d)

/-- A point that writes a row of sums back is the last one. -/
theorem eq_last3 (t : Fin cfg3.N) (h : t.val % 5 = 4) : t = pt3 (Fin.last 4) := by
  have := pt3_lt t
  exact Fin.ext (by show t.val = 4; omega)

/-- The one write-back of the row of sums writes the whole row: its block is the array. -/
theorem flushed3_sum_eq (c : Dev nD) (t : Fin cfg3.N) (hf : (cfg3.win 5).flush t = true) :
    (dat3 V c).flushed 5 t = ((cfg3.win 5).blk t).view.read (Elt Ideal) (acc3_sum V c (pt3 (Fin.last 4))) := by
  obtain rfl : t = pt3 (Fin.last 4) := eq_last3 t ((flush3_5 t).mp hf)
  obtain ⟨-, -, -, -, -, -, -, -, -, -, erow, ecol, -⟩ := idx_facts3 (pt3 (Fin.last 4))
  funext j
  show acc3_sum V c (pt3 (Fin.last 4)) j = acc3_sum V c (pt3 (Fin.last 4)) (((cfg3.win 5).blk (pt3 (Fin.last 4))).view.emb j)
  refine congrArg (acc3_sum V c (pt3 (Fin.last 4))) (funext fun a => Fin.ext ?_)
  match a with
  | ⟨0, _⟩ => show (j 0).val = win3_5.index _ (0 : Fin 2) * 1 + 1 * (j 0).val; rw [erow]; omega
  | ⟨1, _⟩ => show (j 1).val = win3_5.index _ (1 : Fin 2) * 64 + 1 * (j 1).val; rw [ecol]; omega

theorem flushed3_sumsq_eq (c : Dev nD) (t : Fin cfg3.N) (hf : (cfg3.win 6).flush t = true) :
    (dat3 V c).flushed 6 t = ((cfg3.win 6).blk t).view.read (Elt Ideal) (acc3_sumsq V c (pt3 (Fin.last 4))) := by
  obtain rfl : t = pt3 (Fin.last 4) := eq_last3 t ((flush3_6 t).mp hf)
  obtain ⟨-, -, -, -, -, -, -, -, -, -, -, -, erow, ecol⟩ := idx_facts3 (pt3 (Fin.last 4))
  funext j
  show acc3_sumsq V c (pt3 (Fin.last 4)) j = acc3_sumsq V c (pt3 (Fin.last 4)) (((cfg3.win 6).blk (pt3 (Fin.last 4))).view.emb j)
  refine congrArg (acc3_sumsq V c (pt3 (Fin.last 4))) (funext fun a => Fin.ext ?_)
  match a with
  | ⟨0, _⟩ => show (j 0).val = win3_6.index _ (0 : Fin 2) * 1 + 1 * (j 0).val; rw [erow]; omega
  | ⟨1, _⟩ => show (j 1).val = win3_6.index _ (1 : Fin 2) * 64 + 1 * (j 1).val; rw [ecol]; omega

theorem mem_blk3_sum (t : Fin cfg3.N) (i : S1x64.Idx) :
    i ∈ ((cfg3.win 5).blk t).view.set ↔ ∀ a : Fin 2, win3_5.index t a * S1x64.size a ≤ (i a).val ∧ (i a).val < win3_5.index t a * S1x64.size a + S1x64.size a := by
  show i ∈ ((View.whole (Pipeline.arrRef spec3 5)).slice (win3_5.rect t)).set ↔ _
  rw [View.set_slice_whole, Rect.mem_set_unit]
  exact Iff.rfl

theorem mem_blk3_sumsq (t : Fin cfg3.N) (i : S1x64.Idx) :
    i ∈ ((cfg3.win 6).blk t).view.set ↔ ∀ a : Fin 2, win3_6.index t a * S1x64.size a ≤ (i a).val ∧ (i a).val < win3_6.index t a * S1x64.size a + S1x64.size a := by
  show i ∈ ((View.whole (Pipeline.arrRef spec3 6)).slice (win3_6.rect t)).set ↔ _
  rw [View.set_slice_whole, Rect.mem_set_unit]
  exact Iff.rfl

/-- THE SECOND OUTPUT after the region: what the row of sums held after the last point. -/
theorem final3_sum (c : Dev nD) : (dat3 V c).arrAt 5 cfg3.N = acc3_sum V c (pt3 (Fin.last 4)) :=
  (dat3 V c).arrAt_eq_of_cover 5 (acc3_sum V c (pt3 (Fin.last 4))) (flushed3_sum_eq V c) fun i => by
    have hu : (i 0).val < 1 := (i 0).isLt
    have hd : (i 1).val < 64 := (i 1).isLt
    refine ⟨pt3 (Fin.last 4), (flush3_5 _).mpr rfl, ?_⟩
    obtain ⟨-, -, -, -, -, -, -, -, -, -, erow, ecol, -⟩ := idx_facts3 (pt3 (Fin.last 4))
    rw [mem_blk3_sum]
    intro a
    match a with
    | ⟨0, _⟩ =>
      show win3_5.index _ (0 : Fin 2) * 1 ≤ (i 0).val ∧ (i 0).val < win3_5.index _ (0 : Fin 2) * 1 + 1
      rw [erow]; omega
    | ⟨1, _⟩ =>
      show win3_5.index _ (1 : Fin 2) * 64 ≤ (i 1).val ∧ (i 1).val < win3_5.index _ (1 : Fin 2) * 64 + 64
      rw [ecol]; omega

/-- THE THIRD OUTPUT after the region: what the row of sums of squares held after the last point. -/
theorem final3_sumsq (c : Dev nD) : (dat3 V c).arrAt 6 cfg3.N = acc3_sumsq V c (pt3 (Fin.last 4)) :=
  (dat3 V c).arrAt_eq_of_cover 6 (acc3_sumsq V c (pt3 (Fin.last 4))) (flushed3_sumsq_eq V c) fun i => by
    have hu : (i 0).val < 1 := (i 0).isLt
    have hd : (i 1).val < 64 := (i 1).isLt
    refine ⟨pt3 (Fin.last 4), (flush3_6 _).mpr rfl, ?_⟩
    obtain ⟨-, -, -, -, -, -, -, -, -, -, -, -, erow, ecol⟩ := idx_facts3 (pt3 (Fin.last 4))
    rw [mem_blk3_sumsq]
    intro a
    match a with
    | ⟨0, _⟩ =>
      show win3_6.index _ (0 : Fin 2) * 1 ≤ (i 0).val ∧ (i 0).val < win3_6.index _ (0 : Fin 2) * 1 + 1
      rw [erow]; omega
    | ⟨1, _⟩ =>
      show win3_6.index _ (1 : Fin 2) * 64 ≤ (i 1).val ∧ (i 1).val < win3_6.index _ (1 : Fin 2) * 64 + 64
      rw [ecol]; omega

/-! ## The region's value -/

/-- After the region: the first output holds the linear map of the summed inputs, the second its column sums over the
    nodes, the third its column sums of squares. -/
theorem region3_value (c : Dev nD)
    (H A : S50000x64.Idx → EReal) (W : S64x64.Idx → EReal) (B : S1x64.Idx → EReal)
    (hH : (V c (Pipeline.arrRef spec3 0) : S50000x64.Idx → EReal) = H)
    (hA : (V c (Pipeline.arrRef spec3 1) : S50000x64.Idx → EReal) = A)
    (hW : (V c (Pipeline.arrRef spec3 2) : S64x64.Idx → EReal) = W)
    (hB : (V c (Pipeline.arrRef spec3 3) : S1x64.Idx → EReal) = B) :
    (∀ (n : Fin 50000) (d : Fin 64), ((dat3 V c).arrAt 4 cfg3.N : S50000x64.Idx → EReal) (ix2 n d) = lin3 H A W B n d)
    ∧ (∀ d : Fin 64, ((dat3 V c).arrAt 5 cfg3.N : S1x64.Idx → EReal) (ix2 (0 : Fin 1) d) = Cert.Spec.colSum (lin3 H A W B) d)
    ∧ (∀ d : Fin 64, ((dat3 V c).arrAt 6 cfg3.N : S1x64.Idx → EReal) (ix2 (0 : Fin 1) d) = Cert.Spec.colSumSq (lin3 H A W B) d) := by
  subst hH hA hW hB
  refine ⟨fun n d => ?_, fun d => ?_, fun d => ?_⟩
  · exact congrFun (final3_lin V c) (ix2 n d)
  · exact (congrFun (final3_sum V c) (ix2 (0 : Fin 1) d)).trans (acc3_sum_last V c d)
  · exact (congrFun (final3_sumsq V c) (ix2 (0 : Fin 1) d)).trans (acc3_sumsq_last V c d)

end Cert.KernelIdeal.Gen

end
-- ==== Proof.KernelIdeal.Region4Value.Payloads.lean ====
/-
  The arithmetic of one grid point of the kernel that normalises, clips, applies the second linear map and
  keeps column statistics, read at one entry over the extended reals.

  At a point the kernel holds a tile of 10000 rows of the first linear map's result, the rows of column means,
  variances, gamma and beta, the 64 × 64 weights and the bias row. It stores the tile of the second linear
  map: at row `r`, column `d`, the sum over the 64 features `k` of
  `max ((z r k - mean k) * rsqrt (var k + eps) * gamma k + beta k) 0 * W k d`, plus `bias d`; a change of float
  format is the identity here and the matrix unit's product into a zero accumulator is the plain contraction. It
  also stores two rows of running totals: what the row held before plus the column sums of the tile it just
  computed, and the same with the squares of the tile's entries. At the first point the two rows are first set
  to zero.
-/
import proofs.«428437_j36421322670670_1_alg».proof.Proof.Gen.KernelIdeal.Skeleton
import proofs.«428437_j36421322670670_1_alg».proof.Proof.Spec
import proofs.«428437_j36421322670670_1_alg».proof.Proof.SpecTiles
import proofs.«428437_j36421322670670_1_alg».proof.Proof.LibPlainDot
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Gen

open Idealize.ShloMosaic Idealize.ShloMosaic.ValueIdx

/-- The reset of the running column sums stores zeros. -/
theorem pval4_3 (d : Fin 64) : (k4_pay3 (F := Ideal)) (ix2 (0 : Fin 1) d) = 0 := by
  unfold k4_pay3
  exact Cert.Spec.ofBits_zero

/-- The reset of the running column sums of squares stores zeros. -/
theorem pval4_4 (d : Fin 64) : (k4_pay4 (F := Ideal)) (ix2 (0 : Fin 1) d) = 0 := by
  unfold k4_pay4
  exact Cert.Spec.ofBits_zero

/-- Summing a tile over its rows: the row inserted into a column index is the entry (row, column). -/
theorem lift4_row (j : S64.Idx) (r : Fin 10000) : reduces_S10000x64_S64.lift j r = ix2 r (j 0) :=
  funext fun a => Fin.ext (match a with | ⟨0, _⟩ => rfl | ⟨1, _⟩ => rfl)

/-- The running column sums after a tile: what they held plus the tile's column sums. -/
theorem pval4_1 (v34 : FVec Ideal S10000x64 .f32) (v36 : Vec Ideal S1x64 .f32) (d : Fin 64) :
    k4_pay1 v34 v36 (ix2 (0 : Fin 1) d) = v36 (ix2 (0 : Fin 1) d) + ∑ r : Fin 10000, v34 (ix2 r d) := by
  unfold k4_pay1
  refine (addf_apply _ _ _).trans ?_
  refine congrArg₂ (· + ·) (congrFun (shapeCast_self v36 _) _) ?_
  refine (shapeCast_a_1a_apply _ shapeCasts_S64_S1x64 0 d).trans ?_
  refine (Ideal.multiReduction_add_single v34 0x00000000#32 reduces_S10000x64_S64 _ _ _).trans ?_
  exact Finset.sum_congr rfl fun r _ => congrArg v34 (lift4_row _ r)

/-- The running column sums of squares after a tile: what they held plus the tile's column sums of squares. -/
theorem pval4_2 (v34 : FVec Ideal S10000x64 .f32) (v42 : Vec Ideal S1x64 .f32) (d : Fin 64) :
    k4_pay2 v34 v42 (ix2 (0 : Fin 1) d)
      = v42 (ix2 (0 : Fin 1) d) + ∑ r : Fin 10000, v34 (ix2 r d) * v34 (ix2 r d) := by
  unfold k4_pay2
  refine (addf_apply _ _ _).trans ?_
  refine congrArg₂ (· + ·) (congrFun (shapeCast_self v42 _) _) ?_
  refine (shapeCast_a_1a_apply _ shapeCasts_S64_S1x64 0 d).trans ?_
  refine (Ideal.multiReduction_add_single (mulf v34 v34) 0x00000000#32 reduces_S10000x64_S64 _ _ _).trans ?_
  exact Finset.sum_congr rfl fun r _ => congrArg (fun i => v34 i * v34 i) (lift4_row _ r)

/-- The tile of the second linear map at row `r`, column `d`: the row is normalised by the mean and the
    variance rows (subtract the mean, scale by the reciprocal root of the variance plus the offset, scale by
    gamma, shift by beta), clipped below at zero, contracted with the weight column, and the bias is added. -/
theorem pval4_5 (v3 : Vec Ideal S10000x64 .f32) (v5 v10 v16 v20 : Vec Ideal S1x64 .f32) (v27 : Vec Ideal S64x64 .f32)
    (v31 : Vec Ideal S1x64 .f32) (r : Fin 10000) (d : Fin 64) :
    k4_pay5 v3 v5 v10 v16 v20 v27 v31 (ix2 r d)
      = (∑ k : Fin 64,
          max ((v3 (ix2 r k) - v10 (ix2 (0 : Fin 1) k)) * Ideal.rsqrt (v5 (ix2 (0 : Fin 1) k) + Cert.Spec.eps)
                * v16 (ix2 (0 : Fin 1) k) + v20 (ix2 (0 : Fin 1) k)) 0 * v27 (ix2 k d))
        + v31 (ix2 (0 : Fin 1) d) := by
  unfold k4_pay5
  refine (addf_apply _ _ _).trans ?_
  refine congrArg₂ (· + ·) ?_ ?_
  · refine (Cert.LibPlainDot.matmul_plain_zero (M := 10000) (K := 64) (N := 64) none _ _ (ix2 r d)).trans ?_
    refine Finset.sum_congr rfl fun k _ => congrArg₂ (· * ·) ?_ ?_
    · refine (truncf_apply (φ := .f32) (ψ := .bf16) _ bitsLt_bf16_f32 _).trans ((maximumf_apply (φ := .f32) _ _ _).trans ?_)
      refine congrArg₂ max ?_ Cert.Spec.ofBits_zero
      refine (addf_apply _ _ _).trans (congrArg₂ (· + ·) ?_ ?_)
      · refine (mulf_apply _ _ _).trans (congrArg₂ (· * ·) ?_ ?_)
        · refine (mulf_apply _ _ _).trans (congrArg₂ (· * ·) ?_ ?_)
          · refine (subf_apply _ _ _).trans (congrArg₂ (· - ·) ?_ ?_)
            · exact congrFun (shapeCast_self v3 _) _
            · exact (broadcastTo_1b_ab_apply _ _ r k).trans (congrFun (shapeCast_self v10 _) _)
          · refine (broadcastTo_1b_ab_apply _ _ r k).trans ?_
            exact congrArg Ideal.rsqrt (congrArg₂ (· + ·) (congrFun (shapeCast_self v5 _) _) rfl)
        · exact (broadcastTo_1b_ab_apply _ _ r k).trans (congrFun (shapeCast_self v16 _) _)
      · exact (broadcastTo_1b_ab_apply _ _ r k).trans (congrFun (shapeCast_self v20 _) _)
    · exact (truncf_apply (φ := .f32) (ψ := .bf16) _ bitsLt_bf16_f32 _).trans (congrFun (shapeCast_self v27 _) _)
  · exact (broadcastTo_1b_ab_apply _ _ r d).trans (congrFun (shapeCast_self v31 _) _)

end Cert.KernelIdeal.Gen

end
-- ==== Proof.KernelIdeal.Region4Value.lean ====
/-
  What the kernel that normalises, clips, applies the second linear map and keeps column statistics leaves in
  its three output arrays, over the extended reals.

  The 50000 nodes are walked in five tiles of 10000 rows. At a tile the rows of the first linear map's result
  are normalised by the column means and variances (subtract the mean, scale by the reciprocal root of the
  variance plus a small offset, scale by gamma, shift by beta), clipped below at zero, and sent through the
  second linear map with its bias; the tile of results is written to the output rows. Two one-row arrays keep
  running totals over the tiles: the column sums of the results and the column sums of their squares; they are
  set to zero at the first tile, each tile adds its own column sums to what the tile before left, and the rows
  are written out once, after the last tile.

  Every operation is exact over the extended reals, so: the output rows hold `lin (normRelu y mu var g bt) W b`
  entry by entry (row `n` is written by tile `n / 10000`, and the five tiles cover the array); and a total that
  starts at the first tile's sum and grows by one tile's sum per tile ends at the sum over all the nodes, a sum
  over 50000 rows being the sum over the five tiles of the sums over each tile's 10000 rows.
-/
import proofs.«428437_j36421322670670_1_alg».proof.Proof.KernelIdeal.Region4
import proofs.«428437_j36421322670670_1_alg».proof.Proof.KernelIdeal.Region4Value.Payloads
import proofs.«428437_j36421322670670_1_alg».proof.Proof.Spec
import proofs.«428437_j36421322670670_1_alg».proof.Proof.SpecTiles
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays the region finds, by coordinates -/

/-- The first linear map's result, one row of 64 per node. -/
abbrev in4_0 (c : Dev nD) : Cert.Spec.Act :=
  fun n k => (V c (Pipeline.arrRef spec4 0) : S50000x64.Idx → EReal) (ix2 n k)
/-- The column means. -/
abbrev in4_1 (c : Dev nD) : Cert.Spec.Row := fun d => (V c (Pipeline.arrRef spec4 1) : S1x64.Idx → EReal) (ix2 (0 : Fin 1) d)
/-- The column variances. -/
abbrev in4_2 (c : Dev nD) : Cert.Spec.Row := fun d => (V c (Pipeline.arrRef spec4 2) : S1x64.Idx → EReal) (ix2 (0 : Fin 1) d)
/-- The scale, gamma. -/
abbrev in4_3 (c : Dev nD) : Cert.Spec.Row := fun d => (V c (Pipeline.arrRef spec4 3) : S1x64.Idx → EReal) (ix2 (0 : Fin 1) d)
/-- The shift, beta. -/
abbrev in4_4 (c : Dev nD) : Cert.Spec.Row := fun d => (V c (Pipeline.arrRef spec4 4) : S1x64.Idx → EReal) (ix2 (0 : Fin 1) d)
/-- The second linear map's weights, row index the input feature. -/
abbrev in4_5 (c : Dev nD) : Cert.Spec.Mat := fun k d => (V c (Pipeline.arrRef spec4 5) : S64x64.Idx → EReal) (ix2 k d)
/-- The second linear map's bias. -/
abbrev in4_6 (c : Dev nD) : Cert.Spec.Row := fun d => (V c (Pipeline.arrRef spec4 6) : S1x64.Idx → EReal) (ix2 (0 : Fin 1) d)

/-- What the region computes: normalise and clip the first map's result, then apply the second linear map. -/
abbrev out4_y (c : Dev nD) : Cert.Spec.Act :=
  Cert.Spec.lin (Cert.Spec.normRelu (in4_0 V c) (in4_1 V c) (in4_2 V c) (in4_3 V c) (in4_4 V c)) (in4_5 V c) (in4_6 V c)

/-! ## Which block each point reads and writes

The grid has five points. The node-indexed arrays (the input rows and the output rows) move one tile of
10000 rows per point; every other array is one block, the same at every point. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)

/-- Row `r` of tile `t` is a node. -/
theorem row4_lt (t : Fin cfg4.N) (r : Fin 10000) : 10000 * t.val + r.val < 50000 := by
  have := t.isLt
  have hN : cfg4.N = 5 := N_4
  omega

/-- An entry of the input tile at point `t` is the array's entry at row `10000 t + r`. -/
theorem rd4_0 (c : Dev nD) (t : Fin cfg4.N) (r : Fin 10000) (k : Fin 64) :
    (iblk4 V c 0 t : Vec Ideal S10000x64 .f32) (ix2 r k) = in4_0 V c ⟨10000 * t.val + r.val, row4_lt t r⟩ k := by
  show (V c (Pipeline.arrRef spec4 0) : S50000x64.Idx → EReal) (((cfg4.win 0).blk t).view.emb (ix2 r k))
    = (V c (Pipeline.arrRef spec4 0) : S50000x64.Idx → EReal) (ix2 ⟨10000 * t.val + r.val, row4_lt t r⟩ k)
  refine congrArg _ (funext fun a => Fin.ext ?_)
  match a with
  | ⟨0, _⟩ => show win4_0.index t (0 : Fin 2) * 10000 + 1 * r.val = 10000 * t.val + r.val; rw [(idx4_0 t).1]; omega
  | ⟨1, _⟩ => show win4_0.index t (1 : Fin 2) * 64 + 1 * k.val = k.val; rw [(idx4_0 t).2]; omega

/-- The mean row as every point reads it: the whole one-row array. -/
theorem rd4_1 (c : Dev nD) (t : Fin cfg4.N) (k : Fin 64) :
    (iblk4 V c 1 t : Vec Ideal S1x64 .f32) (ix2 (0 : Fin 1) k) = in4_1 V c k := by
  show (V c (Pipeline.arrRef spec4 1) : S1x64.Idx → EReal) (((cfg4.win 1).blk t).view.emb (ix2 (0 : Fin 1) k))
    = (V c (Pipeline.arrRef spec4 1) : S1x64.Idx → EReal) (ix2 (0 : Fin 1) k)
  refine congrArg _ (funext fun a => Fin.ext ?_)
  match a with
  | ⟨0, _⟩ => show win4_1.index t (0 : Fin 2) * 1 + 1 * 0 = 0; rw [(idx4_1 t).1]
  | ⟨1, _⟩ => show win4_1.index t (1 : Fin 2) * 64 + 1 * k.val = k.val; rw [(idx4_1 t).2]; omega

/-- The variance row as every point reads it: the whole one-row array. -/
theorem rd4_2 (c : Dev nD) (t : Fin cfg4.N) (k : Fin 64) :
    (iblk4 V c 2 t : Vec Ideal S1x64 .f32) (ix2 (0 : Fin 1) k) = in4_2 V c k := by
  show (V c (Pipeline.arrRef spec4 2) : S1x64.Idx → EReal) (((cfg4.win 2).blk t).view.emb (ix2 (0 : Fin 1) k))
    = (V c (Pipeline.arrRef spec4 2) : S1x64.Idx → EReal) (ix2 (0 : Fin 1) k)
  refine congrArg _ (funext fun a => Fin.ext ?_)
  match a with
  | ⟨0, _⟩ => show win4_2.index t (0 : Fin 2) * 1 + 1 * 0 = 0; rw [(idx4_2 t).1]
  | ⟨1, _⟩ => show win4_2.index t (1 : Fin 2) * 64 + 1 * k.val = k.val; rw [(idx4_2 t).2]; omega

/-- The gamma row as every point reads it: the whole one-row array. -/
theorem rd4_3 (c : Dev nD) (t : Fin cfg4.N) (k : Fin 64) :
    (iblk4 V c 3 t : Vec Ideal S1x64 .f32) (ix2 (0 : Fin 1) k) = in4_3 V c k := by
  show (V c (Pipeline.arrRef spec4 3) : S1x64.Idx → EReal) (((cfg4.win 3).blk t).view.emb (ix2 (0 : Fin 1) k))
    = (V c (Pipeline.arrRef spec4 3) : S1x64.Idx → EReal) (ix2 (0 : Fin 1) k)
  refine congrArg _ (funext fun a => Fin.ext ?_)
  match a with
  | ⟨0, _⟩ => show win4_3.index t (0 : Fin 2) * 1 + 1 * 0 = 0; rw [(idx4_3 t).1]
  | ⟨1, _⟩ => show win4_3.index t (1 : Fin 2) * 64 + 1 * k.val = k.val; rw [(idx4_3 t).2]; omega

/-- The beta row as every point reads it: the whole one-row array. -/
theorem rd4_4 (c : Dev nD) (t : Fin cfg4.N) (k : Fin 64) :
    (iblk4 V c 4 t : Vec Ideal S1x64 .f32) (ix2 (0 : Fin 1) k) = in4_4 V c k := by
  show (V c (Pipeline.arrRef spec4 4) : S1x64.Idx → EReal) (((cfg4.win 4).blk t).view.emb (ix2 (0 : Fin 1) k))
    = (V c (Pipeline.arrRef spec4 4) : S1x64.Idx → EReal) (ix2 (0 : Fin 1) k)
  refine congrArg _ (funext fun a => Fin.ext ?_)
  match a with
  | ⟨0, _⟩ => show win4_4.index t (0 : Fin 2) * 1 + 1 * 0 = 0; rw [(idx4_4 t).1]
  | ⟨1, _⟩ => show win4_4.index t (1 : Fin 2) * 64 + 1 * k.val = k.val; rw [(idx4_4 t).2]; omega

/-- The weights as every point reads them: the whole matrix. -/
theorem rd4_5 (c : Dev nD) (t : Fin cfg4.N) (k d : Fin 64) :
    (iblk4 V c 5 t : Vec Ideal S64x64 .f32) (ix2 k d) = in4_5 V c k d := by
  show (V c (Pipeline.arrRef spec4 5) : S64x64.Idx → EReal) (((cfg4.win 5).blk t).view.emb (ix2 k d))
    = (V c (Pipeline.arrRef spec4 5) : S64x64.Idx → EReal) (ix2 k d)
  refine congrArg _ (funext fun a => Fin.ext ?_)
  match a with
  | ⟨0, _⟩ => show win4_5.index t (0 : Fin 2) * 64 + 1 * k.val = k.val; rw [(idx4_5 t).1]; omega
  | ⟨1, _⟩ => show win4_5.index t (1 : Fin 2) * 64 + 1 * d.val = d.val; rw [(idx4_5 t).2]; omega

/-- The bias row as every point reads it: the whole one-row array. -/
theorem rd4_6 (c : Dev nD) (t : Fin cfg4.N) (k : Fin 64) :
    (iblk4 V c 6 t : Vec Ideal S1x64 .f32) (ix2 (0 : Fin 1) k) = in4_6 V c k := by
  show (V c (Pipeline.arrRef spec4 6) : S1x64.Idx → EReal) (((cfg4.win 6).blk t).view.emb (ix2 (0 : Fin 1) k))
    = (V c (Pipeline.arrRef spec4 6) : S1x64.Idx → EReal) (ix2 (0 : Fin 1) k)
  refine congrArg _ (funext fun a => Fin.ext ?_)
  match a with
  | ⟨0, _⟩ => show win4_6.index t (0 : Fin 2) * 1 + 1 * 0 = 0; rw [(idx4_6 t).1]
  | ⟨1, _⟩ => show win4_6.index t (1 : Fin 2) * 64 + 1 * k.val = k.val; rw [(idx4_6 t).2]; omega

/-! ## What a point computes -/

/-- The tile a point stores: rows `10000 t + r` of the region's result. -/
theorem tile4_val (c : Dev nD) (t : Fin cfg4.N) (r : Fin 10000) (d : Fin 64) :
    k4_pay5 (iblk4 V c 0 t) (iblk4 V c 2 t) (iblk4 V c 1 t) (iblk4 V c 3 t) (iblk4 V c 4 t) (iblk4 V c 5 t) (iblk4 V c 6 t) (ix2 r d)
      = out4_y V c ⟨10000 * t.val + r.val, row4_lt t r⟩ d := by
  refine (pval4_5 (iblk4 V c 0 t) (iblk4 V c 2 t) (iblk4 V c 1 t) (iblk4 V c 3 t) (iblk4 V c 4 t) (iblk4 V c 5 t) (iblk4 V c 6 t) r d).trans ?_
  refine congrArg₂ (· + ·) (Finset.sum_congr rfl fun k _ => ?_) (rd4_6 V c t d)
  exact congrArg₂ (· * ·)
    (congrArg₂ max
      (congrArg₂ (· + ·)
        (congrArg₂ (· * ·)
          (congrArg₂ (· * ·) (congrArg₂ (· - ·) (rd4_0 V c t r k) (rd4_1 V c t k))
            (congrArg (fun x => Ideal.rsqrt (x + Cert.Spec.eps)) (rd4_2 V c t k)))
          (rd4_3 V c t k))
        (rd4_4 V c t k))
      rfl)
    (rd4_5 V c t k d)

/-! ## The output rows: every point writes its tile back -/

/-- The region's result laid out as the output array. -/
abbrev gout4_7 (c : Dev nD) : S50000x64.Idx → EReal := fun i => out4_y V c (i 0) (i 1)

/-- What point `t` writes back is tile `t` of the region's result. -/
theorem flushed4_7 (c : Dev nD) (t : Fin cfg4.N) :
    (dat4 V c).flushed 7 t = ((cfg4.win 7).blk t).view.read (Elt Ideal) (gout4_7 V c) := by
  show (cfg4.win 7).cut (grid4.coords t) ((dat4 V c).after 7 t) = _
  rw [after4_7 V c t]
  funext j
  obtain ⟨r, d, rfl⟩ : ∃ (r : Fin 10000) (d : Fin 64), j = ix2 r d := ⟨j 0, j 1, eq_ix2 j⟩
  refine (tile4_val V c t r d).trans ?_
  show _ = out4_y V c ((((cfg4.win 7).blk t).view.emb (ix2 r d)) 0) ((((cfg4.win 7).blk t).view.emb (ix2 r d)) 1)
  refine congrArg₂ (out4_y V c) (Fin.ext ?_) (Fin.ext ?_)
  · show 10000 * t.val + r.val = win4_7.index t (0 : Fin 2) * 10000 + 1 * r.val
    rw [(idx4_7 t).1]; omega
  · show d.val = win4_7.index t (1 : Fin 2) * 64 + 1 * d.val
    rw [(idx4_7 t).2]; omega

/-- An entry lies in the tile of point `t` when each of its coordinates lies in the tile's range. -/
theorem mem4_7 (t : Fin cfg4.N) (i : S50000x64.Idx) :
    i ∈ ((cfg4.win 7).blk t).view.set ↔ ∀ a : Fin 2, win4_7.index t a * S10000x64.size a ≤ (i a).val
      ∧ (i a).val < win4_7.index t a * S10000x64.size a + S10000x64.size a := by
  show i ∈ ((View.whole (Pipeline.arrRef spec4 7)).slice (win4_7.rect t)).set ↔ _
  rw [View.set_slice_whole, Rect.mem_set_unit]
  exact Iff.rfl

/-- Row `n` lies in the tile of point `n / 10000`: the five tiles cover the array. -/
theorem cover4_7 (i : S50000x64.Idx) :
    ∃ t : Fin cfg4.N, (cfg4.win 7).flush t = true ∧ i ∈ ((cfg4.win 7).blk t).view.set := by
  have hN : cfg4.N = 5 := N_4
  have hn : (i 0).val < 50000 := (i 0).isLt
  have hd : (i 1).val < 64 := (i 1).isLt
  have ht : (i 0).val / 10000 < cfg4.N := by omega
  refine ⟨⟨(i 0).val / 10000, ht⟩, flush4_7 _, ?_⟩
  rw [mem4_7]
  intro a
  match a with
  | ⟨0, _⟩ =>
    show win4_7.index ⟨(i 0).val / 10000, ht⟩ (0 : Fin 2) * 10000 ≤ (i 0).val
      ∧ (i 0).val < win4_7.index ⟨(i 0).val / 10000, ht⟩ (0 : Fin 2) * 10000 + 10000
    rw [(idx4_7 _).1]
    show (i 0).val / 10000 * 10000 ≤ (i 0).val ∧ (i 0).val < (i 0).val / 10000 * 10000 + 10000
    omega
  | ⟨1, _⟩ =>
    show win4_7.index ⟨(i 0).val / 10000, ht⟩ (1 : Fin 2) * 64 ≤ (i 1).val
      ∧ (i 1).val < win4_7.index ⟨(i 0).val / 10000, ht⟩ (1 : Fin 2) * 64 + 64
    rw [(idx4_7 _).2]; omega

/-- So the output rows end holding the region's result. -/
theorem final4_7 (c : Dev nD) : (dat4 V c).arrAt 7 cfg4.N = gout4_7 V c :=
  (dat4 V c).arrAt_eq_of_cover 7 (gout4_7 V c) (fun t _ => flushed4_7 V c t) fun i => cover4_7 i

/-! ## The column totals: one block, carried from point to point, written back at the end

The first point resets the totals to zero and adds its tile's column sums; every later point adds its
own to what the point before left. After the fifth point the totals are the sums over all the nodes. -/

/-- A total that starts at the first tile's sum and grows by one tile's sum per point is, after the
    fifth point, the sum over all 50000 nodes. -/
theorem run4_total (a : Fin cfg4.N → EReal) (f : Fin 50000 → EReal)
    (hfirst : ∀ t : Fin cfg4.N, t.val = 0 → a t = 0 + ∑ r : Fin 10000, f ⟨10000 * t.val + r.val, row4_lt t r⟩)
    (hlater : ∀ (t : Fin cfg4.N) (h : t.val ≠ 0),
      a t = a ⟨t.val - 1, by omega⟩ + ∑ r : Fin 10000, f ⟨10000 * t.val + r.val, row4_lt t r⟩)
    (t : Fin cfg4.N) (ht : t.val = 4) : a t = ∑ n : Fin 50000, f n := by
  have hN : cfg4.N = 5 := N_4
  have key := Cert.Spec.accum_fin (N := 4) (fun s => a ⟨s.val, by omega⟩)
    (fun s => ∑ r : Fin 10000, f ⟨10000 * s.val + r.val, by omega⟩)
    (hfirst ⟨0, by omega⟩ rfl) (fun s hs => hlater ⟨s.val, by omega⟩ hs)
  rw [show t = ⟨(Fin.last 4).val, by omega⟩ from Fin.ext ht]
  exact key.trans (Cert.Spec.sum_tiles5 f)

/-- The running column sums after the last point: the column sums of the region's result. -/
theorem acc4_8 (c : Dev nD) (d : Fin 64) (t : Fin cfg4.N) (ht : t.val = 4) :
    ((dat4 V c).after 8 t : Vec Ideal S1x64 .f32) (ix2 (0 : Fin 1) d) = Cert.Spec.colSum (out4_y V c) d := by
  refine run4_total (fun s => ((dat4 V c).after 8 s : Vec Ideal S1x64 .f32) (ix2 (0 : Fin 1) d))
    (fun n => out4_y V c n d) ?_ ?_ t ht
  · intro s hs
    show ((dat4 V c).after 8 s : Vec Ideal S1x64 .f32) (ix2 (0 : Fin 1) d) = _
    rw [after4_8_first V c s hs]
    refine (pval4_1 (k4_pay5 (iblk4 V c 0 s) (iblk4 V c 2 s) (iblk4 V c 1 s) (iblk4 V c 3 s) (iblk4 V c 4 s) (iblk4 V c 5 s) (iblk4 V c 6 s)) (k4_pay3 (F := Ideal)) d).trans ?_
    exact congrArg₂ (· + ·) (pval4_3 d) (Finset.sum_congr rfl fun r _ => tile4_val V c s r d)
  · intro s hs
    show ((dat4 V c).after 8 s : Vec Ideal S1x64 .f32) (ix2 (0 : Fin 1) d) = _
    rw [after4_8_later V c s hs]
    refine (pval4_1 (k4_pay5 (iblk4 V c 0 s) (iblk4 V c 2 s) (iblk4 V c 1 s) (iblk4 V c 3 s) (iblk4 V c 4 s) (iblk4 V c 5 s) (iblk4 V c 6 s)) ((dat4 V c).after 8 ⟨s.val - 1, by omega⟩) d).trans ?_
    exact congrArg₂ (· + ·) rfl (Finset.sum_congr rfl fun r _ => tile4_val V c s r d)

/-- The running column sums of squares after the last point: those of the region's result. -/
theorem acc4_9 (c : Dev nD) (d : Fin 64) (t : Fin cfg4.N) (ht : t.val = 4) :
    ((dat4 V c).after 9 t : Vec Ideal S1x64 .f32) (ix2 (0 : Fin 1) d) = Cert.Spec.colSumSq (out4_y V c) d := by
  refine run4_total (fun s => ((dat4 V c).after 9 s : Vec Ideal S1x64 .f32) (ix2 (0 : Fin 1) d))
    (fun n => out4_y V c n d * out4_y V c n d) ?_ ?_ t ht
  · intro s hs
    show ((dat4 V c).after 9 s : Vec Ideal S1x64 .f32) (ix2 (0 : Fin 1) d) = _
    rw [after4_9_first V c s hs]
    refine (pval4_2 (k4_pay5 (iblk4 V c 0 s) (iblk4 V c 2 s) (iblk4 V c 1 s) (iblk4 V c 3 s) (iblk4 V c 4 s) (iblk4 V c 5 s) (iblk4 V c 6 s)) (k4_pay4 (F := Ideal)) d).trans ?_
    exact congrArg₂ (· + ·) (pval4_4 d) (Finset.sum_congr rfl fun r _ => congrArg₂ (· * ·) (tile4_val V c s r d) (tile4_val V c s r d))
  · intro s hs
    show ((dat4 V c).after 9 s : Vec Ideal S1x64 .f32) (ix2 (0 : Fin 1) d) = _
    rw [after4_9_later V c s hs]
    refine (pval4_2 (k4_pay5 (iblk4 V c 0 s) (iblk4 V c 2 s) (iblk4 V c 1 s) (iblk4 V c 3 s) (iblk4 V c 4 s) (iblk4 V c 5 s) (iblk4 V c 6 s)) ((dat4 V c).after 9 ⟨s.val - 1, by omega⟩) d).trans ?_
    exact congrArg₂ (· + ·) rfl (Finset.sum_congr rfl fun r _ => congrArg₂ (· * ·) (tile4_val V c s r d) (tile4_val V c s r d))

/-- The column sums laid out as the one-row output array. -/
abbrev gout4_8 (c : Dev nD) : S1x64.Idx → EReal := fun i => Cert.Spec.colSum (out4_y V c) (i 1)

/-- A one-row array given by its columns, read through the window's one block: the row itself. -/
theorem read4_8 (R : Cert.Spec.Row) (t : Fin cfg4.N) (d : Fin 64) :
    ((cfg4.win 8).blk t).view.read (Elt Ideal) (fun i : S1x64.Idx => R (i 1)) (ix2 (0 : Fin 1) d) = R d := by
  show R ((((cfg4.win 8).blk t).view.emb (ix2 (0 : Fin 1) d)) 1) = _
  refine congrArg R (Fin.ext ?_)
  show win4_8.index t (1 : Fin 2) * 64 + 1 * d.val = d.val
  rw [(idx4_8 t).2]; omega

/-- The last point writes the finished totals back. -/
theorem flushed4_8 (c : Dev nD) (t : Fin cfg4.N) (hf : (cfg4.win 8).flush t = true) :
    (dat4 V c).flushed 8 t = ((cfg4.win 8).blk t).view.read (Elt Ideal) (gout4_8 V c) := by
  have hN : cfg4.N = 5 := N_4
  have ht : t.val = 4 := by have := (flush4_8 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc4_8 V c d t ht).trans (read4_8 (Cert.Spec.colSum (out4_y V c)) t d).symm

/-- An entry lies in the block of point `t` when each of its coordinates lies in the block's range. -/
theorem mem4_8 (t : Fin cfg4.N) (i : S1x64.Idx) :
    i ∈ ((cfg4.win 8).blk t).view.set ↔ ∀ a : Fin 2, win4_8.index t a * S1x64.size a ≤ (i a).val
      ∧ (i a).val < win4_8.index t a * S1x64.size a + S1x64.size a := by
  show i ∈ ((View.whole (Pipeline.arrRef spec4 8)).slice (win4_8.rect t)).set ↔ _
  rw [View.set_slice_whole, Rect.mem_set_unit]
  exact Iff.rfl

/-- The one block of the one-row array is all of it, and the last point writes it. -/
theorem cover4_8 (i : S1x64.Idx) :
    ∃ t : Fin cfg4.N, (cfg4.win 8).flush t = true ∧ i ∈ ((cfg4.win 8).blk t).view.set := by
  have hN : cfg4.N = 5 := N_4
  have hu : (i 0).val < 1 := (i 0).isLt
  have hd : (i 1).val < 64 := (i 1).isLt
  have ht : 4 < cfg4.N := by omega
  refine ⟨⟨4, ht⟩, (flush4_8 _).mpr rfl, ?_⟩
  rw [mem4_8]
  intro a
  match a with
  | ⟨0, _⟩ =>
    show win4_8.index ⟨4, ht⟩ (0 : Fin 2) * 1 ≤ (i 0).val ∧ (i 0).val < win4_8.index ⟨4, ht⟩ (0 : Fin 2) * 1 + 1
    rw [(idx4_8 _).1]; omega
  | ⟨1, _⟩ =>
    show win4_8.index ⟨4, ht⟩ (1 : Fin 2) * 64 ≤ (i 1).val ∧ (i 1).val < win4_8.index ⟨4, ht⟩ (1 : Fin 2) * 64 + 64
    rw [(idx4_8 _).2]; omega

/-- So the array ends holding the column sums. -/
theorem final4_8 (c : Dev nD) : (dat4 V c).arrAt 8 cfg4.N = gout4_8 V c :=
  (dat4 V c).arrAt_eq_of_cover 8 (gout4_8 V c) (flushed4_8 V c) fun i => cover4_8 i

/-- The column sums of squares laid out as the one-row output array. -/
abbrev gout4_9 (c : Dev nD) : S1x64.Idx → EReal := fun i => Cert.Spec.colSumSq (out4_y V c) (i 1)

/-- A one-row array given by its columns, read through the window's one block: the row itself. -/
theorem read4_9 (R : Cert.Spec.Row) (t : Fin cfg4.N) (d : Fin 64) :
    ((cfg4.win 9).blk t).view.read (Elt Ideal) (fun i : S1x64.Idx => R (i 1)) (ix2 (0 : Fin 1) d) = R d := by
  show R ((((cfg4.win 9).blk t).view.emb (ix2 (0 : Fin 1) d)) 1) = _
  refine congrArg R (Fin.ext ?_)
  show win4_9.index t (1 : Fin 2) * 64 + 1 * d.val = d.val
  rw [(idx4_9 t).2]; omega

/-- The last point writes the finished totals back. -/
theorem flushed4_9 (c : Dev nD) (t : Fin cfg4.N) (hf : (cfg4.win 9).flush t = true) :
    (dat4 V c).flushed 9 t = ((cfg4.win 9).blk t).view.read (Elt Ideal) (gout4_9 V c) := by
  have hN : cfg4.N = 5 := N_4
  have ht : t.val = 4 := by have := (flush4_9 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc4_9 V c d t ht).trans (read4_9 (Cert.Spec.colSumSq (out4_y V c)) t d).symm

/-- An entry lies in the block of point `t` when each of its coordinates lies in the block's range. -/
theorem mem4_9 (t : Fin cfg4.N) (i : S1x64.Idx) :
    i ∈ ((cfg4.win 9).blk t).view.set ↔ ∀ a : Fin 2, win4_9.index t a * S1x64.size a ≤ (i a).val
      ∧ (i a).val < win4_9.index t a * S1x64.size a + S1x64.size a := by
  show i ∈ ((View.whole (Pipeline.arrRef spec4 9)).slice (win4_9.rect t)).set ↔ _
  rw [View.set_slice_whole, Rect.mem_set_unit]
  exact Iff.rfl

/-- The one block of the one-row array is all of it, and the last point writes it. -/
theorem cover4_9 (i : S1x64.Idx) :
    ∃ t : Fin cfg4.N, (cfg4.win 9).flush t = true ∧ i ∈ ((cfg4.win 9).blk t).view.set := by
  have hN : cfg4.N = 5 := N_4
  have hu : (i 0).val < 1 := (i 0).isLt
  have hd : (i 1).val < 64 := (i 1).isLt
  have ht : 4 < cfg4.N := by omega
  refine ⟨⟨4, ht⟩, (flush4_9 _).mpr rfl, ?_⟩
  rw [mem4_9]
  intro a
  match a with
  | ⟨0, _⟩ =>
    show win4_9.index ⟨4, ht⟩ (0 : Fin 2) * 1 ≤ (i 0).val ∧ (i 0).val < win4_9.index ⟨4, ht⟩ (0 : Fin 2) * 1 + 1
    rw [(idx4_9 _).1]; omega
  | ⟨1, _⟩ =>
    show win4_9.index ⟨4, ht⟩ (1 : Fin 2) * 64 ≤ (i 1).val ∧ (i 1).val < win4_9.index ⟨4, ht⟩ (1 : Fin 2) * 64 + 64
    rw [(idx4_9 _).2]; omega

/-- So the array ends holding the column sums of squares. -/
theorem final4_9 (c : Dev nD) : (dat4 V c).arrAt 9 cfg4.N = gout4_9 V c :=
  (dat4 V c).arrAt_eq_of_cover 9 (gout4_9 V c) (flushed4_9 V c) fun i => cover4_9 i

/-! ## The region's value -/

set_option maxHeartbeats 1000000 in
/-- The three output arrays after the region, over the arrays it found. -/
theorem region4_value_at (c : Dev nD) :
    (∀ (n : Fin 50000) (d : Fin 64), ((dat4 V c).arrAt 7 cfg4.N : S50000x64.Idx → EReal) (ix2 n d) = out4_y V c n d)
    ∧ (∀ d : Fin 64, ((dat4 V c).arrAt 8 cfg4.N : S1x64.Idx → EReal) (ix2 (0 : Fin 1) d) = Cert.Spec.colSum (out4_y V c) d)
    ∧ (∀ d : Fin 64, ((dat4 V c).arrAt 9 cfg4.N : S1x64.Idx → EReal) (ix2 (0 : Fin 1) d) = Cert.Spec.colSumSq (out4_y V c) d) :=
  ⟨fun n d => congrFun (final4_7 V c) (ix2 n d), fun d => congrFun (final4_8 V c) (ix2 (0 : Fin 1) d),
    fun d => congrFun (final4_9 V c) (ix2 (0 : Fin 1) d)⟩

set_option maxHeartbeats 1000000 in
/-- The same over inputs given entry by entry: whatever functions of coordinates the seven arrays the region
    finds are known to be, the outputs are the second linear map of the normalised, clipped input and its
    column sums and column sums of squares. -/
theorem region4_value (c : Dev nD) (yin : Cert.Spec.Act) (mu var g bt : Cert.Spec.Row) (W : Cert.Spec.Mat) (b : Cert.Spec.Row)
    (hY : ∀ (n : Fin 50000) (k : Fin 64), (V c (Pipeline.arrRef spec4 0) : S50000x64.Idx → EReal) (ix2 n k) = yin n k)
    (hMu : ∀ d : Fin 64, (V c (Pipeline.arrRef spec4 1) : S1x64.Idx → EReal) (ix2 (0 : Fin 1) d) = mu d)
    (hVar : ∀ d : Fin 64, (V c (Pipeline.arrRef spec4 2) : S1x64.Idx → EReal) (ix2 (0 : Fin 1) d) = var d)
    (hG : ∀ d : Fin 64, (V c (Pipeline.arrRef spec4 3) : S1x64.Idx → EReal) (ix2 (0 : Fin 1) d) = g d)
    (hBt : ∀ d : Fin 64, (V c (Pipeline.arrRef spec4 4) : S1x64.Idx → EReal) (ix2 (0 : Fin 1) d) = bt d)
    (hW : ∀ k d : Fin 64, (V c (Pipeline.arrRef spec4 5) : S64x64.Idx → EReal) (ix2 k d) = W k d)
    (hB : ∀ d : Fin 64, (V c (Pipeline.arrRef spec4 6) : S1x64.Idx → EReal) (ix2 (0 : Fin 1) d) = b d) :
    (∀ (n : Fin 50000) (d : Fin 64), ((dat4 V c).arrAt 7 cfg4.N : S50000x64.Idx → EReal) (ix2 n d)
        = Cert.Spec.lin (Cert.Spec.normRelu yin mu var g bt) W b n d)
    ∧ (∀ d : Fin 64, ((dat4 V c).arrAt 8 cfg4.N : S1x64.Idx → EReal) (ix2 (0 : Fin 1) d)
        = Cert.Spec.colSum (Cert.Spec.lin (Cert.Spec.normRelu yin mu var g bt) W b) d)
    ∧ (∀ d : Fin 64, ((dat4 V c).arrAt 9 cfg4.N : S1x64.Idx → EReal) (ix2 (0 : Fin 1) d)
        = Cert.Spec.colSumSq (Cert.Spec.lin (Cert.Spec.normRelu yin mu var g bt) W b) d) := by
  have ey : out4_y V c = Cert.Spec.lin (Cert.Spec.normRelu yin mu var g bt) W b := by
    rw [← (funext fun n => funext fun k => hY n k : in4_0 V c = yin), ← (funext hMu : in4_1 V c = mu),
      ← (funext hVar : in4_2 V c = var), ← (funext hG : in4_3 V c = g), ← (funext hBt : in4_4 V c = bt),
      ← (funext fun k => funext fun d => hW k d : in4_5 V c = W), ← (funext hB : in4_6 V c = b)]
  have key := region4_value_at V c
  rw [ey] at key
  exact key

end Cert.KernelIdeal.Gen

end
-- ==== Proof.KernelIdeal.Region5Value.lean ====
import proofs.«428437_j36421322670670_1_alg».proof.Proof.KernelIdeal.Region5
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.Lib.ValueLayout
import Idealize.ShloMosaic.PureOps.Ideal.Laws

/-! The value of the layer's third region — normalise, clip, pool — over the extended reals.

The region reads a table of 50000 rows of 64 entries, a row of column means, a row of column variances, a scale row, a
shift row, and one segment word per table row. It runs at 25 points, each on a tile of 2000 rows. At every point it
normalises the tile's entries by the mean and variance of their columns, scales, shifts and clips them below at zero,
and writes the tile back to its place in the first output; it also adds, into a block of 512 rows of 64 that starts
at zero, every row of the normalised tile to the block row numbered by that row's segment word — a product of the tile
with the indicator matrix of "row r belongs to segment g" — and writes the block back once, after the last point. So
the first output ends holding the normalised, clipped table, and the second, entry by entry, the sum of that table's
column over the rows of one segment: a sum over 25 tiles of sums over 2000 rows is the sum over all 50000 rows. Every
operation is exact over the extended reals, and a change of float format is the identity there. -/

set_option maxRecDepth 16384

noncomputable section

namespace Cert.KernelIdeal.Gen

open Idealize.ShloMosaic Idealize.ShloMosaic.TcCoe Idealize.ShloMosaic.ValueIdx
open Idealize.ShloMosaic.Pipeline (Dat)

/-! ## The body's arithmetic at an index -/

/-- A column broadcast along the rows: a `[a, 1]` array broadcast to `[a, b]` reads, at `(p, q)`, the operand's row `p`. -/
theorem colBroadcast5_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The normalised, clipped tile at a row and a column. -/
theorem k5_pay3_apply (v3 : Vec Ideal S2000x64 .f32) (v5 v10 v16 v20 : Vec Ideal S1x64 .f32) (r : Fin 2000) (d : Fin 64) :
    k5_pay3 (F := Ideal) v3 v5 v10 v16 v20 (ix2 r d)
      = max ((v3 (ix2 r d) - v10 (ix2 (0 : Fin 1) d)) * Ideal.rsqrt (v5 (ix2 (0 : Fin 1) d) + Cert.Spec.eps) * v16 (ix2 (0 : Fin 1) d)
          + v20 (ix2 (0 : Fin 1) d)) 0 := by
  unfold k5_pay3
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  have hz : (FloatOps.ofBits (F := Ideal) FTy.f32 0x00000000#32) = (0 : EReal) := Cert.Spec.ofBits_zero
  rw [hz]
  rfl

/-- The word a one-hot entry is made of: the comparison's bit widened and read as a signed integer is one where the two
    words agree and zero elsewhere. -/
theorem onehot_word5 (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · subst h
    simp
  · have hb : (x == y) = false := by simpa using h
    rw [hb, if_neg h]
    simp

/-- The contraction's left operand is read at (contracted row, output row) … -/
theorem lhs_k5_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhs_k5_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl
/-- … and the right at (contracted row, output column). -/
theorem rhs_k5_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhs_k5_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

/-- One tile's contribution to a pooled entry: the sum, over the tile's rows whose segment word is the output row's
    number, of the normalised, clipped tile's entries in the output column. -/
theorem k5_pay4_apply (v3 : Vec Ideal S2000x64 .f32) (v5 v10 v16 v20 : Vec Ideal S1x64 .f32) (v27 : Vec Ideal S2000x1 .i32)
    (g : Fin 512) (d : Fin 64) :
    k5_pay4 (F := Ideal) v3 v5 v10 v16 v20 v27 (ix2 g d)
      = ∑ r : Fin 2000, if v27 (ix2 r (0 : Fin 1)) = BitVec.ofNat 32 g.val
          then k5_pay3 (F := Ideal) v3 v5 v10 v16 v20 (ix2 r d) else 0 := by
  unfold k5_pay4
  simp only [shapeCast_self, matmul]
  refine (Ideal.matmul_constant_zero_apply dot_S2000x512_S2000x64_S512x64_0_0_1_1_n_n none _ _ (ix2 g d)).trans ?_
  rw [← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g d)
      ((contrEquiv1 dot_S2000x512_S2000x64_S512x64_0_0_1_1_n_n 2000 rfl rfl).symm k) = ix2 k g :=
    funext fun a => Fin.ext (by
      match a with
      | ⟨0, _⟩ => exact (lhs_k5_0 _ _).trans hk
      | ⟨1, _⟩ => exact lhs_k5_1 _ _)
  have er : dot_S2000x512_S2000x64_S512x64_0_0_1_1_n_n.rhsIdx (ix2 g d)
      ((contrEquiv1 dot_S2000x512_S2000x64_S512x64_0_0_1_1_n_n 2000 rfl rfl).symm k) = ix2 k d :=
    funext fun a => Fin.ext (by
      match a with
      | ⟨0, _⟩ => exact (rhs_k5_0 _ _).trans hk
      | ⟨1, _⟩ => exact rhs_k5_1 _ _)
  rw [el, er, truncf_apply, truncf_apply, sitofp_apply, extui_apply]
  have hc : cmpi CmpIPredicate.eq (broadcastTo S2000x512 v27 broadcasts_S2000x1_S2000x512)
      (iota Kind.tc S2000x512 32 [1] iota_S2000x512_d1_w32) (ix2 k g)
      = IntOp.cmpi .eq (v27 (ix2 k (0 : Fin 1))) (BitVec.ofNat 32 g.val) := by
    show IntOp.cmpi .eq (broadcastTo S2000x512 v27 broadcasts_S2000x1_S2000x512 (ix2 k g))
      (iota Kind.tc S2000x512 32 [1] iota_S2000x512_d1_w32 (ix2 k g)) = _
    rw [colBroadcast5_apply, iota_single_apply]
  rw [hc]
  show ((((IntOp.cmpi .eq (v27 (ix2 k (0 : Fin 1))) (BitVec.ofNat 32 g.val)).setWidth 32).toInt : ℝ) : EReal) * _ = _
  rw [onehot_word5, Cert.Spec.onehot_mul]

/-- The running pooled block: what was there plus the tile's contribution. -/
theorem k5_pay1_apply (v36 : FVec Ideal S512x64 .f32) (v37 : Vec Ideal S512x64 .f32) (g : Fin 512) (d : Fin 64) :
    k5_pay1 (F := Ideal) v36 v37 (ix2 g d) = v37 (ix2 g d) + v36 (ix2 g d) := by
  unfold k5_pay1
  simp only [shapeCast_self]
  rfl

/-- The pooled block is reset to zero. -/
theorem k5_pay2_apply (g : Fin 512) (d : Fin 64) : (k5_pay2 (F := Ideal)) (ix2 g d) = 0 := by
  unfold k5_pay2
  exact Cert.Spec.ofBits_zero

/-! ## The arrays the region reads, and what it computes from them -/

variable (V : (c : Dev nD) → (b : Ref sig .tc) → Buf (Elt Ideal) ((c : Thread nD τ).loc b))

/-- The table to normalise, one row of 64 per node. -/
abbrev arr5_0 (c : Dev nD) : Vec Ideal S50000x64 .f32 := V c (Pipeline.arrRef spec5 0)
/-- The column means. -/
abbrev arr5_1 (c : Dev nD) : Vec Ideal S1x64 .f32 := V c (Pipeline.arrRef spec5 1)
/-- The column variances. -/
abbrev arr5_2 (c : Dev nD) : Vec Ideal S1x64 .f32 := V c (Pipeline.arrRef spec5 2)
/-- The scale row. -/
abbrev arr5_3 (c : Dev nD) : Vec Ideal S1x64 .f32 := V c (Pipeline.arrRef spec5 3)
/-- The shift row. -/
abbrev arr5_4 (c : Dev nD) : Vec Ideal S1x64 .f32 := V c (Pipeline.arrRef spec5 4)
/-- The segment word of every node. -/
abbrev arr5_5 (c : Dev nD) : Vec Ideal S50000x1 .i32 := V c (Pipeline.arrRef spec5 5)

/-- The normalised, clipped table: what the region leaves in its first output. -/
def h5 (c : Dev nD) : Cert.Spec.Act :=
  Cert.Spec.normRelu (fun n k => arr5_0 V c (ix2 n k)) (fun d => arr5_1 V c (ix2 (0 : Fin 1) d))
    (fun d => arr5_2 V c (ix2 (0 : Fin 1) d)) (fun d => arr5_3 V c (ix2 (0 : Fin 1) d)) (fun d => arr5_4 V c (ix2 (0 : Fin 1) d))

/-- The segment words as a function of the node. -/
def segw5 (c : Dev nD) : Fin 50000 → BitVec 32 := fun n => arr5_5 V c (ix2 n (0 : Fin 1))

/-- The first output as one function of the index. -/
def G5_6 (c : Dev nD) : S50000x64.Idx → EReal := fun i => h5 V c (i 0) (i 1)
/-- The second output as one function of the index. -/
def G5_7 (c : Dev nD) : S512x64.Idx → EReal := fun i => Cert.Spec.pool (h5 V c) (segw5 V c) (i 0) (i 1)

/-- The first output's function at a row and a column. -/
theorem G5_6_apply (c : Dev nD) (n : Fin 50000) (d : Fin 64) : G5_6 V c (ix2 n d) = h5 V c n d := rfl
/-- The second output's function at a row and a column. -/
theorem G5_7_apply (c : Dev nD) (g : Fin 512) (d : Fin 64) :
    G5_7 V c (ix2 g d) = Cert.Spec.pool (h5 V c) (segw5 V c) g d := rfl

/-! ## Blocks read where the tile sits -/

/-- A grid point is one of 25. -/
theorem lt5 (t : Fin cfg5.N) : t.val < 25 := lt_of_lt_of_eq t.isLt N_5

/-- Row `r` of tile `t` is a node. -/
theorem row5_lt (t : Fin cfg5.N) (r : Fin 2000) : 2000 * t.val + r.val < 50000 := by
  have := lt5 t; have := r.isLt; omega

/-- The index maps over the grid: the tiled windows move with the point along the rows, the others stay. -/
theorem idx_facts5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0)
    ∧ (win5_6.index t (0 : Fin 2) = t.val ∧ win5_6.index t (1 : Fin 2) = 0)
    ∧ (win5_7.index t (0 : Fin 2) = 0 ∧ win5_7.index t (1 : Fin 2) = 0) :=
  (by decide +kernel : ∀ t : Fin grid5.N, _)

/-- The table's tile at a point, at a row and a column. -/
theorem iblk5_0_apply (c : Dev nD) (t : Fin cfg5.N) (r : Fin 2000) (d : Fin 64) :
    (iblk5 V c 0 t : Vec Ideal S2000x64 .f32) (ix2 r d) = arr5_0 V c (ix2 ⟨2000 * t.val + r.val, row5_lt t r⟩ d) := by
  obtain ⟨⟨e0, e1⟩, -⟩ := idx_facts5 t
  unfold iblk5
  rw [View.read_apply]
  show V c (Pipeline.arrRef spec5 0) (((cfg5.win 0).blk t).view.emb (ix2 r d)) = V c (Pipeline.arrRef spec5 0) _
  refine congrArg _ (funext fun a => Fin.ext ?_)
  match a with
  | ⟨0, _⟩ => show win5_0.index t (0 : Fin 2) * 2000 + 1 * r.val = 2000 * t.val + r.val; omega
  | ⟨1, _⟩ => show win5_0.index t (1 : Fin 2) * 64 + 1 * d.val = d.val; omega

/-- The segment words' tile at a point, at a row. -/
theorem iblk5_5_apply (c : Dev nD) (t : Fin cfg5.N) (r : Fin 2000) :
    (iblk5 V c 5 t : Vec Ideal S2000x1 .i32) (ix2 r (0 : Fin 1)) = arr5_5 V c (ix2 ⟨2000 * t.val + r.val, row5_lt t r⟩ (0 : Fin 1)) := by
  obtain ⟨-, -, -, -, -, ⟨e0, e1⟩, -⟩ := idx_facts5 t
  unfold iblk5
  rw [View.read_apply]
  show V c (Pipeline.arrRef spec5 5) (((cfg5.win 5).blk t).view.emb (ix2 r (0 : Fin 1))) = V c (Pipeline.arrRef spec5 5) _
  refine congrArg _ (funext fun a => Fin.ext ?_)
  match a with
  | ⟨0, _⟩ => show win5_5.index t (0 : Fin 2) * 2000 + 1 * r.val = 2000 * t.val + r.val; omega
  | ⟨1, _⟩ => show win5_5.index t (1 : Fin 2) * 1 + 1 * 0 = 0; omega

/-- The mean row at a point is the mean row. -/
theorem iblk5_1_apply (c : Dev nD) (t : Fin cfg5.N) (d : Fin 64) :
    (iblk5 V c 1 t : Vec Ideal S1x64 .f32) (ix2 (0 : Fin 1) d) = arr5_1 V c (ix2 (0 : Fin 1) d) := by
  obtain ⟨-, ⟨e0, e1⟩, -⟩ := idx_facts5 t
  unfold iblk5
  rw [View.read_apply]
  show V c (Pipeline.arrRef spec5 1) (((cfg5.win 1).blk t).view.emb (ix2 (0 : Fin 1) d)) = V c (Pipeline.arrRef spec5 1) _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * d.val = d.val; omega

/-- The variance row at a point is the variance row. -/
theorem iblk5_2_apply (c : Dev nD) (t : Fin cfg5.N) (d : Fin 64) :
    (iblk5 V c 2 t : Vec Ideal S1x64 .f32) (ix2 (0 : Fin 1) d) = arr5_2 V c (ix2 (0 : Fin 1) d) := by
  obtain ⟨-, -, ⟨e0, e1⟩, -⟩ := idx_facts5 t
  unfold iblk5
  rw [View.read_apply]
  show V c (Pipeline.arrRef spec5 2) (((cfg5.win 2).blk t).view.emb (ix2 (0 : Fin 1) d)) = V c (Pipeline.arrRef spec5 2) _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * d.val = d.val; omega

/-- The scale row at a point is the scale row. -/
theorem iblk5_3_apply (c : Dev nD) (t : Fin cfg5.N) (d : Fin 64) :
    (iblk5 V c 3 t : Vec Ideal S1x64 .f32) (ix2 (0 : Fin 1) d) = arr5_3 V c (ix2 (0 : Fin 1) d) := by
  obtain ⟨-, -, -, ⟨e0, e1⟩, -⟩ := idx_facts5 t
  unfold iblk5
  rw [View.read_apply]
  show V c (Pipeline.arrRef spec5 3) (((cfg5.win 3).blk t).view.emb (ix2 (0 : Fin 1) d)) = V c (Pipeline.arrRef spec5 3) _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * d.val = d.val; omega

/-- The shift row at a point is the shift row. -/
theorem iblk5_4_apply (c : Dev nD) (t : Fin cfg5.N) (d : Fin 64) :
    (iblk5 V c 4 t : Vec Ideal S1x64 .f32) (ix2 (0 : Fin 1) d) = arr5_4 V c (ix2 (0 : Fin 1) d) := by
  obtain ⟨-, -, -, -, ⟨e0, e1⟩, -⟩ := idx_facts5 t
  unfold iblk5
  rw [View.read_apply]
  show V c (Pipeline.arrRef spec5 4) (((cfg5.win 4).blk t).view.emb (ix2 (0 : Fin 1) d)) = V c (Pipeline.arrRef spec5 4) _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * d.val = d.val; omega

/-- The tile a point computes, at a row and a column, is the normalised, clipped table at the tile's row. -/
theorem tile5_apply (c : Dev nD) (t : Fin cfg5.N) (r : Fin 2000) (d : Fin 64) :
    k5_pay3 (F := Ideal) (iblk5 V c 0 t) (iblk5 V c 2 t) (iblk5 V c 1 t) (iblk5 V c 3 t) (iblk5 V c 4 t) (ix2 r d)
      = h5 V c ⟨2000 * t.val + r.val, row5_lt t r⟩ d := by
  refine (k5_pay3_apply (iblk5 V c 0 t) (iblk5 V c 2 t) (iblk5 V c 1 t) (iblk5 V c 3 t) (iblk5 V c 4 t) r d).trans ?_
  rw [iblk5_0_apply V c t r d, iblk5_1_apply V c t d, iblk5_2_apply V c t d, iblk5_3_apply V c t d, iblk5_4_apply V c t d]
  rfl

/-! ## The first output: every point writes its tile back -/

/-- Where a tile's entry sits in the table. -/
theorem emb5_6 (t : Fin cfg5.N) (r : Fin 2000) (d : Fin 64) :
    ((cfg5.win 6).blk t).view.emb (ix2 r d) = (ix2 ⟨2000 * t.val + r.val, row5_lt t r⟩ d : S50000x64.Idx) := by
  obtain ⟨-, -, -, -, -, -, ⟨e0, e1⟩, -⟩ := idx_facts5 t
  refine funext fun a => Fin.ext ?_
  match a with
  | ⟨0, _⟩ => show win5_6.index t (0 : Fin 2) * 2000 + 1 * r.val = 2000 * t.val + r.val; omega
  | ⟨1, _⟩ => show win5_6.index t (1 : Fin 2) * 64 + 1 * d.val = d.val; omega

/-- What a point writes back is its tile of the normalised, clipped table. -/
theorem flushed5_6_eq (c : Dev nD) (t : Fin cfg5.N) :
    (dat5 V c).flushed 6 t = ((cfg5.win 6).blk t).view.read (Elt Ideal) (G5_6 V c) := by
  show (cfg5.win 6).cut (grid5.coords t) ((dat5 V c).after 6 t) = _
  rw [after5_6]
  funext y
  obtain ⟨r, d, rfl⟩ : ∃ (r : Fin 2000) (d : Fin 64), y = ix2 r d := ⟨y 0, y 1, eq_ix2 y⟩
  rw [View.read_apply]
  show k5_pay3 (F := Ideal) (iblk5 V c 0 t) (iblk5 V c 2 t) (iblk5 V c 1 t) (iblk5 V c 3 t) (iblk5 V c 4 t) (ix2 r d)
    = G5_6 V c (((cfg5.win 6).blk t).view.emb (ix2 r d))
  rw [emb5_6 t r d]
  exact tile5_apply V c t r d

/-- An index of the table is in a point's tile iff each coordinate is in the tile's range. -/
theorem mem_blk5_6 (t : Fin cfg5.N) (i : S50000x64.Idx) :
    i ∈ ((cfg5.win 6).blk t).view.set ↔ ∀ a : Fin 2, win5_6.index t a * S2000x64.size a ≤ (i a).val
      ∧ (i a).val < win5_6.index t a * S2000x64.size a + S2000x64.size a := by
  show i ∈ ((View.whole (Pipeline.arrRef spec5 6)).slice (win5_6.rect t)).set ↔ _
  rw [View.set_slice_whole, Rect.mem_set_unit]
  exact Iff.rfl

/-- The first output ends holding the normalised, clipped table: row `n` is written by point `n / 2000`. -/
theorem final5_6 (c : Dev nD) : (dat5 V c).arrAt 6 cfg5.N = G5_6 V c :=
  (dat5 V c).arrAt_eq_of_cover 6 (G5_6 V c) (fun t _ => flushed5_6_eq V c t) fun i => by
    have hi0 : (i 0).val < 50000 := (i 0).isLt
    have hi1 : (i 1).val < 64 := (i 1).isLt
    have ht : (i 0).val / 2000 < cfg5.N := lt_of_lt_of_eq (by omega : (i 0).val / 2000 < 25) N_5.symm
    refine ⟨⟨(i 0).val / 2000, ht⟩, flush5_6 _, ?_⟩
    rw [mem_blk5_6]
    obtain ⟨-, -, -, -, -, -, ⟨e0, e1⟩, -⟩ := idx_facts5 ⟨(i 0).val / 2000, ht⟩
    intro a
    match a with
    | ⟨0, _⟩ =>
      show win5_6.index ⟨(i 0).val / 2000, ht⟩ (0 : Fin 2) * 2000 ≤ (i 0).val
        ∧ (i 0).val < win5_6.index ⟨(i 0).val / 2000, ht⟩ (0 : Fin 2) * 2000 + 2000
      rw [e0]; dsimp only; omega
    | ⟨1, _⟩ =>
      show win5_6.index ⟨(i 0).val / 2000, ht⟩ (1 : Fin 2) * 64 ≤ (i 1).val
        ∧ (i 1).val < win5_6.index ⟨(i 0).val / 2000, ht⟩ (1 : Fin 2) * 64 + 64
      rw [e1]; omega

/-! ## The second output: a running sum over the points, written back once -/

/-- One tile's contribution to a pooled entry: the rows of the tile whose segment word is the entry's row number. -/
theorem contrib5_apply (c : Dev nD) (t : Fin cfg5.N) (g : Fin 512) (d : Fin 64) :
    k5_pay4 (F := Ideal) (iblk5 V c 0 t) (iblk5 V c 2 t) (iblk5 V c 1 t) (iblk5 V c 3 t) (iblk5 V c 4 t) (iblk5 V c 5 t) (ix2 g d)
      = ∑ r : Fin 2000, if segw5 V c ⟨2000 * t.val + r.val, row5_lt t r⟩ = BitVec.ofNat 32 g.val
          then h5 V c ⟨2000 * t.val + r.val, row5_lt t r⟩ d else 0 := by
  refine (k5_pay4_apply (iblk5 V c 0 t) (iblk5 V c 2 t) (iblk5 V c 1 t) (iblk5 V c 3 t) (iblk5 V c 4 t) (iblk5 V c 5 t) g d).trans ?_
  refine Finset.sum_congr rfl fun r _ => ?_
  rw [iblk5_5_apply V c t r, tile5_apply V c t r d]
  rfl

/-- The pooled block a point leaves, by its literal type. -/
abbrev acc5 (c : Dev nD) (t : Fin cfg5.N) : Vec Ideal S512x64 .f32 := (dat5 V c).after 7 t

/-- After the first point the pooled block is zero plus the first tile's contribution. -/
theorem acc5_first (c : Dev nD) (t : Fin cfg5.N) (h : t.val = 0) (g : Fin 512) (d : Fin 64) :
    acc5 V c t (ix2 g d) = 0 + k5_pay4 (F := Ideal) (iblk5 V c 0 t) (iblk5 V c 2 t) (iblk5 V c 1 t) (iblk5 V c 3 t)
      (iblk5 V c 4 t) (iblk5 V c 5 t) (ix2 g d) := by
  show ((dat5 V c).after 7 t : Vec Ideal S512x64 .f32) (ix2 g d) = _
  rw [after5_7_first V c t h, k5_pay1_apply, k5_pay2_apply]

/-- After a later point it is what the point before left plus the tile's contribution. -/
theorem acc5_later (c : Dev nD) (t : Fin cfg5.N) (h : t.val ≠ 0) (g : Fin 512) (d : Fin 64) :
    acc5 V c t (ix2 g d) = acc5 V c ⟨t.val - 1, Nat.lt_of_le_of_lt (Nat.sub_le _ _) t.isLt⟩ (ix2 g d)
      + k5_pay4 (F := Ideal) (iblk5 V c 0 t) (iblk5 V c 2 t) (iblk5 V c 1 t) (iblk5 V c 3 t)
          (iblk5 V c 4 t) (iblk5 V c 5 t) (ix2 g d) := by
  show ((dat5 V c).after 7 t : Vec Ideal S512x64 .f32) (ix2 g d) = _
  rw [after5_7_later V c t h, k5_pay1_apply]

/-- The pooled block after the last of the 25 points, at an entry: the tiles' contributions summed, which is the sum over
    all nodes. -/
theorem pooled5_last (c : Dev nD) (t : Fin cfg5.N) (ht : t.val = 24) (g : Fin 512) (d : Fin 64) :
    acc5 V c t (ix2 g d) = Cert.Spec.pool (h5 V c) (segw5 V c) g d := by
  obtain rfl : t = Fin.cast N_5.symm (Fin.last 24) := Fin.ext ht
  have key := Cert.Spec.accum_fin (N := 24)
    (fun t => acc5 V c (Fin.cast N_5.symm t) (ix2 g d))
    (fun t => k5_pay4 (F := Ideal) (iblk5 V c 0 (Fin.cast N_5.symm t)) (iblk5 V c 2 (Fin.cast N_5.symm t))
      (iblk5 V c 1 (Fin.cast N_5.symm t)) (iblk5 V c 3 (Fin.cast N_5.symm t)) (iblk5 V c 4 (Fin.cast N_5.symm t))
      (iblk5 V c 5 (Fin.cast N_5.symm t)) (ix2 g d))
    (acc5_first V c (Fin.cast N_5.symm 0) rfl g d)
    (fun t ht => acc5_later V c (Fin.cast N_5.symm t) ht g d)
  refine key.trans ?_
  show _ = ∑ n : Fin 50000, if segw5 V c n = BitVec.ofNat 32 g.val then h5 V c n d else 0
  rw [← Cert.Spec.sum_tiles25 (fun n => if segw5 V c n = BitVec.ofNat 32 g.val then h5 V c n d else 0)]
  refine Finset.sum_congr rfl fun t _ => ?_
  exact contrib5_apply V c (Fin.cast N_5.symm t) g d

/-- The pooled block is the whole of the second output. -/
theorem emb5_7 (t : Fin cfg5.N) (g : Fin 512) (d : Fin 64) :
    ((cfg5.win 7).blk t).view.emb (ix2 g d) = (ix2 g d : S512x64.Idx) := by
  obtain ⟨-, -, -, -, -, -, -, ⟨e0, e1⟩⟩ := idx_facts5 t
  refine funext fun a => Fin.ext ?_
  match a with
  | ⟨0, _⟩ => show win5_7.index t (0 : Fin 2) * 512 + 1 * g.val = g.val; omega
  | ⟨1, _⟩ => show win5_7.index t (1 : Fin 2) * 64 + 1 * d.val = d.val; omega

/-- A point's block of the second output, read back, is the output itself. -/
theorem read5_7 (t : Fin cfg5.N) (X : S512x64.Idx → EReal) (g : Fin 512) (d : Fin 64) :
    ((cfg5.win 7).blk t).view.read (Elt Ideal) X (ix2 g d) = X (ix2 g d) := by
  rw [View.read_apply]
  show X (((cfg5.win 7).blk t).view.emb (ix2 g d)) = _
  rw [emb5_7 t g d]

/-- The write-back moves the whole pooled block. -/
theorem cut5_7 (t : Fin cfg5.N) (X : Vec Ideal S512x64 .f32) (g : Fin 512) (d : Fin 64) :
    (cfg5.win 7).cut (grid5.coords t) X (ix2 g d) = X (ix2 g d) := rfl

/-- The one write-back, after the last point, writes the pooled table. -/
theorem flushed5_7_eq (c : Dev nD) (t : Fin cfg5.N) (hf : (cfg5.win 7).flush t = true) :
    (dat5 V c).flushed 7 t = ((cfg5.win 7).blk t).view.read (Elt Ideal) (G5_7 V c) := by
  have h24 : t.val = 24 := by have := (flush5_7 t).mp hf; have := lt5 t; omega
  show (cfg5.win 7).cut (grid5.coords t) ((dat5 V c).after 7 t) = _
  funext y
  obtain ⟨g, d, rfl⟩ : ∃ (g : Fin 512) (d : Fin 64), y = ix2 g d := ⟨y 0, y 1, eq_ix2 y⟩
  refine Eq.trans ?_ ((read5_7 t (G5_7 V c) g d).trans (G5_7_apply V c g d)).symm
  exact (cut5_7 t (acc5 V c t) g d).trans (pooled5_last V c t h24 g d)

/-- An index of the pooled table is in a point's block iff each coordinate is in the block's range. -/
theorem mem_blk5_7 (t : Fin cfg5.N) (i : S512x64.Idx) :
    i ∈ ((cfg5.win 7).blk t).view.set ↔ ∀ a : Fin 2, win5_7.index t a * S512x64.size a ≤ (i a).val
      ∧ (i a).val < win5_7.index t a * S512x64.size a + S512x64.size a := by
  show i ∈ ((View.whole (Pipeline.arrRef spec5 7)).slice (win5_7.rect t)).set ↔ _
  rw [View.set_slice_whole, Rect.mem_set_unit]
  exact Iff.rfl

/-- Every point's block of the pooled table is all of it. -/
theorem cover5_7 (t : Fin cfg5.N) (i : S512x64.Idx) : i ∈ ((cfg5.win 7).blk t).view.set := by
  have hi0 : (i 0).val < 512 := (i 0).isLt
  have hi1 : (i 1).val < 64 := (i 1).isLt
  rw [mem_blk5_7]
  obtain ⟨-, -, -, -, -, -, -, ⟨e0, e1⟩⟩ := idx_facts5 t
  intro a
  match a with
  | ⟨0, _⟩ =>
    show win5_7.index t (0 : Fin 2) * 512 ≤ (i 0).val ∧ (i 0).val < win5_7.index t (0 : Fin 2) * 512 + 512
    rw [e0]; omega
  | ⟨1, _⟩ =>
    show win5_7.index t (1 : Fin 2) * 64 ≤ (i 1).val ∧ (i 1).val < win5_7.index t (1 : Fin 2) * 64 + 64
    rw [e1]; omega

/-- The second output ends holding the pooled table: the last point's block is all of it. -/
theorem final5_7 (c : Dev nD) : (dat5 V c).arrAt 7 cfg5.N = G5_7 V c :=
  (dat5 V c).arrAt_eq_of_cover 7 (G5_7 V c) (flushed5_7_eq V c) fun i =>
    ⟨Fin.cast N_5.symm (Fin.last 24), (flush5_7 _).mpr rfl, cover5_7 _ i⟩

/-! ## The region's value -/

/-- When the region ends, its first output holds the table normalised by the mean and variance rows, scaled, shifted and
    clipped below at zero, and its second the rows of that table summed segment by segment. -/
theorem region5_value (c : Dev nD) :
    (∀ (n : Fin 50000) (d : Fin 64), ((dat5 V c).arrAt 6 cfg5.N : S50000x64.Idx → EReal) (ix2 n d) = h5 V c n d)
    ∧ (∀ (g : Fin 512) (d : Fin 64), ((dat5 V c).arrAt 7 cfg5.N : S512x64.Idx → EReal) (ix2 g d)
        = Cert.Spec.pool (h5 V c) (segw5 V c) g d) :=
  ⟨fun n d => (congrFun (final5_6 V c) (ix2 n d)).trans (G5_6_apply V c n d),
    fun g d => (congrFun (final5_7 V c) (ix2 g d)).trans (G5_7_apply V c g d)⟩

/-- The same with the arrays the region reads named by equations. -/
theorem region5_value_of (c : Dev nD) (Y : S50000x64.Idx → EReal) (MU VAR G B : S1x64.Idx → EReal)
    (SEG : S50000x1.Idx → BitVec 32) (hY : arr5_0 V c = Y) (hMU : arr5_1 V c = MU) (hVAR : arr5_2 V c = VAR)
    (hG : arr5_3 V c = G) (hB : arr5_4 V c = B) (hSEG : arr5_5 V c = SEG) :
    (∀ (n : Fin 50000) (d : Fin 64), ((dat5 V c).arrAt 6 cfg5.N : S50000x64.Idx → EReal) (ix2 n d)
        = Cert.Spec.normRelu (fun n k => Y (ix2 n k)) (fun d => MU (ix2 (0 : Fin 1) d)) (fun d => VAR (ix2 (0 : Fin 1) d))
            (fun d => G (ix2 (0 : Fin 1) d)) (fun d => B (ix2 (0 : Fin 1) d)) n d)
    ∧ (∀ (g : Fin 512) (d : Fin 64), ((dat5 V c).arrAt 7 cfg5.N : S512x64.Idx → EReal) (ix2 g d)
        = Cert.Spec.pool (Cert.Spec.normRelu (fun n k => Y (ix2 n k)) (fun d => MU (ix2 (0 : Fin 1) d))
            (fun d => VAR (ix2 (0 : Fin 1) d)) (fun d => G (ix2 (0 : Fin 1) d)) (fun d => B (ix2 (0 : Fin 1) d)))
            (fun n => SEG (ix2 n (0 : Fin 1))) g d) := by
  subst hY hMU hVAR hG hB hSEG
  exact region5_value V c

end Cert.KernelIdeal.Gen

end
-- ==== Proof.KernelIdeal.Layer1.lean ====
import proofs.«428437_j36421322670670_1_alg».proof.Proof.KernelIdeal.Inputs
import proofs.«428437_j36421322670670_1_alg».proof.Proof.KernelIdeal.Fold
import proofs.«428437_j36421322670670_1_alg».proof.Proof.KernelIdeal.Region3Value
import proofs.«428437_j36421322670670_1_alg».proof.Proof.KernelIdeal.Region4Value
import proofs.«428437_j36421322670670_1_alg».proof.Proof.KernelIdeal.Region5Value
import proofs.«428437_j36421322670670_1_alg».proof.Proof.Spec
import Idealize.ShloMosaic.Lib.StableHlo.Run
import Idealize.ShloMosaic.Lib.ValueLayout
import Idealize.ShloMosaic.Lib.IdealHost

/-! # The value of layer 1 of the kernel program

Layer 1 is three host stretches, each followed by a kernel region. The first stretch aggregates the previous layer's
feature table along the edge list and cuts the layer's first weight matrix and bias out of the stacked parameters; the
first region applies the linear map to the table plus its aggregation and accumulates the column sums and sums of
squares. The second stretch turns those sums into the mean row and the variance row (the mean of the squares less the
square of the mean) and cuts out the first scale and shift and the second weight matrix and bias; the second region
normalises, clips, applies the second linear map and accumulates its column sums. The third stretch does the same for
the second normalisation; the third region normalises, clips, and sums the rows of each segment. Each stage is carried
as an equation about one array read at coordinates: from the previous layer's table the last region's two arrays come
out as the specification's layer applied to that table, and that result pooled by segment. -/

set_option maxRecDepth 16384

noncomputable section

namespace Cert.KernelIdeal.Value

namespace Layer1

open Idealize.ShloMosaic Idealize.ShloMosaic.TcCoe Idealize.ShloMosaic.ValueIdx
open Cert.KernelIdeal.Gen

/-! ## The specification's operations respect pointwise equality -/

/-- The linear map depends on its three arguments pointwise. -/
theorem lin_congr {z z' : Cert.Spec.Act} {W W' : Cert.Spec.Mat} {b b' : Cert.Spec.Row}
    (hz : ∀ n k, z n k = z' n k) (hW : ∀ k d, W k d = W' k d) (hb : ∀ d, b d = b' d) :
    Cert.Spec.lin z W b = Cert.Spec.lin z' W' b' := by
  have e1 : z = z' := funext fun n => funext fun k => hz n k
  have e2 : W = W' := funext fun k => funext fun d => hW k d
  have e3 : b = b' := funext hb
  rw [e1, e2, e3]

/-- The normalisation depends on its five arguments pointwise. -/
theorem normRelu_congr {y y' : Cert.Spec.Act} {mu mu' var var' g g' b b' : Cert.Spec.Row}
    (hy : ∀ n k, y n k = y' n k) (hmu : ∀ d, mu d = mu' d) (hvar : ∀ d, var d = var' d) (hg : ∀ d, g d = g' d)
    (hb : ∀ d, b d = b' d) :
    Cert.Spec.normRelu y mu var g b = Cert.Spec.normRelu y' mu' var' g' b' := by
  have e1 : y = y' := funext fun n => funext fun k => hy n k
  have e2 : mu = mu' := funext hmu
  have e3 : var = var' := funext hvar
  have e4 : g = g' := funext hg
  have e5 : b = b' := funext hb
  rw [e1, e2, e3, e4, e5]

/-! ## The host stretches read at an index, over any contents -/

section HostReads
variable (X : Valuation τ sig (Elt Ideal))

/-- Row 1 of a three-row table, cut out, cast to a vector and back to a one-row matrix, reads the table's row 1. -/
theorem rowSlice1_apply (T : S3x64.Idx → EReal) (d : Fin 64) :
    shapeCast S1x64 (shapeCast S64 (extractStridedSlice S1x64 ![1, 0] T slices_S3x64_S1x64_1_0) shapeCasts_S1x64_S64) shapeCasts_S64_S1x64 (ix2 0 d)
      = T (ix2 1 d) := by
  rw [shapeCast_a_1a_apply, shapeCast_1a_a_apply]
  exact slice2_axis0_apply 1 T slices_S3x64_S1x64_1_0 0 d 1 rfl

/-- Matrix 1 of a stack of three, cut out and cast to a matrix, reads the stack's matrix 1. -/
theorem matSlice1_apply (T : S3x64x64.Idx → EReal) (k d : Fin 64) :
    shapeCast S64x64 (extractStridedSlice S1x64x64 ![1, 0, 0] T slices_S3x64x64_S1x64x64_1_0_0) shapeCasts_S1x64x64_S64x64 (ix2 k d)
      = T (ix3 1 k d) := by
  rw [shapeCast_1ab_ab_apply]
  refine extractStridedSlice_apply _ T slices_S3x64x64_S1x64x64_1_0_0 _ (ix3 1 k d) fun ax => ?_
  match ax with
  | ⟨0, _⟩ => rfl
  | ⟨1, _⟩ => exact (Nat.zero_add _).symm
  | ⟨2, _⟩ => exact (Nat.zero_add _).symm

/-- A vector of 50000 words cast to a one-column matrix reads, at row n, the vector at n. -/
theorem colCast_apply (v : S50000.Idx → BitVec 32) (n : Fin 50000) :
    shapeCast S50000x1 v shapeCasts_S50000_S50000x1 (ix2 n (0 : Fin 1)) = v (ix1 n) :=
  shapeCast_apply v shapeCasts_S50000_S50000x1 _ _ (by
    rw [Shape.rowMajor_val_one, Shape.rowMajor_val_two]
    show n.val = n.val * 1 + 0
    omega)

/-! ### The launch stretch: the edge list's two rows and the segment column -/

theorem host0_src :
    (StableHlo.after (hostOps0 (F := Ideal)) X (Proc.devRef .tc main_v1) : S800000.Idx → BitVec 32)
      = edgeSrc (X (Proc.devRef .tc main_arg1)) := by
  after_results
  all_goals rfl

theorem host0_dst :
    (StableHlo.after (hostOps0 (F := Ideal)) X (Proc.devRef .tc main_v3) : S800000.Idx → BitVec 32)
      = edgeDst (X (Proc.devRef .tc main_arg1)) := by
  after_results
  all_goals rfl

theorem host0_seg (n : Fin 50000) :
    (StableHlo.after (hostOps0 (F := Ideal)) X (Proc.devRef .tc main_v4) : S50000x1.Idx → BitVec 32) (ix2 n (0 : Fin 1))
      = (X (Proc.devRef .tc main_arg2) : S50000.Idx → BitVec 32) (ix1 n) := by
  after_results
  exact colCast_apply _ n

/-! ### The first stretch of layer 1: aggregation, first weight matrix, first bias -/

/-- The aggregation array as the stretch computes it: rows of the table in main_v51_0 gathered at the wrapped source
    indices in main_v1, added into zeros at the target indices in main_v3. -/
theorem host3_agg_raw :
    (StableHlo.after (hostOps3 (F := Ideal)) X (Proc.devRef .tc main_v61) : S50000x64.Idx → EReal)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (X (Proc.devRef .tc main_v3) : S800000.Idx → BitVec 32))
          (Host.gather gather_S50000x64_S800000x1_S800000x64_1_0_n_n_0_1_164 (X (Proc.devRef .tc main_v51_0) : S50000x64.Idx → EReal)
            (broadcastInDim S800000x1 ![0] bcast_S800000_S800000x1_0
              (select (cmpi .slt (X (Proc.devRef .tc main_v1) : S800000.Idx → BitVec 32) (broadcastInDim S800000 ![] bcast_S_S800000 (constantI S_ 32 0#32)))
                (addi (X (Proc.devRef .tc main_v1) : S800000.Idx → BitVec 32) (broadcastInDim S800000 ![] bcast_S_S800000 (constantI S_ 32 50000#32)))
                (X (Proc.devRef .tc main_v1) : S800000.Idx → BitVec 32)))) := by
  after_results_simp

/-- With the edge rows and the table named, that array is the aggregation of the table along the edge list. -/
theorem host3_agg (E : IVec S2x800000 32) (T : FVec Ideal S50000x64 .f32)
    (h1 : (X (Proc.devRef .tc main_v1) : S800000.Idx → BitVec 32) = edgeSrc E)
    (h3 : (X (Proc.devRef .tc main_v3) : S800000.Idx → BitVec 32) = edgeDst E)
    (hT : (X (Proc.devRef .tc main_v51_0) : S50000x64.Idx → EReal) = T) :
    (StableHlo.after (hostOps3 (F := Ideal)) X (Proc.devRef .tc main_v61) : S50000x64.Idx → EReal) = aggOf E T := by
  rw [host3_agg_raw X, h1, h3, hT]
  rfl

theorem host3_W1 (k d : Fin 64) :
    (StableHlo.after (hostOps3 (F := Ideal)) X (Proc.devRef .tc main_v63) : S64x64.Idx → EReal) (ix2 k d)
      = (X (Proc.devRef .tc main_arg3) : S3x64x64.Idx → EReal) (ix3 1 k d) := by
  after_results
  exact matSlice1_apply _ k d

theorem host3_b1 (d : Fin 64) :
    (StableHlo.after (hostOps3 (F := Ideal)) X (Proc.devRef .tc main_v66) : S1x64.Idx → EReal) (ix2 0 d)
      = (X (Proc.devRef .tc main_arg4) : S3x64.Idx → EReal) (ix2 1 d) := by
  after_results
  exact rowSlice1_apply _ d

/-! ### The second stretch: mean and variance of the first linear map, first scale and shift, second weight matrix and bias -/

/-- The mean row: the column sums divided by the number of nodes. -/
theorem host4_mean (d : Fin 64) :
    (StableHlo.after (hostOps4 (F := Ideal)) X (Proc.devRef .tc main_v69) : S1x64.Idx → EReal) (ix2 0 d)
      = Ideal.div ((X (Proc.devRef .tc main_v67_1) : S1x64.Idx → EReal) (ix2 0 d)) Cert.Spec.nodes := by
  after_results
  all_goals rfl

/-- The variance row: the column sums of squares divided by the number of nodes, less the square of the mean. -/
theorem host4_var (d : Fin 64) :
    (StableHlo.after (hostOps4 (F := Ideal)) X (Proc.devRef .tc main_v73) : S1x64.Idx → EReal) (ix2 0 d)
      = Ideal.div ((X (Proc.devRef .tc main_v67_2) : S1x64.Idx → EReal) (ix2 0 d)) Cert.Spec.nodes
        - Ideal.div ((X (Proc.devRef .tc main_v67_1) : S1x64.Idx → EReal) (ix2 0 d)) Cert.Spec.nodes
          * Ideal.div ((X (Proc.devRef .tc main_v67_1) : S1x64.Idx → EReal) (ix2 0 d)) Cert.Spec.nodes := by
  after_results
  all_goals rfl

theorem host4_g1 (d : Fin 64) :
    (StableHlo.after (hostOps4 (F := Ideal)) X (Proc.devRef .tc main_v76) : S1x64.Idx → EReal) (ix2 0 d)
      = (X (Proc.devRef .tc main_arg5) : S3x64.Idx → EReal) (ix2 1 d) := by
  after_results
  exact rowSlice1_apply _ d

theorem host4_bt1 (d : Fin 64) :
    (StableHlo.after (hostOps4 (F := Ideal)) X (Proc.devRef .tc main_v79) : S1x64.Idx → EReal) (ix2 0 d)
      = (X (Proc.devRef .tc main_arg6) : S3x64.Idx → EReal) (ix2 1 d) := by
  after_results
  exact rowSlice1_apply _ d

theorem host4_W2 (k d : Fin 64) :
    (StableHlo.after (hostOps4 (F := Ideal)) X (Proc.devRef .tc main_v81) : S64x64.Idx → EReal) (ix2 k d)
      = (X (Proc.devRef .tc main_arg7) : S3x64x64.Idx → EReal) (ix3 1 k d) := by
  after_results
  exact matSlice1_apply _ k d

theorem host4_b2 (d : Fin 64) :
    (StableHlo.after (hostOps4 (F := Ideal)) X (Proc.devRef .tc main_v84) : S1x64.Idx → EReal) (ix2 0 d)
      = (X (Proc.devRef .tc main_arg8) : S3x64.Idx → EReal) (ix2 1 d) := by
  after_results
  exact rowSlice1_apply _ d

/-! ### The third stretch: mean and variance of the second linear map, output scale and shift -/

theorem host5_mean (d : Fin 64) :
    (StableHlo.after (hostOps5 (F := Ideal)) X (Proc.devRef .tc main_v87) : S1x64.Idx → EReal) (ix2 0 d)
      = Ideal.div ((X (Proc.devRef .tc main_v85_1) : S1x64.Idx → EReal) (ix2 0 d)) Cert.Spec.nodes := by
  after_results
  all_goals rfl

theorem host5_var (d : Fin 64) :
    (StableHlo.after (hostOps5 (F := Ideal)) X (Proc.devRef .tc main_v91) : S1x64.Idx → EReal) (ix2 0 d)
      = Ideal.div ((X (Proc.devRef .tc main_v85_2) : S1x64.Idx → EReal) (ix2 0 d)) Cert.Spec.nodes
        - Ideal.div ((X (Proc.devRef .tc main_v85_1) : S1x64.Idx → EReal) (ix2 0 d)) Cert.Spec.nodes
          * Ideal.div ((X (Proc.devRef .tc main_v85_1) : S1x64.Idx → EReal) (ix2 0 d)) Cert.Spec.nodes := by
  after_results
  all_goals rfl

theorem host5_go (d : Fin 64) :
    (StableHlo.after (hostOps5 (F := Ideal)) X (Proc.devRef .tc main_v94) : S1x64.Idx → EReal) (ix2 0 d)
      = (X (Proc.devRef .tc main_arg9) : S3x64.Idx → EReal) (ix2 1 d) := by
  after_results
  exact rowSlice1_apply _ d

theorem host5_bo (d : Fin 64) :
    (StableHlo.after (hostOps5 (F := Ideal)) X (Proc.devRef .tc main_v97) : S1x64.Idx → EReal) (ix2 0 d)
      = (X (Proc.devRef .tc main_arg10) : S3x64.Idx → EReal) (ix2 1 d) := by
  after_results
  exact rowSlice1_apply _ d

end HostReads

/-! ## Buffers that lie untouched between two boundaries -/

section Walk
variable (m : Mem) (ρ : Dev nD → PrngReg) (c : Dev nD)

/-- A reference that is an array of none of the regions 0, 1, 2 and that the stretches behind regions 0 and 1 do not
    write holds at region 2's exit what the launch stretch left in it. -/
theorem W6_eq_W1 (r : Ref sig .tc) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) :
    W6 m ρ c (Proc.devRef .tc r) = W1 m ρ c (Proc.devRef .tc r) :=
  (Wout2_of_ne m ρ c r a2).trans <| (W5_keeps m ρ c r h2).trans <| (Wout1_of_ne m ρ c r a1).trans <|
    (W3_keeps m ρ c r h1).trans <| Wout0_of_ne m ρ c r a0

/-- A reference the first stretch of layer 1 does not write and that is no array of region 3 holds at region 3's exit
    what it held at region 2's exit. -/
theorem W8_eq_W6 (r : Ref sig .tc) (h3 : r ∉ hostOps3_W) (a3 : ∀ w, Pipeline.arrRef spec3 w ≠ r) :
    W8 m ρ c (Proc.devRef .tc r) = W6 m ρ c (Proc.devRef .tc r) :=
  (Wout3_of_ne m ρ c r a3).trans (W7_keeps m ρ c r h3)

/-- A reference the second stretch of layer 1 does not write and that is no array of region 4 holds at region 4's exit
    what it held at region 3's exit. -/
theorem W10_eq_W8 (r : Ref sig .tc) (h4 : r ∉ hostOps4_W) (a4 : ∀ w, Pipeline.arrRef spec4 w ≠ r) :
    W10 m ρ c (Proc.devRef .tc r) = W8 m ρ c (Proc.devRef .tc r) :=
  (Wout4_of_ne m ρ c r a4).trans (W9_keeps m ρ c r h4)

/-- An argument no stretch writes and no region 0, 1, 2 has among its arrays holds its launch contents at region 2's exit. -/
theorem W6_launch (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) :
    W6 m ρ c (Proc.devRef .tc r) = m ((c : Dev nD), Proc.devRef .tc r) :=
  (W6_eq_W1 m ρ c r a0 h1 a1 h2 a2).trans ((W1_keeps m ρ c r h0).trans rfl)

theorem W6_arg3 : W6 m ρ c (Proc.devRef .tc main_arg3) = m ((c : Dev nD), Proc.devRef .tc main_arg3) :=
  W6_launch m ρ c main_arg3 (by decide) (by decide) (by decide) (by decide) (by decide) (by decide)
theorem W6_arg4 : W6 m ρ c (Proc.devRef .tc main_arg4) = m ((c : Dev nD), Proc.devRef .tc main_arg4) :=
  W6_launch m ρ c main_arg4 (by decide) (by decide) (by decide) (by decide) (by decide) (by decide)
theorem W8_arg5 : W8 m ρ c (Proc.devRef .tc main_arg5) = m ((c : Dev nD), Proc.devRef .tc main_arg5) :=
  (W8_eq_W6 m ρ c main_arg5 (by decide) (by decide)).trans
    (W6_launch m ρ c main_arg5 (by decide) (by decide) (by decide) (by decide) (by decide) (by decide))
theorem W8_arg6 : W8 m ρ c (Proc.devRef .tc main_arg6) = m ((c : Dev nD), Proc.devRef .tc main_arg6) :=
  (W8_eq_W6 m ρ c main_arg6 (by decide) (by decide)).trans
    (W6_launch m ρ c main_arg6 (by decide) (by decide) (by decide) (by decide) (by decide) (by decide))
theorem W8_arg7 : W8 m ρ c (Proc.devRef .tc main_arg7) = m ((c : Dev nD), Proc.devRef .tc main_arg7) :=
  (W8_eq_W6 m ρ c main_arg7 (by decide) (by decide)).trans
    (W6_launch m ρ c main_arg7 (by decide) (by decide) (by decide) (by decide) (by decide) (by decide))
theorem W8_arg8 : W8 m ρ c (Proc.devRef .tc main_arg8) = m ((c : Dev nD), Proc.devRef .tc main_arg8) :=
  (W8_eq_W6 m ρ c main_arg8 (by decide) (by decide)).trans
    (W6_launch m ρ c main_arg8 (by decide) (by decide) (by decide) (by decide) (by decide) (by decide))
theorem W10_arg9 : W10 m ρ c (Proc.devRef .tc main_arg9) = m ((c : Dev nD), Proc.devRef .tc main_arg9) :=
  (W10_eq_W8 m ρ c main_arg9 (by decide) (by decide)).trans <| (W8_eq_W6 m ρ c main_arg9 (by decide) (by decide)).trans
    (W6_launch m ρ c main_arg9 (by decide) (by decide) (by decide) (by decide) (by decide) (by decide))
theorem W10_arg10 : W10 m ρ c (Proc.devRef .tc main_arg10) = m ((c : Dev nD), Proc.devRef .tc main_arg10) :=
  (W10_eq_W8 m ρ c main_arg10 (by decide) (by decide)).trans <| (W8_eq_W6 m ρ c main_arg10 (by decide) (by decide)).trans
    (W6_launch m ρ c main_arg10 (by decide) (by decide) (by decide) (by decide) (by decide) (by decide))

/-- The source row of the edge list, left by the launch stretch, is still there when layer 1 begins. -/
theorem W6_src : (W6 m ρ c (Proc.devRef .tc main_v1) : S800000.Idx → BitVec 32)
    = edgeSrc (m ((c : Dev nD), Proc.devRef .tc main_arg1)) :=
  (W6_eq_W1 m ρ c main_v1 (by decide) (by decide) (by decide) (by decide) (by decide)).trans (host0_src (W0 m ρ c))

/-- The target row of the edge list, left by the launch stretch, is still there when layer 1 begins. -/
theorem W6_dst : (W6 m ρ c (Proc.devRef .tc main_v3) : S800000.Idx → BitVec 32)
    = edgeDst (m ((c : Dev nD), Proc.devRef .tc main_arg1)) :=
  (W6_eq_W1 m ρ c main_v3 (by decide) (by decide) (by decide) (by decide) (by decide)).trans (host0_dst (W0 m ρ c))

/-- The segment column is the array of region 2's last input window: the fold of an input window's write-backs is the
    array as entered, so region 2 leaves it as it found it. -/
theorem W6_seg : W6 m ρ c (Proc.devRef .tc main_v4) = W5 m ρ c (Proc.devRef .tc main_v4) :=
  calc W6 m ρ c (Proc.devRef .tc main_v4)
    _ = (dat2 (Vin2 m ρ) c).arrAt 5 cfg2.N := Wout2_arr m ρ c 5
    _ = (dat2 (Vin2 m ρ) c).A 5 := (dat2 (Vin2 m ρ) c).arrAt_in 5 rfl _
    _ = W5 m ρ c (Proc.devRef .tc main_v4) := A_eq2 (Vin2 m ρ) c 5

/-- The segment column, left by the launch stretch, is still there when region 5 is entered. -/
theorem W11_seg (n : Fin 50000) :
    (W11 m ρ c (Proc.devRef .tc main_v4) : S50000x1.Idx → BitVec 32) (ix2 n (0 : Fin 1)) = segK m c n := by
  have e : W11 m ρ c (Proc.devRef .tc main_v4) = W1 m ρ c (Proc.devRef .tc main_v4) :=
    (W11_keeps m ρ c main_v4 (by decide)).trans <| (W10_eq_W8 m ρ c main_v4 (by decide) (by decide)).trans <|
      (W8_eq_W6 m ρ c main_v4 (by decide) (by decide)).trans <| (W6_seg m ρ c).trans <|
      (W5_keeps m ρ c main_v4 (by decide)).trans <| (Wout1_of_ne m ρ c main_v4 (by decide)).trans <|
      (W3_keeps m ρ c main_v4 (by decide)).trans <| Wout0_of_ne m ρ c main_v4 (by decide)
  rw [e]
  exact host0_seg (W0 m ρ c) n

/-! ## The stages of layer 1 -/

/-- The first linear map of layer 1 on the table H plus its aggregation. -/
abbrev y1L (H : Cert.Spec.Act) : Cert.Spec.Act :=
  Cert.Spec.lin (fun n k => H n k + aggK m c H n k) ((paramsK m c).W1 1) ((paramsK m c).b1 1)

/-- The second linear map of layer 1, on the first one normalised and clipped. -/
abbrev y2L (H : Cert.Spec.Act) : Cert.Spec.Act :=
  Cert.Spec.lin
    (Cert.Spec.normRelu (y1L m c H) (Cert.Spec.mean (y1L m c H)) (Cert.Spec.varMoments (y1L m c H)) ((paramsK m c).g1 1) ((paramsK m c).bt1 1))
    ((paramsK m c).W2 1) ((paramsK m c).b2 1)

variable (H : Cert.Spec.Act)
  (hH : ∀ n d, (W6 m ρ c (Proc.devRef .tc main_v51_0) : S50000x64.Idx → EReal) (ix2 n d) = H n d)

/-! ### Region 3 is entered with the table, its aggregation, the first weight matrix and bias -/

include hH in
theorem W7_table (n : Fin 50000) (k : Fin 64) :
    (W7 m ρ c (Proc.devRef .tc main_v51_0) : S50000x64.Idx → EReal) (ix2 n k) = H n k := by
  rw [show (W7 m ρ c (Proc.devRef .tc main_v51_0) : S50000x64.Idx → EReal) = W6 m ρ c (Proc.devRef .tc main_v51_0) from
    W7_keeps m ρ c main_v51_0 (by decide)]
  exact hH n k

include hH in
theorem W7_agg (n : Fin 50000) (k : Fin 64) :
    (W7 m ρ c (Proc.devRef .tc main_v61) : S50000x64.Idx → EReal) (ix2 n k) = aggK m c H n k := by
  have hT : (W6 m ρ c (Proc.devRef .tc main_v51_0) : S50000x64.Idx → EReal) = tableOf H := by
    funext i
    rw [eq_ix2 i]
    exact hH _ _
  exact congrFun (host3_agg (W6 m ρ c) _ _ (W6_src m ρ c) (W6_dst m ρ c) hT) (ix2 n k)

theorem W7_W1 (k d : Fin 64) :
    (W7 m ρ c (Proc.devRef .tc main_v63) : S64x64.Idx → EReal) (ix2 k d) = (paramsK m c).W1 1 k d :=
  (host3_W1 (W6 m ρ c) k d).trans (by rw [W6_arg3 m ρ c]; rfl)

theorem W7_b1 (d : Fin 64) :
    (W7 m ρ c (Proc.devRef .tc main_v66) : S1x64.Idx → EReal) (ix2 (0 : Fin 1) d) = (paramsK m c).b1 1 d :=
  (host3_b1 (W6 m ρ c) d).trans (by rw [W6_arg4 m ρ c]; rfl)

/-! ### Region 3 leaves the first linear map and its column sums -/

include hH in
theorem W8_lin :
    (∀ n d, (W8 m ρ c (Proc.devRef .tc main_v67_0) : S50000x64.Idx → EReal) (ix2 n d) = y1L m c H n d)
    ∧ (∀ d, (W8 m ρ c (Proc.devRef .tc main_v67_1) : S1x64.Idx → EReal) (ix2 (0 : Fin 1) d) = Cert.Spec.colSum (y1L m c H) d)
    ∧ (∀ d, (W8 m ρ c (Proc.devRef .tc main_v67_2) : S1x64.Idx → EReal) (ix2 (0 : Fin 1) d) = Cert.Spec.colSumSq (y1L m c H) d) := by
  have R := region3_value (Vin3 m ρ) c _ _ _ _ rfl rfl rfl rfl
  have hy : lin3 (Vin3 m ρ c (Pipeline.arrRef spec3 0)) (Vin3 m ρ c (Pipeline.arrRef spec3 1))
      (Vin3 m ρ c (Pipeline.arrRef spec3 2)) (Vin3 m ρ c (Pipeline.arrRef spec3 3)) = y1L m c H :=
    lin_congr
      (fun n k => congrArg₂ (· + ·) (W7_table m ρ c H hH n k) (W7_agg m ρ c H hH n k))
      (fun k d => W7_W1 m ρ c k d) (fun d => W7_b1 m ρ c d)
  refine ⟨fun n d => ?_, fun d => ?_, fun d => ?_⟩
  · rw [show (W8 m ρ c (Proc.devRef .tc main_v67_0) : S50000x64.Idx → EReal) = ((dat3 (Vin3 m ρ) c).arrAt 4 cfg3.N : S50000x64.Idx → EReal) from
      Wout3_arr m ρ c 4]
    exact (R.1 n d).trans (congrFun (congrFun hy n) d)
  · rw [show (W8 m ρ c (Proc.devRef .tc main_v67_1) : S1x64.Idx → EReal) = ((dat3 (Vin3 m ρ) c).arrAt 5 cfg3.N : S1x64.Idx → EReal) from
      Wout3_arr m ρ c 5]
    exact (R.2.1 d).trans (congrFun (congrArg Cert.Spec.colSum hy) d)
  · rw [show (W8 m ρ c (Proc.devRef .tc main_v67_2) : S1x64.Idx → EReal) = ((dat3 (Vin3 m ρ) c).arrAt 6 cfg3.N : S1x64.Idx → EReal) from
      Wout3_arr m ρ c 6]
    exact (R.2.2 d).trans (congrFun (congrArg Cert.Spec.colSumSq hy) d)

/-! ### Region 4 is entered with the first linear map, its mean and variance, and the layer's parameters -/

include hH in
theorem W9_y1 (n : Fin 50000) (k : Fin 64) :
    (W9 m ρ c (Proc.devRef .tc main_v67_0) : S50000x64.Idx → EReal) (ix2 n k) = y1L m c H n k := by
  rw [show (W9 m ρ c (Proc.devRef .tc main_v67_0) : S50000x64.Idx → EReal) = W8 m ρ c (Proc.devRef .tc main_v67_0) from
    W9_keeps m ρ c main_v67_0 (by decide)]
  exact (W8_lin m ρ c H hH).1 n k

include hH in
theorem W9_mean (d : Fin 64) :
    (W9 m ρ c (Proc.devRef .tc main_v69) : S1x64.Idx → EReal) (ix2 (0 : Fin 1) d) = Cert.Spec.mean (y1L m c H) d :=
  (host4_mean (W8 m ρ c) d).trans (by rw [(W8_lin m ρ c H hH).2.1 d]; rfl)

include hH in
theorem W9_var (d : Fin 64) :
    (W9 m ρ c (Proc.devRef .tc main_v73) : S1x64.Idx → EReal) (ix2 (0 : Fin 1) d) = Cert.Spec.varMoments (y1L m c H) d :=
  (host4_var (W8 m ρ c) d).trans (by rw [(W8_lin m ρ c H hH).2.1 d, (W8_lin m ρ c H hH).2.2 d]; rfl)

theorem W9_g1 (d : Fin 64) :
    (W9 m ρ c (Proc.devRef .tc main_v76) : S1x64.Idx → EReal) (ix2 (0 : Fin 1) d) = (paramsK m c).g1 1 d :=
  (host4_g1 (W8 m ρ c) d).trans (by rw [W8_arg5 m ρ c]; rfl)

theorem W9_bt1 (d : Fin 64) :
    (W9 m ρ c (Proc.devRef .tc main_v79) : S1x64.Idx → EReal) (ix2 (0 : Fin 1) d) = (paramsK m c).bt1 1 d :=
  (host4_bt1 (W8 m ρ c) d).trans (by rw [W8_arg6 m ρ c]; rfl)

theorem W9_W2 (k d : Fin 64) :
    (W9 m ρ c (Proc.devRef .tc main_v81) : S64x64.Idx → EReal) (ix2 k d) = (paramsK m c).W2 1 k d :=
  (host4_W2 (W8 m ρ c) k d).trans (by rw [W8_arg7 m ρ c]; rfl)

theorem W9_b2 (d : Fin 64) :
    (W9 m ρ c (Proc.devRef .tc main_v84) : S1x64.Idx → EReal) (ix2 (0 : Fin 1) d) = (paramsK m c).b2 1 d :=
  (host4_b2 (W8 m ρ c) d).trans (by rw [W8_arg8 m ρ c]; rfl)

/-! ### Region 4 leaves the second linear map and its column sums -/

include hH in
theorem W10_lin :
    (∀ n d, (W10 m ρ c (Proc.devRef .tc main_v85_0) : S50000x64.Idx → EReal) (ix2 n d) = y2L m c H n d)
    ∧ (∀ d, (W10 m ρ c (Proc.devRef .tc main_v85_1) : S1x64.Idx → EReal) (ix2 (0 : Fin 1) d) = Cert.Spec.colSum (y2L m c H) d)
    ∧ (∀ d, (W10 m ρ c (Proc.devRef .tc main_v85_2) : S1x64.Idx → EReal) (ix2 (0 : Fin 1) d) = Cert.Spec.colSumSq (y2L m c H) d) := by
  have R := region4_value (Vin4 m ρ) c (y1L m c H) (Cert.Spec.mean (y1L m c H)) (Cert.Spec.varMoments (y1L m c H))
    ((paramsK m c).g1 1) ((paramsK m c).bt1 1) ((paramsK m c).W2 1) ((paramsK m c).b2 1)
    (W9_y1 m ρ c H hH) (W9_mean m ρ c H hH) (W9_var m ρ c H hH) (W9_g1 m ρ c) (W9_bt1 m ρ c) (W9_W2 m ρ c) (W9_b2 m ρ c)
  refine ⟨fun n d => ?_, fun d => ?_, fun d => ?_⟩
  · rw [show (W10 m ρ c (Proc.devRef .tc main_v85_0) : S50000x64.Idx → EReal) = ((dat4 (Vin4 m ρ) c).arrAt 7 cfg4.N : S50000x64.Idx → EReal) from
      Wout4_arr m ρ c 7]
    exact R.1 n d
  · rw [show (W10 m ρ c (Proc.devRef .tc main_v85_1) : S1x64.Idx → EReal) = ((dat4 (Vin4 m ρ) c).arrAt 8 cfg4.N : S1x64.Idx → EReal) from
      Wout4_arr m ρ c 8]
    exact R.2.1 d
  · rw [show (W10 m ρ c (Proc.devRef .tc main_v85_2) : S1x64.Idx → EReal) = ((dat4 (Vin4 m ρ) c).arrAt 9 cfg4.N : S1x64.Idx → EReal) from
      Wout4_arr m ρ c 9]
    exact R.2.2 d

/-! ### Region 5 is entered with the second linear map, its mean and variance, the output scale and shift -/

include hH in
theorem W11_y2 (n : Fin 50000) (k : Fin 64) :
    (W11 m ρ c (Proc.devRef .tc main_v85_0) : S50000x64.Idx → EReal) (ix2 n k) = y2L m c H n k := by
  rw [show (W11 m ρ c (Proc.devRef .tc main_v85_0) : S50000x64.Idx → EReal) = W10 m ρ c (Proc.devRef .tc main_v85_0) from
    W11_keeps m ρ c main_v85_0 (by decide)]
  exact (W10_lin m ρ c H hH).1 n k

include hH in
theorem W11_mean (d : Fin 64) :
    (W11 m ρ c (Proc.devRef .tc main_v87) : S1x64.Idx → EReal) (ix2 (0 : Fin 1) d) = Cert.Spec.mean (y2L m c H) d :=
  (host5_mean (W10 m ρ c) d).trans (by rw [(W10_lin m ρ c H hH).2.1 d]; rfl)

include hH in
theorem W11_var (d : Fin 64) :
    (W11 m ρ c (Proc.devRef .tc main_v91) : S1x64.Idx → EReal) (ix2 (0 : Fin 1) d) = Cert.Spec.varMoments (y2L m c H) d :=
  (host5_var (W10 m ρ c) d).trans (by rw [(W10_lin m ρ c H hH).2.1 d, (W10_lin m ρ c H hH).2.2 d]; rfl)

theorem W11_go (d : Fin 64) :
    (W11 m ρ c (Proc.devRef .tc main_v94) : S1x64.Idx → EReal) (ix2 (0 : Fin 1) d) = (paramsK m c).go 1 d :=
  (host5_go (W10 m ρ c) d).trans (by rw [W10_arg9 m ρ c]; rfl)

theorem W11_bo (d : Fin 64) :
    (W11 m ρ c (Proc.devRef .tc main_v97) : S1x64.Idx → EReal) (ix2 (0 : Fin 1) d) = (paramsK m c).bo 1 d :=
  (host5_bo (W10 m ρ c) d).trans (by rw [W10_arg10 m ρ c]; rfl)

/-! ### Region 5 leaves the layer's table and its pooled table -/

include hH in
/-- From the previous layer's table at region 2's exit, region 5 leaves the specification's layer applied to that
    table, and that result summed over each segment. -/
theorem _root_.Cert.KernelIdeal.Value.layer1_value :
    let P := paramsK m c
    let F := Cert.Spec.layerWith Cert.Spec.varMoments (aggK m c) H (P.W1 1) (P.b1 1) (P.g1 1) (P.bt1 1) (P.W2 1) (P.b2 1) (P.go 1) (P.bo 1)
    (∀ n d, (W12 m ρ c (Proc.devRef .tc main_v98_0) : S50000x64.Idx → EReal) (ix2 n d) = F n d)
    ∧ (∀ g d, (W12 m ρ c (Proc.devRef .tc main_v98_1) : S512x64.Idx → EReal) (ix2 g d) = Cert.Spec.pool F (segK m c) g d) := by
  intro P F
  have hF : F = Cert.Spec.normRelu (y2L m c H) (Cert.Spec.mean (y2L m c H)) (Cert.Spec.varMoments (y2L m c H))
      ((paramsK m c).go 1) ((paramsK m c).bo 1) := rfl
  have R := region5_value_of (Vin5 m ρ) c _ _ _ _ _ _ rfl rfl rfl rfl rfl rfl
  have hn : Cert.Spec.normRelu (fun n k => (arr5_0 (Vin5 m ρ) c : S50000x64.Idx → EReal) (ix2 n k))
      (fun d => (arr5_1 (Vin5 m ρ) c : S1x64.Idx → EReal) (ix2 (0 : Fin 1) d))
      (fun d => (arr5_2 (Vin5 m ρ) c : S1x64.Idx → EReal) (ix2 (0 : Fin 1) d))
      (fun d => (arr5_3 (Vin5 m ρ) c : S1x64.Idx → EReal) (ix2 (0 : Fin 1) d))
      (fun d => (arr5_4 (Vin5 m ρ) c : S1x64.Idx → EReal) (ix2 (0 : Fin 1) d)) = F :=
    (normRelu_congr (fun n k => W11_y2 m ρ c H hH n k) (fun d => W11_mean m ρ c H hH d) (fun d => W11_var m ρ c H hH d)
      (fun d => W11_go m ρ c d) (fun d => W11_bo m ρ c d)).trans hF.symm
  have hs : (fun n => (arr5_5 (Vin5 m ρ) c : S50000x1.Idx → BitVec 32) (ix2 n (0 : Fin 1))) = segK m c :=
    funext fun n => W11_seg m ρ c n
  refine ⟨fun n d => ?_, fun g d => ?_⟩
  · rw [show (W12 m ρ c (Proc.devRef .tc main_v98_0) : S50000x64.Idx → EReal) = ((dat5 (Vin5 m ρ) c).arrAt 6 cfg5.N : S50000x64.Idx → EReal) from
      Wout5_arr m ρ c 6]
    exact (R.1 n d).trans (congrFun (congrFun hn n) d)
  · rw [show (W12 m ρ c (Proc.devRef .tc main_v98_1) : S512x64.Idx → EReal) = ((dat5 (Vin5 m ρ) c).arrAt 7 cfg5.N : S512x64.Idx → EReal) from
      Wout5_arr m ρ c 7]
    exact (R.2 g d).trans (congrFun (congrFun (congrArg₂ Cert.Spec.pool hn hs) g) d)

end Walk

end Layer1

end Cert.KernelIdeal.Value

end
-- ==== Proof.KernelIdeal.Layer2Host.lean ====
import proofs.«428437_j36421322670670_1_alg».proof.Proof.Gen.KernelIdeal.Launch
import proofs.«428437_j36421322670670_1_alg».proof.Proof.Spec
import proofs.«428437_j36421322670670_1_alg».proof.Proof.KernelIdeal.Inputs
import Idealize.ShloMosaic.Lib.StableHlo.Run
import Idealize.ShloMosaic.PureOps.Ideal
import Idealize.ShloMosaic.Lib.ValueIdx
import Idealize.ShloMosaic.Lib.IdealHost
import Idealize.ShloMosaic.Lib.ValueLayout
import Idealize.ShloMosaic.Lib.Pipeline.Value

set_option maxRecDepth 16384

/-! # The host stretches of the third layer, read at an index

Three stretches of host operations stand before the three kernel regions of the third layer. The first forms the
neighbour aggregation of the previous layer's feature table and cuts the layer's first weight matrix and bias out of
the stacked parameters. The second turns the first linear map's column sums and sums of squares into the column means
and the moment variances, and cuts out the first scale and shift and the second weight matrix and bias. The third does
the same for the second linear map and cuts out the output scale and shift. Each buffer a region reads is stated here
at coordinates, over any contents `X` the stretch is entered with. -/

noncomputable section
namespace Cert.KernelIdeal.Value.Layer2
open Idealize.ShloMosaic Idealize.ShloMosaic.TcCoe
open Idealize.ShloMosaic.StableHlo
open Idealize.ShloMosaic.ValueIdx
open Cert.KernelIdeal.Gen

/-! ## Rows and matrices cut out of the stacked parameters -/

/-- Row 2 of a 3 × 64 table, cut out and laid as 1 × 64, read at `(0, d)`. -/
theorem row2_apply (A : FVec Ideal S3x64 .f32) (d : Fin 64) :
    shapeCast S1x64 (shapeCast S64 (extractStridedSlice S1x64 ![2, 0] A slices_S3x64_S1x64_2_0) shapeCasts_S1x64_S64)
      shapeCasts_S64_S1x64 (ix2 (0 : Fin 1) d) = A (ix2 (2 : Fin 3) d) := by
  rw [shapeCast_a_1a_apply, shapeCast_1a_a_apply]
  exact slice2_axis0_apply 2 _ _ 0 d 2 rfl

/-- Matrix 2 of a 3 × 64 × 64 stack, cut out and laid as 64 × 64, read at `(k, d)`. -/
theorem mat2_apply (A : FVec Ideal S3x64x64 .f32) (k d : Fin 64) :
    shapeCast S64x64 (extractStridedSlice S1x64x64 ![2, 0, 0] A slices_S3x64x64_S1x64x64_2_0_0) shapeCasts_S1x64x64_S64x64
      (ix2 k d) = A (ix3 (2 : Fin 3) k d) := by
  rw [shapeCast_1ab_ab_apply]
  refine extractStridedSlice_apply _ _ _ _ _ (fun ax => ?_)
  match ax with
  | ⟨0, _⟩ => rfl
  | ⟨1, _⟩ => exact (Nat.zero_add _).symm
  | ⟨2, _⟩ => exact (Nat.zero_add _).symm

/-- A sums row divided by the broadcast number of nodes, read at `(0, d)`. -/
theorem divNodes_apply (S : FVec Ideal S1x64 .f32) (d : Fin 64) :
    Host.divf (F := Ideal) S (broadcastInDim S1x64 ![] bcast_S_S1x64 (constant (F := Ideal) S_ .f32 0x47435000#32))
      (ix2 (0 : Fin 1) d) = Ideal.div (S (ix2 (0 : Fin 1) d)) Cert.Spec.nodes := rfl

/-! ## The stretch before the first region of the layer -/

set_option maxHeartbeats 4000000 in
/-- The aggregation buffer: when the stretch is entered with the two rows of the edge list in their buffers and the
    table `T` in the previous layer's output buffer, it leaves the aggregation of `T` along the edge list. -/
theorem host6_agg (X : Valuation τ sig (Elt Ideal)) (E : IVec S2x800000 32) (T : FVec Ideal S50000x64 .f32)
    (h1 : (X (Proc.devRef .tc main_v1) : IVec S800000 32) = edgeSrc E)
    (h3 : (X (Proc.devRef .tc main_v3) : IVec S800000 32) = edgeDst E)
    (hT : (X (Proc.devRef .tc main_v98_0) : FVec Ideal S50000x64 .f32) = T) :
    (StableHlo.after (hostOps6 (F := Ideal)) X (Proc.devRef .tc main_v108) : FVec Ideal S50000x64 .f32) = aggOf E T := by
  after_results_simp
  rw [h1, h3, hT]; rfl

/-- The first weight matrix of the layer. -/
theorem host6_W1 (X : Valuation τ sig (Elt Ideal)) (k d : Fin 64) :
    (StableHlo.after (hostOps6 (F := Ideal)) X (Proc.devRef .tc main_v110) : S64x64.Idx → EReal) (ix2 k d)
      = (X (Proc.devRef .tc main_arg3) : S3x64x64.Idx → EReal) (ix3 (2 : Fin 3) k d) := by
  have e : (StableHlo.after (hostOps6 (F := Ideal)) X (Proc.devRef .tc main_v110) : S64x64.Idx → EReal)
      = shapeCast S64x64 (extractStridedSlice S1x64x64 ![2, 0, 0] (X (Proc.devRef .tc main_arg3)) slices_S3x64x64_S1x64x64_2_0_0) shapeCasts_S1x64x64_S64x64 := by
    after_results <;> rfl
  rw [e]; exact mat2_apply _ k d

/-- The first bias of the layer. -/
theorem host6_b1 (X : Valuation τ sig (Elt Ideal)) (d : Fin 64) :
    (StableHlo.after (hostOps6 (F := Ideal)) X (Proc.devRef .tc main_v113) : S1x64.Idx → EReal) (ix2 (0 : Fin 1) d)
      = (X (Proc.devRef .tc main_arg4) : S3x64.Idx → EReal) (ix2 (2 : Fin 3) d) := by
  have e : (StableHlo.after (hostOps6 (F := Ideal)) X (Proc.devRef .tc main_v113) : S1x64.Idx → EReal)
      = shapeCast S1x64 (shapeCast S64 (extractStridedSlice S1x64 ![2, 0] (X (Proc.devRef .tc main_arg4)) slices_S3x64_S1x64_2_0) shapeCasts_S1x64_S64) shapeCasts_S64_S1x64 := by
    after_results <;> rfl
  rw [e]; exact row2_apply _ d

/-! ## The stretch before the second region of the layer -/

/-- The column means: the sums row over the number of nodes. -/
theorem host7_mean (X : Valuation τ sig (Elt Ideal)) (d : Fin 64) :
    (StableHlo.after (hostOps7 (F := Ideal)) X (Proc.devRef .tc main_v116) : S1x64.Idx → EReal) (ix2 (0 : Fin 1) d)
      = Ideal.div ((X (Proc.devRef .tc main_v114_1) : S1x64.Idx → EReal) (ix2 (0 : Fin 1) d)) Cert.Spec.nodes := by
  have e : (StableHlo.after (hostOps7 (F := Ideal)) X (Proc.devRef .tc main_v116) : S1x64.Idx → EReal)
      = Host.divf (F := Ideal) (X (Proc.devRef .tc main_v114_1))
          (broadcastInDim S1x64 ![] bcast_S_S1x64 (constant (F := Ideal) S_ .f32 0x47435000#32)) := by
    after_results <;> rfl
  rw [e]; rfl

/-- The moment variances: the sums of squares over the number of nodes, less the squared means. -/
theorem host7_var (X : Valuation τ sig (Elt Ideal)) (d : Fin 64) :
    (StableHlo.after (hostOps7 (F := Ideal)) X (Proc.devRef .tc main_v120) : S1x64.Idx → EReal) (ix2 (0 : Fin 1) d)
      = Ideal.div ((X (Proc.devRef .tc main_v114_2) : S1x64.Idx → EReal) (ix2 (0 : Fin 1) d)) Cert.Spec.nodes
        - Ideal.div ((X (Proc.devRef .tc main_v114_1) : S1x64.Idx → EReal) (ix2 (0 : Fin 1) d)) Cert.Spec.nodes
          * Ideal.div ((X (Proc.devRef .tc main_v114_1) : S1x64.Idx → EReal) (ix2 (0 : Fin 1) d)) Cert.Spec.nodes := by
  have e : (StableHlo.after (hostOps7 (F := Ideal)) X (Proc.devRef .tc main_v120) : S1x64.Idx → EReal)
      = subf (F := Ideal) (Host.divf (F := Ideal) (X (Proc.devRef .tc main_v114_2))
          (broadcastInDim S1x64 ![] bcast_S_S1x64 (constant (F := Ideal) S_ .f32 0x47435000#32)))
          (mulf (F := Ideal) (Host.divf (F := Ideal) (X (Proc.devRef .tc main_v114_1))
          (broadcastInDim S1x64 ![] bcast_S_S1x64 (constant (F := Ideal) S_ .f32 0x47435000#32)))
          (Host.divf (F := Ideal) (X (Proc.devRef .tc main_v114_1))
          (broadcastInDim S1x64 ![] bcast_S_S1x64 (constant (F := Ideal) S_ .f32 0x47435000#32)))) := by
    after_results <;> rfl
  rw [e]; rfl

/-- The first scale of the layer. -/
theorem host7_g1 (X : Valuation τ sig (Elt Ideal)) (d : Fin 64) :
    (StableHlo.after (hostOps7 (F := Ideal)) X (Proc.devRef .tc main_v123) : S1x64.Idx → EReal) (ix2 (0 : Fin 1) d)
      = (X (Proc.devRef .tc main_arg5) : S3x64.Idx → EReal) (ix2 (2 : Fin 3) d) := by
  have e : (StableHlo.after (hostOps7 (F := Ideal)) X (Proc.devRef .tc main_v123) : S1x64.Idx → EReal)
      = shapeCast S1x64 (shapeCast S64 (extractStridedSlice S1x64 ![2, 0] (X (Proc.devRef .tc main_arg5)) slices_S3x64_S1x64_2_0) shapeCasts_S1x64_S64) shapeCasts_S64_S1x64 := by
    after_results <;> rfl
  rw [e]; exact row2_apply _ d

/-- The first shift of the layer. -/
theorem host7_bt1 (X : Valuation τ sig (Elt Ideal)) (d : Fin 64) :
    (StableHlo.after (hostOps7 (F := Ideal)) X (Proc.devRef .tc main_v126) : S1x64.Idx → EReal) (ix2 (0 : Fin 1) d)
      = (X (Proc.devRef .tc main_arg6) : S3x64.Idx → EReal) (ix2 (2 : Fin 3) d) := by
  have e : (StableHlo.after (hostOps7 (F := Ideal)) X (Proc.devRef .tc main_v126) : S1x64.Idx → EReal)
      = shapeCast S1x64 (shapeCast S64 (extractStridedSlice S1x64 ![2, 0] (X (Proc.devRef .tc main_arg6)) slices_S3x64_S1x64_2_0) shapeCasts_S1x64_S64) shapeCasts_S64_S1x64 := by
    after_results <;> rfl
  rw [e]; exact row2_apply _ d

/-- The second weight matrix of the layer. -/
theorem host7_W2 (X : Valuation τ sig (Elt Ideal)) (k d : Fin 64) :
    (StableHlo.after (hostOps7 (F := Ideal)) X (Proc.devRef .tc main_v128) : S64x64.Idx → EReal) (ix2 k d)
      = (X (Proc.devRef .tc main_arg7) : S3x64x64.Idx → EReal) (ix3 (2 : Fin 3) k d) := by
  have e : (StableHlo.after (hostOps7 (F := Ideal)) X (Proc.devRef .tc main_v128) : S64x64.Idx → EReal)
      = shapeCast S64x64 (extractStridedSlice S1x64x64 ![2, 0, 0] (X (Proc.devRef .tc main_arg7)) slices_S3x64x64_S1x64x64_2_0_0) shapeCasts_S1x64x64_S64x64 := by
    after_results <;> rfl
  rw [e]; exact mat2_apply _ k d

/-- The second bias of the layer. -/
theorem host7_b2 (X : Valuation τ sig (Elt Ideal)) (d : Fin 64) :
    (StableHlo.after (hostOps7 (F := Ideal)) X (Proc.devRef .tc main_v131) : S1x64.Idx → EReal) (ix2 (0 : Fin 1) d)
      = (X (Proc.devRef .tc main_arg8) : S3x64.Idx → EReal) (ix2 (2 : Fin 3) d) := by
  have e : (StableHlo.after (hostOps7 (F := Ideal)) X (Proc.devRef .tc main_v131) : S1x64.Idx → EReal)
      = shapeCast S1x64 (shapeCast S64 (extractStridedSlice S1x64 ![2, 0] (X (Proc.devRef .tc main_arg8)) slices_S3x64_S1x64_2_0) shapeCasts_S1x64_S64) shapeCasts_S64_S1x64 := by
    after_results <;> rfl
  rw [e]; exact row2_apply _ d

/-! ## The stretch before the third region of the layer -/

/-- The column means of the second linear map. -/
theorem host8_mean (X : Valuation τ sig (Elt Ideal)) (d : Fin 64) :
    (StableHlo.after (hostOps8 (F := Ideal)) X (Proc.devRef .tc main_v134) : S1x64.Idx → EReal) (ix2 (0 : Fin 1) d)
      = Ideal.div ((X (Proc.devRef .tc main_v132_1) : S1x64.Idx → EReal) (ix2 (0 : Fin 1) d)) Cert.Spec.nodes := by
  have e : (StableHlo.after (hostOps8 (F := Ideal)) X (Proc.devRef .tc main_v134) : S1x64.Idx → EReal)
      = Host.divf (F := Ideal) (X (Proc.devRef .tc main_v132_1))
          (broadcastInDim S1x64 ![] bcast_S_S1x64 (constant (F := Ideal) S_ .f32 0x47435000#32)) := by
    after_results <;> rfl
  rw [e]; rfl

/-- The moment variances of the second linear map. -/
theorem host8_var (X : Valuation τ sig (Elt Ideal)) (d : Fin 64) :
    (StableHlo.after (hostOps8 (F := Ideal)) X (Proc.devRef .tc main_v138) : S1x64.Idx → EReal) (ix2 (0 : Fin 1) d)
      = Ideal.div ((X (Proc.devRef .tc main_v132_2) : S1x64.Idx → EReal) (ix2 (0 : Fin 1) d)) Cert.Spec.nodes
        - Ideal.div ((X (Proc.devRef .tc main_v132_1) : S1x64.Idx → EReal) (ix2 (0 : Fin 1) d)) Cert.Spec.nodes
          * Ideal.div ((X (Proc.devRef .tc main_v132_1) : S1x64.Idx → EReal) (ix2 (0 : Fin 1) d)) Cert.Spec.nodes := by
  have e : (StableHlo.after (hostOps8 (F := Ideal)) X (Proc.devRef .tc main_v138) : S1x64.Idx → EReal)
      = subf (F := Ideal) (Host.divf (F := Ideal) (X (Proc.devRef .tc main_v132_2))
          (broadcastInDim S1x64 ![] bcast_S_S1x64 (constant (F := Ideal) S_ .f32 0x47435000#32)))
          (mulf (F := Ideal) (Host.divf (F := Ideal) (X (Proc.devRef .tc main_v132_1))
          (broadcastInDim S1x64 ![] bcast_S_S1x64 (constant (F := Ideal) S_ .f32 0x47435000#32)))
          (Host.divf (F := Ideal) (X (Proc.devRef .tc main_v132_1))
          (broadcastInDim S1x64 ![] bcast_S_S1x64 (constant (F := Ideal) S_ .f32 0x47435000#32)))) := by
    after_results <;> rfl
  rw [e]; rfl

/-- The output scale of the layer. -/
theorem host8_go (X : Valuation τ sig (Elt Ideal)) (d : Fin 64) :
    (StableHlo.after (hostOps8 (F := Ideal)) X (Proc.devRef .tc main_v141) : S1x64.Idx → EReal) (ix2 (0 : Fin 1) d)
      = (X (Proc.devRef .tc main_arg9) : S3x64.Idx → EReal) (ix2 (2 : Fin 3) d) := by
  have e : (StableHlo.after (hostOps8 (F := Ideal)) X (Proc.devRef .tc main_v141) : S1x64.Idx → EReal)
      = shapeCast S1x64 (shapeCast S64 (extractStridedSlice S1x64 ![2, 0] (X (Proc.devRef .tc main_arg9)) slices_S3x64_S1x64_2_0) shapeCasts_S1x64_S64) shapeCasts_S64_S1x64 := by
    after_results <;> rfl
  rw [e]; exact row2_apply _ d

/-- The output shift of the layer. -/
theorem host8_bo (X : Valuation τ sig (Elt Ideal)) (d : Fin 64) :
    (StableHlo.after (hostOps8 (F := Ideal)) X (Proc.devRef .tc main_v144) : S1x64.Idx → EReal) (ix2 (0 : Fin 1) d)
      = (X (Proc.devRef .tc main_arg10) : S3x64.Idx → EReal) (ix2 (2 : Fin 3) d) := by
  have e : (StableHlo.after (hostOps8 (F := Ideal)) X (Proc.devRef .tc main_v144) : S1x64.Idx → EReal)
      = shapeCast S1x64 (shapeCast S64 (extractStridedSlice S1x64 ![2, 0] (X (Proc.devRef .tc main_arg10)) slices_S3x64_S1x64_2_0) shapeCasts_S1x64_S64) shapeCasts_S64_S1x64 := by
    after_results <;> rfl
  rw [e]; exact row2_apply _ d

/-! ## The edge list's rows and the segment column as the first stretch of the program leaves them -/

/-- The source indices' buffer after the program's first stretch. -/
theorem host0_src (X : Valuation τ sig (Elt Ideal)) :
    (StableHlo.after (hostOps0 (F := Ideal)) X (Proc.devRef .tc main_v1) : IVec S800000 32)
      = edgeSrc (X (Proc.devRef .tc main_arg1)) := by
  after_results <;> rfl

/-- The target indices' buffer after the program's first stretch. -/
theorem host0_dst (X : Valuation τ sig (Elt Ideal)) :
    (StableHlo.after (hostOps0 (F := Ideal)) X (Proc.devRef .tc main_v3) : IVec S800000 32)
      = edgeDst (X (Proc.devRef .tc main_arg1)) := by
  after_results <;> rfl

/-- The segment words laid as a column, after the program's first stretch, read at `(n, 0)`. -/
theorem host0_seg (X : Valuation τ sig (Elt Ideal)) (n : Fin 50000) :
    (StableHlo.after (hostOps0 (F := Ideal)) X (Proc.devRef .tc main_v4) : S50000x1.Idx → BitVec 32) (ix2 n (0 : Fin 1))
      = (X (Proc.devRef .tc main_arg2) : S50000.Idx → BitVec 32) (ix1 n) := by
  have e : (StableHlo.after (hostOps0 (F := Ideal)) X (Proc.devRef .tc main_v4) : S50000x1.Idx → BitVec 32)
      = shapeCast S50000x1 (X (Proc.devRef .tc main_arg2)) shapeCasts_S50000_S50000x1 := by
    after_results <;> rfl
  rw [e]
  refine shapeCast_apply (s := S50000) (t := S50000x1) (X (Proc.devRef .tc main_arg2) : S50000.Idx → BitVec 32)
    shapeCasts_S50000_S50000x1 (ix2 n (0 : Fin 1)) (ix1 n) ?_
  rw [Shape.rowMajor_val_two, Shape.rowMajor_val_one]
  show n.val = n.val * 1 + 0
  omega

end Cert.KernelIdeal.Value.Layer2
end
-- ==== Proof.KernelIdeal.Region6Value.lean ====
import proofs.«428437_j36421322670670_1_alg».proof.Proof.KernelIdeal.Region6
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.PureOps.Ideal.Laws
import Idealize.ShloMosaic.Lib.ValueLayout

/-! # What the first call of a layer leaves in its three outputs, over the extended reals

The call walks the 50000 nodes in five tiles of 10000 rows. At each tile it adds the tile of node features to the tile
of aggregated features, multiplies by the 64 × 64 weights, adds the bias row, and stores the resulting tile; it also adds
the tile's column sums, and the column sums of its squares, to two rows that are zeroed at the first tile and written
back after the last.

Over the extended reals every operation is exact: the roundings to bf16 are the identity, the block product into a
zero block is the contraction over the 64 shared coordinates, and a reduction along the rows is a finite sum. So row
`p` of tile `t` of the stored tile is row `10000 t + p` of the linear map `(H + A) W + B` of the whole arrays; the
five tiles cover the table; and each running row, a sequence that starts at the first tile's sums and adds one
tile's sums per step, ends at the sum over all the tiles, which is the sum over all the nodes. Addition on the
extended reals is a commutative monoid, so nothing here needs the entries to be finite. -/

noncomputable section

namespace Cert.KernelIdeal.Gen

open Idealize.ShloMosaic Idealize.ShloMosaic.TcCoe Idealize.ShloMosaic.ValueIdx
open Idealize.ShloMosaic.Pipeline (Dat)
/-! ## The block product's operand indices, axis by axis -/

theorem dotA6_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dotA6_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem dotA6_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem dotA6_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into the zero block, at row `p` and column `d`: the contraction over the 64 shared coordinates. -/
theorem matmulA6_apply (l : FVec Ideal S10000x64 .bf16) (r : FVec Ideal S64x64 .bf16) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p d) ((contrEquiv1 dot_S10000x64_S64x64_S10000x64_1_0_0_1_n_n 64 rfl rfl).symm k) = ix2 p k :=
    funext fun a => Fin.ext (by
      match a with
      | ⟨0, _⟩ => exact dotA6_lhs_row _ _
      | ⟨1, _⟩ => exact (dotA6_lhs_col _ _).trans hk)
  have er : dot_S10000x64_S64x64_S10000x64_1_0_0_1_n_n.rhsIdx (ix2 p d) ((contrEquiv1 dot_S10000x64_S64x64_S10000x64_1_0_0_1_n_n 64 rfl rfl).symm k) = ix2 k d :=
    funext fun a => Fin.ext (by
      match a with
      | ⟨0, _⟩ => exact (dotA6_rhs_row _ _).trans hk
      | ⟨1, _⟩ => exact dotA6_rhs_col _ _)
  rw [el, er]

/-- The linear payload at row `p`, column `d` of the tile: the row of the summed inputs against column `d` of the
    weights, plus the bias. -/
theorem pay6_lin_apply (v3 v4 : Vec Ideal S10000x64 .f32) (v8 : Vec Ideal S64x64 .f32) (v12 : Vec Ideal S1x64 .f32)
    (p : Fin 10000) (d : Fin 64) :
    k6_pay3 v3 v4 v8 v12 (ix2 p d)
      = (∑ k : Fin 64, (v3 (ix2 p k) + v4 (ix2 p k)) * v8 (ix2 k d)) + v12 (ix2 (0 : Fin 1) d) := by
  unfold k6_pay3
  simp only [shapeCast_self]
  rw [addf_apply]
  refine congrArg₂ (· + ·) ?_ ?_
  · exact matmulA6_apply _ _ p d
  · exact broadcastTo_1b_ab_apply v12 broadcasts_S1x64_S10000x64 p d

/-- A column sum over the tile's rows, at column `d`. -/
theorem colsumA6_apply (x : FVec Ideal S10000x64 .f32) (hacc : (0x00000000#32 : BitVec 32) = 0x00000000#32) (d : Fin 64) :
    shapeCast S1x64 (multiReduction (F := Ideal) .add [0] S64 x 0x00000000#32 reduces_S10000x64_S64 (.inl rfl) hacc) shapeCasts_S64_S1x64 (ix2 (0 : Fin 1) d)
      = ∑ p : Fin 10000, x (ix2 p d) := by
  refine (shapeCast_a_1a_apply _ shapeCasts_S64_S1x64 (0 : Fin 1) d).trans ?_
  refine (Ideal.multiReduction_add_single x 0x00000000#32 reduces_S10000x64_S64 (.inl rfl) hacc (ix1 d)).trans ?_
  refine Finset.sum_congr rfl fun p _ => congrArg x ?_
  funext a
  match a with
  | ⟨0, _⟩ => rfl
  | ⟨1, _⟩ => rfl

/-- The running column sums after a tile: what was there plus the tile's column sums of the linear payload. -/
theorem pay6_sum_apply (v3 v4 : Vec Ideal S10000x64 .f32) (v8 : Vec Ideal S64x64 .f32) (v12 : Vec Ideal S1x64 .f32)
    (v17 : Vec Ideal S1x64 .f32) (d : Fin 64) :
    k6_pay4 v3 v4 v8 v12 v17 (ix2 (0 : Fin 1) d)
      = v17 (ix2 (0 : Fin 1) d) + ∑ p : Fin 10000, k6_pay3 v3 v4 v8 v12 (ix2 p d) := by
  unfold k6_pay4
  simp only [shapeCast_self]
  rw [addf_apply]
  exact congrArg (v17 (ix2 (0 : Fin 1) d) + ·) (colsumA6_apply (k6_pay3 v3 v4 v8 v12) rfl d)

/-- The running column sums of squares after a tile. -/
theorem pay6_sumsq_apply (v3 v4 : Vec Ideal S10000x64 .f32) (v8 : Vec Ideal S64x64 .f32) (v12 : Vec Ideal S1x64 .f32)
    (v23 : Vec Ideal S1x64 .f32) (d : Fin 64) :
    k6_pay5 v3 v4 v8 v12 v23 (ix2 (0 : Fin 1) d)
      = v23 (ix2 (0 : Fin 1) d) + ∑ p : Fin 10000, k6_pay3 v3 v4 v8 v12 (ix2 p d) * k6_pay3 v3 v4 v8 v12 (ix2 p d) := by
  unfold k6_pay5
  simp only [shapeCast_self]
  rw [addf_apply]
  exact congrArg (v23 (ix2 (0 : Fin 1) d) + ·) (colsumA6_apply (mulf (k6_pay3 v3 v4 v8 v12) (k6_pay3 v3 v4 v8 v12)) rfl d)

/-- The reset payloads: the zero row. -/
theorem pay6_zero_sum_apply (d : Fin 64) : (k6_pay1 (F := Ideal)) (ix2 (0 : Fin 1) d) = Ideal.ofBits .f32 0x00000000#32 := rfl
theorem pay6_zero_sumsq_apply (d : Fin 64) : (k6_pay2 (F := Ideal)) (ix2 (0 : Fin 1) d) = Ideal.ofBits .f32 0x00000000#32 := rfl

/-! ## The statement's vocabulary -/

/-- The linear map of the summed inputs: `(H + A) W + B`, row by row. -/
abbrev lin6 (H A : S50000x64.Idx → EReal) (W : S64x64.Idx → EReal) (B : S1x64.Idx → EReal) : Cert.Spec.Act :=
  Cert.Spec.lin (fun n k => H (ix2 n k) + A (ix2 n k)) (fun k d => W (ix2 k d)) (fun d => B (ix2 (0 : Fin 1) d))

variable (V : (c : Dev nD) → (b : Ref sig .tc) → Buf (Elt Ideal) ((c : Thread nD τ).loc b))

/-- The four input arrays as the region finds them: node features, aggregated features, weights, bias. -/
abbrev arr6_h (c : Dev nD) : S50000x64.Idx → EReal := V c (Pipeline.arrRef spec6 0)
abbrev arr6_a (c : Dev nD) : S50000x64.Idx → EReal := V c (Pipeline.arrRef spec6 1)
abbrev arr6_w (c : Dev nD) : S64x64.Idx → EReal := V c (Pipeline.arrRef spec6 2)
abbrev arr6_b (c : Dev nD) : S1x64.Idx → EReal := V c (Pipeline.arrRef spec6 3)

/-- The linear map of those arrays. -/
abbrev y6 (c : Dev nD) : Cert.Spec.Act := lin6 (arr6_h V c) (arr6_a V c) (arr6_w V c) (arr6_b V c)

/-! ## The index maps over the grid, and a tile's rows in the table -/

/-- The windows over the node axis sit at block `t` at point `t`; the weights, the bias and the two rows of sums do not move. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem pt6_lt (t : Fin cfg6.N) : t.val < 5 := by
  have hN : cfg6.N = 5 := N_6
  have := t.isLt
  omega

/-- Row `p` of tile `t`, as a row of the whole table. -/
abbrev row6 (t : Fin cfg6.N) (p : Fin 10000) : Fin 50000 :=
  ⟨10000 * t.val + p.val, by have := pt6_lt t; have := p.isLt; omega⟩

/-! ## The input blocks at a point, read in the whole arrays -/

theorem iblk6_h_apply (c : Dev nD) (t : Fin cfg6.N) (p : Fin 10000) (k : Fin 64) :
    (iblk6 V c 0 t : Vec Ideal S10000x64 .f32) (ix2 p k) = arr6_h V c (ix2 (row6 t p) k) := by
  obtain ⟨erow, ecol, -⟩ := idx_facts6 t
  show arr6_h V c (((cfg6.win 0).blk t).view.emb (ix2 p k)) = _
  refine congrArg (arr6_h V c) (funext fun a => Fin.ext ?_)
  match a with
  | ⟨0, _⟩ => show win6_0.index t (0 : Fin 2) * 10000 + 1 * p.val = 10000 * t.val + p.val; rw [erow]; omega
  | ⟨1, _⟩ => show win6_0.index t (1 : Fin 2) * 64 + 1 * k.val = k.val; rw [ecol]; omega

theorem iblk6_a_apply (c : Dev nD) (t : Fin cfg6.N) (p : Fin 10000) (k : Fin 64) :
    (iblk6 V c 1 t : Vec Ideal S10000x64 .f32) (ix2 p k) = arr6_a V c (ix2 (row6 t p) k) := by
  obtain ⟨-, -, erow, ecol, -⟩ := idx_facts6 t
  show arr6_a V c (((cfg6.win 1).blk t).view.emb (ix2 p k)) = _
  refine congrArg (arr6_a V c) (funext fun a => Fin.ext ?_)
  match a with
  | ⟨0, _⟩ => show win6_1.index t (0 : Fin 2) * 10000 + 1 * p.val = 10000 * t.val + p.val; rw [erow]; omega
  | ⟨1, _⟩ => show win6_1.index t (1 : Fin 2) * 64 + 1 * k.val = k.val; rw [ecol]; omega

theorem iblk6_w_apply (c : Dev nD) (t : Fin cfg6.N) (k d : Fin 64) :
    (iblk6 V c 2 t : Vec Ideal S64x64 .f32) (ix2 k d) = arr6_w V c (ix2 k d) := by
  obtain ⟨-, -, -, -, erow, ecol, -⟩ := idx_facts6 t
  show arr6_w V c (((cfg6.win 2).blk t).view.emb (ix2 k d)) = _
  refine congrArg (arr6_w V c) (funext fun a => Fin.ext ?_)
  match a with
  | ⟨0, _⟩ => show win6_2.index t (0 : Fin 2) * 64 + 1 * k.val = k.val; rw [erow]; omega
  | ⟨1, _⟩ => show win6_2.index t (1 : Fin 2) * 64 + 1 * d.val = d.val; rw [ecol]; omega

theorem iblk6_b_apply (c : Dev nD) (t : Fin cfg6.N) (d : Fin 64) :
    (iblk6 V c 3 t : Vec Ideal S1x64 .f32) (ix2 (0 : Fin 1) d) = arr6_b V c (ix2 (0 : Fin 1) d) := by
  obtain ⟨-, -, -, -, -, -, erow, ecol, -⟩ := idx_facts6 t
  show arr6_b V c (((cfg6.win 3).blk t).view.emb (ix2 (0 : Fin 1) d)) = _
  refine congrArg (arr6_b V c) (funext fun a => Fin.ext ?_)
  match a with
  | ⟨0, _⟩ => show win6_3.index t (0 : Fin 2) * 1 + 1 * 0 = 0; rw [erow]
  | ⟨1, _⟩ => show win6_3.index t (1 : Fin 2) * 64 + 1 * d.val = d.val; rw [ecol]; omega

/-- THE TILE'S LINEAR PAYLOAD AT A POINT: row `p`, column `d` of what point `t` computes is the linear map at the tile's
    row in the table. -/
theorem lin6_at_point (c : Dev nD) (t : Fin cfg6.N) (p : Fin 10000) (d : Fin 64) :
    k6_pay3 (iblk6 V c 0 t) (iblk6 V c 1 t) (iblk6 V c 2 t) (iblk6 V c 3 t) (ix2 p d) = y6 V c (row6 t p) d := by
  refine (pay6_lin_apply (iblk6 V c 0 t) (iblk6 V c 1 t) (iblk6 V c 2 t) (iblk6 V c 3 t) p d).trans ?_
  show _ = (∑ k : Fin 64, (arr6_h V c (ix2 (row6 t p) k) + arr6_a V c (ix2 (row6 t p) k)) * arr6_w V c (ix2 k d)) + arr6_b V c (ix2 (0 : Fin 1) d)
  refine congrArg₂ (· + ·) (Finset.sum_congr rfl fun k _ => ?_) (iblk6_b_apply V c t d)
  exact congrArg₂ (· * ·) (congrArg₂ (· + ·) (iblk6_h_apply V c t p k) (iblk6_a_apply V c t p k)) (iblk6_w_apply V c t k d)

/-! ## The tile of the linear map: written back at every point, the tiles cover the table -/

/-- The table the first output ends holding, as contents of its array. -/
abbrev tab6_lin (c : Dev nD) : S50000x64.Idx → EReal :=
  fun i => y6 V c ⟨(i 0).val, (i 0).isLt⟩ ⟨(i 1).val, (i 1).isLt⟩

/-- What point `t` writes back is tile `t` of that table. -/
theorem flushed6_lin_eq (c : Dev nD) (t : Fin cfg6.N) :
    (dat6 V c).flushed 4 t = ((cfg6.win 4).blk t).view.read (Elt Ideal) (tab6_lin V c) := by
  show (cfg6.win 4).cut (grid6.coords t) ((dat6 V c).after 4 t) = _
  rw [after6_4 V c t]
  obtain ⟨-, -, -, -, -, -, -, -, erow, ecol, -⟩ := idx_facts6 t
  funext j
  obtain ⟨p, d, rfl⟩ : ∃ (p : Fin 10000) (d : Fin 64), j = ix2 p d := ⟨j 0, j 1, eq_ix2 j⟩
  show k6_pay3 (iblk6 V c 0 t) (iblk6 V c 1 t) (iblk6 V c 2 t) (iblk6 V c 3 t) (ix2 p d)
    = tab6_lin V c (((cfg6.win 4).blk t).view.emb (ix2 p d))
  refine (lin6_at_point V c t p d).trans ?_
  show y6 V c (row6 t p) d = y6 V c ⟨(((cfg6.win 4).blk t).view.emb (ix2 p d) 0).val, _⟩ ⟨(((cfg6.win 4).blk t).view.emb (ix2 p d) 1).val, _⟩
  have hrow : (((cfg6.win 4).blk t).view.emb (ix2 p d) 0).val = 10000 * t.val + p.val := by
    show win6_4.index t (0 : Fin 2) * 10000 + 1 * p.val = _
    rw [erow]; omega
  have hcol : (((cfg6.win 4).blk t).view.emb (ix2 p d) 1).val = d.val := by
    show win6_4.index t (1 : Fin 2) * 64 + 1 * d.val = _
    rw [ecol]; omega
  exact congrArg₂ (y6 V c) (Fin.ext hrow.symm) (Fin.ext hcol.symm)

/-- An index of the table is in point `t`'s tile iff each coordinate is in the tile's range on its axis. -/
theorem mem_blk6_lin (t : Fin cfg6.N) (i : S50000x64.Idx) :
    i ∈ ((cfg6.win 4).blk t).view.set ↔ ∀ a : Fin 2, win6_4.index t a * S10000x64.size a ≤ (i a).val ∧ (i a).val < win6_4.index t a * S10000x64.size a + S10000x64.size a := by
  show i ∈ ((View.whole (Pipeline.arrRef spec6 4)).slice (win6_4.rect t)).set ↔ _
  rw [View.set_slice_whole, Rect.mem_set_unit]
  exact Iff.rfl

/-- THE FIRST OUTPUT after the region: the linear map, row by row. -/
theorem final6_lin (c : Dev nD) : (dat6 V c).arrAt 4 cfg6.N = tab6_lin V c :=
  (dat6 V c).arrAt_eq_of_cover 4 (tab6_lin V c) (fun t _ => flushed6_lin_eq V c t) fun i => by
    have hi : (i 0).val < 50000 := (i 0).isLt
    have hd : (i 1).val < 64 := (i 1).isLt
    have hN : cfg6.N = 5 := N_6
    refine ⟨⟨(i 0).val / 10000, by rw [hN]; omega⟩, flush6_4 _, ?_⟩
    obtain ⟨-, -, -, -, -, -, -, -, erow, ecol, -⟩ := idx_facts6 ⟨(i 0).val / 10000, by rw [hN]; omega⟩
    rw [mem_blk6_lin]
    intro a
    match a with
    | ⟨0, _⟩ =>
      show win6_4.index _ (0 : Fin 2) * 10000 ≤ (i 0).val ∧ (i 0).val < win6_4.index _ (0 : Fin 2) * 10000 + 10000
      rw [erow]; dsimp only; omega
    | ⟨1, _⟩ =>
      show win6_4.index _ (1 : Fin 2) * 64 ≤ (i 1).val ∧ (i 1).val < win6_4.index _ (1 : Fin 2) * 64 + 64
      rw [ecol]; omega

/-! ## The two rows of sums: reset at the first point, added to at every point, written back after the last -/

/-- The grid's five points, counted from the first. -/
def pt6 (i : Fin (4 + 1)) : Fin cfg6.N := ⟨i.val, by have hN : cfg6.N = 5 := N_6; rw [hN]; exact i.isLt⟩

/-- What the row of column sums holds after point `t`. -/
abbrev acc6_sum (c : Dev nD) (t : Fin cfg6.N) : Vec Ideal S1x64 .f32 := (dat6 V c).after 5 t
/-- What the row of column sums of squares holds after point `t`. -/
abbrev acc6_sumsq (c : Dev nD) (t : Fin cfg6.N) : Vec Ideal S1x64 .f32 := (dat6 V c).after 6 t

theorem acc6_sum_first (c : Dev nD) (t : Fin cfg6.N) (h : t.val = 0) (d : Fin 64) :
    acc6_sum V c t (ix2 (0 : Fin 1) d) = 0 + ∑ p : Fin 10000, y6 V c (row6 t p) d := by
  show ((dat6 V c).after 5 t : Vec Ideal S1x64 .f32) (ix2 (0 : Fin 1) d) = _
  rw [after6_5_first V c t h]
  refine (pay6_sum_apply (iblk6 V c 0 t) (iblk6 V c 1 t) (iblk6 V c 2 t) (iblk6 V c 3 t) (k6_pay1 (F := Ideal)) d).trans ?_
  exact congrArg₂ (· + ·) ((pay6_zero_sum_apply d).trans Cert.Spec.ofBits_zero)
    (Finset.sum_congr rfl fun p _ => lin6_at_point V c t p d)

theorem acc6_sum_later (c : Dev nD) (t : Fin cfg6.N) (h : t.val ≠ 0) (d : Fin 64) :
    acc6_sum V c t (ix2 (0 : Fin 1) d)
      = acc6_sum V c ⟨t.val - 1, by omega⟩ (ix2 (0 : Fin 1) d) + ∑ p : Fin 10000, y6 V c (row6 t p) d := by
  show ((dat6 V c).after 5 t : Vec Ideal S1x64 .f32) (ix2 (0 : Fin 1) d) = _
  rw [after6_5_later V c t h]
  refine (pay6_sum_apply (iblk6 V c 0 t) (iblk6 V c 1 t) (iblk6 V c 2 t) (iblk6 V c 3 t) ((dat6 V c).after 5 ⟨t.val - 1, by omega⟩) d).trans ?_
  exact congrArg₂ (· + ·) rfl (Finset.sum_congr rfl fun p _ => lin6_at_point V c t p d)

theorem acc6_sumsq_first (c : Dev nD) (t : Fin cfg6.N) (h : t.val = 0) (d : Fin 64) :
    acc6_sumsq V c t (ix2 (0 : Fin 1) d) = 0 + ∑ p : Fin 10000, y6 V c (row6 t p) d * y6 V c (row6 t p) d := by
  show ((dat6 V c).after 6 t : Vec Ideal S1x64 .f32) (ix2 (0 : Fin 1) d) = _
  rw [after6_6_first V c t h]
  refine (pay6_sumsq_apply (iblk6 V c 0 t) (iblk6 V c 1 t) (iblk6 V c 2 t) (iblk6 V c 3 t) (k6_pay2 (F := Ideal)) d).trans ?_
  exact congrArg₂ (· + ·) ((pay6_zero_sumsq_apply d).trans Cert.Spec.ofBits_zero)
    (Finset.sum_congr rfl fun p _ => congrArg₂ (· * ·) (lin6_at_point V c t p d) (lin6_at_point V c t p d))

theorem acc6_sumsq_later (c : Dev nD) (t : Fin cfg6.N) (h : t.val ≠ 0) (d : Fin 64) :
    acc6_sumsq V c t (ix2 (0 : Fin 1) d)
      = acc6_sumsq V c ⟨t.val - 1, by omega⟩ (ix2 (0 : Fin 1) d) + ∑ p : Fin 10000, y6 V c (row6 t p) d * y6 V c (row6 t p) d := by
  show ((dat6 V c).after 6 t : Vec Ideal S1x64 .f32) (ix2 (0 : Fin 1) d) = _
  rw [after6_6_later V c t h]
  refine (pay6_sumsq_apply (iblk6 V c 0 t) (iblk6 V c 1 t) (iblk6 V c 2 t) (iblk6 V c 3 t) ((dat6 V c).after 6 ⟨t.val - 1, by omega⟩) d).trans ?_
  exact congrArg₂ (· + ·) rfl
    (Finset.sum_congr rfl fun p _ => congrArg₂ (· * ·) (lin6_at_point V c t p d) (lin6_at_point V c t p d))

/-- After the last point the row of sums holds the column sums over all the nodes: the tiles' sums, joined. -/
theorem acc6_sum_last (c : Dev nD) (d : Fin 64) :
    acc6_sum V c (pt6 (Fin.last 4)) (ix2 (0 : Fin 1) d) = Cert.Spec.colSum (y6 V c) d :=
  (Cert.Spec.accum_fin (fun i => acc6_sum V c (pt6 i) (ix2 (0 : Fin 1) d))
      (fun i => ∑ p : Fin 10000, y6 V c (row6 (pt6 i) p) d)
      (acc6_sum_first V c (pt6 0) rfl d)
      (fun i hi => acc6_sum_later V c (pt6 i) hi d)).trans
    (Cert.Spec.sum_tiles5 fun n => y6 V c n d)

theorem acc6_sumsq_last (c : Dev nD) (d : Fin 64) :
    acc6_sumsq V c (pt6 (Fin.last 4)) (ix2 (0 : Fin 1) d) = Cert.Spec.colSumSq (y6 V c) d :=
  (Cert.Spec.accum_fin (fun i => acc6_sumsq V c (pt6 i) (ix2 (0 : Fin 1) d))
      (fun i => ∑ p : Fin 10000, y6 V c (row6 (pt6 i) p) d * y6 V c (row6 (pt6 i) p) d)
      (acc6_sumsq_first V c (pt6 0) rfl d)
      (fun i hi => acc6_sumsq_later V c (pt6 i) hi d)).trans
    (Cert.Spec.sum_tiles5 fun n => y6 V c n d * y6 V c n d)

/-- A point that writes a row of sums back is the last one. -/
theorem eq_last6 (t : Fin cfg6.N) (h : t.val % 5 = 4) : t = pt6 (Fin.last 4) := by
  have := pt6_lt t
  exact Fin.ext (by show t.val = 4; omega)

/-- The one write-back of the row of sums writes the whole row: its block is the array. -/
theorem flushed6_sum_eq (c : Dev nD) (t : Fin cfg6.N) (hf : (cfg6.win 5).flush t = true) :
    (dat6 V c).flushed 5 t = ((cfg6.win 5).blk t).view.read (Elt Ideal) (acc6_sum V c (pt6 (Fin.last 4))) := by
  obtain rfl : t = pt6 (Fin.last 4) := eq_last6 t ((flush6_5 t).mp hf)
  obtain ⟨-, -, -, -, -, -, -, -, -, -, erow, ecol, -⟩ := idx_facts6 (pt6 (Fin.last 4))
  funext j
  show acc6_sum V c (pt6 (Fin.last 4)) j = acc6_sum V c (pt6 (Fin.last 4)) (((cfg6.win 5).blk (pt6 (Fin.last 4))).view.emb j)
  refine congrArg (acc6_sum V c (pt6 (Fin.last 4))) (funext fun a => Fin.ext ?_)
  match a with
  | ⟨0, _⟩ => show (j 0).val = win6_5.index _ (0 : Fin 2) * 1 + 1 * (j 0).val; rw [erow]; omega
  | ⟨1, _⟩ => show (j 1).val = win6_5.index _ (1 : Fin 2) * 64 + 1 * (j 1).val; rw [ecol]; omega

theorem flushed6_sumsq_eq (c : Dev nD) (t : Fin cfg6.N) (hf : (cfg6.win 6).flush t = true) :
    (dat6 V c).flushed 6 t = ((cfg6.win 6).blk t).view.read (Elt Ideal) (acc6_sumsq V c (pt6 (Fin.last 4))) := by
  obtain rfl : t = pt6 (Fin.last 4) := eq_last6 t ((flush6_6 t).mp hf)
  obtain ⟨-, -, -, -, -, -, -, -, -, -, -, -, erow, ecol⟩ := idx_facts6 (pt6 (Fin.last 4))
  funext j
  show acc6_sumsq V c (pt6 (Fin.last 4)) j = acc6_sumsq V c (pt6 (Fin.last 4)) (((cfg6.win 6).blk (pt6 (Fin.last 4))).view.emb j)
  refine congrArg (acc6_sumsq V c (pt6 (Fin.last 4))) (funext fun a => Fin.ext ?_)
  match a with
  | ⟨0, _⟩ => show (j 0).val = win6_6.index _ (0 : Fin 2) * 1 + 1 * (j 0).val; rw [erow]; omega
  | ⟨1, _⟩ => show (j 1).val = win6_6.index _ (1 : Fin 2) * 64 + 1 * (j 1).val; rw [ecol]; omega

theorem mem_blk6_sum (t : Fin cfg6.N) (i : S1x64.Idx) :
    i ∈ ((cfg6.win 5).blk t).view.set ↔ ∀ a : Fin 2, win6_5.index t a * S1x64.size a ≤ (i a).val ∧ (i a).val < win6_5.index t a * S1x64.size a + S1x64.size a := by
  show i ∈ ((View.whole (Pipeline.arrRef spec6 5)).slice (win6_5.rect t)).set ↔ _
  rw [View.set_slice_whole, Rect.mem_set_unit]
  exact Iff.rfl

theorem mem_blk6_sumsq (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole (Pipeline.arrRef spec6 6)).slice (win6_6.rect t)).set ↔ _
  rw [View.set_slice_whole, Rect.mem_set_unit]
  exact Iff.rfl

/-- THE SECOND OUTPUT after the region: what the row of sums held after the last point. -/
theorem final6_sum (c : Dev nD) : (dat6 V c).arrAt 5 cfg6.N = acc6_sum V c (pt6 (Fin.last 4)) :=
  (dat6 V c).arrAt_eq_of_cover 5 (acc6_sum V c (pt6 (Fin.last 4))) (flushed6_sum_eq V c) fun i => by
    have hu : (i 0).val < 1 := (i 0).isLt
    have hd : (i 1).val < 64 := (i 1).isLt
    refine ⟨pt6 (Fin.last 4), (flush6_5 _).mpr rfl, ?_⟩
    obtain ⟨-, -, -, -, -, -, -, -, -, -, erow, ecol, -⟩ := idx_facts6 (pt6 (Fin.last 4))
    rw [mem_blk6_sum]
    intro a
    match a with
    | ⟨0, _⟩ =>
      show win6_5.index _ (0 : Fin 2) * 1 ≤ (i 0).val ∧ (i 0).val < win6_5.index _ (0 : Fin 2) * 1 + 1
      rw [erow]; omega
    | ⟨1, _⟩ =>
      show win6_5.index _ (1 : Fin 2) * 64 ≤ (i 1).val ∧ (i 1).val < win6_5.index _ (1 : Fin 2) * 64 + 64
      rw [ecol]; omega

/-- THE THIRD OUTPUT after the region: what the row of sums of squares held after the last point. -/
theorem final6_sumsq (c : Dev nD) : (dat6 V c).arrAt 6 cfg6.N = acc6_sumsq V c (pt6 (Fin.last 4)) :=
  (dat6 V c).arrAt_eq_of_cover 6 (acc6_sumsq V c (pt6 (Fin.last 4))) (flushed6_sumsq_eq V c) fun i => by
    have hu : (i 0).val < 1 := (i 0).isLt
    have hd : (i 1).val < 64 := (i 1).isLt
    refine ⟨pt6 (Fin.last 4), (flush6_6 _).mpr rfl, ?_⟩
    obtain ⟨-, -, -, -, -, -, -, -, -, -, -, -, erow, ecol⟩ := idx_facts6 (pt6 (Fin.last 4))
    rw [mem_blk6_sumsq]
    intro a
    match a with
    | ⟨0, _⟩ =>
      show win6_6.index _ (0 : Fin 2) * 1 ≤ (i 0).val ∧ (i 0).val < win6_6.index _ (0 : Fin 2) * 1 + 1
      rw [erow]; omega
    | ⟨1, _⟩ =>
      show win6_6.index _ (1 : Fin 2) * 64 ≤ (i 1).val ∧ (i 1).val < win6_6.index _ (1 : Fin 2) * 64 + 64
      rw [ecol]; omega

/-! ## The region's value -/

/-- After the region: the first output holds the linear map of the summed inputs, the second its column sums over the
    nodes, the third its column sums of squares. -/
theorem region6_value (c : Dev nD)
    (H A : S50000x64.Idx → EReal) (W : S64x64.Idx → EReal) (B : S1x64.Idx → EReal)
    (hH : (V c (Pipeline.arrRef spec6 0) : S50000x64.Idx → EReal) = H)
    (hA : (V c (Pipeline.arrRef spec6 1) : S50000x64.Idx → EReal) = A)
    (hW : (V c (Pipeline.arrRef spec6 2) : S64x64.Idx → EReal) = W)
    (hB : (V c (Pipeline.arrRef spec6 3) : S1x64.Idx → EReal) = B) :
    (∀ (n : Fin 50000) (d : Fin 64), ((dat6 V c).arrAt 4 cfg6.N : S50000x64.Idx → EReal) (ix2 n d) = lin6 H A W B n d)
    ∧ (∀ d : Fin 64, ((dat6 V c).arrAt 5 cfg6.N : S1x64.Idx → EReal) (ix2 (0 : Fin 1) d) = Cert.Spec.colSum (lin6 H A W B) d)
    ∧ (∀ d : Fin 64, ((dat6 V c).arrAt 6 cfg6.N : S1x64.Idx → EReal) (ix2 (0 : Fin 1) d) = Cert.Spec.colSumSq (lin6 H A W B) d) := by
  subst hH hA hW hB
  refine ⟨fun n d => ?_, fun d => ?_, fun d => ?_⟩
  · exact congrFun (final6_lin V c) (ix2 n d)
  · exact (congrFun (final6_sum V c) (ix2 (0 : Fin 1) d)).trans (acc6_sum_last V c d)
  · exact (congrFun (final6_sumsq V c) (ix2 (0 : Fin 1) d)).trans (acc6_sumsq_last V c d)

end Cert.KernelIdeal.Gen

end
-- ==== Proof.KernelIdeal.Region7Value.Payloads.lean ====
/-
  The arithmetic of one grid point of the kernel that normalises, clips, applies the second linear map and
  keeps column statistics, read at one entry over the extended reals.

  At a point the kernel holds a tile of 10000 rows of the first linear map's result, the rows of column means,
  variances, gamma and beta, the 64 × 64 weights and the bias row. It stores the tile of the second linear
  map: at row `r`, column `d`, the sum over the 64 features `k` of
  `max ((z r k - mean k) * rsqrt (var k + eps) * gamma k + beta k) 0 * W k d`, plus `bias d`; a change of float
  format is the identity here and the matrix unit's product into a zero accumulator is the plain contraction. It
  also stores two rows of running totals: what the row held before plus the column sums of the tile it just
  computed, and the same with the squares of the tile's entries. At the first point the two rows are first set
  to zero.
-/
import proofs.«428437_j36421322670670_1_alg».proof.Proof.Gen.KernelIdeal.Skeleton
import proofs.«428437_j36421322670670_1_alg».proof.Proof.Spec
import proofs.«428437_j36421322670670_1_alg».proof.Proof.SpecTiles
import proofs.«428437_j36421322670670_1_alg».proof.Proof.LibPlainDot
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Gen

open Idealize.ShloMosaic Idealize.ShloMosaic.ValueIdx

/-- The reset of the running column sums stores zeros. -/
theorem pval7_3 (d : Fin 64) : (k7_pay3 (F := Ideal)) (ix2 (0 : Fin 1) d) = 0 := by
  unfold k7_pay3
  exact Cert.Spec.ofBits_zero

/-- The reset of the running column sums of squares stores zeros. -/
theorem pval7_4 (d : Fin 64) : (k7_pay4 (F := Ideal)) (ix2 (0 : Fin 1) d) = 0 := by
  unfold k7_pay4
  exact Cert.Spec.ofBits_zero

/-- Summing a tile over its rows: the row inserted into a column index is the entry (row, column). -/
theorem lift7_row (j : S64.Idx) (r : Fin 10000) : reduces_S10000x64_S64.lift j r = ix2 r (j 0) :=
  funext fun a => Fin.ext (match a with | ⟨0, _⟩ => rfl | ⟨1, _⟩ => rfl)

/-- The running column sums after a tile: what they held plus the tile's column sums. -/
theorem pval7_1 (v34 : FVec Ideal S10000x64 .f32) (v36 : Vec Ideal S1x64 .f32) (d : Fin 64) :
    k7_pay1 v34 v36 (ix2 (0 : Fin 1) d) = v36 (ix2 (0 : Fin 1) d) + ∑ r : Fin 10000, v34 (ix2 r d) := by
  unfold k7_pay1
  refine (addf_apply _ _ _).trans ?_
  refine congrArg₂ (· + ·) (congrFun (shapeCast_self v36 _) _) ?_
  refine (shapeCast_a_1a_apply _ shapeCasts_S64_S1x64 0 d).trans ?_
  refine (Ideal.multiReduction_add_single v34 0x00000000#32 reduces_S10000x64_S64 _ _ _).trans ?_
  exact Finset.sum_congr rfl fun r _ => congrArg v34 (lift7_row _ r)

/-- The running column sums of squares after a tile: what they held plus the tile's column sums of squares. -/
theorem pval7_2 (v34 : FVec Ideal S10000x64 .f32) (v42 : Vec Ideal S1x64 .f32) (d : Fin 64) :
    k7_pay2 v34 v42 (ix2 (0 : Fin 1) d)
      = v42 (ix2 (0 : Fin 1) d) + ∑ r : Fin 10000, v34 (ix2 r d) * v34 (ix2 r d) := by
  unfold k7_pay2
  refine (addf_apply _ _ _).trans ?_
  refine congrArg₂ (· + ·) (congrFun (shapeCast_self v42 _) _) ?_
  refine (shapeCast_a_1a_apply _ shapeCasts_S64_S1x64 0 d).trans ?_
  refine (Ideal.multiReduction_add_single (mulf v34 v34) 0x00000000#32 reduces_S10000x64_S64 _ _ _).trans ?_
  exact Finset.sum_congr rfl fun r _ => congrArg (fun i => v34 i * v34 i) (lift7_row _ r)

/-- The tile of the second linear map at row `r`, column `d`: the row is normalised by the mean and the
    variance rows (subtract the mean, scale by the reciprocal root of the variance plus the offset, scale by
    gamma, shift by beta), clipped below at zero, contracted with the weight column, and the bias is added. -/
theorem pval7_5 (v3 : Vec Ideal S10000x64 .f32) (v5 v10 v16 v20 : Vec Ideal S1x64 .f32) (v27 : Vec Ideal S64x64 .f32)
    (v31 : Vec Ideal S1x64 .f32) (r : Fin 10000) (d : Fin 64) :
    k7_pay5 v3 v5 v10 v16 v20 v27 v31 (ix2 r d)
      = (∑ k : Fin 64,
          max ((v3 (ix2 r k) - v10 (ix2 (0 : Fin 1) k)) * Ideal.rsqrt (v5 (ix2 (0 : Fin 1) k) + Cert.Spec.eps)
                * v16 (ix2 (0 : Fin 1) k) + v20 (ix2 (0 : Fin 1) k)) 0 * v27 (ix2 k d))
        + v31 (ix2 (0 : Fin 1) d) := by
  unfold k7_pay5
  refine (addf_apply _ _ _).trans ?_
  refine congrArg₂ (· + ·) ?_ ?_
  · refine (Cert.LibPlainDot.matmul_plain_zero (M := 10000) (K := 64) (N := 64) none _ _ (ix2 r d)).trans ?_
    refine Finset.sum_congr rfl fun k _ => congrArg₂ (· * ·) ?_ ?_
    · refine (truncf_apply (φ := .f32) (ψ := .bf16) _ bitsLt_bf16_f32 _).trans ((maximumf_apply (φ := .f32) _ _ _).trans ?_)
      refine congrArg₂ max ?_ Cert.Spec.ofBits_zero
      refine (addf_apply _ _ _).trans (congrArg₂ (· + ·) ?_ ?_)
      · refine (mulf_apply _ _ _).trans (congrArg₂ (· * ·) ?_ ?_)
        · refine (mulf_apply _ _ _).trans (congrArg₂ (· * ·) ?_ ?_)
          · refine (subf_apply _ _ _).trans (congrArg₂ (· - ·) ?_ ?_)
            · exact congrFun (shapeCast_self v3 _) _
            · exact (broadcastTo_1b_ab_apply _ _ r k).trans (congrFun (shapeCast_self v10 _) _)
          · refine (broadcastTo_1b_ab_apply _ _ r k).trans ?_
            exact congrArg Ideal.rsqrt (congrArg₂ (· + ·) (congrFun (shapeCast_self v5 _) _) rfl)
        · exact (broadcastTo_1b_ab_apply _ _ r k).trans (congrFun (shapeCast_self v16 _) _)
      · exact (broadcastTo_1b_ab_apply _ _ r k).trans (congrFun (shapeCast_self v20 _) _)
    · exact (truncf_apply (φ := .f32) (ψ := .bf16) _ bitsLt_bf16_f32 _).trans (congrFun (shapeCast_self v27 _) _)
  · exact (broadcastTo_1b_ab_apply _ _ r d).trans (congrFun (shapeCast_self v31 _) _)

end Cert.KernelIdeal.Gen

end
-- ==== Proof.KernelIdeal.Region7Value.lean ====
/-
  What the kernel that normalises, clips, applies the second linear map and keeps column statistics leaves in
  its three output arrays, over the extended reals.

  The 50000 nodes are walked in five tiles of 10000 rows. At a tile the rows of the first linear map's result
  are normalised by the column means and variances (subtract the mean, scale by the reciprocal root of the
  variance plus a small offset, scale by gamma, shift by beta), clipped below at zero, and sent through the
  second linear map with its bias; the tile of results is written to the output rows. Two one-row arrays keep
  running totals over the tiles: the column sums of the results and the column sums of their squares; they are
  set to zero at the first tile, each tile adds its own column sums to what the tile before left, and the rows
  are written out once, after the last tile.

  Every operation is exact over the extended reals, so: the output rows hold `lin (normRelu y mu var g bt) W b`
  entry by entry (row `n` is written by tile `n / 10000`, and the five tiles cover the array); and a total that
  starts at the first tile's sum and grows by one tile's sum per tile ends at the sum over all the nodes, a sum
  over 50000 rows being the sum over the five tiles of the sums over each tile's 10000 rows.
-/
import proofs.«428437_j36421322670670_1_alg».proof.Proof.KernelIdeal.Region7
import proofs.«428437_j36421322670670_1_alg».proof.Proof.KernelIdeal.Region7Value.Payloads
import proofs.«428437_j36421322670670_1_alg».proof.Proof.Spec
import proofs.«428437_j36421322670670_1_alg».proof.Proof.SpecTiles
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays the region finds, by coordinates -/

/-- The first linear map's result, one row of 64 per node. -/
abbrev in7_0 (c : Dev nD) : Cert.Spec.Act :=
  fun n k => (V c (Pipeline.arrRef spec7 0) : S50000x64.Idx → EReal) (ix2 n k)
/-- The column means. -/
abbrev in7_1 (c : Dev nD) : Cert.Spec.Row := fun d => (V c (Pipeline.arrRef spec7 1) : S1x64.Idx → EReal) (ix2 (0 : Fin 1) d)
/-- The column variances. -/
abbrev in7_2 (c : Dev nD) : Cert.Spec.Row := fun d => (V c (Pipeline.arrRef spec7 2) : S1x64.Idx → EReal) (ix2 (0 : Fin 1) d)
/-- The scale, gamma. -/
abbrev in7_3 (c : Dev nD) : Cert.Spec.Row := fun d => (V c (Pipeline.arrRef spec7 3) : S1x64.Idx → EReal) (ix2 (0 : Fin 1) d)
/-- The shift, beta. -/
abbrev in7_4 (c : Dev nD) : Cert.Spec.Row := fun d => (V c (Pipeline.arrRef spec7 4) : S1x64.Idx → EReal) (ix2 (0 : Fin 1) d)
/-- The second linear map's weights, row index the input feature. -/
abbrev in7_5 (c : Dev nD) : Cert.Spec.Mat := fun k d => (V c (Pipeline.arrRef spec7 5) : S64x64.Idx → EReal) (ix2 k d)
/-- The second linear map's bias. -/
abbrev in7_6 (c : Dev nD) : Cert.Spec.Row := fun d => (V c (Pipeline.arrRef spec7 6) : S1x64.Idx → EReal) (ix2 (0 : Fin 1) d)

/-- What the region computes: normalise and clip the first map's result, then apply the second linear map. -/
abbrev out7_y (c : Dev nD) : Cert.Spec.Act :=
  Cert.Spec.lin (Cert.Spec.normRelu (in7_0 V c) (in7_1 V c) (in7_2 V c) (in7_3 V c) (in7_4 V c)) (in7_5 V c) (in7_6 V c)

/-! ## Which block each point reads and writes

The grid has five points. The node-indexed arrays (the input rows and the output rows) move one tile of
10000 rows per point; every other array is one block, the same at every point. -/

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = t.val ∧ win7_7.index t (1 : Fin 2) = 0 :=
  (by decide +kernel : ∀ t : Fin grid7.N, _)
theorem idx7_8 : ∀ t : Fin cfg7.N, win7_8.index t (0 : Fin 2) = 0 ∧ win7_8.index t (1 : Fin 2) = 0 :=
  (by decide +kernel : ∀ t : Fin grid7.N, _)
theorem idx7_9 : ∀ t : Fin cfg7.N, win7_9.index t (0 : Fin 2) = 0 ∧ win7_9.index t (1 : Fin 2) = 0 :=
  (by decide +kernel : ∀ t : Fin grid7.N, _)

/-- Row `r` of tile `t` is a node. -/
theorem row7_lt (t : Fin cfg7.N) (r : Fin 10000) : 10000 * t.val + r.val < 50000 := by
  have := t.isLt
  have hN : cfg7.N = 5 := N_7
  omega

/-- An entry of the input tile at point `t` is the array's entry at row `10000 t + r`. -/
theorem rd7_0 (c : Dev nD) (t : Fin cfg7.N) (r : Fin 10000) (k : Fin 64) :
    (iblk7 V c 0 t : Vec Ideal S10000x64 .f32) (ix2 r k) = in7_0 V c ⟨10000 * t.val + r.val, row7_lt t r⟩ k := by
  show (V c (Pipeline.arrRef spec7 0) : S50000x64.Idx → EReal) (((cfg7.win 0).blk t).view.emb (ix2 r k))
    = (V c (Pipeline.arrRef spec7 0) : S50000x64.Idx → EReal) (ix2 ⟨10000 * t.val + r.val, row7_lt t r⟩ k)
  refine congrArg _ (funext fun a => Fin.ext ?_)
  match a with
  | ⟨0, _⟩ => show win7_0.index t (0 : Fin 2) * 10000 + 1 * r.val = 10000 * t.val + r.val; rw [(idx7_0 t).1]; omega
  | ⟨1, _⟩ => show win7_0.index t (1 : Fin 2) * 64 + 1 * k.val = k.val; rw [(idx7_0 t).2]; omega

/-- The mean row as every point reads it: the whole one-row array. -/
theorem rd7_1 (c : Dev nD) (t : Fin cfg7.N) (k : Fin 64) :
    (iblk7 V c 1 t : Vec Ideal S1x64 .f32) (ix2 (0 : Fin 1) k) = in7_1 V c k := by
  show (V c (Pipeline.arrRef spec7 1) : S1x64.Idx → EReal) (((cfg7.win 1).blk t).view.emb (ix2 (0 : Fin 1) k))
    = (V c (Pipeline.arrRef spec7 1) : S1x64.Idx → EReal) (ix2 (0 : Fin 1) k)
  refine congrArg _ (funext fun a => Fin.ext ?_)
  match a with
  | ⟨0, _⟩ => show win7_1.index t (0 : Fin 2) * 1 + 1 * 0 = 0; rw [(idx7_1 t).1]
  | ⟨1, _⟩ => show win7_1.index t (1 : Fin 2) * 64 + 1 * k.val = k.val; rw [(idx7_1 t).2]; omega

/-- The variance row as every point reads it: the whole one-row array. -/
theorem rd7_2 (c : Dev nD) (t : Fin cfg7.N) (k : Fin 64) :
    (iblk7 V c 2 t : Vec Ideal S1x64 .f32) (ix2 (0 : Fin 1) k) = in7_2 V c k := by
  show (V c (Pipeline.arrRef spec7 2) : S1x64.Idx → EReal) (((cfg7.win 2).blk t).view.emb (ix2 (0 : Fin 1) k))
    = (V c (Pipeline.arrRef spec7 2) : S1x64.Idx → EReal) (ix2 (0 : Fin 1) k)
  refine congrArg _ (funext fun a => Fin.ext ?_)
  match a with
  | ⟨0, _⟩ => show win7_2.index t (0 : Fin 2) * 1 + 1 * 0 = 0; rw [(idx7_2 t).1]
  | ⟨1, _⟩ => show win7_2.index t (1 : Fin 2) * 64 + 1 * k.val = k.val; rw [(idx7_2 t).2]; omega

/-- The gamma row as every point reads it: the whole one-row array. -/
theorem rd7_3 (c : Dev nD) (t : Fin cfg7.N) (k : Fin 64) :
    (iblk7 V c 3 t : Vec Ideal S1x64 .f32) (ix2 (0 : Fin 1) k) = in7_3 V c k := by
  show (V c (Pipeline.arrRef spec7 3) : S1x64.Idx → EReal) (((cfg7.win 3).blk t).view.emb (ix2 (0 : Fin 1) k))
    = (V c (Pipeline.arrRef spec7 3) : S1x64.Idx → EReal) (ix2 (0 : Fin 1) k)
  refine congrArg _ (funext fun a => Fin.ext ?_)
  match a with
  | ⟨0, _⟩ => show win7_3.index t (0 : Fin 2) * 1 + 1 * 0 = 0; rw [(idx7_3 t).1]
  | ⟨1, _⟩ => show win7_3.index t (1 : Fin 2) * 64 + 1 * k.val = k.val; rw [(idx7_3 t).2]; omega

/-- The beta row as every point reads it: the whole one-row array. -/
theorem rd7_4 (c : Dev nD) (t : Fin cfg7.N) (k : Fin 64) :
    (iblk7 V c 4 t : Vec Ideal S1x64 .f32) (ix2 (0 : Fin 1) k) = in7_4 V c k := by
  show (V c (Pipeline.arrRef spec7 4) : S1x64.Idx → EReal) (((cfg7.win 4).blk t).view.emb (ix2 (0 : Fin 1) k))
    = (V c (Pipeline.arrRef spec7 4) : S1x64.Idx → EReal) (ix2 (0 : Fin 1) k)
  refine congrArg _ (funext fun a => Fin.ext ?_)
  match a with
  | ⟨0, _⟩ => show win7_4.index t (0 : Fin 2) * 1 + 1 * 0 = 0; rw [(idx7_4 t).1]
  | ⟨1, _⟩ => show win7_4.index t (1 : Fin 2) * 64 + 1 * k.val = k.val; rw [(idx7_4 t).2]; omega

/-- The weights as every point reads them: the whole matrix. -/
theorem rd7_5 (c : Dev nD) (t : Fin cfg7.N) (k d : Fin 64) :
    (iblk7 V c 5 t : Vec Ideal S64x64 .f32) (ix2 k d) = in7_5 V c k d := by
  show (V c (Pipeline.arrRef spec7 5) : S64x64.Idx → EReal) (((cfg7.win 5).blk t).view.emb (ix2 k d))
    = (V c (Pipeline.arrRef spec7 5) : S64x64.Idx → EReal) (ix2 k d)
  refine congrArg _ (funext fun a => Fin.ext ?_)
  match a with
  | ⟨0, _⟩ => show win7_5.index t (0 : Fin 2) * 64 + 1 * k.val = k.val; rw [(idx7_5 t).1]; omega
  | ⟨1, _⟩ => show win7_5.index t (1 : Fin 2) * 64 + 1 * d.val = d.val; rw [(idx7_5 t).2]; omega

/-- The bias row as every point reads it: the whole one-row array. -/
theorem rd7_6 (c : Dev nD) (t : Fin cfg7.N) (k : Fin 64) :
    (iblk7 V c 6 t : Vec Ideal S1x64 .f32) (ix2 (0 : Fin 1) k) = in7_6 V c k := by
  show (V c (Pipeline.arrRef spec7 6) : S1x64.Idx → EReal) (((cfg7.win 6).blk t).view.emb (ix2 (0 : Fin 1) k))
    = (V c (Pipeline.arrRef spec7 6) : S1x64.Idx → EReal) (ix2 (0 : Fin 1) k)
  refine congrArg _ (funext fun a => Fin.ext ?_)
  match a with
  | ⟨0, _⟩ => show win7_6.index t (0 : Fin 2) * 1 + 1 * 0 = 0; rw [(idx7_6 t).1]
  | ⟨1, _⟩ => show win7_6.index t (1 : Fin 2) * 64 + 1 * k.val = k.val; rw [(idx7_6 t).2]; omega

/-! ## What a point computes -/

/-- The tile a point stores: rows `10000 t + r` of the region's result. -/
theorem tile7_val (c : Dev nD) (t : Fin cfg7.N) (r : Fin 10000) (d : Fin 64) :
    k7_pay5 (iblk7 V c 0 t) (iblk7 V c 2 t) (iblk7 V c 1 t) (iblk7 V c 3 t) (iblk7 V c 4 t) (iblk7 V c 5 t) (iblk7 V c 6 t) (ix2 r d)
      = out7_y V c ⟨10000 * t.val + r.val, row7_lt t r⟩ d := by
  refine (pval7_5 (iblk7 V c 0 t) (iblk7 V c 2 t) (iblk7 V c 1 t) (iblk7 V c 3 t) (iblk7 V c 4 t) (iblk7 V c 5 t) (iblk7 V c 6 t) r d).trans ?_
  refine congrArg₂ (· + ·) (Finset.sum_congr rfl fun k _ => ?_) (rd7_6 V c t d)
  exact congrArg₂ (· * ·)
    (congrArg₂ max
      (congrArg₂ (· + ·)
        (congrArg₂ (· * ·)
          (congrArg₂ (· * ·) (congrArg₂ (· - ·) (rd7_0 V c t r k) (rd7_1 V c t k))
            (congrArg (fun x => Ideal.rsqrt (x + Cert.Spec.eps)) (rd7_2 V c t k)))
          (rd7_3 V c t k))
        (rd7_4 V c t k))
      rfl)
    (rd7_5 V c t k d)

/-! ## The output rows: every point writes its tile back -/

/-- The region's result laid out as the output array. -/
abbrev gout7_7 (c : Dev nD) : S50000x64.Idx → EReal := fun i => out7_y V c (i 0) (i 1)

/-- What point `t` writes back is tile `t` of the region's result. -/
theorem flushed7_7 (c : Dev nD) (t : Fin cfg7.N) :
    (dat7 V c).flushed 7 t = ((cfg7.win 7).blk t).view.read (Elt Ideal) (gout7_7 V c) := by
  show (cfg7.win 7).cut (grid7.coords t) ((dat7 V c).after 7 t) = _
  rw [after7_7 V c t]
  funext j
  obtain ⟨r, d, rfl⟩ : ∃ (r : Fin 10000) (d : Fin 64), j = ix2 r d := ⟨j 0, j 1, eq_ix2 j⟩
  refine (tile7_val V c t r d).trans ?_
  show _ = out7_y V c ((((cfg7.win 7).blk t).view.emb (ix2 r d)) 0) ((((cfg7.win 7).blk t).view.emb (ix2 r d)) 1)
  refine congrArg₂ (out7_y V c) (Fin.ext ?_) (Fin.ext ?_)
  · show 10000 * t.val + r.val = win7_7.index t (0 : Fin 2) * 10000 + 1 * r.val
    rw [(idx7_7 t).1]; omega
  · show d.val = win7_7.index t (1 : Fin 2) * 64 + 1 * d.val
    rw [(idx7_7 t).2]; omega

/-- An entry lies in the tile of point `t` when each of its coordinates lies in the tile's range. -/
theorem mem7_7 (t : Fin cfg7.N) (i : S50000x64.Idx) :
    i ∈ ((cfg7.win 7).blk t).view.set ↔ ∀ a : Fin 2, win7_7.index t a * S10000x64.size a ≤ (i a).val
      ∧ (i a).val < win7_7.index t a * S10000x64.size a + S10000x64.size a := by
  show i ∈ ((View.whole (Pipeline.arrRef spec7 7)).slice (win7_7.rect t)).set ↔ _
  rw [View.set_slice_whole, Rect.mem_set_unit]
  exact Iff.rfl

/-- Row `n` lies in the tile of point `n / 10000`: the five tiles cover the array. -/
theorem cover7_7 (i : S50000x64.Idx) :
    ∃ t : Fin cfg7.N, (cfg7.win 7).flush t = true ∧ i ∈ ((cfg7.win 7).blk t).view.set := by
  have hN : cfg7.N = 5 := N_7
  have hn : (i 0).val < 50000 := (i 0).isLt
  have hd : (i 1).val < 64 := (i 1).isLt
  have ht : (i 0).val / 10000 < cfg7.N := by omega
  refine ⟨⟨(i 0).val / 10000, ht⟩, flush7_7 _, ?_⟩
  rw [mem7_7]
  intro a
  match a with
  | ⟨0, _⟩ =>
    show win7_7.index ⟨(i 0).val / 10000, ht⟩ (0 : Fin 2) * 10000 ≤ (i 0).val
      ∧ (i 0).val < win7_7.index ⟨(i 0).val / 10000, ht⟩ (0 : Fin 2) * 10000 + 10000
    rw [(idx7_7 _).1]
    show (i 0).val / 10000 * 10000 ≤ (i 0).val ∧ (i 0).val < (i 0).val / 10000 * 10000 + 10000
    omega
  | ⟨1, _⟩ =>
    show win7_7.index ⟨(i 0).val / 10000, ht⟩ (1 : Fin 2) * 64 ≤ (i 1).val
      ∧ (i 1).val < win7_7.index ⟨(i 0).val / 10000, ht⟩ (1 : Fin 2) * 64 + 64
    rw [(idx7_7 _).2]; omega

/-- So the output rows end holding the region's result. -/
theorem final7_7 (c : Dev nD) : (dat7 V c).arrAt 7 cfg7.N = gout7_7 V c :=
  (dat7 V c).arrAt_eq_of_cover 7 (gout7_7 V c) (fun t _ => flushed7_7 V c t) fun i => cover7_7 i

/-! ## The column totals: one block, carried from point to point, written back at the end

The first point resets the totals to zero and adds its tile's column sums; every later point adds its
own to what the point before left. After the fifth point the totals are the sums over all the nodes. -/

/-- A total that starts at the first tile's sum and grows by one tile's sum per point is, after the
    fifth point, the sum over all 50000 nodes. -/
theorem run7_total (a : Fin cfg7.N → EReal) (f : Fin 50000 → EReal)
    (hfirst : ∀ t : Fin cfg7.N, t.val = 0 → a t = 0 + ∑ r : Fin 10000, f ⟨10000 * t.val + r.val, row7_lt t r⟩)
    (hlater : ∀ (t : Fin cfg7.N) (h : t.val ≠ 0),
      a t = a ⟨t.val - 1, by omega⟩ + ∑ r : Fin 10000, f ⟨10000 * t.val + r.val, row7_lt t r⟩)
    (t : Fin cfg7.N) (ht : t.val = 4) : a t = ∑ n : Fin 50000, f n := by
  have hN : cfg7.N = 5 := N_7
  have key := Cert.Spec.accum_fin (N := 4) (fun s => a ⟨s.val, by omega⟩)
    (fun s => ∑ r : Fin 10000, f ⟨10000 * s.val + r.val, by omega⟩)
    (hfirst ⟨0, by omega⟩ rfl) (fun s hs => hlater ⟨s.val, by omega⟩ hs)
  rw [show t = ⟨(Fin.last 4).val, by omega⟩ from Fin.ext ht]
  exact key.trans (Cert.Spec.sum_tiles5 f)

/-- The running column sums after the last point: the column sums of the region's result. -/
theorem acc7_8 (c : Dev nD) (d : Fin 64) (t : Fin cfg7.N) (ht : t.val = 4) :
    ((dat7 V c).after 8 t : Vec Ideal S1x64 .f32) (ix2 (0 : Fin 1) d) = Cert.Spec.colSum (out7_y V c) d := by
  refine run7_total (fun s => ((dat7 V c).after 8 s : Vec Ideal S1x64 .f32) (ix2 (0 : Fin 1) d))
    (fun n => out7_y V c n d) ?_ ?_ t ht
  · intro s hs
    show ((dat7 V c).after 8 s : Vec Ideal S1x64 .f32) (ix2 (0 : Fin 1) d) = _
    rw [after7_8_first V c s hs]
    refine (pval7_1 (k7_pay5 (iblk7 V c 0 s) (iblk7 V c 2 s) (iblk7 V c 1 s) (iblk7 V c 3 s) (iblk7 V c 4 s) (iblk7 V c 5 s) (iblk7 V c 6 s)) (k7_pay3 (F := Ideal)) d).trans ?_
    exact congrArg₂ (· + ·) (pval7_3 d) (Finset.sum_congr rfl fun r _ => tile7_val V c s r d)
  · intro s hs
    show ((dat7 V c).after 8 s : Vec Ideal S1x64 .f32) (ix2 (0 : Fin 1) d) = _
    rw [after7_8_later V c s hs]
    refine (pval7_1 (k7_pay5 (iblk7 V c 0 s) (iblk7 V c 2 s) (iblk7 V c 1 s) (iblk7 V c 3 s) (iblk7 V c 4 s) (iblk7 V c 5 s) (iblk7 V c 6 s)) ((dat7 V c).after 8 ⟨s.val - 1, by omega⟩) d).trans ?_
    exact congrArg₂ (· + ·) rfl (Finset.sum_congr rfl fun r _ => tile7_val V c s r d)

/-- The running column sums of squares after the last point: those of the region's result. -/
theorem acc7_9 (c : Dev nD) (d : Fin 64) (t : Fin cfg7.N) (ht : t.val = 4) :
    ((dat7 V c).after 9 t : Vec Ideal S1x64 .f32) (ix2 (0 : Fin 1) d) = Cert.Spec.colSumSq (out7_y V c) d := by
  refine run7_total (fun s => ((dat7 V c).after 9 s : Vec Ideal S1x64 .f32) (ix2 (0 : Fin 1) d))
    (fun n => out7_y V c n d * out7_y V c n d) ?_ ?_ t ht
  · intro s hs
    show ((dat7 V c).after 9 s : Vec Ideal S1x64 .f32) (ix2 (0 : Fin 1) d) = _
    rw [after7_9_first V c s hs]
    refine (pval7_2 (k7_pay5 (iblk7 V c 0 s) (iblk7 V c 2 s) (iblk7 V c 1 s) (iblk7 V c 3 s) (iblk7 V c 4 s) (iblk7 V c 5 s) (iblk7 V c 6 s)) (k7_pay4 (F := Ideal)) d).trans ?_
    exact congrArg₂ (· + ·) (pval7_4 d) (Finset.sum_congr rfl fun r _ => congrArg₂ (· * ·) (tile7_val V c s r d) (tile7_val V c s r d))
  · intro s hs
    show ((dat7 V c).after 9 s : Vec Ideal S1x64 .f32) (ix2 (0 : Fin 1) d) = _
    rw [after7_9_later V c s hs]
    refine (pval7_2 (k7_pay5 (iblk7 V c 0 s) (iblk7 V c 2 s) (iblk7 V c 1 s) (iblk7 V c 3 s) (iblk7 V c 4 s) (iblk7 V c 5 s) (iblk7 V c 6 s)) ((dat7 V c).after 9 ⟨s.val - 1, by omega⟩) d).trans ?_
    exact congrArg₂ (· + ·) rfl (Finset.sum_congr rfl fun r _ => congrArg₂ (· * ·) (tile7_val V c s r d) (tile7_val V c s r d))

/-- The column sums laid out as the one-row output array. -/
abbrev gout7_8 (c : Dev nD) : S1x64.Idx → EReal := fun i => Cert.Spec.colSum (out7_y V c) (i 1)

/-- A one-row array given by its columns, read through the window's one block: the row itself. -/
theorem read7_8 (R : Cert.Spec.Row) (t : Fin cfg7.N) (d : Fin 64) :
    ((cfg7.win 8).blk t).view.read (Elt Ideal) (fun i : S1x64.Idx => R (i 1)) (ix2 (0 : Fin 1) d) = R d := by
  show R ((((cfg7.win 8).blk t).view.emb (ix2 (0 : Fin 1) d)) 1) = _
  refine congrArg R (Fin.ext ?_)
  show win7_8.index t (1 : Fin 2) * 64 + 1 * d.val = d.val
  rw [(idx7_8 t).2]; omega

/-- The last point writes the finished totals back. -/
theorem flushed7_8 (c : Dev nD) (t : Fin cfg7.N) (hf : (cfg7.win 8).flush t = true) :
    (dat7 V c).flushed 8 t = ((cfg7.win 8).blk t).view.read (Elt Ideal) (gout7_8 V c) := by
  have hN : cfg7.N = 5 := N_7
  have ht : t.val = 4 := by have := (flush7_8 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc7_8 V c d t ht).trans (read7_8 (Cert.Spec.colSum (out7_y V c)) t d).symm

/-- An entry lies in the block of point `t` when each of its coordinates lies in the block's range. -/
theorem mem7_8 (t : Fin cfg7.N) (i : S1x64.Idx) :
    i ∈ ((cfg7.win 8).blk t).view.set ↔ ∀ a : Fin 2, win7_8.index t a * S1x64.size a ≤ (i a).val
      ∧ (i a).val < win7_8.index t a * S1x64.size a + S1x64.size a := by
  show i ∈ ((View.whole (Pipeline.arrRef spec7 8)).slice (win7_8.rect t)).set ↔ _
  rw [View.set_slice_whole, Rect.mem_set_unit]
  exact Iff.rfl

/-- The one block of the one-row array is all of it, and the last point writes it. -/
theorem cover7_8 (i : S1x64.Idx) :
    ∃ t : Fin cfg7.N, (cfg7.win 8).flush t = true ∧ i ∈ ((cfg7.win 8).blk t).view.set := by
  have hN : cfg7.N = 5 := N_7
  have hu : (i 0).val < 1 := (i 0).isLt
  have hd : (i 1).val < 64 := (i 1).isLt
  have ht : 4 < cfg7.N := by omega
  refine ⟨⟨4, ht⟩, (flush7_8 _).mpr rfl, ?_⟩
  rw [mem7_8]
  intro a
  match a with
  | ⟨0, _⟩ =>
    show win7_8.index ⟨4, ht⟩ (0 : Fin 2) * 1 ≤ (i 0).val ∧ (i 0).val < win7_8.index ⟨4, ht⟩ (0 : Fin 2) * 1 + 1
    rw [(idx7_8 _).1]; omega
  | ⟨1, _⟩ =>
    show win7_8.index ⟨4, ht⟩ (1 : Fin 2) * 64 ≤ (i 1).val ∧ (i 1).val < win7_8.index ⟨4, ht⟩ (1 : Fin 2) * 64 + 64
    rw [(idx7_8 _).2]; omega

/-- So the array ends holding the column sums. -/
theorem final7_8 (c : Dev nD) : (dat7 V c).arrAt 8 cfg7.N = gout7_8 V c :=
  (dat7 V c).arrAt_eq_of_cover 8 (gout7_8 V c) (flushed7_8 V c) fun i => cover7_8 i

/-- The column sums of squares laid out as the one-row output array. -/
abbrev gout7_9 (c : Dev nD) : S1x64.Idx → EReal := fun i => Cert.Spec.colSumSq (out7_y V c) (i 1)

/-- A one-row array given by its columns, read through the window's one block: the row itself. -/
theorem read7_9 (R : Cert.Spec.Row) (t : Fin cfg7.N) (d : Fin 64) :
    ((cfg7.win 9).blk t).view.read (Elt Ideal) (fun i : S1x64.Idx => R (i 1)) (ix2 (0 : Fin 1) d) = R d := by
  show R ((((cfg7.win 9).blk t).view.emb (ix2 (0 : Fin 1) d)) 1) = _
  refine congrArg R (Fin.ext ?_)
  show win7_9.index t (1 : Fin 2) * 64 + 1 * d.val = d.val
  rw [(idx7_9 t).2]; omega

/-- The last point writes the finished totals back. -/
theorem flushed7_9 (c : Dev nD) (t : Fin cfg7.N) (hf : (cfg7.win 9).flush t = true) :
    (dat7 V c).flushed 9 t = ((cfg7.win 9).blk t).view.read (Elt Ideal) (gout7_9 V c) := by
  have hN : cfg7.N = 5 := N_7
  have ht : t.val = 4 := by have := (flush7_9 t).mp hf; have := t.isLt; omega
  funext j
  obtain ⟨u, d, rfl⟩ : ∃ (u : Fin 1) (d : Fin 64), j = ix2 u d := ⟨j 0, j 1, eq_ix2 j⟩
  obtain rfl : u = 0 := Subsingleton.elim _ _
  exact (acc7_9 V c d t ht).trans (read7_9 (Cert.Spec.colSumSq (out7_y V c)) t d).symm

/-- An entry lies in the block of point `t` when each of its coordinates lies in the block's range. -/
theorem mem7_9 (t : Fin cfg7.N) (i : S1x64.Idx) :
    i ∈ ((cfg7.win 9).blk t).view.set ↔ ∀ a : Fin 2, win7_9.index t a * S1x64.size a ≤ (i a).val
      ∧ (i a).val < win7_9.index t a * S1x64.size a + S1x64.size a := by
  show i ∈ ((View.whole (Pipeline.arrRef spec7 9)).slice (win7_9.rect t)).set ↔ _
  rw [View.set_slice_whole, Rect.mem_set_unit]
  exact Iff.rfl

/-- The one block of the one-row array is all of it, and the last point writes it. -/
theorem cover7_9 (i : S1x64.Idx) :
    ∃ t : Fin cfg7.N, (cfg7.win 9).flush t = true ∧ i ∈ ((cfg7.win 9).blk t).view.set := by
  have hN : cfg7.N = 5 := N_7
  have hu : (i 0).val < 1 := (i 0).isLt
  have hd : (i 1).val < 64 := (i 1).isLt
  have ht : 4 < cfg7.N := by omega
  refine ⟨⟨4, ht⟩, (flush7_9 _).mpr rfl, ?_⟩
  rw [mem7_9]
  intro a
  match a with
  | ⟨0, _⟩ =>
    show win7_9.index ⟨4, ht⟩ (0 : Fin 2) * 1 ≤ (i 0).val ∧ (i 0).val < win7_9.index ⟨4, ht⟩ (0 : Fin 2) * 1 + 1
    rw [(idx7_9 _).1]; omega
  | ⟨1, _⟩ =>
    show win7_9.index ⟨4, ht⟩ (1 : Fin 2) * 64 ≤ (i 1).val ∧ (i 1).val < win7_9.index ⟨4, ht⟩ (1 : Fin 2) * 64 + 64
    rw [(idx7_9 _).2]; omega

/-- So the array ends holding the column sums of squares. -/
theorem final7_9 (c : Dev nD) : (dat7 V c).arrAt 9 cfg7.N = gout7_9 V c :=
  (dat7 V c).arrAt_eq_of_cover 9 (gout7_9 V c) (flushed7_9 V c) fun i => cover7_9 i

/-! ## The region's value -/

set_option maxHeartbeats 1000000 in
/-- The three output arrays after the region, over the arrays it found. -/
theorem region7_value_at (c : Dev nD) :
    (∀ (n : Fin 50000) (d : Fin 64), ((dat7 V c).arrAt 7 cfg7.N : S50000x64.Idx → EReal) (ix2 n d) = out7_y V c n d)
    ∧ (∀ d : Fin 64, ((dat7 V c).arrAt 8 cfg7.N : S1x64.Idx → EReal) (ix2 (0 : Fin 1) d) = Cert.Spec.colSum (out7_y V c) d)
    ∧ (∀ d : Fin 64, ((dat7 V c).arrAt 9 cfg7.N : S1x64.Idx → EReal) (ix2 (0 : Fin 1) d) = Cert.Spec.colSumSq (out7_y V c) d) :=
  ⟨fun n d => congrFun (final7_7 V c) (ix2 n d), fun d => congrFun (final7_8 V c) (ix2 (0 : Fin 1) d),
    fun d => congrFun (final7_9 V c) (ix2 (0 : Fin 1) d)⟩

set_option maxHeartbeats 1000000 in
/-- The same over inputs given entry by entry: whatever functions of coordinates the seven arrays the region
    finds are known to be, the outputs are the second linear map of the normalised, clipped input and its
    column sums and column sums of squares. -/
theorem region7_value (c : Dev nD) (yin : Cert.Spec.Act) (mu var g bt : Cert.Spec.Row) (W : Cert.Spec.Mat) (b : Cert.Spec.Row)
    (hY : ∀ (n : Fin 50000) (k : Fin 64), (V c (Pipeline.arrRef spec7 0) : S50000x64.Idx → EReal) (ix2 n k) = yin n k)
    (hMu : ∀ d : Fin 64, (V c (Pipeline.arrRef spec7 1) : S1x64.Idx → EReal) (ix2 (0 : Fin 1) d) = mu d)
    (hVar : ∀ d : Fin 64, (V c (Pipeline.arrRef spec7 2) : S1x64.Idx → EReal) (ix2 (0 : Fin 1) d) = var d)
    (hG : ∀ d : Fin 64, (V c (Pipeline.arrRef spec7 3) : S1x64.Idx → EReal) (ix2 (0 : Fin 1) d) = g d)
    (hBt : ∀ d : Fin 64, (V c (Pipeline.arrRef spec7 4) : S1x64.Idx → EReal) (ix2 (0 : Fin 1) d) = bt d)
    (hW : ∀ k d : Fin 64, (V c (Pipeline.arrRef spec7 5) : S64x64.Idx → EReal) (ix2 k d) = W k d)
    (hB : ∀ d : Fin 64, (V c (Pipeline.arrRef spec7 6) : S1x64.Idx → EReal) (ix2 (0 : Fin 1) d) = b d) :
    (∀ (n : Fin 50000) (d : Fin 64), ((dat7 V c).arrAt 7 cfg7.N : S50000x64.Idx → EReal) (ix2 n d)
        = Cert.Spec.lin (Cert.Spec.normRelu yin mu var g bt) W b n d)
    ∧ (∀ d : Fin 64, ((dat7 V c).arrAt 8 cfg7.N : S1x64.Idx → EReal) (ix2 (0 : Fin 1) d)
        = Cert.Spec.colSum (Cert.Spec.lin (Cert.Spec.normRelu yin mu var g bt) W b) d)
    ∧ (∀ d : Fin 64, ((dat7 V c).arrAt 9 cfg7.N : S1x64.Idx → EReal) (ix2 (0 : Fin 1) d)
        = Cert.Spec.colSumSq (Cert.Spec.lin (Cert.Spec.normRelu yin mu var g bt) W b) d) := by
  have ey : out7_y V c = Cert.Spec.lin (Cert.Spec.normRelu yin mu var g bt) W b := by
    rw [← (funext fun n => funext fun k => hY n k : in7_0 V c = yin), ← (funext hMu : in7_1 V c = mu),
      ← (funext hVar : in7_2 V c = var), ← (funext hG : in7_3 V c = g), ← (funext hBt : in7_4 V c = bt),
      ← (funext fun k => funext fun d => hW k d : in7_5 V c = W), ← (funext hB : in7_6 V c = b)]
  have key := region7_value_at V c
  rw [ey] at key
  exact key

end Cert.KernelIdeal.Gen

end
-- ==== Proof.KernelIdeal.Region8Value.lean ====
import proofs.«428437_j36421322670670_1_alg».proof.Proof.KernelIdeal.Region8
import proofs.«428437_j36421322670670_1_alg».proof.Proof.Spec
import proofs.«428437_j36421322670670_1_alg».proof.Proof.SpecTiles
import Idealize.ShloMosaic.Lib.ValueIdx
import Idealize.ShloMosaic.Lib.Pipeline.Value
import Idealize.ShloMosaic.Lib.ValueLayout
import Idealize.ShloMosaic.PureOps.Ideal.Laws

/-! The value of the layer's third region — normalise, clip, pool — over the extended reals.

The region reads a table of 50000 rows of 64 entries, a row of column means, a row of column variances, a scale row, a
shift row, and one segment word per table row. It runs at 25 points, each on a tile of 2000 rows. At every point it
normalises the tile's entries by the mean and variance of their columns, scales, shifts and clips them below at zero,
and writes the tile back to its place in the first output; it also adds, into a block of 512 rows of 64 that starts
at zero, every row of the normalised tile to the block row numbered by that row's segment word — a product of the tile
with the indicator matrix of "row r belongs to segment g" — and writes the block back once, after the last point. So
the first output ends holding the normalised, clipped table, and the second, entry by entry, the sum of that table's
column over the rows of one segment: a sum over 25 tiles of sums over 2000 rows is the sum over all 50000 rows. Every
operation is exact over the extended reals, and a change of float format is the identity there. -/

set_option maxRecDepth 16384

noncomputable section

namespace Cert.KernelIdeal.Gen

open Idealize.ShloMosaic Idealize.ShloMosaic.TcCoe Idealize.ShloMosaic.ValueIdx
open Idealize.ShloMosaic.Pipeline (Dat)

/-! ## The body's arithmetic at an index -/

/-- A column broadcast along the rows: a `[a, 1]` array broadcast to `[a, b]` reads, at `(p, q)`, the operand's row `p`. -/
theorem colBroadcast8_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The normalised, clipped tile at a row and a column. -/
theorem k8_pay3_apply (v3 : Vec Ideal S2000x64 .f32) (v5 v10 v16 v20 : Vec Ideal S1x64 .f32) (r : Fin 2000) (d : Fin 64) :
    k8_pay3 (F := Ideal) v3 v5 v10 v16 v20 (ix2 r d)
      = max ((v3 (ix2 r d) - v10 (ix2 (0 : Fin 1) d)) * Ideal.rsqrt (v5 (ix2 (0 : Fin 1) d) + Cert.Spec.eps) * v16 (ix2 (0 : Fin 1) d)
          + v20 (ix2 (0 : Fin 1) d)) 0 := by
  unfold k8_pay3
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  have hz : (FloatOps.ofBits (F := Ideal) FTy.f32 0x00000000#32) = (0 : EReal) := Cert.Spec.ofBits_zero
  rw [hz]
  rfl

/-- The word a one-hot entry is made of: the comparison's bit widened and read as a signed integer is one where the two
    words agree and zero elsewhere. -/
theorem onehot_word8 (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · subst h
    simp
  · have hb : (x == y) = false := by simpa using h
    rw [hb, if_neg h]
    simp

/-- The contraction's left operand is read at (contracted row, output row) … -/
theorem lhs_k8_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhs_k8_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl
/-- … and the right at (contracted row, output column). -/
theorem rhs_k8_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhs_k8_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

/-- One tile's contribution to a pooled entry: the sum, over the tile's rows whose segment word is the output row's
    number, of the normalised, clipped tile's entries in the output column. -/
theorem k8_pay4_apply (v3 : Vec Ideal S2000x64 .f32) (v5 v10 v16 v20 : Vec Ideal S1x64 .f32) (v27 : Vec Ideal S2000x1 .i32)
    (g : Fin 512) (d : Fin 64) :
    k8_pay4 (F := Ideal) v3 v5 v10 v16 v20 v27 (ix2 g d)
      = ∑ r : Fin 2000, if v27 (ix2 r (0 : Fin 1)) = BitVec.ofNat 32 g.val
          then k8_pay3 (F := Ideal) v3 v5 v10 v16 v20 (ix2 r d) else 0 := by
  unfold k8_pay4
  simp only [shapeCast_self, matmul]
  refine (Ideal.matmul_constant_zero_apply dot_S2000x512_S2000x64_S512x64_0_0_1_1_n_n none _ _ (ix2 g d)).trans ?_
  rw [← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g d)
      ((contrEquiv1 dot_S2000x512_S2000x64_S512x64_0_0_1_1_n_n 2000 rfl rfl).symm k) = ix2 k g :=
    funext fun a => Fin.ext (by
      match a with
      | ⟨0, _⟩ => exact (lhs_k8_0 _ _).trans hk
      | ⟨1, _⟩ => exact lhs_k8_1 _ _)
  have er : dot_S2000x512_S2000x64_S512x64_0_0_1_1_n_n.rhsIdx (ix2 g d)
      ((contrEquiv1 dot_S2000x512_S2000x64_S512x64_0_0_1_1_n_n 2000 rfl rfl).symm k) = ix2 k d :=
    funext fun a => Fin.ext (by
      match a with
      | ⟨0, _⟩ => exact (rhs_k8_0 _ _).trans hk
      | ⟨1, _⟩ => exact rhs_k8_1 _ _)
  rw [el, er, truncf_apply, truncf_apply, sitofp_apply, extui_apply]
  have hc : cmpi CmpIPredicate.eq (broadcastTo S2000x512 v27 broadcasts_S2000x1_S2000x512)
      (iota Kind.tc S2000x512 32 [1] iota_S2000x512_d1_w32) (ix2 k g)
      = IntOp.cmpi .eq (v27 (ix2 k (0 : Fin 1))) (BitVec.ofNat 32 g.val) := by
    show IntOp.cmpi .eq (broadcastTo S2000x512 v27 broadcasts_S2000x1_S2000x512 (ix2 k g))
      (iota Kind.tc S2000x512 32 [1] iota_S2000x512_d1_w32 (ix2 k g)) = _
    rw [colBroadcast8_apply, iota_single_apply]
  rw [hc]
  show ((((IntOp.cmpi .eq (v27 (ix2 k (0 : Fin 1))) (BitVec.ofNat 32 g.val)).setWidth 32).toInt : ℝ) : EReal) * _ = _
  rw [onehot_word8, Cert.Spec.onehot_mul]

/-- The running pooled block: what was there plus the tile's contribution. -/
theorem k8_pay1_apply (v36 : FVec Ideal S512x64 .f32) (v37 : Vec Ideal S512x64 .f32) (g : Fin 512) (d : Fin 64) :
    k8_pay1 (F := Ideal) v36 v37 (ix2 g d) = v37 (ix2 g d) + v36 (ix2 g d) := by
  unfold k8_pay1
  simp only [shapeCast_self]
  rfl

/-- The pooled block is reset to zero. -/
theorem k8_pay2_apply (g : Fin 512) (d : Fin 64) : (k8_pay2 (F := Ideal)) (ix2 g d) = 0 := by
  unfold k8_pay2
  exact Cert.Spec.ofBits_zero

/-! ## The arrays the region reads, and what it computes from them -/

variable (V : (c : Dev nD) → (b : Ref sig .tc) → Buf (Elt Ideal) ((c : Thread nD τ).loc b))

/-- The table to normalise, one row of 64 per node. -/
abbrev arr8_0 (c : Dev nD) : Vec Ideal S50000x64 .f32 := V c (Pipeline.arrRef spec8 0)
/-- The column means. -/
abbrev arr8_1 (c : Dev nD) : Vec Ideal S1x64 .f32 := V c (Pipeline.arrRef spec8 1)
/-- The column variances. -/
abbrev arr8_2 (c : Dev nD) : Vec Ideal S1x64 .f32 := V c (Pipeline.arrRef spec8 2)
/-- The scale row. -/
abbrev arr8_3 (c : Dev nD) : Vec Ideal S1x64 .f32 := V c (Pipeline.arrRef spec8 3)
/-- The shift row. -/
abbrev arr8_4 (c : Dev nD) : Vec Ideal S1x64 .f32 := V c (Pipeline.arrRef spec8 4)
/-- The segment word of every node. -/
abbrev arr8_5 (c : Dev nD) : Vec Ideal S50000x1 .i32 := V c (Pipeline.arrRef spec8 5)

/-- The normalised, clipped table: what the region leaves in its first output. -/
def h8 (c : Dev nD) : Cert.Spec.Act :=
  Cert.Spec.normRelu (fun n k => arr8_0 V c (ix2 n k)) (fun d => arr8_1 V c (ix2 (0 : Fin 1) d))
    (fun d => arr8_2 V c (ix2 (0 : Fin 1) d)) (fun d => arr8_3 V c (ix2 (0 : Fin 1) d)) (fun d => arr8_4 V c (ix2 (0 : Fin 1) d))

/-- The segment words as a function of the node. -/
def segw8 (c : Dev nD) : Fin 50000 → BitVec 32 := fun n => arr8_5 V c (ix2 n (0 : Fin 1))

/-- The first output as one function of the index. -/
def G8_6 (c : Dev nD) : S50000x64.Idx → EReal := fun i => h8 V c (i 0) (i 1)
/-- The second output as one function of the index. -/
def G8_7 (c : Dev nD) : S512x64.Idx → EReal := fun i => Cert.Spec.pool (h8 V c) (segw8 V c) (i 0) (i 1)

/-- The first output's function at a row and a column. -/
theorem G8_6_apply (c : Dev nD) (n : Fin 50000) (d : Fin 64) : G8_6 V c (ix2 n d) = h8 V c n d := rfl
/-- The second output's function at a row and a column. -/
theorem G8_7_apply (c : Dev nD) (g : Fin 512) (d : Fin 64) :
    G8_7 V c (ix2 g d) = Cert.Spec.pool (h8 V c) (segw8 V c) g d := rfl

/-! ## Blocks read where the tile sits -/

/-- A grid point is one of 25. -/
theorem lt8 (t : Fin cfg8.N) : t.val < 25 := lt_of_lt_of_eq t.isLt N_8

/-- Row `r` of tile `t` is a node. -/
theorem row8_lt (t : Fin cfg8.N) (r : Fin 2000) : 2000 * t.val + r.val < 50000 := by
  have := lt8 t; have := r.isLt; omega

/-- The index maps over the grid: the tiled windows move with the point along the rows, the others stay. -/
theorem idx_facts8 : ∀ t : Fin cfg8.N,
    (win8_0.index t (0 : Fin 2) = t.val ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = t.val ∧ win8_5.index t (1 : Fin 2) = 0)
    ∧ (win8_6.index t (0 : Fin 2) = t.val ∧ win8_6.index t (1 : Fin 2) = 0)
    ∧ (win8_7.index t (0 : Fin 2) = 0 ∧ win8_7.index t (1 : Fin 2) = 0) :=
  (by decide +kernel : ∀ t : Fin grid8.N, _)

/-- The table's tile at a point, at a row and a column. -/
theorem iblk8_0_apply (c : Dev nD) (t : Fin cfg8.N) (r : Fin 2000) (d : Fin 64) :
    (iblk8 V c 0 t : Vec Ideal S2000x64 .f32) (ix2 r d) = arr8_0 V c (ix2 ⟨2000 * t.val + r.val, row8_lt t r⟩ d) := by
  obtain ⟨⟨e0, e1⟩, -⟩ := idx_facts8 t
  unfold iblk8
  rw [View.read_apply]
  show V c (Pipeline.arrRef spec8 0) (((cfg8.win 0).blk t).view.emb (ix2 r d)) = V c (Pipeline.arrRef spec8 0) _
  refine congrArg _ (funext fun a => Fin.ext ?_)
  match a with
  | ⟨0, _⟩ => show win8_0.index t (0 : Fin 2) * 2000 + 1 * r.val = 2000 * t.val + r.val; omega
  | ⟨1, _⟩ => show win8_0.index t (1 : Fin 2) * 64 + 1 * d.val = d.val; omega

/-- The segment words' tile at a point, at a row. -/
theorem iblk8_5_apply (c : Dev nD) (t : Fin cfg8.N) (r : Fin 2000) :
    (iblk8 V c 5 t : Vec Ideal S2000x1 .i32) (ix2 r (0 : Fin 1)) = arr8_5 V c (ix2 ⟨2000 * t.val + r.val, row8_lt t r⟩ (0 : Fin 1)) := by
  obtain ⟨-, -, -, -, -, ⟨e0, e1⟩, -⟩ := idx_facts8 t
  unfold iblk8
  rw [View.read_apply]
  show V c (Pipeline.arrRef spec8 5) (((cfg8.win 5).blk t).view.emb (ix2 r (0 : Fin 1))) = V c (Pipeline.arrRef spec8 5) _
  refine congrArg _ (funext fun a => Fin.ext ?_)
  match a with
  | ⟨0, _⟩ => show win8_5.index t (0 : Fin 2) * 2000 + 1 * r.val = 2000 * t.val + r.val; omega
  | ⟨1, _⟩ => show win8_5.index t (1 : Fin 2) * 1 + 1 * 0 = 0; omega

/-- The mean row at a point is the mean row. -/
theorem iblk8_1_apply (c : Dev nD) (t : Fin cfg8.N) (d : Fin 64) :
    (iblk8 V c 1 t : Vec Ideal S1x64 .f32) (ix2 (0 : Fin 1) d) = arr8_1 V c (ix2 (0 : Fin 1) d) := by
  obtain ⟨-, ⟨e0, e1⟩, -⟩ := idx_facts8 t
  unfold iblk8
  rw [View.read_apply]
  show V c (Pipeline.arrRef spec8 1) (((cfg8.win 1).blk t).view.emb (ix2 (0 : Fin 1) d)) = V c (Pipeline.arrRef spec8 1) _
  refine congrArg _ (funext fun a => Fin.ext ?_)
  match a with
  | ⟨0, _⟩ => show win8_1.index t (0 : Fin 2) * 1 + 1 * 0 = 0; omega
  | ⟨1, _⟩ => show win8_1.index t (1 : Fin 2) * 64 + 1 * d.val = d.val; omega

/-- The variance row at a point is the variance row. -/
theorem iblk8_2_apply (c : Dev nD) (t : Fin cfg8.N) (d : Fin 64) :
    (iblk8 V c 2 t : Vec Ideal S1x64 .f32) (ix2 (0 : Fin 1) d) = arr8_2 V c (ix2 (0 : Fin 1) d) := by
  obtain ⟨-, -, ⟨e0, e1⟩, -⟩ := idx_facts8 t
  unfold iblk8
  rw [View.read_apply]
  show V c (Pipeline.arrRef spec8 2) (((cfg8.win 2).blk t).view.emb (ix2 (0 : Fin 1) d)) = V c (Pipeline.arrRef spec8 2) _
  refine congrArg _ (funext fun a => Fin.ext ?_)
  match a with
  | ⟨0, _⟩ => show win8_2.index t (0 : Fin 2) * 1 + 1 * 0 = 0; omega
  | ⟨1, _⟩ => show win8_2.index t (1 : Fin 2) * 64 + 1 * d.val = d.val; omega

/-- The scale row at a point is the scale row. -/
theorem iblk8_3_apply (c : Dev nD) (t : Fin cfg8.N) (d : Fin 64) :
    (iblk8 V c 3 t : Vec Ideal S1x64 .f32) (ix2 (0 : Fin 1) d) = arr8_3 V c (ix2 (0 : Fin 1) d) := by
  obtain ⟨-, -, -, ⟨e0, e1⟩, -⟩ := idx_facts8 t
  unfold iblk8
  rw [View.read_apply]
  show V c (Pipeline.arrRef spec8 3) (((cfg8.win 3).blk t).view.emb (ix2 (0 : Fin 1) d)) = V c (Pipeline.arrRef spec8 3) _
  refine congrArg _ (funext fun a => Fin.ext ?_)
  match a with
  | ⟨0, _⟩ => show win8_3.index t (0 : Fin 2) * 1 + 1 * 0 = 0; omega
  | ⟨1, _⟩ => show win8_3.index t (1 : Fin 2) * 64 + 1 * d.val = d.val; omega

/-- The shift row at a point is the shift row. -/
theorem iblk8_4_apply (c : Dev nD) (t : Fin cfg8.N) (d : Fin 64) :
    (iblk8 V c 4 t : Vec Ideal S1x64 .f32) (ix2 (0 : Fin 1) d) = arr8_4 V c (ix2 (0 : Fin 1) d) := by
  obtain ⟨-, -, -, -, ⟨e0, e1⟩, -⟩ := idx_facts8 t
  unfold iblk8
  rw [View.read_apply]
  show V c (Pipeline.arrRef spec8 4) (((cfg8.win 4).blk t).view.emb (ix2 (0 : Fin 1) d)) = V c (Pipeline.arrRef spec8 4) _
  refine congrArg _ (funext fun a => Fin.ext ?_)
  match a with
  | ⟨0, _⟩ => show win8_4.index t (0 : Fin 2) * 1 + 1 * 0 = 0; omega
  | ⟨1, _⟩ => show win8_4.index t (1 : Fin 2) * 64 + 1 * d.val = d.val; omega

/-- The tile a point computes, at a row and a column, is the normalised, clipped table at the tile's row. -/
theorem tile8_apply (c : Dev nD) (t : Fin cfg8.N) (r : Fin 2000) (d : Fin 64) :
    k8_pay3 (F := Ideal) (iblk8 V c 0 t) (iblk8 V c 2 t) (iblk8 V c 1 t) (iblk8 V c 3 t) (iblk8 V c 4 t) (ix2 r d)
      = h8 V c ⟨2000 * t.val + r.val, row8_lt t r⟩ d := by
  refine (k8_pay3_apply (iblk8 V c 0 t) (iblk8 V c 2 t) (iblk8 V c 1 t) (iblk8 V c 3 t) (iblk8 V c 4 t) r d).trans ?_
  rw [iblk8_0_apply V c t r d, iblk8_1_apply V c t d, iblk8_2_apply V c t d, iblk8_3_apply V c t d, iblk8_4_apply V c t d]
  rfl

/-! ## The first output: every point writes its tile back -/

/-- Where a tile's entry sits in the table. -/
theorem emb8_6 (t : Fin cfg8.N) (r : Fin 2000) (d : Fin 64) :
    ((cfg8.win 6).blk t).view.emb (ix2 r d) = (ix2 ⟨2000 * t.val + r.val, row8_lt t r⟩ d : S50000x64.Idx) := by
  obtain ⟨-, -, -, -, -, -, ⟨e0, e1⟩, -⟩ := idx_facts8 t
  refine funext fun a => Fin.ext ?_
  match a with
  | ⟨0, _⟩ => show win8_6.index t (0 : Fin 2) * 2000 + 1 * r.val = 2000 * t.val + r.val; omega
  | ⟨1, _⟩ => show win8_6.index t (1 : Fin 2) * 64 + 1 * d.val = d.val; omega

/-- What a point writes back is its tile of the normalised, clipped table. -/
theorem flushed8_6_eq (c : Dev nD) (t : Fin cfg8.N) :
    (dat8 V c).flushed 6 t = ((cfg8.win 6).blk t).view.read (Elt Ideal) (G8_6 V c) := by
  show (cfg8.win 6).cut (grid8.coords t) ((dat8 V c).after 6 t) = _
  rw [after8_6]
  funext y
  obtain ⟨r, d, rfl⟩ : ∃ (r : Fin 2000) (d : Fin 64), y = ix2 r d := ⟨y 0, y 1, eq_ix2 y⟩
  rw [View.read_apply]
  show k8_pay3 (F := Ideal) (iblk8 V c 0 t) (iblk8 V c 2 t) (iblk8 V c 1 t) (iblk8 V c 3 t) (iblk8 V c 4 t) (ix2 r d)
    = G8_6 V c (((cfg8.win 6).blk t).view.emb (ix2 r d))
  rw [emb8_6 t r d]
  exact tile8_apply V c t r d

/-- An index of the table is in a point's tile iff each coordinate is in the tile's range. -/
theorem mem_blk8_6 (t : Fin cfg8.N) (i : S50000x64.Idx) :
    i ∈ ((cfg8.win 6).blk t).view.set ↔ ∀ a : Fin 2, win8_6.index t a * S2000x64.size a ≤ (i a).val
      ∧ (i a).val < win8_6.index t a * S2000x64.size a + S2000x64.size a := by
  show i ∈ ((View.whole (Pipeline.arrRef spec8 6)).slice (win8_6.rect t)).set ↔ _
  rw [View.set_slice_whole, Rect.mem_set_unit]
  exact Iff.rfl

/-- The first output ends holding the normalised, clipped table: row `n` is written by point `n / 2000`. -/
theorem final8_6 (c : Dev nD) : (dat8 V c).arrAt 6 cfg8.N = G8_6 V c :=
  (dat8 V c).arrAt_eq_of_cover 6 (G8_6 V c) (fun t _ => flushed8_6_eq V c t) fun i => by
    have hi0 : (i 0).val < 50000 := (i 0).isLt
    have hi1 : (i 1).val < 64 := (i 1).isLt
    have ht : (i 0).val / 2000 < cfg8.N := lt_of_lt_of_eq (by omega : (i 0).val / 2000 < 25) N_8.symm
    refine ⟨⟨(i 0).val / 2000, ht⟩, flush8_6 _, ?_⟩
    rw [mem_blk8_6]
    obtain ⟨-, -, -, -, -, -, ⟨e0, e1⟩, -⟩ := idx_facts8 ⟨(i 0).val / 2000, ht⟩
    intro a
    match a with
    | ⟨0, _⟩ =>
      show win8_6.index ⟨(i 0).val / 2000, ht⟩ (0 : Fin 2) * 2000 ≤ (i 0).val
        ∧ (i 0).val < win8_6.index ⟨(i 0).val / 2000, ht⟩ (0 : Fin 2) * 2000 + 2000
      rw [e0]; dsimp only; omega
    | ⟨1, _⟩ =>
      show win8_6.index ⟨(i 0).val / 2000, ht⟩ (1 : Fin 2) * 64 ≤ (i 1).val
        ∧ (i 1).val < win8_6.index ⟨(i 0).val / 2000, ht⟩ (1 : Fin 2) * 64 + 64
      rw [e1]; omega

/-! ## The second output: a running sum over the points, written back once -/

/-- One tile's contribution to a pooled entry: the rows of the tile whose segment word is the entry's row number. -/
theorem contrib8_apply (c : Dev nD) (t : Fin cfg8.N) (g : Fin 512) (d : Fin 64) :
    k8_pay4 (F := Ideal) (iblk8 V c 0 t) (iblk8 V c 2 t) (iblk8 V c 1 t) (iblk8 V c 3 t) (iblk8 V c 4 t) (iblk8 V c 5 t) (ix2 g d)
      = ∑ r : Fin 2000, if segw8 V c ⟨2000 * t.val + r.val, row8_lt t r⟩ = BitVec.ofNat 32 g.val
          then h8 V c ⟨2000 * t.val + r.val, row8_lt t r⟩ d else 0 := by
  refine (k8_pay4_apply (iblk8 V c 0 t) (iblk8 V c 2 t) (iblk8 V c 1 t) (iblk8 V c 3 t) (iblk8 V c 4 t) (iblk8 V c 5 t) g d).trans ?_
  refine Finset.sum_congr rfl fun r _ => ?_
  rw [iblk8_5_apply V c t r, tile8_apply V c t r d]
  rfl

/-- The pooled block a point leaves, by its literal type. -/
abbrev acc8 (c : Dev nD) (t : Fin cfg8.N) : Vec Ideal S512x64 .f32 := (dat8 V c).after 7 t

/-- After the first point the pooled block is zero plus the first tile's contribution. -/
theorem acc8_first (c : Dev nD) (t : Fin cfg8.N) (h : t.val = 0) (g : Fin 512) (d : Fin 64) :
    acc8 V c t (ix2 g d) = 0 + k8_pay4 (F := Ideal) (iblk8 V c 0 t) (iblk8 V c 2 t) (iblk8 V c 1 t) (iblk8 V c 3 t)
      (iblk8 V c 4 t) (iblk8 V c 5 t) (ix2 g d) := by
  show ((dat8 V c).after 7 t : Vec Ideal S512x64 .f32) (ix2 g d) = _
  rw [after8_7_first V c t h, k8_pay1_apply, k8_pay2_apply]

/-- After a later point it is what the point before left plus the tile's contribution. -/
theorem acc8_later (c : Dev nD) (t : Fin cfg8.N) (h : t.val ≠ 0) (g : Fin 512) (d : Fin 64) :
    acc8 V c t (ix2 g d) = acc8 V c ⟨t.val - 1, Nat.lt_of_le_of_lt (Nat.sub_le _ _) t.isLt⟩ (ix2 g d)
      + k8_pay4 (F := Ideal) (iblk8 V c 0 t) (iblk8 V c 2 t) (iblk8 V c 1 t) (iblk8 V c 3 t)
          (iblk8 V c 4 t) (iblk8 V c 5 t) (ix2 g d) := by
  show ((dat8 V c).after 7 t : Vec Ideal S512x64 .f32) (ix2 g d) = _
  rw [after8_7_later V c t h, k8_pay1_apply]

/-- The pooled block after the last of the 25 points, at an entry: the tiles' contributions summed, which is the sum over
    all nodes. -/
theorem pooled8_last (c : Dev nD) (t : Fin cfg8.N) (ht : t.val = 24) (g : Fin 512) (d : Fin 64) :
    acc8 V c t (ix2 g d) = Cert.Spec.pool (h8 V c) (segw8 V c) g d := by
  obtain rfl : t = Fin.cast N_8.symm (Fin.last 24) := Fin.ext ht
  have key := Cert.Spec.accum_fin (N := 24)
    (fun t => acc8 V c (Fin.cast N_8.symm t) (ix2 g d))
    (fun t => k8_pay4 (F := Ideal) (iblk8 V c 0 (Fin.cast N_8.symm t)) (iblk8 V c 2 (Fin.cast N_8.symm t))
      (iblk8 V c 1 (Fin.cast N_8.symm t)) (iblk8 V c 3 (Fin.cast N_8.symm t)) (iblk8 V c 4 (Fin.cast N_8.symm t))
      (iblk8 V c 5 (Fin.cast N_8.symm t)) (ix2 g d))
    (acc8_first V c (Fin.cast N_8.symm 0) rfl g d)
    (fun t ht => acc8_later V c (Fin.cast N_8.symm t) ht g d)
  refine key.trans ?_
  show _ = ∑ n : Fin 50000, if segw8 V c n = BitVec.ofNat 32 g.val then h8 V c n d else 0
  rw [← Cert.Spec.sum_tiles25 (fun n => if segw8 V c n = BitVec.ofNat 32 g.val then h8 V c n d else 0)]
  refine Finset.sum_congr rfl fun t _ => ?_
  exact contrib8_apply V c (Fin.cast N_8.symm t) g d

/-- The pooled block is the whole of the second output. -/
theorem emb8_7 (t : Fin cfg8.N) (g : Fin 512) (d : Fin 64) :
    ((cfg8.win 7).blk t).view.emb (ix2 g d) = (ix2 g d : S512x64.Idx) := by
  obtain ⟨-, -, -, -, -, -, -, ⟨e0, e1⟩⟩ := idx_facts8 t
  refine funext fun a => Fin.ext ?_
  match a with
  | ⟨0, _⟩ => show win8_7.index t (0 : Fin 2) * 512 + 1 * g.val = g.val; omega
  | ⟨1, _⟩ => show win8_7.index t (1 : Fin 2) * 64 + 1 * d.val = d.val; omega

/-- A point's block of the second output, read back, is the output itself. -/
theorem read8_7 (t : Fin cfg8.N) (X : S512x64.Idx → EReal) (g : Fin 512) (d : Fin 64) :
    ((cfg8.win 7).blk t).view.read (Elt Ideal) X (ix2 g d) = X (ix2 g d) := by
  rw [View.read_apply]
  show X (((cfg8.win 7).blk t).view.emb (ix2 g d)) = _
  rw [emb8_7 t g d]

/-- The write-back moves the whole pooled block. -/
theorem cut8_7 (t : Fin cfg8.N) (X : Vec Ideal S512x64 .f32) (g : Fin 512) (d : Fin 64) :
    (cfg8.win 7).cut (grid8.coords t) X (ix2 g d) = X (ix2 g d) := rfl

/-- The one write-back, after the last point, writes the pooled table. -/
theorem flushed8_7_eq (c : Dev nD) (t : Fin cfg8.N) (hf : (cfg8.win 7).flush t = true) :
    (dat8 V c).flushed 7 t = ((cfg8.win 7).blk t).view.read (Elt Ideal) (G8_7 V c) := by
  have h24 : t.val = 24 := by have := (flush8_7 t).mp hf; have := lt8 t; omega
  show (cfg8.win 7).cut (grid8.coords t) ((dat8 V c).after 7 t) = _
  funext y
  obtain ⟨g, d, rfl⟩ : ∃ (g : Fin 512) (d : Fin 64), y = ix2 g d := ⟨y 0, y 1, eq_ix2 y⟩
  refine Eq.trans ?_ ((read8_7 t (G8_7 V c) g d).trans (G8_7_apply V c g d)).symm
  exact (cut8_7 t (acc8 V c t) g d).trans (pooled8_last V c t h24 g d)

/-- An index of the pooled table is in a point's block iff each coordinate is in the block's range. -/
theorem mem_blk8_7 (t : Fin cfg8.N) (i : S512x64.Idx) :
    i ∈ ((cfg8.win 7).blk t).view.set ↔ ∀ a : Fin 2, win8_7.index t a * S512x64.size a ≤ (i a).val
      ∧ (i a).val < win8_7.index t a * S512x64.size a + S512x64.size a := by
  show i ∈ ((View.whole (Pipeline.arrRef spec8 7)).slice (win8_7.rect t)).set ↔ _
  rw [View.set_slice_whole, Rect.mem_set_unit]
  exact Iff.rfl

/-- Every point's block of the pooled table is all of it. -/
theorem cover8_7 (t : Fin cfg8.N) (i : S512x64.Idx) : i ∈ ((cfg8.win 7).blk t).view.set := by
  have hi0 : (i 0).val < 512 := (i 0).isLt
  have hi1 : (i 1).val < 64 := (i 1).isLt
  rw [mem_blk8_7]
  obtain ⟨-, -, -, -, -, -, -, ⟨e0, e1⟩⟩ := idx_facts8 t
  intro a
  match a with
  | ⟨0, _⟩ =>
    show win8_7.index t (0 : Fin 2) * 512 ≤ (i 0).val ∧ (i 0).val < win8_7.index t (0 : Fin 2) * 512 + 512
    rw [e0]; omega
  | ⟨1, _⟩ =>
    show win8_7.index t (1 : Fin 2) * 64 ≤ (i 1).val ∧ (i 1).val < win8_7.index t (1 : Fin 2) * 64 + 64
    rw [e1]; omega

/-- The second output ends holding the pooled table: the last point's block is all of it. -/
theorem final8_7 (c : Dev nD) : (dat8 V c).arrAt 7 cfg8.N = G8_7 V c :=
  (dat8 V c).arrAt_eq_of_cover 7 (G8_7 V c) (flushed8_7_eq V c) fun i =>
    ⟨Fin.cast N_8.symm (Fin.last 24), (flush8_7 _).mpr rfl, cover8_7 _ i⟩

/-! ## The region's value -/

/-- When the region ends, its first output holds the table normalised by the mean and variance rows, scaled, shifted and
    clipped below at zero, and its second the rows of that table summed segment by segment. -/
theorem region8_value (c : Dev nD) :
    (∀ (n : Fin 50000) (d : Fin 64), ((dat8 V c).arrAt 6 cfg8.N : S50000x64.Idx → EReal) (ix2 n d) = h8 V c n d)
    ∧ (∀ (g : Fin 512) (d : Fin 64), ((dat8 V c).arrAt 7 cfg8.N : S512x64.Idx → EReal) (ix2 g d)
        = Cert.Spec.pool (h8 V c) (segw8 V c) g d) :=
  ⟨fun n d => (congrFun (final8_6 V c) (ix2 n d)).trans (G8_6_apply V c n d),
    fun g d => (congrFun (final8_7 V c) (ix2 g d)).trans (G8_7_apply V c g d)⟩

/-- The same with the arrays the region reads named by equations. -/
theorem region8_value_of (c : Dev nD) (Y : S50000x64.Idx → EReal) (MU VAR G B : S1x64.Idx → EReal)
    (SEG : S50000x1.Idx → BitVec 32) (hY : arr8_0 V c = Y) (hMU : arr8_1 V c = MU) (hVAR : arr8_2 V c = VAR)
    (hG : arr8_3 V c = G) (hB : arr8_4 V c = B) (hSEG : arr8_5 V c = SEG) :
    (∀ (n : Fin 50000) (d : Fin 64), ((dat8 V c).arrAt 6 cfg8.N : S50000x64.Idx → EReal) (ix2 n d)
        = Cert.Spec.normRelu (fun n k => Y (ix2 n k)) (fun d => MU (ix2 (0 : Fin 1) d)) (fun d => VAR (ix2 (0 : Fin 1) d))
            (fun d => G (ix2 (0 : Fin 1) d)) (fun d => B (ix2 (0 : Fin 1) d)) n d)
    ∧ (∀ (g : Fin 512) (d : Fin 64), ((dat8 V c).arrAt 7 cfg8.N : S512x64.Idx → EReal) (ix2 g d)
        = Cert.Spec.pool (Cert.Spec.normRelu (fun n k => Y (ix2 n k)) (fun d => MU (ix2 (0 : Fin 1) d))
            (fun d => VAR (ix2 (0 : Fin 1) d)) (fun d => G (ix2 (0 : Fin 1) d)) (fun d => B (ix2 (0 : Fin 1) d)))
            (fun n => SEG (ix2 n (0 : Fin 1))) g d) := by
  subst hY hMU hVAR hG hB hSEG
  exact region8_value V c

end Cert.KernelIdeal.Gen

end
-- ==== Proof.KernelIdeal.Layer2.lean ====
import proofs.«428437_j36421322670670_1_alg».proof.Proof.KernelIdeal.Fold
import proofs.«428437_j36421322670670_1_alg».proof.Proof.KernelIdeal.Layer2Host
import proofs.«428437_j36421322670670_1_alg».proof.Proof.KernelIdeal.Region6Value
import proofs.«428437_j36421322670670_1_alg».proof.Proof.KernelIdeal.Region7Value
import proofs.«428437_j36421322670670_1_alg».proof.Proof.KernelIdeal.Region8Value
import proofs.«428437_j36421322670670_1_alg».proof.Proof.Spec

/-! # The third layer of the kernel program, as a value

The third layer runs from region 5's exit to region 8's exit: a stretch of host operations that aggregates the previous
layer's feature table over the edges and cuts out the layer's first weights, the region that applies the first linear
map and sums its columns and their squares, a stretch that turns those sums into means and moment variances, the region
that normalises, clips and applies the second linear map with its sums, a third stretch for the second map's means and
variances, and the region that normalises, clips and pools by segment. Given the previous layer's table in its buffer,
the layer's table and its pooled table are read off region 8's two output buffers in the specification's words. The
edge list's two rows and the segment column were prepared once, by the program's first stretch, and are still in their
buffers; the stacked parameters are as launched. -/

set_option maxRecDepth 16384

noncomputable section

namespace Cert.KernelIdeal.Value.Layer2

open Idealize.ShloMosaic Idealize.ShloMosaic.TcCoe Idealize.ShloMosaic.ValueIdx
open Cert.KernelIdeal.Gen
open Cert.Spec (Act Mat Row Params)

variable (m : Mem) (ρ : Dev nD → PrngReg)

/-! ## The layer's three stages, in the specification's words -/

/-- The first linear map of the third layer on the table `H`. -/
abbrev lin1L2 (c : Dev nD) (H : Act) : Act :=
  Cert.Spec.lin (fun n k => H n k + aggK m c H n k) ((paramsK m c).W1 2) ((paramsK m c).b1 2)

/-- The second linear map of the third layer on the table `H`. -/
abbrev lin2L2 (c : Dev nD) (H : Act) : Act :=
  Cert.Spec.lin (Cert.Spec.normRelu (lin1L2 m c H) (Cert.Spec.mean (lin1L2 m c H)) (Cert.Spec.varMoments (lin1L2 m c H))
    ((paramsK m c).g1 2) ((paramsK m c).bt1 2)) ((paramsK m c).W2 2) ((paramsK m c).b2 2)

/-- The third layer's output on the table `H`. -/
abbrev outL2 (c : Dev nD) (H : Act) : Act :=
  Cert.Spec.normRelu (lin2L2 m c H) (Cert.Spec.mean (lin2L2 m c H)) (Cert.Spec.varMoments (lin2L2 m c H))
    ((paramsK m c).go 2) ((paramsK m c).bo 2)

/-- The three stages put together are the specification's layer. -/
theorem outL2_eq (c : Dev nD) (H : Act) :
    outL2 m c H = Cert.Spec.layerWith Cert.Spec.varMoments (aggK m c) H ((paramsK m c).W1 2) ((paramsK m c).b1 2)
      ((paramsK m c).g1 2) ((paramsK m c).bt1 2) ((paramsK m c).W2 2) ((paramsK m c).b2 2) ((paramsK m c).go 2) ((paramsK m c).bo 2) := rfl

/-! ## References kept along the fold -/

/-- A reference that nothing after region 5 touches holds at the end what it held when region 5 was left. -/
theorem W19_eq_W12 (c : Dev nD) (r : Ref sig .tc)
    (h6 : r ∉ hostOps6_W) (a6 : ∀ w, Pipeline.arrRef spec6 w ≠ r) (h7 : r ∉ hostOps7_W) (a7 : ∀ w, Pipeline.arrRef spec7 w ≠ r)
    (h8 : r ∉ hostOps8_W) (a8 : ∀ w, Pipeline.arrRef spec8 w ≠ r) (h9 : r ∉ hostOps9_W) :
    W19 m ρ c (Proc.devRef .tc r) = W12 m ρ c (Proc.devRef .tc r) :=
  (W19_keeps m ρ c r h9).trans <|
    (Wout8_of_ne m ρ c r a8).trans <|
    (W17_keeps m ρ c r h8).trans <|
    (Wout7_of_ne m ρ c r a7).trans <|
    (W15_keeps m ρ c r h7).trans <|
    (Wout6_of_ne m ρ c r a6).trans <|
    W13_keeps m ρ c r h6

/-- A reference that nothing after region 6 touches holds at the end what it held when region 6 was left. -/
theorem W19_eq_W14 (c : Dev nD) (r : Ref sig .tc)
    (h7 : r ∉ hostOps7_W) (a7 : ∀ w, Pipeline.arrRef spec7 w ≠ r)
    (h8 : r ∉ hostOps8_W) (a8 : ∀ w, Pipeline.arrRef spec8 w ≠ r) (h9 : r ∉ hostOps9_W) :
    W19 m ρ c (Proc.devRef .tc r) = W14 m ρ c (Proc.devRef .tc r) :=
  (W19_keeps m ρ c r h9).trans <|
    (Wout8_of_ne m ρ c r a8).trans <|
    (W17_keeps m ρ c r h8).trans <|
    (Wout7_of_ne m ρ c r a7).trans <|
    W15_keeps m ρ c r h7

/-- A reference that nothing after region 7 touches holds at the end what it held when region 7 was left. -/
theorem W19_eq_W16 (c : Dev nD) (r : Ref sig .tc)
    (h8 : r ∉ hostOps8_W) (a8 : ∀ w, Pipeline.arrRef spec8 w ≠ r) (h9 : r ∉ hostOps9_W) :
    W19 m ρ c (Proc.devRef .tc r) = W16 m ρ c (Proc.devRef .tc r) :=
  (W19_keeps m ρ c r h9).trans <|
    (Wout8_of_ne m ρ c r a8).trans <|
    W17_keeps m ρ c r h8

/-- A reference that is an array of none of the regions 0 … 5 and that no stretch from the second to the sixth writes
    holds at region 5's exit what the first stretch left in it. -/
theorem W12_eq_W1 (c : Dev nD) (r : Ref sig .tc)
    (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) (a5 : ∀ w, Pipeline.arrRef spec5 w ≠ r) :
    W12 m ρ c (Proc.devRef .tc r) = W1 m ρ c (Proc.devRef .tc r) :=
  (Wout5_of_ne m ρ c r a5).trans <|
    (W11_keeps m ρ c r h5).trans <|
    (Wout4_of_ne m ρ c r a4).trans <|
    (W9_keeps m ρ c r h4).trans <|
    (Wout3_of_ne m ρ c r a3).trans <|
    (W7_keeps m ρ c r h3).trans <|
    (Wout2_of_ne m ρ c r a2).trans <|
    (W5_keeps m ρ c r h2).trans <|
    (Wout1_of_ne m ρ c r a1).trans <|
    (W3_keeps m ρ c r h1).trans <|
    Wout0_of_ne m ρ c r a0

/-! ## The parameters and the edge list where the layer's stretches read them -/

theorem W12_arg3 (c : Dev nD) :
    (W12 m ρ c (Proc.devRef .tc main_arg3) : S3x64x64.Idx → EReal) = m ((c : Dev nD), Proc.devRef .tc main_arg3) :=
  (W19_eq_W12 m ρ c main_arg3 (by decide) (by decide) (by decide) (by decide) (by decide) (by decide) (by decide)).symm.trans
    (W19_main_arg3 m ρ c)

theorem W12_arg4 (c : Dev nD) :
    (W12 m ρ c (Proc.devRef .tc main_arg4) : S3x64.Idx → EReal) = m ((c : Dev nD), Proc.devRef .tc main_arg4) :=
  (W19_eq_W12 m ρ c main_arg4 (by decide) (by decide) (by decide) (by decide) (by decide) (by decide) (by decide)).symm.trans
    (W19_main_arg4 m ρ c)

theorem W14_arg5 (c : Dev nD) :
    (W14 m ρ c (Proc.devRef .tc main_arg5) : S3x64.Idx → EReal) = m ((c : Dev nD), Proc.devRef .tc main_arg5) :=
  (W19_eq_W14 m ρ c main_arg5 (by decide) (by decide) (by decide) (by decide) (by decide)).symm.trans (W19_main_arg5 m ρ c)

theorem W14_arg6 (c : Dev nD) :
    (W14 m ρ c (Proc.devRef .tc main_arg6) : S3x64.Idx → EReal) = m ((c : Dev nD), Proc.devRef .tc main_arg6) :=
  (W19_eq_W14 m ρ c main_arg6 (by decide) (by decide) (by decide) (by decide) (by decide)).symm.trans (W19_main_arg6 m ρ c)

theorem W14_arg7 (c : Dev nD) :
    (W14 m ρ c (Proc.devRef .tc main_arg7) : S3x64x64.Idx → EReal) = m ((c : Dev nD), Proc.devRef .tc main_arg7) :=
  (W19_eq_W14 m ρ c main_arg7 (by decide) (by decide) (by decide) (by decide) (by decide)).symm.trans (W19_main_arg7 m ρ c)

theorem W14_arg8 (c : Dev nD) :
    (W14 m ρ c (Proc.devRef .tc main_arg8) : S3x64.Idx → EReal) = m ((c : Dev nD), Proc.devRef .tc main_arg8) :=
  (W19_eq_W14 m ρ c main_arg8 (by decide) (by decide) (by decide) (by decide) (by decide)).symm.trans (W19_main_arg8 m ρ c)

theorem W16_arg9 (c : Dev nD) :
    (W16 m ρ c (Proc.devRef .tc main_arg9) : S3x64.Idx → EReal) = m ((c : Dev nD), Proc.devRef .tc main_arg9) :=
  (W19_eq_W16 m ρ c main_arg9 (by decide) (by decide) (by decide)).symm.trans (W19_main_arg9 m ρ c)

theorem W16_arg10 (c : Dev nD) :
    (W16 m ρ c (Proc.devRef .tc main_arg10) : S3x64.Idx → EReal) = m ((c : Dev nD), Proc.devRef .tc main_arg10) :=
  (W19_eq_W16 m ρ c main_arg10 (by decide) (by decide) (by decide)).symm.trans (W19_main_arg10 m ρ c)

/-- The source indices, prepared by the program's first stretch, are still in their buffer when the third layer begins. -/
theorem W12_src (c : Dev nD) :
    (W12 m ρ c (Proc.devRef .tc main_v1) : IVec S800000 32) = edgeSrc (m ((c : Dev nD), Proc.devRef .tc main_arg1)) :=
  (W12_eq_W1 m ρ c main_v1 (by decide) (by decide) (by decide) (by decide) (by decide) (by decide) (by decide) (by decide)
    (by decide) (by decide) (by decide)).trans (host0_src (W0 m ρ c))

/-- So are the target indices. -/
theorem W12_dst (c : Dev nD) :
    (W12 m ρ c (Proc.devRef .tc main_v3) : IVec S800000 32) = edgeDst (m ((c : Dev nD), Proc.devRef .tc main_arg1)) :=
  (W12_eq_W1 m ρ c main_v3 (by decide) (by decide) (by decide) (by decide) (by decide) (by decide) (by decide) (by decide)
    (by decide) (by decide) (by decide)).trans (host0_dst (W0 m ρ c))

/-- The segment column, laid out by the program's first stretch, is an input array of the regions 2, 5 and 8 and is
    written by nothing else: the third pooling region finds in it the segment words. -/
theorem W17_seg (c : Dev nD) (n : Fin 50000) :
    (W17 m ρ c (Proc.devRef .tc main_v4) : S50000x1.Idx → BitVec 32) (ix2 n (0 : Fin 1)) = segK m c n := by
  have e : W17 m ρ c (Proc.devRef .tc main_v4) = W1 m ρ c (Proc.devRef .tc main_v4) :=
    calc W17 m ρ c (Proc.devRef .tc main_v4)
      _ = W16 m ρ c (Proc.devRef .tc main_v4) := W17_keeps m ρ c main_v4 (by decide)
      _ = W15 m ρ c (Proc.devRef .tc main_v4) := Wout7_of_ne m ρ c main_v4 (by decide)
      _ = W14 m ρ c (Proc.devRef .tc main_v4) := W15_keeps m ρ c main_v4 (by decide)
      _ = W13 m ρ c (Proc.devRef .tc main_v4) := Wout6_of_ne m ρ c main_v4 (by decide)
      _ = W12 m ρ c (Proc.devRef .tc main_v4) := W13_keeps m ρ c main_v4 (by decide)
      _ = (dat5 (Vin5 m ρ) c).arrAt 5 cfg5.N := Wout5_arr m ρ c 5
      _ = (dat5 (Vin5 m ρ) c).A 5 := (dat5 (Vin5 m ρ) c).arrAt_in 5 rfl _
      _ = W11 m ρ c (Proc.devRef .tc main_v4) := A_eq5 (Vin5 m ρ) c 5
      _ = W10 m ρ c (Proc.devRef .tc main_v4) := W11_keeps m ρ c main_v4 (by decide)
      _ = W9 m ρ c (Proc.devRef .tc main_v4) := Wout4_of_ne m ρ c main_v4 (by decide)
      _ = W8 m ρ c (Proc.devRef .tc main_v4) := W9_keeps m ρ c main_v4 (by decide)
      _ = W7 m ρ c (Proc.devRef .tc main_v4) := Wout3_of_ne m ρ c main_v4 (by decide)
      _ = W6 m ρ c (Proc.devRef .tc main_v4) := W7_keeps m ρ c main_v4 (by decide)
      _ = (dat2 (Vin2 m ρ) c).arrAt 5 cfg2.N := Wout2_arr m ρ c 5
      _ = (dat2 (Vin2 m ρ) c).A 5 := (dat2 (Vin2 m ρ) c).arrAt_in 5 rfl _
      _ = W5 m ρ c (Proc.devRef .tc main_v4) := A_eq2 (Vin2 m ρ) c 5
      _ = W4 m ρ c (Proc.devRef .tc main_v4) := W5_keeps m ρ c main_v4 (by decide)
      _ = W3 m ρ c (Proc.devRef .tc main_v4) := Wout1_of_ne m ρ c main_v4 (by decide)
      _ = W2 m ρ c (Proc.devRef .tc main_v4) := W3_keeps m ρ c main_v4 (by decide)
      _ = W1 m ρ c (Proc.devRef .tc main_v4) := Wout0_of_ne m ρ c main_v4 (by decide)
  have e' : (W17 m ρ c (Proc.devRef .tc main_v4) : S50000x1.Idx → BitVec 32) = W1 m ρ c (Proc.devRef .tc main_v4) := e
  rw [e']
  exact host0_seg (W0 m ρ c) n

/-! ## The first region of the layer: the linear map of the table and its aggregation -/

theorem stage6 (c : Dev nD) (H : Act)
    (hH : ∀ n d, (W12 m ρ c (Proc.devRef .tc main_v98_0) : S50000x64.Idx → EReal) (ix2 n d) = H n d) :
    (∀ n d, (W14 m ρ c (Proc.devRef .tc main_v114_0) : S50000x64.Idx → EReal) (ix2 n d) = lin1L2 m c H n d)
    ∧ (∀ d, (W14 m ρ c (Proc.devRef .tc main_v114_1) : S1x64.Idx → EReal) (ix2 (0 : Fin 1) d) = Cert.Spec.colSum (lin1L2 m c H) d)
    ∧ (∀ d, (W14 m ρ c (Proc.devRef .tc main_v114_2) : S1x64.Idx → EReal) (ix2 (0 : Fin 1) d) = Cert.Spec.colSumSq (lin1L2 m c H) d) := by
  have hT : (W12 m ρ c (Proc.devRef .tc main_v98_0) : FVec Ideal S50000x64 .f32) = tableOf H := by
    funext i
    rw [eq_ix2 i]
    exact hH _ _
  have k0 : (W13 m ρ c (Proc.devRef .tc main_v98_0) : S50000x64.Idx → EReal) = W12 m ρ c (Proc.devRef .tc main_v98_0) :=
    W13_keeps m ρ c main_v98_0 (by decide)
  have e0 : ∀ n k, (Vin6 m ρ c (Pipeline.arrRef spec6 0) : S50000x64.Idx → EReal) (ix2 n k) = H n k := fun n k =>
    (congrFun k0 (ix2 n k)).trans (hH n k)
  have k1 : (W13 m ρ c (Proc.devRef .tc main_v108) : FVec Ideal S50000x64 .f32)
      = aggOf (m ((c : Dev nD), Proc.devRef .tc main_arg1)) (tableOf H) :=
    host6_agg (W12 m ρ c) _ _ (W12_src m ρ c) (W12_dst m ρ c) hT
  have e1 : ∀ n k, (Vin6 m ρ c (Pipeline.arrRef spec6 1) : S50000x64.Idx → EReal) (ix2 n k) = aggK m c H n k := fun n k =>
    congrFun k1 (ix2 n k)
  have e2 : ∀ k d, (Vin6 m ρ c (Pipeline.arrRef spec6 2) : S64x64.Idx → EReal) (ix2 k d) = (paramsK m c).W1 2 k d := fun k d =>
    (host6_W1 (W12 m ρ c) k d).trans (congrFun (W12_arg3 m ρ c) (ix3 (2 : Fin 3) k d))
  have e3 : ∀ d, (Vin6 m ρ c (Pipeline.arrRef spec6 3) : S1x64.Idx → EReal) (ix2 (0 : Fin 1) d) = (paramsK m c).b1 2 d := fun d =>
    (host6_b1 (W12 m ρ c) d).trans (congrFun (W12_arg4 m ρ c) (ix2 (2 : Fin 3) d))
  have hy : lin6 (Vin6 m ρ c (Pipeline.arrRef spec6 0)) (Vin6 m ρ c (Pipeline.arrRef spec6 1))
      (Vin6 m ρ c (Pipeline.arrRef spec6 2)) (Vin6 m ρ c (Pipeline.arrRef spec6 3)) = lin1L2 m c H :=
    congr (congr (congrArg Cert.Spec.lin (funext fun n => funext fun k => by rw [e0 n k, e1 n k]))
      (funext fun k => funext fun d => e2 k d)) (funext fun d => e3 d)
  obtain ⟨r1, r2, r3⟩ := region6_value (Vin6 m ρ) c _ _ _ _ rfl rfl rfl rfl
  exact ⟨fun n d => ((congrFun (Wout6_arr m ρ c 4) (ix2 n d)).trans (r1 n d)).trans (congrFun (congrFun hy n) d),
    fun d => ((congrFun (Wout6_arr m ρ c 5) (ix2 (0 : Fin 1) d)).trans (r2 d)).trans
      (congrArg (fun y : Act => Cert.Spec.colSum y d) hy),
    fun d => ((congrFun (Wout6_arr m ρ c 6) (ix2 (0 : Fin 1) d)).trans (r3 d)).trans
      (congrArg (fun y : Act => Cert.Spec.colSumSq y d) hy)⟩

/-! ## The second region: normalise, clip, second linear map -/

theorem stage7 (c : Dev nD) (y1 : Act)
    (s0 : ∀ n d, (W14 m ρ c (Proc.devRef .tc main_v114_0) : S50000x64.Idx → EReal) (ix2 n d) = y1 n d)
    (s1 : ∀ d, (W14 m ρ c (Proc.devRef .tc main_v114_1) : S1x64.Idx → EReal) (ix2 (0 : Fin 1) d) = Cert.Spec.colSum y1 d)
    (s2 : ∀ d, (W14 m ρ c (Proc.devRef .tc main_v114_2) : S1x64.Idx → EReal) (ix2 (0 : Fin 1) d) = Cert.Spec.colSumSq y1 d) :
    let y2 := Cert.Spec.lin (Cert.Spec.normRelu y1 (Cert.Spec.mean y1) (Cert.Spec.varMoments y1) ((paramsK m c).g1 2) ((paramsK m c).bt1 2))
      ((paramsK m c).W2 2) ((paramsK m c).b2 2)
    (∀ n d, (W16 m ρ c (Proc.devRef .tc main_v132_0) : S50000x64.Idx → EReal) (ix2 n d) = y2 n d)
    ∧ (∀ d, (W16 m ρ c (Proc.devRef .tc main_v132_1) : S1x64.Idx → EReal) (ix2 (0 : Fin 1) d) = Cert.Spec.colSum y2 d)
    ∧ (∀ d, (W16 m ρ c (Proc.devRef .tc main_v132_2) : S1x64.Idx → EReal) (ix2 (0 : Fin 1) d) = Cert.Spec.colSumSq y2 d) := by
  intro y2
  have k0 : (W15 m ρ c (Proc.devRef .tc main_v114_0) : S50000x64.Idx → EReal) = W14 m ρ c (Proc.devRef .tc main_v114_0) :=
    W15_keeps m ρ c main_v114_0 (by decide)
  have h0 : ∀ n k, (Vin7 m ρ c (Pipeline.arrRef spec7 0) : S50000x64.Idx → EReal) (ix2 n k) = y1 n k := fun n k =>
    (congrFun k0 (ix2 n k)).trans (s0 n k)
  have h1 : ∀ d, (Vin7 m ρ c (Pipeline.arrRef spec7 1) : S1x64.Idx → EReal) (ix2 (0 : Fin 1) d) = Cert.Spec.mean y1 d := fun d =>
    (host7_mean (W14 m ρ c) d).trans (by rw [s1 d]; rfl)
  have h2 : ∀ d, (Vin7 m ρ c (Pipeline.arrRef spec7 2) : S1x64.Idx → EReal) (ix2 (0 : Fin 1) d) = Cert.Spec.varMoments y1 d := fun d =>
    (host7_var (W14 m ρ c) d).trans (by rw [s1 d, s2 d]; rfl)
  have h3 : ∀ d, (Vin7 m ρ c (Pipeline.arrRef spec7 3) : S1x64.Idx → EReal) (ix2 (0 : Fin 1) d) = (paramsK m c).g1 2 d := fun d =>
    (host7_g1 (W14 m ρ c) d).trans (congrFun (W14_arg5 m ρ c) (ix2 (2 : Fin 3) d))
  have h4 : ∀ d, (Vin7 m ρ c (Pipeline.arrRef spec7 4) : S1x64.Idx → EReal) (ix2 (0 : Fin 1) d) = (paramsK m c).bt1 2 d := fun d =>
    (host7_bt1 (W14 m ρ c) d).trans (congrFun (W14_arg6 m ρ c) (ix2 (2 : Fin 3) d))
  have h5 : ∀ k d, (Vin7 m ρ c (Pipeline.arrRef spec7 5) : S64x64.Idx → EReal) (ix2 k d) = (paramsK m c).W2 2 k d := fun k d =>
    (host7_W2 (W14 m ρ c) k d).trans (congrFun (W14_arg7 m ρ c) (ix3 (2 : Fin 3) k d))
  have h6 : ∀ d, (Vin7 m ρ c (Pipeline.arrRef spec7 6) : S1x64.Idx → EReal) (ix2 (0 : Fin 1) d) = (paramsK m c).b2 2 d := fun d =>
    (host7_b2 (W14 m ρ c) d).trans (congrFun (W14_arg8 m ρ c) (ix2 (2 : Fin 3) d))
  obtain ⟨r1, r2, r3⟩ := region7_value (Vin7 m ρ) c y1 (Cert.Spec.mean y1) (Cert.Spec.varMoments y1) ((paramsK m c).g1 2)
    ((paramsK m c).bt1 2) ((paramsK m c).W2 2) ((paramsK m c).b2 2) h0 h1 h2 h3 h4 h5 h6
  exact ⟨fun n d => (congrFun (Wout7_arr m ρ c 7) (ix2 n d)).trans (r1 n d),
    fun d => (congrFun (Wout7_arr m ρ c 8) (ix2 (0 : Fin 1) d)).trans (r2 d),
    fun d => (congrFun (Wout7_arr m ρ c 9) (ix2 (0 : Fin 1) d)).trans (r3 d)⟩

/-! ## The third region: normalise, clip, pool by segment -/

theorem stage8 (c : Dev nD) (y2 : Act)
    (s0 : ∀ n d, (W16 m ρ c (Proc.devRef .tc main_v132_0) : S50000x64.Idx → EReal) (ix2 n d) = y2 n d)
    (s1 : ∀ d, (W16 m ρ c (Proc.devRef .tc main_v132_1) : S1x64.Idx → EReal) (ix2 (0 : Fin 1) d) = Cert.Spec.colSum y2 d)
    (s2 : ∀ d, (W16 m ρ c (Proc.devRef .tc main_v132_2) : S1x64.Idx → EReal) (ix2 (0 : Fin 1) d) = Cert.Spec.colSumSq y2 d) :
    let F := Cert.Spec.normRelu y2 (Cert.Spec.mean y2) (Cert.Spec.varMoments y2) ((paramsK m c).go 2) ((paramsK m c).bo 2)
    (∀ n d, (W18 m ρ c (Proc.devRef .tc main_v145_0) : S50000x64.Idx → EReal) (ix2 n d) = F n d)
    ∧ (∀ g d, (W18 m ρ c (Proc.devRef .tc main_v145_1) : S512x64.Idx → EReal) (ix2 g d) = Cert.Spec.pool F (segK m c) g d) := by
  intro F
  have k0 : (W17 m ρ c (Proc.devRef .tc main_v132_0) : S50000x64.Idx → EReal) = W16 m ρ c (Proc.devRef .tc main_v132_0) :=
    W17_keeps m ρ c main_v132_0 (by decide)
  have hY : (fun n k => (arr8_0 (Vin8 m ρ) c : S50000x64.Idx → EReal) (ix2 n k)) = y2 :=
    funext fun n => funext fun k => (congrFun k0 (ix2 n k)).trans (s0 n k)
  have hMU : (fun d => (arr8_1 (Vin8 m ρ) c : S1x64.Idx → EReal) (ix2 (0 : Fin 1) d)) = Cert.Spec.mean y2 :=
    funext fun d => (host8_mean (W16 m ρ c) d).trans (by rw [s1 d]; rfl)
  have hVAR : (fun d => (arr8_2 (Vin8 m ρ) c : S1x64.Idx → EReal) (ix2 (0 : Fin 1) d)) = Cert.Spec.varMoments y2 :=
    funext fun d => (host8_var (W16 m ρ c) d).trans (by rw [s1 d, s2 d]; rfl)
  have hG : (fun d => (arr8_3 (Vin8 m ρ) c : S1x64.Idx → EReal) (ix2 (0 : Fin 1) d)) = (paramsK m c).go 2 :=
    funext fun d => (host8_go (W16 m ρ c) d).trans (congrFun (W16_arg9 m ρ c) (ix2 (2 : Fin 3) d))
  have hB : (fun d => (arr8_4 (Vin8 m ρ) c : S1x64.Idx → EReal) (ix2 (0 : Fin 1) d)) = (paramsK m c).bo 2 :=
    funext fun d => (host8_bo (W16 m ρ c) d).trans (congrFun (W16_arg10 m ρ c) (ix2 (2 : Fin 3) d))
  have hS : (fun n => (arr8_5 (Vin8 m ρ) c : S50000x1.Idx → BitVec 32) (ix2 n (0 : Fin 1))) = segK m c :=
    funext fun n => W17_seg m ρ c n
  have hh : Cert.Spec.normRelu (fun n k => (arr8_0 (Vin8 m ρ) c : S50000x64.Idx → EReal) (ix2 n k))
      (fun d => (arr8_1 (Vin8 m ρ) c : S1x64.Idx → EReal) (ix2 (0 : Fin 1) d))
      (fun d => (arr8_2 (Vin8 m ρ) c : S1x64.Idx → EReal) (ix2 (0 : Fin 1) d))
      (fun d => (arr8_3 (Vin8 m ρ) c : S1x64.Idx → EReal) (ix2 (0 : Fin 1) d))
      (fun d => (arr8_4 (Vin8 m ρ) c : S1x64.Idx → EReal) (ix2 (0 : Fin 1) d)) = F :=
    congr (congr (congr (congr (congrArg Cert.Spec.normRelu hY) hMU) hVAR) hG) hB
  obtain ⟨r1, r2⟩ := region8_value_of (Vin8 m ρ) c _ _ _ _ _ _ rfl rfl rfl rfl rfl rfl
  exact ⟨fun n d => ((congrFun (Wout8_arr m ρ c 6) (ix2 n d)).trans (r1 n d)).trans (congrFun (congrFun hh n) d),
    fun g d => ((congrFun (Wout8_arr m ρ c 7) (ix2 g d)).trans (r2 g d)).trans
      (congrFun (congrFun (congr (congrArg Cert.Spec.pool hh) hS) g) d)⟩

end Cert.KernelIdeal.Value.Layer2

namespace Cert.KernelIdeal.Value

open Idealize.ShloMosaic Idealize.ShloMosaic.TcCoe Idealize.ShloMosaic.ValueIdx
open Cert.KernelIdeal.Gen
open Cert.Spec (Act Mat Row Params)
open Cert.KernelIdeal.Value.Layer2

variable (m : Mem) (ρ : Dev nD → PrngReg)

/-! ## The layer -/

/-- The third layer: from the previous layer's feature table in its buffer at region 5's exit, the layer's feature table
    and its pooled table in region 8's two output buffers at region 8's exit. -/
theorem layer2_value (c : Dev nD) (H : Act)
    (hH : ∀ n d, (W12 m ρ c (Proc.devRef .tc main_v98_0) : S50000x64.Idx → EReal) (ix2 n d) = H n d) :
    let P := paramsK m c
    let F := Cert.Spec.layerWith Cert.Spec.varMoments (aggK m c) H (P.W1 2) (P.b1 2) (P.g1 2) (P.bt1 2) (P.W2 2) (P.b2 2) (P.go 2) (P.bo 2)
    (∀ n d, (W18 m ρ c (Proc.devRef .tc main_v145_0) : S50000x64.Idx → EReal) (ix2 n d) = F n d)
    ∧ (∀ g d, (W18 m ρ c (Proc.devRef .tc main_v145_1) : S512x64.Idx → EReal) (ix2 g d) = Cert.Spec.pool F (segK m c) g d) := by
  intro P F
  obtain ⟨a0, a1, a2⟩ := stage6 m ρ c H hH
  obtain ⟨b0, b1, b2⟩ := stage7 m ρ c (lin1L2 m c H) a0 a1 a2
  exact stage8 m ρ c (lin2L2 m c H) b0 b1 b2

end Cert.KernelIdeal.Value

end
-- ==== Proof.KernelIdeal.Value.lean ====
import proofs.«428437_j36421322670670_1_alg».proof.Proof.KernelIdeal.Layer0
import proofs.«428437_j36421322670670_1_alg».proof.Proof.KernelIdeal.Layer1
import proofs.«428437_j36421322670670_1_alg».proof.Proof.KernelIdeal.Layer2
import Idealize.ShloMosaic.Lib.StableHlo.Run
import Idealize.ShloMosaic.Lib.Pipeline.Value

/-! # The kernel program's result, as a value

The program's last host operation lays the three layers' pooled tables side by side along the columns. The first two
pooled tables were written by regions 2 and 5 and are touched by nothing afterwards, so they are read at region 8's exit
as they were left; the third is region 8's own. Column by column the side-by-side table is the specification's result:
the first 64 columns the first layer's pooled table, the next 64 the second's, the last 64 the third's, each layer
taking the previous layer's feature table, the variance obtained from the moments. -/

set_option maxRecDepth 16384

noncomputable section

namespace Cert.KernelIdeal.Value.Result

open Idealize.ShloMosaic Idealize.ShloMosaic.TcCoe Idealize.ShloMosaic.ValueIdx
open Idealize.ShloMosaic.StableHlo
open Cert.KernelIdeal.Gen
open Cert.Spec (Act Mat Row Params)

variable (m : Mem) (ρ : Dev nD → PrngReg)

/-! ## Three pooled tables side by side, read at a coordinate -/

/-- Three 512 × 64 tables laid side by side along the columns: column `j` of the result is column `j` of the first
    below 64, column `j - 64` of the second below 128, and column `j - 128` of the third from there on. -/
theorem sideBySide_apply (A B C : S512x64.Idx → EReal) (g : Fin 512) (j : Fin 192) :
    concatenate S512x192 1 [⟨S512x64, A⟩, ⟨S512x64, B⟩, ⟨S512x64, C⟩] concatenates_S512x64_S512x64_S512x64_S512x192_d1 (ix2 g j)
      = if h0 : j.val < 64 then A (ix2 g ⟨j.val, h0⟩)
        else if h1 : j.val < 128 then B (ix2 g ⟨j.val - 64, by omega⟩)
        else C (ix2 g ⟨j.val - 128, by omega⟩) := by
  by_cases h0 : j.val < 64
  · rw [dif_pos h0]
    refine concatenate_apply_piece (1 : Fin S512x192.rank) _ _ (ix2 g j) 0 (by show (0 : Nat) < 3; omega) S512x64 A rfl rfl 0 rfl
      (ix2 g ⟨j.val, h0⟩) (fun b hb => ?_) ?_
    · match b with
      | ⟨0, _⟩ => rfl
      | ⟨1, _⟩ => exact absurd rfl hb
    · show 0 + j.val = j.val
      omega
  · rw [dif_neg h0]
    by_cases h1 : j.val < 128
    · rw [dif_pos h1]
      refine concatenate_apply_piece (1 : Fin S512x192.rank) _ _ (ix2 g j) 1 (by show (1 : Nat) < 3; omega) S512x64 B rfl rfl 64 rfl
        (ix2 g ⟨j.val - 64, by omega⟩) (fun b hb => ?_) ?_
      · match b with
        | ⟨0, _⟩ => rfl
        | ⟨1, _⟩ => exact absurd rfl hb
      · show 64 + (j.val - 64) = j.val
        omega
    · rw [dif_neg h1]
      refine concatenate_apply_piece (1 : Fin S512x192.rank) _ _ (ix2 g j) 2 (by show (2 : Nat) < 3; omega) S512x64 C rfl rfl 128 rfl
        (ix2 g ⟨j.val - 128, by omega⟩) (fun b hb => ?_) ?_
      · match b with
        | ⟨0, _⟩ => rfl
        | ⟨1, _⟩ => exact absurd rfl hb
      · show 128 + (j.val - 128) = j.val
        have := j.isLt
        omega

/-! ## The pooled tables of the first two layers are kept to the end -/

/-- A reference that nothing from the seventh stretch to region 8 touches holds at region 8's exit what it held at
    region 5's. -/
theorem W18_eq_W12 (c : Dev nD) (r : Ref sig .tc)
    (h6 : r ∉ hostOps6_W) (a6 : ∀ w, Pipeline.arrRef spec6 w ≠ r) (h7 : r ∉ hostOps7_W) (a7 : ∀ w, Pipeline.arrRef spec7 w ≠ r)
    (h8 : r ∉ hostOps8_W) (a8 : ∀ w, Pipeline.arrRef spec8 w ≠ r) :
    W18 m ρ c (Proc.devRef .tc r) = W12 m ρ c (Proc.devRef .tc r) :=
  (Wout8_of_ne m ρ c r a8).trans <|
    (W17_keeps m ρ c r h8).trans <|
    (Wout7_of_ne m ρ c r a7).trans <|
    (W15_keeps m ρ c r h7).trans <|
    (Wout6_of_ne m ρ c r a6).trans <|
    W13_keeps m ρ c r h6

/-- A reference that nothing from the fourth stretch to region 5 touches holds at region 5's exit what it held at
    region 2's. -/
theorem W12_eq_W6 (c : Dev nD) (r : Ref sig .tc)
    (h3 : r ∉ hostOps3_W) (a3 : ∀ w, Pipeline.arrRef spec3 w ≠ r) (h4 : r ∉ hostOps4_W) (a4 : ∀ w, Pipeline.arrRef spec4 w ≠ r)
    (h5 : r ∉ hostOps5_W) (a5 : ∀ w, Pipeline.arrRef spec5 w ≠ r) :
    W12 m ρ c (Proc.devRef .tc r) = W6 m ρ c (Proc.devRef .tc r) :=
  (Wout5_of_ne m ρ c r a5).trans <|
    (W11_keeps m ρ c r h5).trans <|
    (Wout4_of_ne m ρ c r a4).trans <|
    (W9_keeps m ρ c r h4).trans <|
    (Wout3_of_ne m ρ c r a3).trans <|
    W7_keeps m ρ c r h3

theorem W18_pooled0 (c : Dev nD) :
    (W18 m ρ c (Proc.devRef .tc main_v51_1) : S512x64.Idx → EReal) = W6 m ρ c (Proc.devRef .tc main_v51_1) :=
  (W18_eq_W12 m ρ c main_v51_1 (by decide) (by decide) (by decide) (by decide) (by decide) (by decide)).trans
    (W12_eq_W6 m ρ c main_v51_1 (by decide) (by decide) (by decide) (by decide) (by decide) (by decide))

theorem W18_pooled1 (c : Dev nD) :
    (W18 m ρ c (Proc.devRef .tc main_v98_1) : S512x64.Idx → EReal) = W12 m ρ c (Proc.devRef .tc main_v98_1) :=
  W18_eq_W12 m ρ c main_v98_1 (by decide) (by decide) (by decide) (by decide) (by decide) (by decide)

/-! ## The result -/

/-- The last stretch lays its three operands side by side in the result buffer. -/
theorem host9_result (X : Valuation τ sig (Elt Ideal)) :
    (StableHlo.after (hostOps9 (F := Ideal)) X (Proc.devRef .tc main_v146) : S512x192.Idx → EReal)
      = concatenate S512x192 1 [⟨S512x64, (X (Proc.devRef .tc main_v51_1) : S512x64.Idx → EReal)⟩,
          ⟨S512x64, (X (Proc.devRef .tc main_v98_1) : S512x64.Idx → EReal)⟩,
          ⟨S512x64, (X (Proc.devRef .tc main_v145_1) : S512x64.Idx → EReal)⟩]
          concatenates_S512x64_S512x64_S512x64_S512x192_d1 := by
  after_results <;> rfl

/-- The program's result buffer after its last stretch: the three pooled tables side by side. -/
theorem W19_result (c : Dev nD) :
    (W19 m ρ c (Proc.devRef .tc main_v146) : S512x192.Idx → EReal)
      = concatenate S512x192 1 [⟨S512x64, (W18 m ρ c (Proc.devRef .tc main_v51_1) : S512x64.Idx → EReal)⟩,
          ⟨S512x64, (W18 m ρ c (Proc.devRef .tc main_v98_1) : S512x64.Idx → EReal)⟩,
          ⟨S512x64, (W18 m ρ c (Proc.devRef .tc main_v145_1) : S512x64.Idx → EReal)⟩]
          concatenates_S512x64_S512x64_S512x64_S512x192_d1 :=
  host9_result (W18 m ρ c)

end Cert.KernelIdeal.Value.Result

namespace Cert.KernelIdeal.Value

open Idealize.ShloMosaic Idealize.ShloMosaic.TcCoe Idealize.ShloMosaic.ValueIdx
open Cert.KernelIdeal.Gen
open Cert.Spec (Act Mat Row Params)
open Cert.KernelIdeal.Value.Result

variable (m : Mem) (ρ : Dev nD → PrngReg)

/-- The whole kernel program: entry `(g, j)` of its result is the specification's result, the variance taken from the
    moments, on the launch memory's features, parameters, edge list and segment words. -/
theorem kernel_value (c : Dev nD) (g : Fin 512) (j : Fin 192) :
    (W19 m ρ c (Proc.devRef .tc main_v146) : S512x192.Idx → EReal) (ix2 g j)
      = Cert.Spec.result Cert.Spec.varMoments (aggK m c) (xK m c) (paramsK m c) (segK m c) g j := by
  obtain ⟨f1, p1⟩ := layer0_value m ρ c
  obtain ⟨f2, p2⟩ := layer1_value m ρ c (Cert.Spec.feats Cert.Spec.varMoments (aggK m c) (xK m c) (paramsK m c) 1) f1
  obtain ⟨f3, p3⟩ := layer2_value m ρ c (Cert.Spec.feats Cert.Spec.varMoments (aggK m c) (xK m c) (paramsK m c) 2) f2
  rw [W19_result, sideBySide_apply]
  unfold Cert.Spec.result
  by_cases h0 : j.val < 64
  · rw [dif_pos h0, dif_pos h0]
    exact (congrFun (W18_pooled0 m ρ c) _).trans (p1 g _)
  · rw [dif_neg h0, dif_neg h0]
    by_cases h1 : j.val < 128
    · rw [dif_pos h1, dif_pos h1]
      exact (congrFun (W18_pooled1 m ρ c) _).trans (p2 g _)
    · rw [dif_neg h1, dif_neg h1]
      exact p3 g _

end Cert.KernelIdeal.Value

end
-- ==== Proof.KernelIdeal.Finite.lean ====
import proofs.«428437_j36421322670670_1_alg».proof.Defs
import proofs.«428437_j36421322670670_1_alg».proof.Proof.Spec
import Idealize.ShloMosaic.Lib.ReduceAll
import Idealize.ShloMosaic.Lib.ValueIdx
import Idealize.ShloMosaic.PureOps.Ideal
import Mathlib.Data.EReal.Basic

/-! From the precondition to the reals.

The precondition compares, for every float argument, the absolute value of each entry with the float
`+∞`, takes the conjunction over the entries of each argument and then over the arguments, and says the
result is one. Over the extended reals `|x| = max x (-x)`, and `max x (-x) < ⊤` excludes both `⊤` and
`⊥`: every entry of every float argument is a real number. -/

noncomputable section

namespace Cert.KernelIdeal.Value

open Idealize.ShloMosaic

/-- The pattern `0x7F800000` read as a single-precision float is `+∞`. -/
theorem inf_bits : Ideal.ofBits .f32 0x7F800000#32 = (⊤ : EReal) := by
  simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : Cert.Spec.IsReal x := by
  rw [inf_bits] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One argument: if the conjunction over all entries of `|x| < +∞` is one, every entry of `x` is real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : Cert.Spec.IsReal (x i) :=
  isReal_of_abs_lt_inf (x i) (Host.reduce_andi_all _ _ hr hu ValueIdx.ix0 e i)

/-- Under the precondition every entry of every float argument is a real number. -/
theorem finite_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsReal ((m ((c.tc : Thread Cert.KernelIdeal.nD Cert.KernelIdeal.τ).loc Cert.KernelIdeal.main_arg0) : Cert.KernelIdeal.S50000x64.Idx → EReal) i))
    ∧ (∀ i, Cert.Spec.IsReal ((m ((c.tc : Thread Cert.KernelIdeal.nD Cert.KernelIdeal.τ).loc Cert.KernelIdeal.main_arg3) : Cert.KernelIdeal.S3x64x64.Idx → EReal) i))
    ∧ (∀ i, Cert.Spec.IsReal ((m ((c.tc : Thread Cert.KernelIdeal.nD Cert.KernelIdeal.τ).loc Cert.KernelIdeal.main_arg4) : Cert.KernelIdeal.S3x64.Idx → EReal) i))
    ∧ (∀ i, Cert.Spec.IsReal ((m ((c.tc : Thread Cert.KernelIdeal.nD Cert.KernelIdeal.τ).loc Cert.KernelIdeal.main_arg5) : Cert.KernelIdeal.S3x64.Idx → EReal) i))
    ∧ (∀ i, Cert.Spec.IsReal ((m ((c.tc : Thread Cert.KernelIdeal.nD Cert.KernelIdeal.τ).loc Cert.KernelIdeal.main_arg6) : Cert.KernelIdeal.S3x64.Idx → EReal) i))
    ∧ (∀ i, Cert.Spec.IsReal ((m ((c.tc : Thread Cert.KernelIdeal.nD Cert.KernelIdeal.τ).loc Cert.KernelIdeal.main_arg7) : Cert.KernelIdeal.S3x64x64.Idx → EReal) i))
    ∧ (∀ i, Cert.Spec.IsReal ((m ((c.tc : Thread Cert.KernelIdeal.nD Cert.KernelIdeal.τ).loc Cert.KernelIdeal.main_arg8) : Cert.KernelIdeal.S3x64.Idx → EReal) i))
    ∧ (∀ i, Cert.Spec.IsReal ((m ((c.tc : Thread Cert.KernelIdeal.nD Cert.KernelIdeal.τ).loc Cert.KernelIdeal.main_arg9) : Cert.KernelIdeal.S3x64.Idx → EReal) i))
    ∧ (∀ i, Cert.Spec.IsReal ((m ((c.tc : Thread Cert.KernelIdeal.nD Cert.KernelIdeal.τ).loc Cert.KernelIdeal.main_arg10) : Cert.KernelIdeal.S3x64.Idx → EReal) i)) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e0, e3⟩, e4⟩, e5⟩, e6⟩, e7⟩, e8⟩, e9⟩, e10⟩ := h0
  exact ⟨all_real _ _ _ _ e0, all_real _ _ _ _ e3, all_real _ _ _ _ e4, all_real _ _ _ _ e5,
    all_real _ _ _ _ e6, all_real _ _ _ _ e7, all_real _ _ _ _ e8, all_real _ _ _ _ e9, all_real _ _ _ _ e10⟩

end Cert.KernelIdeal.Value

end
-- ==== Proof.Reference.Inputs.lean ====
import proofs.«428437_j36421322670670_1_alg».proof.Proof.Reference.Run
import proofs.«428437_j36421322670670_1_alg».proof.Proof.Spec
import proofs.«428437_j36421322670670_1_alg».proof.Proof.SpecTiles
import proofs.«428437_j36421322670670_1_alg».proof.Proof.SpecLaws
import Idealize.ShloMosaic.Lib.IdealHost
import Idealize.ShloMosaic.Lib.ValueLayout

/-! # The reference's inputs, its neighbour sum, and its buffers layer by layer

The reference reads eleven argument buffers: the feature table, the edge list (a row of sources and a row of
destinations), the segment of every node, and eight stacks of per-layer parameters. Each of its three layers first
sums, into every node, the rows of the nodes that have an edge into it: it gathers the table's rows at the edges'
sources (a negative source wrapped by the node count) and scatter-adds them, from zero, at the edges' destinations.
That is one function of the table, the same in all three layers, named here as the composition of the library's
operations the run shows, so that another program running the identical chain names the identical function.

The run is cut after each layer's pooled table: `Y1`, `Y2`, `Y3` are the buffers' contents at the three cuts, the
result is the three pooled tables side by side, and a pooled table, once written, is never written again. -/

noncomputable section

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx

/-- A memory of the reference at the extended reals. -/
abbrev Mem : Type := (ℓ : Loc nD τ sig) → Buf (Elt Ideal) ℓ

/-! ## The inputs -/

/-- The feature table: the first argument at (node, feature). -/
def xR (m : Mem) (c : Dev nD) : Cert.Spec.Act :=
  fun n k => (V0 m c (Proc.devRef .tc main_arg0) : S50000x64.Idx → EReal) (ix2 n k)

/-- The segment word of every node: the third argument. -/
def segR (m : Mem) (c : Dev nD) : Fin 50000 → BitVec 32 :=
  fun n => (V0 m c (Proc.devRef .tc main_arg2) : S50000.Idx → BitVec 32) (ix1 n)

/-- The parameters, layer by layer: the last eight arguments. -/
def paramsR (m : Mem) (c : Dev nD) : Cert.Spec.Params where
  W1 := fun l k d => (V0 m c (Proc.devRef .tc main_arg3) : S3x64x64.Idx → EReal) (ix3 l k d)
  b1 := fun l d => (V0 m c (Proc.devRef .tc main_arg4) : S3x64.Idx → EReal) (ix2 l d)
  g1 := fun l d => (V0 m c (Proc.devRef .tc main_arg5) : S3x64.Idx → EReal) (ix2 l d)
  bt1 := fun l d => (V0 m c (Proc.devRef .tc main_arg6) : S3x64.Idx → EReal) (ix2 l d)
  W2 := fun l k d => (V0 m c (Proc.devRef .tc main_arg7) : S3x64x64.Idx → EReal) (ix3 l k d)
  b2 := fun l d => (V0 m c (Proc.devRef .tc main_arg8) : S3x64.Idx → EReal) (ix2 l d)
  go := fun l d => (V0 m c (Proc.devRef .tc main_arg9) : S3x64.Idx → EReal) (ix2 l d)
  bo := fun l d => (V0 m c (Proc.devRef .tc main_arg10) : S3x64.Idx → EReal) (ix2 l d)

/-! ## The neighbour sum -/

/-- The neighbour sum of a table `t` along an edge list `e`: the rows of `t` gathered at the sources (row 0 of `e`, a
    negative word wrapped by 50000), scatter-added from zero at the destinations (row 1 of `e`). -/
def aggOf (e : S2x800000.Idx → BitVec 32) (t : S50000x64.Idx → EReal) : S50000x64.Idx → EReal :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast S800000 (extractStridedSlice S1x800000 ![1, 0] e slices_S2x800000_S1x800000_1_0) shapeCasts_S1x800000_S800000))
    (Host.gather gather_S50000x64_S800000x1_S800000x64_1_0_n_n_0_1_164 t
      (broadcastInDim S800000x1 ![0] bcast_S800000_S800000x1_0
        (select
          (cmpi .slt
            (shapeCast S800000 (extractStridedSlice S1x800000 ![0, 0] e slices_S2x800000_S1x800000_0_0) shapeCasts_S1x800000_S800000)
            (broadcastInDim S800000 ![] bcast_S_S800000 (constantI S_ 32 0#32)))
          (addi
            (shapeCast S800000 (extractStridedSlice S1x800000 ![0, 0] e slices_S2x800000_S1x800000_0_0) shapeCasts_S1x800000_S800000)
            (broadcastInDim S800000 ![] bcast_S_S800000 (constantI S_ 32 50000#32)))
          (shapeCast S800000 (extractStridedSlice S1x800000 ![0, 0] e slices_S2x800000_S1x800000_0_0) shapeCasts_S1x800000_S800000))))

/-- The neighbour sum along the reference's edge list, as a function of the feature table. -/
def aggR (m : Mem) (c : Dev nD) : Cert.Spec.Act → Cert.Spec.Act :=
  fun h n k => aggOf (V0 m c (Proc.devRef .tc main_arg1)) (fun i => h (i 0) (i 1)) (ix2 n k)

/-- A scatter-add of real updates into a real operand is real, at any shapes: an operand entry plus a finite sum of updates. -/
theorem scatterAdd_real {s si su : Shape} (d : ScatterDims s si su) {w : Nat} (x : s.Idx → EReal) (idx : IVec si w)
    (upd : su.Idx → EReal) (hx : ∀ i, Cert.Spec.IsReal (x i)) (hu : ∀ j, Cert.Spec.IsReal (upd j)) (i : s.Idx) :
    Cert.Spec.IsReal (Host.scatterAdd (F := Ideal) (φ := .f32) d x idx upd i) :=
  Cert.Spec.IsReal.add (hx i) (Cert.Spec.IsReal.sum _ _ fun j _ => hu j)

/-- A gather of a real table is real, at any shapes: every entry is an entry of the table. -/
theorem gather_real {s si t : Shape} (d : GatherDims s si t) {w : Nat} (x : s.Idx → EReal) (idx : IVec si w)
    (hx : ∀ i, Cert.Spec.IsReal (x i)) (j : t.Idx) : Cert.Spec.IsReal (Host.gather d x idx j) :=
  hx _

/-- The zero literal laid over any shape is real. -/
theorem zeros_real {T : Shape} (h : S_.BroadcastsInDim T ![]) (i : T.Idx) :
    Cert.Spec.IsReal (broadcastInDim T ![] h (constant (F := Ideal) S_ .f32 0x00000000#32) i) := by
  rw [show broadcastInDim T ![] h (constant (F := Ideal) S_ .f32 0x00000000#32) i = (0 : EReal) from Cert.Spec.ofBits_zero]
  exact Cert.Spec.IsReal.zero

/-- The neighbour sum of a real table along any edge list is real. -/
theorem aggOf_real (e : S2x800000.Idx → BitVec 32) (t : S50000x64.Idx → EReal) (ht : ∀ i, Cert.Spec.IsReal (t i))
    (i : S50000x64.Idx) : Cert.Spec.IsReal (aggOf e t i) :=
  scatterAdd_real _ _ _ _ (zeros_real bcast_S_S50000x64) (fun j => gather_real _ _ _ ht j) i

/-- The neighbour sum of a table of real numbers is a table of real numbers: every entry is zero plus a finite sum of
    entries of the table. -/
theorem aggR_real (m : Mem) (c : Dev nD) (h : Cert.Spec.Act) (hh : Cert.Spec.RealAct h) : Cert.Spec.RealAct (aggR m c h) :=
  fun n k => aggOf_real _ _ (fun i => hh (i 0) (i 1)) (ix2 n k)

/-! ## The run cut at the layers -/

section Cuts

variable {Val : EltTy → Type}

/-- A line run to its end is its first `n` operations run, then the rest. -/
theorem after_take_drop (n : Nat) (l : List (HloOp τ sig Val)) (V : Valuation τ sig Val) :
    after l V = after (l.drop n) (after (l.take n) V) := by
  rw [← StableHlo.after_append, List.take_append_drop]

/-- A reference outside a list that holds every reference a line writes is kept by the line's first `n` operations. -/
theorem after_take_keep {W : List (Ref sig .tc)} {r : Ref sig .tc} (n : Nat) (l : List (HloOp τ sig Val)) (V : Valuation τ sig Val)
    (hW : l.Forall fun op => op.writes ⊆ (W.map (Proc.devRef (τ := τ) .tc)).toFinset) (hr : r ∉ W) :
    after (l.take n) V (Proc.devRef .tc r) = V (Proc.devRef .tc r) :=
  after_of_writes_sub (l.take n) V
    (List.forall_iff_forall_mem.mpr fun op h => List.forall_iff_forall_mem.mp hW op (List.mem_of_mem_take h)) hr

/-- … and by all but its first `n` operations. -/
theorem after_drop_keep {W : List (Ref sig .tc)} {r : Ref sig .tc} (n : Nat) (l : List (HloOp τ sig Val)) (V : Valuation τ sig Val)
    (hW : l.Forall fun op => op.writes ⊆ (W.map (Proc.devRef (τ := τ) .tc)).toFinset) (hr : r ∉ W) :
    after (l.drop n) V (Proc.devRef .tc r) = V (Proc.devRef .tc r) :=
  after_of_writes_sub (l.drop n) V
    (List.forall_iff_forall_mem.mpr fun op h => List.forall_iff_forall_mem.mp hW op (List.mem_of_mem_drop h)) hr

end Cuts

/-- The buffers once the first layer's pooled table is written: the first window and 57 operations of the second. -/
def Y1 (m : Mem) (c : Dev nD) : Valuation τ sig (Elt Ideal) :=
  after (ops1.take 57) (after ops0 (V0 m c))

/-- The buffers once the second layer's pooled table is written: the rest of the second window, the third, and 4
    operations of the fourth. -/
def Y2 (m : Mem) (c : Dev nD) : Valuation τ sig (Elt Ideal) :=
  after (ops3.take 4) (after ops2 (after (ops1.drop 57) (Y1 m c)))

/-- The buffers once the third layer's pooled table is written: the rest of the fourth window and 57 operations of
    the fifth; one operation is left, which lays the three pooled tables side by side. -/
def Y3 (m : Mem) (c : Dev nD) : Valuation τ sig (Elt Ideal) :=
  after (ops4.take 57) (after (ops3.drop 4) (Y2 m c))

/-! ## What a cut keeps -/

/-- A buffer no window writes (an argument) is at every cut as launched. -/
theorem Y1_keep (m : Mem) (c : Dev nD) (r : Ref sig .tc) (h0 : r ∉ ops0_W) (h1 : r ∉ ops1_W) :
    Y1 m c (Proc.devRef .tc r) = V0 m c (Proc.devRef .tc r) := by
  unfold Y1
  rw [after_take_keep 57 ops1 _ ops1_writes h1, after_of_writes_sub ops0 _ ops0_writes h0]

theorem Y2_keep (m : Mem) (c : Dev nD) (r : Ref sig .tc) (h1 : r ∉ ops1_W) (h2 : r ∉ ops2_W) (h3 : r ∉ ops3_W) :
    Y2 m c (Proc.devRef .tc r) = Y1 m c (Proc.devRef .tc r) := by
  unfold Y2
  rw [after_take_keep 4 ops3 _ ops3_writes h3, after_of_writes_sub ops2 _ ops2_writes h2,
    after_drop_keep 57 ops1 _ ops1_writes h1]

theorem Y3_keep (m : Mem) (c : Dev nD) (r : Ref sig .tc) (h3 : r ∉ ops3_W) (h4 : r ∉ ops4_W) :
    Y3 m c (Proc.devRef .tc r) = Y2 m c (Proc.devRef .tc r) := by
  unfold Y3
  rw [after_take_keep 57 ops4 _ ops4_writes h4, after_drop_keep 4 ops3 _ ops3_writes h3]

end Cert.ReferenceIdeal.Value

end
-- ==== Proof.Reference.Layer0.lean ====
import proofs.«428437_j36421322670670_1_alg».proof.Proof.Reference.Inputs
import proofs.«428437_j36421322670670_1_alg».proof.Proof.LibPlainDot

/-! # The reference's first layer

The reference's first layer is 140 host operations. They are cut into eight stretches: the neighbour sum, a linear map,
a normalisation (the scale and shift rows, the mean, the variance computed by its own function, then the normalised
table), a clip at zero, a second linear map, a second normalisation, a second clip, and the sum of the feature rows by
segment. Each stretch computes one array from the previous stretch's array and the arguments, so the value of the
layer is the composition of eight array functions, each of which is read at an index as the corresponding formula of
the mathematics: a sum of products plus a bias, a column mean, a centred column variance (the function divides by the
node count less a converted zero and selects the quotient over a junk literal under a comparison that holds), a
normalised entry clipped at zero, and a sum over the nodes of one segment. -/

noncomputable section

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx

/-! ## The layer's operations as functions of arrays

Each stretch of a layer computes one array from a few others. The arrays are named here as the compositions of library
operations the run shows, and each is read at an index. -/

section Arrays

/-- Layer `o` of a stack of three 64 × 64 matrices. -/
def matT (P : S3x64x64.Idx → EReal) (o : Nat) (h : S3x64x64.Slices ![o, 0, 0] S1x64x64) : S64x64.Idx → EReal :=
  shapeCast S64x64 (extractStridedSlice S1x64x64 ![o, 0, 0] P h) shapeCasts_S1x64x64_S64x64

/-- Layer `o` of a stack of three rows of 64. -/
def rowT (P : S3x64.Idx → EReal) (o : Nat) (h : S3x64.Slices ![o, 0] S1x64) : S64.Idx → EReal :=
  shapeCast S64 (extractStridedSlice S1x64 ![o, 0] P h) shapeCasts_S1x64_S64

/-- A row of 64 laid under every node. -/
def rowsT (v : S64.Idx → EReal) : S50000x64.Idx → EReal :=
  broadcastInDim S50000x64 ![0, 1] bcast_S1x64_S50000x64_0_1 (broadcastInDim S1x64 ![1] bcast_S64_S1x64_1 v)

/-- A linear map with bias. -/
def linT (z : S50000x64.Idx → EReal) (W : S64x64.Idx → EReal) (b : S64.Idx → EReal) : S50000x64.Idx → EReal :=
  addf (F := Ideal) (φ := .f32) (Host.dotGeneral (F := Ideal) (φ₁ := .f32) (φ₂ := .f32) dot_S50000x64_S64x64_S50000x64_1_0_0_1_n_n none z W) (rowsT b)

/-- The column sums. -/
def sumT (y : S50000x64.Idx → EReal) : S64.Idx → EReal :=
  Host.reduceAdd (F := Ideal) (φ := .f32) y (constant (F := Ideal) S_ .f32 0x00000000#32) reducesTo_S50000x64_S64_d0 h_S_

/-- The column means. -/
def meanT (y : S50000x64.Idx → EReal) : S64.Idx → EReal :=
  Host.divf (F := Ideal) (φ := .f32) (sumT y) (broadcastInDim S64 ![] bcast_S_S64 (constant (F := Ideal) S_ .f32 0x47435000#32))

/-- The node count less the converted integer zero, as the variance's function computes its divisor. -/
def countT : S_.Idx → EReal :=
  subf (F := Ideal) (φ := .f32) (constant (F := Ideal) S_ .f32 0x47435000#32) (sitofp (F := Ideal) .f32 (constantI S_ 32 0#32))

/-- The deviations from the column means, as the variance's function computes them. -/
def devT (y : S50000x64.Idx → EReal) : S50000x64.Idx → EReal :=
  subf (F := Ideal) (φ := .f32) y
    (broadcastInDim S50000x64 ![0, 1] bcast_S1x64_S50000x64_0_1
      (Host.divf (F := Ideal) (φ := .f32) (broadcastInDim S1x64 ![1] bcast_S64_S1x64_1 (sumT y))
        (broadcastInDim S1x64 ![] bcast_S_S1x64 (constant (F := Ideal) S_ .f32 0x47435000#32))))

/-- The column variances, as the variance's function computes them: the squared deviations summed, divided by the
    count, chosen over a junk literal where the count is positive. -/
def varT (y : S50000x64.Idx → EReal) : S64.Idx → EReal :=
  select (broadcastInDim S64 ![] bcast_S_S64 (cmpf (F := Ideal) (φ := .f32) .ogt countT (constant (F := Ideal) S_ .f32 0x00000000#32)))
    (Host.divf (F := Ideal) (φ := .f32) (sumT (mulf (F := Ideal) (φ := .f32) (devT y) (devT y))) (broadcastInDim S64 ![] bcast_S_S64 countT))
    (broadcastInDim S64 ![] bcast_S_S64 (id (constant (F := Ideal) S_ .f32 0x7FC00000#32)))

/-- Normalise, scale and shift. -/
def bnT (y : S50000x64.Idx → EReal) (mu var g b : S64.Idx → EReal) : S50000x64.Idx → EReal :=
  addf (F := Ideal) (φ := .f32)
    (mulf (F := Ideal) (φ := .f32)
      (mulf (F := Ideal) (φ := .f32) (subf (F := Ideal) (φ := .f32) y (rowsT mu))
        (rowsT (Host.rsqrt (F := Ideal) (φ := .f32) (addf (F := Ideal) (φ := .f32) var (broadcastInDim S64 ![] bcast_S_S64 (constant (F := Ideal) S_ .f32 0x3727C5AC#32))))))
      (rowsT g))
    (rowsT b)

/-- Clip below at zero. -/
def reluT (x : S50000x64.Idx → EReal) : S50000x64.Idx → EReal :=
  maximumf (F := Ideal) (φ := .f32) x (broadcastInDim S50000x64 ![] bcast_S_S50000x64 (constant (F := Ideal) S_ .f32 0x00000000#32))

/-- Sum the rows of each segment. -/
def poolT (seg : S50000.Idx → BitVec 32) (h : S50000x64.Idx → EReal) : S512x64.Idx → EReal :=
  Host.scatterAdd (F := Ideal) (φ := .f32) scatter_S512x64_S50000x1_S50000x64_1_0_0_1
    (broadcastInDim S512x64 ![] bcast_S_S512x64 (constant (F := Ideal) S_ .f32 0x00000000#32))
    (broadcastInDim S50000x1 ![0] bcast_S50000_S50000x1_0 seg) h

/-! ### … read at an index -/

theorem matT_apply (P : S3x64x64.Idx → EReal) (o : Nat) (h : S3x64x64.Slices ![o, 0, 0] S1x64x64) (l : Fin 3) (hl : l.val = o)
    (k d : Fin 64) : matT P o h (ix2 k d) = P (ix3 l k d) := by
  unfold matT
  rw [shapeCast_1ab_ab_apply]
  exact extractStridedSlice_apply _ _ _ _ (ix3 l k d) (fun a => by
    match a with
    | ⟨0, _⟩ => show l.val = o + 0; omega
    | ⟨1, _⟩ => exact (Nat.zero_add _).symm
    | ⟨2, _⟩ => exact (Nat.zero_add _).symm)

theorem rowT_apply (P : S3x64.Idx → EReal) (o : Nat) (h : S3x64.Slices ![o, 0] S1x64) (l : Fin 3) (hl : l.val = o)
    (d : Fin 64) : rowT P o h (ix1 d) = P (ix2 l d) := by
  unfold rowT
  rw [shapeCast_1a_a_apply]
  exact slice2_axis0_apply o P h (0 : Fin 1) d l (by show l.val = o + 0; omega)

theorem rowsT_apply (v : S64.Idx → EReal) (n : Fin 50000) (d : Fin 64) : rowsT v (ix2 n d) = v (ix1 d) :=
  Cert.LibPlainDot.rowBroadcastInDim_apply v bcast_S64_S1x64_1 bcast_S1x64_S50000x64_0_1 n d

theorem linT_apply (z : S50000x64.Idx → EReal) (W : S64x64.Idx → EReal) (b : S64.Idx → EReal) (n : Fin 50000) (d : Fin 64) :
    linT z W b (ix2 n d) = (∑ k : Fin 64, z (ix2 n k) * W (ix2 k d)) + b (ix1 d) := by
  unfold linT
  rw [addf_apply, rowsT_apply]
  exact congrArg (· + b (ix1 d)) (Cert.LibPlainDot.dotGeneral_plain (M := 50000) (K := 64) (N := 64) none .single z W (ix2 n d))

theorem sumT_apply (y : S50000x64.Idx → EReal) (d : Fin 64) : sumT y (ix1 d) = ∑ n : Fin 50000, y (ix2 n d) := by
  unfold sumT
  rw [hostReduceAdd_apply, Ideal.hostReduceAdd_single reducesTo_S50000x64_S64_d0 (by decide : S50000x64.Reduces [0] S64)]
  refine (congrArg (· + _) Cert.Spec.ofBits_zero).trans ((zero_add _).trans ?_)
  refine Finset.sum_congr rfl fun n _ => congrArg y ?_
  funext a
  match a with
  | ⟨0, _⟩ => rfl
  | ⟨1, _⟩ => rfl

theorem meanT_apply (y : S50000x64.Idx → EReal) (d : Fin 64) :
    meanT y (ix1 d) = Cert.Spec.mean (fun n k => y (ix2 n k)) d := by
  unfold meanT
  rw [hostDivf_apply, sumT_apply]
  rfl

theorem countT_apply (i : S_.Idx) : countT i = Cert.Spec.nodes := by
  show Cert.Spec.nodes - (((0#32 : BitVec 32).toInt : ℝ) : EReal) = Cert.Spec.nodes
  rw [show (0#32 : BitVec 32).toInt = 0 from rfl, Int.cast_zero, EReal.coe_zero, sub_zero]

theorem devT_apply (y : S50000x64.Idx → EReal) (n : Fin 50000) (d : Fin 64) :
    devT y (ix2 n d) = y (ix2 n d) - Cert.Spec.mean (fun n k => y (ix2 n k)) d := by
  unfold devT
  rw [subf_apply, broadcastInDim_apply ![0, 1] bcast_S1x64_S50000x64_0_1 _ (ix2 n d) (ix2 (0 : Fin 1) d) (fun a => by
    match a with
    | ⟨0, _⟩ => rfl
    | ⟨1, _⟩ => rfl)]
  rw [hostDivf_apply, broadcastInDim_apply ![1] bcast_S64_S1x64_1 (sumT y) (ix2 (0 : Fin 1) d) (ix1 d) (fun a => by
    match a with
    | ⟨0, _⟩ => rfl), sumT_apply]
  rfl

theorem varT_apply (y : S50000x64.Idx → EReal) (d : Fin 64) :
    varT y (ix1 d) = Cert.Spec.varCentred (fun n k => y (ix2 n k)) d := by
  have hpos : FloatOps.cmpf (F := Ideal) (φ := .f32) .ogt Cert.Spec.nodes (Ideal.ofBits .f32 0x00000000#32) = 1#1 := by
    show BitVec.ofBool (decide (Ideal.ofBits .f32 0x00000000#32 < Cert.Spec.nodes)) = 1#1
    rw [Cert.Spec.ofBits_zero, Cert.Spec.nodes_eq]
    have h : (0 : EReal) < ((50000 : ℝ) : EReal) := by exact_mod_cast (by norm_num : (0 : ℝ) < 50000)
    rw [decide_eq_true h]; rfl
  unfold varT
  rw [select_apply, broadcastInDim_scalar_apply, cmpf_apply, countT_apply, constant_apply, hpos, select_one,
    hostDivf_apply, broadcastInDim_scalar_apply, countT_apply, sumT_apply]
  show Ideal.div _ Cert.Spec.nodes = Ideal.div _ Cert.Spec.nodes
  refine congrArg (Ideal.div · Cert.Spec.nodes) (Finset.sum_congr rfl fun n _ => ?_)
  rw [mulf_apply, devT_apply]

theorem bnT_apply (y : S50000x64.Idx → EReal) (mu var g b : S64.Idx → EReal) (n : Fin 50000) (d : Fin 64) :
    bnT y mu var g b (ix2 n d)
      = (y (ix2 n d) - mu (ix1 d)) * Ideal.rsqrt (var (ix1 d) + Cert.Spec.eps) * g (ix1 d) + b (ix1 d) := by
  unfold bnT
  rw [addf_apply, mulf_apply, mulf_apply, subf_apply, rowsT_apply, rowsT_apply, rowsT_apply, rowsT_apply]
  rfl

theorem reluT_apply (x : S50000x64.Idx → EReal) (n : Fin 50000) (d : Fin 64) : reluT x (ix2 n d) = max (x (ix2 n d)) 0 := by
  unfold reluT
  rw [maximumf_apply]
  exact congrArg (max (x (ix2 n d))) Cert.Spec.ofBits_zero

end Arrays

/-! ## The pooled table read at an index

A scatter-add from zero is, at each operand index, the sum of the updates that land there. For the pooled table update
(n, d') lands on (g, d) exactly when node n's segment word, read signed, is g, and d' = d: the segment column is the one
start index, along the operand's first axis, and the update's second coordinate is the window coordinate along the
operand's second axis. -/

section Pool

/-- An update lands on an operand index exactly when, on every axis, its start plus its window coordinate is that
    index's coordinate; at any shapes. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have hv : (d.start j idx a + (d.window j a : ℤ)).toNat = (i a).val := congrArg Fin.val (congrFun (Option.some.inj e) a)
      rw [← hv, Int.toNat_of_nonneg (h a).1]
    · intro hall
      refine congrArg some (funext fun a => Fin.ext ?_)
      show (d.start j idx a + (d.window j a : ℤ)).toNat = (i a).val
      rw [hall a, Int.toNat_natCast]
  · rename_i h
    constructor
    · intro e; cases e
    · intro hall
      exact absurd (fun a => by have := (i a).isLt; rw [hall a]; omega) h

/-- The host's scatter-add at an index, at any shapes: the operand's entry plus the sum of the updates landing there. -/
theorem scatterAdd_apply {s si su : Shape} (d : ScatterDims s si su) {w : Nat} (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- A signed 32-bit word is the small number `g` exactly when it is the word of `g`. -/
theorem toInt_eq_small_iff (x : BitVec 32) (g : Fin 512) : x.toInt = (g.val : ℤ) ↔ x = BitVec.ofNat 32 g.val := by
  constructor
  · intro h
    have e := BitVec.ofInt_toInt (x := x)
    rw [h, BitVec.ofInt_natCast] at e
    exact e.symm
  · rintro rfl
    have hn : (BitVec.ofNat 32 g.val).toNat = g.val := by
      rw [BitVec.toNat_ofNat]; exact Nat.mod_eq_of_lt (by have := g.isLt; omega)
    rw [BitVec.toInt_eq_toNat_of_lt (by rw [hn]; have := g.isLt; omega), hn]

variable (seg : S50000.Idx → BitVec 32)

theorem pool_start0 (n : Fin 50000) (d' : Fin 64) :
    scatter_S512x64_S50000x1_S50000x64_1_0_0_1.start (ix2 n d') (broadcastInDim S50000x1 ![0] bcast_S50000_S50000x1_0 seg) (0 : Fin 2)
      = (seg (ix1 n)).toInt := by
  unfold ScatterDims.start
  rw [dif_pos (show (0 : Fin 2) ∈ scatter_S512x64_S50000x1_S50000x64_1_0_0_1.scatterDimsToOperandDims from List.mem_singleton.mpr rfl)]
  refine congrArg BitVec.toInt ?_
  refine broadcastInDim_apply ![0] bcast_S50000_S50000x1_0 seg _ (ix1 n) (fun a => ?_)
  match a with
  | ⟨0, _⟩ => rfl

theorem pool_start1 (n : Fin 50000) (d' : Fin 64) :
    scatter_S512x64_S50000x1_S50000x64_1_0_0_1.start (ix2 n d') (broadcastInDim S50000x1 ![0] bcast_S50000_S50000x1_0 seg) (1 : Fin 2)
      = 0 := by
  unfold ScatterDims.start
  rw [dif_neg (by decide)]

theorem pool_window0 (n : Fin 50000) (d' : Fin 64) :
    scatter_S512x64_S50000x1_S50000x64_1_0_0_1.window (ix2 n d') (0 : Fin 2) = 0 := by
  unfold ScatterDims.window
  rw [dif_neg (by decide)]

theorem pool_window1 (n : Fin 50000) (d' : Fin 64) :
    scatter_S512x64_S50000x1_S50000x64_1_0_0_1.window (ix2 n d') (1 : Fin 2) = d'.val := by
  unfold ScatterDims.window
  rw [dif_pos (by decide)]
  rfl

/-- Update (n, d') lands on (g, d) exactly when node n's segment, read signed, is g and d' = d. -/
theorem pool_hit (n : Fin 50000) (d' : Fin 64) (g : Fin 512) (dd : Fin 64) :
    scatter_S512x64_S50000x1_S50000x64_1_0_0_1.resultIdx? (ix2 n d') (broadcastInDim S50000x1 ![0] bcast_S50000_S50000x1_0 seg) = some (ix2 g dd)
      ↔ (seg (ix1 n)).toInt = (g.val : ℤ) ∧ d' = dd := by
  rw [resultIdx?_eq_some_iff, Fin.forall_fin_two, pool_start0, pool_start1, pool_window0, pool_window1]
  constructor
  · rintro ⟨h0, h1⟩
    have h0' : (seg (ix1 n)).toInt + ((0 : ℕ) : ℤ) = (g.val : ℤ) := h0
    have h1' : (0 : ℤ) + ((d'.val : ℕ) : ℤ) = (dd.val : ℤ) := h1
    exact ⟨by omega, Fin.ext (by omega)⟩
  · rintro ⟨h0, rfl⟩
    exact ⟨show (seg (ix1 n)).toInt + ((0 : ℕ) : ℤ) = (g.val : ℤ) by omega, show (0 : ℤ) + ((d'.val : ℕ) : ℤ) = (d'.val : ℤ) by omega⟩

/-- The pooled table at (g, d): the sum, over the nodes whose segment word is g, of the table at (n, d). -/
theorem poolT_apply (h : S50000x64.Idx → EReal) (g : Fin 512) (dd : Fin 64) :
    poolT seg h (ix2 g dd) = ∑ n : Fin 50000, if seg (ix1 n) = BitVec.ofNat 32 g.val then h (ix2 n dd) else 0 := by
  unfold poolT
  rw [scatterAdd_apply, Finset.sum_filter, sum_idx2]
  refine (congrArg (· + _) Cert.Spec.ofBits_zero).trans ((zero_add _).trans ?_)
  refine Finset.sum_congr rfl fun n _ => ?_
  have e : ∀ b : Fin 64,
      (if scatter_S512x64_S50000x1_S50000x64_1_0_0_1.resultIdx? (ix2 n b) (broadcastInDim S50000x1 ![0] bcast_S50000_S50000x1_0 seg) = some (ix2 g dd)
        then h (ix2 n b) else 0)
        = (if (seg (ix1 n)).toInt = (g.val : ℤ) ∧ b = dd then h (ix2 n b) else 0) :=
    fun b => if_congr (pool_hit seg n b g dd) rfl rfl
  refine (Finset.sum_congr rfl fun b _ => e b).trans ?_
  by_cases hA : (seg (ix1 n)).toInt = (g.val : ℤ)
  · have e2 : ∀ b : Fin 64, (if (seg (ix1 n)).toInt = (g.val : ℤ) ∧ b = dd then h (ix2 n b) else 0) = (if b = dd then h (ix2 n b) else 0) :=
      fun b => if_congr (and_iff_right hA) rfl rfl
    rw [if_pos ((toInt_eq_small_iff _ g).mp hA), Finset.sum_congr rfl fun b _ => e2 b,
      Finset.sum_ite_eq' Finset.univ dd (fun b => h (ix2 n b)), if_pos (Finset.mem_univ _)]
  · have e3 : ∀ b : Fin 64, (if (seg (ix1 n)).toInt = (g.val : ℤ) ∧ b = dd then h (ix2 n b) else 0) = 0 :=
      fun b => if_neg (fun hc => hA hc.1)
    rw [if_neg (fun e => hA ((toInt_eq_small_iff _ g).mpr e)), Finset.sum_congr rfl fun b _ => e3 b, Finset.sum_const_zero]

end Pool

/-! ## The layer's operations, stretch by stretch

The first layer is the first window's 83 operations and the first 57 of the second window. They are cut into eight
stretches, each ending at the one buffer the next stretch reads; the stretches are the same operations in the same
order, so the cut is by computation. -/

section Stretches

variable {F : FTy → Type} [FloatOps F]

/-- The neighbour sum: the edge rows, the wrapped sources, the gather and the scatter-add. -/
abbrev st1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v11 (broadcastInDim S50000x64 ![] bcast_S_S50000x64 : (⟨S_, .f32⟩ : BufTy).Contents (Elt F) → (⟨S50000x64, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The first linear map: the table plus its neighbour sum, times the first weights, plus the first bias. -/
abbrev st2 : List (HloOp τ sig (Elt F)) :=
  [ StableHlo.binary main_arg0 main_v13 main_v14 (addf : (⟨S50000x64, .f32⟩ : BufTy).Contents (Elt F) → (⟨S50000x64, .f32⟩ : BufTy).Contents (Elt F) → (⟨S50000x64, .f32⟩ : BufTy).Contents (Elt F)),
    StableHlo.unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v15 main_v16 rfl shapeCasts_S1x64x64_S64x64,
    StableHlo.binary main_v14 main_v16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v21 main_v22 (addf : (⟨S50000x64, .f32⟩ : BufTy).Contents (Elt F) → (⟨S50000x64, .f32⟩ : BufTy).Contents (Elt F) → (⟨S50000x64, .f32⟩ : BufTy).Contents (Elt F)) ]

/-- The first normalisation: the scale and shift rows, the mean, the variance's function, and the normalised, scaled and shifted table. -/
abbrev st3 : List (HloOp τ sig (Elt F)) :=
  [ StableHlo.unary main_arg5 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_arg6 main_v25 ((extractStridedSlice S1x64 ![0, 0] · slices_S3x64_S1x64_0_0) : (⟨S3x64, .f32⟩ : BufTy).Contents (Elt F) → (⟨S1x64, .f32⟩ : BufTy).Contents (Elt F)),
    StableHlo.reshape main_v25 main_v26 rfl shapeCasts_S1x64_S64,
    StableHlo.nullary main_cst_1 (constant S_ .f32 0x00000000#32),
    StableHlo.binary main_v22 main_cst_1 main_v27 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v22) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v22) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v22 main_v32 main_v33 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v34 (broadcastInDim S64 ![] bcast_S_S64 : (⟨S_, .f32⟩ : BufTy).Contents (Elt F) → (⟨S64, .f32⟩ : BufTy).Contents (Elt F)),
    StableHlo.binary main_v30 main_v34 main_v35 (addf : (⟨S64, .f32⟩ : BufTy).Contents (Elt F) → (⟨S64, .f32⟩ : BufTy).Contents (Elt F) → (⟨S64, .f32⟩ : BufTy).Contents (Elt F)),
    StableHlo.unary main_v35 main_v36 (Host.rsqrt : (⟨S64, .f32⟩ : BufTy).Contents (Elt F) → (⟨S64, .f32⟩ : BufTy).Contents (Elt F)),
    StableHlo.unary main_v36 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S50000x64 ![0, 1] bcast_S1x64_S50000x64_0_1 : (⟨S1x64, .f32⟩ : BufTy).Contents (Elt F) → (⟨S50000x64, .f32⟩ : BufTy).Contents (Elt F)),
    StableHlo.binary main_v33 main_v38 main_v39 (mulf : (⟨S50000x64, .f32⟩ : BufTy).Contents (Elt F) → (⟨S50000x64, .f32⟩ : BufTy).Contents (Elt F) → (⟨S50000x64, .f32⟩ : BufTy).Contents (Elt F)),
    StableHlo.unary main_v24 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v39 main_v41 main_v42 (mulf : (⟨S50000x64, .f32⟩ : BufTy).Contents (Elt F) → (⟨S50000x64, .f32⟩ : BufTy).Contents (Elt F) → (⟨S50000x64, .f32⟩ : BufTy).Contents (Elt F)),
    StableHlo.unary main_v26 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v42 main_v44 main_v45 (addf : (⟨S50000x64, .f32⟩ : BufTy).Contents (Elt F) → (⟨S50000x64, .f32⟩ : BufTy).Contents (Elt F) → (⟨S50000x64, .f32⟩ : BufTy).Contents (Elt F)) ]

/-- The first clip at zero. -/
abbrev st4 : List (HloOp τ sig (Elt F)) :=
  [ StableHlo.TRef.nullary main_call1.cst (constant S_ .f32 0x00000000#32),
    StableHlo.TRef.unary main_call1.cst main_call1.v0 (broadcastInDim S50000x64 ![] bcast_S_S50000x64),
    StableHlo.TRef.binary (.of main_v45) main_call1.v0 main_call1.v1 maximumf ]

/-- The second linear map. -/
abbrev st5 : List (HloOp τ sig (Elt F)) :=
  [ StableHlo.unary main_arg7 main_v47 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v47 main_v48 rfl shapeCasts_S1x64x64_S64x64,
    StableHlo.binary main_v46 main_v48 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v50 ((extractStridedSlice S1x64 ![0, 0] · slices_S3x64_S1x64_0_0) : (⟨S3x64, .f32⟩ : BufTy).Contents (Elt F) → (⟨S1x64, .f32⟩ : BufTy).Contents (Elt F)),
    StableHlo.reshape main_v50 main_v51 rfl shapeCasts_S1x64_S64,
    StableHlo.unary main_v51 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v49 main_v53 main_v54 (addf : (⟨S50000x64, .f32⟩ : BufTy).Contents (Elt F) → (⟨S50000x64, .f32⟩ : BufTy).Contents (Elt F) → (⟨S50000x64, .f32⟩ : BufTy).Contents (Elt F)) ]

/-- The second normalisation. -/
abbrev st6 : List (HloOp τ sig (Elt F)) :=
  [ StableHlo.unary main_arg9 main_v55 ((extractStridedSlice S1x64 ![0, 0] · slices_S3x64_S1x64_0_0) : (⟨S3x64, .f32⟩ : BufTy).Contents (Elt F) → (⟨S1x64, .f32⟩ : BufTy).Contents (Elt F)),
    StableHlo.reshape main_v55 main_v56 rfl shapeCasts_S1x64_S64,
    StableHlo.unary main_arg10 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.nullary main_cst_5 (constant S_ .f32 0x00000000#32),
    StableHlo.binary main_v54 main_cst_5 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_6 (constant S_ .f32 0x47435000#32),
    StableHlo.unary main_cst_6 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call2.cst (constant S_ .f32 0x00000000#32),
    StableHlo.TRef.binary (.of main_v54) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v54) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v64 main_v65 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v66 (broadcastInDim S64 ![] bcast_S_S64 : (⟨S_, .f32⟩ : BufTy).Contents (Elt F) → (⟨S64, .f32⟩ : BufTy).Contents (Elt F)),
    StableHlo.binary main_v62 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v70 main_v71 (mulf : (⟨S50000x64, .f32⟩ : BufTy).Contents (Elt F) → (⟨S50000x64, .f32⟩ : BufTy).Contents (Elt F) → (⟨S50000x64, .f32⟩ : BufTy).Contents (Elt F)),
    StableHlo.unary main_v56 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v73 main_v74 (mulf : (⟨S50000x64, .f32⟩ : BufTy).Contents (Elt F) → (⟨S50000x64, .f32⟩ : BufTy).Contents (Elt F) → (⟨S50000x64, .f32⟩ : BufTy).Contents (Elt F)),
    StableHlo.unary main_v58 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v76 main_v77 (addf : (⟨S50000x64, .f32⟩ : BufTy).Contents (Elt F) → (⟨S50000x64, .f32⟩ : BufTy).Contents (Elt F) → (⟨S50000x64, .f32⟩ : BufTy).Contents (Elt F)) ]

/-- The second clip at zero: the layer's feature table. -/
abbrev st7 : List (HloOp τ sig (Elt F)) :=
  [ StableHlo.TRef.nullary main_call3.cst (constant S_ .f32 0x00000000#32),
    StableHlo.TRef.unary main_call3.cst main_call3.v0 (broadcastInDim S50000x64 ![] bcast_S_S50000x64),
    StableHlo.TRef.binary (.of main_v77) main_call3.v0 main_call3.v1 maximumf ]

/-- The pooled table: zeros, the segment column, the scatter-add of the feature rows. -/
abbrev st8 : List (HloOp τ sig (Elt F)) :=
  [ StableHlo.nullary main_cst_9 (constant S_ .f32 0x00000000#32),
    StableHlo.unary main_cst_9 main_v79 (broadcastInDim S512x64 ![] bcast_S_S512x64 : (⟨S_, .f32⟩ : BufTy).Contents (Elt F) → (⟨S512x64, .f32⟩ : BufTy).Contents (Elt F)),
    StableHlo.unary main_arg2 main_v80 (broadcastInDim S50000x1 ![0] bcast_S50000_S50000x1_0 : (⟨S50000, .i32⟩ : BufTy).Contents (Elt F) → (⟨S50000x1, .i32⟩ : BufTy).Contents (Elt F)),
    StableHlo.ternary main_v79 main_v80 main_v78 main_v81 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ]

end Stretches

/-! ## Each stretch, run from any contents

What a stretch leaves in its last buffer is one of the arrays above of what it found in the buffers it reads. -/

section Runs

variable (X : Valuation τ sig (Elt Ideal))

theorem st1_run : after (st1 (F := Ideal)) X (Proc.devRef .tc main_v13) = aggOf (X (Proc.devRef .tc main_arg1)) (X (Proc.devRef .tc main_arg0)) := by
  after_results
  rfl

theorem st2_run : after (st2 (F := Ideal)) X (Proc.devRef .tc main_v22)
    = linT (addf (F := Ideal) (φ := .f32) (X (Proc.devRef .tc main_arg0)) (X (Proc.devRef .tc main_v13)))
        (matT (X (Proc.devRef .tc main_arg3)) 0 slices_S3x64x64_S1x64x64_0_0_0) (rowT (X (Proc.devRef .tc main_arg4)) 0 slices_S3x64_S1x64_0_0) := by
  after_results
  rfl

set_option maxHeartbeats 1000000 in
theorem st3_run : after (st3 (F := Ideal)) X (Proc.devRef .tc main_v45)
    = bnT (X (Proc.devRef .tc main_v22)) (meanT (X (Proc.devRef .tc main_v22))) (varT (X (Proc.devRef .tc main_v22)))
        (rowT (X (Proc.devRef .tc main_arg5)) 0 slices_S3x64_S1x64_0_0) (rowT (X (Proc.devRef .tc main_arg6)) 0 slices_S3x64_S1x64_0_0) := by
  after_results_simp
  rfl

theorem st4_run : after (st4 (F := Ideal)) X (Proc.devRef .tc main_v46) = reluT (X (Proc.devRef .tc main_v45)) := by
  after_results
  rfl

theorem st5_run : after (st5 (F := Ideal)) X (Proc.devRef .tc main_v54)
    = linT (X (Proc.devRef .tc main_v46)) (matT (X (Proc.devRef .tc main_arg7)) 0 slices_S3x64x64_S1x64x64_0_0_0) (rowT (X (Proc.devRef .tc main_arg8)) 0 slices_S3x64_S1x64_0_0) := by
  after_results
  rfl

set_option maxHeartbeats 1000000 in
theorem st6_run : after (st6 (F := Ideal)) X (Proc.devRef .tc main_v77)
    = bnT (X (Proc.devRef .tc main_v54)) (meanT (X (Proc.devRef .tc main_v54))) (varT (X (Proc.devRef .tc main_v54)))
        (rowT (X (Proc.devRef .tc main_arg9)) 0 slices_S3x64_S1x64_0_0) (rowT (X (Proc.devRef .tc main_arg10)) 0 slices_S3x64_S1x64_0_0) := by
  after_results_simp
  rfl

theorem st7_run : after (st7 (F := Ideal)) X (Proc.devRef .tc main_v78) = reluT (X (Proc.devRef .tc main_v77)) := by
  after_results
  rfl

theorem st8_run : after (st8 (F := Ideal)) X (Proc.devRef .tc main_v81) = poolT (X (Proc.devRef .tc main_arg2)) (X (Proc.devRef .tc main_v78)) := by
  after_results
  rfl

/-- The last stretch leaves the feature table as it found it. -/
theorem st8_keep : after (st8 (F := Ideal)) X (Proc.devRef .tc main_v78) = X (Proc.devRef .tc main_v78) := by
  after_results

end Runs

/-! ## The layer's run, stretch after stretch -/

/-- The first two windows' operations. -/
abbrev ops01 : List (HloOp τ sig (Elt Ideal)) := ops0 ++ ops1

/-- Every reference they write is among the two windows' written references. -/
theorem ops01_writes : ops01.Forall fun op => op.writes ⊆ ((ops0_W ++ ops1_W).map (Proc.devRef (τ := τ) .tc)).toFinset :=
  List.forall_append.mpr
    ⟨List.forall_iff_forall_mem.mpr fun op h b hb => by
        have := List.forall_iff_forall_mem.mp (ops0_writes (F := Ideal)) op h hb
        rw [List.mem_toFinset] at this ⊢
        rw [List.map_append]; exact List.mem_append_left _ this,
     List.forall_iff_forall_mem.mpr fun op h b hb => by
        have := List.forall_iff_forall_mem.mp (ops1_writes (F := Ideal)) op h hb
        rw [List.mem_toFinset] at this ⊢
        rw [List.map_append]; exact List.mem_append_right _ this⟩

/-- The buffers after the first `n` of those operations. -/
def pre (m : Mem) (c : Dev nD) (n : Nat) : Valuation τ sig (Elt Ideal) := after (ops01.take n) (V0 m c)

/-- An argument is as launched throughout. -/
theorem pre_keep (m : Mem) (c : Dev nD) (n : Nat) (r : Ref sig .tc) (h0 : r ∉ ops0_W) (h1 : r ∉ ops1_W) :
    pre m c n (Proc.devRef .tc r) = V0 m c (Proc.devRef .tc r) :=
  after_take_keep n ops01 _ ops01_writes (fun h => (List.mem_append.mp h).elim h0 h1)

/-- A stretch of `k` operations from the `n`-th on takes the buffers after `n` to the buffers after `n + k`. -/
theorem pre_step (m : Mem) (c : Dev nD) (n k : Nat) (S : List (HloOp τ sig (Elt Ideal))) (hS : (ops01.drop n).take k = S) :
    pre m c (n + k) = after S (pre m c n) := by
  unfold pre
  rw [List.take_add, StableHlo.after_append, hS]

theorem pre_zero (m : Mem) (c : Dev nD) : pre m c 0 = V0 m c := rfl

/-- The first cut is after 140 operations. -/
theorem Y1_eq_pre (m : Mem) (c : Dev nD) : Y1 m c = pre m c 140 := by
  unfold Y1 pre
  rw [← StableHlo.after_append]
  rfl

theorem pre17 (m : Mem) (c : Dev nD) : pre m c 17 = after st1 (pre m c 0) := pre_step m c 0 17 st1 rfl
theorem pre26 (m : Mem) (c : Dev nD) : pre m c 26 = after st2 (pre m c 17) := pre_step m c 17 9 st2 rfl
theorem pre74 (m : Mem) (c : Dev nD) : pre m c 74 = after st3 (pre m c 26) := pre_step m c 26 48 st3 rfl
theorem pre77 (m : Mem) (c : Dev nD) : pre m c 77 = after st4 (pre m c 74) := pre_step m c 74 3 st4 rfl
theorem pre85 (m : Mem) (c : Dev nD) : pre m c 85 = after st5 (pre m c 77) := pre_step m c 77 8 st5 rfl
theorem pre133 (m : Mem) (c : Dev nD) : pre m c 133 = after st6 (pre m c 85) := pre_step m c 85 48 st6 rfl
theorem pre136 (m : Mem) (c : Dev nD) : pre m c 136 = after st7 (pre m c 133) := pre_step m c 133 3 st7 rfl
theorem pre140 (m : Mem) (c : Dev nD) : pre m c 140 = after st8 (pre m c 136) := pre_step m c 136 4 st8 rfl

/-! ## The layer's arrays -/

/-- The first linear map's table. -/
def A22 (m : Mem) (c : Dev nD) : S50000x64.Idx → EReal :=
  linT (addf (F := Ideal) (φ := .f32) (V0 m c (Proc.devRef .tc main_arg0)) (aggOf (V0 m c (Proc.devRef .tc main_arg1)) (V0 m c (Proc.devRef .tc main_arg0))))
    (matT (V0 m c (Proc.devRef .tc main_arg3)) 0 slices_S3x64x64_S1x64x64_0_0_0) (rowT (V0 m c (Proc.devRef .tc main_arg4)) 0 slices_S3x64_S1x64_0_0)
/-- … normalised, scaled, shifted and clipped. -/
def A46 (m : Mem) (c : Dev nD) : S50000x64.Idx → EReal :=
  reluT (bnT (A22 m c) (meanT (A22 m c)) (varT (A22 m c))
    (rowT (V0 m c (Proc.devRef .tc main_arg5)) 0 slices_S3x64_S1x64_0_0) (rowT (V0 m c (Proc.devRef .tc main_arg6)) 0 slices_S3x64_S1x64_0_0))
/-- The second linear map's table. -/
def A54 (m : Mem) (c : Dev nD) : S50000x64.Idx → EReal :=
  linT (A46 m c) (matT (V0 m c (Proc.devRef .tc main_arg7)) 0 slices_S3x64x64_S1x64x64_0_0_0) (rowT (V0 m c (Proc.devRef .tc main_arg8)) 0 slices_S3x64_S1x64_0_0)
/-- The layer's feature table. -/
def A78 (m : Mem) (c : Dev nD) : S50000x64.Idx → EReal :=
  reluT (bnT (A54 m c) (meanT (A54 m c)) (varT (A54 m c))
    (rowT (V0 m c (Proc.devRef .tc main_arg9)) 0 slices_S3x64_S1x64_0_0) (rowT (V0 m c (Proc.devRef .tc main_arg10)) 0 slices_S3x64_S1x64_0_0))

theorem pre17_v13 (m : Mem) (c : Dev nD) :
    pre m c 17 (Proc.devRef .tc main_v13) = aggOf (V0 m c (Proc.devRef .tc main_arg1)) (V0 m c (Proc.devRef .tc main_arg0)) := by
  rw [pre17, st1_run, pre_zero]

theorem pre26_v22 (m : Mem) (c : Dev nD) : pre m c 26 (Proc.devRef .tc main_v22) = A22 m c := by
  rw [pre26, st2_run, pre17_v13,
    pre_keep m c 17 main_arg0 (by decide) (by decide), pre_keep m c 17 main_arg3 (by decide) (by decide),
    pre_keep m c 17 main_arg4 (by decide) (by decide)]
  rfl

theorem pre77_v46 (m : Mem) (c : Dev nD) : pre m c 77 (Proc.devRef .tc main_v46) = A46 m c := by
  rw [pre77, st4_run, pre74, st3_run, pre26_v22,
    pre_keep m c 26 main_arg5 (by decide) (by decide), pre_keep m c 26 main_arg6 (by decide) (by decide)]
  rfl

theorem pre85_v54 (m : Mem) (c : Dev nD) : pre m c 85 (Proc.devRef .tc main_v54) = A54 m c := by
  rw [pre85, st5_run, pre77_v46,
    pre_keep m c 77 main_arg7 (by decide) (by decide), pre_keep m c 77 main_arg8 (by decide) (by decide)]
  rfl

theorem pre136_v78 (m : Mem) (c : Dev nD) : pre m c 136 (Proc.devRef .tc main_v78) = A78 m c := by
  rw [pre136, st7_run, pre133, st6_run, pre85_v54,
    pre_keep m c 85 main_arg9 (by decide) (by decide), pre_keep m c 85 main_arg10 (by decide) (by decide)]
  rfl

/-- The first cut holds the layer's feature table … -/
theorem Y1_v78 (m : Mem) (c : Dev nD) : Y1 m c (Proc.devRef .tc main_v78) = A78 m c := by
  rw [Y1_eq_pre, pre140, st8_keep, pre136_v78]

/-- … and its rows summed by segment. -/
theorem Y1_v81 (m : Mem) (c : Dev nD) : Y1 m c (Proc.devRef .tc main_v81) = poolT (V0 m c (Proc.devRef .tc main_arg2)) (A78 m c) := by
  rw [Y1_eq_pre, pre140, st8_run, pre136_v78, pre_keep m c 136 main_arg2 (by decide) (by decide)]

/-! ## The arrays as the layer's mathematics -/

/-- An array over (node, feature) as a feature table, a 64 × 64 array as a matrix, an array of 64 as a row. -/
def actOf (A : S50000x64.Idx → EReal) : Cert.Spec.Act := fun n k => A (ix2 n k)
def matOf (W : S64x64.Idx → EReal) : Cert.Spec.Mat := fun k d => W (ix2 k d)
def rowOf (v : S64.Idx → EReal) : Cert.Spec.Row := fun d => v (ix1 d)

theorem actOf_linT (z : S50000x64.Idx → EReal) (W : S64x64.Idx → EReal) (b : S64.Idx → EReal) :
    actOf (linT z W b) = Cert.Spec.lin (actOf z) (matOf W) (rowOf b) := by
  funext n d; exact linT_apply z W b n d

theorem rowOf_meanT (y : S50000x64.Idx → EReal) : rowOf (meanT y) = Cert.Spec.mean (actOf y) := by
  funext d; exact meanT_apply y d

theorem rowOf_varT (y : S50000x64.Idx → EReal) : rowOf (varT y) = Cert.Spec.varCentred (actOf y) := by
  funext d; exact varT_apply y d

theorem actOf_reluT_bnT (y : S50000x64.Idx → EReal) (mu var g b : S64.Idx → EReal) :
    actOf (reluT (bnT y mu var g b)) = Cert.Spec.normRelu (actOf y) (rowOf mu) (rowOf var) (rowOf g) (rowOf b) := by
  funext n d
  show reluT (bnT y mu var g b) (ix2 n d) = _
  rw [reluT_apply, bnT_apply]
  rfl

theorem matOf_matT0 (P : S3x64x64.Idx → EReal) : matOf (matT P 0 slices_S3x64x64_S1x64x64_0_0_0) = fun k d => P (ix3 (0 : Fin 3) k d) := by
  funext k d; exact matT_apply P 0 _ 0 rfl k d

theorem rowOf_rowT0 (P : S3x64.Idx → EReal) : rowOf (rowT P 0 slices_S3x64_S1x64_0_0) = fun d => P (ix2 (0 : Fin 3) d) := by
  funext d; exact rowT_apply P 0 _ 0 rfl d

/-- The table plus its neighbour sum. -/
theorem actOf_x_add_agg (m : Mem) (c : Dev nD) :
    actOf (addf (F := Ideal) (φ := .f32) (V0 m c (Proc.devRef .tc main_arg0)) (aggOf (V0 m c (Proc.devRef .tc main_arg1)) (V0 m c (Proc.devRef .tc main_arg0))))
      = fun n k => xR m c n k + aggR m c (xR m c) n k := by
  have e : (fun i : S50000x64.Idx => xR m c (i 0) (i 1)) = V0 m c (Proc.devRef .tc main_arg0) :=
    funext fun i => congrArg (V0 m c (Proc.devRef .tc main_arg0) : S50000x64.Idx → EReal) (eq_ix2 i).symm
  funext n k
  show _ = xR m c n k + aggOf (V0 m c (Proc.devRef .tc main_arg1)) (fun i => xR m c (i 0) (i 1)) (ix2 n k)
  rw [e]
  rfl

/-- The layer's feature table is the layer of the mathematics. -/
theorem actOf_A78 (m : Mem) (c : Dev nD) :
    actOf (A78 m c) = Cert.Spec.layerWith Cert.Spec.varCentred (aggR m c) (xR m c) ((paramsR m c).W1 0) ((paramsR m c).b1 0)
      ((paramsR m c).g1 0) ((paramsR m c).bt1 0) ((paramsR m c).W2 0) ((paramsR m c).b2 0) ((paramsR m c).go 0) ((paramsR m c).bo 0) := by
  unfold A78 A54 A46 A22 Cert.Spec.layerWith
  simp only [actOf_reluT_bnT, rowOf_meanT, rowOf_varT, actOf_linT, matOf_matT0, rowOf_rowT0, actOf_x_add_agg]
  rfl

/-! ## The first layer's value -/

theorem layer0_feats (m : Mem) (c : Dev nD) (n : Fin 50000) (d : Fin 64) :
    (Y1 m c (Proc.devRef .tc main_v78) : S50000x64.Idx → EReal) (ix2 n d)
      = Cert.Spec.layerWith Cert.Spec.varCentred (aggR m c) (xR m c) ((paramsR m c).W1 0) ((paramsR m c).b1 0)
          ((paramsR m c).g1 0) ((paramsR m c).bt1 0) ((paramsR m c).W2 0) ((paramsR m c).b2 0) ((paramsR m c).go 0) ((paramsR m c).bo 0) n d := by
  rw [Y1_v78]
  exact congrFun (congrFun (actOf_A78 m c) n) d

/-- The first layer of the reference: at the first cut the feature buffer holds the layer of the mathematics on the
    launched table, and the pooled buffer holds its rows summed by segment. -/
theorem layer0_value (m : Mem) (c : Dev nD) :
    let P := paramsR m c
    let F1 := Cert.Spec.layerWith Cert.Spec.varCentred (aggR m c) (xR m c) (P.W1 0) (P.b1 0) (P.g1 0) (P.bt1 0) (P.W2 0) (P.b2 0) (P.go 0) (P.bo 0)
    (∀ n d, (Y1 m c (Proc.devRef .tc main_v78) : S50000x64.Idx → EReal) (ix2 n d) = F1 n d)
      ∧ (∀ g d, (Y1 m c (Proc.devRef .tc main_v81) : S512x64.Idx → EReal) (ix2 g d) = Cert.Spec.pool F1 (segR m c) g d) := by
  intro P F1
  refine ⟨fun n d => layer0_feats m c n d, fun g d => ?_⟩
  rw [Y1_v81, poolT_apply]
  show _ = ∑ n : Fin 50000, if segR m c n = BitVec.ofNat 32 g.val then F1 n d else 0
  refine Finset.sum_congr rfl fun n _ => ?_
  have hF : A78 m c (ix2 n d) = F1 n d := by
    rw [← Y1_v78]; exact layer0_feats m c n d
  rw [hF]
  rfl

end Cert.ReferenceIdeal.Value

end
-- ==== Proof.Reference.Layer1.lean ====
import proofs.«428437_j36421322670670_1_alg».proof.Proof.Reference.Inputs
import proofs.«428437_j36421322670670_1_alg».proof.Proof.LibPlainDot
import Idealize.ShloMosaic.Lib.Pipeline.Value

noncomputable section

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx

/-! # The reference's layer 1 (the second of its three)

Between the first cut of its run and the second the reference runs 136 operations on the features the first layer left:
it sums, into every node, the rows of the nodes with an edge into it (the edge words prepared afresh from the two rows
of the edge list), adds the node's own row, applies the first linear map with bias, normalises every column by its
mean and its centred variance (the variance by an outlined function that recomputes the mean, squares the deviations,
divides their sum by the node count less a converted zero, and selects the quotient over a not-a-number literal under
"the count is positive"), scales, shifts and clips below at zero, applies the second linear map with bias, normalises
and clips again, and scatter-adds the rows, from zero, at the nodes' segment words.

Each stretch of operations is first read as ONE function of the arrays it starts from: the functions are written once,
as the compositions of array operations the operations spell, and what a stretch leaves in its result buffer is that
function of what the stretch found in its operand buffers. Each function is then read at an index as the matching
stage of the specification: a column sum from zero is the sum over the nodes, a row laid down the rows reads the row,
a plain product is a sum over the contracted axis, an update row lands on the segment its word names. The layer is the
stretches in turn; an argument buffer goes through all of them. -/

namespace Layer1

/-! ## The layer's dense stages as functions of arrays

Each stage of the layer is a fixed composition of array operations; written once as a function of its operand
arrays, it is read at an index as the corresponding stage of the specification. -/

/-- A feature table as the program holds it. -/
abbrev Tab : Type := FVec Ideal S50000x64 .f32
/-- A row of 64 as the program holds it. -/
abbrev RowT : Type := FVec Ideal S64 .f32

/-- A table read as the specification's. -/
def act (y : Tab) : Cert.Spec.Act := fun n k => y (ix2 n k)
/-- A row read as the specification's. -/
def row (r : RowT) : Cert.Spec.Row := fun d => r (ix1 d)

/-- A row laid as a one-row matrix reads the row. -/
theorem bc1_apply {α : Type} (h : S64.BroadcastsInDim S1x64 ![1]) (v : S64.Idx → α) (q : Fin 64) :
    broadcastInDim S1x64 ![1] h v (ix2 (0 : Fin 1) q) = v (ix1 q) :=
  broadcastInDim_apply ![1] h v (ix2 (0 : Fin 1) q) (ix1 q) (fun a => by
    match a with
    | ⟨0, _⟩ => rfl)

/-- A one-row matrix laid down the 50000 rows reads its row. -/
theorem bc2_apply {α : Type} (h : S1x64.BroadcastsInDim S50000x64 ![0, 1]) (w : S1x64.Idx → α) (p : Fin 50000) (q : Fin 64) :
    broadcastInDim S50000x64 ![0, 1] h w (ix2 p q) = w (ix2 (0 : Fin 1) q) :=
  broadcastInDim_apply ![0, 1] h w (ix2 p q) (ix2 (0 : Fin 1) q) (fun a => by
    match a with
    | ⟨0, _⟩ => rfl
    | ⟨1, _⟩ => rfl)

/-- The index over column d with row k inserted. -/
theorem lift_col (h : S50000x64.Reduces [0] S64) (d : Fin 64) (k : Fin 50000) : h.lift (ix1 d) k = ix2 k d := by
  funext c
  refine Fin.ext ?_
  match c with
  | ⟨0, _⟩ => rfl
  | ⟨1, _⟩ => rfl

/-- The column sum from the zero literal. -/
theorem colsum_apply (y : Tab) (d : Fin 64) :
    Host.reduceAdd y (constant S_ .f32 0x00000000#32) reducesTo_S50000x64_S64_d0 h_S_ (ix1 d) = Cert.Spec.colSum (act y) d := by
  rw [hostReduceAdd_apply, Ideal.hostReduceAdd_single reducesTo_S50000x64_S64_d0 (by decide : S50000x64.Reduces [0] S64), constant_apply,
    Cert.Spec.ofBits_zero, zero_add]
  exact Finset.sum_congr rfl fun k _ => congrArg y (lift_col _ d k)

/-- The column means as the program computes them. -/
def meanT (y : Tab) : RowT :=
  Host.divf (Host.reduceAdd y (constant S_ .f32 0x00000000#32) reducesTo_S50000x64_S64_d0 h_S_)
    (broadcastInDim S64 ![] bcast_S_S64 (constant S_ .f32 0x47435000#32))

theorem meanT_apply (y : Tab) (d : Fin 64) : meanT y (ix1 d) = Cert.Spec.mean (act y) d := by
  unfold meanT
  rw [hostDivf_apply, colsum_apply, broadcastInDim_scalar_apply, constant_apply]
  rfl

/-- The count the variance divides by: the node count less the converted zero word. -/
def cntT : FVec Ideal S_ .f32 :=
  subf (constant S_ .f32 0x47435000#32) (sitofp .f32 (constantI S_ 32 0#32))

theorem cntT_apply : cntT ix0 = Cert.Spec.nodes := by
  show Ideal.ofBits .f32 0x47435000#32 - (((0#32 : BitVec 32).toInt : ℝ) : EReal) = Cert.Spec.nodes
  rw [BitVec.toInt_zero, Int.cast_zero, EReal.coe_zero, sub_zero]
  rfl

/-- The node count is positive. -/
theorem nodes_pos : (0 : EReal) < Cert.Spec.nodes := by
  rw [Cert.Spec.nodes_eq]
  exact EReal.coe_pos.mpr (by norm_num)

/-- The table less its column means, the means recomputed as a one-row matrix. -/
def cenT (y : Tab) : Tab :=
  subf y (broadcastInDim S50000x64 ![0, 1] bcast_S1x64_S50000x64_0_1
    (Host.divf (broadcastInDim S1x64 ![1] bcast_S64_S1x64_1 (Host.reduceAdd y (constant S_ .f32 0x00000000#32) reducesTo_S50000x64_S64_d0 h_S_))
      (broadcastInDim S1x64 ![] bcast_S_S1x64 (constant S_ .f32 0x47435000#32))))

theorem cenT_apply (y : Tab) (n : Fin 50000) (d : Fin 64) : cenT y (ix2 n d) = act y n d - Cert.Spec.mean (act y) d := by
  unfold cenT
  rw [subf_apply, bc2_apply, hostDivf_apply, bc1_apply, colsum_apply, broadcastInDim_scalar_apply, constant_apply]
  rfl

/-- The column variances as the program computes them: the mean of the squared deviations, selected over a
    not-a-number literal where the count is positive. -/
def varT (y : Tab) : RowT :=
  select (broadcastInDim S64 ![] bcast_S_S64 (cmpf .ogt cntT (constant S_ .f32 0x00000000#32)))
    (Host.divf (Host.reduceAdd (mulf (cenT y) (cenT y)) (constant S_ .f32 0x00000000#32) reducesTo_S50000x64_S64_d0 h_S_)
      (broadcastInDim S64 ![] bcast_S_S64 cntT))
    (broadcastInDim S64 ![] bcast_S_S64 (id (constant S_ .f32 0x7FC00000#32)))

theorem varT_apply (y : Tab) (d : Fin 64) : varT y (ix1 d) = Cert.Spec.varCentred (act y) d := by
  unfold varT
  rw [select_apply, broadcastInDim_scalar_apply, cmpf_apply, Ideal.cmpf_def, cntT_apply, constant_apply, Cert.Spec.ofBits_zero]
  have hc : Ideal.cmp .ogt Cert.Spec.nodes (0 : EReal) = 1#1 := by
    show BitVec.ofBool (decide ((0 : EReal) < Cert.Spec.nodes)) = 1#1
    rw [decide_eq_true nodes_pos]; rfl
  rw [hc, select_one, hostDivf_apply, colsum_apply, broadcastInDim_scalar_apply, cntT_apply]
  show Ideal.div (∑ n : Fin 50000, act (mulf (cenT y) (cenT y)) n d) Cert.Spec.nodes
    = Ideal.div (∑ n : Fin 50000, (act y n d - Cert.Spec.mean (act y) d) * (act y n d - Cert.Spec.mean (act y) d)) Cert.Spec.nodes
  refine congrArg (fun s => Ideal.div s Cert.Spec.nodes) (Finset.sum_congr rfl fun n _ => ?_)
  show mulf (cenT y) (cenT y) (ix2 n d) = _
  rw [mulf_apply, cenT_apply]

/-- Normalise by given means and variances, scale, shift, clip below at zero. -/
def normReluT (y : Tab) (mu va g b : RowT) : Tab :=
  maximumf
    (addf
      (mulf
        (mulf
          (subf y (broadcastInDim S50000x64 ![0, 1] bcast_S1x64_S50000x64_0_1 (broadcastInDim S1x64 ![1] bcast_S64_S1x64_1 mu)))
          (broadcastInDim S50000x64 ![0, 1] bcast_S1x64_S50000x64_0_1 (broadcastInDim S1x64 ![1] bcast_S64_S1x64_1
            (Host.rsqrt (addf va (broadcastInDim S64 ![] bcast_S_S64 (constant S_ .f32 0x3727C5AC#32)))))))
        (broadcastInDim S50000x64 ![0, 1] bcast_S1x64_S50000x64_0_1 (broadcastInDim S1x64 ![1] bcast_S64_S1x64_1 g)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem normReluT_apply (y : Tab) (mu va g b : RowT) (n : Fin 50000) (d : Fin 64) :
    normReluT y mu va g b (ix2 n d) = Cert.Spec.normRelu (act y) (row mu) (row va) (row g) (row b) n d := by
  unfold normReluT
  rw [maximumf_apply, addf_apply, mulf_apply, mulf_apply, subf_apply, bc2_apply, bc1_apply, bc2_apply, bc1_apply, bc2_apply, bc1_apply,
    bc2_apply, bc1_apply, broadcastInDim_scalar_apply, constant_apply, Cert.Spec.ofBits_zero]
  show max ((y (ix2 n d) - mu (ix1 d)) * Ideal.rsqrt (addf va (broadcastInDim S64 ![] bcast_S_S64 (constant S_ .f32 0x3727C5AC#32)) (ix1 d)) * g (ix1 d) + b (ix1 d)) 0 = _
  rw [addf_apply, broadcastInDim_scalar_apply, constant_apply]
  rfl

/-- The whole normalisation of a table by its own column statistics. -/
def bnT (y : Tab) (g b : RowT) : Tab := normReluT y (meanT y) (varT y) g b

theorem bnT_apply (y : Tab) (g b : RowT) (n : Fin 50000) (d : Fin 64) :
    bnT y g b (ix2 n d) = Cert.Spec.normRelu (act y) (Cert.Spec.mean (act y)) (Cert.Spec.varCentred (act y)) (row g) (row b) n d := by
  unfold bnT
  rw [normReluT_apply]
  have e1 : row (meanT y) = Cert.Spec.mean (act y) := funext fun d => meanT_apply y d
  have e2 : row (varT y) = Cert.Spec.varCentred (act y) := funext fun d => varT_apply y d
  rw [e1, e2]

/-- A linear map with bias: the plain product and the bias row laid down the rows. -/
def linT (z : Tab) (W : FVec Ideal S64x64 .f32) (b : RowT) : Tab :=
  addf (Host.dotGeneral dot_S50000x64_S64x64_S50000x64_1_0_0_1_n_n none z W)
    (broadcastInDim S50000x64 ![0, 1] bcast_S1x64_S50000x64_0_1 (broadcastInDim S1x64 ![1] bcast_S64_S1x64_1 b))

/-- A weight matrix read as the specification's. -/
def mat (W : FVec Ideal S64x64 .f32) : Cert.Spec.Mat := fun k d => W (ix2 k d)

theorem linT_apply (z : Tab) (W : FVec Ideal S64x64 .f32) (b : RowT) (n : Fin 50000) (d : Fin 64) :
    linT z W b (ix2 n d) = Cert.Spec.lin (act z) (mat W) (row b) n d := by
  unfold linT
  rw [addf_apply, bc2_apply, bc1_apply]
  have hd : Host.dotGeneral dot_S50000x64_S64x64_S50000x64_1_0_0_1_n_n none z W (ix2 n d) = ∑ k : Fin 64, z (ix2 n k) * W (ix2 k d) :=
    Cert.LibPlainDot.dotGeneral_plain (M := 50000) (K := 64) (N := 64) none .single z W (ix2 n d)
  rw [hd]
  rfl

/-- Layer 1's matrix of a stack of three. -/
def matSlice1 (w : FVec Ideal S3x64x64 .f32) : FVec Ideal S64x64 .f32 :=
  shapeCast S64x64 (extractStridedSlice S1x64x64 ![1, 0, 0] w slices_S3x64x64_S1x64x64_1_0_0) shapeCasts_S1x64x64_S64x64

/-- Layer 1's row of a stack of three. -/
def rowSlice1 (v : FVec Ideal S3x64 .f32) : RowT :=
  shapeCast S64 (extractStridedSlice S1x64 ![1, 0] v slices_S3x64_S1x64_1_0) shapeCasts_S1x64_S64

theorem matSlice1_apply (w : FVec Ideal S3x64x64 .f32) (k d : Fin 64) : matSlice1 w (ix2 k d) = w (ix3 (1 : Fin 3) k d) := by
  unfold matSlice1
  rw [shapeCast_apply _ shapeCasts_S1x64x64_S64x64 (ix2 k d) (ix3 (0 : Fin 1) k d) (by
        rw [Shape.rowMajor_val_three, Shape.rowMajor_val_two]
        show ((0 : Nat) * 64 + k.val) * 64 + d.val = k.val * 64 + d.val
        omega),
    extractStridedSlice_apply ![1, 0, 0] w slices_S3x64x64_S1x64x64_1_0_0 (ix3 (0 : Fin 1) k d) (ix3 (1 : Fin 3) k d) (fun a => by
        match a with
        | ⟨0, _⟩ => rfl
        | ⟨1, _⟩ => show k.val = 0 + k.val; omega
        | ⟨2, _⟩ => show d.val = 0 + d.val; omega)]

theorem rowSlice1_apply (v : FVec Ideal S3x64 .f32) (d : Fin 64) : rowSlice1 v (ix1 d) = v (ix2 (1 : Fin 3) d) := by
  unfold rowSlice1
  rw [shapeCast_apply _ shapeCasts_S1x64_S64 (ix1 d) (ix2 (0 : Fin 1) d) (by
        rw [Shape.rowMajor_val_two, Shape.rowMajor_val_one]
        show (0 : Nat) * 64 + d.val = d.val
        omega),
    extractStridedSlice_apply ![1, 0] v slices_S3x64_S1x64_1_0 (ix2 (0 : Fin 1) d) (ix2 (1 : Fin 3) d) (fun a => by
        match a with
        | ⟨0, _⟩ => rfl
        | ⟨1, _⟩ => show d.val = 0 + d.val; omega)]

/-- The sources of an edge list: its first row. -/
def srcOf (e : S2x800000.Idx → BitVec 32) : IVec S800000 32 :=
  shapeCast S800000 (extractStridedSlice S1x800000 ![0, 0] e slices_S2x800000_S1x800000_0_0) shapeCasts_S1x800000_S800000

/-- The destinations of an edge list: its second row. -/
def dstOf (e : S2x800000.Idx → BitVec 32) : IVec S800000 32 :=
  shapeCast S800000 (extractStridedSlice S1x800000 ![1, 0] e slices_S2x800000_S1x800000_1_0) shapeCasts_S1x800000_S800000

/-- The neighbour sum of a table along given sources and destinations. -/
def aggT (src dst : IVec S800000 32) (t : Tab) : Tab :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 t
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The pooled table: the rows of a table scatter-added from zero at the nodes' segment words. -/
def poolT (h : Tab) (seg : IVec S50000 32) : FVec Ideal S512x64 .f32 :=
  Host.scatterAdd scatter_S512x64_S50000x1_S50000x64_1_0_0_1
    (broadcastInDim S512x64 ![] bcast_S_S512x64 (constant S_ .f32 0x00000000#32))
    (broadcastInDim S50000x1 ![0] bcast_S50000_S50000x1_0 seg) h

/-- The segment words laid as a column read the word of the row. -/
theorem segcol_apply (seg : IVec S50000 32) (n : Fin 50000) :
    broadcastInDim S50000x1 ![0] bcast_S50000_S50000x1_0 seg (ix2 n (0 : Fin 1)) = seg (ix1 n) :=
  broadcastInDim_apply ![0] bcast_S50000_S50000x1_0 seg (ix2 n (0 : Fin 1)) (ix1 n) (fun a => by
    match a with
    | ⟨0, _⟩ => rfl)

theorem pool_start0 (idx : IVec S50000x1 32) (j : S50000x64.Idx) :
    scatter_S512x64_S50000x1_S50000x64_1_0_0_1.start j idx (0 : Fin 2) = (idx (ix2 (j 0) (0 : Fin 1))).toInt := by
  unfold ScatterDims.start
  split
  · refine congrArg (fun i => (idx i).toInt) ?_
    funext a
    match a with
    | ⟨0, _⟩ => rfl
    | ⟨1, _⟩ => rfl
  · next ha => exact absurd (show (0 : Fin 2) ∈ scatter_S512x64_S50000x1_S50000x64_1_0_0_1.scatterDimsToOperandDims from List.mem_singleton.mpr rfl) ha

theorem pool_start1 (idx : IVec S50000x1 32) (j : S50000x64.Idx) :
    scatter_S512x64_S50000x1_S50000x64_1_0_0_1.start j idx (1 : Fin 2) = 0 := by
  unfold ScatterDims.start
  split
  · next ha => exact absurd (show (1 : Fin 2) ∈ [(0 : Fin 2)] from ha) (by decide)
  · rfl

theorem pool_window0 (j : S50000x64.Idx) :
    scatter_S512x64_S50000x1_S50000x64_1_0_0_1.window j (0 : Fin 2) = 0 := by
  unfold ScatterDims.window
  split
  · next ha => exact absurd (show (0 : Fin 2) ∈ [(1 : Fin 2)] from ha) (by decide)
  · rfl

theorem pool_window1 (j : S50000x64.Idx) :
    scatter_S512x64_S50000x1_S50000x64_1_0_0_1.window j (1 : Fin 2) = (j 1).val := by
  unfold ScatterDims.window
  split
  · rfl
  · next ha => exact absurd (show (1 : Fin 2) ∈ scatter_S512x64_S50000x1_S50000x64_1_0_0_1.sKept from List.mem_singleton.mpr rfl) ha

/-- Where an update row lands: on the segment its word names, in its own column, when the word is a segment. -/
theorem pool_resultIdx (idx : IVec S50000x1 32) (j : S50000x64.Idx) (g : Fin 512) (d : Fin 64) :
    scatter_S512x64_S50000x1_S50000x64_1_0_0_1.resultIdx? j idx = some (ix2 g d)
      ↔ (idx (ix2 (j 0) (0 : Fin 1))).toInt = (g.val : Int) ∧ j 1 = d := by
  unfold ScatterDims.resultIdx?
  split
  · next H =>
    rw [Option.some.injEq]
    constructor
    · intro e
      have e0 := congrArg (fun i : S512x64.Idx => (i 0).val) e
      have e1 := congrArg (fun i : S512x64.Idx => (i 1).val) e
      have h0 := H 0
      simp only [pool_start0, pool_window0, pool_start1, pool_window1] at e0 e1 h0
      refine ⟨?_, Fin.ext ?_⟩
      · have : ((idx (ix2 (j 0) (0 : Fin 1))).toInt + ((0 : Nat) : Int)).toNat = g.val := e0
        omega
      · have : (((0 : Int) + ((j 1).val : Int))).toNat = d.val := e1
        omega
    · rintro ⟨h0, h1⟩
      funext a
      refine Fin.ext ?_
      match a with
      | ⟨0, _⟩ =>
        show (scatter_S512x64_S50000x1_S50000x64_1_0_0_1.start j idx 0 + (scatter_S512x64_S50000x1_S50000x64_1_0_0_1.window j 0 : Nat)).toNat = g.val
        rw [pool_start0, pool_window0, h0]; omega
      | ⟨1, _⟩ =>
        show (scatter_S512x64_S50000x1_S50000x64_1_0_0_1.start j idx 1 + (scatter_S512x64_S50000x1_S50000x64_1_0_0_1.window j 1 : Nat)).toNat = d.val
        rw [pool_start1, pool_window1, ← h1]; omega
  · next H =>
    constructor
    · intro e; exact absurd e (by simp)
    · rintro ⟨h0, h1⟩
      refine absurd (fun a => ?_) H
      match a with
      | ⟨0, _⟩ =>
        show 0 ≤ scatter_S512x64_S50000x1_S50000x64_1_0_0_1.start j idx 0 + (scatter_S512x64_S50000x1_S50000x64_1_0_0_1.window j 0 : Nat) ∧ scatter_S512x64_S50000x1_S50000x64_1_0_0_1.start j idx 0 + (scatter_S512x64_S50000x1_S50000x64_1_0_0_1.window j 0 : Nat) < ((512 : Nat) : Int)
        rw [pool_start0, pool_window0, h0]
        have := g.isLt
        omega
      | ⟨1, _⟩ =>
        show 0 ≤ scatter_S512x64_S50000x1_S50000x64_1_0_0_1.start j idx 1 + (scatter_S512x64_S50000x1_S50000x64_1_0_0_1.window j 1 : Nat) ∧ scatter_S512x64_S50000x1_S50000x64_1_0_0_1.start j idx 1 + (scatter_S512x64_S50000x1_S50000x64_1_0_0_1.window j 1 : Nat) < ((64 : Nat) : Int)
        rw [pool_start1, pool_window1]
        have : (j 1).val < 64 := (j 1).isLt
        omega

/-- The word of a segment number has that number as its signed value. -/
theorem toInt_ofNat_seg (g : Fin 512) : (BitVec.ofNat 32 g.val).toInt = (g.val : Int) := by
  have hg := g.isLt
  have h32 : (2 : Nat) ^ 32 = 4294967296 := by norm_num
  have hn : (BitVec.ofNat 32 g.val).toNat = g.val := by
    rw [BitVec.toNat_ofNat]; exact Nat.mod_eq_of_lt (by omega)
  rw [BitVec.toInt_eq_toNat_of_lt (by rw [hn]; omega), hn]

/-- A 32-bit word whose signed value is a segment number is that number's word. -/
theorem word_eq_of_toInt (w : BitVec 32) (g : Fin 512) : w.toInt = (g.val : Int) ↔ w = BitVec.ofNat 32 g.val :=
  ⟨fun h => BitVec.eq_of_toInt_eq (h.trans (toInt_ofNat_seg g).symm), fun h => h ▸ toInt_ofNat_seg g⟩

theorem poolT_apply (h : Tab) (seg : IVec S50000 32) (g : Fin 512) (d : Fin 64) :
    poolT h seg (ix2 g d) = Cert.Spec.pool (act h) (fun n => seg (ix1 n)) g d := by
  unfold poolT Host.scatterAdd
  rw [Ideal.hostScatterAdd_def]
  unfold Ideal.hostScatterAdd
  rw [broadcastInDim_scalar_apply, constant_apply, Cert.Spec.ofBits_zero, zero_add, Finset.sum_filter, sum_idx2]
  change _ = ∑ n : Fin 50000, if seg (ix1 n) = BitVec.ofNat 32 g.val then act h n d else 0
  refine Finset.sum_congr rfl fun n _ => ?_
  have hcond : ∀ k : Fin 64,
      (scatter_S512x64_S50000x1_S50000x64_1_0_0_1.resultIdx? (ix2 n k) (broadcastInDim S50000x1 ![0] bcast_S50000_S50000x1_0 seg) = some (ix2 g d))
        ↔ (seg (ix1 n) = BitVec.ofNat 32 g.val ∧ k = d) := by
    intro k
    rw [pool_resultIdx]
    show (broadcastInDim S50000x1 ![0] bcast_S50000_S50000x1_0 seg (ix2 n (0 : Fin 1))).toInt = (g.val : Int) ∧ k = d ↔ _
    rw [segcol_apply, word_eq_of_toInt]
  simp only [hcond]
  by_cases hs : seg (ix1 n) = BitVec.ofNat 32 g.val
  · simp only [hs, true_and, if_true]
    rw [Finset.sum_ite_eq' Finset.univ d (fun k => h (ix2 n k)), if_pos (Finset.mem_univ d)]
    rfl
  · simp only [hs, false_and, if_false]
    exact Finset.sum_const_zero

section Lists
variable {F : FTy → Type} [FloatOps F]

/-- The layer's first stretch: the neighbour sum of the previous features, the first linear map, the two rows the first normalisation scales and shifts by. -/
abbrev opsA : List (HloOp τ sig (Elt F)) :=
  [ StableHlo.nullary main_c_10 (constantI S_ 32 0#32),
    StableHlo.unary main_c_10 main_v82 (broadcastInDim S800000 ![] bcast_S_S800000 : (⟨S_, .i32⟩ : BufTy).Contents (Elt F) → (⟨S800000, .i32⟩ : BufTy).Contents (Elt F)),
    StableHlo.binary main_v1 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v84 (broadcastInDim S800000 ![] bcast_S_S800000 : (⟨S_, .i32⟩ : BufTy).Contents (Elt F) → (⟨S800000, .i32⟩ : BufTy).Contents (Elt F)),
    StableHlo.binary main_v1 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v78 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_12 (constant S_ .f32 0x00000000#32),
    StableHlo.unary main_cst_12 main_v89 (broadcastInDim S50000x64 ![] bcast_S_S50000x64 : (⟨S_, .f32⟩ : BufTy).Contents (Elt F) → (⟨S50000x64, .f32⟩ : BufTy).Contents (Elt F)),
    StableHlo.unary main_v3 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v78 main_v91 main_v92 (addf : (⟨S50000x64, .f32⟩ : BufTy).Contents (Elt F) → (⟨S50000x64, .f32⟩ : BufTy).Contents (Elt F) → (⟨S50000x64, .f32⟩ : BufTy).Contents (Elt F)),
    StableHlo.unary main_arg3 main_v93 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v93 main_v94 rfl shapeCasts_S1x64x64_S64x64,
    StableHlo.binary main_v92 main_v94 main_v95 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v96 ((extractStridedSlice S1x64 ![1, 0] · slices_S3x64_S1x64_1_0) : (⟨S3x64, .f32⟩ : BufTy).Contents (Elt F) → (⟨S1x64, .f32⟩ : BufTy).Contents (Elt F)),
    StableHlo.reshape main_v96 main_v97 rfl shapeCasts_S1x64_S64,
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v95 main_v99 main_v100 (addf : (⟨S50000x64, .f32⟩ : BufTy).Contents (Elt F) → (⟨S50000x64, .f32⟩ : BufTy).Contents (Elt F) → (⟨S50000x64, .f32⟩ : BufTy).Contents (Elt F)),
    StableHlo.unary main_arg5 main_v101 ((extractStridedSlice S1x64 ![1, 0] · slices_S3x64_S1x64_1_0) : (⟨S3x64, .f32⟩ : BufTy).Contents (Elt F) → (⟨S1x64, .f32⟩ : BufTy).Contents (Elt F)),
    StableHlo.reshape main_v101 main_v102 rfl shapeCasts_S1x64_S64,
    StableHlo.unary main_arg6 main_v103 ((extractStridedSlice S1x64 ![1, 0] · slices_S3x64_S1x64_1_0) : (⟨S3x64, .f32⟩ : BufTy).Contents (Elt F) → (⟨S1x64, .f32⟩ : BufTy).Contents (Elt F)),
    StableHlo.reshape main_v103 main_v104 rfl shapeCasts_S1x64_S64 ]

/-- The first normalisation and clip. -/
abbrev opsB : List (HloOp τ sig (Elt F)) :=
  [ StableHlo.nullary main_cst_13 (constant S_ .f32 0x00000000#32),
    StableHlo.binary main_v100 main_cst_13 main_v105 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_14 (constant S_ .f32 0x47435000#32),
    StableHlo.unary main_cst_14 main_v106 (broadcastInDim S64 ![] bcast_S_S64 : (⟨S_, .f32⟩ : BufTy).Contents (Elt F) → (⟨S64, .f32⟩ : BufTy).Contents (Elt F)),
    StableHlo.binary main_v105 main_v106 main_v107 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call4.cst (constant S_ .f32 0x00000000#32),
    StableHlo.TRef.binary (.of main_v100) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v100) main_call4.v4 main_call4.v5 subf,
    StableHlo.TRef.binary main_call4.v5 main_call4.v5 main_call4.v6 mulf,
    StableHlo.TRef.unary (.of main_c_15) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v107 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v110 main_v111 (subf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x3727C5AC#32),
    StableHlo.unary main_cst_16 main_v112 (broadcastInDim S64 ![] bcast_S_S64 : (⟨S_, .f32⟩ : BufTy).Contents (Elt F) → (⟨S64, .f32⟩ : BufTy).Contents (Elt F)),
    StableHlo.binary main_v108 main_v112 main_v113 (addf : (⟨S64, .f32⟩ : BufTy).Contents (Elt F) → (⟨S64, .f32⟩ : BufTy).Contents (Elt F) → (⟨S64, .f32⟩ : BufTy).Contents (Elt F)),
    StableHlo.unary main_v113 main_v114 (Host.rsqrt : (⟨S64, .f32⟩ : BufTy).Contents (Elt F) → (⟨S64, .f32⟩ : BufTy).Contents (Elt F)),
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v116 main_v117 (mulf : (⟨S50000x64, .f32⟩ : BufTy).Contents (Elt F) → (⟨S50000x64, .f32⟩ : BufTy).Contents (Elt F) → (⟨S50000x64, .f32⟩ : BufTy).Contents (Elt F)),
    StableHlo.unary main_v102 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v119 main_v120 (mulf : (⟨S50000x64, .f32⟩ : BufTy).Contents (Elt F) → (⟨S50000x64, .f32⟩ : BufTy).Contents (Elt F) → (⟨S50000x64, .f32⟩ : BufTy).Contents (Elt F)),
    StableHlo.unary main_v104 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v122 main_v123 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v123) main_call5.v0 main_call5.v1 maximumf ]

/-- The second linear map and the two rows the second normalisation scales and shifts by. -/
abbrev opsC : List (HloOp τ sig (Elt F)) :=
  [ StableHlo.unary main_arg7 main_v125 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v125 main_v126 rfl shapeCasts_S1x64x64_S64x64,
    StableHlo.binary main_v124 main_v126 main_v127 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v128 ((extractStridedSlice S1x64 ![1, 0] · slices_S3x64_S1x64_1_0) : (⟨S3x64, .f32⟩ : BufTy).Contents (Elt F) → (⟨S1x64, .f32⟩ : BufTy).Contents (Elt F)),
    StableHlo.reshape main_v128 main_v129 rfl shapeCasts_S1x64_S64,
    StableHlo.unary main_v129 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v127 main_v131 main_v132 (addf : (⟨S50000x64, .f32⟩ : BufTy).Contents (Elt F) → (⟨S50000x64, .f32⟩ : BufTy).Contents (Elt F) → (⟨S50000x64, .f32⟩ : BufTy).Contents (Elt F)),
    StableHlo.unary main_arg9 main_v133 ((extractStridedSlice S1x64 ![1, 0] · slices_S3x64_S1x64_1_0) : (⟨S3x64, .f32⟩ : BufTy).Contents (Elt F) → (⟨S1x64, .f32⟩ : BufTy).Contents (Elt F)),
    StableHlo.reshape main_v133 main_v134 rfl shapeCasts_S1x64_S64,
    StableHlo.unary main_arg10 main_v135 ((extractStridedSlice S1x64 ![1, 0] · slices_S3x64_S1x64_1_0) : (⟨S3x64, .f32⟩ : BufTy).Contents (Elt F) → (⟨S1x64, .f32⟩ : BufTy).Contents (Elt F)),
    StableHlo.reshape main_v135 main_v136 rfl shapeCasts_S1x64_S64 ]

/-- The second normalisation and clip. -/
abbrev opsD : List (HloOp τ sig (Elt F)) :=
  [ StableHlo.nullary main_cst_17 (constant S_ .f32 0x00000000#32),
    StableHlo.binary main_v132 main_cst_17 main_v137 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_18 (constant S_ .f32 0x47435000#32),
    StableHlo.unary main_cst_18 main_v138 (broadcastInDim S64 ![] bcast_S_S64 : (⟨S_, .f32⟩ : BufTy).Contents (Elt F) → (⟨S64, .f32⟩ : BufTy).Contents (Elt F)),
    StableHlo.binary main_v137 main_v138 main_v139 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call6.cst (constant S_ .f32 0x00000000#32),
    StableHlo.TRef.binary (.of main_v132) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v132) main_call6.v4 main_call6.v5 subf,
    StableHlo.TRef.binary main_call6.v5 main_call6.v5 main_call6.v6 mulf,
    StableHlo.TRef.unary (.of main_c_19) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v139 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S50000x64 ![0, 1] bcast_S1x64_S50000x64_0_1 : (⟨S1x64, .f32⟩ : BufTy).Contents (Elt F) → (⟨S50000x64, .f32⟩ : BufTy).Contents (Elt F)),
    StableHlo.binary main_v132 main_v142 main_v143 (subf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3727C5AC#32),
    StableHlo.unary main_cst_20 main_v144 (broadcastInDim S64 ![] bcast_S_S64 : (⟨S_, .f32⟩ : BufTy).Contents (Elt F) → (⟨S64, .f32⟩ : BufTy).Contents (Elt F)),
    StableHlo.binary main_v140 main_v144 main_v145 (addf : (⟨S64, .f32⟩ : BufTy).Contents (Elt F) → (⟨S64, .f32⟩ : BufTy).Contents (Elt F) → (⟨S64, .f32⟩ : BufTy).Contents (Elt F)),
    StableHlo.unary main_v145 main_v146 (Host.rsqrt : (⟨S64, .f32⟩ : BufTy).Contents (Elt F) → (⟨S64, .f32⟩ : BufTy).Contents (Elt F)),
    StableHlo.unary main_v146 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S50000x64 ![0, 1] bcast_S1x64_S50000x64_0_1 : (⟨S1x64, .f32⟩ : BufTy).Contents (Elt F) → (⟨S50000x64, .f32⟩ : BufTy).Contents (Elt F)),
    StableHlo.binary main_v143 main_v148 main_v149 (mulf : (⟨S50000x64, .f32⟩ : BufTy).Contents (Elt F) → (⟨S50000x64, .f32⟩ : BufTy).Contents (Elt F) → (⟨S50000x64, .f32⟩ : BufTy).Contents (Elt F)),
    StableHlo.unary main_v134 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S50000x64 ![0, 1] bcast_S1x64_S50000x64_0_1 : (⟨S1x64, .f32⟩ : BufTy).Contents (Elt F) → (⟨S50000x64, .f32⟩ : BufTy).Contents (Elt F)),
    StableHlo.binary main_v149 main_v151 main_v152 (mulf : (⟨S50000x64, .f32⟩ : BufTy).Contents (Elt F) → (⟨S50000x64, .f32⟩ : BufTy).Contents (Elt F) → (⟨S50000x64, .f32⟩ : BufTy).Contents (Elt F)),
    StableHlo.unary main_v136 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S50000x64 ![0, 1] bcast_S1x64_S50000x64_0_1 : (⟨S1x64, .f32⟩ : BufTy).Contents (Elt F) → (⟨S50000x64, .f32⟩ : BufTy).Contents (Elt F)),
    StableHlo.binary main_v152 main_v154 main_v155 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v155) main_call7.v0 main_call7.v1 maximumf ]

/-- The pooled table. -/
abbrev opsE : List (HloOp τ sig (Elt F)) :=
  [ StableHlo.nullary main_cst_21 (constant S_ .f32 0x00000000#32),
    StableHlo.unary main_cst_21 main_v157 (broadcastInDim S512x64 ![] bcast_S_S512x64 : (⟨S_, .f32⟩ : BufTy).Contents (Elt F) → (⟨S512x64, .f32⟩ : BufTy).Contents (Elt F)),
    StableHlo.unary main_arg2 main_v158 (broadcastInDim S50000x1 ![0] bcast_S50000_S50000x1_0 : (⟨S50000, .i32⟩ : BufTy).Contents (Elt F) → (⟨S50000x1, .i32⟩ : BufTy).Contents (Elt F)),
    StableHlo.ternary main_v157 main_v158 main_v156 main_v159 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ]

end Lists

/-! ## What each stretch leaves

The fold of a stretch over any contents, read at a result buffer, is the stretch's function of the contents at its operand
buffers. -/

theorem stageA_v100 (X : Valuation τ sig (Elt Ideal)) :
    (after (opsA (F := Ideal)) X (Proc.devRef .tc main_v100) : Layer1.Tab)
      = Layer1.linT (addf (X (Proc.devRef .tc main_v78)) (Layer1.aggT (X (Proc.devRef .tc main_v1)) (X (Proc.devRef .tc main_v3)) (X (Proc.devRef .tc main_v78))))
          (Layer1.matSlice1 (X (Proc.devRef .tc main_arg3))) (Layer1.rowSlice1 (X (Proc.devRef .tc main_arg4))) := by
  after_results_simp
  rfl

theorem stageA_v102 (X : Valuation τ sig (Elt Ideal)) :
    (after (opsA (F := Ideal)) X (Proc.devRef .tc main_v102) : Layer1.RowT) = Layer1.rowSlice1 (X (Proc.devRef .tc main_arg5)) := by
  after_results_simp
  rfl

theorem stageA_v104 (X : Valuation τ sig (Elt Ideal)) :
    (after (opsA (F := Ideal)) X (Proc.devRef .tc main_v104) : Layer1.RowT) = Layer1.rowSlice1 (X (Proc.devRef .tc main_arg6)) := by
  after_results_simp
  rfl

theorem stageC_v132 (X : Valuation τ sig (Elt Ideal)) :
    (after (opsC (F := Ideal)) X (Proc.devRef .tc main_v132) : Layer1.Tab)
      = Layer1.linT (X (Proc.devRef .tc main_v124)) (Layer1.matSlice1 (X (Proc.devRef .tc main_arg7))) (Layer1.rowSlice1 (X (Proc.devRef .tc main_arg8))) := by
  after_results_simp
  rfl

theorem stageC_v134 (X : Valuation τ sig (Elt Ideal)) :
    (after (opsC (F := Ideal)) X (Proc.devRef .tc main_v134) : Layer1.RowT) = Layer1.rowSlice1 (X (Proc.devRef .tc main_arg9)) := by
  after_results_simp
  rfl

theorem stageC_v136 (X : Valuation τ sig (Elt Ideal)) :
    (after (opsC (F := Ideal)) X (Proc.devRef .tc main_v136) : Layer1.RowT) = Layer1.rowSlice1 (X (Proc.devRef .tc main_arg10)) := by
  after_results_simp
  rfl

theorem stageE_v159 (X : Valuation τ sig (Elt Ideal)) :
    (after (opsE (F := Ideal)) X (Proc.devRef .tc main_v159) : FVec Ideal S512x64 .f32)
      = Layer1.poolT (X (Proc.devRef .tc main_v156)) (X (Proc.devRef .tc main_arg2)) := by
  after_results_simp
  rfl

theorem stageE_v156 (X : Valuation τ sig (Elt Ideal)) :
    after (opsE (F := Ideal)) X (Proc.devRef .tc main_v156) = X (Proc.devRef .tc main_v156) := by
  after_results_simp

set_option maxHeartbeats 1000000 in
theorem stageB_v124 (X : Valuation τ sig (Elt Ideal)) :
    (after (opsB (F := Ideal)) X (Proc.devRef .tc main_v124) : Layer1.Tab)
      = Layer1.bnT (X (Proc.devRef .tc main_v100)) (X (Proc.devRef .tc main_v102)) (X (Proc.devRef .tc main_v104)) := by
  after_results_simp
  rfl

set_option maxHeartbeats 1000000 in
theorem stageD_v156 (X : Valuation τ sig (Elt Ideal)) :
    (after (opsD (F := Ideal)) X (Proc.devRef .tc main_v156) : Layer1.Tab)
      = Layer1.bnT (X (Proc.devRef .tc main_v132)) (X (Proc.devRef .tc main_v134)) (X (Proc.devRef .tc main_v136)) := by
  after_results_simp
  rfl

/-! ## The stretches are the run's own operations -/

theorem opsA_eq : (ops1 (F := Ideal)).drop 57 = opsA := rfl
theorem opsB_eq : (ops2 (F := Ideal)).take 47 = opsB := rfl
theorem opsC_eq : ((ops2 (F := Ideal)).drop 47).take 12 = opsC := rfl
theorem opsD_eq : (ops2 (F := Ideal)).drop 59 = opsD := rfl
theorem opsE_eq : (ops3 (F := Ideal)).take 4 = opsE := rfl
theorem ops2_eq : (ops2 (F := Ideal)) = opsB ++ (opsC ++ opsD) := rfl

/-! ## The edge words at the first cut -/

set_option maxHeartbeats 1000000 in
theorem ops0_v1 (V : Valuation τ sig (Elt Ideal)) :
    (after (ops0 (F := Ideal)) V (Proc.devRef .tc main_v1) : IVec S800000 32) = Layer1.srcOf (V (Proc.devRef .tc main_arg1)) := by
  delta ops0
  after_results_simp
  rfl

set_option maxHeartbeats 1000000 in
theorem ops0_v3 (V : Valuation τ sig (Elt Ideal)) :
    (after (ops0 (F := Ideal)) V (Proc.devRef .tc main_v3) : IVec S800000 32) = Layer1.dstOf (V (Proc.devRef .tc main_arg1)) := by
  delta ops0
  after_results_simp
  rfl

/-- A line inside a longer one writes no buffer the longer one does not. -/
theorem after_sub_keep {W : List (Ref sig .tc)} {r : Ref sig .tc} (l l' : List (HloOp τ sig (Elt Ideal))) (hsub : ∀ op ∈ l', op ∈ l)
    (V : Valuation τ sig (Elt Ideal)) (hW : l.Forall fun op => op.writes ⊆ (W.map (Proc.devRef (τ := τ) .tc)).toFinset) (hr : r ∉ W) :
    after l' V (Proc.devRef .tc r) = V (Proc.devRef .tc r) :=
  after_of_writes_sub l' V
    (List.forall_iff_forall_mem.mpr fun op h => List.forall_iff_forall_mem.mp hW op (hsub op h)) hr

/-- The second cut is the five stretches run in turn from the first. -/
theorem Y2_eq (m : Mem) (c : Dev nD) :
    Y2 m c = after opsE (after opsD (after opsC (after opsB (after opsA (Y1 m c))))) := by
  unfold Y2
  rw [opsA_eq, opsE_eq, ops2_eq, StableHlo.after_append, StableHlo.after_append]

/-- A buffer the second window's list of written buffers does not hold goes through the first stretch. -/
theorem keepA (r : Ref sig .tc) (hr : r ∉ ops1_W) (V : Valuation τ sig (Elt Ideal)) :
    after (opsA (F := Ideal)) V (Proc.devRef .tc r) = V (Proc.devRef .tc r) := by
  rw [← opsA_eq]; exact after_drop_keep 57 ops1 V ops1_writes hr

/-- A buffer the third window's list of written buffers does not hold goes through the three stretches of that window. -/
theorem keepB (r : Ref sig .tc) (hr : r ∉ ops2_W) (V : Valuation τ sig (Elt Ideal)) :
    after (opsB (F := Ideal)) V (Proc.devRef .tc r) = V (Proc.devRef .tc r) := by
  rw [← opsB_eq]; exact after_take_keep 47 ops2 V ops2_writes hr

theorem keepC (r : Ref sig .tc) (hr : r ∉ ops2_W) (V : Valuation τ sig (Elt Ideal)) :
    after (opsC (F := Ideal)) V (Proc.devRef .tc r) = V (Proc.devRef .tc r) := by
  rw [← opsC_eq]
  exact after_sub_keep ops2 _ (fun op h => List.mem_of_mem_drop (List.mem_of_mem_take h)) V ops2_writes hr

theorem keepD (r : Ref sig .tc) (hr : r ∉ ops2_W) (V : Valuation τ sig (Elt Ideal)) :
    after (opsD (F := Ideal)) V (Proc.devRef .tc r) = V (Proc.devRef .tc r) := by
  rw [← opsD_eq]; exact after_drop_keep 59 ops2 V ops2_writes hr

/-- The sources, as the first cut holds them. -/
theorem Y1_v1 (m : Mem) (c : Dev nD) :
    (Y1 m c (Proc.devRef .tc main_v1) : IVec S800000 32) = Layer1.srcOf (V0 m c (Proc.devRef .tc main_arg1)) := by
  unfold Y1
  rw [after_take_keep 57 ops1 _ ops1_writes (by decide)]
  exact ops0_v1 _

/-- The destinations, as the first cut holds them. -/
theorem Y1_v3 (m : Mem) (c : Dev nD) :
    (Y1 m c (Proc.devRef .tc main_v3) : IVec S800000 32) = Layer1.dstOf (V0 m c (Proc.devRef .tc main_arg1)) := by
  unfold Y1
  rw [after_take_keep 57 ops1 _ ops1_writes (by decide)]
  exact ops0_v3 _

/-! ## The layer -/

section Layer

variable (m : Mem) (c : Dev nD)

/-- Layer 1's parameters, sliced out of a cut that holds the argument stacks as launched, are the specification's. -/
theorem params_W1 (X : Valuation τ sig (Elt Ideal)) (h : X (Proc.devRef .tc main_arg3) = V0 m c (Proc.devRef .tc main_arg3)) :
    Layer1.mat (Layer1.matSlice1 (X (Proc.devRef .tc main_arg3))) = (paramsR m c).W1 1 := by
  funext k d; show Layer1.matSlice1 _ (ix2 k d) = _; rw [Layer1.matSlice1_apply, h]; rfl
theorem params_b1 (X : Valuation τ sig (Elt Ideal)) (h : X (Proc.devRef .tc main_arg4) = V0 m c (Proc.devRef .tc main_arg4)) :
    Layer1.row (Layer1.rowSlice1 (X (Proc.devRef .tc main_arg4))) = (paramsR m c).b1 1 := by
  funext d; show Layer1.rowSlice1 _ (ix1 d) = _; rw [Layer1.rowSlice1_apply, h]; rfl
theorem params_g1 (X : Valuation τ sig (Elt Ideal)) (h : X (Proc.devRef .tc main_arg5) = V0 m c (Proc.devRef .tc main_arg5)) :
    Layer1.row (Layer1.rowSlice1 (X (Proc.devRef .tc main_arg5))) = (paramsR m c).g1 1 := by
  funext d; show Layer1.rowSlice1 _ (ix1 d) = _; rw [Layer1.rowSlice1_apply, h]; rfl
theorem params_bt1 (X : Valuation τ sig (Elt Ideal)) (h : X (Proc.devRef .tc main_arg6) = V0 m c (Proc.devRef .tc main_arg6)) :
    Layer1.row (Layer1.rowSlice1 (X (Proc.devRef .tc main_arg6))) = (paramsR m c).bt1 1 := by
  funext d; show Layer1.rowSlice1 _ (ix1 d) = _; rw [Layer1.rowSlice1_apply, h]; rfl
theorem params_W2 (X : Valuation τ sig (Elt Ideal)) (h : X (Proc.devRef .tc main_arg7) = V0 m c (Proc.devRef .tc main_arg7)) :
    Layer1.mat (Layer1.matSlice1 (X (Proc.devRef .tc main_arg7))) = (paramsR m c).W2 1 := by
  funext k d; show Layer1.matSlice1 _ (ix2 k d) = _; rw [Layer1.matSlice1_apply, h]; rfl
theorem params_b2 (X : Valuation τ sig (Elt Ideal)) (h : X (Proc.devRef .tc main_arg8) = V0 m c (Proc.devRef .tc main_arg8)) :
    Layer1.row (Layer1.rowSlice1 (X (Proc.devRef .tc main_arg8))) = (paramsR m c).b2 1 := by
  funext d; show Layer1.rowSlice1 _ (ix1 d) = _; rw [Layer1.rowSlice1_apply, h]; rfl
theorem params_go (X : Valuation τ sig (Elt Ideal)) (h : X (Proc.devRef .tc main_arg9) = V0 m c (Proc.devRef .tc main_arg9)) :
    Layer1.row (Layer1.rowSlice1 (X (Proc.devRef .tc main_arg9))) = (paramsR m c).go 1 := by
  funext d; show Layer1.rowSlice1 _ (ix1 d) = _; rw [Layer1.rowSlice1_apply, h]; rfl
theorem params_bo (X : Valuation τ sig (Elt Ideal)) (h : X (Proc.devRef .tc main_arg10) = V0 m c (Proc.devRef .tc main_arg10)) :
    Layer1.row (Layer1.rowSlice1 (X (Proc.devRef .tc main_arg10))) = (paramsR m c).bo 1 := by
  funext d; show Layer1.rowSlice1 _ (ix1 d) = _; rw [Layer1.rowSlice1_apply, h]; rfl

/-- The layer's input with its neighbour sum, read off a cut that holds the previous features and the edge words. -/
theorem input_sum (H : Cert.Spec.Act) (X : Valuation τ sig (Elt Ideal))
    (h78 : (X (Proc.devRef .tc main_v78) : Layer1.Tab) = fun i => H (i 0) (i 1))
    (h1 : (X (Proc.devRef .tc main_v1) : IVec S800000 32) = Layer1.srcOf (V0 m c (Proc.devRef .tc main_arg1)))
    (h3 : (X (Proc.devRef .tc main_v3) : IVec S800000 32) = Layer1.dstOf (V0 m c (Proc.devRef .tc main_arg1))) :
    Layer1.act (addf (X (Proc.devRef .tc main_v78))
        (Layer1.aggT (X (Proc.devRef .tc main_v1)) (X (Proc.devRef .tc main_v3)) (X (Proc.devRef .tc main_v78))))
      = fun n k => H n k + aggR m c H n k := by
  funext n k
  show addf _ _ (ix2 n k) = _
  rw [addf_apply, h78, h1, h3]
  rfl

end Layer

end Layer1

open Layer1 in
set_option maxHeartbeats 1000000 in
/-- Layer 1 of the reference, from the previous layer's features at the first cut: its features and its pooled table at
    the second cut are the specification's, the variance centred. -/
theorem layer1_value (m : Mem) (c : Dev nD) (H : Cert.Spec.Act)
    (hH : ∀ n d, (Y1 m c (Proc.devRef .tc main_v78) : S50000x64.Idx → EReal) (ix2 n d) = H n d) :
    let P := paramsR m c
    let F := Cert.Spec.layerWith Cert.Spec.varCentred (aggR m c) H (P.W1 1) (P.b1 1) (P.g1 1) (P.bt1 1) (P.W2 1) (P.b2 1) (P.go 1) (P.bo 1)
    (∀ n d, (Y2 m c (Proc.devRef .tc main_v156) : S50000x64.Idx → EReal) (ix2 n d) = F n d)
      ∧ (∀ g d, (Y2 m c (Proc.devRef .tc main_v159) : S512x64.Idx → EReal) (ix2 g d) = Cert.Spec.pool F (segR m c) g d) := by
  intro P F
  have h78 : (Y1 m c (Proc.devRef .tc main_v78) : Layer1.Tab) = fun i => H (i 0) (i 1) :=
    funext fun i => (congrArg (Y1 m c (Proc.devRef .tc main_v78) : Layer1.Tab) (eq_ix2 i)).trans (hH (i 0) (i 1))
  have h1 := Y1_v1 m c
  have h3 := Y1_v3 m c
  have hA2 := Y1_keep m c main_arg2 (by decide) (by decide)
  have hW1 := params_W1 m c (Y1 m c) (Y1_keep m c main_arg3 (by decide) (by decide))
  have hb1 := params_b1 m c (Y1 m c) (Y1_keep m c main_arg4 (by decide) (by decide))
  have hg1 := params_g1 m c (Y1 m c) (Y1_keep m c main_arg5 (by decide) (by decide))
  have hbt1 := params_bt1 m c (Y1 m c) (Y1_keep m c main_arg6 (by decide) (by decide))
  have hW2 := params_W2 m c (Y1 m c) (Y1_keep m c main_arg7 (by decide) (by decide))
  have hb2 := params_b2 m c (Y1 m c) (Y1_keep m c main_arg8 (by decide) (by decide))
  have hgo := params_go m c (Y1 m c) (Y1_keep m c main_arg9 (by decide) (by decide))
  have hbo := params_bo m c (Y1 m c) (Y1_keep m c main_arg10 (by decide) (by decide))
  have hZ := input_sum m c H (Y1 m c) h78 h1 h3
  rw [Y2_eq]
  generalize Y1 m c = X0 at hA2 hW1 hb1 hg1 hbt1 hW2 hb2 hgo hbo hZ ⊢
  clear h78 h1 h3 hH
  -- the stages, each read as the specification's
  have hy1 : Layer1.act (after (opsA (F := Ideal)) X0 (Proc.devRef .tc main_v100))
      = Cert.Spec.lin (fun n k => H n k + aggR m c H n k) (P.W1 1) (P.b1 1) := by
    funext n d
    show (after (opsA (F := Ideal)) X0 (Proc.devRef .tc main_v100) : Layer1.Tab) (ix2 n d) = _
    rw [stageA_v100, Layer1.linT_apply, hZ, hW1, hb1]
  generalize hX1 : after (opsA (F := Ideal)) X0 = X1 at hy1
  have hg1' : Layer1.row (X1 (Proc.devRef .tc main_v102)) = P.g1 1 := by rw [← hX1, stageA_v102]; exact hg1
  have hbt1' : Layer1.row (X1 (Proc.devRef .tc main_v104)) = P.bt1 1 := by rw [← hX1, stageA_v104]; exact hbt1
  have hW2' : Layer1.mat (Layer1.matSlice1 (X1 (Proc.devRef .tc main_arg7))) = P.W2 1 := by rw [← hX1, keepA main_arg7 (by decide)]; exact hW2
  have hb2' : Layer1.row (Layer1.rowSlice1 (X1 (Proc.devRef .tc main_arg8))) = P.b2 1 := by rw [← hX1, keepA main_arg8 (by decide)]; exact hb2
  have hgo' : Layer1.row (Layer1.rowSlice1 (X1 (Proc.devRef .tc main_arg9))) = P.go 1 := by rw [← hX1, keepA main_arg9 (by decide)]; exact hgo
  have hbo' : Layer1.row (Layer1.rowSlice1 (X1 (Proc.devRef .tc main_arg10))) = P.bo 1 := by rw [← hX1, keepA main_arg10 (by decide)]; exact hbo
  have hA2' : X1 (Proc.devRef .tc main_arg2) = V0 m c (Proc.devRef .tc main_arg2) := by rw [← hX1, keepA main_arg2 (by decide)]; exact hA2
  clear hX1 hA2 hW1 hb1 hg1 hbt1 hW2 hb2 hgo hbo hZ X0
  have hr1 : Layer1.act (after (opsB (F := Ideal)) X1 (Proc.devRef .tc main_v124))
      = Cert.Spec.normRelu (Cert.Spec.lin (fun n k => H n k + aggR m c H n k) (P.W1 1) (P.b1 1))
          (Cert.Spec.mean (Cert.Spec.lin (fun n k => H n k + aggR m c H n k) (P.W1 1) (P.b1 1)))
          (Cert.Spec.varCentred (Cert.Spec.lin (fun n k => H n k + aggR m c H n k) (P.W1 1) (P.b1 1))) (P.g1 1) (P.bt1 1) := by
    funext n d
    show (after (opsB (F := Ideal)) X1 (Proc.devRef .tc main_v124) : Layer1.Tab) (ix2 n d) = _
    rw [stageB_v124, Layer1.bnT_apply, hy1, hg1', hbt1']
  have hy2 : Layer1.act (after (opsC (F := Ideal)) (after (opsB (F := Ideal)) X1) (Proc.devRef .tc main_v132))
      = Cert.Spec.lin (Cert.Spec.normRelu (Cert.Spec.lin (fun n k => H n k + aggR m c H n k) (P.W1 1) (P.b1 1))
          (Cert.Spec.mean (Cert.Spec.lin (fun n k => H n k + aggR m c H n k) (P.W1 1) (P.b1 1)))
          (Cert.Spec.varCentred (Cert.Spec.lin (fun n k => H n k + aggR m c H n k) (P.W1 1) (P.b1 1))) (P.g1 1) (P.bt1 1)) (P.W2 1) (P.b2 1) := by
    funext n d
    show (after (opsC (F := Ideal)) (after (opsB (F := Ideal)) X1) (Proc.devRef .tc main_v132) : Layer1.Tab) (ix2 n d) = _
    rw [stageC_v132, Layer1.linT_apply, hr1, keepB main_arg7 (by decide), keepB main_arg8 (by decide), hW2', hb2']
  have hF : Layer1.act (after (opsD (F := Ideal)) (after (opsC (F := Ideal)) (after (opsB (F := Ideal)) X1)) (Proc.devRef .tc main_v156)) = F := by
    funext n d
    show (after (opsD (F := Ideal)) (after (opsC (F := Ideal)) (after (opsB (F := Ideal)) X1)) (Proc.devRef .tc main_v156) : Layer1.Tab) (ix2 n d) = _
    rw [stageD_v156, Layer1.bnT_apply, hy2, stageC_v134, stageC_v136, keepB main_arg9 (by decide), keepB main_arg10 (by decide), hgo', hbo']
    rfl
  refine ⟨fun n d => ?_, fun g d => ?_⟩
  · rw [stageE_v156]
    exact congrFun (congrFun hF n) d
  · rw [stageE_v159, Layer1.poolT_apply, hF, keepD main_arg2 (by decide), keepC main_arg2 (by decide), keepB main_arg2 (by decide), hA2']
    rfl

end Cert.ReferenceIdeal.Value

end
-- ==== Proof.Reference.Layer2Core.lean ====
import proofs.«428437_j36421322670670_1_alg».proof.Proof.Reference.Run
import proofs.«428437_j36421322670670_1_alg».proof.Proof.Spec
import proofs.«428437_j36421322670670_1_alg».proof.Proof.LibPlainDot
import Idealize.ShloMosaic.Lib.IdealHost
import Mathlib.Algebra.BigOperators.Fin

/-! # The reference's third layer, stage by stage

From the buffers as the second layer leaves them, the reference aggregates the feature table along the edges, applies
the first linear map, normalises every column by its mean and its centred variance, scales, shifts and clips, applies
the second linear map, normalises and clips again, and sums the rows by segment. Here each stage is read at an index
as the specification's formula over the previous stage, and the stages are chained over arbitrary contents. -/

noncomputable section

namespace Cert.ReferenceIdeal.Value.Layer2

open Cert.ReferenceIdeal Cert.ReferenceIdeal.Gen Idealize.ShloMosaic Idealize.ShloMosaic.TcCoe Idealize.SL.Sem Idealize.ShloMosaic.StableHlo Idealize.ShloMosaic.ValueIdx

/-! ## Bit patterns and layout reads -/

/-- The float pattern of the node count is the real number 50000. -/
theorem nodes_real : Cert.Spec.nodes = ((50000 : ℝ) : EReal) := by
  unfold Cert.Spec.nodes
  simp [Ideal.ofBits, Ideal.ieee, -EReal.coe_mul]; norm_num

/-- A one-row matrix laid down the rows reads, at (n, d), the row at d. -/
theorem rows_apply {α : Type} (w : S1x64.Idx → α) (n : Fin 50000) (d : Fin 64) :
    broadcastInDim S50000x64 ![0, 1] bcast_S1x64_S50000x64_0_1 w (ix2 n d) = w (ix2 (0 : Fin 1) d) :=
  broadcastInDim_apply ![0, 1] bcast_S1x64_S50000x64_0_1 w (ix2 n d) (ix2 (0 : Fin 1) d) (fun a => by
    match a with
    | ⟨0, _⟩ => show (0 : Nat) = if (1 : Nat) = 1 then 0 else _; rw [if_pos rfl]
    | ⟨1, _⟩ => show d.val = if (64 : Nat) = 1 then 0 else d.val; rw [if_neg (by decide)])

/-- A vector recast as a one-row matrix reads, at (0, d), the vector at d. -/
theorem row_apply {α : Type} (v : S64.Idx → α) (d : Fin 64) :
    broadcastInDim S1x64 ![1] bcast_S64_S1x64_1 v (ix2 (0 : Fin 1) d) = v (ix1 d) :=
  broadcastInDim_apply ![1] bcast_S64_S1x64_1 v (ix2 (0 : Fin 1) d) (ix1 d) (fun a => by
    match a with
    | ⟨0, _⟩ => show d.val = if (64 : Nat) = 1 then 0 else d.val; rw [if_neg (by decide)])

/-- Row 2 of a 3 × 64 table as a vector. -/
def row2 (b3 : FVec Ideal S3x64 .f32) : FVec Ideal S64 .f32 :=
  shapeCast S64 (extractStridedSlice S1x64 ![2, 0] b3 slices_S3x64_S1x64_2_0) shapeCasts_S1x64_S64

/-- It reads, at d, the table at (2, d). -/
theorem row2_apply (b3 : FVec Ideal S3x64 .f32) (d : Fin 64) : row2 b3 (ix1 d) = b3 (ix2 (2 : Fin 3) d) := by
  unfold row2
  rw [shapeCast_apply _ shapeCasts_S1x64_S64 (ix1 d) (ix2 (0 : Fin 1) d) (by
    rw [Shape.rowMajor_val_one, Shape.rowMajor_val_two]
    show (0 : Nat) * 64 + d.val = d.val
    omega)]
  exact extractStridedSlice_apply ![2, 0] b3 slices_S3x64_S1x64_2_0 (ix2 (0 : Fin 1) d) (ix2 (2 : Fin 3) d) (fun a => by
    match a with
    | ⟨0, _⟩ => rfl
    | ⟨1, _⟩ => show d.val = 0 + d.val; omega)

/-- Matrix 2 of a 3 × 64 × 64 table as a matrix. -/
def mat2 (W3 : FVec Ideal S3x64x64 .f32) : FVec Ideal S64x64 .f32 :=
  shapeCast S64x64 (extractStridedSlice S1x64x64 ![2, 0, 0] W3 slices_S3x64x64_S1x64x64_2_0_0) shapeCasts_S1x64x64_S64x64

/-- It reads, at (k, d), the table at (2, k, d). -/
theorem mat2_apply (W3 : FVec Ideal S3x64x64 .f32) (k d : Fin 64) : mat2 W3 (ix2 k d) = W3 (ix3 (2 : Fin 3) k d) := by
  unfold mat2
  rw [shapeCast_apply _ shapeCasts_S1x64x64_S64x64 (ix2 k d) (ix3 (0 : Fin 1) k d) (by
    rw [Shape.rowMajor_val_two, Shape.rowMajor_val_three]
    show ((0 : Nat) * 64 + k.val) * 64 + d.val = k.val * 64 + d.val
    omega)]
  exact extractStridedSlice_apply ![2, 0, 0] W3 slices_S3x64x64_S1x64x64_2_0_0 (ix3 (0 : Fin 1) k d) (ix3 (2 : Fin 3) k d) (fun a => by
    match a with
    | ⟨0, _⟩ => rfl
    | ⟨1, _⟩ => show k.val = 0 + k.val; omega
    | ⟨2, _⟩ => show d.val = 0 + d.val; omega)

/-- The reference's sum down the rows from the zero literal, at column d. -/
theorem colsum_apply (y : FVec Ideal S50000x64 .f32) (d : Fin 64) :
    Host.reduceAdd y (constant S_ .f32 0x00000000#32) reducesTo_S50000x64_S64_d0 h_S_ (ix1 d) = ∑ n : Fin 50000, y (ix2 n d) := by
  have hR : S50000x64.Reduces [0] S64 := by decide
  rw [hostReduceAdd_apply, Ideal.hostReduceAdd_single reducesTo_S50000x64_S64_d0 hR, constant_apply, Ideal.ofBits_zero_f32, zero_add]
  refine Finset.sum_congr rfl fun n _ => congrArg y ?_
  funext a
  refine Fin.ext ?_
  match a with
  | ⟨0, _⟩ => rfl
  | ⟨1, _⟩ => rfl

/-- A vector laid down the rows reads, at (n, d), the vector at d. -/
theorem rowsOf_apply {α : Type} (v : S64.Idx → α) (n : Fin 50000) (d : Fin 64) :
    broadcastInDim S50000x64 ![0, 1] bcast_S1x64_S50000x64_0_1 (broadcastInDim S1x64 ![1] bcast_S64_S1x64_1 v) (ix2 n d) = v (ix1 d) := by
  rw [rows_apply, row_apply]

/-! ## The stages as functions of arrays -/

/-- The host's reciprocal square root at an index. -/
theorem hostRsqrt_apply {s : Shape} (x : FVec Ideal s .f32) (i : s.Idx) : Host.rsqrt x i = Ideal.rsqrt (x i) := rfl

/-- The column means as the reference computes them: the sums down the rows over the node count. -/
def meanA (y : FVec Ideal S50000x64 .f32) : FVec Ideal S64 .f32 :=
  Host.divf (Host.reduceAdd y (constant S_ .f32 0x00000000#32) reducesTo_S50000x64_S64_d0 h_S_)
    (broadcastInDim S64 ![] bcast_S_S64 (constant S_ .f32 0x47435000#32))

theorem meanA_apply (y : FVec Ideal S50000x64 .f32) (d : Fin 64) :
    meanA y (ix1 d) = Cert.Spec.mean (fun n k => y (ix2 n k)) d := by
  unfold meanA
  rw [hostDivf_apply, colsum_apply, broadcastInDim_scalar_apply]
  rfl

/-- The table less its column means, the means recomputed as the variance function does. -/
def centreA (y : FVec Ideal S50000x64 .f32) : FVec Ideal S50000x64 .f32 :=
  subf y (broadcastInDim S50000x64 ![0, 1] bcast_S1x64_S50000x64_0_1
    (Host.divf (broadcastInDim S1x64 ![1] bcast_S64_S1x64_1 (Host.reduceAdd y (constant S_ .f32 0x00000000#32) reducesTo_S50000x64_S64_d0 h_S_))
      (broadcastInDim S1x64 ![] bcast_S_S1x64 (constant S_ .f32 0x47435000#32))))

theorem centreA_apply (y : FVec Ideal S50000x64 .f32) (n : Fin 50000) (d : Fin 64) :
    centreA y (ix2 n d) = y (ix2 n d) - Cert.Spec.mean (fun n k => y (ix2 n k)) d := by
  unfold centreA
  rw [subf_apply, rows_apply, hostDivf_apply, row_apply, colsum_apply, broadcastInDim_scalar_apply]
  rfl

/-- The divisor of the variance: the node count less the correction, which is the integer zero. -/
def countA : FVec Ideal S_ .f32 := subf (constant S_ .f32 0x47435000#32) (sitofp .f32 (constantI S_ 32 0#32))

theorem countA_apply : countA ix0 = Cert.Spec.nodes := by
  show Ideal.ofBits .f32 0x47435000#32 - (((0#32 : BitVec 32).toInt : ℝ) : EReal) = Ideal.ofBits .f32 0x47435000#32
  simp

/-- The column variances as the reference computes them: the sums of the squared deviations over the divisor,
    chosen over a junk value because the divisor is positive. -/
def varA (y : FVec Ideal S50000x64 .f32) : FVec Ideal S64 .f32 :=
  select (broadcastInDim S64 ![] bcast_S_S64 (cmpf .ogt countA (constant S_ .f32 0x00000000#32)))
    (Host.divf (Host.reduceAdd (mulf (centreA y) (centreA y)) (constant S_ .f32 0x00000000#32) reducesTo_S50000x64_S64_d0 h_S_)
      (broadcastInDim S64 ![] bcast_S_S64 countA))
    (broadcastInDim S64 ![] bcast_S_S64 (id (constant S_ .f32 0x7FC00000#32)))

theorem nodes_pos : FloatOps.cmpf (F := Ideal) (φ := .f32) .ogt Cert.Spec.nodes 0 = 1#1 := by
  show Ideal.cmp .ogt Cert.Spec.nodes 0 = 1#1
  rw [nodes_real]
  have h : (0 : EReal) < ((50000 : ℝ) : EReal) := by exact_mod_cast (by norm_num : (0 : ℝ) < 50000)
  simp [Ideal.cmp, h]

theorem varA_apply (y : FVec Ideal S50000x64 .f32) (d : Fin 64) :
    varA y (ix1 d) = Cert.Spec.varCentred (fun n k => y (ix2 n k)) d := by
  unfold varA
  rw [select_apply, broadcastInDim_scalar_apply, cmpf_apply, countA_apply, constant_apply, Ideal.ofBits_zero_f32, nodes_pos, select_one,
    hostDivf_apply, colsum_apply, broadcastInDim_scalar_apply, countA_apply]
  unfold Cert.Spec.varCentred
  refine congrArg (fun s => Ideal.div s Cert.Spec.nodes) ?_
  refine Finset.sum_congr rfl fun n _ => ?_
  rw [mulf_apply, centreA_apply]

/-- Normalise by given column means and variances, scale, shift, clip below at zero, as the reference does. -/
def normA (y : FVec Ideal S50000x64 .f32) (mu var g b : FVec Ideal S64 .f32) : FVec Ideal S50000x64 .f32 :=
  maximumf
    (addf
      (mulf
        (mulf (subf y (broadcastInDim S50000x64 ![0, 1] bcast_S1x64_S50000x64_0_1 (broadcastInDim S1x64 ![1] bcast_S64_S1x64_1 mu)))
          (broadcastInDim S50000x64 ![0, 1] bcast_S1x64_S50000x64_0_1 (broadcastInDim S1x64 ![1] bcast_S64_S1x64_1
            (Host.rsqrt (addf var (broadcastInDim S64 ![] bcast_S_S64 (constant S_ .f32 0x3727C5AC#32)))))))
        (broadcastInDim S50000x64 ![0, 1] bcast_S1x64_S50000x64_0_1 (broadcastInDim S1x64 ![1] bcast_S64_S1x64_1 g)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

theorem normA_apply (y : FVec Ideal S50000x64 .f32) (mu var g b : FVec Ideal S64 .f32) (n : Fin 50000) (d : Fin 64) :
    normA y mu var g b (ix2 n d)
      = max ((y (ix2 n d) - mu (ix1 d)) * Ideal.rsqrt (var (ix1 d) + Cert.Spec.eps) * g (ix1 d) + b (ix1 d)) 0 := by
  unfold normA
  rw [maximumf_apply, addf_apply, mulf_apply, mulf_apply, subf_apply, rowsOf_apply, rowsOf_apply, rowsOf_apply, rowsOf_apply,
    hostRsqrt_apply, addf_apply, broadcastInDim_scalar_apply, broadcastInDim_scalar_apply, constant_apply, constant_apply,
    Ideal.ofBits_zero_f32]
  rfl

/-- Normalisation by the table's own column means and centred variances is the specification's. -/
theorem bn_apply (y : FVec Ideal S50000x64 .f32) (g b : FVec Ideal S64 .f32) (n : Fin 50000) (d : Fin 64) :
    normA y (meanA y) (varA y) g b (ix2 n d)
      = Cert.Spec.normRelu (fun n k => y (ix2 n k)) (Cert.Spec.mean (fun n k => y (ix2 n k))) (Cert.Spec.varCentred (fun n k => y (ix2 n k)))
          (fun k => g (ix1 k)) (fun k => b (ix1 k)) n d := by
  rw [normA_apply, meanA_apply, varA_apply]
  rfl

/-- A linear map with bias as the reference computes it: the plain matrix product plus the bias row laid down the rows. -/
def linA (z : FVec Ideal S50000x64 .f32) (W : FVec Ideal S64x64 .f32) (b : FVec Ideal S64 .f32) : FVec Ideal S50000x64 .f32 :=
  addf (Host.dotGeneral dot_S50000x64_S64x64_S50000x64_1_0_0_1_n_n none z W)
    (broadcastInDim S50000x64 ![0, 1] bcast_S1x64_S50000x64_0_1 (broadcastInDim S1x64 ![1] bcast_S64_S1x64_1 b))

theorem linA_apply (z : FVec Ideal S50000x64 .f32) (W : FVec Ideal S64x64 .f32) (b : FVec Ideal S64 .f32) (n : Fin 50000) (d : Fin 64) :
    linA z W b (ix2 n d) = (∑ k : Fin 64, z (ix2 n k) * W (ix2 k d)) + b (ix1 d) := by
  unfold linA
  rw [addf_apply, rows_apply, row_apply]
  congr 1
  exact Cert.LibPlainDot.dotGeneral_plain (M := 50000) (K := 64) (N := 64) none .single z W (ix2 n d)

/-! ### The same readings, from tables known entry by entry -/

theorem bn_apply' (y : FVec Ideal S50000x64 .f32) (g b : FVec Ideal S64 .f32) (Y : Cert.Spec.Act) (G B : Cert.Spec.Row)
    (hY : ∀ n k, y (ix2 n k) = Y n k) (hG : ∀ k, g (ix1 k) = G k) (hB : ∀ k, b (ix1 k) = B k) (n : Fin 50000) (d : Fin 64) :
    normA y (meanA y) (varA y) g b (ix2 n d) = Cert.Spec.normRelu Y (Cert.Spec.mean Y) (Cert.Spec.varCentred Y) G B n d := by
  obtain rfl : (fun n k => y (ix2 n k)) = Y := funext fun n => funext fun k => hY n k
  obtain rfl : (fun k => g (ix1 k)) = G := funext hG
  obtain rfl : (fun k => b (ix1 k)) = B := funext hB
  exact bn_apply y g b n d

theorem lin_apply' (z : FVec Ideal S50000x64 .f32) (W : FVec Ideal S64x64 .f32) (b : FVec Ideal S64 .f32)
    (Z : Cert.Spec.Act) (Wm : Cert.Spec.Mat) (Bv : Cert.Spec.Row)
    (hZ : ∀ n k, z (ix2 n k) = Z n k) (hW : ∀ k d, W (ix2 k d) = Wm k d) (hB : ∀ d, b (ix1 d) = Bv d) (n : Fin 50000) (d : Fin 64) :
    linA z W b (ix2 n d) = Cert.Spec.lin Z Wm Bv n d := by
  rw [linA_apply, hB]
  unfold Cert.Spec.lin
  refine congrArg (· + Bv d) (Finset.sum_congr rfl fun k _ => ?_)
  rw [hZ, hW]

/-! ## The pooled table -/

/-- The pooling scatter's dimension numbers. -/
abbrev DP : ScatterDims S512x64 S50000x1 S50000x64 := scatter_S512x64_S50000x1_S50000x64_1_0_0_1

/-- The pooled table as the reference computes it: the rows scattered, adding, into zeros by the segment words. -/
def poolA (h : FVec Ideal S50000x64 .f32) (seg : IVec S50000 32) : FVec Ideal S512x64 .f32 :=
  Host.scatterAdd DP (broadcastInDim S512x64 ![] bcast_S_S512x64 (constant S_ .f32 0x00000000#32))
    (broadcastInDim S50000x1 ![0] bcast_S50000_S50000x1_0 seg) h

/-- On the segment axis an update's window starts at the signed value of its row's index word. -/
theorem pool_start0 (idx : IVec S50000x1 32) (n : Fin 50000) (e : Fin 64) :
    DP.start (ix2 n e) idx (0 : Fin S512x64.rank) = (idx (ix2 n (0 : Fin 1))).toInt := by
  unfold ScatterDims.start
  rw [dif_pos (show (0 : Fin S512x64.rank) ∈ DP.scatterDimsToOperandDims from List.mem_singleton.mpr rfl)]
  refine congrArg (fun i => (idx i).toInt) ?_
  funext b
  refine Fin.ext ?_
  match b with
  | ⟨0, _⟩ => rfl
  | ⟨1, _⟩ => rfl

/-- On the feature axis it starts at zero. -/
theorem pool_start1 (idx : IVec S50000x1 32) (n : Fin 50000) (e : Fin 64) :
    DP.start (ix2 n e) idx (1 : Fin S512x64.rank) = 0 := by
  unfold ScatterDims.start
  rw [dif_neg (show (1 : Fin S512x64.rank) ∉ DP.scatterDimsToOperandDims by decide)]

/-- The window has no extent on the segment axis. -/
theorem pool_window0 (n : Fin 50000) (e : Fin 64) : DP.window (ix2 n e) (0 : Fin S512x64.rank) = 0 := by
  unfold ScatterDims.window
  rw [dif_neg (show (0 : Fin S512x64.rank) ∉ DP.sKept by decide)]

/-- On the feature axis the window coordinate is the update's column. -/
theorem pool_window1 (n : Fin 50000) (e : Fin 64) : DP.window (ix2 n e) (1 : Fin S512x64.rank) = e.val := by
  unfold ScatterDims.window
  rw [dif_pos (show (1 : Fin S512x64.rank) ∈ DP.sKept by decide)]
  rfl

/-- Update (n, e) lands on (g, d) exactly when row n's index word is g, read signed, and e = d. -/
theorem pool_lands (idx : IVec S50000x1 32) (n : Fin 50000) (e : Fin 64) (g : Fin 512) (d : Fin 64) :
    DP.resultIdx? (ix2 n e) idx = some (ix2 g d) ↔ (idx (ix2 n (0 : Fin 1))).toInt = (g.val : Int) ∧ e = d := by
  unfold ScatterDims.resultIdx?
  split
  · rename_i h
    rw [Option.some.injEq]
    constructor
    · intro hf
      have h0 : (DP.start (ix2 n e) idx (0 : Fin S512x64.rank) + DP.window (ix2 n e) (0 : Fin S512x64.rank)).toNat = g.val :=
        congrArg (fun i : S512x64.Idx => (i (0 : Fin S512x64.rank)).val) hf
      have h1 : (DP.start (ix2 n e) idx (1 : Fin S512x64.rank) + DP.window (ix2 n e) (1 : Fin S512x64.rank)).toNat = d.val :=
        congrArg (fun i : S512x64.Idx => (i (1 : Fin S512x64.rank)).val) hf
      have hh := (h (0 : Fin S512x64.rank)).1
      rw [pool_start0, pool_window0] at h0 hh
      rw [pool_start1, pool_window1] at h1
      exact ⟨by omega, Fin.ext (by omega)⟩
    · rintro ⟨ht, rfl⟩
      funext a
      refine Fin.ext ?_
      match a with
      | ⟨0, _⟩ =>
        show (DP.start (ix2 n e) idx (0 : Fin S512x64.rank) + DP.window (ix2 n e) (0 : Fin S512x64.rank)).toNat = g.val
        rw [pool_start0, pool_window0, ht]; omega
      | ⟨1, _⟩ =>
        show (DP.start (ix2 n e) idx (1 : Fin S512x64.rank) + DP.window (ix2 n e) (1 : Fin S512x64.rank)).toNat = e.val
        rw [pool_start1, pool_window1]; omega
  · rename_i h
    constructor
    · intro hf; exact absurd hf (by simp)
    · rintro ⟨ht, rfl⟩
      refine absurd (fun a => ?_) h
      match a with
      | ⟨0, _⟩ =>
        show 0 ≤ DP.start (ix2 n e) idx (0 : Fin S512x64.rank) + (DP.window (ix2 n e) (0 : Fin S512x64.rank) : Int)
          ∧ DP.start (ix2 n e) idx (0 : Fin S512x64.rank) + (DP.window (ix2 n e) (0 : Fin S512x64.rank) : Int) < ((512 : Nat) : Int)
        rw [pool_start0, pool_window0, ht]
        have := g.isLt
        constructor <;> omega
      | ⟨1, _⟩ =>
        show 0 ≤ DP.start (ix2 n e) idx (1 : Fin S512x64.rank) + (DP.window (ix2 n e) (1 : Fin S512x64.rank) : Int)
          ∧ DP.start (ix2 n e) idx (1 : Fin S512x64.rank) + (DP.window (ix2 n e) (1 : Fin S512x64.rank) : Int) < ((64 : Nat) : Int)
        rw [pool_start1, pool_window1]
        have := e.isLt
        constructor <;> omega

/-- A 32-bit word read signed is g < 512 exactly when it is the word of g. -/
theorem word_eq_iff (x : BitVec 32) (g : Fin 512) : x.toInt = (g.val : Int) ↔ x = BitVec.ofNat 32 g.val := by
  have hx := x.isLt
  have hg := g.isLt
  rw [BitVec.toInt_eq_toNat_cond]
  constructor
  · intro h
    apply BitVec.eq_of_toNat_eq
    rw [BitVec.toNat_ofNat]
    split at h <;> omega
  · intro h
    have hn : x.toNat = g.val := by rw [h, BitVec.toNat_ofNat]; omega
    split <;> omega

/-- The segment words as a one-column matrix read, at (n, 0), the word of row n. -/
theorem segcol_apply (seg : IVec S50000 32) (n : Fin 50000) :
    broadcastInDim S50000x1 ![0] bcast_S50000_S50000x1_0 seg (ix2 n (0 : Fin 1)) = seg (ix1 n) :=
  broadcastInDim_apply ![0] bcast_S50000_S50000x1_0 seg (ix2 n (0 : Fin 1)) (ix1 n) (fun a => by
    match a with
    | ⟨0, _⟩ => show n.val = if (50000 : Nat) = 1 then 0 else n.val; rw [if_neg (by decide)])

/-- The same, from the segment words themselves. -/
theorem pool_lands' (seg : IVec S50000 32) (n : Fin 50000) (e : Fin 64) (g : Fin 512) (d : Fin 64) :
    DP.resultIdx? (ix2 n e) (broadcastInDim S50000x1 ![0] bcast_S50000_S50000x1_0 seg) = some (ix2 g d)
      ↔ seg (ix1 n) = BitVec.ofNat 32 g.val ∧ e = d := by
  rw [pool_lands, segcol_apply, word_eq_iff]

theorem poolA_apply (h : FVec Ideal S50000x64 .f32) (seg : IVec S50000 32) (g : Fin 512) (d : Fin 64) :
    poolA h seg (ix2 g d) = Cert.Spec.pool (fun n k => h (ix2 n k)) (fun n => seg (ix1 n)) g d := by
  show Ideal.hostScatterAdd DP _ _ h (ix2 g d) = _
  unfold Ideal.hostScatterAdd
  rw [broadcastInDim_scalar_apply, constant_apply, Ideal.ofBits_zero_f32, zero_add, Finset.sum_filter, sum_idx2]
  unfold Cert.Spec.pool
  refine Finset.sum_congr rfl fun n _ => ?_
  have key : ∀ e : Fin 64,
      (if DP.resultIdx? (ix2 n e) (broadcastInDim S50000x1 ![0] bcast_S50000_S50000x1_0 seg) = some (ix2 g d) then h (ix2 n e) else 0)
        = if e = d then (if seg (ix1 n) = BitVec.ofNat 32 g.val then h (ix2 n d) else 0) else 0 := by
    intro e
    by_cases he : e = d
    · subst he
      rw [if_pos rfl]
      exact if_congr ((pool_lands' seg n e g e).trans (and_iff_left rfl)) rfl rfl
    · rw [if_neg he]
      exact if_neg fun hc => he ((pool_lands' seg n e g d).mp hc).2
  rw [Finset.sum_congr rfl fun e _ => key e,
    Finset.sum_ite_eq' Finset.univ d (fun _ => if seg (ix1 n) = BitVec.ofNat 32 g.val then h (ix2 n d) else 0),
    if_pos (Finset.mem_univ d)]

theorem pool_apply' (h : FVec Ideal S50000x64 .f32) (seg : IVec S50000 32) (Hh : Cert.Spec.Act) (sg : Fin 50000 → BitVec 32)
    (hh : ∀ n k, h (ix2 n k) = Hh n k) (hs : ∀ n, seg (ix1 n) = sg n) (g : Fin 512) (d : Fin 64) :
    poolA h seg (ix2 g d) = Cert.Spec.pool Hh sg g d := by
  obtain rfl : (fun n k => h (ix2 n k)) = Hh := funext fun n => funext fun k => hh n k
  obtain rfl : (fun n => seg (ix1 n)) = sg := funext hs
  exact poolA_apply h seg g d

/-! ## The layer's operations, window by window

The layer's stretch of @main's line, cut where a table that several later operations read has just been written: the
aggregation, the first linear map and the first normalisation's scale and shift rows; the first normalisation and
clip; the second linear map and the second normalisation's rows; the second normalisation and clip; the pooling. -/

section Windows
variable {F : FTy → Type} [FloatOps F]

/-- The aggregation, the first linear map, and the first normalisation's scale and shift rows. -/
abbrev wA : List (HloOp τ sig (Elt F)) :=
  [ StableHlo.nullary main_c_22 (constantI S_ 32 0#32),
    StableHlo.unary main_c_22 main_v160 (broadcastInDim S800000 ![] bcast_S_S800000 : (⟨S_, .i32⟩ : BufTy).Contents (Elt F) → (⟨S800000, .i32⟩ : BufTy).Contents (Elt F)),
    StableHlo.binary main_v1 main_v160 main_v161 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v162 (broadcastInDim S800000 ![] bcast_S_S800000 : (⟨S_, .i32⟩ : BufTy).Contents (Elt F) → (⟨S800000, .i32⟩ : BufTy).Contents (Elt F)),
    StableHlo.binary main_v1 main_v162 main_v163 (addi : (⟨S800000, .i32⟩ : BufTy).Contents (Elt F) → (⟨S800000, .i32⟩ : BufTy).Contents (Elt F) → (⟨S800000, .i32⟩ : BufTy).Contents (Elt F)),
    StableHlo.ternary main_v161 main_v163 main_v1 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v164 main_v165 (broadcastInDim S800000x1 ![0] bcast_S800000_S800000x1_0 : (⟨S800000, .i32⟩ : BufTy).Contents (Elt F) → (⟨S800000x1, .i32⟩ : BufTy).Contents (Elt F)),
    StableHlo.binary main_v156 main_v165 main_v166 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_24 (constant S_ .f32 0x00000000#32),
    StableHlo.unary main_cst_24 main_v167 (broadcastInDim S50000x64 ![] bcast_S_S50000x64 : (⟨S_, .f32⟩ : BufTy).Contents (Elt F) → (⟨S50000x64, .f32⟩ : BufTy).Contents (Elt F)),
    StableHlo.unary main_v3 main_v168 (broadcastInDim S800000x1 ![0] bcast_S800000_S800000x1_0 : (⟨S800000, .i32⟩ : BufTy).Contents (Elt F) → (⟨S800000x1, .i32⟩ : BufTy).Contents (Elt F)),
    StableHlo.ternary main_v167 main_v168 main_v166 main_v169 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v156 main_v169 main_v170 (addf : (⟨S50000x64, .f32⟩ : BufTy).Contents (Elt F) → (⟨S50000x64, .f32⟩ : BufTy).Contents (Elt F) → (⟨S50000x64, .f32⟩ : BufTy).Contents (Elt F)),
    StableHlo.unary main_arg3 main_v171 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v171 main_v172 rfl shapeCasts_S1x64x64_S64x64,
    StableHlo.binary main_v170 main_v172 main_v173 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v174 ((extractStridedSlice S1x64 ![2, 0] · slices_S3x64_S1x64_2_0) : (⟨S3x64, .f32⟩ : BufTy).Contents (Elt F) → (⟨S1x64, .f32⟩ : BufTy).Contents (Elt F)),
    StableHlo.reshape main_v174 main_v175 rfl shapeCasts_S1x64_S64,
    StableHlo.unary main_v175 main_v176 (broadcastInDim S1x64 ![1] bcast_S64_S1x64_1 : (⟨S64, .f32⟩ : BufTy).Contents (Elt F) → (⟨S1x64, .f32⟩ : BufTy).Contents (Elt F)),
    StableHlo.unary main_v176 main_v177 (broadcastInDim S50000x64 ![0, 1] bcast_S1x64_S50000x64_0_1 : (⟨S1x64, .f32⟩ : BufTy).Contents (Elt F) → (⟨S50000x64, .f32⟩ : BufTy).Contents (Elt F)),
    StableHlo.binary main_v173 main_v177 main_v178 (addf : (⟨S50000x64, .f32⟩ : BufTy).Contents (Elt F) → (⟨S50000x64, .f32⟩ : BufTy).Contents (Elt F) → (⟨S50000x64, .f32⟩ : BufTy).Contents (Elt F)),
    StableHlo.unary main_arg5 main_v179 ((extractStridedSlice S1x64 ![2, 0] · slices_S3x64_S1x64_2_0) : (⟨S3x64, .f32⟩ : BufTy).Contents (Elt F) → (⟨S1x64, .f32⟩ : BufTy).Contents (Elt F)),
    StableHlo.reshape main_v179 main_v180 rfl shapeCasts_S1x64_S64,
    StableHlo.unary main_arg6 main_v181 ((extractStridedSlice S1x64 ![2, 0] · slices_S3x64_S1x64_2_0) : (⟨S3x64, .f32⟩ : BufTy).Contents (Elt F) → (⟨S1x64, .f32⟩ : BufTy).Contents (Elt F)),
    StableHlo.reshape main_v181 main_v182 rfl shapeCasts_S1x64_S64 ]

/-- The first normalisation: column means, centred variances (the variance function's own operations), scale, shift, clip. -/
abbrev wB : List (HloOp τ sig (Elt F)) :=
  [ StableHlo.nullary main_cst_25 (constant S_ .f32 0x00000000#32),
    StableHlo.binary main_v178 main_cst_25 main_v183 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_26 (constant S_ .f32 0x47435000#32),
    StableHlo.unary main_cst_26 main_v184 (broadcastInDim S64 ![] bcast_S_S64 : (⟨S_, .f32⟩ : BufTy).Contents (Elt F) → (⟨S64, .f32⟩ : BufTy).Contents (Elt F)),
    StableHlo.binary main_v183 main_v184 main_v185 (Host.divf : (⟨S64, .f32⟩ : BufTy).Contents (Elt F) → (⟨S64, .f32⟩ : BufTy).Contents (Elt F) → (⟨S64, .f32⟩ : BufTy).Contents (Elt F)),
    StableHlo.nullary main_c_27 (constantI S_ 32 0#32),
    StableHlo.TRef.nullary main_call8.cst (constant S_ .f32 0x00000000#32),
    StableHlo.TRef.binary (.of main_v178) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v178) main_call8.v4 main_call8.v5 subf,
    StableHlo.TRef.binary main_call8.v5 main_call8.v5 main_call8.v6 mulf,
    StableHlo.TRef.unary (.of main_c_27) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v185 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S50000x64 ![0, 1] bcast_S1x64_S50000x64_0_1 : (⟨S1x64, .f32⟩ : BufTy).Contents (Elt F) → (⟨S50000x64, .f32⟩ : BufTy).Contents (Elt F)),
    StableHlo.binary main_v178 main_v188 main_v189 (subf : (⟨S50000x64, .f32⟩ : BufTy).Contents (Elt F) → (⟨S50000x64, .f32⟩ : BufTy).Contents (Elt F) → (⟨S50000x64, .f32⟩ : BufTy).Contents (Elt F)),
    StableHlo.nullary main_cst_28 (constant S_ .f32 0x3727C5AC#32),
    StableHlo.unary main_cst_28 main_v190 (broadcastInDim S64 ![] bcast_S_S64 : (⟨S_, .f32⟩ : BufTy).Contents (Elt F) → (⟨S64, .f32⟩ : BufTy).Contents (Elt F)),
    StableHlo.binary main_v186 main_v190 main_v191 (addf : (⟨S64, .f32⟩ : BufTy).Contents (Elt F) → (⟨S64, .f32⟩ : BufTy).Contents (Elt F) → (⟨S64, .f32⟩ : BufTy).Contents (Elt F)),
    StableHlo.unary main_v191 main_v192 (Host.rsqrt : (⟨S64, .f32⟩ : BufTy).Contents (Elt F) → (⟨S64, .f32⟩ : BufTy).Contents (Elt F)),
    StableHlo.unary main_v192 main_v193 (broadcastInDim S1x64 ![1] bcast_S64_S1x64_1 : (⟨S64, .f32⟩ : BufTy).Contents (Elt F) → (⟨S1x64, .f32⟩ : BufTy).Contents (Elt F)),
    StableHlo.unary main_v193 main_v194 (broadcastInDim S50000x64 ![0, 1] bcast_S1x64_S50000x64_0_1 : (⟨S1x64, .f32⟩ : BufTy).Contents (Elt F) → (⟨S50000x64, .f32⟩ : BufTy).Contents (Elt F)),
    StableHlo.binary main_v189 main_v194 main_v195 (mulf : (⟨S50000x64, .f32⟩ : BufTy).Contents (Elt F) → (⟨S50000x64, .f32⟩ : BufTy).Contents (Elt F) → (⟨S50000x64, .f32⟩ : BufTy).Contents (Elt F)),
    StableHlo.unary main_v180 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S50000x64 ![0, 1] bcast_S1x64_S50000x64_0_1 : (⟨S1x64, .f32⟩ : BufTy).Contents (Elt F) → (⟨S50000x64, .f32⟩ : BufTy).Contents (Elt F)),
    StableHlo.binary main_v195 main_v197 main_v198 (mulf : (⟨S50000x64, .f32⟩ : BufTy).Contents (Elt F) → (⟨S50000x64, .f32⟩ : BufTy).Contents (Elt F) → (⟨S50000x64, .f32⟩ : BufTy).Contents (Elt F)),
    StableHlo.unary main_v182 main_v199 (broadcastInDim S1x64 ![1] bcast_S64_S1x64_1 : (⟨S64, .f32⟩ : BufTy).Contents (Elt F) → (⟨S1x64, .f32⟩ : BufTy).Contents (Elt F)),
    StableHlo.unary main_v199 main_v200 (broadcastInDim S50000x64 ![0, 1] bcast_S1x64_S50000x64_0_1 : (⟨S1x64, .f32⟩ : BufTy).Contents (Elt F) → (⟨S50000x64, .f32⟩ : BufTy).Contents (Elt F)),
    StableHlo.binary main_v198 main_v200 main_v201 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v201) main_call9.v0 main_call9.v1 maximumf ]

/-- The second linear map and the second normalisation's scale and shift rows. -/
abbrev wC : List (HloOp τ sig (Elt F)) :=
  [ StableHlo.unary main_arg7 main_v203 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v203 main_v204 rfl shapeCasts_S1x64x64_S64x64,
    StableHlo.binary main_v202 main_v204 main_v205 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v206 ((extractStridedSlice S1x64 ![2, 0] · slices_S3x64_S1x64_2_0) : (⟨S3x64, .f32⟩ : BufTy).Contents (Elt F) → (⟨S1x64, .f32⟩ : BufTy).Contents (Elt F)),
    StableHlo.reshape main_v206 main_v207 rfl shapeCasts_S1x64_S64,
    StableHlo.unary main_v207 main_v208 (broadcastInDim S1x64 ![1] bcast_S64_S1x64_1 : (⟨S64, .f32⟩ : BufTy).Contents (Elt F) → (⟨S1x64, .f32⟩ : BufTy).Contents (Elt F)),
    StableHlo.unary main_v208 main_v209 (broadcastInDim S50000x64 ![0, 1] bcast_S1x64_S50000x64_0_1 : (⟨S1x64, .f32⟩ : BufTy).Contents (Elt F) → (⟨S50000x64, .f32⟩ : BufTy).Contents (Elt F)),
    StableHlo.binary main_v205 main_v209 main_v210 (addf : (⟨S50000x64, .f32⟩ : BufTy).Contents (Elt F) → (⟨S50000x64, .f32⟩ : BufTy).Contents (Elt F) → (⟨S50000x64, .f32⟩ : BufTy).Contents (Elt F)),
    StableHlo.unary main_arg9 main_v211 ((extractStridedSlice S1x64 ![2, 0] · slices_S3x64_S1x64_2_0) : (⟨S3x64, .f32⟩ : BufTy).Contents (Elt F) → (⟨S1x64, .f32⟩ : BufTy).Contents (Elt F)),
    StableHlo.reshape main_v211 main_v212 rfl shapeCasts_S1x64_S64,
    StableHlo.unary main_arg10 main_v213 ((extractStridedSlice S1x64 ![2, 0] · slices_S3x64_S1x64_2_0) : (⟨S3x64, .f32⟩ : BufTy).Contents (Elt F) → (⟨S1x64, .f32⟩ : BufTy).Contents (Elt F)),
    StableHlo.reshape main_v213 main_v214 rfl shapeCasts_S1x64_S64 ]

/-- The second normalisation: column means, centred variances, scale, shift, clip. -/
abbrev wD : List (HloOp τ sig (Elt F)) :=
  [ StableHlo.nullary main_cst_29 (constant S_ .f32 0x00000000#32),
    StableHlo.binary main_v210 main_cst_29 main_v215 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_30 (constant S_ .f32 0x47435000#32),
    StableHlo.unary main_cst_30 main_v216 (broadcastInDim S64 ![] bcast_S_S64 : (⟨S_, .f32⟩ : BufTy).Contents (Elt F) → (⟨S64, .f32⟩ : BufTy).Contents (Elt F)),
    StableHlo.binary main_v215 main_v216 main_v217 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.TRef.nullary main_call10.cst (constant S_ .f32 0x00000000#32),
    StableHlo.TRef.binary (.of main_v210) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v210) main_call10.v4 main_call10.v5 subf,
    StableHlo.TRef.binary main_call10.v5 main_call10.v5 main_call10.v6 mulf,
    StableHlo.TRef.unary (.of main_c_31) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v217 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S50000x64 ![0, 1] bcast_S1x64_S50000x64_0_1 : (⟨S1x64, .f32⟩ : BufTy).Contents (Elt F) → (⟨S50000x64, .f32⟩ : BufTy).Contents (Elt F)),
    StableHlo.binary main_v210 main_v220 main_v221 (subf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3727C5AC#32),
    StableHlo.unary main_cst_32 main_v222 (broadcastInDim S64 ![] bcast_S_S64 : (⟨S_, .f32⟩ : BufTy).Contents (Elt F) → (⟨S64, .f32⟩ : BufTy).Contents (Elt F)),
    StableHlo.binary main_v218 main_v222 main_v223 (addf : (⟨S64, .f32⟩ : BufTy).Contents (Elt F) → (⟨S64, .f32⟩ : BufTy).Contents (Elt F) → (⟨S64, .f32⟩ : BufTy).Contents (Elt F)),
    StableHlo.unary main_v223 main_v224 (Host.rsqrt : (⟨S64, .f32⟩ : BufTy).Contents (Elt F) → (⟨S64, .f32⟩ : BufTy).Contents (Elt F)),
    StableHlo.unary main_v224 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S50000x64 ![0, 1] bcast_S1x64_S50000x64_0_1 : (⟨S1x64, .f32⟩ : BufTy).Contents (Elt F) → (⟨S50000x64, .f32⟩ : BufTy).Contents (Elt F)),
    StableHlo.binary main_v221 main_v226 main_v227 (mulf : (⟨S50000x64, .f32⟩ : BufTy).Contents (Elt F) → (⟨S50000x64, .f32⟩ : BufTy).Contents (Elt F) → (⟨S50000x64, .f32⟩ : BufTy).Contents (Elt F)),
    StableHlo.unary main_v212 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S50000x64 ![0, 1] bcast_S1x64_S50000x64_0_1 : (⟨S1x64, .f32⟩ : BufTy).Contents (Elt F) → (⟨S50000x64, .f32⟩ : BufTy).Contents (Elt F)),
    StableHlo.binary main_v227 main_v229 main_v230 (mulf : (⟨S50000x64, .f32⟩ : BufTy).Contents (Elt F) → (⟨S50000x64, .f32⟩ : BufTy).Contents (Elt F) → (⟨S50000x64, .f32⟩ : BufTy).Contents (Elt F)),
    StableHlo.unary main_v214 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S50000x64 ![0, 1] bcast_S1x64_S50000x64_0_1 : (⟨S1x64, .f32⟩ : BufTy).Contents (Elt F) → (⟨S50000x64, .f32⟩ : BufTy).Contents (Elt F)),
    StableHlo.binary main_v230 main_v232 main_v233 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v233) main_call11.v0 main_call11.v1 maximumf ]

/-- The pooling: the rows scattered, adding, into zeros by the segment words. -/
abbrev wE : List (HloOp τ sig (Elt F)) :=
  [ StableHlo.nullary main_cst_33 (constant S_ .f32 0x00000000#32),
    StableHlo.unary main_cst_33 main_v235 (broadcastInDim S512x64 ![] bcast_S_S512x64 : (⟨S_, .f32⟩ : BufTy).Contents (Elt F) → (⟨S512x64, .f32⟩ : BufTy).Contents (Elt F)),
    StableHlo.unary main_arg2 main_v236 (broadcastInDim S50000x1 ![0] bcast_S50000_S50000x1_0 : (⟨S50000, .i32⟩ : BufTy).Contents (Elt F) → (⟨S50000x1, .i32⟩ : BufTy).Contents (Elt F)),
    StableHlo.ternary main_v235 main_v236 main_v234 main_v237 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ]

end Windows

/-! ## What each window leaves, as a function of what it finds -/

/-- The aggregation as the reference computes it: the rows of the table gathered by the source words (a negative word
    wrapped by the node count) and scattered, adding, into zeros by the destination words. -/
def aggA (h : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

theorem wA_v178 (X : Valuation τ sig (Elt Ideal)) :
    after wA X (Proc.devRef .tc main_v178)
      = linA (addf (X (Proc.devRef .tc main_v156)) (aggA (X (Proc.devRef .tc main_v156)) (X (Proc.devRef .tc main_v1)) (X (Proc.devRef .tc main_v3))))
          (mat2 (X (Proc.devRef .tc main_arg3))) (row2 (X (Proc.devRef .tc main_arg4))) := by
  unfold wA
  after_results
  rfl

theorem wA_v180 (X : Valuation τ sig (Elt Ideal)) :
    after wA X (Proc.devRef .tc main_v180) = row2 (X (Proc.devRef .tc main_arg5)) := by
  unfold wA
  after_results
  rfl

theorem wA_v182 (X : Valuation τ sig (Elt Ideal)) :
    after wA X (Proc.devRef .tc main_v182) = row2 (X (Proc.devRef .tc main_arg6)) := by
  unfold wA
  after_results
  rfl

theorem wA_keep_arg2 (X : Valuation τ sig (Elt Ideal)) :
    after wA X (Proc.devRef .tc main_arg2) = X (Proc.devRef .tc main_arg2) := by
  unfold wA
  after_results_simp

theorem wA_keep_arg7 (X : Valuation τ sig (Elt Ideal)) :
    after wA X (Proc.devRef .tc main_arg7) = X (Proc.devRef .tc main_arg7) := by
  unfold wA
  after_results_simp

theorem wA_keep_arg8 (X : Valuation τ sig (Elt Ideal)) :
    after wA X (Proc.devRef .tc main_arg8) = X (Proc.devRef .tc main_arg8) := by
  unfold wA
  after_results_simp

theorem wA_keep_arg9 (X : Valuation τ sig (Elt Ideal)) :
    after wA X (Proc.devRef .tc main_arg9) = X (Proc.devRef .tc main_arg9) := by
  unfold wA
  after_results_simp

theorem wA_keep_arg10 (X : Valuation τ sig (Elt Ideal)) :
    after wA X (Proc.devRef .tc main_arg10) = X (Proc.devRef .tc main_arg10) := by
  unfold wA
  after_results_simp

set_option maxHeartbeats 1000000 in
theorem wB_v202 (X : Valuation τ sig (Elt Ideal)) :
    after wB X (Proc.devRef .tc main_v202)
      = normA (X (Proc.devRef .tc main_v178)) (meanA (X (Proc.devRef .tc main_v178))) (varA (X (Proc.devRef .tc main_v178))) (X (Proc.devRef .tc main_v180)) (X (Proc.devRef .tc main_v182)) := by
  unfold wB
  after_results_simp
  rfl

theorem wB_keep_arg2 (X : Valuation τ sig (Elt Ideal)) :
    after wB X (Proc.devRef .tc main_arg2) = X (Proc.devRef .tc main_arg2) := by
  unfold wB
  after_results_simp

theorem wB_keep_arg7 (X : Valuation τ sig (Elt Ideal)) :
    after wB X (Proc.devRef .tc main_arg7) = X (Proc.devRef .tc main_arg7) := by
  unfold wB
  after_results_simp

theorem wB_keep_arg8 (X : Valuation τ sig (Elt Ideal)) :
    after wB X (Proc.devRef .tc main_arg8) = X (Proc.devRef .tc main_arg8) := by
  unfold wB
  after_results_simp

theorem wB_keep_arg9 (X : Valuation τ sig (Elt Ideal)) :
    after wB X (Proc.devRef .tc main_arg9) = X (Proc.devRef .tc main_arg9) := by
  unfold wB
  after_results_simp

theorem wB_keep_arg10 (X : Valuation τ sig (Elt Ideal)) :
    after wB X (Proc.devRef .tc main_arg10) = X (Proc.devRef .tc main_arg10) := by
  unfold wB
  after_results_simp

theorem wC_v210 (X : Valuation τ sig (Elt Ideal)) :
    after wC X (Proc.devRef .tc main_v210) = linA (X (Proc.devRef .tc main_v202)) (mat2 (X (Proc.devRef .tc main_arg7))) (row2 (X (Proc.devRef .tc main_arg8))) := by
  unfold wC
  after_results
  rfl

theorem wC_v212 (X : Valuation τ sig (Elt Ideal)) :
    after wC X (Proc.devRef .tc main_v212) = row2 (X (Proc.devRef .tc main_arg9)) := by
  unfold wC
  after_results
  rfl

theorem wC_v214 (X : Valuation τ sig (Elt Ideal)) :
    after wC X (Proc.devRef .tc main_v214) = row2 (X (Proc.devRef .tc main_arg10)) := by
  unfold wC
  after_results
  rfl

theorem wC_keep_arg2 (X : Valuation τ sig (Elt Ideal)) :
    after wC X (Proc.devRef .tc main_arg2) = X (Proc.devRef .tc main_arg2) := by
  unfold wC
  after_results_simp

set_option maxHeartbeats 1000000 in
theorem wD_v234 (X : Valuation τ sig (Elt Ideal)) :
    after wD X (Proc.devRef .tc main_v234)
      = normA (X (Proc.devRef .tc main_v210)) (meanA (X (Proc.devRef .tc main_v210))) (varA (X (Proc.devRef .tc main_v210))) (X (Proc.devRef .tc main_v212)) (X (Proc.devRef .tc main_v214)) := by
  unfold wD
  after_results_simp
  rfl

theorem wD_keep_arg2 (X : Valuation τ sig (Elt Ideal)) :
    after wD X (Proc.devRef .tc main_arg2) = X (Proc.devRef .tc main_arg2) := by
  unfold wD
  after_results_simp

theorem wE_v237 (X : Valuation τ sig (Elt Ideal)) :
    after wE X (Proc.devRef .tc main_v237) = poolA (X (Proc.devRef .tc main_v234)) (X (Proc.devRef .tc main_arg2)) := by
  unfold wE
  after_results
  rfl

theorem wE_keep_v234 (X : Valuation τ sig (Elt Ideal)) :
    after wE X (Proc.devRef .tc main_v234) = X (Proc.devRef .tc main_v234) := by
  unfold wE
  after_results_simp

/-! ## The layer from what it finds

The five windows in turn, from contents `X` whose feature table, edge words, parameters and segment words are known
entry by entry: the feature table the layer leaves is the specification's layer of the table it finds, and the pooled
table is that table's rows summed by segment. -/

theorem layer_core (X : Valuation τ sig (Elt Ideal)) (H : Cert.Spec.Act) (agg : Cert.Spec.Act → Cert.Spec.Act)
    (W1 : Cert.Spec.Mat) (b1 g1 bt1 : Cert.Spec.Row) (W2 : Cert.Spec.Mat) (b2 go bo : Cert.Spec.Row) (sg : Fin 50000 → BitVec 32)
    (hH : ∀ n d, (X (Proc.devRef .tc main_v156) : S50000x64.Idx → EReal) (ix2 n d) = H n d)
    (hA : ∀ n d, aggA (X (Proc.devRef .tc main_v156)) (X (Proc.devRef .tc main_v1)) (X (Proc.devRef .tc main_v3)) (ix2 n d) = agg H n d)
    (hW1 : ∀ k d, (X (Proc.devRef .tc main_arg3) : S3x64x64.Idx → EReal) (ix3 (2 : Fin 3) k d) = W1 k d)
    (hb1 : ∀ d, (X (Proc.devRef .tc main_arg4) : S3x64.Idx → EReal) (ix2 (2 : Fin 3) d) = b1 d)
    (hg1 : ∀ d, (X (Proc.devRef .tc main_arg5) : S3x64.Idx → EReal) (ix2 (2 : Fin 3) d) = g1 d)
    (hbt1 : ∀ d, (X (Proc.devRef .tc main_arg6) : S3x64.Idx → EReal) (ix2 (2 : Fin 3) d) = bt1 d)
    (hW2 : ∀ k d, (X (Proc.devRef .tc main_arg7) : S3x64x64.Idx → EReal) (ix3 (2 : Fin 3) k d) = W2 k d)
    (hb2 : ∀ d, (X (Proc.devRef .tc main_arg8) : S3x64.Idx → EReal) (ix2 (2 : Fin 3) d) = b2 d)
    (hgo : ∀ d, (X (Proc.devRef .tc main_arg9) : S3x64.Idx → EReal) (ix2 (2 : Fin 3) d) = go d)
    (hbo : ∀ d, (X (Proc.devRef .tc main_arg10) : S3x64.Idx → EReal) (ix2 (2 : Fin 3) d) = bo d)
    (hsg : ∀ n, (X (Proc.devRef .tc main_arg2) : S50000.Idx → BitVec 32) (ix1 n) = sg n) :
    (∀ n d, ((after wE (after wD (after wC (after wB (after wA X))))) (Proc.devRef .tc main_v234) : S50000x64.Idx → EReal) (ix2 n d)
        = Cert.Spec.layerWith Cert.Spec.varCentred agg H W1 b1 g1 bt1 W2 b2 go bo n d)
    ∧ (∀ g d, ((after wE (after wD (after wC (after wB (after wA X))))) (Proc.devRef .tc main_v237) : S512x64.Idx → EReal) (ix2 g d)
        = Cert.Spec.pool (Cert.Spec.layerWith Cert.Spec.varCentred agg H W1 b1 g1 bt1 W2 b2 go bo) sg g d) := by
  have hy1 : ∀ n k, ((after wA X) (Proc.devRef .tc main_v178) : S50000x64.Idx → EReal) (ix2 n k)
      = Cert.Spec.lin (fun n k => H n k + agg H n k) W1 b1 n k := fun n k => by
    rw [wA_v178]
    exact lin_apply' _ _ _ _ _ _ (fun n k => by rw [addf_apply, hH, hA]) (fun k d => by rw [mat2_apply, hW1])
      (fun d => by rw [row2_apply, hb1]) n k
  have hg1' : ∀ k, ((after wA X) (Proc.devRef .tc main_v180) : S64.Idx → EReal) (ix1 k) = g1 k := fun k => by rw [wA_v180, row2_apply, hg1]
  have hbt1' : ∀ k, ((after wA X) (Proc.devRef .tc main_v182) : S64.Idx → EReal) (ix1 k) = bt1 k := fun k => by rw [wA_v182, row2_apply, hbt1]
  have hr1 : ∀ n k, ((after wB (after wA X)) (Proc.devRef .tc main_v202) : S50000x64.Idx → EReal) (ix2 n k)
      = Cert.Spec.normRelu (Cert.Spec.lin (fun n k => H n k + agg H n k) W1 b1)
          (Cert.Spec.mean (Cert.Spec.lin (fun n k => H n k + agg H n k) W1 b1))
          (Cert.Spec.varCentred (Cert.Spec.lin (fun n k => H n k + agg H n k) W1 b1)) g1 bt1 n k := fun n k => by
    rw [wB_v202]
    exact bn_apply' _ _ _ _ _ _ hy1 hg1' hbt1' n k
  have hy2 : ∀ n k, ((after wC (after wB (after wA X))) (Proc.devRef .tc main_v210) : S50000x64.Idx → EReal) (ix2 n k)
      = Cert.Spec.lin (Cert.Spec.normRelu (Cert.Spec.lin (fun n k => H n k + agg H n k) W1 b1)
          (Cert.Spec.mean (Cert.Spec.lin (fun n k => H n k + agg H n k) W1 b1))
          (Cert.Spec.varCentred (Cert.Spec.lin (fun n k => H n k + agg H n k) W1 b1)) g1 bt1) W2 b2 n k := fun n k => by
    rw [wC_v210]
    exact lin_apply' _ _ _ _ _ _ hr1 (fun k d => by rw [mat2_apply, wB_keep_arg7, wA_keep_arg7, hW2])
      (fun d => by rw [row2_apply, wB_keep_arg8, wA_keep_arg8, hb2]) n k
  have hgo' : ∀ k, ((after wC (after wB (after wA X))) (Proc.devRef .tc main_v212) : S64.Idx → EReal) (ix1 k) = go k := fun k => by
    rw [wC_v212, row2_apply, wB_keep_arg9, wA_keep_arg9, hgo]
  have hbo' : ∀ k, ((after wC (after wB (after wA X))) (Proc.devRef .tc main_v214) : S64.Idx → EReal) (ix1 k) = bo k := fun k => by
    rw [wC_v214, row2_apply, wB_keep_arg10, wA_keep_arg10, hbo]
  have hF : ∀ n d, ((after wD (after wC (after wB (after wA X)))) (Proc.devRef .tc main_v234) : S50000x64.Idx → EReal) (ix2 n d)
      = Cert.Spec.layerWith Cert.Spec.varCentred agg H W1 b1 g1 bt1 W2 b2 go bo n d := fun n d => by
    rw [wD_v234]
    exact bn_apply' _ _ _ _ _ _ hy2 hgo' hbo' n d
  refine ⟨fun n d => ?_, fun g d => ?_⟩
  · rw [wE_keep_v234]
    exact hF n d
  · rw [wE_v237]
    exact pool_apply' _ _ _ _ hF (fun n => by rw [wD_keep_arg2, wC_keep_arg2, wB_keep_arg2, wA_keep_arg2, hsg]) g d

end Cert.ReferenceIdeal.Value.Layer2

end
-- ==== Proof.Reference.Layer2.lean ====
import proofs.«428437_j36421322670670_1_alg».proof.Proof.Reference.Inputs
import proofs.«428437_j36421322670670_1_alg».proof.Proof.Reference.Layer2Core

/-! # The reference's third layer in the run

The third cut of the run is the second cut followed by the layer's five windows; the edge words and the arguments are
at the second cut as the first window and the launch left them. So the layer's feature table and pooled table are the
specification's, over the reference's own inputs. -/

noncomputable section

namespace Cert.ReferenceIdeal.Value.Layer2

open Cert.ReferenceIdeal Cert.ReferenceIdeal.Gen Idealize.ShloMosaic Idealize.ShloMosaic.TcCoe Idealize.SL.Sem Idealize.ShloMosaic.StableHlo Idealize.ShloMosaic.ValueIdx

/-! ## The layer in the run -/

/-- The third cut is the second followed by the layer's five windows. -/
theorem Y3_eq (m : Mem) (c : Dev nD) :
    Y3 m c = after wE (after wD (after wC (after wB (after wA (Y2 m c))))) := by
  have h3 : (ops3 (F := Ideal)).drop 4 = wA ++ (wB ++ (wC (F := Ideal)).take 6) := rfl
  have h4 : (ops4 (F := Ideal)).take 57 = (wC (F := Ideal)).drop 6 ++ (wD ++ wE) := rfl
  unfold Y3
  rw [h3, h4]
  simp only [StableHlo.after_append]
  rw [← after_take_drop 6 wC]

/-- The first window leaves the edge words: rows 0 (sources) and 1 (destinations) of the edge list, each as a vector. -/
theorem ops0_edges (V : Valuation τ sig (Elt Ideal)) :
    after ops0 V (Proc.devRef .tc main_v1)
        = shapeCast S800000 (extractStridedSlice S1x800000 ![0, 0] (V (Proc.devRef .tc main_arg1)) slices_S2x800000_S1x800000_0_0)
            shapeCasts_S1x800000_S800000
    ∧ after ops0 V (Proc.devRef .tc main_v3)
        = shapeCast S800000 (extractStridedSlice S1x800000 ![1, 0] (V (Proc.devRef .tc main_arg1)) slices_S2x800000_S1x800000_1_0)
            shapeCasts_S1x800000_S800000 := by
  unfold ops0
  after_results_simp
  exact ⟨rfl, rfl⟩

/-- No later operation writes them: the second cut holds them as the first window left them. -/
theorem Y2_v1 (m : Mem) (c : Dev nD) :
    Y2 m c (Proc.devRef .tc main_v1)
      = shapeCast S800000 (extractStridedSlice S1x800000 ![0, 0] (V0 m c (Proc.devRef .tc main_arg1)) slices_S2x800000_S1x800000_0_0)
          shapeCasts_S1x800000_S800000 := by
  rw [Y2_keep m c main_v1 (by decide) (by decide) (by decide)]
  unfold Y1
  rw [after_take_keep 57 ops1 _ ops1_writes (by decide), (ops0_edges _).1]

theorem Y2_v3 (m : Mem) (c : Dev nD) :
    Y2 m c (Proc.devRef .tc main_v3)
      = shapeCast S800000 (extractStridedSlice S1x800000 ![1, 0] (V0 m c (Proc.devRef .tc main_arg1)) slices_S2x800000_S1x800000_1_0)
          shapeCasts_S1x800000_S800000 := by
  rw [Y2_keep m c main_v3 (by decide) (by decide) (by decide)]
  unfold Y1
  rw [after_take_keep 57 ops1 _ ops1_writes (by decide), (ops0_edges _).2]

/-- A buffer no window writes is at the second cut as launched. -/
theorem Y2_arg (m : Mem) (c : Dev nD) (r : Ref sig .tc) (h0 : r ∉ ops0_W) (h1 : r ∉ ops1_W) (h2 : r ∉ ops2_W) (h3 : r ∉ ops3_W) :
    Y2 m c (Proc.devRef .tc r) = V0 m c (Proc.devRef .tc r) := by
  rw [Y2_keep m c r h1 h2 h3, Y1_keep m c r h0 h1]

end Cert.ReferenceIdeal.Value.Layer2

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx

/-- The reference's third layer: from the second cut, whose feature table is `H`, the run leaves at the third cut the
    specification's layer of `H` with the third set of parameters, the variances centred, and that table's rows summed
    by segment. -/
theorem layer2_value (m : Mem) (c : Dev nD) (H : Cert.Spec.Act)
    (hH : ∀ n d, (Y2 m c (Proc.devRef .tc main_v156) : S50000x64.Idx → EReal) (ix2 n d) = H n d) :
    let P := paramsR m c
    let F := Cert.Spec.layerWith Cert.Spec.varCentred (aggR m c) H (P.W1 2) (P.b1 2) (P.g1 2) (P.bt1 2) (P.W2 2) (P.b2 2) (P.go 2) (P.bo 2)
    (∀ n d, (Y3 m c (Proc.devRef .tc main_v234) : S50000x64.Idx → EReal) (ix2 n d) = F n d)
      ∧ (∀ g d, (Y3 m c (Proc.devRef .tc main_v237) : S512x64.Idx → EReal) (ix2 g d) = Cert.Spec.pool F (segR m c) g d) := by
  intro P F
  rw [Layer2.Y3_eq]
  refine Layer2.layer_core (Y2 m c) H (aggR m c) (P.W1 2) (P.b1 2) (P.g1 2) (P.bt1 2) (P.W2 2) (P.b2 2) (P.go 2) (P.bo 2) (segR m c)
    hH ?_ ?_ ?_ ?_ ?_ ?_ ?_ ?_ ?_ ?_
  · intro n d
    have hT : (Y2 m c (Proc.devRef .tc main_v156) : S50000x64.Idx → EReal) = fun i => H (i 0) (i 1) :=
      funext fun i => (congrArg _ (eq_ix2 i)).trans (hH (i 0) (i 1))
    rw [hT, Layer2.Y2_v1, Layer2.Y2_v3]
    rfl
  · intro k d; rw [Layer2.Y2_arg m c main_arg3 (by decide) (by decide) (by decide) (by decide)]; rfl
  · intro d; rw [Layer2.Y2_arg m c main_arg4 (by decide) (by decide) (by decide) (by decide)]; rfl
  · intro d; rw [Layer2.Y2_arg m c main_arg5 (by decide) (by decide) (by decide) (by decide)]; rfl
  · intro d; rw [Layer2.Y2_arg m c main_arg6 (by decide) (by decide) (by decide) (by decide)]; rfl
  · intro k d; rw [Layer2.Y2_arg m c main_arg7 (by decide) (by decide) (by decide) (by decide)]; rfl
  · intro d; rw [Layer2.Y2_arg m c main_arg8 (by decide) (by decide) (by decide) (by decide)]; rfl
  · intro d; rw [Layer2.Y2_arg m c main_arg9 (by decide) (by decide) (by decide) (by decide)]; rfl
  · intro d; rw [Layer2.Y2_arg m c main_arg10 (by decide) (by decide) (by decide) (by decide)]; rfl
  · intro n; rw [Layer2.Y2_arg m c main_arg2 (by decide) (by decide) (by decide) (by decide)]; rfl

end Cert.ReferenceIdeal.Value

end
-- ==== Proof.Reference.Value.lean ====
import proofs.«428437_j36421322670670_1_alg».proof.Proof.Reference.Layer0
import proofs.«428437_j36421322670670_1_alg».proof.Proof.Reference.Layer1
import proofs.«428437_j36421322670670_1_alg».proof.Proof.Reference.Layer2
import Idealize.ShloMosaic.Lib.Pipeline.Value

/-! # The reference's result

The run is cut after each layer's pooled table. Each cut's feature table is the specification's layer of the previous
cut's, and its pooled table is that table's rows summed by segment; a pooled table, once written, is never written
again; the last operation lays the three pooled tables side by side. So the result, at segment g and column j, is the
pooled table of the layer that j falls in, at j less the columns before it. -/

noncomputable section

namespace Cert.ReferenceIdeal.Value.Result

open Cert.ReferenceIdeal Cert.ReferenceIdeal.Gen Idealize.ShloMosaic Idealize.ShloMosaic.TcCoe Idealize.SL.Sem Idealize.ShloMosaic.StableHlo Idealize.ShloMosaic.ValueIdx

/-! ## A pooled table is written once -/

section
variable {F : FTy → Type} [FloatOps F]

/-- The second window's operations after the one that writes the first pooled table: the second layer's aggregation,
    first linear map, and first normalisation's scale and shift rows. -/
abbrev tail1 : List (HloOp τ sig (Elt F)) :=
  [ StableHlo.nullary main_c_10 (constantI S_ 32 0#32),
    StableHlo.unary main_c_10 main_v82 (broadcastInDim S800000 ![] bcast_S_S800000 : (⟨S_, .i32⟩ : BufTy).Contents (Elt F) → (⟨S800000, .i32⟩ : BufTy).Contents (Elt F)),
    StableHlo.binary main_v1 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v84 (broadcastInDim S800000 ![] bcast_S_S800000 : (⟨S_, .i32⟩ : BufTy).Contents (Elt F) → (⟨S800000, .i32⟩ : BufTy).Contents (Elt F)),
    StableHlo.binary main_v1 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v78 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_12 (constant S_ .f32 0x00000000#32),
    StableHlo.unary main_cst_12 main_v89 (broadcastInDim S50000x64 ![] bcast_S_S50000x64 : (⟨S_, .f32⟩ : BufTy).Contents (Elt F) → (⟨S50000x64, .f32⟩ : BufTy).Contents (Elt F)),
    StableHlo.unary main_v3 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v78 main_v91 main_v92 (addf : (⟨S50000x64, .f32⟩ : BufTy).Contents (Elt F) → (⟨S50000x64, .f32⟩ : BufTy).Contents (Elt F) → (⟨S50000x64, .f32⟩ : BufTy).Contents (Elt F)),
    StableHlo.unary main_arg3 main_v93 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v93 main_v94 rfl shapeCasts_S1x64x64_S64x64,
    StableHlo.binary main_v92 main_v94 main_v95 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v96 ((extractStridedSlice S1x64 ![1, 0] · slices_S3x64_S1x64_1_0) : (⟨S3x64, .f32⟩ : BufTy).Contents (Elt F) → (⟨S1x64, .f32⟩ : BufTy).Contents (Elt F)),
    StableHlo.reshape main_v96 main_v97 rfl shapeCasts_S1x64_S64,
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v95 main_v99 main_v100 (addf : (⟨S50000x64, .f32⟩ : BufTy).Contents (Elt F) → (⟨S50000x64, .f32⟩ : BufTy).Contents (Elt F) → (⟨S50000x64, .f32⟩ : BufTy).Contents (Elt F)),
    StableHlo.unary main_arg5 main_v101 ((extractStridedSlice S1x64 ![1, 0] · slices_S3x64_S1x64_1_0) : (⟨S3x64, .f32⟩ : BufTy).Contents (Elt F) → (⟨S1x64, .f32⟩ : BufTy).Contents (Elt F)),
    StableHlo.reshape main_v101 main_v102 rfl shapeCasts_S1x64_S64,
    StableHlo.unary main_arg6 main_v103 ((extractStridedSlice S1x64 ![1, 0] · slices_S3x64_S1x64_1_0) : (⟨S3x64, .f32⟩ : BufTy).Contents (Elt F) → (⟨S1x64, .f32⟩ : BufTy).Contents (Elt F)),
    StableHlo.reshape main_v103 main_v104 rfl shapeCasts_S1x64_S64 ]

/-- The fifth window's last operation: the three pooled tables side by side. -/
abbrev last4 : List (HloOp τ sig (Elt F)) :=
  [ StableHlo.nary ![main_v81, main_v159, main_v237] main_v238 (fun u => concatenate S512x192 1 [⟨S512x64, u 0⟩, ⟨S512x64, u 1⟩, ⟨S512x64, u 2⟩] concatenates_S512x64_S512x64_S512x64_S512x192_d1) ]

end

theorem ops1_tail : (ops1 (F := Ideal)).drop 57 = tail1 := rfl

theorem ops4_last : (ops4 (F := Ideal)).drop 57 = last4 := rfl

theorem tail1_keep_v81 (X : Valuation τ sig (Elt Ideal)) :
    after tail1 X (Proc.devRef .tc main_v81) = X (Proc.devRef .tc main_v81) := by
  unfold tail1
  after_results_simp

/-- The first layer's pooled table is the same at the second cut as at the first. -/
theorem Y2_v81 (m : Mem) (c : Dev nD) : Y2 m c (Proc.devRef .tc main_v81) = Y1 m c (Proc.devRef .tc main_v81) := by
  unfold Y2
  rw [after_take_keep 4 ops3 _ ops3_writes (by decide), after_of_writes_sub ops2 _ ops2_writes (by decide), ops1_tail, tail1_keep_v81]

/-- … and at the third. -/
theorem Y3_v81 (m : Mem) (c : Dev nD) : Y3 m c (Proc.devRef .tc main_v81) = Y1 m c (Proc.devRef .tc main_v81) := by
  rw [Y3_keep m c main_v81 (by decide) (by decide), Y2_v81]

theorem wA_keep_v159 (X : Valuation τ sig (Elt Ideal)) :
    after Layer2.wA X (Proc.devRef .tc main_v159) = X (Proc.devRef .tc main_v159) := by
  unfold Layer2.wA
  after_results_simp

theorem wB_keep_v159 (X : Valuation τ sig (Elt Ideal)) :
    after Layer2.wB X (Proc.devRef .tc main_v159) = X (Proc.devRef .tc main_v159) := by
  unfold Layer2.wB
  after_results_simp

theorem wC_keep_v159 (X : Valuation τ sig (Elt Ideal)) :
    after Layer2.wC X (Proc.devRef .tc main_v159) = X (Proc.devRef .tc main_v159) := by
  unfold Layer2.wC
  after_results_simp

theorem wD_keep_v159 (X : Valuation τ sig (Elt Ideal)) :
    after Layer2.wD X (Proc.devRef .tc main_v159) = X (Proc.devRef .tc main_v159) := by
  unfold Layer2.wD
  after_results_simp

theorem wE_keep_v159 (X : Valuation τ sig (Elt Ideal)) :
    after Layer2.wE X (Proc.devRef .tc main_v159) = X (Proc.devRef .tc main_v159) := by
  unfold Layer2.wE
  after_results_simp

/-- The second layer's pooled table is the same at the third cut as at the second. -/
theorem Y3_v159 (m : Mem) (c : Dev nD) : Y3 m c (Proc.devRef .tc main_v159) = Y2 m c (Proc.devRef .tc main_v159) := by
  rw [Layer2.Y3_eq, wE_keep_v159, wD_keep_v159, wC_keep_v159, wB_keep_v159, wA_keep_v159]

/-! ## The result is the three pooled tables side by side -/

/-- The whole run is the last operation from the third cut. -/
theorem after_ops_eq_Y3 (m : Mem) (c : Dev nD) : after ops (V0 m c) = after last4 (Y3 m c) := by
  rw [after_ops, after_take_drop 57 ops1, after_take_drop 4 ops3, after_take_drop 57 ops4, ops4_last]
  rfl

theorem res_eq (m : Mem) (c : Dev nD) :
    res m c = concatenate S512x192 1
      [⟨S512x64, (Y3 m c (Proc.devRef .tc main_v81) : S512x64.Idx → EReal)⟩,
       ⟨S512x64, (Y3 m c (Proc.devRef .tc main_v159) : S512x64.Idx → EReal)⟩,
       ⟨S512x64, (Y3 m c (Proc.devRef .tc main_v237) : S512x64.Idx → EReal)⟩]
      concatenates_S512x64_S512x64_S512x64_S512x192_d1 := by
  show after ops (V0 m c) (Proc.devRef .tc main_v238) = _
  rw [after_ops_eq_Y3]
  generalize Y3 m c = Y
  unfold last4
  after_results
  rfl

/-- Three 64-column tables side by side read, at column j, the table that j falls in, at j less the columns before it. -/
theorem concat3_apply (x0 x1 x2 : S512x64.Idx → EReal) (g : Fin 512) (j : Fin 192) :
    concatenate S512x192 1 [⟨S512x64, x0⟩, ⟨S512x64, x1⟩, ⟨S512x64, x2⟩] concatenates_S512x64_S512x64_S512x64_S512x192_d1 (ix2 g j)
      = if h0 : j.val < 64 then x0 (ix2 g ⟨j.val, h0⟩)
        else if h1 : j.val < 128 then x1 (ix2 g ⟨j.val - 64, by omega⟩)
        else x2 (ix2 g ⟨j.val - 128, by omega⟩) := by
  have hj := j.isLt
  by_cases h0 : j.val < 64
  · rw [dif_pos h0]
    exact concatenate_apply_piece (1 : Fin S512x192.rank) [⟨S512x64, x0⟩, ⟨S512x64, x1⟩, ⟨S512x64, x2⟩] concatenates_S512x64_S512x64_S512x64_S512x192_d1 (ix2 g j) 0
      (by show (0 : Nat) < 3; omega) S512x64 x0 rfl rfl 0 rfl (ix2 g ⟨j.val, h0⟩)
      (fun b hb => by
        match b with
        | ⟨0, _⟩ => rfl
        | ⟨1, _⟩ => exact absurd rfl hb)
      (by show 0 + j.val = j.val; omega)
  · rw [dif_neg h0]
    by_cases h1 : j.val < 128
    · rw [dif_pos h1]
      exact concatenate_apply_piece (1 : Fin S512x192.rank) [⟨S512x64, x0⟩, ⟨S512x64, x1⟩, ⟨S512x64, x2⟩] concatenates_S512x64_S512x64_S512x64_S512x192_d1 (ix2 g j) 1
        (by show (1 : Nat) < 3; omega) S512x64 x1 rfl rfl 64 rfl (ix2 g ⟨j.val - 64, by omega⟩)
        (fun b hb => by
          match b with
          | ⟨0, _⟩ => rfl
          | ⟨1, _⟩ => exact absurd rfl hb)
        (by show 64 + (j.val - 64) = j.val; omega)
    · rw [dif_neg h1]
      exact concatenate_apply_piece (1 : Fin S512x192.rank) [⟨S512x64, x0⟩, ⟨S512x64, x1⟩, ⟨S512x64, x2⟩] concatenates_S512x64_S512x64_S512x64_S512x192_d1 (ix2 g j) 2
        (by show (2 : Nat) < 3; omega) S512x64 x2 rfl rfl 128 rfl (ix2 g ⟨j.val - 128, by omega⟩)
        (fun b hb => by
          match b with
          | ⟨0, _⟩ => rfl
          | ⟨1, _⟩ => exact absurd rfl hb)
        (by show 128 + (j.val - 128) = j.val; omega)

end Cert.ReferenceIdeal.Value.Result

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx

/-- The reference's result is the specification's, the variances centred, over the reference's own inputs. -/
theorem ref_value (m : Mem) (c : Dev nD) (g : Fin 512) (j : Fin 192) :
    (res m c : S512x192.Idx → EReal) (ix2 g j)
      = Cert.Spec.result Cert.Spec.varCentred (aggR m c) (xR m c) (paramsR m c) (segR m c) g j := by
  obtain ⟨f1, p1⟩ := layer0_value m c
  obtain ⟨f2, p2⟩ := layer1_value m c _ f1
  obtain ⟨_, p3⟩ := layer2_value m c _ f2
  rw [Result.res_eq, Result.concat3_apply, Result.Y3_v81, Result.Y3_v159]
  unfold Cert.Spec.result
  by_cases h0 : j.val < 64
  · rw [dif_pos h0, dif_pos h0]
    exact p1 g ⟨j.val, h0⟩
  · rw [dif_neg h0, dif_neg h0]
    by_cases h1 : j.val < 128
    · rw [dif_pos h1, dif_pos h1]
      exact p2 g ⟨j.val - 64, by omega⟩
    · rw [dif_neg h1, dif_neg h1]
      exact p3 g ⟨j.val - 128, by omega⟩

end Cert.ReferenceIdeal.Value

end
-- ==== Proof.Bridge.lean ====
import proofs.«428437_j36421322670670_1_alg».proof.Defs
import proofs.«428437_j36421322670670_1_alg».proof.Proof.SpecLaws
import proofs.«428437_j36421322670670_1_alg».proof.Proof.KernelIdeal.Run
import proofs.«428437_j36421322670670_1_alg».proof.Proof.KernelIdeal.Value
import proofs.«428437_j36421322670670_1_alg».proof.Proof.KernelIdeal.Finite
import proofs.«428437_j36421322670670_1_alg».proof.Proof.Reference.Value

/-! # The two idealized programs compute one result

Both programs' results are the specification's `result` of the same inputs — the kernel program's with every column
variance taken from the moments, the reference's with the centred variance. The inputs agree by hypothesis; the two
aggregations are one function of the edge list; under the precondition every float input is a real number, and on
real inputs the two variances, hence the two results, coincide. -/

noncomputable section

namespace Cert.Bridge

open Idealize.ShloMosaic Idealize.ShloMosaic.TcCoe Idealize.ShloMosaic.ValueIdx Idealize.SL.Sem

/-- The reference's launch memory holds the kernel program's arguments (the claim's hypothesis, argument by argument). -/
def Agree (m : Cert.KernelIdeal.Value.Mem) (m' : Cert.ReferenceIdeal.Value.Mem) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m : Cert.KernelIdeal.Value.Mem} {m' : Cert.ReferenceIdeal.Value.Mem}

/-- The node features agree. -/
theorem x_eq (h : Agree m m') (c : Dev Cert.KernelIdeal.nD) : Cert.ReferenceIdeal.Value.xR m' c = Cert.KernelIdeal.Value.xK m c := by
  funext n k
  exact congrFun (h c).1 (ix2 n k)

/-- The segment words agree. -/
theorem seg_eq (h : Agree m m') (c : Dev Cert.KernelIdeal.nD) : Cert.ReferenceIdeal.Value.segR m' c = Cert.KernelIdeal.Value.segK m c := by
  funext n
  exact congrFun (h c).2.2.1 (ix1 n)

/-- The parameters agree. -/
theorem params_eq (h : Agree m m') (c : Dev Cert.KernelIdeal.nD) : Cert.ReferenceIdeal.Value.paramsR m' c = Cert.KernelIdeal.Value.paramsK m c := by
  obtain ⟨-, -, -, h3, h4, h5, h6, h7, h8, h9, h10⟩ := h c
  unfold Cert.ReferenceIdeal.Value.paramsR Cert.KernelIdeal.Value.paramsK
  congr 1
  · funext l k d; exact congrFun h3 (ix3 l k d)
  · funext l d; exact congrFun h4 (ix2 l d)
  · funext l d; exact congrFun h5 (ix2 l d)
  · funext l d; exact congrFun h6 (ix2 l d)
  · funext l k d; exact congrFun h7 (ix3 l k d)
  · funext l d; exact congrFun h8 (ix2 l d)
  · funext l d; exact congrFun h9 (ix2 l d)
  · funext l d; exact congrFun h10 (ix2 l d)

/-- The two programs' aggregations are one function of the edge list and the table: the same operations with the
    same dimension numbers. -/
theorem aggOf_eq (E : Cert.KernelIdeal.S2x800000.Idx → BitVec 32) (T : Cert.KernelIdeal.S50000x64.Idx → EReal) :
    Cert.ReferenceIdeal.Value.aggOf E T = Cert.KernelIdeal.Value.aggOf E T := rfl

/-- The aggregations agree. -/
theorem agg_eq (h : Agree m m') (c : Dev Cert.KernelIdeal.nD) : Cert.ReferenceIdeal.Value.aggR m' c = Cert.KernelIdeal.Value.aggK m c := by
  funext t n k
  have e : (Cert.ReferenceIdeal.Value.V0 m' c (Proc.devRef .tc Cert.ReferenceIdeal.main_arg1) : Cert.KernelIdeal.S2x800000.Idx → BitVec 32)
      = m ((c : Dev Cert.KernelIdeal.nD), Proc.devRef .tc Cert.KernelIdeal.main_arg1) := (h c).2.1
  show Cert.ReferenceIdeal.Value.aggOf (Cert.ReferenceIdeal.Value.V0 m' c (Proc.devRef .tc Cert.ReferenceIdeal.main_arg1)) (fun i => t (i 0) (i 1)) (ix2 n k)
      = Cert.KernelIdeal.Value.aggOf (m ((c : Dev Cert.KernelIdeal.nD), Proc.devRef .tc Cert.KernelIdeal.main_arg1)) (Cert.KernelIdeal.Value.tableOf t) (ix2 n k)
  rw [e]
  exact congrFun (aggOf_eq _ _) (ix2 n k)

/-- Under the precondition the node features are real numbers. -/
theorem x_real [hP : Cert.Pre_finite_inputs.Facts] (hpre : Cert.Pre_KernelIdeal m) (c : Dev Cert.KernelIdeal.nD) :
    Cert.Spec.RealAct (Cert.KernelIdeal.Value.xK m c) :=
  fun n k => (Cert.KernelIdeal.Value.finite_args m hpre c).1 (ix2 n k)

/-- Under the precondition the parameters are real numbers. -/
theorem params_real [hP : Cert.Pre_finite_inputs.Facts] (hpre : Cert.Pre_KernelIdeal m) (c : Dev Cert.KernelIdeal.nD) :
    (Cert.KernelIdeal.Value.paramsK m c).IsReal := by
  obtain ⟨-, h3, h4, h5, h6, h7, h8, h9, h10⟩ := Cert.KernelIdeal.Value.finite_args m hpre c
  exact ⟨fun l k d => h3 (ix3 l k d), fun l d => h4 (ix2 l d), fun l d => h5 (ix2 l d), fun l d => h6 (ix2 l d),
    fun l k d => h7 (ix3 l k d), fun l d => h8 (ix2 l d), fun l d => h9 (ix2 l d), fun l d => h10 (ix2 l d)⟩

/-- The reference's result is the kernel program's, entry by entry. -/
theorem results_agree [hP : Cert.Pre_finite_inputs.Facts] (ρ : Dev Cert.KernelIdeal.nD → PrngReg) (hpre : Cert.Pre_KernelIdeal m) (h : Agree m m')
    (c : Dev Cert.KernelIdeal.nD) :
    (Cert.ReferenceIdeal.Value.res m' c : Cert.KernelIdeal.S512x192.Idx → EReal)
      = Cert.KernelIdeal.Gen.W19 m ρ c (Proc.devRef .tc Cert.KernelIdeal.main_v146) := by
  funext i
  obtain ⟨g, j, rfl⟩ : ∃ (g : Fin 512) (j : Fin 192), i = ix2 g j := ⟨i 0, i 1, eq_ix2 i⟩
  rw [Cert.ReferenceIdeal.Value.ref_value m' c g j, Cert.KernelIdeal.Value.kernel_value m ρ c g j,
    agg_eq h c, x_eq h c, params_eq h c, seg_eq h c]
  exact (congrFun (congrFun (Cert.Spec.result_moments_eq_centred (Cert.KernelIdeal.Value.aggK_real m c) (x_real hpre c)
    (params_real hpre c) (Cert.KernelIdeal.Value.segK m c)) g) j).symm

/-- The kernel program's run with its result and its arguments read off the final state. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v146) = Cert.KernelIdeal.Gen.W19 m ρ c (Proc.devRef .tc Cert.KernelIdeal.main_v146)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) (onTc (τ := Cert.KernelIdeal.τ) (Cert.KernelIdeal.main (F := Ideal))) ⟨m, fun _ => 0, ρ⟩).mono
    (fun r h c => ⟨Cert.KernelIdeal.Gen.result_eq m ρ r h c,
      (h c _ (Cert.KernelIdeal.Gen.mem_uc Cert.KernelIdeal.main_arg0 (by decide))).trans (Cert.KernelIdeal.Gen.W19_main_arg0 m ρ c),
      (h c _ (Cert.KernelIdeal.Gen.mem_uc Cert.KernelIdeal.main_arg1 (by decide))).trans (Cert.KernelIdeal.Gen.W19_main_arg1 m ρ c),
      (h c _ (Cert.KernelIdeal.Gen.mem_uc Cert.KernelIdeal.main_arg2 (by decide))).trans (Cert.KernelIdeal.Gen.W19_main_arg2 m ρ c),
      (h c _ (Cert.KernelIdeal.Gen.mem_uc Cert.KernelIdeal.main_arg3 (by decide))).trans (Cert.KernelIdeal.Gen.W19_main_arg3 m ρ c),
      (h c _ (Cert.KernelIdeal.Gen.mem_uc Cert.KernelIdeal.main_arg4 (by decide))).trans (Cert.KernelIdeal.Gen.W19_main_arg4 m ρ c),
      (h c _ (Cert.KernelIdeal.Gen.mem_uc Cert.KernelIdeal.main_arg5 (by decide))).trans (Cert.KernelIdeal.Gen.W19_main_arg5 m ρ c),
      (h c _ (Cert.KernelIdeal.Gen.mem_uc Cert.KernelIdeal.main_arg6 (by decide))).trans (Cert.KernelIdeal.Gen.W19_main_arg6 m ρ c),
      (h c _ (Cert.KernelIdeal.Gen.mem_uc Cert.KernelIdeal.main_arg7 (by decide))).trans (Cert.KernelIdeal.Gen.W19_main_arg7 m ρ c),
      (h c _ (Cert.KernelIdeal.Gen.mem_uc Cert.KernelIdeal.main_arg8 (by decide))).trans (Cert.KernelIdeal.Gen.W19_main_arg8 m ρ c),
      (h c _ (Cert.KernelIdeal.Gen.mem_uc Cert.KernelIdeal.main_arg9 (by decide))).trans (Cert.KernelIdeal.Gen.W19_main_arg9 m ρ c),
      (h c _ (Cert.KernelIdeal.Gen.mem_uc Cert.KernelIdeal.main_arg10 (by decide))).trans (Cert.KernelIdeal.Gen.W19_main_arg10 m ρ c)⟩)
    (Cert.KernelIdeal.Gen.run_all m ρ)

end Cert.Bridge

end
-- ==== Proof.lean ====
/- The certificate's claim assembled.

   The three programs run to the end with their arguments unchanged: the two kernel programs by the run of @main's
   nineteen items — ten stretches of host operations and nine pipelined regions, each region's body proved at every
   grid point —, the reference by its host operations one after the other. The idealization rewrote nothing. The
   idealized kernel program and the idealized reference end with the same result: both compute the specification's
   three-layer result of the same inputs, the one taking every column variance from the moments, the other centred,
   and on the real inputs the precondition grants these are the same number. -/
import proofs.«428437_j36421322670670_1_alg».proof.Defs
import proofs.«428437_j36421322670670_1_alg».proof.Proof.Gen.Kernel
import proofs.«428437_j36421322670670_1_alg».proof.Proof.Gen.KernelIdeal
import proofs.«428437_j36421322670670_1_alg».proof.Proof.Gen.ReferenceIdeal
import proofs.«428437_j36421322670670_1_alg».proof.Proof.Gen.Pre_finite_inputs
import proofs.«428437_j36421322670670_1_alg».proof.Proof.Kernel.Run
import proofs.«428437_j36421322670670_1_alg».proof.Proof.KernelIdeal.Run
import proofs.«428437_j36421322670670_1_alg».proof.Proof.Reference.Run
import proofs.«428437_j36421322670670_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Value.frame m ρ,
    trivial,
    fun m ρ m' ρ' hpre hagree =>
      ⟨fun c => Cert.KernelIdeal.Gen.W19 m ρ c (Proc.devRef .tc Cert.KernelIdeal.main_v146),
        Cert.Bridge.kernel_run ρ,
        (θ_run (Cert.ReferenceIdeal.defs (F := Ideal)) _ _).mono
          (fun _ h c => ⟨(h c).1.trans (Cert.Bridge.results_agree (hP := Cert.Pre_finite_inputs.Gen.facts) ρ hpre hagree c), (h c).2⟩)
          (Cert.ReferenceIdeal.Value.run (F := Ideal) m' ρ')⟩⟩

end Cert.Proof

end
